-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v343)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v343) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v483) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x11 : Shape := ⟨2, ![10000, 11]⟩
abbrev S10000x3 : Shape := ⟨2, ![10000, 3]⟩
abbrev S2x250000 : Shape := ⟨2, ![2, 250000]⟩
abbrev S10000 : Shape := ⟨1, ![10000]⟩
abbrev S11x128 : Shape := ⟨2, ![11, 128]⟩
abbrev S128 : Shape := ⟨1, ![128]⟩
abbrev S4x257x128 : Shape := ⟨3, ![4, 257, 128]⟩
abbrev S4x128 : Shape := ⟨2, ![4, 128]⟩
abbrev S4x128x128 : Shape := ⟨3, ![4, 128, 128]⟩
abbrev S4x128x1 : Shape := ⟨3, ![4, 128, 1]⟩
abbrev S4x1 : Shape := ⟨2, ![4, 1]⟩
abbrev S4x256x128 : Shape := ⟨3, ![4, 256, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S10000x11 : S_.BroadcastsInDim S10000x11 (![] : Fin 0 → Fin S10000x11.rank)
  reducesTo_S10000x11_S_d0_1 : S10000x11.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S4x257x128 : S_.BroadcastsInDim S4x257x128 (![] : Fin 0 → Fin S4x257x128.rank)
  reducesTo_S4x257x128_S_d0_1_2 : S4x257x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128x1 : S_.BroadcastsInDim S4x128x1 (![] : Fin 0 → Fin S4x128x1.rank)
  reducesTo_S4x128x1_S_d0_1_2 : S4x128x1.ReducesTo [0, 1, 2] S_
  bcast_S_S4x1 : S_.BroadcastsInDim S4x1 (![] : Fin 0 → Fin S4x1.rank)
  reducesTo_S4x1_S_d0_1 : S4x1.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S128x1 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg20
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S4x128 .f32) (main_arg17 : FVec F S4x128 .f32) (main_arg18 : FVec F S128x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S4x128 .f32 := Host.absf main_arg16
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S4x128 .f32 := Host.absf main_arg17
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S4x128 .f32) (main_arg14 : FVec F S4x128x128 .f32) (main_arg15 : FVec F S4x128 .f32) (main_arg16 : FVec F S4x128 .f32) (main_arg17 : FVec F S4x128 .f32) (main_arg18 : FVec F S128x128 .f32) (main_arg19 : FVec F S128 .f32) (main_arg20 : FVec F S128x1 .f32) (main_arg21 : FVec F S1 .f32) (main_v48 : IVec S_ 1) (main_v49 : FVec F S4x256x128 .f32) (main_v50 : FVec F S4x256x128 .f32) : IVec S_ 1 :=
  let main_v51 : IVec S4x256x128 1 := cmpf .olt main_v49 main_v50
  let main_c_19 : IVec S_ 1 := constantI S_ 1 1#1
  let main_v52 : IVec S_ 1 := (fun x v => Host.reduce IntOp.andi x v reducesTo_S4x256x128_S_d0_1_2 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128x128 .f32 := Host.absf main_arg14
  let main_cst_22 : FVec F S_ .f32 := constant S_ .f32 0x7F800000#32
  let main_v60 : FVec F S4x128x128 .f32 := broadcastInDim S4x128x128 ![] bcast_S_S4x128x128 main_cst_22
  let main_v61 : IVec S4x128x128 1 := cmpf .olt main_v59 main_v60
  let main_c_23 : IVec S_ 1 := constantI S_ 1 1#1
  let main_v62 : IVec S_ 1 := (fun x v => Host.reduce IntOp.andi x v reducesTo_S4x128x128_S_d0_1_2 h_S_) main_v61 main_c_23
  let main_v63 : IVec S_ 1 := andi main_v58 main_v62
  let main_v64 : FVec F S4x128 .f32 := Host.absf main_arg15
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg16 main_arg17 main_arg18 main_arg19 main_arg20 main_arg21 main_v63 main_v67

def fn_part2 {F : FTy → Type} [FloatOps F] (main_arg9 : FVec F S4x128 .f32) (main_arg10 : FVec F S4x128x1 .f32) (main_arg11 : FVec F S4x1 .f32) (main_arg12 : FVec F S4x256x128 .f32) (main_arg13 : FVec F S4x128 .f32) (main_arg14 : FVec F S4x128x128 .f32) (main_arg15 : FVec F S4x128 .f32) (main_arg16 : FVec F S4x128 .f32) (main_arg17 : FVec F S4x128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x1 .f32 := Host.absf main_arg10
  let main_cst_14 : FVec F S_ .f32 := constant S_ .f32 0x7F800000#32
  let main_v40 : FVec F S4x128x1 .f32 := broadcastInDim S4x128x1 ![] bcast_S_S4x128x1 main_cst_14
  let main_v41 : IVec S4x128x1 1 := cmpf .olt main_v39 main_v40
  let main_c_15 : IVec S_ 1 := constantI S_ 1 1#1
  let main_v42 : IVec S_ 1 := (fun x v => Host.reduce IntOp.andi x v reducesTo_S4x128x1_S_d0_1_2 h_S_) main_v41 main_c_15
  let main_v43 : IVec S_ 1 := andi main_v38 main_v42
  let main_v44 : FVec F S4x1 .f32 := Host.absf main_arg11
  let main_cst_16 : FVec F S_ .f32 := constant S_ .f32 0x7F800000#32
  let main_v45 : FVec F S4x1 .f32 := broadcastInDim S4x1 ![] bcast_S_S4x1 main_cst_16
  let main_v46 : IVec S4x1 1 := cmpf .olt main_v44 main_v45
  let main_c_17 : IVec S_ 1 := constantI S_ 1 1#1
  let main_v47 : IVec S_ 1 := (fun x v => Host.reduce IntOp.andi x v reducesTo_S4x1_S_d0_1 h_S_) main_v46 main_c_17
  let main_v48 : IVec S_ 1 := andi main_v43 main_v47
  let main_v49 : FVec F S4x256x128 .f32 := Host.absf main_arg12
  let main_cst_18 : FVec F S_ .f32 := constant S_ .f32 0x7F800000#32
  let main_v50 : FVec F S4x256x128 .f32 := broadcastInDim S4x256x128 ![] bcast_S_S4x256x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S4x257x128 .f32) (main_arg7 : FVec F S4x128 .f32) (main_arg8 : FVec F S4x128x128 .f32) (main_arg9 : FVec F S4x128 .f32) (main_arg10 : FVec F S4x128x1 .f32) (main_arg11 : FVec F S4x1 .f32) (main_arg12 : FVec F S4x256x128 .f32) (main_arg13 : FVec F S4x128 .f32) (main_arg14 : FVec F S4x128x128 .f32) (main_arg15 : FVec F S4x128 .f32) (main_arg16 : FVec F S4x128 .f32) (main_arg17 : FVec F S4x128 .f32) (main_arg18 : FVec F S128x128 .f32) (main_arg19 : FVec F S128 .f32) (main_arg20 : FVec F S128x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x257x128 .f32 := Host.absf main_arg6
  let main_cst_6 : FVec F S_ .f32 := constant S_ .f32 0x7F800000#32
  let main_v20 : FVec F S4x257x128 .f32 := broadcastInDim S4x257x128 ![] bcast_S_S4x257x128 main_cst_6
  let main_v21 : IVec S4x257x128 1 := cmpf .olt main_v19 main_v20
  let main_c_7 : IVec S_ 1 := constantI S_ 1 1#1
  let main_v22 : IVec S_ 1 := (fun x v => Host.reduce IntOp.andi x v reducesTo_S4x257x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg8
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S10000x11 .f32) (main_arg1 : FVec F S10000x3 .f32) (main_arg2 : IVec S2x250000 32) (main_arg3 : IVec S10000 32) (main_arg4 : FVec F S11x128 .f32) (main_arg5 : FVec F S128 .f32) (main_arg6 : FVec F S4x257x128 .f32) (main_arg7 : FVec F S4x128 .f32) (main_arg8 : FVec F S4x128x128 .f32) (main_arg9 : FVec F S4x128 .f32) (main_arg10 : FVec F S4x128x1 .f32) (main_arg11 : FVec F S4x1 .f32) (main_arg12 : FVec F S4x256x128 .f32) (main_arg13 : FVec F S4x128 .f32) (main_arg14 : FVec F S4x128x128 .f32) (main_arg15 : FVec F S4x128 .f32) (main_arg16 : FVec F S4x128 .f32) (main_arg17 : FVec F S4x128 .f32) (main_arg18 : FVec F S128x128 .f32) (main_arg19 : FVec F S128 .f32) (main_arg20 : FVec F S128x1 .f32) (main_arg21 : FVec F S1 .f32) : IVec S_ 1 :=
  let main_v0 : FVec F S10000x11 .f32 := Host.absf main_arg0
  let main_cst : FVec F S_ .f32 := constant S_ .f32 0x7F800000#32
  let main_v1 : FVec F S10000x11 .f32 := broadcastInDim S10000x11 ![] bcast_S_S10000x11 main_cst
  let main_v2 : IVec S10000x11 1 := cmpf .olt main_v0 main_v1
  let main_c : IVec S_ 1 := constantI S_ 1 1#1
  let main_v3 : IVec S_ 1 := (fun x v => Host.reduce IntOp.andi x v reducesTo_S10000x11_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S11x128 .f32 := Host.absf main_arg4
  let main_cst_2 : FVec F S_ .f32 := constant S_ .f32 0x7F800000#32
  let main_v10 : FVec F S11x128 .f32 := broadcastInDim S11x128 ![] bcast_S_S11x128 main_cst_2
  let main_v11 : IVec S11x128 1 := cmpf .olt main_v9 main_v10
  let main_c_3 : IVec S_ 1 := constantI S_ 1 1#1
  let main_v12 : IVec S_ 1 := (fun x v => Host.reduce IntOp.andi x v reducesTo_S11x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S10000x11 : Shape := ⟨2, ![10000, 11]⟩
abbrev S10000x3 : Shape := ⟨2, ![10000, 3]⟩
abbrev S2x250000 : Shape := ⟨2, ![2, 250000]⟩
abbrev S10000 : Shape := ⟨1, ![10000]⟩
abbrev S11x128 : Shape := ⟨2, ![11, 128]⟩
abbrev S128 : Shape := ⟨1, ![128]⟩
abbrev S4x257x128 : Shape := ⟨3, ![4, 257, 128]⟩
abbrev S4x128 : Shape := ⟨2, ![4, 128]⟩
abbrev S4x128x128 : Shape := ⟨3, ![4, 128, 128]⟩
abbrev S4x128x1 : Shape := ⟨3, ![4, 128, 1]⟩
abbrev S4x1 : Shape := ⟨2, ![4, 1]⟩
abbrev S4x256x128 : Shape := ⟨3, ![4, 256, 128]⟩
abbrev S128x128 : Shape := ⟨2, ![128, 128]⟩
abbrev S128x1 : Shape := ⟨2, ![128, 1]⟩
abbrev S1 : Shape := ⟨1, ![1]⟩
abbrev S10000x128 : Shape := ⟨2, ![10000, 128]⟩
abbrev S1x128 : Shape := ⟨2, ![1, 128]⟩
abbrev S_ : Shape := ⟨0, ![]⟩
abbrev S256x3 : Shape := ⟨2, ![256, 3]⟩
abbrev S10000x1 : Shape := ⟨2, ![10000, 1]⟩
abbrev S256x1 : Shape := ⟨2, ![256, 1]⟩
abbrev S1x250000 : Shape := ⟨2, ![1, 250000]⟩
abbrev S250000 : Shape := ⟨1, ![250000]⟩
abbrev S250000x1 : Shape := ⟨2, ![250000, 1]⟩
abbrev S250000x128 : Shape := ⟨2, ![250000, 128]⟩
abbrev S250000x3 : Shape := ⟨2, ![250000, 3]⟩
abbrev S1x128x128 : Shape := ⟨3, ![1, 128, 128]⟩
abbrev S1x1x128 : Shape := ⟨3, ![1, 1, 128]⟩
abbrev S1x128x1 : Shape := ⟨3, ![1, 128, 1]⟩
abbrev S1x1 : Shape := ⟨2, ![1, 1]⟩
abbrev S2000x128 : Shape := ⟨2, ![2000, 128]⟩
abbrev S2000x1 : Shape := ⟨2, ![2000, 1]⟩
abbrev S1000x128 : Shape := ⟨2, ![1000, 128]⟩
abbrev S1000 : Shape := ⟨1, ![1000]⟩
abbrev S1000x1 : Shape := ⟨2, ![1000, 1]⟩
abbrev S256x128 : Shape := ⟨2, ![256, 128]⟩

abbrev nBuf : Space → Nat
  | .hbm => 432
  | .vmem => 116
  | .smem => 0
  | _ => 0

abbrev hbmTy0_0 (i : Nat) : BufTy := match i % 128 with
  | 0 => ⟨S10000x11, .f32⟩
  | 1 => ⟨S10000x3, .f32⟩
  | 2 => ⟨S2x250000, .i32⟩
  | 3 => ⟨S10000, .i32⟩
  | 4 => ⟨S11x128, .f32⟩
  | 5 => ⟨S128, .f32⟩
  | 6 => ⟨S4x257x128, .f32⟩
  | 7 => ⟨S4x128, .f32⟩
  | 8 => ⟨S4x128x128, .f32⟩
  | 9 => ⟨S4x128, .f32⟩
  | 10 => ⟨S4x128x1, .f32⟩
  | 11 => ⟨S4x1, .f32⟩
  | 12 => ⟨S4x256x128, .f32⟩
  | 13 => ⟨S4x128, .f32⟩
  | 14 => ⟨S4x128x128, .f32⟩
  | 15 => ⟨S4x128, .f32⟩
  | 16 => ⟨S4x128, .f32⟩
  | 17 => ⟨S4x128, .f32⟩
  | 18 => ⟨S128x128, .f32⟩
  | 19 => ⟨S128, .f32⟩
  | 20 => ⟨S128x1, .f32⟩
  | 21 => ⟨S1, .f32⟩
  | 22 => ⟨S10000x128, .f32⟩
  | 23 => ⟨S1x128, .f32⟩
  | 24 => ⟨S10000x128, .f32⟩
  | 25 => ⟨S10000x128, .f32⟩
  | 26 => ⟨S_, .f32⟩
  | 27 => ⟨S10000x128, .f32⟩
  | 28 => ⟨S10000x128, .f32⟩
  | 29 => ⟨S_, .f32⟩
  | 30 => ⟨S256x3, .f32⟩
  | 31 => ⟨S10000x1, .i32⟩
  | 32 => ⟨S256x3, .f32⟩
  | 33 => ⟨S_, .f32⟩
  | 34 => ⟨S10000x1, .f32⟩
  | 35 => ⟨S_, .f32⟩
  | 36 => ⟨S256x1, .f32⟩
  | 37 => ⟨S10000x1, .i32⟩
  | 38 => ⟨S256x1, .f32⟩
  | 39 => ⟨S_, .f32⟩
  | 40 => ⟨S256x1, .f32⟩
  | 41 => ⟨S256x1, .f32⟩
  | 42 => ⟨S256x3, .f32⟩
  | 43 => ⟨S256x3, .f32⟩
  | 44 => ⟨S_, .i32⟩
  | 45 => ⟨S10000, .i32⟩
  | 46 => ⟨S10000, .i1⟩
  | 47 => ⟨S_, .i32⟩
  | 48 => ⟨S10000, .i32⟩
  | 49 => ⟨S10000, .i32⟩
  | 50 => ⟨S10000, .i32⟩
  | 51 => ⟨S10000x1, .i32⟩
  | 52 => ⟨S10000x3, .f32⟩
  | 53 => ⟨S10000x3, .f32⟩
  | 54 => ⟨S1x250000, .i32⟩
  | 55 => ⟨S250000, .i32⟩
  | 56 => ⟨S1x250000, .i32⟩
  | 57 => ⟨S250000, .i32⟩
  | 58 => ⟨S10000x128, .bf16⟩
  | 59 => ⟨S_, .i32⟩
  | 60 => ⟨S250000, .i32⟩
  | 61 => ⟨S250000, .i1⟩
  | 62 => ⟨S_, .i32⟩
  | 63 => ⟨S250000, .i32⟩
  | 64 => ⟨S250000, .i32⟩
  | 65 => ⟨S250000, .i32⟩
  | 66 => ⟨S250000x1, .i32⟩
  | 67 => ⟨S250000x128, .bf16⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S250000x128, .bf16⟩
  | 77 => ⟨S_, .i32⟩
  | 78 => ⟨S250000, .i32⟩
  | 79 => ⟨S250000, .i1⟩
  | 80 => ⟨S_, .i32⟩
  | 81 => ⟨S250000, .i32⟩
  | 82 => ⟨S250000, .i32⟩
  | 83 => ⟨S250000, .i32⟩
  | 84 => ⟨S250000x1, .i32⟩
  | 85 => ⟨S250000x3, .f32⟩
  | 86 => ⟨S_, .i32⟩
  | 87 => ⟨S250000, .i32⟩
  | 88 => ⟨S250000, .i1⟩
  | 89 => ⟨S_, .i32⟩
  | 90 => ⟨S250000, .i32⟩
  | 91 => ⟨S250000, .i32⟩
  | 92 => ⟨S250000, .i32⟩
  | 93 => ⟨S250000x1, .i32⟩
  | 94 => ⟨S250000x3, .f32⟩
  | 95 => ⟨S250000x3, .f32⟩
  | 96 => ⟨S250000x3, .f32⟩
  | 97 => ⟨S_, .f32⟩
  | 98 => ⟨S250000, .f32⟩
  | 99 => ⟨S250000x1, .f32⟩
  | 100 => ⟨S250000x1, .f32⟩
  | 101 => ⟨S1x128x128, .f32⟩
  | 102 => ⟨S128x128, .f32⟩
  | 103 => ⟨S1x128x128, .f32⟩
  | 104 => ⟨S128x128, .f32⟩
  | 105 => ⟨S1x1x128, .f32⟩
  | 106 => ⟨S1x128, .f32⟩
  | 107 => ⟨S1x128, .f32⟩
  | 108 => ⟨S128, .f32⟩
  | 109 => ⟨S1x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S1x128x1, .f32⟩
  | 116 => ⟨S128x1, .f32⟩
  | 117 => ⟨S1x1, .f32⟩
  | 118 => ⟨S1, .f32⟩
  | 119 => ⟨S1x1, .f32⟩
  | 120 => ⟨S250000x128, .bf16⟩
  | 121 => ⟨S250000x128, .f32⟩
  | 122 => ⟨S_, .f32⟩
  | 123 => ⟨S10000x128, .f32⟩
  | 124 => ⟨S250000x1, .i32⟩
  | 125 => ⟨S10000x128, .f32⟩
  | 126 => ⟨S1x128x128, .f32⟩
  | 127 => ⟨S128x128, .f32⟩
  | _ => ⟨S10000x11, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128, .f32⟩
  | 14 => ⟨S128, .f32⟩
  | 15 => ⟨S1x128, .f32⟩
  | 16 => ⟨S10000x128, .f32⟩
  | 17 => ⟨S10000x128, .bf16⟩
  | 18 => ⟨S_, .i32⟩
  | 19 => ⟨S250000, .i32⟩
  | 20 => ⟨S250000, .i1⟩
  | 21 => ⟨S_, .i32⟩
  | 22 => ⟨S250000, .i32⟩
  | 23 => ⟨S250000, .i32⟩
  | 24 => ⟨S250000, .i32⟩
  | 25 => ⟨S250000x1, .i32⟩
  | 26 => ⟨S250000x128, .bf16⟩
  | 27 => ⟨S_, .i32⟩
  | 28 => ⟨S250000, .i32⟩
  | 29 => ⟨S250000, .i1⟩
  | 30 => ⟨S_, .i32⟩
  | 31 => ⟨S250000, .i32⟩
  | 32 => ⟨S250000, .i32⟩
  | 33 => ⟨S250000, .i32⟩
  | 34 => ⟨S250000x1, .i32⟩
  | 35 => ⟨S250000x128, .bf16⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x3, .f32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S250000x3, .f32⟩
  | 54 => ⟨S250000x3, .f32⟩
  | 55 => ⟨S250000x3, .f32⟩
  | 56 => ⟨S_, .f32⟩
  | 57 => ⟨S250000, .f32⟩
  | 58 => ⟨S250000x1, .f32⟩
  | 59 => ⟨S250000x1, .f32⟩
  | 60 => ⟨S1x128x128, .f32⟩
  | 61 => ⟨S128x128, .f32⟩
  | 62 => ⟨S1x128x128, .f32⟩
  | 63 => ⟨S128x128, .f32⟩
  | 64 => ⟨S1x1x128, .f32⟩
  | 65 => ⟨S1x128, .f32⟩
  | 66 => ⟨S1x128, .f32⟩
  | 67 => ⟨S128, .f32⟩
  | 68 => ⟨S1x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S1x128x1, .f32⟩
  | 75 => ⟨S128x1, .f32⟩
  | 76 => ⟨S1x1, .f32⟩
  | 77 => ⟨S1, .f32⟩
  | 78 => ⟨S1x1, .f32⟩
  | 79 => ⟨S250000x128, .bf16⟩
  | 80 => ⟨S250000x128, .f32⟩
  | 81 => ⟨S_, .f32⟩
  | 82 => ⟨S10000x128, .f32⟩
  | 83 => ⟨S250000x1, .i32⟩
  | 84 => ⟨S10000x128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S1x128, .f32⟩
  | 101 => ⟨S128, .f32⟩
  | 102 => ⟨S1x128, .f32⟩
  | 103 => ⟨S10000x128, .f32⟩
  | 104 => ⟨S10000x128, .bf16⟩
  | 105 => ⟨S_, .i32⟩
  | 106 => ⟨S250000, .i32⟩
  | 107 => ⟨S250000, .i1⟩
  | 108 => ⟨S_, .i32⟩
  | 109 => ⟨S250000, .i32⟩
  | 110 => ⟨S250000, .i32⟩
  | 111 => ⟨S250000, .i32⟩
  | 112 => ⟨S250000x1, .i32⟩
  | 113 => ⟨S250000x128, .bf16⟩
  | 114 => ⟨S_, .i32⟩
  | 115 => ⟨S250000, .i32⟩
  | 116 => ⟨S250000, .i1⟩
  | 117 => ⟨S_, .i32⟩
  | 118 => ⟨S250000, .i32⟩
  | 119 => ⟨S250000, .i32⟩
  | 120 => ⟨S250000, .i32⟩
  | 121 => ⟨S250000x1, .i32⟩
  | 122 => ⟨S250000x128, .bf16⟩
  | 123 => ⟨S_, .i32⟩
  | 124 => ⟨S250000, .i32⟩
  | 125 => ⟨S250000, .i1⟩
  | 126 => ⟨S_, .i32⟩
  | 127 => ⟨S250000, .i32⟩
  | _ => ⟨S10000x11, .f32⟩

abbrev hbmTy0_2 (i : Nat) : BufTy := match i % 128 with
  | 0 => ⟨S250000, .i32⟩
  | 1 => ⟨S250000, .i32⟩
  | 2 => ⟨S250000x1, .i32⟩
  | 3 => ⟨S250000x3, .f32⟩
  | 4 => ⟨S_, .i32⟩
  | 5 => ⟨S250000, .i32⟩
  | 6 => ⟨S250000, .i1⟩
  | 7 => ⟨S_, .i32⟩
  | 8 => ⟨S250000, .i32⟩
  | 9 => ⟨S250000, .i32⟩
  | 10 => ⟨S250000, .i32⟩
  | 11 => ⟨S250000x1, .i32⟩
  | 12 => ⟨S250000x3, .f32⟩
  | 13 => ⟨S250000x3, .f32⟩
  | 14 => ⟨S250000x3, .f32⟩
  | 15 => ⟨S_, .f32⟩
  | 16 => ⟨S250000, .f32⟩
  | 17 => ⟨S250000x1, .f32⟩
  | 18 => ⟨S250000x1, .f32⟩
  | 19 => ⟨S1x128x128, .f32⟩
  | 20 => ⟨S128x128, .f32⟩
  | 21 => ⟨S1x128x128, .f32⟩
  | 22 => ⟨S128x128, .f32⟩
  | 23 => ⟨S1x1x128, .f32⟩
  | 24 => ⟨S1x128, .f32⟩
  | 25 => ⟨S1x128, .f32⟩
  | 26 => ⟨S128, .f32⟩
  | 27 => ⟨S1x128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S1x128x1, .f32⟩
  | 34 => ⟨S128x1, .f32⟩
  | 35 => ⟨S1x1, .f32⟩
  | 36 => ⟨S1, .f32⟩
  | 37 => ⟨S1x1, .f32⟩
  | 38 => ⟨S250000x128, .bf16⟩
  | 39 => ⟨S250000x128, .f32⟩
  | 40 => ⟨S_, .f32⟩
  | 41 => ⟨S10000x128, .f32⟩
  | 42 => ⟨S250000x1, .i32⟩
  | 43 => ⟨S10000x128, .f32⟩
  | 44 => ⟨S1x128x128, .f32⟩
  | 45 => ⟨S128x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S1x128, .f32⟩
  | 60 => ⟨S128, .f32⟩
  | 61 => ⟨S1x128, .f32⟩
  | 62 => ⟨S10000x128, .f32⟩
  | 63 => ⟨S10000x128, .bf16⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S250000x128, .bf16⟩
  | 73 => ⟨S_, .i32⟩
  | 74 => ⟨S250000, .i32⟩
  | 75 => ⟨S250000, .i1⟩
  | 76 => ⟨S_, .i32⟩
  | 77 => ⟨S250000, .i32⟩
  | 78 => ⟨S250000, .i32⟩
  | 79 => ⟨S250000, .i32⟩
  | 80 => ⟨S250000x1, .i32⟩
  | 81 => ⟨S250000x128, .bf16⟩
  | 82 => ⟨S_, .i32⟩
  | 83 => ⟨S250000, .i32⟩
  | 84 => ⟨S250000, .i1⟩
  | 85 => ⟨S_, .i32⟩
  | 86 => ⟨S250000, .i32⟩
  | 87 => ⟨S250000, .i32⟩
  | 88 => ⟨S250000, .i32⟩
  | 89 => ⟨S250000x1, .i32⟩
  | 90 => ⟨S250000x3, .f32⟩
  | 91 => ⟨S_, .i32⟩
  | 92 => ⟨S250000, .i32⟩
  | 93 => ⟨S250000, .i1⟩
  | 94 => ⟨S_, .i32⟩
  | 95 => ⟨S250000, .i32⟩
  | 96 => ⟨S250000, .i32⟩
  | 97 => ⟨S250000, .i32⟩
  | 98 => ⟨S250000x1, .i32⟩
  | 99 => ⟨S250000x3, .f32⟩
  | 100 => ⟨S250000x3, .f32⟩
  | 101 => ⟨S250000x3, .f32⟩
  | 102 => ⟨S_, .f32⟩
  | 103 => ⟨S250000, .f32⟩
  | 104 => ⟨S250000x1, .f32⟩
  | 105 => ⟨S250000x1, .f32⟩
  | 106 => ⟨S1x128x128, .f32⟩
  | 107 => ⟨S128x128, .f32⟩
  | 108 => ⟨S1x128x128, .f32⟩
  | 109 => ⟨S128x128, .f32⟩
  | 110 => ⟨S1x1x128, .f32⟩
  | 111 => ⟨S1x128, .f32⟩
  | 112 => ⟨S1x128, .f32⟩
  | 113 => ⟨S128, .f32⟩
  | 114 => ⟨S1x128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S1x128x1, .f32⟩
  | 121 => ⟨S128x1, .f32⟩
  | 122 => ⟨S1x1, .f32⟩
  | 123 => ⟨S1, .f32⟩
  | 124 => ⟨S1x1, .f32⟩
  | 125 => ⟨S250000x128, .bf16⟩
  | 126 => ⟨S250000x128, .f32⟩
  | 127 => ⟨S_, .f32⟩
  | _ => ⟨S10000x11, .f32⟩

abbrev hbmTy0_3 (i : Nat) : BufTy := match i % 128 with
  | 0 => ⟨S10000x128, .f32⟩
  | 1 => ⟨S250000x1, .i32⟩
  | 2 => ⟨S10000x128, .f32⟩
  | 3 => ⟨S1x128x128, .f32⟩
  | 4 => ⟨S128x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S10000x128, .f32⟩
  | 22 => ⟨S_, .f32⟩
  | 23 => ⟨S256x128, .f32⟩
  | 24 => ⟨S10000x1, .i32⟩
  | 25 => ⟨S256x128, .f32⟩
  | 26 => ⟨S_, .f32⟩
  | 27 => ⟨S10000x1, .f32⟩
  | 28 => ⟨S_, .f32⟩
  | 29 => ⟨S256x1, .f32⟩
  | 30 => ⟨S10000x1, .i32⟩
  | 31 => ⟨S256x1, .f32⟩
  | 32 => ⟨S_, .f32⟩
  | 33 => ⟨S256x1, .f32⟩
  | 34 => ⟨S256x1, .f32⟩
  | 35 => ⟨S256x128, .f32⟩
  | 36 => ⟨S256x128, .f32⟩
  | 37 => ⟨S256x128, .f32⟩
  | 38 => ⟨S1x128, .f32⟩
  | 39 => ⟨S256x128, .f32⟩
  | 40 => ⟨S256x128, .f32⟩
  | 41 => ⟨S_, .f32⟩
  | 42 => ⟨S256x128, .f32⟩
  | 43 => ⟨S256x128, .f32⟩
  | 44 => ⟨S256x1, .f32⟩
  | 45 => ⟨S1x1, .f32⟩
  | 46 => ⟨S256x1, .f32⟩
  | 47 => ⟨S256x1, .f32⟩
  | _ => ⟨S10000x11, .f32⟩

abbrev hbmTy (i : Nat) : BufTy := match i / 128 with
  | 0 => hbmTy0_0 i
  | 1 => hbmTy0_1 i
  | 2 => hbmTy0_2 i
  | 3 => hbmTy0_3 i
  | _ => ⟨S10000x11, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S2000x128, .bf16⟩
  | .local _ .vmem, ⟨15, _⟩ => ⟨S2000x128, .bf16⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1000x128, .f32⟩
  | .local _ .vmem, ⟨28, _⟩ => ⟨S1000x128, .f32⟩
  | .local _ .vmem, ⟨29, _⟩ => ⟨S2000x128, .bf16⟩
  | .local _ .vmem, ⟨30, _⟩ => ⟨S2000x128, .bf16⟩
  | .local _ .vmem, ⟨31, _⟩ => ⟨S2000x128, .bf16⟩
  | .local _ .vmem, ⟨32, _⟩ => ⟨S2000x128, .bf16⟩
  | .local _ .vmem, ⟨33, _⟩ => ⟨S2000x1, .f32⟩
  | .local _ .vmem, ⟨34, _⟩ => ⟨S2000x1, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S128x1, .f32⟩
  | .local _ .vmem, ⟨42, _⟩ => ⟨S1x1, .f32⟩
  | .local _ .vmem, ⟨43, _⟩ => ⟨S2000x128, .bf16⟩
  | .local _ .vmem, ⟨44, _⟩ => ⟨S2000x128, .bf16⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S1000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1000x128, .f32⟩
  | .local _ .vmem, ⟨57, _⟩ => ⟨S1000x128, .f32⟩
  | .local _ .vmem, ⟨58, _⟩ => ⟨S2000x128, .bf16⟩
  | .local _ .vmem, ⟨59, _⟩ => ⟨S2000x128, .bf16⟩
  | .local _ .vmem, ⟨60, _⟩ => ⟨S2000x128, .bf16⟩
  | .local _ .vmem, ⟨61, _⟩ => ⟨S2000x128, .bf16⟩
  | .local _ .vmem, ⟨62, _⟩ => ⟨S2000x1, .f32⟩
  | .local _ .vmem, ⟨63, _⟩ => ⟨S2000x1, .f32⟩
  | .local _ .vmem, ⟨64, _⟩ => ⟨S128x128, .f32⟩
  | .local _ .vmem, ⟨65, _⟩ => ⟨S128x128, .f32⟩
  | .local _ .vmem, ⟨66, _⟩ => ⟨S1x128, .f32⟩
  | .local _ .vmem, ⟨67, _⟩ => ⟨S1x128, .f32⟩
  | .local _ .vmem, ⟨68, _⟩ => ⟨S128x128, .f32⟩
  | .local _ .vmem, ⟨69, _⟩ => ⟨S1x128, .f32⟩
  | .local _ .vmem, ⟨70, _⟩ => ⟨S128x1, .f32⟩
  | .local _ .vmem, ⟨71, _⟩ => ⟨S1x1, .f32⟩
  | .local _ .vmem, ⟨72, _⟩ => ⟨S2000x128, .bf16⟩
  | .local _ .vmem, ⟨73, _⟩ => ⟨S2000x128, .bf16⟩
  | .local _ .vmem, ⟨74, _⟩ => ⟨S1000x128, .f32⟩
  | .local _ .vmem, ⟨75, _⟩ => ⟨S1000x128, .f32⟩
  | .local _ .vmem, ⟨76, _⟩ => ⟨S1000x128, .f32⟩
  | .local _ .vmem, ⟨77, _⟩ => ⟨S1000x128, .f32⟩
  | .local _ .vmem, ⟨78, _⟩ => ⟨S128x128, .f32⟩
  | .local _ .vmem, ⟨79, _⟩ => ⟨S128x128, .f32⟩
  | .local _ .vmem, ⟨80, _⟩ => ⟨S1x128, .f32⟩
  | .local _ .vmem, ⟨81, _⟩ => ⟨S128x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1000x128, .f32⟩
  | .local _ .vmem, ⟨86, _⟩ => ⟨S1000x128, .f32⟩
  | .local _ .vmem, ⟨87, _⟩ => ⟨S2000x128, .bf16⟩
  | .local _ .vmem, ⟨88, _⟩ => ⟨S2000x128, .bf16⟩
  | .local _ .vmem, ⟨89, _⟩ => ⟨S2000x128, .bf16⟩
  | .local _ .vmem, ⟨90, _⟩ => ⟨S2000x128, .bf16⟩
  | .local _ .vmem, ⟨91, _⟩ => ⟨S2000x1, .f32⟩
  | .local _ .vmem, ⟨92, _⟩ => ⟨S2000x1, .f32⟩
  | .local _ .vmem, ⟨93, _⟩ => ⟨S128x128, .f32⟩
  | .local _ .vmem, ⟨94, _⟩ => ⟨S128x128, .f32⟩
  | .local _ .vmem, ⟨95, _⟩ => ⟨S1x128, .f32⟩
  | .local _ .vmem, ⟨96, _⟩ => ⟨S1x128, .f32⟩
  | .local _ .vmem, ⟨97, _⟩ => ⟨S128x128, .f32⟩
  | .local _ .vmem, ⟨98, _⟩ => ⟨S1x128, .f32⟩
  | .local _ .vmem, ⟨99, _⟩ => ⟨S128x1, .f32⟩
  | .local _ .vmem, ⟨100, _⟩ => ⟨S1x1, .f32⟩
  | .local _ .vmem, ⟨101, _⟩ => ⟨S2000x128, .bf16⟩
  | .local _ .vmem, ⟨102, _⟩ => ⟨S2000x128, .bf16⟩
  | .local _ .vmem, ⟨103, _⟩ => ⟨S1000x128, .f32⟩
  | .local _ .vmem, ⟨104, _⟩ => ⟨S1000x128, .f32⟩
  | .local _ .vmem, ⟨105, _⟩ => ⟨S1000x128, .f32⟩
  | .local _ .vmem, ⟨106, _⟩ => ⟨S1000x128, .f32⟩
  | .local _ .vmem, ⟨107, _⟩ => ⟨S128x128, .f32⟩
  | .local _ .vmem, ⟨108, _⟩ => ⟨S128x128, .f32⟩
  | .local _ .vmem, ⟨109, _⟩ => ⟨S1x128, .f32⟩
  | .local _ .vmem, ⟨110, _⟩ => ⟨S128x128, .f32⟩
  | .local _ .vmem, ⟨111, _⟩ => ⟨S1x128, .f32⟩
  | .local _ .vmem, ⟨112, _⟩ => ⟨S1x128, .f32⟩
  | .local _ .vmem, ⟨113, _⟩ => ⟨S1x128, .f32⟩
  | .local _ .vmem, ⟨114, _⟩ => ⟨S1000x128, .f32⟩
  | .local _ .vmem, ⟨115, _⟩ => ⟨S1000x128, .f32⟩
  | _, _ => ⟨S10000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_cst : Ref sig .tc := ⟨.hbm, 26, rfl⟩
abbrev main_call0_v0 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_8 : Ref sig .tc := ⟨.hbm, 77, rfl⟩
abbrev main_v43 : Ref sig .tc := ⟨.hbm, 78, rfl⟩
abbrev main_v44 : Ref sig .tc := ⟨.hbm, 79, rfl⟩
abbrev main_c_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call1_v0 : Ref sig .tc := ⟨.hbm, 96, rfl⟩
abbrev main_call1_cst : Ref sig .tc := ⟨.hbm, 97, rfl⟩
abbrev main_call1_v1 : Ref sig .tc := ⟨.hbm, 98, rfl⟩
abbrev main_call1_v2 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_12 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_13 : Ref sig .tc := ⟨.hbm, 146, rfl⟩
abbrev main_v103 : Ref sig .tc := ⟨.hbm, 147, rfl⟩
abbrev main_v104 : Ref sig .tc := ⟨.hbm, 148, rfl⟩
abbrev main_c_14 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_c_15 : Ref sig .tc := ⟨.hbm, 155, rfl⟩
abbrev main_v110 : Ref sig .tc := ⟨.hbm, 156, rfl⟩
abbrev main_v111 : Ref sig .tc := ⟨.hbm, 157, rfl⟩
abbrev main_c_16 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_17 : Ref sig .tc := ⟨.hbm, 164, rfl⟩
abbrev main_v117 : Ref sig .tc := ⟨.hbm, 165, rfl⟩
abbrev main_v118 : Ref sig .tc := ⟨.hbm, 166, rfl⟩
abbrev main_c_18 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_c_19 : Ref sig .tc := ⟨.hbm, 173, rfl⟩
abbrev main_v124 : Ref sig .tc := ⟨.hbm, 174, rfl⟩
abbrev main_v125 : Ref sig .tc := ⟨.hbm, 175, rfl⟩
abbrev main_c_20 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_call2_v0 : Ref sig .tc := ⟨.hbm, 183, rfl⟩
abbrev main_call2_cst : Ref sig .tc := ⟨.hbm, 184, rfl⟩
abbrev main_call2_v1 : Ref sig .tc := ⟨.hbm, 185, rfl⟩
abbrev main_call2_v2 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_21 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_c_22 : Ref sig .tc := ⟨.hbm, 233, rfl⟩
abbrev main_v177 : Ref sig .tc := ⟨.hbm, 234, rfl⟩
abbrev main_v178 : Ref sig .tc := ⟨.hbm, 235, rfl⟩
abbrev main_c_23 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_c_24 : Ref sig .tc := ⟨.hbm, 242, rfl⟩
abbrev main_v184 : Ref sig .tc := ⟨.hbm, 243, rfl⟩
abbrev main_v185 : Ref sig .tc := ⟨.hbm, 244, rfl⟩
abbrev main_c_25 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_26 : Ref sig .tc := ⟨.hbm, 251, rfl⟩
abbrev main_v191 : Ref sig .tc := ⟨.hbm, 252, rfl⟩
abbrev main_v192 : Ref sig .tc := ⟨.hbm, 253, rfl⟩
abbrev main_c_27 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_c_28 : Ref sig .tc := ⟨.hbm, 260, rfl⟩
abbrev main_v198 : Ref sig .tc := ⟨.hbm, 261, rfl⟩
abbrev main_v199 : Ref sig .tc := ⟨.hbm, 262, rfl⟩
abbrev main_c_29 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_call3_v0 : Ref sig .tc := ⟨.hbm, 270, rfl⟩
abbrev main_call3_cst : Ref sig .tc := ⟨.hbm, 271, rfl⟩
abbrev main_call3_v1 : Ref sig .tc := ⟨.hbm, 272, rfl⟩
abbrev main_call3_v2 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_cst_30 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_31 : Ref sig .tc := ⟨.hbm, 320, rfl⟩
abbrev main_v251 : Ref sig .tc := ⟨.hbm, 321, rfl⟩
abbrev main_v252 : Ref sig .tc := ⟨.hbm, 322, rfl⟩
abbrev main_c_32 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_c_33 : Ref sig .tc := ⟨.hbm, 329, rfl⟩
abbrev main_v258 : Ref sig .tc := ⟨.hbm, 330, rfl⟩
abbrev main_v259 : Ref sig .tc := ⟨.hbm, 331, rfl⟩
abbrev main_c_34 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_c_35 : Ref sig .tc := ⟨.hbm, 338, rfl⟩
abbrev main_v265 : Ref sig .tc := ⟨.hbm, 339, rfl⟩
abbrev main_v266 : Ref sig .tc := ⟨.hbm, 340, rfl⟩
abbrev main_c_36 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_c_37 : Ref sig .tc := ⟨.hbm, 347, rfl⟩
abbrev main_v272 : Ref sig .tc := ⟨.hbm, 348, rfl⟩
abbrev main_v273 : Ref sig .tc := ⟨.hbm, 349, rfl⟩
abbrev main_c_38 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_call4_v0 : Ref sig .tc := ⟨.hbm, 357, rfl⟩
abbrev main_call4_cst : Ref sig .tc := ⟨.hbm, 358, rfl⟩
abbrev main_call4_v1 : Ref sig .tc := ⟨.hbm, 359, rfl⟩
abbrev main_call4_v2 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_v295 : Ref sig .tc := ⟨.hbm, 376, rfl⟩
abbrev main_v296 : Ref sig .tc := ⟨.hbm, 377, rfl⟩
abbrev main_v297 : Ref sig .tc := ⟨.hbm, 378, rfl⟩
abbrev main_v298 : Ref sig .tc := ⟨.hbm, 379, rfl⟩
abbrev main_v299 : Ref sig .tc := ⟨.hbm, 380, rfl⟩
abbrev main_v300 : Ref sig .tc := ⟨.hbm, 381, rfl⟩
abbrev main_v301 : Ref sig .tc := ⟨.hbm, 382, rfl⟩
abbrev main_cst_39 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_cst_40 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_cst_41 : Ref sig .tc := ⟨.hbm, 410, rfl⟩
abbrev main_v327 : Ref sig .tc := ⟨.hbm, 411, rfl⟩
abbrev main_cst_42 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_cst_43 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_call5_cst : Ref sig .tc := ⟨.hbm, 425, rfl⟩
abbrev main_call5_v0 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_v342 : Ref sig .tc := ⟨.hbm, 430, rfl⟩
abbrev main_v343 : Ref sig .tc := ⟨.hbm, 431, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg9_1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg1_1 : Ref sig .tc := ⟨.vmem, 61, rfl⟩
abbrev cc4_stg2_0 : Ref sig .tc := ⟨.vmem, 62, rfl⟩
abbrev cc4_stg2_1 : Ref sig .tc := ⟨.vmem, 63, rfl⟩
abbrev cc4_stg3_0 : Ref sig .tc := ⟨.vmem, 64, rfl⟩
abbrev cc4_stg4_0 : Ref sig .tc := ⟨.vmem, 65, rfl⟩
abbrev cc4_stg5_0 : Ref sig .tc := ⟨.vmem, 66, rfl⟩
abbrev cc4_stg6_0 : Ref sig .tc := ⟨.vmem, 67, rfl⟩
abbrev cc4_stg7_0 : Ref sig .tc := ⟨.vmem, 68, rfl⟩
abbrev cc4_stg8_0 : Ref sig .tc := ⟨.vmem, 69, rfl⟩
abbrev cc4_stg9_0 : Ref sig .tc := ⟨.vmem, 70, rfl⟩
abbrev cc4_stg10_0 : Ref sig .tc := ⟨.vmem, 71, rfl⟩
abbrev cc4_stg11_0 : Ref sig .tc := ⟨.vmem, 72, rfl⟩
abbrev cc4_stg11_1 : Ref sig .tc := ⟨.vmem, 73, rfl⟩
abbrev cc5_stg0_0 : Ref sig .tc := ⟨.vmem, 74, rfl⟩
abbrev cc5_stg0_1 : Ref sig .tc := ⟨.vmem, 75, rfl⟩
abbrev cc5_stg1_0 : Ref sig .tc := ⟨.vmem, 76, rfl⟩
abbrev cc5_stg1_1 : Ref sig .tc := ⟨.vmem, 77, rfl⟩
abbrev cc5_stg2_0 : Ref sig .tc := ⟨.vmem, 78, rfl⟩
abbrev cc5_stg3_0 : Ref sig .tc := ⟨.vmem, 79, rfl⟩
abbrev cc5_stg4_0 : Ref sig .tc := ⟨.vmem, 80, rfl⟩
abbrev cc5_stg5_0 : Ref sig .tc := ⟨.vmem, 81, rfl⟩
abbrev cc5_stg6_0 : Ref sig .tc := ⟨.vmem, 82, rfl⟩
abbrev cc5_stg7_0 : Ref sig .tc := ⟨.vmem, 83, rfl⟩
abbrev cc5_stg8_0 : Ref sig .tc := ⟨.vmem, 84, rfl⟩
abbrev cc5_stg9_0 : Ref sig .tc := ⟨.vmem, 85, rfl⟩
abbrev cc5_stg9_1 : Ref sig .tc := ⟨.vmem, 86, rfl⟩
abbrev cc6_stg0_0 : Ref sig .tc := ⟨.vmem, 87, rfl⟩
abbrev cc6_stg0_1 : Ref sig .tc := ⟨.vmem, 88, rfl⟩
abbrev cc6_stg1_0 : Ref sig .tc := ⟨.vmem, 89, rfl⟩
abbrev cc6_stg1_1 : Ref sig .tc := ⟨.vmem, 90, rfl⟩
abbrev cc6_stg2_0 : Ref sig .tc := ⟨.vmem, 91, rfl⟩
abbrev cc6_stg2_1 : Ref sig .tc := ⟨.vmem, 92, rfl⟩
abbrev cc6_stg3_0 : Ref sig .tc := ⟨.vmem, 93, rfl⟩
abbrev cc6_stg4_0 : Ref sig .tc := ⟨.vmem, 94, rfl⟩
abbrev cc6_stg5_0 : Ref sig .tc := ⟨.vmem, 95, rfl⟩
abbrev cc6_stg6_0 : Ref sig .tc := ⟨.vmem, 96, rfl⟩
abbrev cc6_stg7_0 : Ref sig .tc := ⟨.vmem, 97, rfl⟩
abbrev cc6_stg8_0 : Ref sig .tc := ⟨.vmem, 98, rfl⟩
abbrev cc6_stg9_0 : Ref sig .tc := ⟨.vmem, 99, rfl⟩
abbrev cc6_stg10_0 : Ref sig .tc := ⟨.vmem, 100, rfl⟩
abbrev cc6_stg11_0 : Ref sig .tc := ⟨.vmem, 101, rfl⟩
abbrev cc6_stg11_1 : Ref sig .tc := ⟨.vmem, 102, rfl⟩
abbrev cc7_stg0_0 : Ref sig .tc := ⟨.vmem, 103, rfl⟩
abbrev cc7_stg0_1 : Ref sig .tc := ⟨.vmem, 104, rfl⟩
abbrev cc7_stg1_0 : Ref sig .tc := ⟨.vmem, 105, rfl⟩
abbrev cc7_stg1_1 : Ref sig .tc := ⟨.vmem, 106, rfl⟩
abbrev cc7_stg2_0 : Ref sig .tc := ⟨.vmem, 107, rfl⟩
abbrev cc7_stg3_0 : Ref sig .tc := ⟨.vmem, 108, rfl⟩
abbrev cc7_stg4_0 : Ref sig .tc := ⟨.vmem, 109, rfl⟩
abbrev cc7_stg5_0 : Ref sig .tc := ⟨.vmem, 110, rfl⟩
abbrev cc7_stg6_0 : Ref sig .tc := ⟨.vmem, 111, rfl⟩
abbrev cc7_stg7_0 : Ref sig .tc := ⟨.vmem, 112, rfl⟩
abbrev cc7_stg8_0 : Ref sig .tc := ⟨.vmem, 113, rfl⟩
abbrev cc7_stg9_0 : Ref sig .tc := ⟨.vmem, 114, rfl⟩
abbrev cc7_stg9_1 : Ref sig .tc := ⟨.vmem, 115, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem9_1 : DmaSem sig := 57
abbrev cc4_sem0_0 : DmaSem sig := 58
abbrev cc4_sem0_1 : DmaSem sig := 59
abbrev cc4_sem1_0 : DmaSem sig := 60
abbrev cc4_sem1_1 : DmaSem sig := 61
abbrev cc4_sem2_0 : DmaSem sig := 62
abbrev cc4_sem2_1 : DmaSem sig := 63
abbrev cc4_sem3_0 : DmaSem sig := 64
abbrev cc4_sem4_0 : DmaSem sig := 65
abbrev cc4_sem5_0 : DmaSem sig := 66
abbrev cc4_sem6_0 : DmaSem sig := 67
abbrev cc4_sem7_0 : DmaSem sig := 68
abbrev cc4_sem8_0 : DmaSem sig := 69
abbrev cc4_sem9_0 : DmaSem sig := 70
abbrev cc4_sem10_0 : DmaSem sig := 71
abbrev cc4_sem11_0 : DmaSem sig := 72
abbrev cc4_sem11_1 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78
abbrev cc5_sem3_0 : DmaSem sig := 79
abbrev cc5_sem4_0 : DmaSem sig := 80
abbrev cc5_sem5_0 : DmaSem sig := 81
abbrev cc5_sem6_0 : DmaSem sig := 82
abbrev cc5_sem7_0 : DmaSem sig := 83
abbrev cc5_sem8_0 : DmaSem sig := 84
abbrev cc5_sem9_0 : DmaSem sig := 85
abbrev cc5_sem9_1 : DmaSem sig := 86
abbrev cc6_sem0_0 : DmaSem sig := 87
abbrev cc6_sem0_1 : DmaSem sig := 88
abbrev cc6_sem1_0 : DmaSem sig := 89
abbrev cc6_sem1_1 : DmaSem sig := 90
abbrev cc6_sem2_0 : DmaSem sig := 91
abbrev cc6_sem2_1 : DmaSem sig := 92
abbrev cc6_sem3_0 : DmaSem sig := 93
abbrev cc6_sem4_0 : DmaSem sig := 94
abbrev cc6_sem5_0 : DmaSem sig := 95
abbrev cc6_sem6_0 : DmaSem sig := 96
abbrev cc6_sem7_0 : DmaSem sig := 97
abbrev cc6_sem8_0 : DmaSem sig := 98
abbrev cc6_sem9_0 : DmaSem sig := 99
abbrev cc6_sem10_0 : DmaSem sig := 100
abbrev cc6_sem11_0 : DmaSem sig := 101
abbrev cc6_sem11_1 : DmaSem sig := 102
abbrev cc7_sem0_0 : DmaSem sig := 103
abbrev cc7_sem0_1 : DmaSem sig := 104
abbrev cc7_sem1_0 : DmaSem sig := 105
abbrev cc7_sem1_1 : DmaSem sig := 106
abbrev cc7_sem2_0 : DmaSem sig := 107
abbrev cc7_sem3_0 : DmaSem sig := 108
abbrev cc7_sem4_0 : DmaSem sig := 109
abbrev cc7_sem5_0 : DmaSem sig := 110
abbrev cc7_sem6_0 : DmaSem sig := 111
abbrev cc7_sem7_0 : DmaSem sig := 112
abbrev cc7_sem8_0 : DmaSem sig := 113
abbrev cc7_sem9_0 : DmaSem sig := 114
abbrev cc7_sem9_1 : DmaSem sig := 115

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S2000x128 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S2000x128 .bf16 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S1000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S256x3 : S_.BroadcastsInDim S256x3 (![] : Fin 0 → Fin S256x3.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S256x1 : S_.BroadcastsInDim S256x1 (![] : Fin 0 → Fin S256x1.rank)
  bcast_S256x1_S256x3_0_1 : S256x1.BroadcastsInDim S256x3 (![0, 1] : Fin 2 → Fin S256x3.rank)
  bcast_S_S10000 : S_.BroadcastsInDim S10000 (![] : Fin 0 → Fin S10000.rank)
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bitsLt_bf16_f32 : FTy.bits .bf16 < FTy.bits .f32
  bcast_S_S250000 : S_.BroadcastsInDim S250000 (![] : Fin 0 → Fin S250000.rank)
  bcast_S250000_S250000x1_0 : S250000.BroadcastsInDim S250000x1 (![0] : Fin 1 → Fin S250000x1.rank)
  reducesTo_S250000x3_S250000_d1 : S250000x3.ReducesTo [1] S250000
  h_S_ : 0 < S_.numel
  slices_S4x257x128_S1x128x128_0_0_0 : S4x257x128.Slices ![0, 0, 0] S1x128x128
  shapeCasts_S1x128x128_S128x128 : S1x128x128.ShapeCasts S128x128
  slices_S4x257x128_S1x128x128_0_128_0 : S4x257x128.Slices ![0, 128, 0] S1x128x128
  slices_S4x257x128_S1x1x128_0_256_0 : S4x257x128.Slices ![0, 256, 0] S1x1x128
  shapeCasts_S1x1x128_S1x128 : S1x1x128.ShapeCasts S1x128
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  slices_S4x128x1_S1x128x1_0_0_0 : S4x128x1.Slices ![0, 0, 0] S1x128x1
  shapeCasts_S1x128x1_S128x1 : S1x128x1.ShapeCasts S128x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  packedbf16_S2000x128_S2000x128_0_0 : (Rect.unit (s := S2000x128) ![0, 0] S2000x128.size inb_S2000x128_S2000x128_0_0).PackedRows (EltTy.packing .bf16)
  slices_S4x256x128_S1x128x128_0_0_0 : S4x256x128.Slices ![0, 0, 0] S1x128x128
  slices_S4x256x128_S1x128x128_0_128_0 : S4x256x128.Slices ![0, 128, 0] S1x128x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  reduces_S1000x128_S1000 : S1000x128.Reduces [1] S1000
  shapeCasts_S1000_S1000x1 : S1000.ShapeCasts S1000x1
  broadcasts_S1000x1_S1000x128 : S1000x1.Broadcasts S1000x128
  slices_S4x257x128_S1x128x128_1_0_0 : S4x257x128.Slices ![1, 0, 0] S1x128x128
  slices_S4x257x128_S1x128x128_1_128_0 : S4x257x128.Slices ![1, 128, 0] S1x128x128
  slices_S4x257x128_S1x1x128_1_256_0 : S4x257x128.Slices ![1, 256, 0] S1x1x128
  slices_S4x128_S1x128_1_0 : S4x128.Slices ![1, 0] S1x128
  slices_S4x128x128_S1x128x128_1_0_0 : S4x128x128.Slices ![1, 0, 0] S1x128x128
  slices_S4x128x1_S1x128x1_1_0_0 : S4x128x1.Slices ![1, 0, 0] S1x128x1
  slices_S4x1_S1x1_1_0 : S4x1.Slices ![1, 0] S1x1
  slices_S4x256x128_S1x128x128_1_0_0 : S4x256x128.Slices ![1, 0, 0] S1x128x128
  slices_S4x256x128_S1x128x128_1_128_0 : S4x256x128.Slices ![1, 128, 0] S1x128x128
  slices_S4x257x128_S1x128x128_2_0_0 : S4x257x128.Slices ![2, 0, 0] S1x128x128
  slices_S4x257x128_S1x128x128_2_128_0 : S4x257x128.Slices ![2, 128, 0] S1x128x128
  slices_S4x257x128_S1x1x128_2_256_0 : S4x257x128.Slices ![2, 256, 0] S1x1x128
  slices_S4x128_S1x128_2_0 : S4x128.Slices ![2, 0] S1x128
  slices_S4x128x128_S1x128x128_2_0_0 : S4x128x128.Slices ![2, 0, 0] S1x128x128
  slices_S4x128x1_S1x128x1_2_0_0 : S4x128x1.Slices ![2, 0, 0] S1x128x1
  slices_S4x1_S1x1_2_0 : S4x1.Slices ![2, 0] S1x1
  slices_S4x256x128_S1x128x128_2_0_0 : S4x256x128.Slices ![2, 0, 0] S1x128x128
  slices_S4x256x128_S1x128x128_2_128_0 : S4x256x128.Slices ![2, 128, 0] S1x128x128
  slices_S4x257x128_S1x128x128_3_0_0 : S4x257x128.Slices ![3, 0, 0] S1x128x128
  slices_S4x257x128_S1x128x128_3_128_0 : S4x257x128.Slices ![3, 128, 0] S1x128x128
  slices_S4x257x128_S1x1x128_3_256_0 : S4x257x128.Slices ![3, 256, 0] S1x1x128
  slices_S4x128_S1x128_3_0 : S4x128.Slices ![3, 0] S1x128
  slices_S4x128x128_S1x128x128_3_0_0 : S4x128x128.Slices ![3, 0, 0] S1x128x128
  slices_S4x128x1_S1x128x1_3_0_0 : S4x128x1.Slices ![3, 0, 0] S1x128x1
  slices_S4x1_S1x1_3_0 : S4x1.Slices ![3, 0] S1x1
  slices_S4x256x128_S1x128x128_3_0_0 : S4x256x128.Slices ![3, 0, 0] S1x128x128
  slices_S4x256x128_S1x128x128_3_128_0 : S4x256x128.Slices ![3, 128, 0] S1x128x128
  bcast_S_S256x128 : S_.BroadcastsInDim S256x128 (![] : Fin 0 → Fin S256x128.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1x1_S256x1_0_1 : S1x1.BroadcastsInDim S256x1 (![0, 1] : Fin 2 → Fin S256x1.rank)
  dot_S10000x11_S11x128_S10000x128_1_0_0_1_n_n_wf : DotDims.WF S10000x11 S11x128 S10000x128 [1] [0] [0] [1] [] []
  scatter_S256x3_S10000x1_S10000x3_1_0_0_1_wf : ScatterDims.WF S256x3 S10000x1 S10000x3 [1] [0] [0] 1
  scatter_S256x1_S10000x1_S10000x1_1_0_0_1_wf : ScatterDims.WF S256x1 S10000x1 S10000x1 [1] [0] [0] 1
  gather_S256x3_S10000x1_S10000x3_1_0_n_n_0_1_13_wf : GatherDims.WF S256x3 S10000x1 S10000x3 [1] [0] [] [0] [] 1 ![1, 3]
  gather_S10000x128_S250000x1_S250000x128_1_0_n_n_0_1_1128_wf : GatherDims.WF S10000x128 S250000x1 S250000x128 [1] [0] [] [0] [] 1 ![1, 128]
  gather_S10000x3_S250000x1_S250000x3_1_0_n_n_0_1_13_wf : GatherDims.WF S10000x3 S250000x1 S250000x3 [1] [0] [] [0] [] 1 ![1, 3]
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S10000x128_S250000x1_S250000x128_1_0_0_1_wf : ScatterDims.WF S10000x128 S250000x1 S250000x128 [1] [0] [0] 1
  dot_S1000x128_S128x128_S1000x128_1_0_0_1_n_n_wf : DotDims.WF S1000x128 S128x128 S1000x128 [1] [0] [0] [1] [] []
  scatter_S256x128_S10000x1_S10000x128_1_0_0_1_wf : ScatterDims.WF S256x128 S10000x1 S10000x128 [1] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S250000x128.size a
  hwx0_0 : ∀ i : grid0.Coords, EltTy.bits .bf16 = 32 ∨ (Rect.block (s := S250000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S250000x128.size a
  hwx0_1 : ∀ i : grid0.Coords, EltTy.bits .bf16 = 32 ∨ (Rect.block (s := S250000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S250000x1.size a
  hwx0_2 : ∀ i : grid0.Coords, EltTy.bits .f32 = 32 ∨ (Rect.block (s := S250000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S250000x128.size a
  hwx0_11 : ∀ i : grid0.Coords, EltTy.bits .bf16 = 32 ∨ (Rect.block (s := S250000x128) S2000x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S10000x128.size a
  hwx1_9 : ∀ i : grid1.Coords, EltTy.bits .f32 = 32 ∨ (Rect.block (s := S10000x128) S1000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S250000x128.size a
  hwx2_0 : ∀ i : grid2.Coords, EltTy.bits .bf16 = 32 ∨ (Rect.block (s := S250000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S250000x128.size a
  hwx2_1 : ∀ i : grid2.Coords, EltTy.bits .bf16 = 32 ∨ (Rect.block (s := S250000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S250000x1.size a
  hwx2_2 : ∀ i : grid2.Coords, EltTy.bits .f32 = 32 ∨ (Rect.block (s := S250000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S128x1.size a
  hwx2_9 : ∀ i : grid2.Coords, EltTy.bits .f32 = 32 ∨ (Rect.block (s := S128x1) S128x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x128.size a ≤ S250000x128.size a
  hwx2_11 : ∀ i : grid2.Coords, EltTy.bits .bf16 = 32 ∨ (Rect.block (s := S250000x128) S2000x128.size (cc2_transform_11 i) (hinb2_11 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S10000x128.size a
  hwx3_1 : ∀ i : grid3.Coords, EltTy.bits .f32 = 32 ∨ (Rect.block (s := S10000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x128.size a ≤ S10000x128.size a
  hwx3_9 : ∀ i : grid3.Coords, EltTy.bits .f32 = 32 ∨ (Rect.block (s := S10000x128) S1000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S250000x128.size a
  hwx4_0 : ∀ i : grid4.Coords, EltTy.bits .bf16 = 32 ∨ (Rect.block (s := S250000x128) S2000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S250000x128.size a
  hwx4_1 : ∀ i : grid4.Coords, EltTy.bits .bf16 = 32 ∨ (Rect.block (s := S250000x128) S2000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S250000x1.size a
  hwx4_2 : ∀ i : grid4.Coords, EltTy.bits .f32 = 32 ∨ (Rect.block (s := S250000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x1.size a ≤ S128x1.size a
  hwx4_9 : ∀ i : grid4.Coords, EltTy.bits .f32 = 32 ∨ (Rect.block (s := S128x1) S128x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S2000x128.size a ≤ S250000x128.size a
  hwx4_11 : ∀ i : grid4.Coords, EltTy.bits .bf16 = 32 ∨ (Rect.block (s := S250000x128) S2000x128.size (cc4_transform_11 i) (hinb4_11 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S10000x128.size a
  hwx5_0 : ∀ i : grid5.Coords, EltTy.bits .f32 = 32 ∨ (Rect.block (s := S10000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S10000x128.size a
  hwx5_1 : ∀ i : grid5.Coords, EltTy.bits .f32 = 32 ∨ (Rect.block (s := S10000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1000x128.size a ≤ S10000x128.size a
  hwx5_9 : ∀ i : grid5.Coords, EltTy.bits .f32 = 32 ∨ (Rect.block (s := S10000x128) S1000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S250000x128.size a
  hwx6_0 : ∀ i : grid6.Coords, EltTy.bits .bf16 = 32 ∨ (Rect.block (s := S250000x128) S2000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S250000x128.size a
  hwx6_1 : ∀ i : grid6.Coords, EltTy.bits .bf16 = 32 ∨ (Rect.block (s := S250000x128) S2000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S250000x1.size a
  hwx6_2 : ∀ i : grid6.Coords, EltTy.bits .f32 = 32 ∨ (Rect.block (s := S250000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x1.size a ≤ S128x1.size a
  hwx6_9 : ∀ i : grid6.Coords, EltTy.bits .f32 = 32 ∨ (Rect.block (s := S128x1) S128x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S2000x128.size a ≤ S250000x128.size a
  hwx6_11 : ∀ i : grid6.Coords, EltTy.bits .bf16 = 32 ∨ (Rect.block (s := S250000x128) S2000x128.size (cc6_transform_11 i) (hinb6_11 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S10000x128.size a
  hwx7_0 : ∀ i : grid7.Coords, EltTy.bits .f32 = 32 ∨ (Rect.block (s := S10000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x128.size a ≤ S10000x128.size a
  hwx7_1 : ∀ i : grid7.Coords, EltTy.bits .f32 = 32 ∨ (Rect.block (s := S10000x128) S1000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S1000x128.size a ≤ S10000x128.size a
  hwx7_9 : ∀ i : grid7.Coords, EltTy.bits .f32 = 32 ∨ (Rect.block (s := S10000x128) S1000x128.size (cc7_transform_9 i) (hinb7_9 i)).WholeWords (EltTy.packing .f32)

variable [Facts₀]

def dot_S10000x11_S11x128_S10000x128_1_0_0_1_n_n : DotDims S10000x11 S11x128 S10000x128 where
  lhsContracting := [1]
  rhsContracting := [0]
  lhsNonContracting := [0]
  rhsNonContracting := [1]
  lhsBatch := []
  rhsBatch := []
  wf := dot_S10000x11_S11x128_S10000x128_1_0_0_1_n_n_wf
def scatter_S256x3_S10000x1_S10000x3_1_0_0_1 : ScatterDims S256x3 S10000x1 S10000x3 where
  updateWindowDims := [1]
  insertedWindowDims := [0]
  scatterDimsToOperandDims := [0]
  indexVectorDim := 1
  wf := scatter_S256x3_S10000x1_S10000x3_1_0_0_1_wf
def scatter_S256x1_S10000x1_S10000x1_1_0_0_1 : ScatterDims S256x1 S10000x1 S10000x1 where
  updateWindowDims := [1]
  insertedWindowDims := [0]
  scatterDimsToOperandDims := [0]
  indexVectorDim := 1
  wf := scatter_S256x1_S10000x1_S10000x1_1_0_0_1_wf
def gather_S256x3_S10000x1_S10000x3_1_0_n_n_0_1_13 : GatherDims S256x3 S10000x1 S10000x3 where
  offsetDims := [1]
  collapsedSliceDims := [0]
  operandBatchingDims := []
  startIndicesBatchingDims := []
  startIndexMap := [0]
  indexVectorDim := 1
  sliceSizes := ![1, 3]
  wf := gather_S256x3_S10000x1_S10000x3_1_0_n_n_0_1_13_wf
def gather_S10000x128_S250000x1_S250000x128_1_0_n_n_0_1_1128 : GatherDims S10000x128 S250000x1 S250000x128 where
  offsetDims := [1]
  collapsedSliceDims := [0]
  operandBatchingDims := []
  startIndicesBatchingDims := []
  startIndexMap := [0]
  indexVectorDim := 1
  sliceSizes := ![1, 128]
  wf := gather_S10000x128_S250000x1_S250000x128_1_0_n_n_0_1_1128_wf
def gather_S10000x3_S250000x1_S250000x3_1_0_n_n_0_1_13 : GatherDims S10000x3 S250000x1 S250000x3 where
  offsetDims := [1]
  collapsedSliceDims := [0]
  operandBatchingDims := []
  startIndicesBatchingDims := []
  startIndexMap := [0]
  indexVectorDim := 1
  sliceSizes := ![1, 3]
  wf := gather_S10000x3_S250000x1_S250000x3_1_0_n_n_0_1_13_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S10000x128_S250000x1_S250000x128_1_0_0_1 : ScatterDims S10000x128 S250000x1 S250000x128 where
  updateWindowDims := [1]
  insertedWindowDims := [0]
  scatterDimsToOperandDims := [0]
  indexVectorDim := 1
  wf := scatter_S10000x128_S250000x1_S250000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S256x128_S10000x1_S10000x128_1_0_0_1 : ScatterDims S256x128 S10000x1 S10000x128 where
  updateWindowDims := [1]
  insertedWindowDims := [0]
  scatterDimsToOperandDims := [0]
  indexVectorDim := 1
  wf := scatter_S256x128_S10000x1_S10000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v35) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v67) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v69) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v72) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v77) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v78) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v89) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v91) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v94) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v97) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v100) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v101) S1000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v109) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v116) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v132) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v134) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v138) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v141) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v143) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v146) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v148) S128x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v151) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v152) S2000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v101) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v156) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v158) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v160) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v163) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v165) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v168) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v171) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v174) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v175) S1000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v183) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v190) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v206) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v208) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v210) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v212) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v215) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v217) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v220) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v222) S128x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v225) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v226) S2000x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v175) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v230) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v232) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v234) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v237) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v239) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v242) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v245) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v248) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v249) S1000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v257) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v264) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v280) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v282) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v284) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v286) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v289) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v291) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v294) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v296) S128x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v299) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v300) S2000x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v249) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v304) S1000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v306) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v308) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v311) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v313) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v316) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v319) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v322) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v323) S1000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S10000x11 : Shape := ⟨2, ![10000, 11]⟩
abbrev S10000x3 : Shape := ⟨2, ![10000, 3]⟩
abbrev S2x250000 : Shape := ⟨2, ![2, 250000]⟩
abbrev S10000 : Shape := ⟨1, ![10000]⟩
abbrev S11x128 : Shape := ⟨2, ![11, 128]⟩
abbrev S128 : Shape := ⟨1, ![128]⟩
abbrev S4x257x128 : Shape := ⟨3, ![4, 257, 128]⟩
abbrev S4x128 : Shape := ⟨2, ![4, 128]⟩
abbrev S4x128x128 : Shape := ⟨3, ![4, 128, 128]⟩
abbrev S4x128x1 : Shape := ⟨3, ![4, 128, 1]⟩
abbrev S4x1 : Shape := ⟨2, ![4, 1]⟩
abbrev S4x256x128 : Shape := ⟨3, ![4, 256, 128]⟩
abbrev S128x128 : Shape := ⟨2, ![128, 128]⟩
abbrev S128x1 : Shape := ⟨2, ![128, 1]⟩
abbrev S1 : Shape := ⟨1, ![1]⟩
abbrev S10000x128 : Shape := ⟨2, ![10000, 128]⟩
abbrev S1x128 : Shape := ⟨2, ![1, 128]⟩
abbrev S_ : Shape := ⟨0, ![]⟩
abbrev S256x3 : Shape := ⟨2, ![256, 3]⟩
abbrev S10000x1 : Shape := ⟨2, ![10000, 1]⟩
abbrev S256x1 : Shape := ⟨2, ![256, 1]⟩
abbrev S1x250000 : Shape := ⟨2, ![1, 250000]⟩
abbrev S250000 : Shape := ⟨1, ![250000]⟩
abbrev S250000x1 : Shape := ⟨2, ![250000, 1]⟩
abbrev S250000x128 : Shape := ⟨2, ![250000, 128]⟩
abbrev S250000x3 : Shape := ⟨2, ![250000, 3]⟩
abbrev S250000x257 : Shape := ⟨2, ![250000, 257]⟩
abbrev S1x257x128 : Shape := ⟨3, ![1, 257, 128]⟩
abbrev S257x128 : Shape := ⟨2, ![257, 128]⟩
abbrev S1x128x128 : Shape := ⟨3, ![1, 128, 128]⟩
abbrev S1x128x1 : Shape := ⟨3, ![1, 128, 1]⟩
abbrev S1x1 : Shape := ⟨2, ![1, 1]⟩
abbrev S10000x256 : Shape := ⟨2, ![10000, 256]⟩
abbrev S1x256x128 : Shape := ⟨3, ![1, 256, 128]⟩
abbrev S256x128 : Shape := ⟨2, ![256, 128]⟩

abbrev nBuf : Space → Nat
  | .hbm => 780
  | .vmem => 0
  | .smem => 0
  | _ => 0

abbrev hbmTy0_0 (i : Nat) : BufTy := match i % 128 with
  | 0 => ⟨S10000x11, .f32⟩
  | 1 => ⟨S10000x3, .f32⟩
  | 2 => ⟨S2x250000, .i32⟩
  | 3 => ⟨S10000, .i32⟩
  | 4 => ⟨S11x128, .f32⟩
  | 5 => ⟨S128, .f32⟩
  | 6 => ⟨S4x257x128, .f32⟩
  | 7 => ⟨S4x128, .f32⟩
  | 8 => ⟨S4x128x128, .f32⟩
  | 9 => ⟨S4x128, .f32⟩
  | 10 => ⟨S4x128x1, .f32⟩
  | 11 => ⟨S4x1, .f32⟩
  | 12 => ⟨S4x256x128, .f32⟩
  | 13 => ⟨S4x128, .f32⟩
  | 14 => ⟨S4x128x128, .f32⟩
  | 15 => ⟨S4x128, .f32⟩
  | 16 => ⟨S4x128, .f32⟩
  | 17 => ⟨S4x128, .f32⟩
  | 18 => ⟨S128x128, .f32⟩
  | 19 => ⟨S128, .f32⟩
  | 20 => ⟨S128x1, .f32⟩
  | 21 => ⟨S1, .f32⟩
  | 22 => ⟨S10000x128, .f32⟩
  | 23 => ⟨S1x128, .f32⟩
  | 24 => ⟨S10000x128, .f32⟩
  | 25 => ⟨S10000x128, .f32⟩
  | 26 => ⟨S_, .f32⟩
  | 27 => ⟨S10000x128, .f32⟩
  | 28 => ⟨S10000x128, .f32⟩
  | 29 => ⟨S_, .f32⟩
  | 30 => ⟨S256x3, .f32⟩
  | 31 => ⟨S10000x1, .i32⟩
  | 32 => ⟨S256x3, .f32⟩
  | 33 => ⟨S_, .f32⟩
  | 34 => ⟨S10000x1, .f32⟩
  | 35 => ⟨S_, .f32⟩
  | 36 => ⟨S256x1, .f32⟩
  | 37 => ⟨S10000x1, .i32⟩
  | 38 => ⟨S256x1, .f32⟩
  | 39 => ⟨S_, .f32⟩
  | 40 => ⟨S256x1, .f32⟩
  | 41 => ⟨S256x1, .f32⟩
  | 42 => ⟨S256x3, .f32⟩
  | 43 => ⟨S256x3, .f32⟩
  | 44 => ⟨S_, .i32⟩
  | 45 => ⟨S10000, .i32⟩
  | 46 => ⟨S10000, .i1⟩
  | 47 => ⟨S_, .i32⟩
  | 48 => ⟨S10000, .i32⟩
  | 49 => ⟨S10000, .i32⟩
  | 50 => ⟨S10000, .i32⟩
  | 51 => ⟨S10000x1, .i32⟩
  | 52 => ⟨S10000x3, .f32⟩
  | 53 => ⟨S10000x3, .f32⟩
  | 54 => ⟨S1x250000, .i32⟩
  | 55 => ⟨S250000, .i32⟩
  | 56 => ⟨S1x250000, .i32⟩
  | 57 => ⟨S250000, .i32⟩
  | 58 => ⟨S_, .i32⟩
  | 59 => ⟨S250000, .i32⟩
  | 60 => ⟨S250000, .i1⟩
  | 61 => ⟨S_, .i32⟩
  | 62 => ⟨S250000, .i32⟩
  | 63 => ⟨S250000, .i32⟩
  | 64 => ⟨S250000, .i32⟩
  | 65 => ⟨S250000x1, .i32⟩
  | 66 => ⟨S250000x128, .f32⟩
  | 67 => ⟨S_, .i32⟩
  | 68 => ⟨S250000, .i32⟩
  | 69 => ⟨S250000, .i1⟩
  | 70 => ⟨S_, .i32⟩
  | 71 => ⟨S250000, .i32⟩
  | 72 => ⟨S250000, .i32⟩
  | 73 => ⟨S250000, .i32⟩
  | 74 => ⟨S250000x1, .i32⟩
  | 75 => ⟨S250000x128, .f32⟩
  | 76 => ⟨S_, .i32⟩
  | 77 => ⟨S250000, .i32⟩
  | 78 => ⟨S250000, .i1⟩
  | 79 => ⟨S_, .i32⟩
  | 80 => ⟨S250000, .i32⟩
  | 81 => ⟨S250000, .i32⟩
  | 82 => ⟨S250000, .i32⟩
  | 83 => ⟨S250000x1, .i32⟩
  | 84 => ⟨S250000x3, .f32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x3, .f32⟩
  | 94 => ⟨S250000x3, .f32⟩
  | 95 => ⟨S250000x3, .f32⟩
  | 96 => ⟨S_, .f32⟩
  | 97 => ⟨S250000, .f32⟩
  | 98 => ⟨S250000x1, .f32⟩
  | 99 => ⟨S250000x1, .f32⟩
  | 100 => ⟨S250000x257, .f32⟩
  | 101 => ⟨S1x257x128, .f32⟩
  | 102 => ⟨S257x128, .f32⟩
  | 103 => ⟨S250000x128, .f32⟩
  | 104 => ⟨S1x128, .f32⟩
  | 105 => ⟨S128, .f32⟩
  | 106 => ⟨S1x128, .f32⟩
  | 107 => ⟨S250000x128, .f32⟩
  | 108 => ⟨S250000x128, .f32⟩
  | 109 => ⟨S250000x128, .f32⟩
  | 110 => ⟨S250000x128, .f32⟩
  | 111 => ⟨S_, .f32⟩
  | 112 => ⟨S250000x128, .f32⟩
  | 113 => ⟨S250000x128, .f32⟩
  | 114 => ⟨S_, .f32⟩
  | 115 => ⟨S250000x128, .f32⟩
  | 116 => ⟨S250000x128, .f32⟩
  | 117 => ⟨S250000x128, .f32⟩
  | 118 => ⟨S1x128x128, .f32⟩
  | 119 => ⟨S128x128, .f32⟩
  | 120 => ⟨S250000x128, .f32⟩
  | 121 => ⟨S1x128, .f32⟩
  | 122 => ⟨S128, .f32⟩
  | 123 => ⟨S1x128, .f32⟩
  | 124 => ⟨S250000x128, .f32⟩
  | 125 => ⟨S250000x128, .f32⟩
  | 126 => ⟨S250000x128, .f32⟩
  | 127 => ⟨S250000x128, .f32⟩
  | _ => ⟨S10000x11, .f32⟩

abbrev hbmTy0_1 (i : Nat) : BufTy := match i % 128 with
  | 0 => ⟨S_, .f32⟩
  | 1 => ⟨S250000x128, .f32⟩
  | 2 => ⟨S250000x128, .f32⟩
  | 3 => ⟨S_, .f32⟩
  | 4 => ⟨S250000x128, .f32⟩
  | 5 => ⟨S250000x128, .f32⟩
  | 6 => ⟨S250000x128, .f32⟩
  | 7 => ⟨S1x128x1, .f32⟩
  | 8 => ⟨S128x1, .f32⟩
  | 9 => ⟨S250000x1, .f32⟩
  | 10 => ⟨S1x1, .f32⟩
  | 11 => ⟨S1, .f32⟩
  | 12 => ⟨S1x1, .f32⟩
  | 13 => ⟨S250000x1, .f32⟩
  | 14 => ⟨S250000x1, .f32⟩
  | 15 => ⟨S250000x1, .f32⟩
  | 16 => ⟨S250000x1, .f32⟩
  | 17 => ⟨S_, .f32⟩
  | 18 => ⟨S250000x1, .f32⟩
  | 19 => ⟨S250000x1, .f32⟩
  | 20 => ⟨S_, .f32⟩
  | 21 => ⟨S250000x1, .f32⟩
  | 22 => ⟨S250000x1, .f32⟩
  | 23 => ⟨S250000x128, .f32⟩
  | 24 => ⟨S250000x128, .f32⟩
  | 25 => ⟨S_, .f32⟩
  | 26 => ⟨S10000x128, .f32⟩
  | 27 => ⟨S250000x1, .i32⟩
  | 28 => ⟨S10000x128, .f32⟩
  | 29 => ⟨S10000x256, .f32⟩
  | 30 => ⟨S1x256x128, .f32⟩
  | 31 => ⟨S256x128, .f32⟩
  | 32 => ⟨S10000x128, .f32⟩
  | 33 => ⟨S1x128, .f32⟩
  | 34 => ⟨S128, .f32⟩
  | 35 => ⟨S1x128, .f32⟩
  | 36 => ⟨S10000x128, .f32⟩
  | 37 => ⟨S10000x128, .f32⟩
  | 38 => ⟨S10000x128, .f32⟩
  | 39 => ⟨S10000x128, .f32⟩
  | 40 => ⟨S_, .f32⟩
  | 41 => ⟨S10000x128, .f32⟩
  | 42 => ⟨S10000x128, .f32⟩
  | 43 => ⟨S_, .f32⟩
  | 44 => ⟨S10000x128, .f32⟩
  | 45 => ⟨S10000x128, .f32⟩
  | 46 => ⟨S10000x128, .f32⟩
  | 47 => ⟨S1x128x128, .f32⟩
  | 48 => ⟨S128x128, .f32⟩
  | 49 => ⟨S10000x128, .f32⟩
  | 50 => ⟨S1x128, .f32⟩
  | 51 => ⟨S128, .f32⟩
  | 52 => ⟨S1x128, .f32⟩
  | 53 => ⟨S10000x128, .f32⟩
  | 54 => ⟨S10000x128, .f32⟩
  | 55 => ⟨S10000x128, .f32⟩
  | 56 => ⟨S_, .f32⟩
  | 57 => ⟨S10000, .f32⟩
  | 58 => ⟨S10000x1, .f32⟩
  | 59 => ⟨S_, .f32⟩
  | 60 => ⟨S10000x1, .f32⟩
  | 61 => ⟨S10000x1, .f32⟩
  | 62 => ⟨S_, .i32⟩
  | 63 => ⟨S_, .f32⟩
  | 64 => ⟨S10000, .f32⟩
  | 65 => ⟨S10000x1, .f32⟩
  | 66 => ⟨S_, .f32⟩
  | 67 => ⟨S10000x1, .f32⟩
  | 68 => ⟨S10000x1, .f32⟩
  | 69 => ⟨S10000x128, .f32⟩
  | 70 => ⟨S10000x128, .f32⟩
  | 71 => ⟨S10000x128, .f32⟩
  | 72 => ⟨S_, .f32⟩
  | 73 => ⟨S_, .f32⟩
  | 74 => ⟨S_, .f32⟩
  | 75 => ⟨S_, .f32⟩
  | 76 => ⟨S10000, .f32⟩
  | 77 => ⟨S10000x1, .f32⟩
  | 78 => ⟨S10000x1, .f32⟩
  | 79 => ⟨S10000x1, .f32⟩
  | 80 => ⟨S_, .f32⟩
  | 81 => ⟨S_, .i1⟩
  | 82 => ⟨S_, .f32⟩
  | 83 => ⟨S_, .f32⟩
  | 84 => ⟨S10000x1, .f32⟩
  | 85 => ⟨S10000x1, .f32⟩
  | 86 => ⟨S10000x128, .f32⟩
  | 87 => ⟨S10000x128, .f32⟩
  | 88 => ⟨S_, .f32⟩
  | 89 => ⟨S10000x1, .f32⟩
  | 90 => ⟨S10000x1, .f32⟩
  | 91 => ⟨S10000x1, .f32⟩
  | 92 => ⟨S10000x128, .f32⟩
  | 93 => ⟨S10000x128, .f32⟩
  | 94 => ⟨S1x128, .f32⟩
  | 95 => ⟨S128, .f32⟩
  | 96 => ⟨S1x128, .f32⟩
  | 97 => ⟨S10000x128, .f32⟩
  | 98 => ⟨S10000x128, .f32⟩
  | 99 => ⟨S1x128, .f32⟩
  | 100 => ⟨S128, .f32⟩
  | 101 => ⟨S1x128, .f32⟩
  | 102 => ⟨S10000x128, .f32⟩
  | 103 => ⟨S10000x128, .f32⟩
  | 104 => ⟨S_, .i32⟩
  | 105 => ⟨S250000, .i32⟩
  | 106 => ⟨S250000, .i1⟩
  | 107 => ⟨S_, .i32⟩
  | 108 => ⟨S250000, .i32⟩
  | 109 => ⟨S250000, .i32⟩
  | 110 => ⟨S250000, .i32⟩
  | 111 => ⟨S250000x1, .i32⟩
  | 112 => ⟨S250000x128, .f32⟩
  | 113 => ⟨S_, .i32⟩
  | 114 => ⟨S250000, .i32⟩
  | 115 => ⟨S250000, .i1⟩
  | 116 => ⟨S_, .i32⟩
  | 117 => ⟨S250000, .i32⟩
  | 118 => ⟨S250000, .i32⟩
  | 119 => ⟨S250000, .i32⟩
  | 120 => ⟨S250000x1, .i32⟩
  | 121 => ⟨S250000x128, .f32⟩
  | 122 => ⟨S_, .i32⟩
  | 123 => ⟨S250000, .i32⟩
  | 124 => ⟨S250000, .i1⟩
  | 125 => ⟨S_, .i32⟩
  | 126 => ⟨S250000, .i32⟩
  | 127 => ⟨S250000, .i32⟩
  | _ => ⟨S10000x11, .f32⟩

abbrev hbmTy0_2 (i : Nat) : BufTy := match i % 128 with
  | 0 => ⟨S250000, .i32⟩
  | 1 => ⟨S250000x1, .i32⟩
  | 2 => ⟨S250000x3, .f32⟩
  | 3 => ⟨S_, .i32⟩
  | 4 => ⟨S250000, .i32⟩
  | 5 => ⟨S250000, .i1⟩
  | 6 => ⟨S_, .i32⟩
  | 7 => ⟨S250000, .i32⟩
  | 8 => ⟨S250000, .i32⟩
  | 9 => ⟨S250000, .i32⟩
  | 10 => ⟨S250000x1, .i32⟩
  | 11 => ⟨S250000x3, .f32⟩
  | 12 => ⟨S250000x3, .f32⟩
  | 13 => ⟨S250000x3, .f32⟩
  | 14 => ⟨S_, .f32⟩
  | 15 => ⟨S250000, .f32⟩
  | 16 => ⟨S250000x1, .f32⟩
  | 17 => ⟨S250000x1, .f32⟩
  | 18 => ⟨S250000x257, .f32⟩
  | 19 => ⟨S1x257x128, .f32⟩
  | 20 => ⟨S257x128, .f32⟩
  | 21 => ⟨S250000x128, .f32⟩
  | 22 => ⟨S1x128, .f32⟩
  | 23 => ⟨S128, .f32⟩
  | 24 => ⟨S1x128, .f32⟩
  | 25 => ⟨S250000x128, .f32⟩
  | 26 => ⟨S250000x128, .f32⟩
  | 27 => ⟨S250000x128, .f32⟩
  | 28 => ⟨S250000x128, .f32⟩
  | 29 => ⟨S_, .f32⟩
  | 30 => ⟨S250000x128, .f32⟩
  | 31 => ⟨S250000x128, .f32⟩
  | 32 => ⟨S_, .f32⟩
  | 33 => ⟨S250000x128, .f32⟩
  | 34 => ⟨S250000x128, .f32⟩
  | 35 => ⟨S250000x128, .f32⟩
  | 36 => ⟨S1x128x128, .f32⟩
  | 37 => ⟨S128x128, .f32⟩
  | 38 => ⟨S250000x128, .f32⟩
  | 39 => ⟨S1x128, .f32⟩
  | 40 => ⟨S128, .f32⟩
  | 41 => ⟨S1x128, .f32⟩
  | 42 => ⟨S250000x128, .f32⟩
  | 43 => ⟨S250000x128, .f32⟩
  | 44 => ⟨S250000x128, .f32⟩
  | 45 => ⟨S250000x128, .f32⟩
  | 46 => ⟨S_, .f32⟩
  | 47 => ⟨S250000x128, .f32⟩
  | 48 => ⟨S250000x128, .f32⟩
  | 49 => ⟨S_, .f32⟩
  | 50 => ⟨S250000x128, .f32⟩
  | 51 => ⟨S250000x128, .f32⟩
  | 52 => ⟨S250000x128, .f32⟩
  | 53 => ⟨S1x128x1, .f32⟩
  | 54 => ⟨S128x1, .f32⟩
  | 55 => ⟨S250000x1, .f32⟩
  | 56 => ⟨S1x1, .f32⟩
  | 57 => ⟨S1, .f32⟩
  | 58 => ⟨S1x1, .f32⟩
  | 59 => ⟨S250000x1, .f32⟩
  | 60 => ⟨S250000x1, .f32⟩
  | 61 => ⟨S250000x1, .f32⟩
  | 62 => ⟨S250000x1, .f32⟩
  | 63 => ⟨S_, .f32⟩
  | 64 => ⟨S250000x1, .f32⟩
  | 65 => ⟨S250000x1, .f32⟩
  | 66 => ⟨S_, .f32⟩
  | 67 => ⟨S250000x1, .f32⟩
  | 68 => ⟨S250000x1, .f32⟩
  | 69 => ⟨S250000x128, .f32⟩
  | 70 => ⟨S250000x128, .f32⟩
  | 71 => ⟨S_, .f32⟩
  | 72 => ⟨S10000x128, .f32⟩
  | 73 => ⟨S250000x1, .i32⟩
  | 74 => ⟨S10000x128, .f32⟩
  | 75 => ⟨S10000x256, .f32⟩
  | 76 => ⟨S1x256x128, .f32⟩
  | 77 => ⟨S256x128, .f32⟩
  | 78 => ⟨S10000x128, .f32⟩
  | 79 => ⟨S1x128, .f32⟩
  | 80 => ⟨S128, .f32⟩
  | 81 => ⟨S1x128, .f32⟩
  | 82 => ⟨S10000x128, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S_, .f32⟩
  | 90 => ⟨S10000x128, .f32⟩
  | 91 => ⟨S10000x128, .f32⟩
  | 92 => ⟨S10000x128, .f32⟩
  | 93 => ⟨S1x128x128, .f32⟩
  | 94 => ⟨S128x128, .f32⟩
  | 95 => ⟨S10000x128, .f32⟩
  | 96 => ⟨S1x128, .f32⟩
  | 97 => ⟨S128, .f32⟩
  | 98 => ⟨S1x128, .f32⟩
  | 99 => ⟨S10000x128, .f32⟩
  | 100 => ⟨S10000x128, .f32⟩
  | 101 => ⟨S10000x128, .f32⟩
  | 102 => ⟨S_, .f32⟩
  | 103 => ⟨S10000, .f32⟩
  | 104 => ⟨S10000x1, .f32⟩
  | 105 => ⟨S_, .f32⟩
  | 106 => ⟨S10000x1, .f32⟩
  | 107 => ⟨S10000x1, .f32⟩
  | 108 => ⟨S_, .i32⟩
  | 109 => ⟨S_, .f32⟩
  | 110 => ⟨S10000, .f32⟩
  | 111 => ⟨S10000x1, .f32⟩
  | 112 => ⟨S_, .f32⟩
  | 113 => ⟨S10000x1, .f32⟩
  | 114 => ⟨S10000x1, .f32⟩
  | 115 => ⟨S10000x128, .f32⟩
  | 116 => ⟨S10000x128, .f32⟩
  | 117 => ⟨S10000x128, .f32⟩
  | 118 => ⟨S_, .f32⟩
  | 119 => ⟨S_, .f32⟩
  | 120 => ⟨S_, .f32⟩
  | 121 => ⟨S_, .f32⟩
  | 122 => ⟨S10000, .f32⟩
  | 123 => ⟨S10000x1, .f32⟩
  | 124 => ⟨S10000x1, .f32⟩
  | 125 => ⟨S10000x1, .f32⟩
  | 126 => ⟨S_, .f32⟩
  | 127 => ⟨S_, .i1⟩
  | _ => ⟨S10000x11, .f32⟩

abbrev hbmTy0_3 (i : Nat) : BufTy := match i % 128 with
  | 0 => ⟨S_, .f32⟩
  | 1 => ⟨S_, .f32⟩
  | 2 => ⟨S10000x1, .f32⟩
  | 3 => ⟨S10000x1, .f32⟩
  | 4 => ⟨S10000x128, .f32⟩
  | 5 => ⟨S10000x128, .f32⟩
  | 6 => ⟨S_, .f32⟩
  | 7 => ⟨S10000x1, .f32⟩
  | 8 => ⟨S10000x1, .f32⟩
  | 9 => ⟨S10000x1, .f32⟩
  | 10 => ⟨S10000x128, .f32⟩
  | 11 => ⟨S10000x128, .f32⟩
  | 12 => ⟨S1x128, .f32⟩
  | 13 => ⟨S128, .f32⟩
  | 14 => ⟨S1x128, .f32⟩
  | 15 => ⟨S10000x128, .f32⟩
  | 16 => ⟨S10000x128, .f32⟩
  | 17 => ⟨S1x128, .f32⟩
  | 18 => ⟨S128, .f32⟩
  | 19 => ⟨S1x128, .f32⟩
  | 20 => ⟨S10000x128, .f32⟩
  | 21 => ⟨S10000x128, .f32⟩
  | 22 => ⟨S_, .i32⟩
  | 23 => ⟨S250000, .i32⟩
  | 24 => ⟨S250000, .i1⟩
  | 25 => ⟨S_, .i32⟩
  | 26 => ⟨S250000, .i32⟩
  | 27 => ⟨S250000, .i32⟩
  | 28 => ⟨S250000, .i32⟩
  | 29 => ⟨S250000x1, .i32⟩
  | 30 => ⟨S250000x128, .f32⟩
  | 31 => ⟨S_, .i32⟩
  | 32 => ⟨S250000, .i32⟩
  | 33 => ⟨S250000, .i1⟩
  | 34 => ⟨S_, .i32⟩
  | 35 => ⟨S250000, .i32⟩
  | 36 => ⟨S250000, .i32⟩
  | 37 => ⟨S250000, .i32⟩
  | 38 => ⟨S250000x1, .i32⟩
  | 39 => ⟨S250000x128, .f32⟩
  | 40 => ⟨S_, .i32⟩
  | 41 => ⟨S250000, .i32⟩
  | 42 => ⟨S250000, .i1⟩
  | 43 => ⟨S_, .i32⟩
  | 44 => ⟨S250000, .i32⟩
  | 45 => ⟨S250000, .i32⟩
  | 46 => ⟨S250000, .i32⟩
  | 47 => ⟨S250000x1, .i32⟩
  | 48 => ⟨S250000x3, .f32⟩
  | 49 => ⟨S_, .i32⟩
  | 50 => ⟨S250000, .i32⟩
  | 51 => ⟨S250000, .i1⟩
  | 52 => ⟨S_, .i32⟩
  | 53 => ⟨S250000, .i32⟩
  | 54 => ⟨S250000, .i32⟩
  | 55 => ⟨S250000, .i32⟩
  | 56 => ⟨S250000x1, .i32⟩
  | 57 => ⟨S250000x3, .f32⟩
  | 58 => ⟨S250000x3, .f32⟩
  | 59 => ⟨S250000x3, .f32⟩
  | 60 => ⟨S_, .f32⟩
  | 61 => ⟨S250000, .f32⟩
  | 62 => ⟨S250000x1, .f32⟩
  | 63 => ⟨S250000x1, .f32⟩
  | 64 => ⟨S250000x257, .f32⟩
  | 65 => ⟨S1x257x128, .f32⟩
  | 66 => ⟨S257x128, .f32⟩
  | 67 => ⟨S250000x128, .f32⟩
  | 68 => ⟨S1x128, .f32⟩
  | 69 => ⟨S128, .f32⟩
  | 70 => ⟨S1x128, .f32⟩
  | 71 => ⟨S250000x128, .f32⟩
  | 72 => ⟨S250000x128, .f32⟩
  | 73 => ⟨S250000x128, .f32⟩
  | 74 => ⟨S250000x128, .f32⟩
  | 75 => ⟨S_, .f32⟩
  | 76 => ⟨S250000x128, .f32⟩
  | 77 => ⟨S250000x128, .f32⟩
  | 78 => ⟨S_, .f32⟩
  | 79 => ⟨S250000x128, .f32⟩
  | 80 => ⟨S250000x128, .f32⟩
  | 81 => ⟨S250000x128, .f32⟩
  | 82 => ⟨S1x128x128, .f32⟩
  | 83 => ⟨S128x128, .f32⟩
  | 84 => ⟨S250000x128, .f32⟩
  | 85 => ⟨S1x128, .f32⟩
  | 86 => ⟨S128, .f32⟩
  | 87 => ⟨S1x128, .f32⟩
  | 88 => ⟨S250000x128, .f32⟩
  | 89 => ⟨S250000x128, .f32⟩
  | 90 => ⟨S250000x128, .f32⟩
  | 91 => ⟨S250000x128, .f32⟩
  | 92 => ⟨S_, .f32⟩
  | 93 => ⟨S250000x128, .f32⟩
  | 94 => ⟨S250000x128, .f32⟩
  | 95 => ⟨S_, .f32⟩
  | 96 => ⟨S250000x128, .f32⟩
  | 97 => ⟨S250000x128, .f32⟩
  | 98 => ⟨S250000x128, .f32⟩
  | 99 => ⟨S1x128x1, .f32⟩
  | 100 => ⟨S128x1, .f32⟩
  | 101 => ⟨S250000x1, .f32⟩
  | 102 => ⟨S1x1, .f32⟩
  | 103 => ⟨S1, .f32⟩
  | 104 => ⟨S1x1, .f32⟩
  | 105 => ⟨S250000x1, .f32⟩
  | 106 => ⟨S250000x1, .f32⟩
  | 107 => ⟨S250000x1, .f32⟩
  | 108 => ⟨S250000x1, .f32⟩
  | 109 => ⟨S_, .f32⟩
  | 110 => ⟨S250000x1, .f32⟩
  | 111 => ⟨S250000x1, .f32⟩
  | 112 => ⟨S_, .f32⟩
  | 113 => ⟨S250000x1, .f32⟩
  | 114 => ⟨S250000x1, .f32⟩
  | 115 => ⟨S250000x128, .f32⟩
  | 116 => ⟨S250000x128, .f32⟩
  | 117 => ⟨S_, .f32⟩
  | 118 => ⟨S10000x128, .f32⟩
  | 119 => ⟨S250000x1, .i32⟩
  | 120 => ⟨S10000x128, .f32⟩
  | 121 => ⟨S10000x256, .f32⟩
  | 122 => ⟨S1x256x128, .f32⟩
  | 123 => ⟨S256x128, .f32⟩
  | 124 => ⟨S10000x128, .f32⟩
  | 125 => ⟨S1x128, .f32⟩
  | 126 => ⟨S128, .f32⟩
  | 127 => ⟨S1x128, .f32⟩
  | _ => ⟨S10000x11, .f32⟩

abbrev hbmTy0_4 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S_, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S10000x128, .f32⟩
  | 11 => ⟨S1x128x128, .f32⟩
  | 12 => ⟨S128x128, .f32⟩
  | 13 => ⟨S10000x128, .f32⟩
  | 14 => ⟨S1x128, .f32⟩
  | 15 => ⟨S128, .f32⟩
  | 16 => ⟨S1x128, .f32⟩
  | 17 => ⟨S10000x128, .f32⟩
  | 18 => ⟨S10000x128, .f32⟩
  | 19 => ⟨S10000x128, .f32⟩
  | 20 => ⟨S_, .f32⟩
  | 21 => ⟨S10000, .f32⟩
  | 22 => ⟨S10000x1, .f32⟩
  | 23 => ⟨S_, .f32⟩
  | 24 => ⟨S10000x1, .f32⟩
  | 25 => ⟨S10000x1, .f32⟩
  | 26 => ⟨S_, .i32⟩
  | 27 => ⟨S_, .f32⟩
  | 28 => ⟨S10000, .f32⟩
  | 29 => ⟨S10000x1, .f32⟩
  | 30 => ⟨S_, .f32⟩
  | 31 => ⟨S10000x1, .f32⟩
  | 32 => ⟨S10000x1, .f32⟩
  | 33 => ⟨S10000x128, .f32⟩
  | 34 => ⟨S10000x128, .f32⟩
  | 35 => ⟨S10000x128, .f32⟩
  | 36 => ⟨S_, .f32⟩
  | 37 => ⟨S_, .f32⟩
  | 38 => ⟨S_, .f32⟩
  | 39 => ⟨S_, .f32⟩
  | 40 => ⟨S10000, .f32⟩
  | 41 => ⟨S10000x1, .f32⟩
  | 42 => ⟨S10000x1, .f32⟩
  | 43 => ⟨S10000x1, .f32⟩
  | 44 => ⟨S_, .f32⟩
  | 45 => ⟨S_, .i1⟩
  | 46 => ⟨S_, .f32⟩
  | 47 => ⟨S_, .f32⟩
  | 48 => ⟨S10000x1, .f32⟩
  | 49 => ⟨S10000x1, .f32⟩
  | 50 => ⟨S10000x128, .f32⟩
  | 51 => ⟨S10000x128, .f32⟩
  | 52 => ⟨S_, .f32⟩
  | 53 => ⟨S10000x1, .f32⟩
  | 54 => ⟨S10000x1, .f32⟩
  | 55 => ⟨S10000x1, .f32⟩
  | 56 => ⟨S10000x128, .f32⟩
  | 57 => ⟨S10000x128, .f32⟩
  | 58 => ⟨S1x128, .f32⟩
  | 59 => ⟨S128, .f32⟩
  | 60 => ⟨S1x128, .f32⟩
  | 61 => ⟨S10000x128, .f32⟩
  | 62 => ⟨S10000x128, .f32⟩
  | 63 => ⟨S1x128, .f32⟩
  | 64 => ⟨S128, .f32⟩
  | 65 => ⟨S1x128, .f32⟩
  | 66 => ⟨S10000x128, .f32⟩
  | 67 => ⟨S10000x128, .f32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S250000x128, .f32⟩
  | 77 => ⟨S_, .i32⟩
  | 78 => ⟨S250000, .i32⟩
  | 79 => ⟨S250000, .i1⟩
  | 80 => ⟨S_, .i32⟩
  | 81 => ⟨S250000, .i32⟩
  | 82 => ⟨S250000, .i32⟩
  | 83 => ⟨S250000, .i32⟩
  | 84 => ⟨S250000x1, .i32⟩
  | 85 => ⟨S250000x128, .f32⟩
  | 86 => ⟨S_, .i32⟩
  | 87 => ⟨S250000, .i32⟩
  | 88 => ⟨S250000, .i1⟩
  | 89 => ⟨S_, .i32⟩
  | 90 => ⟨S250000, .i32⟩
  | 91 => ⟨S250000, .i32⟩
  | 92 => ⟨S250000, .i32⟩
  | 93 => ⟨S250000x1, .i32⟩
  | 94 => ⟨S250000x3, .f32⟩
  | 95 => ⟨S_, .i32⟩
  | 96 => ⟨S250000, .i32⟩
  | 97 => ⟨S250000, .i1⟩
  | 98 => ⟨S_, .i32⟩
  | 99 => ⟨S250000, .i32⟩
  | 100 => ⟨S250000, .i32⟩
  | 101 => ⟨S250000, .i32⟩
  | 102 => ⟨S250000x1, .i32⟩
  | 103 => ⟨S250000x3, .f32⟩
  | 104 => ⟨S250000x3, .f32⟩
  | 105 => ⟨S250000x3, .f32⟩
  | 106 => ⟨S_, .f32⟩
  | 107 => ⟨S250000, .f32⟩
  | 108 => ⟨S250000x1, .f32⟩
  | 109 => ⟨S250000x1, .f32⟩
  | 110 => ⟨S250000x257, .f32⟩
  | 111 => ⟨S1x257x128, .f32⟩
  | 112 => ⟨S257x128, .f32⟩
  | 113 => ⟨S250000x128, .f32⟩
  | 114 => ⟨S1x128, .f32⟩
  | 115 => ⟨S128, .f32⟩
  | 116 => ⟨S1x128, .f32⟩
  | 117 => ⟨S250000x128, .f32⟩
  | 118 => ⟨S250000x128, .f32⟩
  | 119 => ⟨S250000x128, .f32⟩
  | 120 => ⟨S250000x128, .f32⟩
  | 121 => ⟨S_, .f32⟩
  | 122 => ⟨S250000x128, .f32⟩
  | 123 => ⟨S250000x128, .f32⟩
  | 124 => ⟨S_, .f32⟩
  | 125 => ⟨S250000x128, .f32⟩
  | 126 => ⟨S250000x128, .f32⟩
  | 127 => ⟨S250000x128, .f32⟩
  | _ => ⟨S10000x11, .f32⟩

abbrev hbmTy0_5 (i : Nat) : BufTy := match i % 128 with
  | 0 => ⟨S1x128x128, .f32⟩
  | 1 => ⟨S128x128, .f32⟩
  | 2 => ⟨S250000x128, .f32⟩
  | 3 => ⟨S1x128, .f32⟩
  | 4 => ⟨S128, .f32⟩
  | 5 => ⟨S1x128, .f32⟩
  | 6 => ⟨S250000x128, .f32⟩
  | 7 => ⟨S250000x128, .f32⟩
  | 8 => ⟨S250000x128, .f32⟩
  | 9 => ⟨S250000x128, .f32⟩
  | 10 => ⟨S_, .f32⟩
  | 11 => ⟨S250000x128, .f32⟩
  | 12 => ⟨S250000x128, .f32⟩
  | 13 => ⟨S_, .f32⟩
  | 14 => ⟨S250000x128, .f32⟩
  | 15 => ⟨S250000x128, .f32⟩
  | 16 => ⟨S250000x128, .f32⟩
  | 17 => ⟨S1x128x1, .f32⟩
  | 18 => ⟨S128x1, .f32⟩
  | 19 => ⟨S250000x1, .f32⟩
  | 20 => ⟨S1x1, .f32⟩
  | 21 => ⟨S1, .f32⟩
  | 22 => ⟨S1x1, .f32⟩
  | 23 => ⟨S250000x1, .f32⟩
  | 24 => ⟨S250000x1, .f32⟩
  | 25 => ⟨S250000x1, .f32⟩
  | 26 => ⟨S250000x1, .f32⟩
  | 27 => ⟨S_, .f32⟩
  | 28 => ⟨S250000x1, .f32⟩
  | 29 => ⟨S250000x1, .f32⟩
  | 30 => ⟨S_, .f32⟩
  | 31 => ⟨S250000x1, .f32⟩
  | 32 => ⟨S250000x1, .f32⟩
  | 33 => ⟨S250000x128, .f32⟩
  | 34 => ⟨S250000x128, .f32⟩
  | 35 => ⟨S_, .f32⟩
  | 36 => ⟨S10000x128, .f32⟩
  | 37 => ⟨S250000x1, .i32⟩
  | 38 => ⟨S10000x128, .f32⟩
  | 39 => ⟨S10000x256, .f32⟩
  | 40 => ⟨S1x256x128, .f32⟩
  | 41 => ⟨S256x128, .f32⟩
  | 42 => ⟨S10000x128, .f32⟩
  | 43 => ⟨S1x128, .f32⟩
  | 44 => ⟨S128, .f32⟩
  | 45 => ⟨S1x128, .f32⟩
  | 46 => ⟨S10000x128, .f32⟩
  | 47 => ⟨S10000x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S1x128x128, .f32⟩
  | 58 => ⟨S128x128, .f32⟩
  | 59 => ⟨S10000x128, .f32⟩
  | 60 => ⟨S1x128, .f32⟩
  | 61 => ⟨S128, .f32⟩
  | 62 => ⟨S1x128, .f32⟩
  | 63 => ⟨S10000x128, .f32⟩
  | 64 => ⟨S10000x128, .f32⟩
  | 65 => ⟨S10000x128, .f32⟩
  | 66 => ⟨S_, .f32⟩
  | 67 => ⟨S10000, .f32⟩
  | 68 => ⟨S10000x1, .f32⟩
  | 69 => ⟨S_, .f32⟩
  | 70 => ⟨S10000x1, .f32⟩
  | 71 => ⟨S10000x1, .f32⟩
  | 72 => ⟨S_, .i32⟩
  | 73 => ⟨S_, .f32⟩
  | 74 => ⟨S10000, .f32⟩
  | 75 => ⟨S10000x1, .f32⟩
  | 76 => ⟨S_, .f32⟩
  | 77 => ⟨S10000x1, .f32⟩
  | 78 => ⟨S10000x1, .f32⟩
  | 79 => ⟨S10000x128, .f32⟩
  | 80 => ⟨S10000x128, .f32⟩
  | 81 => ⟨S10000x128, .f32⟩
  | 82 => ⟨S_, .f32⟩
  | 83 => ⟨S_, .f32⟩
  | 84 => ⟨S_, .f32⟩
  | 85 => ⟨S_, .f32⟩
  | 86 => ⟨S10000, .f32⟩
  | 87 => ⟨S10000x1, .f32⟩
  | 88 => ⟨S10000x1, .f32⟩
  | 89 => ⟨S10000x1, .f32⟩
  | 90 => ⟨S_, .f32⟩
  | 91 => ⟨S_, .i1⟩
  | 92 => ⟨S_, .f32⟩
  | 93 => ⟨S_, .f32⟩
  | 94 => ⟨S10000x1, .f32⟩
  | 95 => ⟨S10000x1, .f32⟩
  | 96 => ⟨S10000x128, .f32⟩
  | 97 => ⟨S10000x128, .f32⟩
  | 98 => ⟨S_, .f32⟩
  | 99 => ⟨S10000x1, .f32⟩
  | 100 => ⟨S10000x1, .f32⟩
  | 101 => ⟨S10000x1, .f32⟩
  | 102 => ⟨S10000x128, .f32⟩
  | 103 => ⟨S10000x128, .f32⟩
  | 104 => ⟨S1x128, .f32⟩
  | 105 => ⟨S128, .f32⟩
  | 106 => ⟨S1x128, .f32⟩
  | 107 => ⟨S10000x128, .f32⟩
  | 108 => ⟨S10000x128, .f32⟩
  | 109 => ⟨S1x128, .f32⟩
  | 110 => ⟨S128, .f32⟩
  | 111 => ⟨S1x128, .f32⟩
  | 112 => ⟨S10000x128, .f32⟩
  | 113 => ⟨S10000x128, .f32⟩
  | 114 => ⟨S_, .f32⟩
  | 115 => ⟨S256x128, .f32⟩
  | 116 => ⟨S10000x1, .i32⟩
  | 117 => ⟨S256x128, .f32⟩
  | 118 => ⟨S_, .f32⟩
  | 119 => ⟨S10000x1, .f32⟩
  | 120 => ⟨S_, .f32⟩
  | 121 => ⟨S256x1, .f32⟩
  | 122 => ⟨S10000x1, .i32⟩
  | 123 => ⟨S256x1, .f32⟩
  | 124 => ⟨S_, .f32⟩
  | 125 => ⟨S256x1, .f32⟩
  | 126 => ⟨S256x1, .f32⟩
  | 127 => ⟨S256x128, .f32⟩
  | _ => ⟨S10000x11, .f32⟩

abbrev hbmTy0_6 (i : Nat) : BufTy := match i % 128 with
  | 0 => ⟨S256x128, .f32⟩
  | 1 => ⟨S256x128, .f32⟩
  | 2 => ⟨S1x128, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S256x1, .f32⟩
  | 9 => ⟨S1x1, .f32⟩
  | 10 => ⟨S256x1, .f32⟩
  | 11 => ⟨S256x1, .f32⟩
  | _ => ⟨S10000x11, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S10000x11, .f32⟩

abbrev bufTy : (tb : Table) → Fin (tcTables nBuf tb) → BufTy
  | .hbm, ⟨i, _⟩ => hbmTy i
  | _, _ => ⟨S10000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_cst : Ref sig .tc := ⟨.hbm, 26, rfl⟩
abbrev main_call0_v0 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_8 : Ref sig .tc := ⟨.hbm, 76, rfl⟩
abbrev main_v42 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_10 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_v0 : Ref sig .tc := ⟨.hbm, 95, rfl⟩
abbrev main_call1_cst : Ref sig .tc := ⟨.hbm, 96, rfl⟩
abbrev main_call1_v1 : Ref sig .tc := ⟨.hbm, 97, rfl⟩
abbrev main_call1_v2 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_12 : Ref sig .tc := ⟨.hbm, 145, rfl⟩
abbrev main_v87 : Ref sig .tc := ⟨.hbm, 146, rfl⟩
abbrev main_v88 : Ref sig .tc := ⟨.hbm, 147, rfl⟩
abbrev main_cst_13 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_14 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_call4_v0 : Ref sig .tc := ⟨.hbm, 166, rfl⟩
abbrev main_call4_v1 : Ref sig .tc := ⟨.hbm, 167, rfl⟩
abbrev main_call4_cst : Ref sig .tc := ⟨.hbm, 168, rfl⟩
abbrev main_call4_v2 : Ref sig .tc := ⟨.hbm, 169, rfl⟩
abbrev main_call4_v3 : Ref sig .tc := ⟨.hbm, 170, rfl⟩
abbrev main_call4_cst_0 : Ref sig .tc := ⟨.hbm, 171, rfl⟩
abbrev main_call4_v4 : Ref sig .tc := ⟨.hbm, 172, rfl⟩
abbrev main_call4_v5 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_15 : Ref sig .tc := ⟨.hbm, 184, rfl⟩
abbrev main_v115 : Ref sig .tc := ⟨.hbm, 185, rfl⟩
abbrev main_v116 : Ref sig .tc := ⟨.hbm, 186, rfl⟩
abbrev main_cst_16 : Ref sig .tc := ⟨.hbm, 187, rfl⟩
abbrev main_v117 : Ref sig .tc := ⟨.hbm, 188, rfl⟩
abbrev main_v118 : Ref sig .tc := ⟨.hbm, 189, rfl⟩
abbrev main_c_17 : Ref sig .tc := ⟨.hbm, 190, rfl⟩
abbrev main_call5_cst : Ref sig .tc := ⟨.hbm, 191, rfl⟩
abbrev main_call5_v0 : Ref sig .tc := ⟨.hbm, 192, rfl⟩
abbrev main_call5_v1 : Ref sig .tc := ⟨.hbm, 193, rfl⟩
abbrev main_call5_cst_0 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_call5_v5 : Ref sig .tc := ⟨.hbm, 198, rfl⟩
abbrev main_call5_v6 : Ref sig .tc := ⟨.hbm, 199, rfl⟩
abbrev main_call5_v7 : Ref sig .tc := ⟨.hbm, 200, rfl⟩
abbrev main_call5_cst_1 : Ref sig .tc := ⟨.hbm, 201, rfl⟩
abbrev main_call5_v8 : Ref sig .tc := ⟨.hbm, 202, rfl⟩
abbrev main_call5_cst_2 : Ref sig .tc := ⟨.hbm, 203, rfl⟩
abbrev main_call5_v9 : Ref sig .tc := ⟨.hbm, 204, rfl⟩
abbrev main_call5_v10 : Ref sig .tc := ⟨.hbm, 205, rfl⟩
abbrev main_call5_v11 : Ref sig .tc := ⟨.hbm, 206, rfl⟩
abbrev main_call5_v12 : Ref sig .tc := ⟨.hbm, 207, rfl⟩
abbrev main_call5_cst_3 : Ref sig .tc := ⟨.hbm, 208, rfl⟩
abbrev main_call5_v13 : Ref sig .tc := ⟨.hbm, 209, rfl⟩
abbrev main_call5_cst_4 : Ref sig .tc := ⟨.hbm, 210, rfl⟩
abbrev main_call5_call0_v0 : Ref sig .tc := ⟨.hbm, 211, rfl⟩
abbrev main_call5_call0_v1 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_cst_18 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_c_19 : Ref sig .tc := ⟨.hbm, 232, rfl⟩
abbrev main_v137 : Ref sig .tc := ⟨.hbm, 233, rfl⟩
abbrev main_v138 : Ref sig .tc := ⟨.hbm, 234, rfl⟩
abbrev main_c_20 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_c_21 : Ref sig .tc := ⟨.hbm, 241, rfl⟩
abbrev main_v144 : Ref sig .tc := ⟨.hbm, 242, rfl⟩
abbrev main_v145 : Ref sig .tc := ⟨.hbm, 243, rfl⟩
abbrev main_c_22 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_c_23 : Ref sig .tc := ⟨.hbm, 250, rfl⟩
abbrev main_v151 : Ref sig .tc := ⟨.hbm, 251, rfl⟩
abbrev main_v152 : Ref sig .tc := ⟨.hbm, 252, rfl⟩
abbrev main_c_24 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_c_25 : Ref sig .tc := ⟨.hbm, 259, rfl⟩
abbrev main_v158 : Ref sig .tc := ⟨.hbm, 260, rfl⟩
abbrev main_v159 : Ref sig .tc := ⟨.hbm, 261, rfl⟩
abbrev main_c_26 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_call6_v0 : Ref sig .tc := ⟨.hbm, 269, rfl⟩
abbrev main_call6_cst : Ref sig .tc := ⟨.hbm, 270, rfl⟩
abbrev main_call6_v1 : Ref sig .tc := ⟨.hbm, 271, rfl⟩
abbrev main_call6_v2 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_call7_v0 : Ref sig .tc := ⟨.hbm, 283, rfl⟩
abbrev main_call7_v1 : Ref sig .tc := ⟨.hbm, 284, rfl⟩
abbrev main_call7_cst : Ref sig .tc := ⟨.hbm, 285, rfl⟩
abbrev main_call7_v2 : Ref sig .tc := ⟨.hbm, 286, rfl⟩
abbrev main_call7_v3 : Ref sig .tc := ⟨.hbm, 287, rfl⟩
abbrev main_call7_cst_0 : Ref sig .tc := ⟨.hbm, 288, rfl⟩
abbrev main_call7_v4 : Ref sig .tc := ⟨.hbm, 289, rfl⟩
abbrev main_call7_v5 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_call8_v0 : Ref sig .tc := ⟨.hbm, 300, rfl⟩
abbrev main_call8_v1 : Ref sig .tc := ⟨.hbm, 301, rfl⟩
abbrev main_call8_cst : Ref sig .tc := ⟨.hbm, 302, rfl⟩
abbrev main_call8_v2 : Ref sig .tc := ⟨.hbm, 303, rfl⟩
abbrev main_call8_v3 : Ref sig .tc := ⟨.hbm, 304, rfl⟩
abbrev main_call8_cst_0 : Ref sig .tc := ⟨.hbm, 305, rfl⟩
abbrev main_call8_v4 : Ref sig .tc := ⟨.hbm, 306, rfl⟩
abbrev main_call8_v5 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_cst_27 : Ref sig .tc := ⟨.hbm, 319, rfl⟩
abbrev main_v196 : Ref sig .tc := ⟨.hbm, 320, rfl⟩
abbrev main_v197 : Ref sig .tc := ⟨.hbm, 321, rfl⟩
abbrev main_cst_28 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_cst_29 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_call9_v0 : Ref sig .tc := ⟨.hbm, 340, rfl⟩
abbrev main_call9_v1 : Ref sig .tc := ⟨.hbm, 341, rfl⟩
abbrev main_call9_cst : Ref sig .tc := ⟨.hbm, 342, rfl⟩
abbrev main_call9_v2 : Ref sig .tc := ⟨.hbm, 343, rfl⟩
abbrev main_call9_v3 : Ref sig .tc := ⟨.hbm, 344, rfl⟩
abbrev main_call9_cst_0 : Ref sig .tc := ⟨.hbm, 345, rfl⟩
abbrev main_call9_v4 : Ref sig .tc := ⟨.hbm, 346, rfl⟩
abbrev main_call9_v5 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_cst_30 : Ref sig .tc := ⟨.hbm, 358, rfl⟩
abbrev main_v224 : Ref sig .tc := ⟨.hbm, 359, rfl⟩
abbrev main_v225 : Ref sig .tc := ⟨.hbm, 360, rfl⟩
abbrev main_cst_31 : Ref sig .tc := ⟨.hbm, 361, rfl⟩
abbrev main_v226 : Ref sig .tc := ⟨.hbm, 362, rfl⟩
abbrev main_v227 : Ref sig .tc := ⟨.hbm, 363, rfl⟩
abbrev main_c_32 : Ref sig .tc := ⟨.hbm, 364, rfl⟩
abbrev main_call10_cst : Ref sig .tc := ⟨.hbm, 365, rfl⟩
abbrev main_call10_v0 : Ref sig .tc := ⟨.hbm, 366, rfl⟩
abbrev main_call10_v1 : Ref sig .tc := ⟨.hbm, 367, rfl⟩
abbrev main_call10_cst_0 : Ref sig .tc := ⟨.hbm, 368, rfl⟩
abbrev main_call10_v2 : Ref sig .tc := ⟨.hbm, 369, rfl⟩
abbrev main_call10_v3 : Ref sig .tc := ⟨.hbm, 370, rfl⟩
abbrev main_call10_v4 : Ref sig .tc := ⟨.hbm, 371, rfl⟩
abbrev main_call10_v5 : Ref sig .tc := ⟨.hbm, 372, rfl⟩
abbrev main_call10_v6 : Ref sig .tc := ⟨.hbm, 373, rfl⟩
abbrev main_call10_v7 : Ref sig .tc := ⟨.hbm, 374, rfl⟩
abbrev main_call10_cst_1 : Ref sig .tc := ⟨.hbm, 375, rfl⟩
abbrev main_call10_v8 : Ref sig .tc := ⟨.hbm, 376, rfl⟩
abbrev main_call10_cst_2 : Ref sig .tc := ⟨.hbm, 377, rfl⟩
abbrev main_call10_v9 : Ref sig .tc := ⟨.hbm, 378, rfl⟩
abbrev main_call10_v10 : Ref sig .tc := ⟨.hbm, 379, rfl⟩
abbrev main_call10_v11 : Ref sig .tc := ⟨.hbm, 380, rfl⟩
abbrev main_call10_v12 : Ref sig .tc := ⟨.hbm, 381, rfl⟩
abbrev main_call10_cst_3 : Ref sig .tc := ⟨.hbm, 382, rfl⟩
abbrev main_call10_v13 : Ref sig .tc := ⟨.hbm, 383, rfl⟩
abbrev main_call10_cst_4 : Ref sig .tc := ⟨.hbm, 384, rfl⟩
abbrev main_call10_call0_v0 : Ref sig .tc := ⟨.hbm, 385, rfl⟩
abbrev main_call10_call0_v1 : Ref sig .tc := ⟨.hbm, 386, rfl⟩
abbrev main_v228 : Ref sig .tc := ⟨.hbm, 387, rfl⟩
abbrev main_v229 : Ref sig .tc := ⟨.hbm, 388, rfl⟩
abbrev main_v230 : Ref sig .tc := ⟨.hbm, 389, rfl⟩
abbrev main_cst_33 : Ref sig .tc := ⟨.hbm, 390, rfl⟩
abbrev main_v231 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_v235 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩
abbrev main_v239 : Ref sig .tc := ⟨.hbm, 399, rfl⟩
abbrev main_v240 : Ref sig .tc := ⟨.hbm, 400, rfl⟩
abbrev main_v241 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_v245 : Ref sig .tc := ⟨.hbm, 405, rfl⟩
abbrev main_c_34 : Ref sig .tc := ⟨.hbm, 406, rfl⟩
abbrev main_v246 : Ref sig .tc := ⟨.hbm, 407, rfl⟩
abbrev main_v247 : Ref sig .tc := ⟨.hbm, 408, rfl⟩
abbrev main_c_35 : Ref sig .tc := ⟨.hbm, 409, rfl⟩
abbrev main_v248 : Ref sig .tc := ⟨.hbm, 410, rfl⟩
abbrev main_v249 : Ref sig .tc := ⟨.hbm, 411, rfl⟩
abbrev main_v250 : Ref sig .tc := ⟨.hbm, 412, rfl⟩
abbrev main_v251 : Ref sig .tc := ⟨.hbm, 413, rfl⟩
abbrev main_v252 : Ref sig .tc := ⟨.hbm, 414, rfl⟩
abbrev main_c_36 : Ref sig .tc := ⟨.hbm, 415, rfl⟩
abbrev main_v253 : Ref sig .tc := ⟨.hbm, 416, rfl⟩
abbrev main_v254 : Ref sig .tc := ⟨.hbm, 417, rfl⟩
abbrev main_c_37 : Ref sig .tc := ⟨.hbm, 418, rfl⟩
abbrev main_v255 : Ref sig .tc := ⟨.hbm, 419, rfl⟩
abbrev main_v256 : Ref sig .tc := ⟨.hbm, 420, rfl⟩
abbrev main_v257 : Ref sig .tc := ⟨.hbm, 421, rfl⟩
abbrev main_v258 : Ref sig .tc := ⟨.hbm, 422, rfl⟩
abbrev main_v259 : Ref sig .tc := ⟨.hbm, 423, rfl⟩
abbrev main_c_38 : Ref sig .tc := ⟨.hbm, 424, rfl⟩
abbrev main_v260 : Ref sig .tc := ⟨.hbm, 425, rfl⟩
abbrev main_v261 : Ref sig .tc := ⟨.hbm, 426, rfl⟩
abbrev main_c_39 : Ref sig .tc := ⟨.hbm, 427, rfl⟩
abbrev main_v262 : Ref sig .tc := ⟨.hbm, 428, rfl⟩
abbrev main_v263 : Ref sig .tc := ⟨.hbm, 429, rfl⟩
abbrev main_v264 : Ref sig .tc := ⟨.hbm, 430, rfl⟩
abbrev main_v265 : Ref sig .tc := ⟨.hbm, 431, rfl⟩
abbrev main_v266 : Ref sig .tc := ⟨.hbm, 432, rfl⟩
abbrev main_c_40 : Ref sig .tc := ⟨.hbm, 433, rfl⟩
abbrev main_v267 : Ref sig .tc := ⟨.hbm, 434, rfl⟩
abbrev main_v268 : Ref sig .tc := ⟨.hbm, 435, rfl⟩
abbrev main_c_41 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_call11_v0 : Ref sig .tc := ⟨.hbm, 443, rfl⟩
abbrev main_call11_cst : Ref sig .tc := ⟨.hbm, 444, rfl⟩
abbrev main_call11_v1 : Ref sig .tc := ⟨.hbm, 445, rfl⟩
abbrev main_call11_v2 : Ref sig .tc := ⟨.hbm, 446, rfl⟩
abbrev main_v275 : Ref sig .tc := ⟨.hbm, 447, rfl⟩
abbrev main_v276 : Ref sig .tc := ⟨.hbm, 448, rfl⟩
abbrev main_v277 : Ref sig .tc := ⟨.hbm, 449, rfl⟩
abbrev main_v278 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_call12_v0 : Ref sig .tc := ⟨.hbm, 457, rfl⟩
abbrev main_call12_v1 : Ref sig .tc := ⟨.hbm, 458, rfl⟩
abbrev main_call12_cst : Ref sig .tc := ⟨.hbm, 459, rfl⟩
abbrev main_call12_v2 : Ref sig .tc := ⟨.hbm, 460, rfl⟩
abbrev main_call12_v3 : Ref sig .tc := ⟨.hbm, 461, rfl⟩
abbrev main_call12_cst_0 : Ref sig .tc := ⟨.hbm, 462, rfl⟩
abbrev main_call12_v4 : Ref sig .tc := ⟨.hbm, 463, rfl⟩
abbrev main_call12_v5 : Ref sig .tc := ⟨.hbm, 464, rfl⟩
abbrev main_v285 : Ref sig .tc := ⟨.hbm, 465, rfl⟩
abbrev main_v286 : Ref sig .tc := ⟨.hbm, 466, rfl⟩
abbrev main_v287 : Ref sig .tc := ⟨.hbm, 467, rfl⟩
abbrev main_v288 : Ref sig .tc := ⟨.hbm, 468, rfl⟩
abbrev main_v289 : Ref sig .tc := ⟨.hbm, 469, rfl⟩
abbrev main_v290 : Ref sig .tc := ⟨.hbm, 470, rfl⟩
abbrev main_v291 : Ref sig .tc := ⟨.hbm, 471, rfl⟩
abbrev main_v292 : Ref sig .tc := ⟨.hbm, 472, rfl⟩
abbrev main_v293 : Ref sig .tc := ⟨.hbm, 473, rfl⟩
abbrev main_call13_v0 : Ref sig .tc := ⟨.hbm, 474, rfl⟩
abbrev main_call13_v1 : Ref sig .tc := ⟨.hbm, 475, rfl⟩
abbrev main_call13_cst : Ref sig .tc := ⟨.hbm, 476, rfl⟩
abbrev main_call13_v2 : Ref sig .tc := ⟨.hbm, 477, rfl⟩
abbrev main_call13_v3 : Ref sig .tc := ⟨.hbm, 478, rfl⟩
abbrev main_call13_cst_0 : Ref sig .tc := ⟨.hbm, 479, rfl⟩
abbrev main_call13_v4 : Ref sig .tc := ⟨.hbm, 480, rfl⟩
abbrev main_call13_v5 : Ref sig .tc := ⟨.hbm, 481, rfl⟩
abbrev main_v294 : Ref sig .tc := ⟨.hbm, 482, rfl⟩
abbrev main_v295 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_v299 : Ref sig .tc := ⟨.hbm, 487, rfl⟩
abbrev main_v300 : Ref sig .tc := ⟨.hbm, 488, rfl⟩
abbrev main_v301 : Ref sig .tc := ⟨.hbm, 489, rfl⟩
abbrev main_v302 : Ref sig .tc := ⟨.hbm, 490, rfl⟩
abbrev main_v303 : Ref sig .tc := ⟨.hbm, 491, rfl⟩
abbrev main_v304 : Ref sig .tc := ⟨.hbm, 492, rfl⟩
abbrev main_cst_42 : Ref sig .tc := ⟨.hbm, 493, rfl⟩
abbrev main_v305 : Ref sig .tc := ⟨.hbm, 494, rfl⟩
abbrev main_v306 : Ref sig .tc := ⟨.hbm, 495, rfl⟩
abbrev main_cst_43 : Ref sig .tc := ⟨.hbm, 496, rfl⟩
abbrev main_v307 : Ref sig .tc := ⟨.hbm, 497, rfl⟩
abbrev main_v308 : Ref sig .tc := ⟨.hbm, 498, rfl⟩
abbrev main_v309 : Ref sig .tc := ⟨.hbm, 499, rfl⟩
abbrev main_v310 : Ref sig .tc := ⟨.hbm, 500, rfl⟩
abbrev main_cst_44 : Ref sig .tc := ⟨.hbm, 501, rfl⟩
abbrev main_v311 : Ref sig .tc := ⟨.hbm, 502, rfl⟩
abbrev main_v312 : Ref sig .tc := ⟨.hbm, 503, rfl⟩
abbrev main_v313 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_v317 : Ref sig .tc := ⟨.hbm, 508, rfl⟩
abbrev main_v318 : Ref sig .tc := ⟨.hbm, 509, rfl⟩
abbrev main_v319 : Ref sig .tc := ⟨.hbm, 510, rfl⟩
abbrev main_v320 : Ref sig .tc := ⟨.hbm, 511, rfl⟩
abbrev main_v321 : Ref sig .tc := ⟨.hbm, 512, rfl⟩
abbrev main_v322 : Ref sig .tc := ⟨.hbm, 513, rfl⟩
abbrev main_call14_v0 : Ref sig .tc := ⟨.hbm, 514, rfl⟩
abbrev main_call14_v1 : Ref sig .tc := ⟨.hbm, 515, rfl⟩
abbrev main_call14_cst : Ref sig .tc := ⟨.hbm, 516, rfl⟩
abbrev main_call14_v2 : Ref sig .tc := ⟨.hbm, 517, rfl⟩
abbrev main_call14_v3 : Ref sig .tc := ⟨.hbm, 518, rfl⟩
abbrev main_call14_cst_0 : Ref sig .tc := ⟨.hbm, 519, rfl⟩
abbrev main_call14_v4 : Ref sig .tc := ⟨.hbm, 520, rfl⟩
abbrev main_call14_v5 : Ref sig .tc := ⟨.hbm, 521, rfl⟩
abbrev main_v323 : Ref sig .tc := ⟨.hbm, 522, rfl⟩
abbrev main_v324 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_v328 : Ref sig .tc := ⟨.hbm, 527, rfl⟩
abbrev main_v329 : Ref sig .tc := ⟨.hbm, 528, rfl⟩
abbrev main_v330 : Ref sig .tc := ⟨.hbm, 529, rfl⟩
abbrev main_v331 : Ref sig .tc := ⟨.hbm, 530, rfl⟩
abbrev main_v332 : Ref sig .tc := ⟨.hbm, 531, rfl⟩
abbrev main_cst_45 : Ref sig .tc := ⟨.hbm, 532, rfl⟩
abbrev main_v333 : Ref sig .tc := ⟨.hbm, 533, rfl⟩
abbrev main_v334 : Ref sig .tc := ⟨.hbm, 534, rfl⟩
abbrev main_cst_46 : Ref sig .tc := ⟨.hbm, 535, rfl⟩
abbrev main_v335 : Ref sig .tc := ⟨.hbm, 536, rfl⟩
abbrev main_v336 : Ref sig .tc := ⟨.hbm, 537, rfl⟩
abbrev main_c_47 : Ref sig .tc := ⟨.hbm, 538, rfl⟩
abbrev main_call15_cst : Ref sig .tc := ⟨.hbm, 539, rfl⟩
abbrev main_call15_v0 : Ref sig .tc := ⟨.hbm, 540, rfl⟩
abbrev main_call15_v1 : Ref sig .tc := ⟨.hbm, 541, rfl⟩
abbrev main_call15_cst_0 : Ref sig .tc := ⟨.hbm, 542, rfl⟩
abbrev main_call15_v2 : Ref sig .tc := ⟨.hbm, 543, rfl⟩
abbrev main_call15_v3 : Ref sig .tc := ⟨.hbm, 544, rfl⟩
abbrev main_call15_v4 : Ref sig .tc := ⟨.hbm, 545, rfl⟩
abbrev main_call15_v5 : Ref sig .tc := ⟨.hbm, 546, rfl⟩
abbrev main_call15_v6 : Ref sig .tc := ⟨.hbm, 547, rfl⟩
abbrev main_call15_v7 : Ref sig .tc := ⟨.hbm, 548, rfl⟩
abbrev main_call15_cst_1 : Ref sig .tc := ⟨.hbm, 549, rfl⟩
abbrev main_call15_v8 : Ref sig .tc := ⟨.hbm, 550, rfl⟩
abbrev main_call15_cst_2 : Ref sig .tc := ⟨.hbm, 551, rfl⟩
abbrev main_call15_v9 : Ref sig .tc := ⟨.hbm, 552, rfl⟩
abbrev main_call15_v10 : Ref sig .tc := ⟨.hbm, 553, rfl⟩
abbrev main_call15_v11 : Ref sig .tc := ⟨.hbm, 554, rfl⟩
abbrev main_call15_v12 : Ref sig .tc := ⟨.hbm, 555, rfl⟩
abbrev main_call15_cst_3 : Ref sig .tc := ⟨.hbm, 556, rfl⟩
abbrev main_call15_v13 : Ref sig .tc := ⟨.hbm, 557, rfl⟩
abbrev main_call15_cst_4 : Ref sig .tc := ⟨.hbm, 558, rfl⟩
abbrev main_call15_call0_v0 : Ref sig .tc := ⟨.hbm, 559, rfl⟩
abbrev main_call15_call0_v1 : Ref sig .tc := ⟨.hbm, 560, rfl⟩
abbrev main_v337 : Ref sig .tc := ⟨.hbm, 561, rfl⟩
abbrev main_v338 : Ref sig .tc := ⟨.hbm, 562, rfl⟩
abbrev main_v339 : Ref sig .tc := ⟨.hbm, 563, rfl⟩
abbrev main_cst_48 : Ref sig .tc := ⟨.hbm, 564, rfl⟩
abbrev main_v340 : Ref sig .tc := ⟨.hbm, 565, rfl⟩
abbrev main_v341 : Ref sig .tc := ⟨.hbm, 566, rfl⟩
abbrev main_v342 : Ref sig .tc := ⟨.hbm, 567, rfl⟩
abbrev main_v343 : Ref sig .tc := ⟨.hbm, 568, rfl⟩
abbrev main_v344 : Ref sig .tc := ⟨.hbm, 569, rfl⟩
abbrev main_v345 : Ref sig .tc := ⟨.hbm, 570, rfl⟩
abbrev main_v346 : Ref sig .tc := ⟨.hbm, 571, rfl⟩
abbrev main_v347 : Ref sig .tc := ⟨.hbm, 572, rfl⟩
abbrev main_v348 : Ref sig .tc := ⟨.hbm, 573, rfl⟩
abbrev main_v349 : Ref sig .tc := ⟨.hbm, 574, rfl⟩
abbrev main_v350 : Ref sig .tc := ⟨.hbm, 575, rfl⟩
abbrev main_v351 : Ref sig .tc := ⟨.hbm, 576, rfl⟩
abbrev main_v352 : Ref sig .tc := ⟨.hbm, 577, rfl⟩
abbrev main_v353 : Ref sig .tc := ⟨.hbm, 578, rfl⟩
abbrev main_v354 : Ref sig .tc := ⟨.hbm, 579, rfl⟩
abbrev main_c_49 : Ref sig .tc := ⟨.hbm, 580, rfl⟩
abbrev main_v355 : Ref sig .tc := ⟨.hbm, 581, rfl⟩
abbrev main_v356 : Ref sig .tc := ⟨.hbm, 582, rfl⟩
abbrev main_c_50 : Ref sig .tc := ⟨.hbm, 583, rfl⟩
abbrev main_v357 : Ref sig .tc := ⟨.hbm, 584, rfl⟩
abbrev main_v358 : Ref sig .tc := ⟨.hbm, 585, rfl⟩
abbrev main_v359 : Ref sig .tc := ⟨.hbm, 586, rfl⟩
abbrev main_v360 : Ref sig .tc := ⟨.hbm, 587, rfl⟩
abbrev main_v361 : Ref sig .tc := ⟨.hbm, 588, rfl⟩
abbrev main_c_51 : Ref sig .tc := ⟨.hbm, 589, rfl⟩
abbrev main_v362 : Ref sig .tc := ⟨.hbm, 590, rfl⟩
abbrev main_v363 : Ref sig .tc := ⟨.hbm, 591, rfl⟩
abbrev main_c_52 : Ref sig .tc := ⟨.hbm, 592, rfl⟩
abbrev main_v364 : Ref sig .tc := ⟨.hbm, 593, rfl⟩
abbrev main_v365 : Ref sig .tc := ⟨.hbm, 594, rfl⟩
abbrev main_v366 : Ref sig .tc := ⟨.hbm, 595, rfl⟩
abbrev main_v367 : Ref sig .tc := ⟨.hbm, 596, rfl⟩
abbrev main_v368 : Ref sig .tc := ⟨.hbm, 597, rfl⟩
abbrev main_c_53 : Ref sig .tc := ⟨.hbm, 598, rfl⟩
abbrev main_v369 : Ref sig .tc := ⟨.hbm, 599, rfl⟩
abbrev main_v370 : Ref sig .tc := ⟨.hbm, 600, rfl⟩
abbrev main_c_54 : Ref sig .tc := ⟨.hbm, 601, rfl⟩
abbrev main_v371 : Ref sig .tc := ⟨.hbm, 602, rfl⟩
abbrev main_v372 : Ref sig .tc := ⟨.hbm, 603, rfl⟩
abbrev main_v373 : Ref sig .tc := ⟨.hbm, 604, rfl⟩
abbrev main_v374 : Ref sig .tc := ⟨.hbm, 605, rfl⟩
abbrev main_v375 : Ref sig .tc := ⟨.hbm, 606, rfl⟩
abbrev main_c_55 : Ref sig .tc := ⟨.hbm, 607, rfl⟩
abbrev main_v376 : Ref sig .tc := ⟨.hbm, 608, rfl⟩
abbrev main_v377 : Ref sig .tc := ⟨.hbm, 609, rfl⟩
abbrev main_c_56 : Ref sig .tc := ⟨.hbm, 610, rfl⟩
abbrev main_v378 : Ref sig .tc := ⟨.hbm, 611, rfl⟩
abbrev main_v379 : Ref sig .tc := ⟨.hbm, 612, rfl⟩
abbrev main_v380 : Ref sig .tc := ⟨.hbm, 613, rfl⟩
abbrev main_v381 : Ref sig .tc := ⟨.hbm, 614, rfl⟩
abbrev main_v382 : Ref sig .tc := ⟨.hbm, 615, rfl⟩
abbrev main_v383 : Ref sig .tc := ⟨.hbm, 616, rfl⟩
abbrev main_call16_v0 : Ref sig .tc := ⟨.hbm, 617, rfl⟩
abbrev main_call16_cst : Ref sig .tc := ⟨.hbm, 618, rfl⟩
abbrev main_call16_v1 : Ref sig .tc := ⟨.hbm, 619, rfl⟩
abbrev main_call16_v2 : Ref sig .tc := ⟨.hbm, 620, rfl⟩
abbrev main_v384 : Ref sig .tc := ⟨.hbm, 621, rfl⟩
abbrev main_v385 : Ref sig .tc := ⟨.hbm, 622, rfl⟩
abbrev main_v386 : Ref sig .tc := ⟨.hbm, 623, rfl⟩
abbrev main_v387 : Ref sig .tc := ⟨.hbm, 624, rfl⟩
abbrev main_v388 : Ref sig .tc := ⟨.hbm, 625, rfl⟩
abbrev main_v389 : Ref sig .tc := ⟨.hbm, 626, rfl⟩
abbrev main_v390 : Ref sig .tc := ⟨.hbm, 627, rfl⟩
abbrev main_v391 : Ref sig .tc := ⟨.hbm, 628, rfl⟩
abbrev main_v392 : Ref sig .tc := ⟨.hbm, 629, rfl⟩
abbrev main_v393 : Ref sig .tc := ⟨.hbm, 630, rfl⟩
abbrev main_call17_v0 : Ref sig .tc := ⟨.hbm, 631, rfl⟩
abbrev main_call17_v1 : Ref sig .tc := ⟨.hbm, 632, rfl⟩
abbrev main_call17_cst : Ref sig .tc := ⟨.hbm, 633, rfl⟩
abbrev main_call17_v2 : Ref sig .tc := ⟨.hbm, 634, rfl⟩
abbrev main_call17_v3 : Ref sig .tc := ⟨.hbm, 635, rfl⟩
abbrev main_call17_cst_0 : Ref sig .tc := ⟨.hbm, 636, rfl⟩
abbrev main_call17_v4 : Ref sig .tc := ⟨.hbm, 637, rfl⟩
abbrev main_call17_v5 : Ref sig .tc := ⟨.hbm, 638, rfl⟩
abbrev main_v394 : Ref sig .tc := ⟨.hbm, 639, rfl⟩
abbrev main_v395 : Ref sig .tc := ⟨.hbm, 640, rfl⟩
abbrev main_v396 : Ref sig .tc := ⟨.hbm, 641, rfl⟩
abbrev main_v397 : Ref sig .tc := ⟨.hbm, 642, rfl⟩
abbrev main_v398 : Ref sig .tc := ⟨.hbm, 643, rfl⟩
abbrev main_v399 : Ref sig .tc := ⟨.hbm, 644, rfl⟩
abbrev main_v400 : Ref sig .tc := ⟨.hbm, 645, rfl⟩
abbrev main_v401 : Ref sig .tc := ⟨.hbm, 646, rfl⟩
abbrev main_v402 : Ref sig .tc := ⟨.hbm, 647, rfl⟩
abbrev main_call18_v0 : Ref sig .tc := ⟨.hbm, 648, rfl⟩
abbrev main_call18_v1 : Ref sig .tc := ⟨.hbm, 649, rfl⟩
abbrev main_call18_cst : Ref sig .tc := ⟨.hbm, 650, rfl⟩
abbrev main_call18_v2 : Ref sig .tc := ⟨.hbm, 651, rfl⟩
abbrev main_call18_v3 : Ref sig .tc := ⟨.hbm, 652, rfl⟩
abbrev main_call18_cst_0 : Ref sig .tc := ⟨.hbm, 653, rfl⟩
abbrev main_call18_v4 : Ref sig .tc := ⟨.hbm, 654, rfl⟩
abbrev main_call18_v5 : Ref sig .tc := ⟨.hbm, 655, rfl⟩
abbrev main_v403 : Ref sig .tc := ⟨.hbm, 656, rfl⟩
abbrev main_v404 : Ref sig .tc := ⟨.hbm, 657, rfl⟩
abbrev main_v405 : Ref sig .tc := ⟨.hbm, 658, rfl⟩
abbrev main_v406 : Ref sig .tc := ⟨.hbm, 659, rfl⟩
abbrev main_v407 : Ref sig .tc := ⟨.hbm, 660, rfl⟩
abbrev main_v408 : Ref sig .tc := ⟨.hbm, 661, rfl⟩
abbrev main_v409 : Ref sig .tc := ⟨.hbm, 662, rfl⟩
abbrev main_v410 : Ref sig .tc := ⟨.hbm, 663, rfl⟩
abbrev main_v411 : Ref sig .tc := ⟨.hbm, 664, rfl⟩
abbrev main_v412 : Ref sig .tc := ⟨.hbm, 665, rfl⟩
abbrev main_v413 : Ref sig .tc := ⟨.hbm, 666, rfl⟩
abbrev main_cst_57 : Ref sig .tc := ⟨.hbm, 667, rfl⟩
abbrev main_v414 : Ref sig .tc := ⟨.hbm, 668, rfl⟩
abbrev main_v415 : Ref sig .tc := ⟨.hbm, 669, rfl⟩
abbrev main_cst_58 : Ref sig .tc := ⟨.hbm, 670, rfl⟩
abbrev main_v416 : Ref sig .tc := ⟨.hbm, 671, rfl⟩
abbrev main_v417 : Ref sig .tc := ⟨.hbm, 672, rfl⟩
abbrev main_v418 : Ref sig .tc := ⟨.hbm, 673, rfl⟩
abbrev main_v419 : Ref sig .tc := ⟨.hbm, 674, rfl⟩
abbrev main_cst_59 : Ref sig .tc := ⟨.hbm, 675, rfl⟩
abbrev main_v420 : Ref sig .tc := ⟨.hbm, 676, rfl⟩
abbrev main_v421 : Ref sig .tc := ⟨.hbm, 677, rfl⟩
abbrev main_v422 : Ref sig .tc := ⟨.hbm, 678, rfl⟩
abbrev main_v423 : Ref sig .tc := ⟨.hbm, 679, rfl⟩
abbrev main_v424 : Ref sig .tc := ⟨.hbm, 680, rfl⟩
abbrev main_v425 : Ref sig .tc := ⟨.hbm, 681, rfl⟩
abbrev main_v426 : Ref sig .tc := ⟨.hbm, 682, rfl⟩
abbrev main_v427 : Ref sig .tc := ⟨.hbm, 683, rfl⟩
abbrev main_v428 : Ref sig .tc := ⟨.hbm, 684, rfl⟩
abbrev main_v429 : Ref sig .tc := ⟨.hbm, 685, rfl⟩
abbrev main_v430 : Ref sig .tc := ⟨.hbm, 686, rfl⟩
abbrev main_v431 : Ref sig .tc := ⟨.hbm, 687, rfl⟩
abbrev main_call19_v0 : Ref sig .tc := ⟨.hbm, 688, rfl⟩
abbrev main_call19_v1 : Ref sig .tc := ⟨.hbm, 689, rfl⟩
abbrev main_call19_cst : Ref sig .tc := ⟨.hbm, 690, rfl⟩
abbrev main_call19_v2 : Ref sig .tc := ⟨.hbm, 691, rfl⟩
abbrev main_call19_v3 : Ref sig .tc := ⟨.hbm, 692, rfl⟩
abbrev main_call19_cst_0 : Ref sig .tc := ⟨.hbm, 693, rfl⟩
abbrev main_call19_v4 : Ref sig .tc := ⟨.hbm, 694, rfl⟩
abbrev main_call19_v5 : Ref sig .tc := ⟨.hbm, 695, rfl⟩
abbrev main_v432 : Ref sig .tc := ⟨.hbm, 696, rfl⟩
abbrev main_v433 : Ref sig .tc := ⟨.hbm, 697, rfl⟩
abbrev main_v434 : Ref sig .tc := ⟨.hbm, 698, rfl⟩
abbrev main_v435 : Ref sig .tc := ⟨.hbm, 699, rfl⟩
abbrev main_v436 : Ref sig .tc := ⟨.hbm, 700, rfl⟩
abbrev main_v437 : Ref sig .tc := ⟨.hbm, 701, rfl⟩
abbrev main_v438 : Ref sig .tc := ⟨.hbm, 702, rfl⟩
abbrev main_v439 : Ref sig .tc := ⟨.hbm, 703, rfl⟩
abbrev main_v440 : Ref sig .tc := ⟨.hbm, 704, rfl⟩
abbrev main_v441 : Ref sig .tc := ⟨.hbm, 705, rfl⟩
abbrev main_cst_60 : Ref sig .tc := ⟨.hbm, 706, rfl⟩
abbrev main_v442 : Ref sig .tc := ⟨.hbm, 707, rfl⟩
abbrev main_v443 : Ref sig .tc := ⟨.hbm, 708, rfl⟩
abbrev main_cst_61 : Ref sig .tc := ⟨.hbm, 709, rfl⟩
abbrev main_v444 : Ref sig .tc := ⟨.hbm, 710, rfl⟩
abbrev main_v445 : Ref sig .tc := ⟨.hbm, 711, rfl⟩
abbrev main_c_62 : Ref sig .tc := ⟨.hbm, 712, rfl⟩
abbrev main_call20_cst : Ref sig .tc := ⟨.hbm, 713, rfl⟩
abbrev main_call20_v0 : Ref sig .tc := ⟨.hbm, 714, rfl⟩
abbrev main_call20_v1 : Ref sig .tc := ⟨.hbm, 715, rfl⟩
abbrev main_call20_cst_0 : Ref sig .tc := ⟨.hbm, 716, rfl⟩
abbrev main_call20_v2 : Ref sig .tc := ⟨.hbm, 717, rfl⟩
abbrev main_call20_v3 : Ref sig .tc := ⟨.hbm, 718, rfl⟩
abbrev main_call20_v4 : Ref sig .tc := ⟨.hbm, 719, rfl⟩
abbrev main_call20_v5 : Ref sig .tc := ⟨.hbm, 720, rfl⟩
abbrev main_call20_v6 : Ref sig .tc := ⟨.hbm, 721, rfl⟩
abbrev main_call20_v7 : Ref sig .tc := ⟨.hbm, 722, rfl⟩
abbrev main_call20_cst_1 : Ref sig .tc := ⟨.hbm, 723, rfl⟩
abbrev main_call20_v8 : Ref sig .tc := ⟨.hbm, 724, rfl⟩
abbrev main_call20_cst_2 : Ref sig .tc := ⟨.hbm, 725, rfl⟩
abbrev main_call20_v9 : Ref sig .tc := ⟨.hbm, 726, rfl⟩
abbrev main_call20_v10 : Ref sig .tc := ⟨.hbm, 727, rfl⟩
abbrev main_call20_v11 : Ref sig .tc := ⟨.hbm, 728, rfl⟩
abbrev main_call20_v12 : Ref sig .tc := ⟨.hbm, 729, rfl⟩
abbrev main_call20_cst_3 : Ref sig .tc := ⟨.hbm, 730, rfl⟩
abbrev main_call20_v13 : Ref sig .tc := ⟨.hbm, 731, rfl⟩
abbrev main_call20_cst_4 : Ref sig .tc := ⟨.hbm, 732, rfl⟩
abbrev main_call20_call0_v0 : Ref sig .tc := ⟨.hbm, 733, rfl⟩
abbrev main_call20_call0_v1 : Ref sig .tc := ⟨.hbm, 734, rfl⟩
abbrev main_v446 : Ref sig .tc := ⟨.hbm, 735, rfl⟩
abbrev main_v447 : Ref sig .tc := ⟨.hbm, 736, rfl⟩
abbrev main_v448 : Ref sig .tc := ⟨.hbm, 737, rfl⟩
abbrev main_cst_63 : Ref sig .tc := ⟨.hbm, 738, rfl⟩
abbrev main_v449 : Ref sig .tc := ⟨.hbm, 739, rfl⟩
abbrev main_v450 : Ref sig .tc := ⟨.hbm, 740, rfl⟩
abbrev main_v451 : Ref sig .tc := ⟨.hbm, 741, rfl⟩
abbrev main_v452 : Ref sig .tc := ⟨.hbm, 742, rfl⟩
abbrev main_v453 : Ref sig .tc := ⟨.hbm, 743, rfl⟩
abbrev main_v454 : Ref sig .tc := ⟨.hbm, 744, rfl⟩
abbrev main_v455 : Ref sig .tc := ⟨.hbm, 745, rfl⟩
abbrev main_v456 : Ref sig .tc := ⟨.hbm, 746, rfl⟩
abbrev main_v457 : Ref sig .tc := ⟨.hbm, 747, rfl⟩
abbrev main_v458 : Ref sig .tc := ⟨.hbm, 748, rfl⟩
abbrev main_v459 : Ref sig .tc := ⟨.hbm, 749, rfl⟩
abbrev main_v460 : Ref sig .tc := ⟨.hbm, 750, rfl⟩
abbrev main_v461 : Ref sig .tc := ⟨.hbm, 751, rfl⟩
abbrev main_v462 : Ref sig .tc := ⟨.hbm, 752, rfl⟩
abbrev main_v463 : Ref sig .tc := ⟨.hbm, 753, rfl⟩
abbrev main_cst_64 : Ref sig .tc := ⟨.hbm, 754, rfl⟩
abbrev main_v464 : Ref sig .tc := ⟨.hbm, 755, rfl⟩
abbrev main_v465 : Ref sig .tc := ⟨.hbm, 756, rfl⟩
abbrev main_v466 : Ref sig .tc := ⟨.hbm, 757, rfl⟩
abbrev main_cst_65 : Ref sig .tc := ⟨.hbm, 758, rfl⟩
abbrev main_v467 : Ref sig .tc := ⟨.hbm, 759, rfl⟩
abbrev main_cst_66 : Ref sig .tc := ⟨.hbm, 760, rfl⟩
abbrev main_v468 : Ref sig .tc := ⟨.hbm, 761, rfl⟩
abbrev main_v469 : Ref sig .tc := ⟨.hbm, 762, rfl⟩
abbrev main_v470 : Ref sig .tc := ⟨.hbm, 763, rfl⟩
abbrev main_cst_67 : Ref sig .tc := ⟨.hbm, 764, rfl⟩
abbrev main_v471 : Ref sig .tc := ⟨.hbm, 765, rfl⟩
abbrev main_v472 : Ref sig .tc := ⟨.hbm, 766, rfl⟩
abbrev main_v473 : Ref sig .tc := ⟨.hbm, 767, rfl⟩
abbrev main_v474 : Ref sig .tc := ⟨.hbm, 768, rfl⟩
abbrev main_v475 : Ref sig .tc := ⟨.hbm, 769, rfl⟩
abbrev main_v476 : Ref sig .tc := ⟨.hbm, 770, rfl⟩
abbrev main_v477 : Ref sig .tc := ⟨.hbm, 771, rfl⟩
abbrev main_v478 : Ref sig .tc := ⟨.hbm, 772, rfl⟩
abbrev main_call21_cst : Ref sig .tc := ⟨.hbm, 773, rfl⟩
abbrev main_call21_v0 : Ref sig .tc := ⟨.hbm, 774, rfl⟩
abbrev main_v479 : Ref sig .tc := ⟨.hbm, 775, rfl⟩
abbrev main_v480 : Ref sig .tc := ⟨.hbm, 776, rfl⟩
abbrev main_v481 : Ref sig .tc := ⟨.hbm, 777, rfl⟩
abbrev main_v482 : Ref sig .tc := ⟨.hbm, 778, rfl⟩
abbrev main_v483 : Ref sig .tc := ⟨.hbm, 779, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S256x3 : S_.BroadcastsInDim S256x3 (![] : Fin 0 → Fin S256x3.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S256x1 : S_.BroadcastsInDim S256x1 (![] : Fin 0 → Fin S256x1.rank)
  bcast_S256x1_S256x3_0_1 : S256x1.BroadcastsInDim S256x3 (![0, 1] : Fin 2 → Fin S256x3.rank)
  bcast_S_S10000 : S_.BroadcastsInDim S10000 (![] : Fin 0 → Fin S10000.rank)
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  reducesTo_S250000x3_S250000_d1 : S250000x3.ReducesTo [1] S250000
  h_S_ : 0 < S_.numel
  concatenates_S250000x128_S250000x128_S250000x1_S250000x257_d1 : Shape.Concatenates [S250000x128, S250000x128, S250000x1] S250000x257 1
  slices_S4x257x128_S1x257x128_0_0_0 : S4x257x128.Slices ![0, 0, 0] S1x257x128
  shapeCasts_S1x257x128_S257x128 : S1x257x128.ShapeCasts S257x128
  slices_S4x128_S1x128_0_0 : S4x128.Slices ![0, 0] S1x128
  shapeCasts_S1x128_S128 : S1x128.ShapeCasts S128
  bcast_S1x128_S250000x128_0_1 : S1x128.BroadcastsInDim S250000x128 (![0, 1] : Fin 2 → Fin S250000x128.rank)
  bcast_S_S250000x128 : S_.BroadcastsInDim S250000x128 (![] : Fin 0 → Fin S250000x128.rank)
  slices_S4x128x128_S1x128x128_0_0_0 : S4x128x128.Slices ![0, 0, 0] S1x128x128
  shapeCasts_S1x128x128_S128x128 : S1x128x128.ShapeCasts S128x128
  slices_S4x128x1_S1x128x1_0_0_0 : S4x128x1.Slices ![0, 0, 0] S1x128x1
  shapeCasts_S1x128x1_S128x1 : S1x128x1.ShapeCasts S128x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  bcast_S_S250000x1 : S_.BroadcastsInDim S250000x1 (![] : Fin 0 → Fin S250000x1.rank)
  bcast_S250000x1_S250000x128_0_1 : S250000x1.BroadcastsInDim S250000x128 (![0, 1] : Fin 2 → Fin S250000x128.rank)
  concatenates_S10000x128_S10000x128_S10000x256_d1 : Shape.Concatenates [S10000x128, S10000x128] S10000x256 1
  slices_S4x256x128_S1x256x128_0_0_0 : S4x256x128.Slices ![0, 0, 0] S1x256x128
  shapeCasts_S1x256x128_S256x128 : S1x256x128.ShapeCasts S256x128
  reducesTo_S10000x128_S10000_d1 : S10000x128.ReducesTo [1] S10000
  bcast_S10000x1_S10000x128_0_1 : S10000x1.BroadcastsInDim S10000x128 (![0, 1] : Fin 2 → Fin S10000x128.rank)
  slices_S4x257x128_S1x257x128_1_0_0 : S4x257x128.Slices ![1, 0, 0] S1x257x128
  slices_S4x128_S1x128_1_0 : S4x128.Slices ![1, 0] S1x128
  slices_S4x128x128_S1x128x128_1_0_0 : S4x128x128.Slices ![1, 0, 0] S1x128x128
  slices_S4x128x1_S1x128x1_1_0_0 : S4x128x1.Slices ![1, 0, 0] S1x128x1
  slices_S4x1_S1x1_1_0 : S4x1.Slices ![1, 0] S1x1
  slices_S4x256x128_S1x256x128_1_0_0 : S4x256x128.Slices ![1, 0, 0] S1x256x128
  slices_S4x257x128_S1x257x128_2_0_0 : S4x257x128.Slices ![2, 0, 0] S1x257x128
  slices_S4x128_S1x128_2_0 : S4x128.Slices ![2, 0] S1x128
  slices_S4x128x128_S1x128x128_2_0_0 : S4x128x128.Slices ![2, 0, 0] S1x128x128
  slices_S4x128x1_S1x128x1_2_0_0 : S4x128x1.Slices ![2, 0, 0] S1x128x1
  slices_S4x1_S1x1_2_0 : S4x1.Slices ![2, 0] S1x1
  slices_S4x256x128_S1x256x128_2_0_0 : S4x256x128.Slices ![2, 0, 0] S1x256x128
  slices_S4x257x128_S1x257x128_3_0_0 : S4x257x128.Slices ![3, 0, 0] S1x257x128
  slices_S4x128_S1x128_3_0 : S4x128.Slices ![3, 0] S1x128
  slices_S4x128x128_S1x128x128_3_0_0 : S4x128x128.Slices ![3, 0, 0] S1x128x128
  slices_S4x128x1_S1x128x1_3_0_0 : S4x128x1.Slices ![3, 0, 0] S1x128x1
  slices_S4x1_S1x1_3_0 : S4x1.Slices ![3, 0] S1x1
  slices_S4x256x128_S1x256x128_3_0_0 : S4x256x128.Slices ![3, 0, 0] S1x256x128
  bcast_S_S256x128 : S_.BroadcastsInDim S256x128 (![] : Fin 0 → Fin S256x128.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1x1_S256x1_0_1 : S1x1.BroadcastsInDim S256x1 (![0, 1] : Fin 2 → Fin S256x1.rank)
  dot_S10000x11_S11x128_S10000x128_1_0_0_1_n_n_wf : DotDims.WF S10000x11 S11x128 S10000x128 [1] [0] [0] [1] [] []
  scatter_S256x3_S10000x1_S10000x3_1_0_0_1_wf : ScatterDims.WF S256x3 S10000x1 S10000x3 [1] [0] [0] 1
  scatter_S256x1_S10000x1_S10000x1_1_0_0_1_wf : ScatterDims.WF S256x1 S10000x1 S10000x1 [1] [0] [0] 1
  gather_S256x3_S10000x1_S10000x3_1_0_n_n_0_1_13_wf : GatherDims.WF S256x3 S10000x1 S10000x3 [1] [0] [] [0] [] 1 ![1, 3]
  gather_S10000x128_S250000x1_S250000x128_1_0_n_n_0_1_1128_wf : GatherDims.WF S10000x128 S250000x1 S250000x128 [1] [0] [] [0] [] 1 ![1, 128]
  gather_S10000x3_S250000x1_S250000x3_1_0_n_n_0_1_13_wf : GatherDims.WF S10000x3 S250000x1 S250000x3 [1] [0] [] [0] [] 1 ![1, 3]
  dot_S250000x257_S257x128_S250000x128_1_0_0_1_n_n_wf : DotDims.WF S250000x257 S257x128 S250000x128 [1] [0] [0] [1] [] []
  dot_S250000x128_S128x128_S250000x128_1_0_0_1_n_n_wf : DotDims.WF S250000x128 S128x128 S250000x128 [1] [0] [0] [1] [] []
  dot_S250000x128_S128x1_S250000x1_1_0_0_1_n_n_wf : DotDims.WF S250000x128 S128x1 S250000x1 [1] [0] [0] [1] [] []
  scatter_S10000x128_S250000x1_S250000x128_1_0_0_1_wf : ScatterDims.WF S10000x128 S250000x1 S250000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  scatter_S256x128_S10000x1_S10000x128_1_0_0_1_wf : ScatterDims.WF S256x128 S10000x1 S10000x128 [1] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def dot_S10000x11_S11x128_S10000x128_1_0_0_1_n_n : DotDims S10000x11 S11x128 S10000x128 where
  lhsContracting := [1]
  rhsContracting := [0]
  lhsNonContracting := [0]
  rhsNonContracting := [1]
  lhsBatch := []
  rhsBatch := []
  wf := dot_S10000x11_S11x128_S10000x128_1_0_0_1_n_n_wf
def scatter_S256x3_S10000x1_S10000x3_1_0_0_1 : ScatterDims S256x3 S10000x1 S10000x3 where
  updateWindowDims := [1]
  insertedWindowDims := [0]
  scatterDimsToOperandDims := [0]
  indexVectorDim := 1
  wf := scatter_S256x3_S10000x1_S10000x3_1_0_0_1_wf
def scatter_S256x1_S10000x1_S10000x1_1_0_0_1 : ScatterDims S256x1 S10000x1 S10000x1 where
  updateWindowDims := [1]
  insertedWindowDims := [0]
  scatterDimsToOperandDims := [0]
  indexVectorDim := 1
  wf := scatter_S256x1_S10000x1_S10000x1_1_0_0_1_wf
def gather_S256x3_S10000x1_S10000x3_1_0_n_n_0_1_13 : GatherDims S256x3 S10000x1 S10000x3 where
  offsetDims := [1]
  collapsedSliceDims := [0]
  operandBatchingDims := []
  startIndicesBatchingDims := []
  startIndexMap := [0]
  indexVectorDim := 1
  sliceSizes := ![1, 3]
  wf := gather_S256x3_S10000x1_S10000x3_1_0_n_n_0_1_13_wf
def gather_S10000x128_S250000x1_S250000x128_1_0_n_n_0_1_1128 : GatherDims S10000x128 S250000x1 S250000x128 where
  offsetDims := [1]
  collapsedSliceDims := [0]
  operandBatchingDims := []
  startIndicesBatchingDims := []
  startIndexMap := [0]
  indexVectorDim := 1
  sliceSizes := ![1, 128]
  wf := gather_S10000x128_S250000x1_S250000x128_1_0_n_n_0_1_1128_wf
def gather_S10000x3_S250000x1_S250000x3_1_0_n_n_0_1_13 : GatherDims S10000x3 S250000x1 S250000x3 where
  offsetDims := [1]
  collapsedSliceDims := [0]
  operandBatchingDims := []
  startIndicesBatchingDims := []
  startIndexMap := [0]
  indexVectorDim := 1
  sliceSizes := ![1, 3]
  wf := gather_S10000x3_S250000x1_S250000x3_1_0_n_n_0_1_13_wf
def dot_S250000x257_S257x128_S250000x128_1_0_0_1_n_n : DotDims S250000x257 S257x128 S250000x128 where
  lhsContracting := [1]
  rhsContracting := [0]
  lhsNonContracting := [0]
  rhsNonContracting := [1]
  lhsBatch := []
  rhsBatch := []
  wf := dot_S250000x257_S257x128_S250000x128_1_0_0_1_n_n_wf
def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def dot_S250000x128_S128x1_S250000x1_1_0_0_1_n_n : DotDims S250000x128 S128x1 S250000x1 where
  lhsContracting := [1]
  rhsContracting := [0]
  lhsNonContracting := [0]
  rhsNonContracting := [1]
  lhsBatch := []
  rhsBatch := []
  wf := dot_S250000x128_S128x1_S250000x1_1_0_0_1_n_n_wf
def scatter_S10000x128_S250000x1_S250000x128_1_0_0_1 : ScatterDims S10000x128 S250000x1 S250000x128 where
  updateWindowDims := [1]
  insertedWindowDims := [0]
  scatterDimsToOperandDims := [0]
  indexVectorDim := 1
  wf := scatter_S10000x128_S250000x1_S250000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S256x128_S10000x1_S10000x128_1_0_0_1 : ScatterDims S256x128 S10000x1 S10000x128 where
  updateWindowDims := [1]
  insertedWindowDims := [0]
  scatterDimsToOperandDims := [0]
  indexVectorDim := 1
  wf := scatter_S256x128_S10000x1_S10000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.RRunW0.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 0 … 35 of the 758 (from %0 to %27). -/
abbrev k0 : List (HloOp τ sig (Elt F)) :=
  [ StableHlo.binary main_arg0 main_arg4 main_v0 ((fun l r => Host.dotGeneral dot_S10000x11_S11x128_S10000x128_1_0_0_1_n_n none l r) : (⟨S10000x11, .f32⟩ : BufTy).Contents (Elt F) → (⟨S11x128, .f32⟩ : BufTy).Contents (Elt F) → (⟨S10000x128, .f32⟩ : BufTy).Contents (Elt F)),
    StableHlo.unary main_arg5 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S10000x128 ![0, 1] bcast_S1x128_S10000x128_0_1 : (⟨S1x128, .f32⟩ : BufTy).Contents (Elt F) → (⟨S10000x128, .f32⟩ : BufTy).Contents (Elt F)),
    StableHlo.binary main_v0 main_v2 main_v3 (addf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (.of main_v3 : StableHlo.TRef sig ⟨S10000x128, .f32⟩) main_call0.v0 main_call0.v1 maximumf,
    StableHlo.nullary main_cst (constant S_ .f32 0x00000000#32),
    StableHlo.unary main_cst main_v5 (broadcastInDim S256x3 ![] bcast_S_S256x3 : (⟨S_, .f32⟩ : BufTy).Contents (Elt F) → (⟨S256x3, .f32⟩ : BufTy).Contents (Elt F)),
    StableHlo.unary main_arg3 main_v6 (broadcastInDim S10000x1 ![0] bcast_S10000_S10000x1_0 : (⟨S10000, .i32⟩ : BufTy).Contents (Elt F) → (⟨S10000x1, .i32⟩ : BufTy).Contents (Elt F)),
    StableHlo.ternary main_v5 main_v6 main_arg1 main_v7 ((fun x i u => Host.scatterAdd scatter_S256x3_S10000x1_S10000x3_1_0_0_1 x i u) : (⟨S256x3, .f32⟩ : BufTy).Contents (Elt F) → (⟨S10000x1, .i32⟩ : BufTy).Contents (Elt F) → (⟨S10000x3, .f32⟩ : BufTy).Contents (Elt F) → (⟨S256x3, .f32⟩ : BufTy).Contents (Elt F)),
    StableHlo.nullary main_cst_0 (constant S_ .f32 0x3F800000#32),
    StableHlo.unary main_cst_0 main_v8 (broadcastInDim S10000x1 ![] bcast_S_S10000x1 : (⟨S_, .f32⟩ : BufTy).Contents (Elt F) → (⟨S10000x1, .f32⟩ : BufTy).Contents (Elt F)),
    StableHlo.nullary main_cst_1 (constant S_ .f32 0x00000000#32),
    StableHlo.unary main_cst_1 main_v9 (broadcastInDim S256x1 ![] bcast_S_S256x1 : (⟨S_, .f32⟩ : BufTy).Contents (Elt F) → (⟨S256x1, .f32⟩ : BufTy).Contents (Elt F)),
    StableHlo.unary main_arg3 main_v10 (broadcastInDim S10000x1 ![0] bcast_S10000_S10000x1_0 : (⟨S10000, .i32⟩ : BufTy).Contents (Elt F) → (⟨S10000x1, .i32⟩ : BufTy).Contents (Elt F)),
    StableHlo.ternary main_v9 main_v10 main_v8 main_v11 ((fun x i u => Host.scatterAdd scatter_S256x1_S10000x1_S10000x1_1_0_0_1 x i u) : (⟨S256x1, .f32⟩ : BufTy).Contents (Elt F) → (⟨S10000x1, .i32⟩ : BufTy).Contents (Elt F) → (⟨S10000x1, .f32⟩ : BufTy).Contents (Elt F) → (⟨S256x1, .f32⟩ : BufTy).Contents (Elt F)),
    StableHlo.nullary main_cst_2 (constant S_ .f32 0x3F800000#32),
    StableHlo.unary main_cst_2 main_v12 (broadcastInDim S256x1 ![] bcast_S_S256x1 : (⟨S_, .f32⟩ : BufTy).Contents (Elt F) → (⟨S256x1, .f32⟩ : BufTy).Contents (Elt F)),
    StableHlo.binary main_v11 main_v12 main_v13 (maximumf : (⟨S256x1, .f32⟩ : BufTy).Contents (Elt F) → (⟨S256x1, .f32⟩ : BufTy).Contents (Elt F) → (⟨S256x1, .f32⟩ : BufTy).Contents (Elt F)),
    StableHlo.unary main_v13 main_v14 (broadcastInDim S256x3 ![0, 1] bcast_S256x1_S256x3_0_1 : (⟨S256x1, .f32⟩ : BufTy).Contents (Elt F) → (⟨S256x3, .f32⟩ : BufTy).Contents (Elt F)),
    StableHlo.binary main_v7 main_v14 main_v15 (Host.divf : (⟨S256x3, .f32⟩ : BufTy).Contents (Elt F) → (⟨S256x3, .f32⟩ : BufTy).Contents (Elt F) → (⟨S256x3, .f32⟩ : BufTy).Contents (Elt F)),
    StableHlo.nullary main_c (constantI S_ 32 0#32),
    StableHlo.unary main_c main_v16 (broadcastInDim S10000 ![] bcast_S_S10000 : (⟨S_, .i32⟩ : BufTy).Contents (Elt F) → (⟨S10000, .i32⟩ : BufTy).Contents (Elt F)),
    StableHlo.binary main_arg3 main_v16 main_v17 (cmpi .slt : (⟨S10000, .i32⟩ : BufTy).Contents (Elt F) → (⟨S10000, .i32⟩ : BufTy).Contents (Elt F) → (⟨S10000, .i1⟩ : BufTy).Contents (Elt F)),
    StableHlo.nullary main_c_3 (constantI S_ 32 256#32),
    StableHlo.unary main_c_3 main_v18 (broadcastInDim S10000 ![] bcast_S_S10000 : (⟨S_, .i32⟩ : BufTy).Contents (Elt F) → (⟨S10000, .i32⟩ : BufTy).Contents (Elt F)),
    StableHlo.binary main_arg3 main_v18 main_v19 (addi : (⟨S10000, .i32⟩ : BufTy).Contents (Elt F) → (⟨S10000, .i32⟩ : BufTy).Contents (Elt F) → (⟨S10000, .i32⟩ : BufTy).Contents (Elt F)),
    StableHlo.ternary main_v17 main_v19 main_arg3 main_v20 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v20 main_v21 (broadcastInDim S10000x1 ![0] bcast_S10000_S10000x1_0 : (⟨S10000, .i32⟩ : BufTy).Contents (Elt F) → (⟨S10000x1, .i32⟩ : BufTy).Contents (Elt F)),
    StableHlo.binary main_v15 main_v21 main_v22 ((fun x i => Host.gather gather_S256x3_S10000x1_S10000x3_1_0_n_n_0_1_13 x i) : (⟨S256x3, .f32⟩ : BufTy).Contents (Elt F) → (⟨S10000x1, .i32⟩ : BufTy).Contents (Elt F) → (⟨S10000x3, .f32⟩ : BufTy).Contents (Elt F)),
    StableHlo.binary main_arg1 main_v22 main_v23 (subf : (⟨S10000x3, .f32⟩ : BufTy).Contents (Elt F) → (⟨S10000x3, .f32⟩ : BufTy).Contents (Elt F) → (⟨S10000x3, .f32⟩ : BufTy).Contents (Elt F)),
    StableHlo.unary main_arg2 main_v24 ((extractStridedSlice S1x250000 ![0, 0] · slices_S2x250000_S1x250000_0_0) : (⟨S2x250000, .i32⟩ : BufTy).Contents (Elt F) → (⟨S1x250000, .i32⟩ : BufTy).Contents (Elt F)),
    StableHlo.reshape main_v24 main_v25 rfl shapeCasts_S1x250000_S250000,
    StableHlo.unary main_arg2 main_v26 ((extractStridedSlice S1x250000 ![1, 0] · slices_S2x250000_S1x250000_1_0) : (⟨S2x250000, .i32⟩ : BufTy).Contents (Elt F) → (⟨S1x250000, .i32⟩ : BufTy).Contents (Elt F)),
    StableHlo.reshape main_v26 main_v27 rfl shapeCasts_S1x250000_S250000 ]
theorem k0_sub : (k0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub .., unary_bufs_sub ..,
    binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., reshape_bufs_sub .., unary_bufs_sub ..,
    reshape_bufs_sub ..⟩
theorem k0_fresh : (k0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩
/-- The references chunk `k0` writes. -/
abbrev k0_W : List (Ref sig .tc) :=
  [main_v0, main_v1, main_v2, main_v3, main_call0.cst.ref, main_call0.v0.ref, main_call0.v1.ref, main_cst, main_v5, main_v6, main_v7, main_cst_0, main_v8,
    main_cst_1, main_v9, main_v10, main_v11, main_cst_2, main_v12, main_v13, main_v14, main_v15, main_c, main_v16, main_v17, main_c_3, main_v18, main_v19,
    main_v20, main_v21, main_v22, main_v23, main_v24, main_v25, main_v26, main_v27]
set_option maxRecDepth 8192 in
theorem k0_writes : (k0 : List (HloOp τ sig (Elt F))).Forall fun op => op.writes ⊆ (k0_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 36 … 61 of the 758 (from %c_4 to %47). -/
abbrev k1 : List (HloOp τ sig (Elt F)) :=
  [ StableHlo.nullary main_c_4 (constantI S_ 32 0#32),
    StableHlo.unary main_c_4 main_v28 (broadcastInDim S250000 ![] bcast_S_S250000 : (⟨S_, .i32⟩ : BufTy).Contents (Elt F) → (⟨S250000, .i32⟩ : BufTy).Contents (Elt F)),
    StableHlo.binary main_v27 main_v28 main_v29 (cmpi .slt : (⟨S250000, .i32⟩ : BufTy).Contents (Elt F) → (⟨S250000, .i32⟩ : BufTy).Contents (Elt F) → (⟨S250000, .i1⟩ : BufTy).Contents (Elt F)),
    StableHlo.nullary main_c_5 (constantI S_ 32 10000#32),
    StableHlo.unary main_c_5 main_v30 (broadcastInDim S250000 ![] bcast_S_S250000 : (⟨S_, .i32⟩ : BufTy).Contents (Elt F) → (⟨S250000, .i32⟩ : BufTy).Contents (Elt F)),
    StableHlo.binary main_v27 main_v30 main_v31 (addi : (⟨S250000, .i32⟩ : BufTy).Contents (Elt F) → (⟨S250000, .i32⟩ : BufTy).Contents (Elt F) → (⟨S250000, .i32⟩ : BufTy).Contents (Elt F)),
    StableHlo.ternary main_v29 main_v31 main_v27 main_v32 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v32 main_v33 (broadcastInDim S250000x1 ![0] bcast_S250000_S250000x1_0 : (⟨S250000, .i32⟩ : BufTy).Contents (Elt F) → (⟨S250000x1, .i32⟩ : BufTy).Contents (Elt F)),
    StableHlo.binary main_v4 main_v33 main_v34 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_6 (constantI S_ 32 0#32),
    StableHlo.unary main_c_6 main_v35 (broadcastInDim S250000 ![] bcast_S_S250000 : (⟨S_, .i32⟩ : BufTy).Contents (Elt F) → (⟨S250000, .i32⟩ : BufTy).Contents (Elt F)),
    StableHlo.binary main_v25 main_v35 main_v36 (cmpi .slt : (⟨S250000, .i32⟩ : BufTy).Contents (Elt F) → (⟨S250000, .i32⟩ : BufTy).Contents (Elt F) → (⟨S250000, .i1⟩ : BufTy).Contents (Elt F)),
    StableHlo.nullary main_c_7 (constantI S_ 32 10000#32),
    StableHlo.unary main_c_7 main_v37 (broadcastInDim S250000 ![] bcast_S_S250000 : (⟨S_, .i32⟩ : BufTy).Contents (Elt F) → (⟨S250000, .i32⟩ : BufTy).Contents (Elt F)),
    StableHlo.binary main_v25 main_v37 main_v38 (addi : (⟨S250000, .i32⟩ : BufTy).Contents (Elt F) → (⟨S250000, .i32⟩ : BufTy).Contents (Elt F) → (⟨S250000, .i32⟩ : BufTy).Contents (Elt F)),
    StableHlo.ternary main_v36 main_v38 main_v25 main_v39 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v39 main_v40 (broadcastInDim S250000x1 ![0] bcast_S250000_S250000x1_0 : (⟨S250000, .i32⟩ : BufTy).Contents (Elt F) → (⟨S250000x1, .i32⟩ : BufTy).Contents (Elt F)),
    StableHlo.binary main_v4 main_v40 main_v41 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_8 (constantI S_ 32 0#32),
    StableHlo.unary main_c_8 main_v42 (broadcastInDim S250000 ![] bcast_S_S250000 : (⟨S_, .i32⟩ : BufTy).Contents (Elt F) → (⟨S250000, .i32⟩ : BufTy).Contents (Elt F)),
    StableHlo.binary main_v27 main_v42 main_v43 (cmpi .slt : (⟨S250000, .i32⟩ : BufTy).Contents (Elt F) → (⟨S250000, .i32⟩ : BufTy).Contents (Elt F) → (⟨S250000, .i1⟩ : BufTy).Contents (Elt F)),
    StableHlo.nullary main_c_9 (constantI S_ 32 10000#32),
    StableHlo.unary main_c_9 main_v44 (broadcastInDim S250000 ![] bcast_S_S250000 : (⟨S_, .i32⟩ : BufTy).Contents (Elt F) → (⟨S250000, .i32⟩ : BufTy).Contents (Elt F)),
    StableHlo.binary main_v27 main_v44 main_v45 (addi : (⟨S250000, .i32⟩ : BufTy).Contents (Elt F) → (⟨S250000, .i32⟩ : BufTy).Contents (Elt F) → (⟨S250000, .i32⟩ : BufTy).Contents (Elt F)),
    StableHlo.ternary main_v43 main_v45 main_v27 main_v46 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v46 main_v47 (broadcastInDim S250000x1 ![0] bcast_S250000_S250000x1_0 : (⟨S250000, .i32⟩ : BufTy).Contents (Elt F) → (⟨S250000x1, .i32⟩ : BufTy).Contents (Elt F)) ]
theorem k1_sub : (k1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub ..⟩
theorem k1_fresh : (k1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
/-- The references chunk `k1` writes. -/
abbrev k1_W : List (Ref sig .tc) :=
  [main_c_4, main_v28, main_v29, main_c_5, main_v30, main_v31, main_v32, main_v33, main_v34, main_c_6, main_v35, main_v36, main_c_7, main_v37, main_v38,
    main_v39, main_v40, main_v41, main_c_8, main_v42, main_v43, main_c_9, main_v44, main_v45, main_v46, main_v47]
set_option maxRecDepth 8192 in
theorem k1_writes : (k1 : List (HloOp τ sig (Elt F))).Forall fun op => op.writes ⊆ (k1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part0's operations. -/
def w0 : List (HloOp τ sig (Elt F)) := k0 ++ k1

set_option maxRecDepth 8192 in
set_option maxHeartbeats 4000000 in
/-- The window is that straight line: the called functions unfolded at their calls, sequencing reassociated. -/
theorem main_part0_eq (c : Dev nD) : main_part0 (F := F) c = seq w0 := by
  simp only [main_part0, fn_relu.body, bind_assoc, pure_bind]
  rfl

end Cert.ReferenceIdeal.RRun

end
-- ==== Proof.RRunW1.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 62 … 97 of the 758 (from %48 to %69). -/
abbrev k2 : List (HloOp τ sig (Elt F)) :=
  [ StableHlo.binary main_v23 main_v47 main_v48 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.nullary main_c_10 (constantI S_ 32 0#32),
    StableHlo.unary main_c_10 main_v49 (broadcastInDim S250000 ![] bcast_S_S250000 : (⟨S_, .i32⟩ : BufTy).Contents (Elt F) → (⟨S250000, .i32⟩ : BufTy).Contents (Elt F)),
    StableHlo.binary main_v25 main_v49 main_v50 (cmpi .slt : (⟨S250000, .i32⟩ : BufTy).Contents (Elt F) → (⟨S250000, .i32⟩ : BufTy).Contents (Elt F) → (⟨S250000, .i1⟩ : BufTy).Contents (Elt F)),
    StableHlo.nullary main_c_11 (constantI S_ 32 10000#32),
    StableHlo.unary main_c_11 main_v51 (broadcastInDim S250000 ![] bcast_S_S250000 : (⟨S_, .i32⟩ : BufTy).Contents (Elt F) → (⟨S250000, .i32⟩ : BufTy).Contents (Elt F)),
    StableHlo.binary main_v25 main_v51 main_v52 (addi : (⟨S250000, .i32⟩ : BufTy).Contents (Elt F) → (⟨S250000, .i32⟩ : BufTy).Contents (Elt F) → (⟨S250000, .i32⟩ : BufTy).Contents (Elt F)),
    StableHlo.ternary main_v50 main_v52 main_v25 main_v53 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v53 main_v54 (broadcastInDim S250000x1 ![0] bcast_S250000_S250000x1_0 : (⟨S250000, .i32⟩ : BufTy).Contents (Elt F) → (⟨S250000x1, .i32⟩ : BufTy).Contents (Elt F)),
    StableHlo.binary main_v23 main_v54 main_v55 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.binary main_v48 main_v55 main_v56 (subf : (⟨S250000x3, .f32⟩ : BufTy).Contents (Elt F) → (⟨S250000x3, .f32⟩ : BufTy).Contents (Elt F) → (⟨S250000x3, .f32⟩ : BufTy).Contents (Elt F)),
    StableHlo.TRef.binary (.of main_v56 : StableHlo.TRef sig ⟨S250000x3, .f32⟩) (.of main_v56 : StableHlo.TRef sig ⟨S250000x3, .f32⟩) main_call1.v0 mulf,
    StableHlo.TRef.nullary main_call1.cst (constant S_ .f32 0x00000000#32),
    StableHlo.TRef.binary main_call1.v0 main_call1.cst main_call1.v1 (fun x v => Host.reduceAdd x v reducesTo_S250000x3_S250000_d1 h_S_),
    StableHlo.TRef.unary main_call1.v1 main_call1.v2 (broadcastInDim S250000x1 ![0] bcast_S250000_S250000x1_0),
    StableHlo.TRef.unary main_call1.v2 main_call1.v3 Host.sqrt,
    StableHlo.nary ![main_v34, main_v41, main_v57] main_v58 (fun u => concatenate S250000x257 1 [⟨S250000x128, u 0⟩, ⟨S250000x128, u 1⟩, ⟨S250000x1, u 2⟩] concatenates_S250000x128_S250000x128_S250000x1_S250000x257_d1),
    StableHlo.unary main_arg6 main_v59 ((extractStridedSlice S1x257x128 ![0, 0, 0] · slices_S4x257x128_S1x257x128_0_0_0) : (⟨S4x257x128, .f32⟩ : BufTy).Contents (Elt F) → (⟨S1x257x128, .f32⟩ : BufTy).Contents (Elt F)),
    StableHlo.reshape main_v59 main_v60 rfl shapeCasts_S1x257x128_S257x128,
    StableHlo.binary main_v58 main_v60 main_v61 ((fun l r => Host.dotGeneral dot_S250000x257_S257x128_S250000x128_1_0_0_1_n_n none l r) : (⟨S250000x257, .f32⟩ : BufTy).Contents (Elt F) → (⟨S257x128, .f32⟩ : BufTy).Contents (Elt F) → (⟨S250000x128, .f32⟩ : BufTy).Contents (Elt F)),
    StableHlo.unary main_arg7 main_v62 ((extractStridedSlice S1x128 ![0, 0] · slices_S4x128_S1x128_0_0) : (⟨S4x128, .f32⟩ : BufTy).Contents (Elt F) → (⟨S1x128, .f32⟩ : BufTy).Contents (Elt F)),
    StableHlo.reshape main_v62 main_v63 rfl shapeCasts_S1x128_S128,
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S250000x128 ![0, 1] bcast_S1x128_S250000x128_0_1 : (⟨S1x128, .f32⟩ : BufTy).Contents (Elt F) → (⟨S250000x128, .f32⟩ : BufTy).Contents (Elt F)),
    StableHlo.binary main_v61 main_v65 main_v66 (addf : (⟨S250000x128, .f32⟩ : BufTy).Contents (Elt F) → (⟨S250000x128, .f32⟩ : BufTy).Contents (Elt F) → (⟨S250000x128, .f32⟩ : BufTy).Contents (Elt F)),
    StableHlo.TRef.unary (.of main_v66 : StableHlo.TRef sig ⟨S250000x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S250000x128 ![] bcast_S_S250000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S250000x128 ![] bcast_S_S250000x128),
    StableHlo.TRef.binary main_call2.v4 main_call2.v3 main_call2.v5 Host.divf,
    StableHlo.TRef.binary (.of main_v66 : StableHlo.TRef sig ⟨S250000x128, .f32⟩) main_call2.v5 main_call2.v6 mulf,
    StableHlo.unary main_arg8 main_v68 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v68 main_v69 rfl shapeCasts_S1x128x128_S128x128 ]
theorem k2_sub : (k2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub .., binary_bufs_sub ..,
    unary_bufs_sub .., unary_bufs_sub .., nary_bufs_sub .., unary_bufs_sub .., reshape_bufs_sub .., binary_bufs_sub .., unary_bufs_sub ..,
    reshape_bufs_sub .., unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub .., unary_bufs_sub ..,
    reshape_bufs_sub ..⟩
theorem k2_fresh : (k2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩
/-- The references chunk `k2` writes. -/
abbrev k2_W : List (Ref sig .tc) :=
  [main_v48, main_c_10, main_v49, main_v50, main_c_11, main_v51, main_v52, main_v53, main_v54, main_v55, main_v56, main_call1.v0.ref, main_call1.cst.ref,
    main_call1.v1.ref, main_call1.v2.ref, main_call1.v3.ref, main_v58, main_v59, main_v60, main_v61, main_v62, main_v63, main_v64, main_v65, main_v66,
    main_call2.v0.ref, main_call2.v1.ref, main_call2.cst.ref, main_call2.v2.ref, main_call2.v3.ref, main_call2.cst_0.ref, main_call2.v4.ref,
    main_call2.v5.ref, main_call2.v6.ref, main_v68, main_v69]
set_option maxRecDepth 8192 in
theorem k2_writes : (k2 : List (HloOp τ sig (Elt F))).Forall fun op => op.writes ⊆ (k2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 98 … 134 of the 758 (from %70 to %95). -/
abbrev k3 : List (HloOp τ sig (Elt F)) :=
  [ StableHlo.binary main_v67 main_v69 main_v70 ((fun l r => Host.dotGeneral dot_S250000x128_S128x128_S250000x128_1_0_0_1_n_n none l r) : (⟨S250000x128, .f32⟩ : BufTy).Contents (Elt F) → (⟨S128x128, .f32⟩ : BufTy).Contents (Elt F) → (⟨S250000x128, .f32⟩ : BufTy).Contents (Elt F)),
    StableHlo.unary main_arg9 main_v71 ((extractStridedSlice S1x128 ![0, 0] · slices_S4x128_S1x128_0_0) : (⟨S4x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S250000x128 ![0, 1] bcast_S1x128_S250000x128_0_1 : (⟨S1x128, .f32⟩ : BufTy).Contents (Elt F) → (⟨S250000x128, .f32⟩ : BufTy).Contents (Elt F)),
    StableHlo.binary main_v70 main_v74 main_v75 (addf : (⟨S250000x128, .f32⟩ : BufTy).Contents (Elt F) → (⟨S250000x128, .f32⟩ : BufTy).Contents (Elt F) → (⟨S250000x128, .f32⟩ : BufTy).Contents (Elt F)),
    StableHlo.TRef.unary (.of main_v75 : StableHlo.TRef sig ⟨S250000x128, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S250000x128 ![] bcast_S_S250000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S250000x128 ![] bcast_S_S250000x128),
    StableHlo.TRef.binary main_call3.v4 main_call3.v3 main_call3.v5 Host.divf,
    StableHlo.TRef.binary (.of main_v75 : StableHlo.TRef sig ⟨S250000x128, .f32⟩) main_call3.v5 main_call3.v6 mulf,
    StableHlo.unary main_arg10 main_v77 ((extractStridedSlice S1x128x1 ![0, 0, 0] · slices_S4x128x1_S1x128x1_0_0_0) : (⟨S4x128x1, .f32⟩ : BufTy).Contents (Elt F) → (⟨S1x128x1, .f32⟩ : BufTy).Contents (Elt F)),
    StableHlo.reshape main_v77 main_v78 rfl shapeCasts_S1x128x1_S128x1,
    StableHlo.binary main_v76 main_v78 main_v79 ((fun l r => Host.dotGeneral dot_S250000x128_S128x1_S250000x1_1_0_0_1_n_n none l r) : (⟨S250000x128, .f32⟩ : BufTy).Contents (Elt F) → (⟨S128x1, .f32⟩ : BufTy).Contents (Elt F) → (⟨S250000x1, .f32⟩ : BufTy).Contents (Elt F)),
    StableHlo.unary main_arg11 main_v80 ((extractStridedSlice S1x1 ![0, 0] · slices_S4x1_S1x1_0_0) : (⟨S4x1, .f32⟩ : BufTy).Contents (Elt F) → (⟨S1x1, .f32⟩ : BufTy).Contents (Elt F)),
    StableHlo.reshape main_v80 main_v81 rfl shapeCasts_S1x1_S1,
    StableHlo.unary main_v81 main_v82 (broadcastInDim S1x1 ![1] bcast_S1_S1x1_1 : (⟨S1, .f32⟩ : BufTy).Contents (Elt F) → (⟨S1x1, .f32⟩ : BufTy).Contents (Elt F)),
    StableHlo.unary main_v82 main_v83 (broadcastInDim S250000x1 ![0, 1] bcast_S1x1_S250000x1_0_1 : (⟨S1x1, .f32⟩ : BufTy).Contents (Elt F) → (⟨S250000x1, .f32⟩ : BufTy).Contents (Elt F)),
    StableHlo.binary main_v79 main_v83 main_v84 (addf : (⟨S250000x1, .f32⟩ : BufTy).Contents (Elt F) → (⟨S250000x1, .f32⟩ : BufTy).Contents (Elt F) → (⟨S250000x1, .f32⟩ : BufTy).Contents (Elt F)),
    StableHlo.unary main_v84 main_v85 (Host.negf : (⟨S250000x1, .f32⟩ : BufTy).Contents (Elt F) → (⟨S250000x1, .f32⟩ : BufTy).Contents (Elt F)),
    StableHlo.unary main_v85 main_v86 (Host.exp : (⟨S250000x1, .f32⟩ : BufTy).Contents (Elt F) → (⟨S250000x1, .f32⟩ : BufTy).Contents (Elt F)),
    StableHlo.nullary main_cst_12 (constant S_ .f32 0x3F800000#32),
    StableHlo.unary main_cst_12 main_v87 (broadcastInDim S250000x1 ![] bcast_S_S250000x1 : (⟨S_, .f32⟩ : BufTy).Contents (Elt F) → (⟨S250000x1, .f32⟩ : BufTy).Contents (Elt F)),
    StableHlo.binary main_v87 main_v86 main_v88 (addf : (⟨S250000x1, .f32⟩ : BufTy).Contents (Elt F) → (⟨S250000x1, .f32⟩ : BufTy).Contents (Elt F) → (⟨S250000x1, .f32⟩ : BufTy).Contents (Elt F)),
    StableHlo.nullary main_cst_13 (constant S_ .f32 0x3F800000#32),
    StableHlo.unary main_cst_13 main_v89 (broadcastInDim S250000x1 ![] bcast_S_S250000x1 : (⟨S_, .f32⟩ : BufTy).Contents (Elt F) → (⟨S250000x1, .f32⟩ : BufTy).Contents (Elt F)),
    StableHlo.binary main_v89 main_v88 main_v90 (Host.divf : (⟨S250000x1, .f32⟩ : BufTy).Contents (Elt F) → (⟨S250000x1, .f32⟩ : BufTy).Contents (Elt F) → (⟨S250000x1, .f32⟩ : BufTy).Contents (Elt F)),
    StableHlo.unary main_v90 main_v91 (broadcastInDim S250000x128 ![0, 1] bcast_S250000x1_S250000x128_0_1 : (⟨S250000x1, .f32⟩ : BufTy).Contents (Elt F) → (⟨S250000x128, .f32⟩ : BufTy).Contents (Elt F)),
    StableHlo.binary main_v76 main_v91 main_v92 (mulf : (⟨S250000x128, .f32⟩ : BufTy).Contents (Elt F) → (⟨S250000x128, .f32⟩ : BufTy).Contents (Elt F) → (⟨S250000x128, .f32⟩ : BufTy).Contents (Elt F)),
    StableHlo.nullary main_cst_14 (constant S_ .f32 0x00000000#32),
    StableHlo.unary main_cst_14 main_v93 (broadcastInDim S10000x128 ![] bcast_S_S10000x128 : (⟨S_, .f32⟩ : BufTy).Contents (Elt F) → (⟨S10000x128, .f32⟩ : BufTy).Contents (Elt F)),
    StableHlo.unary main_v27 main_v94 (broadcastInDim S250000x1 ![0] bcast_S250000_S250000x1_0 : (⟨S250000, .i32⟩ : BufTy).Contents (Elt F) → (⟨S250000x1, .i32⟩ : BufTy).Contents (Elt F)),
    StableHlo.ternary main_v93 main_v94 main_v92 main_v95 ((fun x i u => Host.scatterAdd scatter_S10000x128_S250000x1_S250000x128_1_0_0_1 x i u) : (⟨S10000x128, .f32⟩ : BufTy).Contents (Elt F) → (⟨S250000x1, .i32⟩ : BufTy).Contents (Elt F) → (⟨S250000x128, .f32⟩ : BufTy).Contents (Elt F) → (⟨S10000x128, .f32⟩ : BufTy).Contents (Elt F)) ]
theorem k3_sub : (k3 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub ..,
    unary_bufs_sub .., nullary_bufs_sub .., unary_bufs_sub .., binary_bufs_sub .., nullary_bufs_sub .., unary_bufs_sub .., binary_bufs_sub ..,
    binary_bufs_sub .., unary_bufs_sub .., reshape_bufs_sub .., binary_bufs_sub .., unary_bufs_sub .., reshape_bufs_sub .., unary_bufs_sub ..,
    unary_bufs_sub .., binary_bufs_sub .., unary_bufs_sub .., unary_bufs_sub .., nullary_bufs_sub .., unary_bufs_sub .., binary_bufs_sub ..,
    nullary_bufs_sub .., unary_bufs_sub .., binary_bufs_sub .., unary_bufs_sub .., binary_bufs_sub .., nullary_bufs_sub .., unary_bufs_sub ..,
    unary_bufs_sub .., ternary_bufs_sub ..⟩
theorem k3_fresh : (k3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩
/-- The references chunk `k3` writes. -/
abbrev k3_W : List (Ref sig .tc) :=
  [main_v70, main_v71, main_v72, main_v73, main_v74, main_v75, main_call3.v0.ref, main_call3.v1.ref, main_call3.cst.ref, main_call3.v2.ref,
    main_call3.v3.ref, main_call3.cst_0.ref, main_call3.v4.ref, main_call3.v5.ref, main_call3.v6.ref, main_v77, main_v78, main_v79, main_v80, main_v81,
    main_v82, main_v83, main_v84, main_v85, main_v86, main_cst_12, main_v87, main_v88, main_cst_13, main_v89, main_v90, main_v91, main_v92, main_cst_14,
    main_v93, main_v94, main_v95]
set_option maxRecDepth 8192 in
theorem k3_writes : (k3 : List (HloOp τ sig (Elt F))).Forall fun op => op.writes ⊆ (k3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 135 … 141 of the 758 (from %96 to %102). -/
abbrev k4 : List (HloOp τ sig (Elt F)) :=
  [ StableHlo.binary main_v4 main_v95 main_v96 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg12 main_v97 ((extractStridedSlice S1x256x128 ![0, 0, 0] · slices_S4x256x128_S1x256x128_0_0_0) : (⟨S4x256x128, .f32⟩ : BufTy).Contents (Elt F) → (⟨S1x256x128, .f32⟩ : BufTy).Contents (Elt F)),
    StableHlo.reshape main_v97 main_v98 rfl shapeCasts_S1x256x128_S256x128,
    StableHlo.binary main_v96 main_v98 main_v99 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg13 main_v100 ((extractStridedSlice S1x128 ![0, 0] · slices_S4x128_S1x128_0_0) : (⟨S4x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)) ]
theorem k4_sub : (k4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub ..⟩
theorem k4_fresh : (k4 : List (HloOp τ sig (Elt F))).Forall fun op => op.fresh = ∅ :=
  ⟨rfl, rfl, rfl, rfl, rfl, rfl, rfl⟩
/-- The references chunk `k4` writes. -/
abbrev k4_W : List (Ref sig .tc) :=
  [main_v96, main_v97, main_v98, main_v99, main_v100, main_v101, main_v102]
set_option maxRecDepth 8192 in
theorem k4_writes : (k4 : List (HloOp τ sig (Elt F))).Forall fun op => op.writes ⊆ (k4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part1's operations. -/
def w1 : List (HloOp τ sig (Elt F)) := k2 ++ k3 ++ k4

set_option maxRecDepth 8192 in
set_option maxHeartbeats 4000000 in
/-- The window is that straight line: the called functions unfolded at their calls, sequencing reassociated. -/
theorem main_part1_eq (c : Dev nD) : main_part1 (F := F) c = seq w1 := by
  simp only [main_part1, fn_norm.body, fn_silu.body, bind_assoc, pure_bind]
  rfl

end Cert.ReferenceIdeal.RRun

end
-- ==== Proof.RRunW2.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 142 … 175 of the 758 (from %103 to %119:fn_var %4). -/
abbrev k5 : List (HloOp τ sig (Elt F)) :=
  [ StableHlo.unary main_v102 main_v103 (broadcastInDim S10000x128 ![0, 1] bcast_S1x128_S10000x128_0_1 : (⟨S1x128, .f32⟩ : BufTy).Contents (Elt F) → (⟨S10000x128, .f32⟩ : BufTy).Contents (Elt F)),
    StableHlo.binary main_v99 main_v103 main_v104 (addf : (⟨S10000x128, .f32⟩ : BufTy).Contents (Elt F) → (⟨S10000x128, .f32⟩ : BufTy).Contents (Elt F) → (⟨S10000x128, .f32⟩ : BufTy).Contents (Elt F)),
    StableHlo.TRef.unary (.of main_v104 : StableHlo.TRef sig ⟨S10000x128, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S10000x128 ![] bcast_S_S10000x128),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S10000x128 ![] bcast_S_S10000x128),
    StableHlo.TRef.binary main_call4.v4 main_call4.v3 main_call4.v5 Host.divf,
    StableHlo.TRef.binary (.of main_v104 : StableHlo.TRef sig ⟨S10000x128, .f32⟩) main_call4.v5 main_call4.v6 mulf,
    StableHlo.unary main_arg14 main_v106 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v106 main_v107 rfl shapeCasts_S1x128x128_S128x128,
    StableHlo.binary main_v105 main_v107 main_v108 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg15 main_v109 ((extractStridedSlice S1x128 ![0, 0] · slices_S4x128_S1x128_0_0) : (⟨S4x128, .f32⟩ : BufTy).Contents (Elt F) → (⟨S1x128, .f32⟩ : BufTy).Contents (Elt F)),
    StableHlo.reshape main_v109 main_v110 rfl shapeCasts_S1x128_S128,
    StableHlo.unary main_v110 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S10000x128 ![0, 1] bcast_S1x128_S10000x128_0_1 : (⟨S1x128, .f32⟩ : BufTy).Contents (Elt F) → (⟨S10000x128, .f32⟩ : BufTy).Contents (Elt F)),
    StableHlo.binary main_v108 main_v112 main_v113 (addf : (⟨S10000x128, .f32⟩ : BufTy).Contents (Elt F) → (⟨S10000x128, .f32⟩ : BufTy).Contents (Elt F) → (⟨S10000x128, .f32⟩ : BufTy).Contents (Elt F)),
    StableHlo.binary main_v4 main_v113 main_v114 (addf : (⟨S10000x128, .f32⟩ : BufTy).Contents (Elt F) → (⟨S10000x128, .f32⟩ : BufTy).Contents (Elt F) → (⟨S10000x128, .f32⟩ : BufTy).Contents (Elt F)),
    StableHlo.nullary main_cst_15 (constant S_ .f32 0x00000000#32),
    StableHlo.binary main_v114 main_cst_15 main_v115 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v115 main_v116 (broadcastInDim S10000x1 ![0] bcast_S10000_S10000x1_0 : (⟨S10000, .f32⟩ : BufTy).Contents (Elt F) → (⟨S10000x1, .f32⟩ : BufTy).Contents (Elt F)),
    StableHlo.nullary main_cst_16 (constant S_ .f32 0x43000000#32),
    StableHlo.unary main_cst_16 main_v117 (broadcastInDim S10000x1 ![] bcast_S_S10000x1 : (⟨S_, .f32⟩ : BufTy).Contents (Elt F) → (⟨S10000x1, .f32⟩ : BufTy).Contents (Elt F)),
    StableHlo.binary main_v116 main_v117 main_v118 (Host.divf : (⟨S10000x1, .f32⟩ : BufTy).Contents (Elt F) → (⟨S10000x1, .f32⟩ : BufTy).Contents (Elt F) → (⟨S10000x1, .f32⟩ : BufTy).Contents (Elt F)),
    StableHlo.nullary main_c_17 (constantI S_ 32 0#32),
    StableHlo.TRef.nullary main_call5.cst (constant S_ .f32 0x00000000#32),
    StableHlo.TRef.binary (.of main_v114 : StableHlo.TRef sig ⟨S10000x128, .f32⟩) main_call5.cst main_call5.v0 (fun x v => Host.reduceAdd x v reducesTo_S10000x128_S10000_d1 h_S_),
    StableHlo.TRef.unary main_call5.v0 main_call5.v1 (broadcastInDim S10000x1 ![0] bcast_S10000_S10000x1_0),
    StableHlo.TRef.nullary main_call5.cst_0 (constant S_ .f32 0x43000000#32),
    StableHlo.TRef.unary main_call5.cst_0 main_call5.v2 (broadcastInDim S10000x1 ![] bcast_S_S10000x1),
    StableHlo.TRef.binary main_call5.v1 main_call5.v2 main_call5.v3 Host.divf,
    StableHlo.TRef.unary main_call5.v3 main_call5.v4 (broadcastInDim S10000x128 ![0, 1] bcast_S10000x1_S10000x128_0_1) ]
theorem k5_sub : (k5 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., reshape_bufs_sub .., binary_bufs_sub ..,
    unary_bufs_sub .., reshape_bufs_sub .., unary_bufs_sub .., unary_bufs_sub .., binary_bufs_sub .., binary_bufs_sub .., nullary_bufs_sub ..,
    binary_bufs_sub .., unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..⟩
theorem k5_fresh : (k5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl⟩
/-- The references chunk `k5` writes. -/
abbrev k5_W : List (Ref sig .tc) :=
  [main_v103, main_v104, main_call4.v0.ref, main_call4.v1.ref, main_call4.cst.ref, main_call4.v2.ref, main_call4.v3.ref, main_call4.cst_0.ref,
    main_call4.v4.ref, main_call4.v5.ref, main_call4.v6.ref, main_v106, main_v107, main_v108, main_v109, main_v110, main_v111, main_v112, main_v113,
    main_v114, main_cst_15, main_v115, main_v116, main_cst_16, main_v117, main_v118, main_c_17, main_call5.cst.ref, main_call5.v0.ref, main_call5.v1.ref,
    main_call5.cst_0.ref, main_call5.v2.ref, main_call5.v3.ref, main_call5.v4.ref]
set_option maxRecDepth 8192 in
theorem k5_writes : (k5 : List (HloOp τ sig (Elt F))).Forall fun op => op.writes ⊆ (k5_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 176 … 209 of the 758 (from %119:fn_var %5 to %136). -/
abbrev k6 : List (HloOp τ sig (Elt F)) :=
  [ StableHlo.TRef.binary (.of main_v114 : StableHlo.TRef sig ⟨S10000x128, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S10000x128_S10000_d1 h_S_),
    StableHlo.TRef.unary main_call5.v9 main_call5.v10 (broadcastInDim S10000x1 ![0] bcast_S10000_S10000x1_0),
    StableHlo.TRef.unary main_call5.v8 main_call5.v11 (broadcastInDim S10000x1 ![] bcast_S_S10000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S10000x1 ![] bcast_S_S10000x1),
    StableHlo.TRef.ternary main_call5.v13 main_call5.v12 main_call5.call0.v1 main_call5.call0.v2 (fun p a b => select (broadcastInDim S10000x1 ![] bcast_S_S10000x1 p) a b),
    StableHlo.unary main_v118 main_v120 (broadcastInDim S10000x128 ![0, 1] bcast_S10000x1_S10000x128_0_1 : (⟨S10000x1, .f32⟩ : BufTy).Contents (Elt F) → (⟨S10000x128, .f32⟩ : BufTy).Contents (Elt F)),
    StableHlo.binary main_v114 main_v120 main_v121 (subf : (⟨S10000x128, .f32⟩ : BufTy).Contents (Elt F) → (⟨S10000x128, .f32⟩ : BufTy).Contents (Elt F) → (⟨S10000x128, .f32⟩ : BufTy).Contents (Elt F)),
    StableHlo.nullary main_cst_18 (constant S_ .f32 0x3727C5AC#32),
    StableHlo.unary main_cst_18 main_v122 (broadcastInDim S10000x1 ![] bcast_S_S10000x1 : (⟨S_, .f32⟩ : BufTy).Contents (Elt F) → (⟨S10000x1, .f32⟩ : BufTy).Contents (Elt F)),
    StableHlo.binary main_v119 main_v122 main_v123 (addf : (⟨S10000x1, .f32⟩ : BufTy).Contents (Elt F) → (⟨S10000x1, .f32⟩ : BufTy).Contents (Elt F) → (⟨S10000x1, .f32⟩ : BufTy).Contents (Elt F)),
    StableHlo.unary main_v123 main_v124 (Host.sqrt : (⟨S10000x1, .f32⟩ : BufTy).Contents (Elt F) → (⟨S10000x1, .f32⟩ : BufTy).Contents (Elt F)),
    StableHlo.unary main_v124 main_v125 (broadcastInDim S10000x128 ![0, 1] bcast_S10000x1_S10000x128_0_1 : (⟨S10000x1, .f32⟩ : BufTy).Contents (Elt F) → (⟨S10000x128, .f32⟩ : BufTy).Contents (Elt F)),
    StableHlo.binary main_v121 main_v125 main_v126 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v127 ((extractStridedSlice S1x128 ![0, 0] · slices_S4x128_S1x128_0_0) : (⟨S4x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S10000x128 ![0, 1] bcast_S1x128_S10000x128_0_1 : (⟨S1x128, .f32⟩ : BufTy).Contents (Elt F) → (⟨S10000x128, .f32⟩ : BufTy).Contents (Elt F)),
    StableHlo.binary main_v126 main_v130 main_v131 (mulf : (⟨S10000x128, .f32⟩ : BufTy).Contents (Elt F) → (⟨S10000x128, .f32⟩ : BufTy).Contents (Elt F) → (⟨S10000x128, .f32⟩ : BufTy).Contents (Elt F)),
    StableHlo.unary main_arg17 main_v132 ((extractStridedSlice S1x128 ![0, 0] · slices_S4x128_S1x128_0_0) : (⟨S4x128, .f32⟩ : BufTy).Contents (Elt F) → (⟨S1x128, .f32⟩ : BufTy).Contents (Elt F)),
    StableHlo.reshape main_v132 main_v133 rfl shapeCasts_S1x128_S128,
    StableHlo.unary main_v133 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S10000x128 ![0, 1] bcast_S1x128_S10000x128_0_1 : (⟨S1x128, .f32⟩ : BufTy).Contents (Elt F) → (⟨S10000x128, .f32⟩ : BufTy).Contents (Elt F)),
    StableHlo.binary main_v131 main_v135 main_v136 (addf : (⟨S10000x128, .f32⟩ : BufTy).Contents (Elt F) → (⟨S10000x128, .f32⟩ : BufTy).Contents (Elt F) → (⟨S10000x128, .f32⟩ : BufTy).Contents (Elt F)) ]
theorem k6_sub : (k6 : List (HloOp τ sig (Elt F))).Forall fun op => op.bufs ⊆ tcRefs τ sig :=
  ⟨binary_bufs_sub .., binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub .., binary_bufs_sub ..,
    unary_bufs_sub .., unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..⟩
theorem k6_fresh : (k6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl⟩
/-- The references chunk `k6` writes. -/
abbrev k6_W : List (Ref sig .tc) :=
  [main_call5.v5.ref, main_call5.v6.ref, main_call5.v7.ref, main_call5.cst_1.ref, main_call5.v8.ref, main_call5.cst_2.ref, main_call5.v9.ref,
    main_call5.v10.ref, main_call5.v11.ref, main_call5.v12.ref, main_call5.cst_3.ref, main_call5.v13.ref, main_call5.cst_4.ref, main_call5.call0.v0.ref,
    main_call5.call0.v1.ref, main_call5.call0.v2.ref, main_v120, main_v121, main_cst_18, main_v122, main_v123, main_v124, main_v125, main_v126, main_v127,
    main_v128, main_v129, main_v130, main_v131, main_v132, main_v133, main_v134, main_v135, main_v136]
set_option maxRecDepth 8192 in
theorem k6_writes : (k6 : List (HloOp τ sig (Elt F))).Forall fun op => op.writes ⊆ (k6_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 210 … 231 of the 758 (from %c_19 to %c_24). -/
abbrev k7 : List (HloOp τ sig (Elt F)) :=
  [ StableHlo.nullary main_c_19 (constantI S_ 32 0#32),
    StableHlo.unary main_c_19 main_v137 (broadcastInDim S250000 ![] bcast_S_S250000 : (⟨S_, .i32⟩ : BufTy).Contents (Elt F) → (⟨S250000, .i32⟩ : BufTy).Contents (Elt F)),
    StableHlo.binary main_v27 main_v137 main_v138 (cmpi .slt : (⟨S250000, .i32⟩ : BufTy).Contents (Elt F) → (⟨S250000, .i32⟩ : BufTy).Contents (Elt F) → (⟨S250000, .i1⟩ : BufTy).Contents (Elt F)),
    StableHlo.nullary main_c_20 (constantI S_ 32 10000#32),
    StableHlo.unary main_c_20 main_v139 (broadcastInDim S250000 ![] bcast_S_S250000 : (⟨S_, .i32⟩ : BufTy).Contents (Elt F) → (⟨S250000, .i32⟩ : BufTy).Contents (Elt F)),
    StableHlo.binary main_v27 main_v139 main_v140 (addi : (⟨S250000, .i32⟩ : BufTy).Contents (Elt F) → (⟨S250000, .i32⟩ : BufTy).Contents (Elt F) → (⟨S250000, .i32⟩ : BufTy).Contents (Elt F)),
    StableHlo.ternary main_v138 main_v140 main_v27 main_v141 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v141 main_v142 (broadcastInDim S250000x1 ![0] bcast_S250000_S250000x1_0 : (⟨S250000, .i32⟩ : BufTy).Contents (Elt F) → (⟨S250000x1, .i32⟩ : BufTy).Contents (Elt F)),
    StableHlo.binary main_v136 main_v142 main_v143 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_21 (constantI S_ 32 0#32),
    StableHlo.unary main_c_21 main_v144 (broadcastInDim S250000 ![] bcast_S_S250000 : (⟨S_, .i32⟩ : BufTy).Contents (Elt F) → (⟨S250000, .i32⟩ : BufTy).Contents (Elt F)),
    StableHlo.binary main_v25 main_v144 main_v145 (cmpi .slt : (⟨S250000, .i32⟩ : BufTy).Contents (Elt F) → (⟨S250000, .i32⟩ : BufTy).Contents (Elt F) → (⟨S250000, .i1⟩ : BufTy).Contents (Elt F)),
    StableHlo.nullary main_c_22 (constantI S_ 32 10000#32),
    StableHlo.unary main_c_22 main_v146 (broadcastInDim S250000 ![] bcast_S_S250000 : (⟨S_, .i32⟩ : BufTy).Contents (Elt F) → (⟨S250000, .i32⟩ : BufTy).Contents (Elt F)),
    StableHlo.binary main_v25 main_v146 main_v147 (addi : (⟨S250000, .i32⟩ : BufTy).Contents (Elt F) → (⟨S250000, .i32⟩ : BufTy).Contents (Elt F) → (⟨S250000, .i32⟩ : BufTy).Contents (Elt F)),
    StableHlo.ternary main_v145 main_v147 main_v25 main_v148 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v148 main_v149 (broadcastInDim S250000x1 ![0] bcast_S250000_S250000x1_0 : (⟨S250000, .i32⟩ : BufTy).Contents (Elt F) → (⟨S250000x1, .i32⟩ : BufTy).Contents (Elt F)),
    StableHlo.binary main_v136 main_v149 main_v150 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_23 (constantI S_ 32 0#32),
    StableHlo.unary main_c_23 main_v151 (broadcastInDim S250000 ![] bcast_S_S250000 : (⟨S_, .i32⟩ : BufTy).Contents (Elt F) → (⟨S250000, .i32⟩ : BufTy).Contents (Elt F)),
    StableHlo.binary main_v27 main_v151 main_v152 (cmpi .slt : (⟨S250000, .i32⟩ : BufTy).Contents (Elt F) → (⟨S250000, .i32⟩ : BufTy).Contents (Elt F) → (⟨S250000, .i1⟩ : BufTy).Contents (Elt F)),
    StableHlo.nullary main_c_24 (constantI S_ 32 10000#32) ]
theorem k7_sub : (k7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub .., binary_bufs_sub ..,
    nullary_bufs_sub ..⟩
theorem k7_fresh : (k7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The references chunk `k7` writes. -/
abbrev k7_W : List (Ref sig .tc) :=
  [main_c_19, main_v137, main_v138, main_c_20, main_v139, main_v140, main_v141, main_v142, main_v143, main_c_21, main_v144, main_v145, main_c_22,
    main_v146, main_v147, main_v148, main_v149, main_v150, main_c_23, main_v151, main_v152, main_c_24]
set_option maxRecDepth 8192 in
theorem k7_writes : (k7 : List (HloOp τ sig (Elt F))).Forall fun op => op.writes ⊆ (k7_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part2's operations. -/
def w2 : List (HloOp τ sig (Elt F)) := k5 ++ k6 ++ k7

set_option maxRecDepth 8192 in
set_option maxHeartbeats 4000000 in
/-- The window is that straight line: the called functions unfolded at their calls, sequencing reassociated. -/
theorem main_part2_eq (c : Dev nD) : main_part2 (F := F) c = seq w2 := by
  simp only [main_part2, fn_silu_0.body, fn_var.body, fn_where.body, bind_assoc, pure_bind]
  rfl

end Cert.ReferenceIdeal.RRun

end
-- ==== Proof.RRunW3.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 232 … 269 of the 758 (from %153 to %176:fn_silu %6). -/
abbrev k8 : List (HloOp τ sig (Elt F)) :=
  [ StableHlo.unary main_c_24 main_v153 (broadcastInDim S250000 ![] bcast_S_S250000 : (⟨S_, .i32⟩ : BufTy).Contents (Elt F) → (⟨S250000, .i32⟩ : BufTy).Contents (Elt F)),
    StableHlo.binary main_v27 main_v153 main_v154 (addi : (⟨S250000, .i32⟩ : BufTy).Contents (Elt F) → (⟨S250000, .i32⟩ : BufTy).Contents (Elt F) → (⟨S250000, .i32⟩ : BufTy).Contents (Elt F)),
    StableHlo.ternary main_v152 main_v154 main_v27 main_v155 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v155 main_v156 (broadcastInDim S250000x1 ![0] bcast_S250000_S250000x1_0 : (⟨S250000, .i32⟩ : BufTy).Contents (Elt F) → (⟨S250000x1, .i32⟩ : BufTy).Contents (Elt F)),
    StableHlo.binary main_v23 main_v156 main_v157 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.nullary main_c_25 (constantI S_ 32 0#32),
    StableHlo.unary main_c_25 main_v158 (broadcastInDim S250000 ![] bcast_S_S250000 : (⟨S_, .i32⟩ : BufTy).Contents (Elt F) → (⟨S250000, .i32⟩ : BufTy).Contents (Elt F)),
    StableHlo.binary main_v25 main_v158 main_v159 (cmpi .slt : (⟨S250000, .i32⟩ : BufTy).Contents (Elt F) → (⟨S250000, .i32⟩ : BufTy).Contents (Elt F) → (⟨S250000, .i1⟩ : BufTy).Contents (Elt F)),
    StableHlo.nullary main_c_26 (constantI S_ 32 10000#32),
    StableHlo.unary main_c_26 main_v160 (broadcastInDim S250000 ![] bcast_S_S250000 : (⟨S_, .i32⟩ : BufTy).Contents (Elt F) → (⟨S250000, .i32⟩ : BufTy).Contents (Elt F)),
    StableHlo.binary main_v25 main_v160 main_v161 (addi : (⟨S250000, .i32⟩ : BufTy).Contents (Elt F) → (⟨S250000, .i32⟩ : BufTy).Contents (Elt F) → (⟨S250000, .i32⟩ : BufTy).Contents (Elt F)),
    StableHlo.ternary main_v159 main_v161 main_v25 main_v162 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v162 main_v163 (broadcastInDim S250000x1 ![0] bcast_S250000_S250000x1_0 : (⟨S250000, .i32⟩ : BufTy).Contents (Elt F) → (⟨S250000x1, .i32⟩ : BufTy).Contents (Elt F)),
    StableHlo.binary main_v23 main_v163 main_v164 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.binary main_v157 main_v164 main_v165 (subf : (⟨S250000x3, .f32⟩ : BufTy).Contents (Elt F) → (⟨S250000x3, .f32⟩ : BufTy).Contents (Elt F) → (⟨S250000x3, .f32⟩ : BufTy).Contents (Elt F)),
    StableHlo.TRef.binary (.of main_v165 : StableHlo.TRef sig ⟨S250000x3, .f32⟩) (.of main_v165 : StableHlo.TRef sig ⟨S250000x3, .f32⟩) main_call6.v0 mulf,
    StableHlo.TRef.nullary main_call6.cst (constant S_ .f32 0x00000000#32),
    StableHlo.TRef.binary main_call6.v0 main_call6.cst main_call6.v1 (fun x v => Host.reduceAdd x v reducesTo_S250000x3_S250000_d1 h_S_),
    StableHlo.TRef.unary main_call6.v1 main_call6.v2 (broadcastInDim S250000x1 ![0] bcast_S250000_S250000x1_0),
    StableHlo.TRef.unary main_call6.v2 main_call6.v3 Host.sqrt,
    StableHlo.nary ![main_v143, main_v150, main_v166] main_v167 (fun u => concatenate S250000x257 1 [⟨S250000x128, u 0⟩, ⟨S250000x128, u 1⟩, ⟨S250000x1, u 2⟩] concatenates_S250000x128_S250000x128_S250000x1_S250000x257_d1),
    StableHlo.unary main_arg6 main_v168 ((extractStridedSlice S1x257x128 ![1, 0, 0] · slices_S4x257x128_S1x257x128_1_0_0) : (⟨S4x257x128, .f32⟩ : BufTy).Contents (Elt F) → (⟨S1x257x128, .f32⟩ : BufTy).Contents (Elt F)),
    StableHlo.reshape main_v168 main_v169 rfl shapeCasts_S1x257x128_S257x128,
    StableHlo.binary main_v167 main_v169 main_v170 ((fun l r => Host.dotGeneral dot_S250000x257_S257x128_S250000x128_1_0_0_1_n_n none l r) : (⟨S250000x257, .f32⟩ : BufTy).Contents (Elt F) → (⟨S257x128, .f32⟩ : BufTy).Contents (Elt F) → (⟨S250000x128, .f32⟩ : BufTy).Contents (Elt F)),
    StableHlo.unary main_arg7 main_v171 ((extractStridedSlice S1x128 ![1, 0] · slices_S4x128_S1x128_1_0) : (⟨S4x128, .f32⟩ : BufTy).Contents (Elt F) → (⟨S1x128, .f32⟩ : BufTy).Contents (Elt F)),
    StableHlo.reshape main_v171 main_v172 rfl shapeCasts_S1x128_S128,
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S250000x128 ![0, 1] bcast_S1x128_S250000x128_0_1 : (⟨S1x128, .f32⟩ : BufTy).Contents (Elt F) → (⟨S250000x128, .f32⟩ : BufTy).Contents (Elt F)),
    StableHlo.binary main_v170 main_v174 main_v175 (addf : (⟨S250000x128, .f32⟩ : BufTy).Contents (Elt F) → (⟨S250000x128, .f32⟩ : BufTy).Contents (Elt F) → (⟨S250000x128, .f32⟩ : BufTy).Contents (Elt F)),
    StableHlo.TRef.unary (.of main_v175 : StableHlo.TRef sig ⟨S250000x128, .f32⟩) main_call7.v0 Host.negf,
    StableHlo.TRef.unary main_call7.v0 main_call7.v1 Host.exp,
    StableHlo.TRef.nullary main_call7.cst (constant S_ .f32 0x3F800000#32),
    StableHlo.TRef.unary main_call7.cst main_call7.v2 (broadcastInDim S250000x128 ![] bcast_S_S250000x128),
    StableHlo.TRef.binary main_call7.v2 main_call7.v1 main_call7.v3 addf,
    StableHlo.TRef.nullary main_call7.cst_0 (constant S_ .f32 0x3F800000#32),
    StableHlo.TRef.unary main_call7.cst_0 main_call7.v4 (broadcastInDim S250000x128 ![] bcast_S_S250000x128),
    StableHlo.TRef.binary main_call7.v4 main_call7.v3 main_call7.v5 Host.divf,
    StableHlo.TRef.binary (.of main_v175 : StableHlo.TRef sig ⟨S250000x128, .f32⟩) main_call7.v5 main_call7.v6 mulf ]
theorem k8_sub : (k8 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    binary_bufs_sub .., binary_bufs_sub .., nullary_bufs_sub .., binary_bufs_sub .., unary_bufs_sub .., unary_bufs_sub .., nary_bufs_sub ..,
    unary_bufs_sub .., reshape_bufs_sub .., binary_bufs_sub .., unary_bufs_sub .., reshape_bufs_sub .., unary_bufs_sub .., unary_bufs_sub ..,
    binary_bufs_sub .., unary_bufs_sub .., unary_bufs_sub .., nullary_bufs_sub .., unary_bufs_sub .., binary_bufs_sub .., nullary_bufs_sub ..,
    unary_bufs_sub .., binary_bufs_sub .., binary_bufs_sub ..⟩
theorem k8_fresh : (k8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩
/-- The references chunk `k8` writes. -/
abbrev k8_W : List (Ref sig .tc) :=
  [main_v153, main_v154, main_v155, main_v156, main_v157, main_c_25, main_v158, main_v159, main_c_26, main_v160, main_v161, main_v162, main_v163,
    main_v164, main_v165, main_call6.v0.ref, main_call6.cst.ref, main_call6.v1.ref, main_call6.v2.ref, main_call6.v3.ref, main_v167, main_v168, main_v169,
    main_v170, main_v171, main_v172, main_v173, main_v174, main_v175, main_call7.v0.ref, main_call7.v1.ref, main_call7.cst.ref, main_call7.v2.ref,
    main_call7.v3.ref, main_call7.cst_0.ref, main_call7.v4.ref, main_call7.v5.ref, main_call7.v6.ref]
set_option maxRecDepth 8192 in
theorem k8_writes : (k8 : List (HloOp τ sig (Elt F))).Forall fun op => op.writes ⊆ (k8_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 270 … 308 of the 758 (from %177 to %204). -/
abbrev k9 : List (HloOp τ sig (Elt F)) :=
  [ StableHlo.unary main_arg8 main_v177 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v177 main_v178 rfl shapeCasts_S1x128x128_S128x128,
    StableHlo.binary main_v176 main_v178 main_v179 ((fun l r => Host.dotGeneral dot_S250000x128_S128x128_S250000x128_1_0_0_1_n_n none l r) : (⟨S250000x128, .f32⟩ : BufTy).Contents (Elt F) → (⟨S128x128, .f32⟩ : BufTy).Contents (Elt F) → (⟨S250000x128, .f32⟩ : BufTy).Contents (Elt F)),
    StableHlo.unary main_arg9 main_v180 ((extractStridedSlice S1x128 ![1, 0] · slices_S4x128_S1x128_1_0) : (⟨S4x128, .f32⟩ : BufTy).Contents (Elt F) → (⟨S1x128, .f32⟩ : BufTy).Contents (Elt F)),
    StableHlo.reshape main_v180 main_v181 rfl shapeCasts_S1x128_S128,
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S250000x128 ![0, 1] bcast_S1x128_S250000x128_0_1 : (⟨S1x128, .f32⟩ : BufTy).Contents (Elt F) → (⟨S250000x128, .f32⟩ : BufTy).Contents (Elt F)),
    StableHlo.binary main_v179 main_v183 main_v184 (addf : (⟨S250000x128, .f32⟩ : BufTy).Contents (Elt F) → (⟨S250000x128, .f32⟩ : BufTy).Contents (Elt F) → (⟨S250000x128, .f32⟩ : BufTy).Contents (Elt F)),
    StableHlo.TRef.unary (.of main_v184 : StableHlo.TRef sig ⟨S250000x128, .f32⟩) main_call8.v0 Host.negf,
    StableHlo.TRef.unary main_call8.v0 main_call8.v1 Host.exp,
    StableHlo.TRef.nullary main_call8.cst (constant S_ .f32 0x3F800000#32),
    StableHlo.TRef.unary main_call8.cst main_call8.v2 (broadcastInDim S250000x128 ![] bcast_S_S250000x128),
    StableHlo.TRef.binary main_call8.v2 main_call8.v1 main_call8.v3 addf,
    StableHlo.TRef.nullary main_call8.cst_0 (constant S_ .f32 0x3F800000#32),
    StableHlo.TRef.unary main_call8.cst_0 main_call8.v4 (broadcastInDim S250000x128 ![] bcast_S_S250000x128),
    StableHlo.TRef.binary main_call8.v4 main_call8.v3 main_call8.v5 Host.divf,
    StableHlo.TRef.binary (.of main_v184 : StableHlo.TRef sig ⟨S250000x128, .f32⟩) main_call8.v5 main_call8.v6 mulf,
    StableHlo.unary main_arg10 main_v186 ((extractStridedSlice S1x128x1 ![1, 0, 0] · slices_S4x128x1_S1x128x1_1_0_0) : (⟨S4x128x1, .f32⟩ : BufTy).Contents (Elt F) → (⟨S1x128x1, .f32⟩ : BufTy).Contents (Elt F)),
    StableHlo.reshape main_v186 main_v187 rfl shapeCasts_S1x128x1_S128x1,
    StableHlo.binary main_v185 main_v187 main_v188 ((fun l r => Host.dotGeneral dot_S250000x128_S128x1_S250000x1_1_0_0_1_n_n none l r) : (⟨S250000x128, .f32⟩ : BufTy).Contents (Elt F) → (⟨S128x1, .f32⟩ : BufTy).Contents (Elt F) → (⟨S250000x1, .f32⟩ : BufTy).Contents (Elt F)),
    StableHlo.unary main_arg11 main_v189 ((extractStridedSlice S1x1 ![1, 0] · slices_S4x1_S1x1_1_0) : (⟨S4x1, .f32⟩ : BufTy).Contents (Elt F) → (⟨S1x1, .f32⟩ : BufTy).Contents (Elt F)),
    StableHlo.reshape main_v189 main_v190 rfl shapeCasts_S1x1_S1,
    StableHlo.unary main_v190 main_v191 (broadcastInDim S1x1 ![1] bcast_S1_S1x1_1 : (⟨S1, .f32⟩ : BufTy).Contents (Elt F) → (⟨S1x1, .f32⟩ : BufTy).Contents (Elt F)),
    StableHlo.unary main_v191 main_v192 (broadcastInDim S250000x1 ![0, 1] bcast_S1x1_S250000x1_0_1 : (⟨S1x1, .f32⟩ : BufTy).Contents (Elt F) → (⟨S250000x1, .f32⟩ : BufTy).Contents (Elt F)),
    StableHlo.binary main_v188 main_v192 main_v193 (addf : (⟨S250000x1, .f32⟩ : BufTy).Contents (Elt F) → (⟨S250000x1, .f32⟩ : BufTy).Contents (Elt F) → (⟨S250000x1, .f32⟩ : BufTy).Contents (Elt F)),
    StableHlo.unary main_v193 main_v194 (Host.negf : (⟨S250000x1, .f32⟩ : BufTy).Contents (Elt F) → (⟨S250000x1, .f32⟩ : BufTy).Contents (Elt F)),
    StableHlo.unary main_v194 main_v195 (Host.exp : (⟨S250000x1, .f32⟩ : BufTy).Contents (Elt F) → (⟨S250000x1, .f32⟩ : BufTy).Contents (Elt F)),
    StableHlo.nullary main_cst_27 (constant S_ .f32 0x3F800000#32),
    StableHlo.unary main_cst_27 main_v196 (broadcastInDim S250000x1 ![] bcast_S_S250000x1 : (⟨S_, .f32⟩ : BufTy).Contents (Elt F) → (⟨S250000x1, .f32⟩ : BufTy).Contents (Elt F)),
    StableHlo.binary main_v196 main_v195 main_v197 (addf : (⟨S250000x1, .f32⟩ : BufTy).Contents (Elt F) → (⟨S250000x1, .f32⟩ : BufTy).Contents (Elt F) → (⟨S250000x1, .f32⟩ : BufTy).Contents (Elt F)),
    StableHlo.nullary main_cst_28 (constant S_ .f32 0x3F800000#32),
    StableHlo.unary main_cst_28 main_v198 (broadcastInDim S250000x1 ![] bcast_S_S250000x1 : (⟨S_, .f32⟩ : BufTy).Contents (Elt F) → (⟨S250000x1, .f32⟩ : BufTy).Contents (Elt F)),
    StableHlo.binary main_v198 main_v197 main_v199 (Host.divf : (⟨S250000x1, .f32⟩ : BufTy).Contents (Elt F) → (⟨S250000x1, .f32⟩ : BufTy).Contents (Elt F) → (⟨S250000x1, .f32⟩ : BufTy).Contents (Elt F)),
    StableHlo.unary main_v199 main_v200 (broadcastInDim S250000x128 ![0, 1] bcast_S250000x1_S250000x128_0_1 : (⟨S250000x1, .f32⟩ : BufTy).Contents (Elt F) → (⟨S250000x128, .f32⟩ : BufTy).Contents (Elt F)),
    StableHlo.binary main_v185 main_v200 main_v201 (mulf : (⟨S250000x128, .f32⟩ : BufTy).Contents (Elt F) → (⟨S250000x128, .f32⟩ : BufTy).Contents (Elt F) → (⟨S250000x128, .f32⟩ : BufTy).Contents (Elt F)),
    StableHlo.nullary main_cst_29 (constant S_ .f32 0x00000000#32),
    StableHlo.unary main_cst_29 main_v202 (broadcastInDim S10000x128 ![] bcast_S_S10000x128 : (⟨S_, .f32⟩ : BufTy).Contents (Elt F) → (⟨S10000x128, .f32⟩ : BufTy).Contents (Elt F)),
    StableHlo.unary main_v27 main_v203 (broadcastInDim S250000x1 ![0] bcast_S250000_S250000x1_0 : (⟨S250000, .i32⟩ : BufTy).Contents (Elt F) → (⟨S250000x1, .i32⟩ : BufTy).Contents (Elt F)),
    StableHlo.ternary main_v202 main_v203 main_v201 main_v204 ((fun x i u => Host.scatterAdd scatter_S10000x128_S250000x1_S250000x128_1_0_0_1 x i u) : (⟨S10000x128, .f32⟩ : BufTy).Contents (Elt F) → (⟨S250000x1, .i32⟩ : BufTy).Contents (Elt F) → (⟨S250000x128, .f32⟩ : BufTy).Contents (Elt F) → (⟨S10000x128, .f32⟩ : BufTy).Contents (Elt F)) ]
theorem k9_sub : (k9 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub ..,
    binary_bufs_sub .., unary_bufs_sub .., unary_bufs_sub .., nullary_bufs_sub .., unary_bufs_sub .., binary_bufs_sub .., nullary_bufs_sub ..,
    unary_bufs_sub .., binary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., unary_bufs_sub .., binary_bufs_sub ..,
    nullary_bufs_sub .., unary_bufs_sub .., unary_bufs_sub .., ternary_bufs_sub ..⟩
theorem k9_fresh : (k9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩
/-- The references chunk `k9` writes. -/
abbrev k9_W : List (Ref sig .tc) :=
  [main_v177, main_v178, main_v179, main_v180, main_v181, main_v182, main_v183, main_v184, main_call8.v0.ref, main_call8.v1.ref, main_call8.cst.ref,
    main_call8.v2.ref, main_call8.v3.ref, main_call8.cst_0.ref, main_call8.v4.ref, main_call8.v5.ref, main_call8.v6.ref, main_v186, main_v187, main_v188,
    main_v189, main_v190, main_v191, main_v192, main_v193, main_v194, main_v195, main_cst_27, main_v196, main_v197, main_cst_28, main_v198, main_v199,
    main_v200, main_v201, main_cst_29, main_v202, main_v203, main_v204]
set_option maxRecDepth 8192 in
theorem k9_writes : (k9 : List (HloOp τ sig (Elt F))).Forall fun op => op.writes ⊆ (k9_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 309 … 311 of the 758 (from %205 to %207). -/
abbrev k10 : List (HloOp τ sig (Elt F)) :=
  [ StableHlo.binary main_v136 main_v204 main_v205 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg12 main_v206 ((extractStridedSlice S1x256x128 ![1, 0, 0] · slices_S4x256x128_S1x256x128_1_0_0) : (⟨S4x256x128, .f32⟩ : BufTy).Contents (Elt F) → (⟨S1x256x128, .f32⟩ : BufTy).Contents (Elt F)),
    StableHlo.reshape main_v206 main_v207 rfl shapeCasts_S1x256x128_S256x128 ]
theorem k10_sub : (k10 : List (HloOp τ sig (Elt F))).Forall fun op => op.bufs ⊆ tcRefs τ sig :=
  ⟨binary_bufs_sub .., unary_bufs_sub .., reshape_bufs_sub ..⟩
theorem k10_fresh : (k10 : List (HloOp τ sig (Elt F))).Forall fun op => op.fresh = ∅ :=
  ⟨rfl, rfl, rfl⟩
/-- The references chunk `k10` writes. -/
abbrev k10_W : List (Ref sig .tc) :=
  [main_v205, main_v206, main_v207]
set_option maxRecDepth 8192 in
theorem k10_writes : (k10 : List (HloOp τ sig (Elt F))).Forall fun op => op.writes ⊆ (k10_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part3's operations. -/
def w3 : List (HloOp τ sig (Elt F)) := k8 ++ k9 ++ k10

set_option maxRecDepth 8192 in
set_option maxHeartbeats 4000000 in
/-- The window is that straight line: the called functions unfolded at their calls, sequencing reassociated. -/
theorem main_part3_eq (c : Dev nD) : main_part3 (F := F) c = seq w3 := by
  simp only [main_part3, fn_norm.body, fn_silu.body, bind_assoc, pure_bind]
  rfl

end Cert.ReferenceIdeal.RRun

end
-- ==== Proof.RRunW4.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 312 … 347 of the 758 (from %208 to %228:fn_var %2). -/
abbrev k11 : List (HloOp τ sig (Elt F)) :=
  [ StableHlo.binary main_v205 main_v207 main_v208 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg13 main_v209 ((extractStridedSlice S1x128 ![1, 0] · slices_S4x128_S1x128_1_0) : (⟨S4x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S10000x128 ![0, 1] bcast_S1x128_S10000x128_0_1 : (⟨S1x128, .f32⟩ : BufTy).Contents (Elt F) → (⟨S10000x128, .f32⟩ : BufTy).Contents (Elt F)),
    StableHlo.binary main_v208 main_v212 main_v213 (addf : (⟨S10000x128, .f32⟩ : BufTy).Contents (Elt F) → (⟨S10000x128, .f32⟩ : BufTy).Contents (Elt F) → (⟨S10000x128, .f32⟩ : BufTy).Contents (Elt F)),
    StableHlo.TRef.unary (.of main_v213 : StableHlo.TRef sig ⟨S10000x128, .f32⟩) main_call9.v0 Host.negf,
    StableHlo.TRef.unary main_call9.v0 main_call9.v1 Host.exp,
    StableHlo.TRef.nullary main_call9.cst (constant S_ .f32 0x3F800000#32),
    StableHlo.TRef.unary main_call9.cst main_call9.v2 (broadcastInDim S10000x128 ![] bcast_S_S10000x128),
    StableHlo.TRef.binary main_call9.v2 main_call9.v1 main_call9.v3 addf,
    StableHlo.TRef.nullary main_call9.cst_0 (constant S_ .f32 0x3F800000#32),
    StableHlo.TRef.unary main_call9.cst_0 main_call9.v4 (broadcastInDim S10000x128 ![] bcast_S_S10000x128),
    StableHlo.TRef.binary main_call9.v4 main_call9.v3 main_call9.v5 Host.divf,
    StableHlo.TRef.binary (.of main_v213 : StableHlo.TRef sig ⟨S10000x128, .f32⟩) main_call9.v5 main_call9.v6 mulf,
    StableHlo.unary main_arg14 main_v215 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v215 main_v216 rfl shapeCasts_S1x128x128_S128x128,
    StableHlo.binary main_v214 main_v216 main_v217 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg15 main_v218 ((extractStridedSlice S1x128 ![1, 0] · slices_S4x128_S1x128_1_0) : (⟨S4x128, .f32⟩ : BufTy).Contents (Elt F) → (⟨S1x128, .f32⟩ : BufTy).Contents (Elt F)),
    StableHlo.reshape main_v218 main_v219 rfl shapeCasts_S1x128_S128,
    StableHlo.unary main_v219 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S10000x128 ![0, 1] bcast_S1x128_S10000x128_0_1 : (⟨S1x128, .f32⟩ : BufTy).Contents (Elt F) → (⟨S10000x128, .f32⟩ : BufTy).Contents (Elt F)),
    StableHlo.binary main_v217 main_v221 main_v222 (addf : (⟨S10000x128, .f32⟩ : BufTy).Contents (Elt F) → (⟨S10000x128, .f32⟩ : BufTy).Contents (Elt F) → (⟨S10000x128, .f32⟩ : BufTy).Contents (Elt F)),
    StableHlo.binary main_v136 main_v222 main_v223 (addf : (⟨S10000x128, .f32⟩ : BufTy).Contents (Elt F) → (⟨S10000x128, .f32⟩ : BufTy).Contents (Elt F) → (⟨S10000x128, .f32⟩ : BufTy).Contents (Elt F)),
    StableHlo.nullary main_cst_30 (constant S_ .f32 0x00000000#32),
    StableHlo.binary main_v223 main_cst_30 main_v224 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v224 main_v225 (broadcastInDim S10000x1 ![0] bcast_S10000_S10000x1_0 : (⟨S10000, .f32⟩ : BufTy).Contents (Elt F) → (⟨S10000x1, .f32⟩ : BufTy).Contents (Elt F)),
    StableHlo.nullary main_cst_31 (constant S_ .f32 0x43000000#32),
    StableHlo.unary main_cst_31 main_v226 (broadcastInDim S10000x1 ![] bcast_S_S10000x1 : (⟨S_, .f32⟩ : BufTy).Contents (Elt F) → (⟨S10000x1, .f32⟩ : BufTy).Contents (Elt F)),
    StableHlo.binary main_v225 main_v226 main_v227 (Host.divf : (⟨S10000x1, .f32⟩ : BufTy).Contents (Elt F) → (⟨S10000x1, .f32⟩ : BufTy).Contents (Elt F) → (⟨S10000x1, .f32⟩ : BufTy).Contents (Elt F)),
    StableHlo.nullary main_c_32 (constantI S_ 32 0#32),
    StableHlo.TRef.nullary main_call10.cst (constant S_ .f32 0x00000000#32),
    StableHlo.TRef.binary (.of main_v223 : StableHlo.TRef sig ⟨S10000x128, .f32⟩) main_call10.cst main_call10.v0 (fun x v => Host.reduceAdd x v reducesTo_S10000x128_S10000_d1 h_S_),
    StableHlo.TRef.unary main_call10.v0 main_call10.v1 (broadcastInDim S10000x1 ![0] bcast_S10000_S10000x1_0),
    StableHlo.TRef.nullary main_call10.cst_0 (constant S_ .f32 0x43000000#32),
    StableHlo.TRef.unary main_call10.cst_0 main_call10.v2 (broadcastInDim S10000x1 ![] bcast_S_S10000x1) ]
theorem k11_sub : (k11 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub ..,
    unary_bufs_sub .., nullary_bufs_sub .., unary_bufs_sub .., binary_bufs_sub .., nullary_bufs_sub .., unary_bufs_sub .., binary_bufs_sub ..,
    binary_bufs_sub .., unary_bufs_sub .., reshape_bufs_sub .., binary_bufs_sub .., unary_bufs_sub .., reshape_bufs_sub .., unary_bufs_sub ..,
    unary_bufs_sub .., binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub .., nullary_bufs_sub ..,
    unary_bufs_sub ..⟩
theorem k11_fresh : (k11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩
/-- The references chunk `k11` writes. -/
abbrev k11_W : List (Ref sig .tc) :=
  [main_v208, main_v209, main_v210, main_v211, main_v212, main_v213, main_call9.v0.ref, main_call9.v1.ref, main_call9.cst.ref, main_call9.v2.ref,
    main_call9.v3.ref, main_call9.cst_0.ref, main_call9.v4.ref, main_call9.v5.ref, main_call9.v6.ref, main_v215, main_v216, main_v217, main_v218,
    main_v219, main_v220, main_v221, main_v222, main_v223, main_cst_30, main_v224, main_v225, main_cst_31, main_v226, main_v227, main_c_32,
    main_call10.cst.ref, main_call10.v0.ref, main_call10.v1.ref, main_call10.cst_0.ref, main_call10.v2.ref]
set_option maxRecDepth 8192 in
theorem k11_writes : (k11 : List (HloOp τ sig (Elt F))).Forall fun op => op.writes ⊆ (k11_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 348 … 383 of the 758 (from %228:fn_var %3 to %245). -/
abbrev k12 : List (HloOp τ sig (Elt F)) :=
  [ StableHlo.TRef.binary main_call10.v1 main_call10.v2 main_call10.v3 Host.divf,
    StableHlo.TRef.unary main_call10.v3 main_call10.v4 (broadcastInDim S10000x128 ![0, 1] bcast_S10000x1_S10000x128_0_1),
    StableHlo.TRef.binary (.of main_v223 : StableHlo.TRef sig ⟨S10000x128, .f32⟩) main_call10.v4 main_call10.v5 subf,
    StableHlo.TRef.binary main_call10.v5 main_call10.v5 main_call10.v6 mulf,
    StableHlo.TRef.unary (.of main_c_32 : StableHlo.TRef sig ⟨S_, .i32⟩) main_call10.v7 (sitofp .f32),
    StableHlo.TRef.nullary main_call10.cst_1 (constant S_ .f32 0x43000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S10000x128_S10000_d1 h_S_),
    StableHlo.TRef.unary main_call10.v9 main_call10.v10 (broadcastInDim S10000x1 ![0] bcast_S10000_S10000x1_0),
    StableHlo.TRef.unary main_call10.v8 main_call10.v11 (broadcastInDim S10000x1 ![] bcast_S_S10000x1),
    StableHlo.TRef.binary main_call10.v10 main_call10.v11 main_call10.v12 Host.divf,
    StableHlo.TRef.nullary main_call10.cst_3 (constant S_ .f32 0x00000000#32),
    StableHlo.TRef.binary main_call10.v8 main_call10.cst_3 main_call10.v13 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S10000x1 ![] bcast_S_S10000x1),
    StableHlo.TRef.ternary main_call10.v13 main_call10.v12 main_call10.call0.v1 main_call10.call0.v2 (fun p a b => select (broadcastInDim S10000x1 ![] bcast_S_S10000x1 p) a b),
    StableHlo.unary main_v227 main_v229 (broadcastInDim S10000x128 ![0, 1] bcast_S10000x1_S10000x128_0_1 : (⟨S10000x1, .f32⟩ : BufTy).Contents (Elt F) → (⟨S10000x128, .f32⟩ : BufTy).Contents (Elt F)),
    StableHlo.binary main_v223 main_v229 main_v230 (subf : (⟨S10000x128, .f32⟩ : BufTy).Contents (Elt F) → (⟨S10000x128, .f32⟩ : BufTy).Contents (Elt F) → (⟨S10000x128, .f32⟩ : BufTy).Contents (Elt F)),
    StableHlo.nullary main_cst_33 (constant S_ .f32 0x3727C5AC#32),
    StableHlo.unary main_cst_33 main_v231 (broadcastInDim S10000x1 ![] bcast_S_S10000x1 : (⟨S_, .f32⟩ : BufTy).Contents (Elt F) → (⟨S10000x1, .f32⟩ : BufTy).Contents (Elt F)),
    StableHlo.binary main_v228 main_v231 main_v232 (addf : (⟨S10000x1, .f32⟩ : BufTy).Contents (Elt F) → (⟨S10000x1, .f32⟩ : BufTy).Contents (Elt F) → (⟨S10000x1, .f32⟩ : BufTy).Contents (Elt F)),
    StableHlo.unary main_v232 main_v233 (Host.sqrt : (⟨S10000x1, .f32⟩ : BufTy).Contents (Elt F) → (⟨S10000x1, .f32⟩ : BufTy).Contents (Elt F)),
    StableHlo.unary main_v233 main_v234 (broadcastInDim S10000x128 ![0, 1] bcast_S10000x1_S10000x128_0_1 : (⟨S10000x1, .f32⟩ : BufTy).Contents (Elt F) → (⟨S10000x128, .f32⟩ : BufTy).Contents (Elt F)),
    StableHlo.binary main_v230 main_v234 main_v235 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v236 ((extractStridedSlice S1x128 ![1, 0] · slices_S4x128_S1x128_1_0) : (⟨S4x128, .f32⟩ : BufTy).Contents (Elt F) → (⟨S1x128, .f32⟩ : BufTy).Contents (Elt F)),
    StableHlo.reshape main_v236 main_v237 rfl shapeCasts_S1x128_S128,
    StableHlo.unary main_v237 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S10000x128 ![0, 1] bcast_S1x128_S10000x128_0_1 : (⟨S1x128, .f32⟩ : BufTy).Contents (Elt F) → (⟨S10000x128, .f32⟩ : BufTy).Contents (Elt F)),
    StableHlo.binary main_v235 main_v239 main_v240 (mulf : (⟨S10000x128, .f32⟩ : BufTy).Contents (Elt F) → (⟨S10000x128, .f32⟩ : BufTy).Contents (Elt F) → (⟨S10000x128, .f32⟩ : BufTy).Contents (Elt F)),
    StableHlo.unary main_arg17 main_v241 ((extractStridedSlice S1x128 ![1, 0] · slices_S4x128_S1x128_1_0) : (⟨S4x128, .f32⟩ : BufTy).Contents (Elt F) → (⟨S1x128, .f32⟩ : BufTy).Contents (Elt F)),
    StableHlo.reshape main_v241 main_v242 rfl shapeCasts_S1x128_S128,
    StableHlo.unary main_v242 main_v243 (broadcastInDim S1x128 ![1] bcast_S128_S1x128_1 : (⟨S128, .f32⟩ : BufTy).Contents (Elt F) → (⟨S1x128, .f32⟩ : BufTy).Contents (Elt F)),
    StableHlo.unary main_v243 main_v244 (broadcastInDim S10000x128 ![0, 1] bcast_S1x128_S10000x128_0_1 : (⟨S1x128, .f32⟩ : BufTy).Contents (Elt F) → (⟨S10000x128, .f32⟩ : BufTy).Contents (Elt F)),
    StableHlo.binary main_v240 main_v244 main_v245 (addf : (⟨S10000x128, .f32⟩ : BufTy).Contents (Elt F) → (⟨S10000x128, .f32⟩ : BufTy).Contents (Elt F) → (⟨S10000x128, .f32⟩ : BufTy).Contents (Elt F)) ]
theorem k12_sub : (k12 : List (HloOp τ sig (Elt F))).Forall fun op => op.bufs ⊆ tcRefs τ sig :=
  ⟨binary_bufs_sub .., unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub .., unary_bufs_sub ..,
    binary_bufs_sub ..⟩
theorem k12_fresh : (k12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩
/-- The references chunk `k12` writes. -/
abbrev k12_W : List (Ref sig .tc) :=
  [main_call10.v3.ref, main_call10.v4.ref, main_call10.v5.ref, main_call10.v6.ref, main_call10.v7.ref, main_call10.cst_1.ref, main_call10.v8.ref,
    main_call10.cst_2.ref, main_call10.v9.ref, main_call10.v10.ref, main_call10.v11.ref, main_call10.v12.ref, main_call10.cst_3.ref, main_call10.v13.ref,
    main_call10.cst_4.ref, main_call10.call0.v0.ref, main_call10.call0.v1.ref, main_call10.call0.v2.ref, main_v229, main_v230, main_cst_33, main_v231,
    main_v232, main_v233, main_v234, main_v235, main_v236, main_v237, main_v238, main_v239, main_v240, main_v241, main_v242, main_v243, main_v244,
    main_v245]
set_option maxRecDepth 8192 in
theorem k12_writes : (k12 : List (HloOp τ sig (Elt F))).Forall fun op => op.writes ⊆ (k12_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 384 … 401 of the 758 (from %c_34 to %259). -/
abbrev k13 : List (HloOp τ sig (Elt F)) :=
  [ StableHlo.nullary main_c_34 (constantI S_ 32 0#32),
    StableHlo.unary main_c_34 main_v246 (broadcastInDim S250000 ![] bcast_S_S250000 : (⟨S_, .i32⟩ : BufTy).Contents (Elt F) → (⟨S250000, .i32⟩ : BufTy).Contents (Elt F)),
    StableHlo.binary main_v27 main_v246 main_v247 (cmpi .slt : (⟨S250000, .i32⟩ : BufTy).Contents (Elt F) → (⟨S250000, .i32⟩ : BufTy).Contents (Elt F) → (⟨S250000, .i1⟩ : BufTy).Contents (Elt F)),
    StableHlo.nullary main_c_35 (constantI S_ 32 10000#32),
    StableHlo.unary main_c_35 main_v248 (broadcastInDim S250000 ![] bcast_S_S250000 : (⟨S_, .i32⟩ : BufTy).Contents (Elt F) → (⟨S250000, .i32⟩ : BufTy).Contents (Elt F)),
    StableHlo.binary main_v27 main_v248 main_v249 (addi : (⟨S250000, .i32⟩ : BufTy).Contents (Elt F) → (⟨S250000, .i32⟩ : BufTy).Contents (Elt F) → (⟨S250000, .i32⟩ : BufTy).Contents (Elt F)),
    StableHlo.ternary main_v247 main_v249 main_v27 main_v250 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v250 main_v251 (broadcastInDim S250000x1 ![0] bcast_S250000_S250000x1_0 : (⟨S250000, .i32⟩ : BufTy).Contents (Elt F) → (⟨S250000x1, .i32⟩ : BufTy).Contents (Elt F)),
    StableHlo.binary main_v245 main_v251 main_v252 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_36 (constantI S_ 32 0#32),
    StableHlo.unary main_c_36 main_v253 (broadcastInDim S250000 ![] bcast_S_S250000 : (⟨S_, .i32⟩ : BufTy).Contents (Elt F) → (⟨S250000, .i32⟩ : BufTy).Contents (Elt F)),
    StableHlo.binary main_v25 main_v253 main_v254 (cmpi .slt : (⟨S250000, .i32⟩ : BufTy).Contents (Elt F) → (⟨S250000, .i32⟩ : BufTy).Contents (Elt F) → (⟨S250000, .i1⟩ : BufTy).Contents (Elt F)),
    StableHlo.nullary main_c_37 (constantI S_ 32 10000#32),
    StableHlo.unary main_c_37 main_v255 (broadcastInDim S250000 ![] bcast_S_S250000 : (⟨S_, .i32⟩ : BufTy).Contents (Elt F) → (⟨S250000, .i32⟩ : BufTy).Contents (Elt F)),
    StableHlo.binary main_v25 main_v255 main_v256 (addi : (⟨S250000, .i32⟩ : BufTy).Contents (Elt F) → (⟨S250000, .i32⟩ : BufTy).Contents (Elt F) → (⟨S250000, .i32⟩ : BufTy).Contents (Elt F)),
    StableHlo.ternary main_v254 main_v256 main_v25 main_v257 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v257 main_v258 (broadcastInDim S250000x1 ![0] bcast_S250000_S250000x1_0 : (⟨S250000, .i32⟩ : BufTy).Contents (Elt F) → (⟨S250000x1, .i32⟩ : BufTy).Contents (Elt F)),
    StableHlo.binary main_v245 main_v258 main_v259 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)) ]
theorem k13_sub : (k13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub ..⟩
theorem k13_fresh : (k13 : List (HloOp τ sig (Elt F))).Forall fun op => op.fresh = ∅ :=
  ⟨rfl, rfl, rfl, rfl, rfl, rfl, rfl, rfl, rfl, rfl, rfl, rfl, rfl, rfl, rfl, rfl, rfl, rfl⟩
/-- The references chunk `k13` writes. -/
abbrev k13_W : List (Ref sig .tc) :=
  [main_c_34, main_v246, main_v247, main_c_35, main_v248, main_v249, main_v250, main_v251, main_v252, main_c_36, main_v253, main_v254, main_c_37,
    main_v255, main_v256, main_v257, main_v258, main_v259]
set_option maxRecDepth 8192 in
theorem k13_writes : (k13 : List (HloOp τ sig (Elt F))).Forall fun op => op.writes ⊆ (k13_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part4's operations. -/
def w4 : List (HloOp τ sig (Elt F)) := k11 ++ k12 ++ k13

set_option maxRecDepth 8192 in
set_option maxHeartbeats 4000000 in
/-- The window is that straight line: the called functions unfolded at their calls, sequencing reassociated. -/
theorem main_part4_eq (c : Dev nD) : main_part4 (F := F) c = seq w4 := by
  simp only [main_part4, fn_silu_0.body, fn_var.body, fn_where.body, bind_assoc, pure_bind]
  rfl

end Cert.ReferenceIdeal.RRun

end
-- ==== Proof.RRunW5.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 402 … 441 of the 758 (from %c_38 to %285:fn_silu %4). -/
abbrev k14 : List (HloOp τ sig (Elt F)) :=
  [ StableHlo.nullary main_c_38 (constantI S_ 32 0#32),
    StableHlo.unary main_c_38 main_v260 (broadcastInDim S250000 ![] bcast_S_S250000 : (⟨S_, .i32⟩ : BufTy).Contents (Elt F) → (⟨S250000, .i32⟩ : BufTy).Contents (Elt F)),
    StableHlo.binary main_v27 main_v260 main_v261 (cmpi .slt : (⟨S250000, .i32⟩ : BufTy).Contents (Elt F) → (⟨S250000, .i32⟩ : BufTy).Contents (Elt F) → (⟨S250000, .i1⟩ : BufTy).Contents (Elt F)),
    StableHlo.nullary main_c_39 (constantI S_ 32 10000#32),
    StableHlo.unary main_c_39 main_v262 (broadcastInDim S250000 ![] bcast_S_S250000 : (⟨S_, .i32⟩ : BufTy).Contents (Elt F) → (⟨S250000, .i32⟩ : BufTy).Contents (Elt F)),
    StableHlo.binary main_v27 main_v262 main_v263 (addi : (⟨S250000, .i32⟩ : BufTy).Contents (Elt F) → (⟨S250000, .i32⟩ : BufTy).Contents (Elt F) → (⟨S250000, .i32⟩ : BufTy).Contents (Elt F)),
    StableHlo.ternary main_v261 main_v263 main_v27 main_v264 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v264 main_v265 (broadcastInDim S250000x1 ![0] bcast_S250000_S250000x1_0 : (⟨S250000, .i32⟩ : BufTy).Contents (Elt F) → (⟨S250000x1, .i32⟩ : BufTy).Contents (Elt F)),
    StableHlo.binary main_v23 main_v265 main_v266 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.nullary main_c_40 (constantI S_ 32 0#32),
    StableHlo.unary main_c_40 main_v267 (broadcastInDim S250000 ![] bcast_S_S250000 : (⟨S_, .i32⟩ : BufTy).Contents (Elt F) → (⟨S250000, .i32⟩ : BufTy).Contents (Elt F)),
    StableHlo.binary main_v25 main_v267 main_v268 (cmpi .slt : (⟨S250000, .i32⟩ : BufTy).Contents (Elt F) → (⟨S250000, .i32⟩ : BufTy).Contents (Elt F) → (⟨S250000, .i1⟩ : BufTy).Contents (Elt F)),
    StableHlo.nullary main_c_41 (constantI S_ 32 10000#32),
    StableHlo.unary main_c_41 main_v269 (broadcastInDim S250000 ![] bcast_S_S250000 : (⟨S_, .i32⟩ : BufTy).Contents (Elt F) → (⟨S250000, .i32⟩ : BufTy).Contents (Elt F)),
    StableHlo.binary main_v25 main_v269 main_v270 (addi : (⟨S250000, .i32⟩ : BufTy).Contents (Elt F) → (⟨S250000, .i32⟩ : BufTy).Contents (Elt F) → (⟨S250000, .i32⟩ : BufTy).Contents (Elt F)),
    StableHlo.ternary main_v268 main_v270 main_v25 main_v271 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v271 main_v272 (broadcastInDim S250000x1 ![0] bcast_S250000_S250000x1_0 : (⟨S250000, .i32⟩ : BufTy).Contents (Elt F) → (⟨S250000x1, .i32⟩ : BufTy).Contents (Elt F)),
    StableHlo.binary main_v23 main_v272 main_v273 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.binary main_v266 main_v273 main_v274 (subf : (⟨S250000x3, .f32⟩ : BufTy).Contents (Elt F) → (⟨S250000x3, .f32⟩ : BufTy).Contents (Elt F) → (⟨S250000x3, .f32⟩ : BufTy).Contents (Elt F)),
    StableHlo.TRef.binary (.of main_v274 : StableHlo.TRef sig ⟨S250000x3, .f32⟩) (.of main_v274 : StableHlo.TRef sig ⟨S250000x3, .f32⟩) main_call11.v0 mulf,
    StableHlo.TRef.nullary main_call11.cst (constant S_ .f32 0x00000000#32),
    StableHlo.TRef.binary main_call11.v0 main_call11.cst main_call11.v1 (fun x v => Host.reduceAdd x v reducesTo_S250000x3_S250000_d1 h_S_),
    StableHlo.TRef.unary main_call11.v1 main_call11.v2 (broadcastInDim S250000x1 ![0] bcast_S250000_S250000x1_0),
    StableHlo.TRef.unary main_call11.v2 main_call11.v3 Host.sqrt,
    StableHlo.nary ![main_v252, main_v259, main_v275] main_v276 (fun u => concatenate S250000x257 1 [⟨S250000x128, u 0⟩, ⟨S250000x128, u 1⟩, ⟨S250000x1, u 2⟩] concatenates_S250000x128_S250000x128_S250000x1_S250000x257_d1),
    StableHlo.unary main_arg6 main_v277 ((extractStridedSlice S1x257x128 ![2, 0, 0] · slices_S4x257x128_S1x257x128_2_0_0) : (⟨S4x257x128, .f32⟩ : BufTy).Contents (Elt F) → (⟨S1x257x128, .f32⟩ : BufTy).Contents (Elt F)),
    StableHlo.reshape main_v277 main_v278 rfl shapeCasts_S1x257x128_S257x128,
    StableHlo.binary main_v276 main_v278 main_v279 ((fun l r => Host.dotGeneral dot_S250000x257_S257x128_S250000x128_1_0_0_1_n_n none l r) : (⟨S250000x257, .f32⟩ : BufTy).Contents (Elt F) → (⟨S257x128, .f32⟩ : BufTy).Contents (Elt F) → (⟨S250000x128, .f32⟩ : BufTy).Contents (Elt F)),
    StableHlo.unary main_arg7 main_v280 ((extractStridedSlice S1x128 ![2, 0] · slices_S4x128_S1x128_2_0) : (⟨S4x128, .f32⟩ : BufTy).Contents (Elt F) → (⟨S1x128, .f32⟩ : BufTy).Contents (Elt F)),
    StableHlo.reshape main_v280 main_v281 rfl shapeCasts_S1x128_S128,
    StableHlo.unary main_v281 main_v282 (broadcastInDim S1x128 ![1] bcast_S128_S1x128_1 : (⟨S128, .f32⟩ : BufTy).Contents (Elt F) → (⟨S1x128, .f32⟩ : BufTy).Contents (Elt F)),
    StableHlo.unary main_v282 main_v283 (broadcastInDim S250000x128 ![0, 1] bcast_S1x128_S250000x128_0_1 : (⟨S1x128, .f32⟩ : BufTy).Contents (Elt F) → (⟨S250000x128, .f32⟩ : BufTy).Contents (Elt F)),
    StableHlo.binary main_v279 main_v283 main_v284 (addf : (⟨S250000x128, .f32⟩ : BufTy).Contents (Elt F) → (⟨S250000x128, .f32⟩ : BufTy).Contents (Elt F) → (⟨S250000x128, .f32⟩ : BufTy).Contents (Elt F)),
    StableHlo.TRef.unary (.of main_v284 : StableHlo.TRef sig ⟨S250000x128, .f32⟩) main_call12.v0 Host.negf,
    StableHlo.TRef.unary main_call12.v0 main_call12.v1 Host.exp,
    StableHlo.TRef.nullary main_call12.cst (constant S_ .f32 0x3F800000#32),
    StableHlo.TRef.unary main_call12.cst main_call12.v2 (broadcastInDim S250000x128 ![] bcast_S_S250000x128),
    StableHlo.TRef.binary main_call12.v2 main_call12.v1 main_call12.v3 addf,
    StableHlo.TRef.nullary main_call12.cst_0 (constant S_ .f32 0x3F800000#32),
    StableHlo.TRef.unary main_call12.cst_0 main_call12.v4 (broadcastInDim S250000x128 ![] bcast_S_S250000x128) ]
theorem k14_sub : (k14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub .., nullary_bufs_sub ..,
    binary_bufs_sub .., unary_bufs_sub .., unary_bufs_sub .., nary_bufs_sub .., unary_bufs_sub .., reshape_bufs_sub .., binary_bufs_sub ..,
    unary_bufs_sub .., reshape_bufs_sub .., unary_bufs_sub .., unary_bufs_sub .., binary_bufs_sub .., unary_bufs_sub .., unary_bufs_sub ..,
    nullary_bufs_sub .., unary_bufs_sub .., binary_bufs_sub .., nullary_bufs_sub .., unary_bufs_sub ..⟩
theorem k14_fresh : (k14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
/-- The references chunk `k14` writes. -/
abbrev k14_W : List (Ref sig .tc) :=
  [main_c_38, main_v260, main_v261, main_c_39, main_v262, main_v263, main_v264, main_v265, main_v266, main_c_40, main_v267, main_v268, main_c_41,
    main_v269, main_v270, main_v271, main_v272, main_v273, main_v274, main_call11.v0.ref, main_call11.cst.ref, main_call11.v1.ref, main_call11.v2.ref,
    main_call11.v3.ref, main_v276, main_v277, main_v278, main_v279, main_v280, main_v281, main_v282, main_v283, main_v284, main_call12.v0.ref,
    main_call12.v1.ref, main_call12.cst.ref, main_call12.v2.ref, main_call12.v3.ref, main_call12.cst_0.ref, main_call12.v4.ref]
set_option maxRecDepth 8192 in
theorem k14_writes : (k14 : List (HloOp τ sig (Elt F))).Forall fun op => op.writes ⊆ (k14_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 442 … 481 of the 758 (from %285:fn_silu %5 to %312). -/
abbrev k15 : List (HloOp τ sig (Elt F)) :=
  [ StableHlo.TRef.binary main_call12.v4 main_call12.v3 main_call12.v5 Host.divf,
    StableHlo.TRef.binary (.of main_v284 : StableHlo.TRef sig ⟨S250000x128, .f32⟩) main_call12.v5 main_call12.v6 mulf,
    StableHlo.unary main_arg8 main_v286 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v286 main_v287 rfl shapeCasts_S1x128x128_S128x128,
    StableHlo.binary main_v285 main_v287 main_v288 ((fun l r => Host.dotGeneral dot_S250000x128_S128x128_S250000x128_1_0_0_1_n_n none l r) : (⟨S250000x128, .f32⟩ : BufTy).Contents (Elt F) → (⟨S128x128, .f32⟩ : BufTy).Contents (Elt F) → (⟨S250000x128, .f32⟩ : BufTy).Contents (Elt F)),
    StableHlo.unary main_arg9 main_v289 ((extractStridedSlice S1x128 ![2, 0] · slices_S4x128_S1x128_2_0) : (⟨S4x128, .f32⟩ : BufTy).Contents (Elt F) → (⟨S1x128, .f32⟩ : BufTy).Contents (Elt F)),
    StableHlo.reshape main_v289 main_v290 rfl shapeCasts_S1x128_S128,
    StableHlo.unary main_v290 main_v291 (broadcastInDim S1x128 ![1] bcast_S128_S1x128_1 : (⟨S128, .f32⟩ : BufTy).Contents (Elt F) → (⟨S1x128, .f32⟩ : BufTy).Contents (Elt F)),
    StableHlo.unary main_v291 main_v292 (broadcastInDim S250000x128 ![0, 1] bcast_S1x128_S250000x128_0_1 : (⟨S1x128, .f32⟩ : BufTy).Contents (Elt F) → (⟨S250000x128, .f32⟩ : BufTy).Contents (Elt F)),
    StableHlo.binary main_v288 main_v292 main_v293 (addf : (⟨S250000x128, .f32⟩ : BufTy).Contents (Elt F) → (⟨S250000x128, .f32⟩ : BufTy).Contents (Elt F) → (⟨S250000x128, .f32⟩ : BufTy).Contents (Elt F)),
    StableHlo.TRef.unary (.of main_v293 : StableHlo.TRef sig ⟨S250000x128, .f32⟩) main_call13.v0 Host.negf,
    StableHlo.TRef.unary main_call13.v0 main_call13.v1 Host.exp,
    StableHlo.TRef.nullary main_call13.cst (constant S_ .f32 0x3F800000#32),
    StableHlo.TRef.unary main_call13.cst main_call13.v2 (broadcastInDim S250000x128 ![] bcast_S_S250000x128),
    StableHlo.TRef.binary main_call13.v2 main_call13.v1 main_call13.v3 addf,
    StableHlo.TRef.nullary main_call13.cst_0 (constant S_ .f32 0x3F800000#32),
    StableHlo.TRef.unary main_call13.cst_0 main_call13.v4 (broadcastInDim S250000x128 ![] bcast_S_S250000x128),
    StableHlo.TRef.binary main_call13.v4 main_call13.v3 main_call13.v5 Host.divf,
    StableHlo.TRef.binary (.of main_v293 : StableHlo.TRef sig ⟨S250000x128, .f32⟩) main_call13.v5 main_call13.v6 mulf,
    StableHlo.unary main_arg10 main_v295 ((extractStridedSlice S1x128x1 ![2, 0, 0] · slices_S4x128x1_S1x128x1_2_0_0) : (⟨S4x128x1, .f32⟩ : BufTy).Contents (Elt F) → (⟨S1x128x1, .f32⟩ : BufTy).Contents (Elt F)),
    StableHlo.reshape main_v295 main_v296 rfl shapeCasts_S1x128x1_S128x1,
    StableHlo.binary main_v294 main_v296 main_v297 ((fun l r => Host.dotGeneral dot_S250000x128_S128x1_S250000x1_1_0_0_1_n_n none l r) : (⟨S250000x128, .f32⟩ : BufTy).Contents (Elt F) → (⟨S128x1, .f32⟩ : BufTy).Contents (Elt F) → (⟨S250000x1, .f32⟩ : BufTy).Contents (Elt F)),
    StableHlo.unary main_arg11 main_v298 ((extractStridedSlice S1x1 ![2, 0] · slices_S4x1_S1x1_2_0) : (⟨S4x1, .f32⟩ : BufTy).Contents (Elt F) → (⟨S1x1, .f32⟩ : BufTy).Contents (Elt F)),
    StableHlo.reshape main_v298 main_v299 rfl shapeCasts_S1x1_S1,
    StableHlo.unary main_v299 main_v300 (broadcastInDim S1x1 ![1] bcast_S1_S1x1_1 : (⟨S1, .f32⟩ : BufTy).Contents (Elt F) → (⟨S1x1, .f32⟩ : BufTy).Contents (Elt F)),
    StableHlo.unary main_v300 main_v301 (broadcastInDim S250000x1 ![0, 1] bcast_S1x1_S250000x1_0_1 : (⟨S1x1, .f32⟩ : BufTy).Contents (Elt F) → (⟨S250000x1, .f32⟩ : BufTy).Contents (Elt F)),
    StableHlo.binary main_v297 main_v301 main_v302 (addf : (⟨S250000x1, .f32⟩ : BufTy).Contents (Elt F) → (⟨S250000x1, .f32⟩ : BufTy).Contents (Elt F) → (⟨S250000x1, .f32⟩ : BufTy).Contents (Elt F)),
    StableHlo.unary main_v302 main_v303 (Host.negf : (⟨S250000x1, .f32⟩ : BufTy).Contents (Elt F) → (⟨S250000x1, .f32⟩ : BufTy).Contents (Elt F)),
    StableHlo.unary main_v303 main_v304 (Host.exp : (⟨S250000x1, .f32⟩ : BufTy).Contents (Elt F) → (⟨S250000x1, .f32⟩ : BufTy).Contents (Elt F)),
    StableHlo.nullary main_cst_42 (constant S_ .f32 0x3F800000#32),
    StableHlo.unary main_cst_42 main_v305 (broadcastInDim S250000x1 ![] bcast_S_S250000x1 : (⟨S_, .f32⟩ : BufTy).Contents (Elt F) → (⟨S250000x1, .f32⟩ : BufTy).Contents (Elt F)),
    StableHlo.binary main_v305 main_v304 main_v306 (addf : (⟨S250000x1, .f32⟩ : BufTy).Contents (Elt F) → (⟨S250000x1, .f32⟩ : BufTy).Contents (Elt F) → (⟨S250000x1, .f32⟩ : BufTy).Contents (Elt F)),
    StableHlo.nullary main_cst_43 (constant S_ .f32 0x3F800000#32),
    StableHlo.unary main_cst_43 main_v307 (broadcastInDim S250000x1 ![] bcast_S_S250000x1 : (⟨S_, .f32⟩ : BufTy).Contents (Elt F) → (⟨S250000x1, .f32⟩ : BufTy).Contents (Elt F)),
    StableHlo.binary main_v307 main_v306 main_v308 (Host.divf : (⟨S250000x1, .f32⟩ : BufTy).Contents (Elt F) → (⟨S250000x1, .f32⟩ : BufTy).Contents (Elt F) → (⟨S250000x1, .f32⟩ : BufTy).Contents (Elt F)),
    StableHlo.unary main_v308 main_v309 (broadcastInDim S250000x128 ![0, 1] bcast_S250000x1_S250000x128_0_1 : (⟨S250000x1, .f32⟩ : BufTy).Contents (Elt F) → (⟨S250000x128, .f32⟩ : BufTy).Contents (Elt F)),
    StableHlo.binary main_v294 main_v309 main_v310 (mulf : (⟨S250000x128, .f32⟩ : BufTy).Contents (Elt F) → (⟨S250000x128, .f32⟩ : BufTy).Contents (Elt F) → (⟨S250000x128, .f32⟩ : BufTy).Contents (Elt F)),
    StableHlo.nullary main_cst_44 (constant S_ .f32 0x00000000#32),
    StableHlo.unary main_cst_44 main_v311 (broadcastInDim S10000x128 ![] bcast_S_S10000x128 : (⟨S_, .f32⟩ : BufTy).Contents (Elt F) → (⟨S10000x128, .f32⟩ : BufTy).Contents (Elt F)),
    StableHlo.unary main_v27 main_v312 (broadcastInDim S250000x1 ![0] bcast_S250000_S250000x1_0 : (⟨S250000, .i32⟩ : BufTy).Contents (Elt F) → (⟨S250000x1, .i32⟩ : BufTy).Contents (Elt F)) ]
theorem k15_sub : (k15 : List (HloOp τ sig (Elt F))).Forall fun op => op.bufs ⊆ tcRefs τ sig :=
  ⟨binary_bufs_sub .., binary_bufs_sub .., unary_bufs_sub .., reshape_bufs_sub .., binary_bufs_sub .., unary_bufs_sub .., reshape_bufs_sub ..,
    unary_bufs_sub .., unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub .., unary_bufs_sub ..,
    unary_bufs_sub .., nullary_bufs_sub .., unary_bufs_sub .., binary_bufs_sub .., nullary_bufs_sub .., unary_bufs_sub .., binary_bufs_sub ..,
    unary_bufs_sub .., binary_bufs_sub .., nullary_bufs_sub .., unary_bufs_sub .., unary_bufs_sub ..⟩
theorem k15_fresh : (k15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
/-- The references chunk `k15` writes. -/
abbrev k15_W : List (Ref sig .tc) :=
  [main_call12.v5.ref, main_call12.v6.ref, main_v286, main_v287, main_v288, main_v289, main_v290, main_v291, main_v292, main_v293, main_call13.v0.ref,
    main_call13.v1.ref, main_call13.cst.ref, main_call13.v2.ref, main_call13.v3.ref, main_call13.cst_0.ref, main_call13.v4.ref, main_call13.v5.ref,
    main_call13.v6.ref, main_v295, main_v296, main_v297, main_v298, main_v299, main_v300, main_v301, main_v302, main_v303, main_v304, main_cst_42,
    main_v305, main_v306, main_cst_43, main_v307, main_v308, main_v309, main_v310, main_cst_44, main_v311, main_v312]
set_option maxRecDepth 8192 in
theorem k15_writes : (k15 : List (HloOp τ sig (Elt F))).Forall fun op => op.writes ⊆ (k15_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part5's operations. -/
def w5 : List (HloOp τ sig (Elt F)) := k14 ++ k15

set_option maxRecDepth 8192 in
set_option maxHeartbeats 4000000 in
/-- The window is that straight line: the called functions unfolded at their calls, sequencing reassociated. -/
theorem main_part5_eq (c : Dev nD) : main_part5 (F := F) c = seq w5 := by
  simp only [main_part5, fn_norm.body, fn_silu.body, bind_assoc, pure_bind]
  rfl

end Cert.ReferenceIdeal.RRun

end
-- ==== Proof.RRunW6.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 482 … 482 of the 758 (from %313 to %313). -/
abbrev k16 : List (HloOp τ sig (Elt F)) :=
  [ StableHlo.ternary main_v311 main_v312 main_v310 main_v313 ((fun x i u => Host.scatterAdd scatter_S10000x128_S250000x1_S250000x128_1_0_0_1 x i u) : (⟨S10000x128, .f32⟩ : BufTy).Contents (Elt F) → (⟨S250000x1, .i32⟩ : BufTy).Contents (Elt F) → (⟨S250000x128, .f32⟩ : BufTy).Contents (Elt F) → (⟨S10000x128, .f32⟩ : BufTy).Contents (Elt F)) ]
theorem k16_sub : (k16 : List (HloOp τ sig (Elt F))).Forall fun op => op.bufs ⊆ tcRefs τ sig :=
  ternary_bufs_sub ..
theorem k16_fresh : (k16 : List (HloOp τ sig (Elt F))).Forall fun op => op.fresh = ∅ :=
  rfl
/-- The references chunk `k16` writes. -/
abbrev k16_W : List (Ref sig .tc) :=
  [main_v313]
set_option maxRecDepth 8192 in
theorem k16_writes : (k16 : List (HloOp τ sig (Elt F))).Forall fun op => op.writes ⊆ (k16_W.map (Proc.devRef (τ := τ) .tc)).toFinset := by
  simp only [List.Forall]
  exact (by simp only [nullary_writes, unary_writes, binary_writes, ternary_writes, quaternary_writes, reshape_writes, nary_writes, Finset.singleton_subset_iff, List.mem_toFinset]; exact List.mem_map_of_mem (by decide))

/-- Operations 483 … 519 of the 758 (from %314 to %337:fn_var %1). -/
abbrev k17 : List (HloOp τ sig (Elt F)) :=
  [ StableHlo.binary main_v245 main_v313 main_v314 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg12 main_v315 ((extractStridedSlice S1x256x128 ![2, 0, 0] · slices_S4x256x128_S1x256x128_2_0_0) : (⟨S4x256x128, .f32⟩ : BufTy).Contents (Elt F) → (⟨S1x256x128, .f32⟩ : BufTy).Contents (Elt F)),
    StableHlo.reshape main_v315 main_v316 rfl shapeCasts_S1x256x128_S256x128,
    StableHlo.binary main_v314 main_v316 main_v317 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg13 main_v318 ((extractStridedSlice S1x128 ![2, 0] · slices_S4x128_S1x128_2_0) : (⟨S4x128, .f32⟩ : BufTy).Contents (Elt F) → (⟨S1x128, .f32⟩ : BufTy).Contents (Elt F)),
    StableHlo.reshape main_v318 main_v319 rfl shapeCasts_S1x128_S128,
    StableHlo.unary main_v319 main_v320 (broadcastInDim S1x128 ![1] bcast_S128_S1x128_1 : (⟨S128, .f32⟩ : BufTy).Contents (Elt F) → (⟨S1x128, .f32⟩ : BufTy).Contents (Elt F)),
    StableHlo.unary main_v320 main_v321 (broadcastInDim S10000x128 ![0, 1] bcast_S1x128_S10000x128_0_1 : (⟨S1x128, .f32⟩ : BufTy).Contents (Elt F) → (⟨S10000x128, .f32⟩ : BufTy).Contents (Elt F)),
    StableHlo.binary main_v317 main_v321 main_v322 (addf : (⟨S10000x128, .f32⟩ : BufTy).Contents (Elt F) → (⟨S10000x128, .f32⟩ : BufTy).Contents (Elt F) → (⟨S10000x128, .f32⟩ : BufTy).Contents (Elt F)),
    StableHlo.TRef.unary (.of main_v322 : StableHlo.TRef sig ⟨S10000x128, .f32⟩) main_call14.v0 Host.negf,
    StableHlo.TRef.unary main_call14.v0 main_call14.v1 Host.exp,
    StableHlo.TRef.nullary main_call14.cst (constant S_ .f32 0x3F800000#32),
    StableHlo.TRef.unary main_call14.cst main_call14.v2 (broadcastInDim S10000x128 ![] bcast_S_S10000x128),
    StableHlo.TRef.binary main_call14.v2 main_call14.v1 main_call14.v3 addf,
    StableHlo.TRef.nullary main_call14.cst_0 (constant S_ .f32 0x3F800000#32),
    StableHlo.TRef.unary main_call14.cst_0 main_call14.v4 (broadcastInDim S10000x128 ![] bcast_S_S10000x128),
    StableHlo.TRef.binary main_call14.v4 main_call14.v3 main_call14.v5 Host.divf,
    StableHlo.TRef.binary (.of main_v322 : StableHlo.TRef sig ⟨S10000x128, .f32⟩) main_call14.v5 main_call14.v6 mulf,
    StableHlo.unary main_arg14 main_v324 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v324 main_v325 rfl shapeCasts_S1x128x128_S128x128,
    StableHlo.binary main_v323 main_v325 main_v326 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg15 main_v327 ((extractStridedSlice S1x128 ![2, 0] · slices_S4x128_S1x128_2_0) : (⟨S4x128, .f32⟩ : BufTy).Contents (Elt F) → (⟨S1x128, .f32⟩ : BufTy).Contents (Elt F)),
    StableHlo.reshape main_v327 main_v328 rfl shapeCasts_S1x128_S128,
    StableHlo.unary main_v328 main_v329 (broadcastInDim S1x128 ![1] bcast_S128_S1x128_1 : (⟨S128, .f32⟩ : BufTy).Contents (Elt F) → (⟨S1x128, .f32⟩ : BufTy).Contents (Elt F)),
    StableHlo.unary main_v329 main_v330 (broadcastInDim S10000x128 ![0, 1] bcast_S1x128_S10000x128_0_1 : (⟨S1x128, .f32⟩ : BufTy).Contents (Elt F) → (⟨S10000x128, .f32⟩ : BufTy).Contents (Elt F)),
    StableHlo.binary main_v326 main_v330 main_v331 (addf : (⟨S10000x128, .f32⟩ : BufTy).Contents (Elt F) → (⟨S10000x128, .f32⟩ : BufTy).Contents (Elt F) → (⟨S10000x128, .f32⟩ : BufTy).Contents (Elt F)),
    StableHlo.binary main_v245 main_v331 main_v332 (addf : (⟨S10000x128, .f32⟩ : BufTy).Contents (Elt F) → (⟨S10000x128, .f32⟩ : BufTy).Contents (Elt F) → (⟨S10000x128, .f32⟩ : BufTy).Contents (Elt F)),
    StableHlo.nullary main_cst_45 (constant S_ .f32 0x00000000#32),
    StableHlo.binary main_v332 main_cst_45 main_v333 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v333 main_v334 (broadcastInDim S10000x1 ![0] bcast_S10000_S10000x1_0 : (⟨S10000, .f32⟩ : BufTy).Contents (Elt F) → (⟨S10000x1, .f32⟩ : BufTy).Contents (Elt F)),
    StableHlo.nullary main_cst_46 (constant S_ .f32 0x43000000#32),
    StableHlo.unary main_cst_46 main_v335 (broadcastInDim S10000x1 ![] bcast_S_S10000x1 : (⟨S_, .f32⟩ : BufTy).Contents (Elt F) → (⟨S10000x1, .f32⟩ : BufTy).Contents (Elt F)),
    StableHlo.binary main_v334 main_v335 main_v336 (Host.divf : (⟨S10000x1, .f32⟩ : BufTy).Contents (Elt F) → (⟨S10000x1, .f32⟩ : BufTy).Contents (Elt F) → (⟨S10000x1, .f32⟩ : BufTy).Contents (Elt F)),
    StableHlo.nullary main_c_47 (constantI S_ 32 0#32),
    StableHlo.TRef.nullary main_call15.cst (constant S_ .f32 0x00000000#32),
    StableHlo.TRef.binary (.of main_v332 : StableHlo.TRef sig ⟨S10000x128, .f32⟩) main_call15.cst main_call15.v0 (fun x v => Host.reduceAdd x v reducesTo_S10000x128_S10000_d1 h_S_),
    StableHlo.TRef.unary main_call15.v0 main_call15.v1 (broadcastInDim S10000x1 ![0] bcast_S10000_S10000x1_0) ]
theorem k17_sub : (k17 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub ..,
    unary_bufs_sub .., binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., reshape_bufs_sub .., binary_bufs_sub ..,
    unary_bufs_sub .., reshape_bufs_sub .., unary_bufs_sub .., unary_bufs_sub .., binary_bufs_sub .., binary_bufs_sub .., nullary_bufs_sub ..,
    binary_bufs_sub .., unary_bufs_sub .., nullary_bufs_sub .., unary_bufs_sub .., binary_bufs_sub .., nullary_bufs_sub .., nullary_bufs_sub ..,
    binary_bufs_sub .., unary_bufs_sub ..⟩
theorem k17_fresh : (k17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩
/-- The references chunk `k17` writes. -/
abbrev k17_W : List (Ref sig .tc) :=
  [main_v314, main_v315, main_v316, main_v317, main_v318, main_v319, main_v320, main_v321, main_v322, main_call14.v0.ref, main_call14.v1.ref,
    main_call14.cst.ref, main_call14.v2.ref, main_call14.v3.ref, main_call14.cst_0.ref, main_call14.v4.ref, main_call14.v5.ref, main_call14.v6.ref,
    main_v324, main_v325, main_v326, main_v327, main_v328, main_v329, main_v330, main_v331, main_v332, main_cst_45, main_v333, main_v334, main_cst_46,
    main_v335, main_v336, main_c_47, main_call15.cst.ref, main_call15.v0.ref, main_call15.v1.ref]
set_option maxRecDepth 8192 in
theorem k17_writes : (k17 : List (HloOp τ sig (Elt F))).Forall fun op => op.writes ⊆ (k17_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 520 … 557 of the 758 (from %337:fn_var %cst_0 to %354). -/
abbrev k18 : List (HloOp τ sig (Elt F)) :=
  [ StableHlo.TRef.nullary main_call15.cst_0 (constant S_ .f32 0x43000000#32),
    StableHlo.TRef.unary main_call15.cst_0 main_call15.v2 (broadcastInDim S10000x1 ![] bcast_S_S10000x1),
    StableHlo.TRef.binary main_call15.v1 main_call15.v2 main_call15.v3 Host.divf,
    StableHlo.TRef.unary main_call15.v3 main_call15.v4 (broadcastInDim S10000x128 ![0, 1] bcast_S10000x1_S10000x128_0_1),
    StableHlo.TRef.binary (.of main_v332 : StableHlo.TRef sig ⟨S10000x128, .f32⟩) main_call15.v4 main_call15.v5 subf,
    StableHlo.TRef.binary main_call15.v5 main_call15.v5 main_call15.v6 mulf,
    StableHlo.TRef.unary (.of main_c_47 : StableHlo.TRef sig ⟨S_, .i32⟩) main_call15.v7 (sitofp .f32),
    StableHlo.TRef.nullary main_call15.cst_1 (constant S_ .f32 0x43000000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S10000x128_S10000_d1 h_S_),
    StableHlo.TRef.unary main_call15.v9 main_call15.v10 (broadcastInDim S10000x1 ![0] bcast_S10000_S10000x1_0),
    StableHlo.TRef.unary main_call15.v8 main_call15.v11 (broadcastInDim S10000x1 ![] bcast_S_S10000x1),
    StableHlo.TRef.binary main_call15.v10 main_call15.v11 main_call15.v12 Host.divf,
    StableHlo.TRef.nullary main_call15.cst_3 (constant S_ .f32 0x00000000#32),
    StableHlo.TRef.binary main_call15.v8 main_call15.cst_3 main_call15.v13 (cmpf .ogt),
    StableHlo.TRef.nullary main_call15.cst_4 (constant S_ .f32 0x7FC00000#32),
    StableHlo.TRef.unary main_call15.cst_4 main_call15.call0.v0 id,
    StableHlo.TRef.unary main_call15.call0.v0 main_call15.call0.v1 (broadcastInDim S10000x1 ![] bcast_S_S10000x1),
    StableHlo.TRef.ternary main_call15.v13 main_call15.v12 main_call15.call0.v1 main_call15.call0.v2 (fun p a b => select (broadcastInDim S10000x1 ![] bcast_S_S10000x1 p) a b),
    StableHlo.unary main_v336 main_v338 (broadcastInDim S10000x128 ![0, 1] bcast_S10000x1_S10000x128_0_1 : (⟨S10000x1, .f32⟩ : BufTy).Contents (Elt F) → (⟨S10000x128, .f32⟩ : BufTy).Contents (Elt F)),
    StableHlo.binary main_v332 main_v338 main_v339 (subf : (⟨S10000x128, .f32⟩ : BufTy).Contents (Elt F) → (⟨S10000x128, .f32⟩ : BufTy).Contents (Elt F) → (⟨S10000x128, .f32⟩ : BufTy).Contents (Elt F)),
    StableHlo.nullary main_cst_48 (constant S_ .f32 0x3727C5AC#32),
    StableHlo.unary main_cst_48 main_v340 (broadcastInDim S10000x1 ![] bcast_S_S10000x1 : (⟨S_, .f32⟩ : BufTy).Contents (Elt F) → (⟨S10000x1, .f32⟩ : BufTy).Contents (Elt F)),
    StableHlo.binary main_v337 main_v340 main_v341 (addf : (⟨S10000x1, .f32⟩ : BufTy).Contents (Elt F) → (⟨S10000x1, .f32⟩ : BufTy).Contents (Elt F) → (⟨S10000x1, .f32⟩ : BufTy).Contents (Elt F)),
    StableHlo.unary main_v341 main_v342 (Host.sqrt : (⟨S10000x1, .f32⟩ : BufTy).Contents (Elt F) → (⟨S10000x1, .f32⟩ : BufTy).Contents (Elt F)),
    StableHlo.unary main_v342 main_v343 (broadcastInDim S10000x128 ![0, 1] bcast_S10000x1_S10000x128_0_1 : (⟨S10000x1, .f32⟩ : BufTy).Contents (Elt F) → (⟨S10000x128, .f32⟩ : BufTy).Contents (Elt F)),
    StableHlo.binary main_v339 main_v343 main_v344 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v345 ((extractStridedSlice S1x128 ![2, 0] · slices_S4x128_S1x128_2_0) : (⟨S4x128, .f32⟩ : BufTy).Contents (Elt F) → (⟨S1x128, .f32⟩ : BufTy).Contents (Elt F)),
    StableHlo.reshape main_v345 main_v346 rfl shapeCasts_S1x128_S128,
    StableHlo.unary main_v346 main_v347 (broadcastInDim S1x128 ![1] bcast_S128_S1x128_1 : (⟨S128, .f32⟩ : BufTy).Contents (Elt F) → (⟨S1x128, .f32⟩ : BufTy).Contents (Elt F)),
    StableHlo.unary main_v347 main_v348 (broadcastInDim S10000x128 ![0, 1] bcast_S1x128_S10000x128_0_1 : (⟨S1x128, .f32⟩ : BufTy).Contents (Elt F) → (⟨S10000x128, .f32⟩ : BufTy).Contents (Elt F)),
    StableHlo.binary main_v344 main_v348 main_v349 (mulf : (⟨S10000x128, .f32⟩ : BufTy).Contents (Elt F) → (⟨S10000x128, .f32⟩ : BufTy).Contents (Elt F) → (⟨S10000x128, .f32⟩ : BufTy).Contents (Elt F)),
    StableHlo.unary main_arg17 main_v350 ((extractStridedSlice S1x128 ![2, 0] · slices_S4x128_S1x128_2_0) : (⟨S4x128, .f32⟩ : BufTy).Contents (Elt F) → (⟨S1x128, .f32⟩ : BufTy).Contents (Elt F)),
    StableHlo.reshape main_v350 main_v351 rfl shapeCasts_S1x128_S128,
    StableHlo.unary main_v351 main_v352 (broadcastInDim S1x128 ![1] bcast_S128_S1x128_1 : (⟨S128, .f32⟩ : BufTy).Contents (Elt F) → (⟨S1x128, .f32⟩ : BufTy).Contents (Elt F)),
    StableHlo.unary main_v352 main_v353 (broadcastInDim S10000x128 ![0, 1] bcast_S1x128_S10000x128_0_1 : (⟨S1x128, .f32⟩ : BufTy).Contents (Elt F) → (⟨S10000x128, .f32⟩ : BufTy).Contents (Elt F)),
    StableHlo.binary main_v349 main_v353 main_v354 (addf : (⟨S10000x128, .f32⟩ : BufTy).Contents (Elt F) → (⟨S10000x128, .f32⟩ : BufTy).Contents (Elt F) → (⟨S10000x128, .f32⟩ : BufTy).Contents (Elt F)) ]
theorem k18_sub : (k18 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., reshape_bufs_sub ..,
    unary_bufs_sub .., unary_bufs_sub .., binary_bufs_sub ..⟩
theorem k18_fresh : (k18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩
/-- The references chunk `k18` writes. -/
abbrev k18_W : List (Ref sig .tc) :=
  [main_call15.cst_0.ref, main_call15.v2.ref, main_call15.v3.ref, main_call15.v4.ref, main_call15.v5.ref, main_call15.v6.ref, main_call15.v7.ref,
    main_call15.cst_1.ref, main_call15.v8.ref, main_call15.cst_2.ref, main_call15.v9.ref, main_call15.v10.ref, main_call15.v11.ref, main_call15.v12.ref,
    main_call15.cst_3.ref, main_call15.v13.ref, main_call15.cst_4.ref, main_call15.call0.v0.ref, main_call15.call0.v1.ref, main_call15.call0.v2.ref,
    main_v338, main_v339, main_cst_48, main_v340, main_v341, main_v342, main_v343, main_v344, main_v345, main_v346, main_v347, main_v348, main_v349,
    main_v350, main_v351, main_v352, main_v353, main_v354]
set_option maxRecDepth 8192 in
theorem k18_writes : (k18 : List (HloOp τ sig (Elt F))).Forall fun op => op.writes ⊆ (k18_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 558 … 571 of the 758 (from %c_49 to %364). -/
abbrev k19 : List (HloOp τ sig (Elt F)) :=
  [ StableHlo.nullary main_c_49 (constantI S_ 32 0#32),
    StableHlo.unary main_c_49 main_v355 (broadcastInDim S250000 ![] bcast_S_S250000 : (⟨S_, .i32⟩ : BufTy).Contents (Elt F) → (⟨S250000, .i32⟩ : BufTy).Contents (Elt F)),
    StableHlo.binary main_v27 main_v355 main_v356 (cmpi .slt : (⟨S250000, .i32⟩ : BufTy).Contents (Elt F) → (⟨S250000, .i32⟩ : BufTy).Contents (Elt F) → (⟨S250000, .i1⟩ : BufTy).Contents (Elt F)),
    StableHlo.nullary main_c_50 (constantI S_ 32 10000#32),
    StableHlo.unary main_c_50 main_v357 (broadcastInDim S250000 ![] bcast_S_S250000 : (⟨S_, .i32⟩ : BufTy).Contents (Elt F) → (⟨S250000, .i32⟩ : BufTy).Contents (Elt F)),
    StableHlo.binary main_v27 main_v357 main_v358 (addi : (⟨S250000, .i32⟩ : BufTy).Contents (Elt F) → (⟨S250000, .i32⟩ : BufTy).Contents (Elt F) → (⟨S250000, .i32⟩ : BufTy).Contents (Elt F)),
    StableHlo.ternary main_v356 main_v358 main_v27 main_v359 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v359 main_v360 (broadcastInDim S250000x1 ![0] bcast_S250000_S250000x1_0 : (⟨S250000, .i32⟩ : BufTy).Contents (Elt F) → (⟨S250000x1, .i32⟩ : BufTy).Contents (Elt F)),
    StableHlo.binary main_v354 main_v360 main_v361 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_51 (constantI S_ 32 0#32),
    StableHlo.unary main_c_51 main_v362 (broadcastInDim S250000 ![] bcast_S_S250000 : (⟨S_, .i32⟩ : BufTy).Contents (Elt F) → (⟨S250000, .i32⟩ : BufTy).Contents (Elt F)),
    StableHlo.binary main_v25 main_v362 main_v363 (cmpi .slt : (⟨S250000, .i32⟩ : BufTy).Contents (Elt F) → (⟨S250000, .i32⟩ : BufTy).Contents (Elt F) → (⟨S250000, .i1⟩ : BufTy).Contents (Elt F)),
    StableHlo.nullary main_c_52 (constantI S_ 32 10000#32),
    StableHlo.unary main_c_52 main_v364 (broadcastInDim S250000 ![] bcast_S_S250000 : (⟨S_, .i32⟩ : BufTy).Contents (Elt F) → (⟨S250000, .i32⟩ : BufTy).Contents (Elt F)) ]
theorem k19_sub : (k19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..⟩
theorem k19_fresh : (k19 : List (HloOp τ sig (Elt F))).Forall fun op => op.fresh = ∅ :=
  ⟨rfl, rfl, rfl, rfl, rfl, rfl, rfl, rfl, rfl, rfl, rfl, rfl, rfl, rfl⟩
/-- The references chunk `k19` writes. -/
abbrev k19_W : List (Ref sig .tc) :=
  [main_c_49, main_v355, main_v356, main_c_50, main_v357, main_v358, main_v359, main_v360, main_v361, main_c_51, main_v362, main_v363, main_c_52,
    main_v364]
set_option maxRecDepth 8192 in
theorem k19_writes : (k19 : List (HloOp τ sig (Elt F))).Forall fun op => op.writes ⊆ (k19_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part6's operations. -/
def w6 : List (HloOp τ sig (Elt F)) := k16 ++ k17 ++ k18 ++ k19

set_option maxRecDepth 8192 in
set_option maxHeartbeats 4000000 in
/-- The window is that straight line: the called functions unfolded at their calls, sequencing reassociated. -/
theorem main_part6_eq (c : Dev nD) : main_part6 (F := F) c = seq w6 := by
  simp only [main_part6, fn_silu_0.body, fn_var.body, fn_where.body, bind_assoc, pure_bind]
  rfl

end Cert.ReferenceIdeal.RRun

end
-- ==== Proof.RRunW7.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 572 … 611 of the 758 (from %365 to %394:fn_silu %cst). -/
abbrev k20 : List (HloOp τ sig (Elt F)) :=
  [ StableHlo.binary main_v25 main_v364 main_v365 (addi : (⟨S250000, .i32⟩ : BufTy).Contents (Elt F) → (⟨S250000, .i32⟩ : BufTy).Contents (Elt F) → (⟨S250000, .i32⟩ : BufTy).Contents (Elt F)),
    StableHlo.ternary main_v363 main_v365 main_v25 main_v366 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v366 main_v367 (broadcastInDim S250000x1 ![0] bcast_S250000_S250000x1_0 : (⟨S250000, .i32⟩ : BufTy).Contents (Elt F) → (⟨S250000x1, .i32⟩ : BufTy).Contents (Elt F)),
    StableHlo.binary main_v354 main_v367 main_v368 ((fun x i => Host.gather gather_S10000x128_S250000x1_S250000x128_1_0_n_n_0_1_1128 x i) : (⟨S10000x128, .f32⟩ : BufTy).Contents (Elt F) → (⟨S250000x1, .i32⟩ : BufTy).Contents (Elt F) → (⟨S250000x128, .f32⟩ : BufTy).Contents (Elt F)),
    StableHlo.nullary main_c_53 (constantI S_ 32 0#32),
    StableHlo.unary main_c_53 main_v369 (broadcastInDim S250000 ![] bcast_S_S250000 : (⟨S_, .i32⟩ : BufTy).Contents (Elt F) → (⟨S250000, .i32⟩ : BufTy).Contents (Elt F)),
    StableHlo.binary main_v27 main_v369 main_v370 (cmpi .slt : (⟨S250000, .i32⟩ : BufTy).Contents (Elt F) → (⟨S250000, .i32⟩ : BufTy).Contents (Elt F) → (⟨S250000, .i1⟩ : BufTy).Contents (Elt F)),
    StableHlo.nullary main_c_54 (constantI S_ 32 10000#32),
    StableHlo.unary main_c_54 main_v371 (broadcastInDim S250000 ![] bcast_S_S250000 : (⟨S_, .i32⟩ : BufTy).Contents (Elt F) → (⟨S250000, .i32⟩ : BufTy).Contents (Elt F)),
    StableHlo.binary main_v27 main_v371 main_v372 (addi : (⟨S250000, .i32⟩ : BufTy).Contents (Elt F) → (⟨S250000, .i32⟩ : BufTy).Contents (Elt F) → (⟨S250000, .i32⟩ : BufTy).Contents (Elt F)),
    StableHlo.ternary main_v370 main_v372 main_v27 main_v373 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v373 main_v374 (broadcastInDim S250000x1 ![0] bcast_S250000_S250000x1_0 : (⟨S250000, .i32⟩ : BufTy).Contents (Elt F) → (⟨S250000x1, .i32⟩ : BufTy).Contents (Elt F)),
    StableHlo.binary main_v23 main_v374 main_v375 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.nullary main_c_55 (constantI S_ 32 0#32),
    StableHlo.unary main_c_55 main_v376 (broadcastInDim S250000 ![] bcast_S_S250000 : (⟨S_, .i32⟩ : BufTy).Contents (Elt F) → (⟨S250000, .i32⟩ : BufTy).Contents (Elt F)),
    StableHlo.binary main_v25 main_v376 main_v377 (cmpi .slt : (⟨S250000, .i32⟩ : BufTy).Contents (Elt F) → (⟨S250000, .i32⟩ : BufTy).Contents (Elt F) → (⟨S250000, .i1⟩ : BufTy).Contents (Elt F)),
    StableHlo.nullary main_c_56 (constantI S_ 32 10000#32),
    StableHlo.unary main_c_56 main_v378 (broadcastInDim S250000 ![] bcast_S_S250000 : (⟨S_, .i32⟩ : BufTy).Contents (Elt F) → (⟨S250000, .i32⟩ : BufTy).Contents (Elt F)),
    StableHlo.binary main_v25 main_v378 main_v379 (addi : (⟨S250000, .i32⟩ : BufTy).Contents (Elt F) → (⟨S250000, .i32⟩ : BufTy).Contents (Elt F) → (⟨S250000, .i32⟩ : BufTy).Contents (Elt F)),
    StableHlo.ternary main_v377 main_v379 main_v25 main_v380 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v380 main_v381 (broadcastInDim S250000x1 ![0] bcast_S250000_S250000x1_0 : (⟨S250000, .i32⟩ : BufTy).Contents (Elt F) → (⟨S250000x1, .i32⟩ : BufTy).Contents (Elt F)),
    StableHlo.binary main_v23 main_v381 main_v382 ((fun x i => Host.gather gather_S10000x3_S250000x1_S250000x3_1_0_n_n_0_1_13 x i) : (⟨S10000x3, .f32⟩ : BufTy).Contents (Elt F) → (⟨S250000x1, .i32⟩ : BufTy).Contents (Elt F) → (⟨S250000x3, .f32⟩ : BufTy).Contents (Elt F)),
    StableHlo.binary main_v375 main_v382 main_v383 (subf : (⟨S250000x3, .f32⟩ : BufTy).Contents (Elt F) → (⟨S250000x3, .f32⟩ : BufTy).Contents (Elt F) → (⟨S250000x3, .f32⟩ : BufTy).Contents (Elt F)),
    StableHlo.TRef.binary (.of main_v383 : StableHlo.TRef sig ⟨S250000x3, .f32⟩) (.of main_v383 : StableHlo.TRef sig ⟨S250000x3, .f32⟩) main_call16.v0 mulf,
    StableHlo.TRef.nullary main_call16.cst (constant S_ .f32 0x00000000#32),
    StableHlo.TRef.binary main_call16.v0 main_call16.cst main_call16.v1 (fun x v => Host.reduceAdd x v reducesTo_S250000x3_S250000_d1 h_S_),
    StableHlo.TRef.unary main_call16.v1 main_call16.v2 (broadcastInDim S250000x1 ![0] bcast_S250000_S250000x1_0),
    StableHlo.TRef.unary main_call16.v2 main_call16.v3 Host.sqrt,
    StableHlo.nary ![main_v361, main_v368, main_v384] main_v385 (fun u => concatenate S250000x257 1 [⟨S250000x128, u 0⟩, ⟨S250000x128, u 1⟩, ⟨S250000x1, u 2⟩] concatenates_S250000x128_S250000x128_S250000x1_S250000x257_d1),
    StableHlo.unary main_arg6 main_v386 ((extractStridedSlice S1x257x128 ![3, 0, 0] · slices_S4x257x128_S1x257x128_3_0_0) : (⟨S4x257x128, .f32⟩ : BufTy).Contents (Elt F) → (⟨S1x257x128, .f32⟩ : BufTy).Contents (Elt F)),
    StableHlo.reshape main_v386 main_v387 rfl shapeCasts_S1x257x128_S257x128,
    StableHlo.binary main_v385 main_v387 main_v388 ((fun l r => Host.dotGeneral dot_S250000x257_S257x128_S250000x128_1_0_0_1_n_n none l r) : (⟨S250000x257, .f32⟩ : BufTy).Contents (Elt F) → (⟨S257x128, .f32⟩ : BufTy).Contents (Elt F) → (⟨S250000x128, .f32⟩ : BufTy).Contents (Elt F)),
    StableHlo.unary main_arg7 main_v389 ((extractStridedSlice S1x128 ![3, 0] · slices_S4x128_S1x128_3_0) : (⟨S4x128, .f32⟩ : BufTy).Contents (Elt F) → (⟨S1x128, .f32⟩ : BufTy).Contents (Elt F)),
    StableHlo.reshape main_v389 main_v390 rfl shapeCasts_S1x128_S128,
    StableHlo.unary main_v390 main_v391 (broadcastInDim S1x128 ![1] bcast_S128_S1x128_1 : (⟨S128, .f32⟩ : BufTy).Contents (Elt F) → (⟨S1x128, .f32⟩ : BufTy).Contents (Elt F)),
    StableHlo.unary main_v391 main_v392 (broadcastInDim S250000x128 ![0, 1] bcast_S1x128_S250000x128_0_1 : (⟨S1x128, .f32⟩ : BufTy).Contents (Elt F) → (⟨S250000x128, .f32⟩ : BufTy).Contents (Elt F)),
    StableHlo.binary main_v388 main_v392 main_v393 (addf : (⟨S250000x128, .f32⟩ : BufTy).Contents (Elt F) → (⟨S250000x128, .f32⟩ : BufTy).Contents (Elt F) → (⟨S250000x128, .f32⟩ : BufTy).Contents (Elt F)),
    StableHlo.TRef.unary (.of main_v393 : StableHlo.TRef sig ⟨S250000x128, .f32⟩) main_call17.v0 Host.negf,
    StableHlo.TRef.unary main_call17.v0 main_call17.v1 Host.exp,
    StableHlo.TRef.nullary main_call17.cst (constant S_ .f32 0x3F800000#32) ]
theorem k20_sub : (k20 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub .., unary_bufs_sub ..,
    binary_bufs_sub .., binary_bufs_sub .., binary_bufs_sub .., nullary_bufs_sub .., binary_bufs_sub .., unary_bufs_sub .., unary_bufs_sub ..,
    nary_bufs_sub .., unary_bufs_sub .., reshape_bufs_sub .., binary_bufs_sub .., unary_bufs_sub .., reshape_bufs_sub .., unary_bufs_sub ..,
    unary_bufs_sub .., binary_bufs_sub .., unary_bufs_sub .., unary_bufs_sub .., nullary_bufs_sub ..⟩
theorem k20_fresh : (k20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
/-- The references chunk `k20` writes. -/
abbrev k20_W : List (Ref sig .tc) :=
  [main_v365, main_v366, main_v367, main_v368, main_c_53, main_v369, main_v370, main_c_54, main_v371, main_v372, main_v373, main_v374, main_v375,
    main_c_55, main_v376, main_v377, main_c_56, main_v378, main_v379, main_v380, main_v381, main_v382, main_v383, main_call16.v0.ref, main_call16.cst.ref,
    main_call16.v1.ref, main_call16.v2.ref, main_call16.v3.ref, main_v385, main_v386, main_v387, main_v388, main_v389, main_v390, main_v391, main_v392,
    main_v393, main_call17.v0.ref, main_call17.v1.ref, main_call17.cst.ref]
set_option maxRecDepth 8192 in
theorem k20_writes : (k20 : List (HloOp τ sig (Elt F))).Forall fun op => op.writes ⊆ (k20_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 612 … 651 of the 758 (from %394:fn_silu %2 to %418). -/
abbrev k21 : List (HloOp τ sig (Elt F)) :=
  [ StableHlo.TRef.unary main_call17.cst main_call17.v2 (broadcastInDim S250000x128 ![] bcast_S_S250000x128),
    StableHlo.TRef.binary main_call17.v2 main_call17.v1 main_call17.v3 addf,
    StableHlo.TRef.nullary main_call17.cst_0 (constant S_ .f32 0x3F800000#32),
    StableHlo.TRef.unary main_call17.cst_0 main_call17.v4 (broadcastInDim S250000x128 ![] bcast_S_S250000x128),
    StableHlo.TRef.binary main_call17.v4 main_call17.v3 main_call17.v5 Host.divf,
    StableHlo.TRef.binary (.of main_v393 : StableHlo.TRef sig ⟨S250000x128, .f32⟩) main_call17.v5 main_call17.v6 mulf,
    StableHlo.unary main_arg8 main_v395 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v395 main_v396 rfl shapeCasts_S1x128x128_S128x128,
    StableHlo.binary main_v394 main_v396 main_v397 ((fun l r => Host.dotGeneral dot_S250000x128_S128x128_S250000x128_1_0_0_1_n_n none l r) : (⟨S250000x128, .f32⟩ : BufTy).Contents (Elt F) → (⟨S128x128, .f32⟩ : BufTy).Contents (Elt F) → (⟨S250000x128, .f32⟩ : BufTy).Contents (Elt F)),
    StableHlo.unary main_arg9 main_v398 ((extractStridedSlice S1x128 ![3, 0] · slices_S4x128_S1x128_3_0) : (⟨S4x128, .f32⟩ : BufTy).Contents (Elt F) → (⟨S1x128, .f32⟩ : BufTy).Contents (Elt F)),
    StableHlo.reshape main_v398 main_v399 rfl shapeCasts_S1x128_S128,
    StableHlo.unary main_v399 main_v400 (broadcastInDim S1x128 ![1] bcast_S128_S1x128_1 : (⟨S128, .f32⟩ : BufTy).Contents (Elt F) → (⟨S1x128, .f32⟩ : BufTy).Contents (Elt F)),
    StableHlo.unary main_v400 main_v401 (broadcastInDim S250000x128 ![0, 1] bcast_S1x128_S250000x128_0_1 : (⟨S1x128, .f32⟩ : BufTy).Contents (Elt F) → (⟨S250000x128, .f32⟩ : BufTy).Contents (Elt F)),
    StableHlo.binary main_v397 main_v401 main_v402 (addf : (⟨S250000x128, .f32⟩ : BufTy).Contents (Elt F) → (⟨S250000x128, .f32⟩ : BufTy).Contents (Elt F) → (⟨S250000x128, .f32⟩ : BufTy).Contents (Elt F)),
    StableHlo.TRef.unary (.of main_v402 : StableHlo.TRef sig ⟨S250000x128, .f32⟩) main_call18.v0 Host.negf,
    StableHlo.TRef.unary main_call18.v0 main_call18.v1 Host.exp,
    StableHlo.TRef.nullary main_call18.cst (constant S_ .f32 0x3F800000#32),
    StableHlo.TRef.unary main_call18.cst main_call18.v2 (broadcastInDim S250000x128 ![] bcast_S_S250000x128),
    StableHlo.TRef.binary main_call18.v2 main_call18.v1 main_call18.v3 addf,
    StableHlo.TRef.nullary main_call18.cst_0 (constant S_ .f32 0x3F800000#32),
    StableHlo.TRef.unary main_call18.cst_0 main_call18.v4 (broadcastInDim S250000x128 ![] bcast_S_S250000x128),
    StableHlo.TRef.binary main_call18.v4 main_call18.v3 main_call18.v5 Host.divf,
    StableHlo.TRef.binary (.of main_v402 : StableHlo.TRef sig ⟨S250000x128, .f32⟩) main_call18.v5 main_call18.v6 mulf,
    StableHlo.unary main_arg10 main_v404 ((extractStridedSlice S1x128x1 ![3, 0, 0] · slices_S4x128x1_S1x128x1_3_0_0) : (⟨S4x128x1, .f32⟩ : BufTy).Contents (Elt F) → (⟨S1x128x1, .f32⟩ : BufTy).Contents (Elt F)),
    StableHlo.reshape main_v404 main_v405 rfl shapeCasts_S1x128x1_S128x1,
    StableHlo.binary main_v403 main_v405 main_v406 ((fun l r => Host.dotGeneral dot_S250000x128_S128x1_S250000x1_1_0_0_1_n_n none l r) : (⟨S250000x128, .f32⟩ : BufTy).Contents (Elt F) → (⟨S128x1, .f32⟩ : BufTy).Contents (Elt F) → (⟨S250000x1, .f32⟩ : BufTy).Contents (Elt F)),
    StableHlo.unary main_arg11 main_v407 ((extractStridedSlice S1x1 ![3, 0] · slices_S4x1_S1x1_3_0) : (⟨S4x1, .f32⟩ : BufTy).Contents (Elt F) → (⟨S1x1, .f32⟩ : BufTy).Contents (Elt F)),
    StableHlo.reshape main_v407 main_v408 rfl shapeCasts_S1x1_S1,
    StableHlo.unary main_v408 main_v409 (broadcastInDim S1x1 ![1] bcast_S1_S1x1_1 : (⟨S1, .f32⟩ : BufTy).Contents (Elt F) → (⟨S1x1, .f32⟩ : BufTy).Contents (Elt F)),
    StableHlo.unary main_v409 main_v410 (broadcastInDim S250000x1 ![0, 1] bcast_S1x1_S250000x1_0_1 : (⟨S1x1, .f32⟩ : BufTy).Contents (Elt F) → (⟨S250000x1, .f32⟩ : BufTy).Contents (Elt F)),
    StableHlo.binary main_v406 main_v410 main_v411 (addf : (⟨S250000x1, .f32⟩ : BufTy).Contents (Elt F) → (⟨S250000x1, .f32⟩ : BufTy).Contents (Elt F) → (⟨S250000x1, .f32⟩ : BufTy).Contents (Elt F)),
    StableHlo.unary main_v411 main_v412 (Host.negf : (⟨S250000x1, .f32⟩ : BufTy).Contents (Elt F) → (⟨S250000x1, .f32⟩ : BufTy).Contents (Elt F)),
    StableHlo.unary main_v412 main_v413 (Host.exp : (⟨S250000x1, .f32⟩ : BufTy).Contents (Elt F) → (⟨S250000x1, .f32⟩ : BufTy).Contents (Elt F)),
    StableHlo.nullary main_cst_57 (constant S_ .f32 0x3F800000#32),
    StableHlo.unary main_cst_57 main_v414 (broadcastInDim S250000x1 ![] bcast_S_S250000x1 : (⟨S_, .f32⟩ : BufTy).Contents (Elt F) → (⟨S250000x1, .f32⟩ : BufTy).Contents (Elt F)),
    StableHlo.binary main_v414 main_v413 main_v415 (addf : (⟨S250000x1, .f32⟩ : BufTy).Contents (Elt F) → (⟨S250000x1, .f32⟩ : BufTy).Contents (Elt F) → (⟨S250000x1, .f32⟩ : BufTy).Contents (Elt F)),
    StableHlo.nullary main_cst_58 (constant S_ .f32 0x3F800000#32),
    StableHlo.unary main_cst_58 main_v416 (broadcastInDim S250000x1 ![] bcast_S_S250000x1 : (⟨S_, .f32⟩ : BufTy).Contents (Elt F) → (⟨S250000x1, .f32⟩ : BufTy).Contents (Elt F)),
    StableHlo.binary main_v416 main_v415 main_v417 (Host.divf : (⟨S250000x1, .f32⟩ : BufTy).Contents (Elt F) → (⟨S250000x1, .f32⟩ : BufTy).Contents (Elt F) → (⟨S250000x1, .f32⟩ : BufTy).Contents (Elt F)),
    StableHlo.unary main_v417 main_v418 (broadcastInDim S250000x128 ![0, 1] bcast_S250000x1_S250000x128_0_1 : (⟨S250000x1, .f32⟩ : BufTy).Contents (Elt F) → (⟨S250000x128, .f32⟩ : BufTy).Contents (Elt F)) ]
theorem k21_sub : (k21 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub ..,
    reshape_bufs_sub .., binary_bufs_sub .., unary_bufs_sub .., reshape_bufs_sub .., unary_bufs_sub .., unary_bufs_sub .., binary_bufs_sub ..,
    unary_bufs_sub .., unary_bufs_sub .., nullary_bufs_sub .., unary_bufs_sub .., binary_bufs_sub .., nullary_bufs_sub .., unary_bufs_sub ..,
    binary_bufs_sub .., binary_bufs_sub .., unary_bufs_sub .., reshape_bufs_sub .., binary_bufs_sub .., unary_bufs_sub .., reshape_bufs_sub ..,
    unary_bufs_sub .., unary_bufs_sub .., binary_bufs_sub .., unary_bufs_sub .., unary_bufs_sub .., nullary_bufs_sub .., unary_bufs_sub ..,
    binary_bufs_sub .., nullary_bufs_sub .., unary_bufs_sub .., binary_bufs_sub .., unary_bufs_sub ..⟩
theorem k21_fresh : (k21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
/-- The references chunk `k21` writes. -/
abbrev k21_W : List (Ref sig .tc) :=
  [main_call17.v2.ref, main_call17.v3.ref, main_call17.cst_0.ref, main_call17.v4.ref, main_call17.v5.ref, main_call17.v6.ref, main_v395, main_v396,
    main_v397, main_v398, main_v399, main_v400, main_v401, main_v402, main_call18.v0.ref, main_call18.v1.ref, main_call18.cst.ref, main_call18.v2.ref,
    main_call18.v3.ref, main_call18.cst_0.ref, main_call18.v4.ref, main_call18.v5.ref, main_call18.v6.ref, main_v404, main_v405, main_v406, main_v407,
    main_v408, main_v409, main_v410, main_v411, main_v412, main_v413, main_cst_57, main_v414, main_v415, main_cst_58, main_v416, main_v417, main_v418]
set_option maxRecDepth 8192 in
theorem k21_writes : (k21 : List (HloOp τ sig (Elt F))).Forall fun op => op.writes ⊆ (k21_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part7's operations. -/
def w7 : List (HloOp τ sig (Elt F)) := k20 ++ k21

set_option maxRecDepth 8192 in
set_option maxHeartbeats 4000000 in
/-- The window is that straight line: the called functions unfolded at their calls, sequencing reassociated. -/
theorem main_part7_eq (c : Dev nD) : main_part7 (F := F) c = seq w7 := by
  simp only [main_part7, fn_norm.body, fn_silu.body, bind_assoc, pure_bind]
  rfl

end Cert.ReferenceIdeal.RRun

end
-- ==== Proof.RRunW8.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 652 … 656 of the 758 (from %419 to %422). -/
abbrev k22 : List (HloOp τ sig (Elt F)) :=
  [ StableHlo.binary main_v403 main_v418 main_v419 (mulf : (⟨S250000x128, .f32⟩ : BufTy).Contents (Elt F) → (⟨S250000x128, .f32⟩ : BufTy).Contents (Elt F) → (⟨S250000x128, .f32⟩ : BufTy).Contents (Elt F)),
    StableHlo.nullary main_cst_59 (constant S_ .f32 0x00000000#32),
    StableHlo.unary main_cst_59 main_v420 (broadcastInDim S10000x128 ![] bcast_S_S10000x128 : (⟨S_, .f32⟩ : BufTy).Contents (Elt F) → (⟨S10000x128, .f32⟩ : BufTy).Contents (Elt F)),
    StableHlo.unary main_v27 main_v421 (broadcastInDim S250000x1 ![0] bcast_S250000_S250000x1_0 : (⟨S250000, .i32⟩ : BufTy).Contents (Elt F) → (⟨S250000x1, .i32⟩ : BufTy).Contents (Elt F)),
    StableHlo.ternary main_v420 main_v421 main_v419 main_v422 ((fun x i u => Host.scatterAdd scatter_S10000x128_S250000x1_S250000x128_1_0_0_1 x i u) : (⟨S10000x128, .f32⟩ : BufTy).Contents (Elt F) → (⟨S250000x1, .i32⟩ : BufTy).Contents (Elt F) → (⟨S250000x128, .f32⟩ : BufTy).Contents (Elt F) → (⟨S10000x128, .f32⟩ : BufTy).Contents (Elt F)) ]
theorem k22_sub : (k22 : List (HloOp τ sig (Elt F))).Forall fun op => op.bufs ⊆ tcRefs τ sig :=
  ⟨binary_bufs_sub .., nullary_bufs_sub .., unary_bufs_sub .., unary_bufs_sub .., ternary_bufs_sub ..⟩
theorem k22_fresh : (k22 : List (HloOp τ sig (Elt F))).Forall fun op => op.fresh = ∅ :=
  ⟨rfl, rfl, rfl, rfl, rfl⟩
/-- The references chunk `k22` writes. -/
abbrev k22_W : List (Ref sig .tc) :=
  [main_v419, main_cst_59, main_v420, main_v421, main_v422]
set_option maxRecDepth 8192 in
theorem k22_writes : (k22 : List (HloOp τ sig (Elt F))).Forall fun op => op.writes ⊆ (k22_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 657 … 693 of the 758 (from %423 to %446:fn_var %1). -/
abbrev k23 : List (HloOp τ sig (Elt F)) :=
  [ StableHlo.binary main_v354 main_v422 main_v423 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.unary main_arg12 main_v424 ((extractStridedSlice S1x256x128 ![3, 0, 0] · slices_S4x256x128_S1x256x128_3_0_0) : (⟨S4x256x128, .f32⟩ : BufTy).Contents (Elt F) → (⟨S1x256x128, .f32⟩ : BufTy).Contents (Elt F)),
    StableHlo.reshape main_v424 main_v425 rfl shapeCasts_S1x256x128_S256x128,
    StableHlo.binary main_v423 main_v425 main_v426 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg13 main_v427 ((extractStridedSlice S1x128 ![3, 0] · slices_S4x128_S1x128_3_0) : (⟨S4x128, .f32⟩ : BufTy).Contents (Elt F) → (⟨S1x128, .f32⟩ : BufTy).Contents (Elt F)),
    StableHlo.reshape main_v427 main_v428 rfl shapeCasts_S1x128_S128,
    StableHlo.unary main_v428 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S10000x128 ![0, 1] bcast_S1x128_S10000x128_0_1 : (⟨S1x128, .f32⟩ : BufTy).Contents (Elt F) → (⟨S10000x128, .f32⟩ : BufTy).Contents (Elt F)),
    StableHlo.binary main_v426 main_v430 main_v431 (addf : (⟨S10000x128, .f32⟩ : BufTy).Contents (Elt F) → (⟨S10000x128, .f32⟩ : BufTy).Contents (Elt F) → (⟨S10000x128, .f32⟩ : BufTy).Contents (Elt F)),
    StableHlo.TRef.unary (.of main_v431 : StableHlo.TRef sig ⟨S10000x128, .f32⟩) main_call19.v0 Host.negf,
    StableHlo.TRef.unary main_call19.v0 main_call19.v1 Host.exp,
    StableHlo.TRef.nullary main_call19.cst (constant S_ .f32 0x3F800000#32),
    StableHlo.TRef.unary main_call19.cst main_call19.v2 (broadcastInDim S10000x128 ![] bcast_S_S10000x128),
    StableHlo.TRef.binary main_call19.v2 main_call19.v1 main_call19.v3 addf,
    StableHlo.TRef.nullary main_call19.cst_0 (constant S_ .f32 0x3F800000#32),
    StableHlo.TRef.unary main_call19.cst_0 main_call19.v4 (broadcastInDim S10000x128 ![] bcast_S_S10000x128),
    StableHlo.TRef.binary main_call19.v4 main_call19.v3 main_call19.v5 Host.divf,
    StableHlo.TRef.binary (.of main_v431 : StableHlo.TRef sig ⟨S10000x128, .f32⟩) main_call19.v5 main_call19.v6 mulf,
    StableHlo.unary main_arg14 main_v433 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v433 main_v434 rfl shapeCasts_S1x128x128_S128x128,
    StableHlo.binary main_v432 main_v434 main_v435 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg15 main_v436 ((extractStridedSlice S1x128 ![3, 0] · slices_S4x128_S1x128_3_0) : (⟨S4x128, .f32⟩ : BufTy).Contents (Elt F) → (⟨S1x128, .f32⟩ : BufTy).Contents (Elt F)),
    StableHlo.reshape main_v436 main_v437 rfl shapeCasts_S1x128_S128,
    StableHlo.unary main_v437 main_v438 (broadcastInDim S1x128 ![1] bcast_S128_S1x128_1 : (⟨S128, .f32⟩ : BufTy).Contents (Elt F) → (⟨S1x128, .f32⟩ : BufTy).Contents (Elt F)),
    StableHlo.unary main_v438 main_v439 (broadcastInDim S10000x128 ![0, 1] bcast_S1x128_S10000x128_0_1 : (⟨S1x128, .f32⟩ : BufTy).Contents (Elt F) → (⟨S10000x128, .f32⟩ : BufTy).Contents (Elt F)),
    StableHlo.binary main_v435 main_v439 main_v440 (addf : (⟨S10000x128, .f32⟩ : BufTy).Contents (Elt F) → (⟨S10000x128, .f32⟩ : BufTy).Contents (Elt F) → (⟨S10000x128, .f32⟩ : BufTy).Contents (Elt F)),
    StableHlo.binary main_v354 main_v440 main_v441 (addf : (⟨S10000x128, .f32⟩ : BufTy).Contents (Elt F) → (⟨S10000x128, .f32⟩ : BufTy).Contents (Elt F) → (⟨S10000x128, .f32⟩ : BufTy).Contents (Elt F)),
    StableHlo.nullary main_cst_60 (constant S_ .f32 0x00000000#32),
    StableHlo.binary main_v441 main_cst_60 main_v442 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    StableHlo.unary main_v442 main_v443 (broadcastInDim S10000x1 ![0] bcast_S10000_S10000x1_0 : (⟨S10000, .f32⟩ : BufTy).Contents (Elt F) → (⟨S10000x1, .f32⟩ : BufTy).Contents (Elt F)),
    StableHlo.nullary main_cst_61 (constant S_ .f32 0x43000000#32),
    StableHlo.unary main_cst_61 main_v444 (broadcastInDim S10000x1 ![] bcast_S_S10000x1 : (⟨S_, .f32⟩ : BufTy).Contents (Elt F) → (⟨S10000x1, .f32⟩ : BufTy).Contents (Elt F)),
    StableHlo.binary main_v443 main_v444 main_v445 (Host.divf : (⟨S10000x1, .f32⟩ : BufTy).Contents (Elt F) → (⟨S10000x1, .f32⟩ : BufTy).Contents (Elt F) → (⟨S10000x1, .f32⟩ : BufTy).Contents (Elt F)),
    StableHlo.nullary main_c_62 (constantI S_ 32 0#32),
    StableHlo.TRef.nullary main_call20.cst (constant S_ .f32 0x00000000#32),
    StableHlo.TRef.binary (.of main_v441 : StableHlo.TRef sig ⟨S10000x128, .f32⟩) main_call20.cst main_call20.v0 (fun x v => Host.reduceAdd x v reducesTo_S10000x128_S10000_d1 h_S_),
    StableHlo.TRef.unary main_call20.v0 main_call20.v1 (broadcastInDim S10000x1 ![0] bcast_S10000_S10000x1_0) ]
theorem k23_sub : (k23 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub ..,
    unary_bufs_sub .., binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., reshape_bufs_sub .., binary_bufs_sub ..,
    unary_bufs_sub .., reshape_bufs_sub .., unary_bufs_sub .., unary_bufs_sub .., binary_bufs_sub .., binary_bufs_sub .., nullary_bufs_sub ..,
    binary_bufs_sub .., unary_bufs_sub .., nullary_bufs_sub .., unary_bufs_sub .., binary_bufs_sub .., nullary_bufs_sub .., nullary_bufs_sub ..,
    binary_bufs_sub .., unary_bufs_sub ..⟩
theorem k23_fresh : (k23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩
/-- The references chunk `k23` writes. -/
abbrev k23_W : List (Ref sig .tc) :=
  [main_v423, main_v424, main_v425, main_v426, main_v427, main_v428, main_v429, main_v430, main_v431, main_call19.v0.ref, main_call19.v1.ref,
    main_call19.cst.ref, main_call19.v2.ref, main_call19.v3.ref, main_call19.cst_0.ref, main_call19.v4.ref, main_call19.v5.ref, main_call19.v6.ref,
    main_v433, main_v434, main_v435, main_v436, main_v437, main_v438, main_v439, main_v440, main_v441, main_cst_60, main_v442, main_v443, main_cst_61,
    main_v444, main_v445, main_c_62, main_call20.cst.ref, main_call20.v0.ref, main_call20.v1.ref]
set_option maxRecDepth 8192 in
theorem k23_writes : (k23 : List (HloOp τ sig (Elt F))).Forall fun op => op.writes ⊆ (k23_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 694 … 731 of the 758 (from %446:fn_var %cst_0 to %463). -/
abbrev k24 : List (HloOp τ sig (Elt F)) :=
  [ StableHlo.TRef.nullary main_call20.cst_0 (constant S_ .f32 0x43000000#32),
    StableHlo.TRef.unary main_call20.cst_0 main_call20.v2 (broadcastInDim S10000x1 ![] bcast_S_S10000x1),
    StableHlo.TRef.binary main_call20.v1 main_call20.v2 main_call20.v3 Host.divf,
    StableHlo.TRef.unary main_call20.v3 main_call20.v4 (broadcastInDim S10000x128 ![0, 1] bcast_S10000x1_S10000x128_0_1),
    StableHlo.TRef.binary (.of main_v441 : StableHlo.TRef sig ⟨S10000x128, .f32⟩) main_call20.v4 main_call20.v5 subf,
    StableHlo.TRef.binary main_call20.v5 main_call20.v5 main_call20.v6 mulf,
    StableHlo.TRef.unary (.of main_c_62 : StableHlo.TRef sig ⟨S_, .i32⟩) main_call20.v7 (sitofp .f32),
    StableHlo.TRef.nullary main_call20.cst_1 (constant S_ .f32 0x43000000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S10000x128_S10000_d1 h_S_),
    StableHlo.TRef.unary main_call20.v9 main_call20.v10 (broadcastInDim S10000x1 ![0] bcast_S10000_S10000x1_0),
    StableHlo.TRef.unary main_call20.v8 main_call20.v11 (broadcastInDim S10000x1 ![] bcast_S_S10000x1),
    StableHlo.TRef.binary main_call20.v10 main_call20.v11 main_call20.v12 Host.divf,
    StableHlo.TRef.nullary main_call20.cst_3 (constant S_ .f32 0x00000000#32),
    StableHlo.TRef.binary main_call20.v8 main_call20.cst_3 main_call20.v13 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S10000x1 ![] bcast_S_S10000x1),
    StableHlo.TRef.ternary main_call20.v13 main_call20.v12 main_call20.call0.v1 main_call20.call0.v2 (fun p a b => select (broadcastInDim S10000x1 ![] bcast_S_S10000x1 p) a b),
    StableHlo.unary main_v445 main_v447 (broadcastInDim S10000x128 ![0, 1] bcast_S10000x1_S10000x128_0_1 : (⟨S10000x1, .f32⟩ : BufTy).Contents (Elt F) → (⟨S10000x128, .f32⟩ : BufTy).Contents (Elt F)),
    StableHlo.binary main_v441 main_v447 main_v448 (subf : (⟨S10000x128, .f32⟩ : BufTy).Contents (Elt F) → (⟨S10000x128, .f32⟩ : BufTy).Contents (Elt F) → (⟨S10000x128, .f32⟩ : BufTy).Contents (Elt F)),
    StableHlo.nullary main_cst_63 (constant S_ .f32 0x3727C5AC#32),
    StableHlo.unary main_cst_63 main_v449 (broadcastInDim S10000x1 ![] bcast_S_S10000x1 : (⟨S_, .f32⟩ : BufTy).Contents (Elt F) → (⟨S10000x1, .f32⟩ : BufTy).Contents (Elt F)),
    StableHlo.binary main_v446 main_v449 main_v450 (addf : (⟨S10000x1, .f32⟩ : BufTy).Contents (Elt F) → (⟨S10000x1, .f32⟩ : BufTy).Contents (Elt F) → (⟨S10000x1, .f32⟩ : BufTy).Contents (Elt F)),
    StableHlo.unary main_v450 main_v451 (Host.sqrt : (⟨S10000x1, .f32⟩ : BufTy).Contents (Elt F) → (⟨S10000x1, .f32⟩ : BufTy).Contents (Elt F)),
    StableHlo.unary main_v451 main_v452 (broadcastInDim S10000x128 ![0, 1] bcast_S10000x1_S10000x128_0_1 : (⟨S10000x1, .f32⟩ : BufTy).Contents (Elt F) → (⟨S10000x128, .f32⟩ : BufTy).Contents (Elt F)),
    StableHlo.binary main_v448 main_v452 main_v453 (Host.divf : (⟨S10000x128, .f32⟩ : BufTy).Contents (Elt F) → (⟨S10000x128, .f32⟩ : BufTy).Contents (Elt F) → (⟨S10000x128, .f32⟩ : BufTy).Contents (Elt F)),
    StableHlo.unary main_arg16 main_v454 ((extractStridedSlice S1x128 ![3, 0] · slices_S4x128_S1x128_3_0) : (⟨S4x128, .f32⟩ : BufTy).Contents (Elt F) → (⟨S1x128, .f32⟩ : BufTy).Contents (Elt F)),
    StableHlo.reshape main_v454 main_v455 rfl shapeCasts_S1x128_S128,
    StableHlo.unary main_v455 main_v456 (broadcastInDim S1x128 ![1] bcast_S128_S1x128_1 : (⟨S128, .f32⟩ : BufTy).Contents (Elt F) → (⟨S1x128, .f32⟩ : BufTy).Contents (Elt F)),
    StableHlo.unary main_v456 main_v457 (broadcastInDim S10000x128 ![0, 1] bcast_S1x128_S10000x128_0_1 : (⟨S1x128, .f32⟩ : BufTy).Contents (Elt F) → (⟨S10000x128, .f32⟩ : BufTy).Contents (Elt F)),
    StableHlo.binary main_v453 main_v457 main_v458 (mulf : (⟨S10000x128, .f32⟩ : BufTy).Contents (Elt F) → (⟨S10000x128, .f32⟩ : BufTy).Contents (Elt F) → (⟨S10000x128, .f32⟩ : BufTy).Contents (Elt F)),
    StableHlo.unary main_arg17 main_v459 ((extractStridedSlice S1x128 ![3, 0] · slices_S4x128_S1x128_3_0) : (⟨S4x128, .f32⟩ : BufTy).Contents (Elt F) → (⟨S1x128, .f32⟩ : BufTy).Contents (Elt F)),
    StableHlo.reshape main_v459 main_v460 rfl shapeCasts_S1x128_S128,
    StableHlo.unary main_v460 main_v461 (broadcastInDim S1x128 ![1] bcast_S128_S1x128_1 : (⟨S128, .f32⟩ : BufTy).Contents (Elt F) → (⟨S1x128, .f32⟩ : BufTy).Contents (Elt F)),
    StableHlo.unary main_v461 main_v462 (broadcastInDim S10000x128 ![0, 1] bcast_S1x128_S10000x128_0_1 : (⟨S1x128, .f32⟩ : BufTy).Contents (Elt F) → (⟨S10000x128, .f32⟩ : BufTy).Contents (Elt F)),
    StableHlo.binary main_v458 main_v462 main_v463 (addf : (⟨S10000x128, .f32⟩ : BufTy).Contents (Elt F) → (⟨S10000x128, .f32⟩ : BufTy).Contents (Elt F) → (⟨S10000x128, .f32⟩ : BufTy).Contents (Elt F)) ]
theorem k24_sub : (k24 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub .., binary_bufs_sub ..,
    unary_bufs_sub .., reshape_bufs_sub .., unary_bufs_sub .., unary_bufs_sub .., binary_bufs_sub .., unary_bufs_sub .., reshape_bufs_sub ..,
    unary_bufs_sub .., unary_bufs_sub .., binary_bufs_sub ..⟩
theorem k24_fresh : (k24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩
/-- The references chunk `k24` writes. -/
abbrev k24_W : List (Ref sig .tc) :=
  [main_call20.cst_0.ref, main_call20.v2.ref, main_call20.v3.ref, main_call20.v4.ref, main_call20.v5.ref, main_call20.v6.ref, main_call20.v7.ref,
    main_call20.cst_1.ref, main_call20.v8.ref, main_call20.cst_2.ref, main_call20.v9.ref, main_call20.v10.ref, main_call20.v11.ref, main_call20.v12.ref,
    main_call20.cst_3.ref, main_call20.v13.ref, main_call20.cst_4.ref, main_call20.call0.v0.ref, main_call20.call0.v1.ref, main_call20.call0.v2.ref,
    main_v447, main_v448, main_cst_63, main_v449, main_v450, main_v451, main_v452, main_v453, main_v454, main_v455, main_v456, main_v457, main_v458,
    main_v459, main_v460, main_v461, main_v462, main_v463]
set_option maxRecDepth 8192 in
theorem k24_writes : (k24 : List (HloOp τ sig (Elt F))).Forall fun op => op.writes ⊆ (k24_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Operations 732 … 741 of the 758 (from %cst_64 to %470). -/
abbrev k25 : List (HloOp τ sig (Elt F)) :=
  [ StableHlo.nullary main_cst_64 (constant S_ .f32 0x00000000#32),
    StableHlo.unary main_cst_64 main_v464 (broadcastInDim S256x128 ![] bcast_S_S256x128 : (⟨S_, .f32⟩ : BufTy).Contents (Elt F) → (⟨S256x128, .f32⟩ : BufTy).Contents (Elt F)),
    StableHlo.unary main_arg3 main_v465 (broadcastInDim S10000x1 ![0] bcast_S10000_S10000x1_0 : (⟨S10000, .i32⟩ : BufTy).Contents (Elt F) → (⟨S10000x1, .i32⟩ : BufTy).Contents (Elt F)),
    StableHlo.ternary main_v464 main_v465 main_v463 main_v466 ((fun x i u => Host.scatterAdd scatter_S256x128_S10000x1_S10000x128_1_0_0_1 x i u) : (⟨S256x128, .f32⟩ : BufTy).Contents (Elt F) → (⟨S10000x1, .i32⟩ : BufTy).Contents (Elt F) → (⟨S10000x128, .f32⟩ : BufTy).Contents (Elt F) → (⟨S256x128, .f32⟩ : BufTy).Contents (Elt F)),
    StableHlo.nullary main_cst_65 (constant S_ .f32 0x3F800000#32),
    StableHlo.unary main_cst_65 main_v467 (broadcastInDim S10000x1 ![] bcast_S_S10000x1 : (⟨S_, .f32⟩ : BufTy).Contents (Elt F) → (⟨S10000x1, .f32⟩ : BufTy).Contents (Elt F)),
    StableHlo.nullary main_cst_66 (constant S_ .f32 0x00000000#32),
    StableHlo.unary main_cst_66 main_v468 (broadcastInDim S256x1 ![] bcast_S_S256x1 : (⟨S_, .f32⟩ : BufTy).Contents (Elt F) → (⟨S256x1, .f32⟩ : BufTy).Contents (Elt F)),
    StableHlo.unary main_arg3 main_v469 (broadcastInDim S10000x1 ![0] bcast_S10000_S10000x1_0 : (⟨S10000, .i32⟩ : BufTy).Contents (Elt F) → (⟨S10000x1, .i32⟩ : BufTy).Contents (Elt F)),
    StableHlo.ternary main_v468 main_v469 main_v467 main_v470 ((fun x i u => Host.scatterAdd scatter_S256x1_S10000x1_S10000x1_1_0_0_1 x i u) : (⟨S256x1, .f32⟩ : BufTy).Contents (Elt F) → (⟨S10000x1, .i32⟩ : BufTy).Contents (Elt F) → (⟨S10000x1, .f32⟩ : BufTy).Contents (Elt F) → (⟨S256x1, .f32⟩ : BufTy).Contents (Elt F)) ]
theorem k25_sub : (k25 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub ..,
    unary_bufs_sub .., unary_bufs_sub .., ternary_bufs_sub ..⟩
theorem k25_fresh : (k25 : List (HloOp τ sig (Elt F))).Forall fun op => op.fresh = ∅ :=
  ⟨rfl, rfl, rfl, rfl, rfl, rfl, rfl, rfl, rfl, rfl⟩
/-- The references chunk `k25` writes. -/
abbrev k25_W : List (Ref sig .tc) :=
  [main_cst_64, main_v464, main_v465, main_v466, main_cst_65, main_v467, main_cst_66, main_v468, main_v469, main_v470]
set_option maxRecDepth 8192 in
theorem k25_writes : (k25 : List (HloOp τ sig (Elt F))).Forall fun op => op.writes ⊆ (k25_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part8's operations. -/
def w8 : List (HloOp τ sig (Elt F)) := k22 ++ k23 ++ k24 ++ k25

set_option maxRecDepth 8192 in
set_option maxHeartbeats 4000000 in
/-- The window is that straight line: the called functions unfolded at their calls, sequencing reassociated. -/
theorem main_part8_eq (c : Dev nD) : main_part8 (F := F) c = seq w8 := by
  simp only [main_part8, fn_silu_0.body, fn_var.body, fn_where.body, bind_assoc, pure_bind]
  rfl

end Cert.ReferenceIdeal.RRun

end
-- ==== Proof.RRunW9.lean ====
import proofs.«156944_j45535243272652_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Operations 742 … 757 of the 758 (from %cst_67 to %483). -/
abbrev k26 : List (HloOp τ sig (Elt F)) :=
  [ StableHlo.nullary main_cst_67 (constant S_ .f32 0x3F800000#32),
    StableHlo.unary main_cst_67 main_v471 (broadcastInDim S256x1 ![] bcast_S_S256x1 : (⟨S_, .f32⟩ : BufTy).Contents (Elt F) → (⟨S256x1, .f32⟩ : BufTy).Contents (Elt F)),
    StableHlo.binary main_v470 main_v471 main_v472 (maximumf : (⟨S256x1, .f32⟩ : BufTy).Contents (Elt F) → (⟨S256x1, .f32⟩ : BufTy).Contents (Elt F) → (⟨S256x1, .f32⟩ : BufTy).Contents (Elt F)),
    StableHlo.unary main_v472 main_v473 (broadcastInDim S256x128 ![0, 1] bcast_S256x1_S256x128_0_1 : (⟨S256x1, .f32⟩ : BufTy).Contents (Elt F) → (⟨S256x128, .f32⟩ : BufTy).Contents (Elt F)),
    StableHlo.binary main_v466 main_v473 main_v474 (Host.divf : (⟨S256x128, .f32⟩ : BufTy).Contents (Elt F) → (⟨S256x128, .f32⟩ : BufTy).Contents (Elt F) → (⟨S256x128, .f32⟩ : BufTy).Contents (Elt F)),
    StableHlo.binary main_v474 main_arg18 main_v475 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg19 main_v476 (broadcastInDim S1x128 ![1] bcast_S128_S1x128_1 : (⟨S128, .f32⟩ : BufTy).Contents (Elt F) → (⟨S1x128, .f32⟩ : BufTy).Contents (Elt F)),
    StableHlo.unary main_v476 main_v477 (broadcastInDim S256x128 ![0, 1] bcast_S1x128_S256x128_0_1 : (⟨S1x128, .f32⟩ : BufTy).Contents (Elt F) → (⟨S256x128, .f32⟩ : BufTy).Contents (Elt F)),
    StableHlo.binary main_v475 main_v477 main_v478 (addf : (⟨S256x128, .f32⟩ : BufTy).Contents (Elt F) → (⟨S256x128, .f32⟩ : BufTy).Contents (Elt F) → (⟨S256x128, .f32⟩ : BufTy).Contents (Elt F)),
    StableHlo.TRef.nullary main_call21.cst (constant S_ .f32 0x00000000#32),
    StableHlo.TRef.unary main_call21.cst main_call21.v0 (broadcastInDim S256x128 ![] bcast_S_S256x128),
    StableHlo.TRef.binary (.of main_v478 : StableHlo.TRef sig ⟨S256x128, .f32⟩) main_call21.v0 main_call21.v1 maximumf,
    StableHlo.binary main_v479 main_arg20 main_v480 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    StableHlo.unary main_arg21 main_v481 (broadcastInDim S1x1 ![1] bcast_S1_S1x1_1 : (⟨S1, .f32⟩ : BufTy).Contents (Elt F) → (⟨S1x1, .f32⟩ : BufTy).Contents (Elt F)),
    StableHlo.unary main_v481 main_v482 (broadcastInDim S256x1 ![0, 1] bcast_S1x1_S256x1_0_1 : (⟨S1x1, .f32⟩ : BufTy).Contents (Elt F) → (⟨S256x1, .f32⟩ : BufTy).Contents (Elt F)),
    StableHlo.binary main_v480 main_v482 main_v483 (addf : (⟨S256x1, .f32⟩ : BufTy).Contents (Elt F) → (⟨S256x1, .f32⟩ : BufTy).Contents (Elt F) → (⟨S256x1, .f32⟩ : BufTy).Contents (Elt F)) ]
theorem k26_sub : (k26 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub ..,
    unary_bufs_sub .., binary_bufs_sub .., nullary_bufs_sub .., unary_bufs_sub .., binary_bufs_sub .., binary_bufs_sub .., unary_bufs_sub ..,
    unary_bufs_sub .., binary_bufs_sub ..⟩
theorem k26_fresh : (k26 : List (HloOp τ sig (Elt F))).Forall fun op => op.fresh = ∅ :=
  ⟨rfl, rfl, rfl, rfl, rfl, rfl, rfl, rfl, rfl, rfl, rfl, rfl, rfl, rfl, rfl, rfl⟩
/-- The references chunk `k26` writes. -/
abbrev k26_W : List (Ref sig .tc) :=
  [main_cst_67, main_v471, main_v472, main_v473, main_v474, main_v475, main_v476, main_v477, main_v478, main_call21.cst.ref, main_call21.v0.ref,
    main_call21.v1.ref, main_v480, main_v481, main_v482, main_v483]
set_option maxRecDepth 8192 in
theorem k26_writes : (k26 : List (HloOp τ sig (Elt F))).Forall fun op => op.writes ⊆ (k26_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- Window main_part9's operations. -/
def w9 : List (HloOp τ sig (Elt F)) := k26

set_option maxRecDepth 8192 in
set_option maxHeartbeats 4000000 in
/-- The window is that straight line: the called functions unfolded at their calls, sequencing reassociated. -/
theorem main_part9_eq (c : Dev nD) : main_part9 (F := F) c = seq w9 := by
  simp only [main_part9, fn_relu_1.body, bind_assoc, pure_bind]
  rfl

end Cert.ReferenceIdeal.RRun

end
-- ==== Proof.RRun.lean ====
/-
  The run of the reference program. Its @main is one straight line of 758 host operations (a called function's
  operations standing at its call, over the call's own buffers): the list `ops`, cut into the stages a value proof
  walks one after the other —

    opsP     the prefix: the node embedding h₀, the centred positions, the two rows of the edge index;
    opsLℓe   layer ℓ's edge part, ending with the segment sum of the gated messages (the layer's aggregate);
    opsLℓn   layer ℓ's node part, ending with the addition of the layer-norm bias (the layer's new node features);
    opsS     the suffix: the mean pool over graphs and the two output products.

  From any memory with zero counters every weakly fair execution of @main terminates with each TensorCore buffer at
  the fold `after ops` of its launch contents (`run`), and the fold leaves every argument as launched: no operation
  writes one (`after_ops_main_argK`).
-/
import proofs.«156944_j45535243272652_2_alg».proof.Proof.RRunW0
import proofs.«156944_j45535243272652_2_alg».proof.Proof.RRunW1
import proofs.«156944_j45535243272652_2_alg».proof.Proof.RRunW2
import proofs.«156944_j45535243272652_2_alg».proof.Proof.RRunW3
import proofs.«156944_j45535243272652_2_alg».proof.Proof.RRunW4
import proofs.«156944_j45535243272652_2_alg».proof.Proof.RRunW5
import proofs.«156944_j45535243272652_2_alg».proof.Proof.RRunW6
import proofs.«156944_j45535243272652_2_alg».proof.Proof.RRunW7
import proofs.«156944_j45535243272652_2_alg».proof.Proof.RRunW8
import proofs.«156944_j45535243272652_2_alg».proof.Proof.RRunW9
import Idealize.ShloMosaic.Lib.Pipeline.Frame

set_option Elab.async false

noncomputable section

namespace Cert.ReferenceIdeal.RRun

open Cert.ReferenceIdeal Idealize.ShloMosaic Idealize.ShloMosaic.TcCoe Idealize.SL.Sem Idealize.ShloMosaic.StableHlo

variable {F : FTy → Type} [FloatOps F] [Facts]

/-! ## The stages

Each stage is the concatenation of the chunks that make it up; the chunks' boundaries are the stages' boundaries and
the boundaries of @main's ten windows, so that the same chunks, grouped the other way, are the windows. -/

/-- The prefix, statements %0 … %27: h₀ = `main_v4`, the centred positions `main_v23`, the source row `main_v25`
    and the target row `main_v27` of the edge index. -/
abbrev opsP : List (HloOp τ sig (Elt F)) := k0
/-- Layer 0's edge part, up to its aggregate `main_v95`. -/
abbrev opsL0e : List (HloOp τ sig (Elt F)) := k1 ++ k2 ++ k3
/-- Layer 0's node part, up to its output `main_v136`. -/
abbrev opsL0n : List (HloOp τ sig (Elt F)) := k4 ++ k5 ++ k6
/-- Layer 1's edge part, up to its aggregate `main_v204`. -/
abbrev opsL1e : List (HloOp τ sig (Elt F)) := k7 ++ k8 ++ k9
/-- Layer 1's node part, up to its output `main_v245`. -/
abbrev opsL1n : List (HloOp τ sig (Elt F)) := k10 ++ k11 ++ k12
/-- Layer 2's edge part, up to its aggregate `main_v313`. -/
abbrev opsL2e : List (HloOp τ sig (Elt F)) := k13 ++ k14 ++ k15 ++ k16
/-- Layer 2's node part, up to its output `main_v354`. -/
abbrev opsL2n : List (HloOp τ sig (Elt F)) := k17 ++ k18
/-- Layer 3's edge part, up to its aggregate `main_v422`. -/
abbrev opsL3e : List (HloOp τ sig (Elt F)) := k19 ++ k20 ++ k21 ++ k22
/-- Layer 3's node part, up to its output `main_v463`. -/
abbrev opsL3n : List (HloOp τ sig (Elt F)) := k23 ++ k24
/-- The suffix, up to the result `main_v483`. -/
abbrev opsS : List (HloOp τ sig (Elt F)) := k25 ++ k26

/-- @main's 758 operations, in order. -/
abbrev ops : List (HloOp τ sig (Elt F)) :=
  opsP ++ opsL0e ++ opsL0n ++ opsL1e ++ opsL1n ++ opsL2e ++ opsL2n ++ opsL3e ++ opsL3n ++ opsS

/-- The fold over the whole line is the fold over the stages, one after the other. -/
theorem after_ops (V : Valuation τ sig (Elt F)) :
    after ops V = after opsS (after opsL3n (after opsL3e (after opsL2n (after opsL2e (after opsL1n (after opsL1e
      (after opsL0n (after opsL0e (after opsP V))))))))) := by
  simp only [ops, after_append]

/-! ## @main is that line -/

/-- The stages, regrouped, are @main's windows. -/
theorem ops_eq_windows :
    (ops : List (HloOp τ sig (Elt F))) = w0 ++ (w1 ++ (w2 ++ (w3 ++ (w4 ++ (w5 ++ (w6 ++ (w7 ++ (w8 ++ w9)))))))) := by
  simp only [ops, opsP, opsL0e, opsL0n, opsL1e, opsL1n, opsL2e, opsL2n, opsL3e, opsL3n, opsS,
    w0, w1, w2, w3, w4, w5, w6, w7, w8, w9, List.append_assoc]

/-- @main runs its windows in order, and each window is the line of its operations. -/
theorem main_eq (c : Dev nD) : main (F := F) c = seq ops := by
  rw [ops_eq_windows]
  simp only [seq_append, ← main_part0_eq c, ← main_part1_eq c, ← main_part2_eq c, ← main_part3_eq c, ← main_part4_eq c,
    ← main_part5_eq c, ← main_part6_eq c, ← main_part7_eq c, ← main_part8_eq c, ← main_part9_eq c]
  rfl

/-! ## The side conditions of the run -/

/-- A property of every operation of two lists holds of every operation of their concatenation. -/
theorem forall_app {α : Type} {p : α → Prop} {l₁ l₂ : List α} (h₁ : l₁.Forall p) (h₂ : l₂.Forall p) :
    (l₁ ++ l₂).Forall p :=
  List.forall_append.mpr ⟨h₁, h₂⟩

/-- Every operation touches TensorCore references only: stage by stage, from the chunks. -/
theorem opsP_sub : (opsP : List (HloOp τ sig (Elt F))).Forall fun op => op.bufs ⊆ tcRefs τ sig :=
  k0_sub
theorem opsL0e_sub : (opsL0e : List (HloOp τ sig (Elt F))).Forall fun op => op.bufs ⊆ tcRefs τ sig :=
  forall_app (forall_app (k1_sub) (k2_sub)) (k3_sub)
theorem opsL0n_sub : (opsL0n : List (HloOp τ sig (Elt F))).Forall fun op => op.bufs ⊆ tcRefs τ sig :=
  forall_app (forall_app (k4_sub) (k5_sub)) (k6_sub)
theorem opsL1e_sub : (opsL1e : List (HloOp τ sig (Elt F))).Forall fun op => op.bufs ⊆ tcRefs τ sig :=
  forall_app (forall_app (k7_sub) (k8_sub)) (k9_sub)
theorem opsL1n_sub : (opsL1n : List (HloOp τ sig (Elt F))).Forall fun op => op.bufs ⊆ tcRefs τ sig :=
  forall_app (forall_app (k10_sub) (k11_sub)) (k12_sub)
theorem opsL2e_sub : (opsL2e : List (HloOp τ sig (Elt F))).Forall fun op => op.bufs ⊆ tcRefs τ sig :=
  forall_app (forall_app (forall_app (k13_sub) (k14_sub)) (k15_sub)) (k16_sub)
theorem opsL2n_sub : (opsL2n : List (HloOp τ sig (Elt F))).Forall fun op => op.bufs ⊆ tcRefs τ sig :=
  forall_app (k17_sub) (k18_sub)
theorem opsL3e_sub : (opsL3e : List (HloOp τ sig (Elt F))).Forall fun op => op.bufs ⊆ tcRefs τ sig :=
  forall_app (forall_app (forall_app (k19_sub) (k20_sub)) (k21_sub)) (k22_sub)
theorem opsL3n_sub : (opsL3n : List (HloOp τ sig (Elt F))).Forall fun op => op.bufs ⊆ tcRefs τ sig :=
  forall_app (k23_sub) (k24_sub)
theorem opsS_sub : (opsS : List (HloOp τ sig (Elt F))).Forall fun op => op.bufs ⊆ tcRefs τ sig :=
  forall_app (k25_sub) (k26_sub)
theorem ops_sub : (ops : List (HloOp τ sig (Elt F))).Forall fun op => op.bufs ⊆ tcRefs τ sig :=
  forall_app (forall_app (forall_app (forall_app (forall_app (forall_app (forall_app (forall_app (forall_app (opsP_sub) (opsL0e_sub)) (opsL0n_sub)) (opsL1e_sub)) (opsL1n_sub)) (opsL2e_sub)) (opsL2n_sub)) (opsL3e_sub)) (opsL3n_sub)) (opsS_sub)

/-- No operation leaves its result open: stage by stage, from the chunks. -/
theorem opsP_fresh : (opsP : List (HloOp τ sig (Elt F))).Forall fun op => op.fresh = ∅ :=
  k0_fresh
theorem opsL0e_fresh : (opsL0e : List (HloOp τ sig (Elt F))).Forall fun op => op.fresh = ∅ :=
  forall_app (forall_app (k1_fresh) (k2_fresh)) (k3_fresh)
theorem opsL0n_fresh : (opsL0n : List (HloOp τ sig (Elt F))).Forall fun op => op.fresh = ∅ :=
  forall_app (forall_app (k4_fresh) (k5_fresh)) (k6_fresh)
theorem opsL1e_fresh : (opsL1e : List (HloOp τ sig (Elt F))).Forall fun op => op.fresh = ∅ :=
  forall_app (forall_app (k7_fresh) (k8_fresh)) (k9_fresh)
theorem opsL1n_fresh : (opsL1n : List (HloOp τ sig (Elt F))).Forall fun op => op.fresh = ∅ :=
  forall_app (forall_app (k10_fresh) (k11_fresh)) (k12_fresh)
theorem opsL2e_fresh : (opsL2e : List (HloOp τ sig (Elt F))).Forall fun op => op.fresh = ∅ :=
  forall_app (forall_app (forall_app (k13_fresh) (k14_fresh)) (k15_fresh)) (k16_fresh)
theorem opsL2n_fresh : (opsL2n : List (HloOp τ sig (Elt F))).Forall fun op => op.fresh = ∅ :=
  forall_app (k17_fresh) (k18_fresh)
theorem opsL3e_fresh : (opsL3e : List (HloOp τ sig (Elt F))).Forall fun op => op.fresh = ∅ :=
  forall_app (forall_app (forall_app (k19_fresh) (k20_fresh)) (k21_fresh)) (k22_fresh)
theorem opsL3n_fresh : (opsL3n : List (HloOp τ sig (Elt F))).Forall fun op => op.fresh = ∅ :=
  forall_app (k23_fresh) (k24_fresh)
theorem opsS_fresh : (opsS : List (HloOp τ sig (Elt F))).Forall fun op => op.fresh = ∅ :=
  forall_app (k25_fresh) (k26_fresh)
theorem ops_fresh : (ops : List (HloOp τ sig (Elt F))).Forall fun op => op.fresh = ∅ :=
  forall_app (forall_app (forall_app (forall_app (forall_app (forall_app (forall_app (forall_app (forall_app (opsP_fresh) (opsL0e_fresh)) (opsL0n_fresh)) (opsL1e_fresh)) (opsL1n_fresh)) (opsL2e_fresh)) (opsL2n_fresh)) (opsL3e_fresh)) (opsL3n_fresh)) (opsS_fresh)

/-- The signature scopes no TensorCore buffer: it has HBM buffers only. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-! ## The run -/

/-- On every device, for any float values, from any memory with zero counters: every weakly fair execution of @main
    terminates, and every final state has each TensorCore buffer at the fold of the operations over the device's
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The arguments are never written

Each chunk comes with the list of the references it writes; no argument is in any of the lists, so a chunk's fold
leaves an argument's buffer as it was, and so does the fold of a concatenation. -/

/-- @main's arguments. -/
abbrev argList : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21]

/-- The fold of a line leaves every argument's buffer as it was. -/
def Keeps (l : List (HloOp τ sig (Elt F))) : Prop :=
  ∀ r ∈ argList, ∀ V : Valuation τ sig (Elt F), after l V (Proc.devRef .tc r) = V (Proc.devRef .tc r)

/-- Every argument is among the first 22 references of its space (checked along the list). -/
theorem arg_idx_lt : ∀ r ∈ argList, r.idx.val < 22 := fun r hr =>
  of_decide_eq_true (List.all_eq_true.mp (by decide : (argList.all fun r => decide (r.idx.val < 22)) = true) r hr)

/-- A line all of whose writes are among `W` keeps the arguments when every reference of `W` comes after the
    first 22 of its space (checked along the list): an argument, being among the first 22, is then not in `W`. -/
theorem keeps_of {l : List (HloOp τ sig (Elt F))} {W : List (Ref sig .tc)}
    (hW : l.Forall fun op => op.writes ⊆ (W.map (Proc.devRef (τ := τ) .tc)).toFinset)
    (hA : (W.all fun w => decide (22 ≤ w.idx.val)) = true) : Keeps l :=
  fun r hr V => after_of_writes_sub l V hW fun h =>
    absurd (of_decide_eq_true (List.all_eq_true.mp hA r h)) (Nat.not_le.mpr (arg_idx_lt r hr))

/-- Two lines that keep the arguments keep them run one after the other. -/
theorem keeps_app {l₁ l₂ : List (HloOp τ sig (Elt F))} (h₁ : Keeps l₁) (h₂ : Keeps l₂) : Keeps (l₁ ++ l₂) :=
  fun r hr V => by rw [after_append, h₂ r hr, h₁ r hr]

theorem k0_keeps : Keeps (k0 : List (HloOp τ sig (Elt F))) := keeps_of k0_writes (by decide)
theorem k1_keeps : Keeps (k1 : List (HloOp τ sig (Elt F))) := keeps_of k1_writes (by decide)
theorem k2_keeps : Keeps (k2 : List (HloOp τ sig (Elt F))) := keeps_of k2_writes (by decide)
theorem k3_keeps : Keeps (k3 : List (HloOp τ sig (Elt F))) := keeps_of k3_writes (by decide)
theorem k4_keeps : Keeps (k4 : List (HloOp τ sig (Elt F))) := keeps_of k4_writes (by decide)
theorem k5_keeps : Keeps (k5 : List (HloOp τ sig (Elt F))) := keeps_of k5_writes (by decide)
theorem k6_keeps : Keeps (k6 : List (HloOp τ sig (Elt F))) := keeps_of k6_writes (by decide)
theorem k7_keeps : Keeps (k7 : List (HloOp τ sig (Elt F))) := keeps_of k7_writes (by decide)
theorem k8_keeps : Keeps (k8 : List (HloOp τ sig (Elt F))) := keeps_of k8_writes (by decide)
theorem k9_keeps : Keeps (k9 : List (HloOp τ sig (Elt F))) := keeps_of k9_writes (by decide)
theorem k10_keeps : Keeps (k10 : List (HloOp τ sig (Elt F))) := keeps_of k10_writes (by decide)
theorem k11_keeps : Keeps (k11 : List (HloOp τ sig (Elt F))) := keeps_of k11_writes (by decide)
theorem k12_keeps : Keeps (k12 : List (HloOp τ sig (Elt F))) := keeps_of k12_writes (by decide)
theorem k13_keeps : Keeps (k13 : List (HloOp τ sig (Elt F))) := keeps_of k13_writes (by decide)
theorem k14_keeps : Keeps (k14 : List (HloOp τ sig (Elt F))) := keeps_of k14_writes (by decide)
theorem k15_keeps : Keeps (k15 : List (HloOp τ sig (Elt F))) := keeps_of k15_writes (by decide)
theorem k16_keeps : Keeps (k16 : List (HloOp τ sig (Elt F))) := keeps_of k16_writes (by decide)
theorem k17_keeps : Keeps (k17 : List (HloOp τ sig (Elt F))) := keeps_of k17_writes (by decide)
theorem k18_keeps : Keeps (k18 : List (HloOp τ sig (Elt F))) := keeps_of k18_writes (by decide)
theorem k19_keeps : Keeps (k19 : List (HloOp τ sig (Elt F))) := keeps_of k19_writes (by decide)
theorem k20_keeps : Keeps (k20 : List (HloOp τ sig (Elt F))) := keeps_of k20_writes (by decide)
theorem k21_keeps : Keeps (k21 : List (HloOp τ sig (Elt F))) := keeps_of k21_writes (by decide)
theorem k22_keeps : Keeps (k22 : List (HloOp τ sig (Elt F))) := keeps_of k22_writes (by decide)
theorem k23_keeps : Keeps (k23 : List (HloOp τ sig (Elt F))) := keeps_of k23_writes (by decide)
theorem k24_keeps : Keeps (k24 : List (HloOp τ sig (Elt F))) := keeps_of k24_writes (by decide)
theorem k25_keeps : Keeps (k25 : List (HloOp τ sig (Elt F))) := keeps_of k25_writes (by decide)
theorem k26_keeps : Keeps (k26 : List (HloOp τ sig (Elt F))) := keeps_of k26_writes (by decide)

theorem opsP_keeps : Keeps (opsP : List (HloOp τ sig (Elt F))) :=
  k0_keeps
theorem opsL0e_keeps : Keeps (opsL0e : List (HloOp τ sig (Elt F))) :=
  keeps_app (keeps_app (k1_keeps) (k2_keeps)) (k3_keeps)
theorem opsL0n_keeps : Keeps (opsL0n : List (HloOp τ sig (Elt F))) :=
  keeps_app (keeps_app (k4_keeps) (k5_keeps)) (k6_keeps)
theorem opsL1e_keeps : Keeps (opsL1e : List (HloOp τ sig (Elt F))) :=
  keeps_app (keeps_app (k7_keeps) (k8_keeps)) (k9_keeps)
theorem opsL1n_keeps : Keeps (opsL1n : List (HloOp τ sig (Elt F))) :=
  keeps_app (keeps_app (k10_keeps) (k11_keeps)) (k12_keeps)
theorem opsL2e_keeps : Keeps (opsL2e : List (HloOp τ sig (Elt F))) :=
  keeps_app (keeps_app (keeps_app (k13_keeps) (k14_keeps)) (k15_keeps)) (k16_keeps)
theorem opsL2n_keeps : Keeps (opsL2n : List (HloOp τ sig (Elt F))) :=
  keeps_app (k17_keeps) (k18_keeps)
theorem opsL3e_keeps : Keeps (opsL3e : List (HloOp τ sig (Elt F))) :=
  keeps_app (keeps_app (keeps_app (k19_keeps) (k20_keeps)) (k21_keeps)) (k22_keeps)
theorem opsL3n_keeps : Keeps (opsL3n : List (HloOp τ sig (Elt F))) :=
  keeps_app (k23_keeps) (k24_keeps)
theorem opsS_keeps : Keeps (opsS : List (HloOp τ sig (Elt F))) :=
  keeps_app (k25_keeps) (k26_keeps)
theorem ops_keeps : Keeps (ops : List (HloOp τ sig (Elt F))) :=
  keeps_app (keeps_app (keeps_app (keeps_app (keeps_app (keeps_app (keeps_app (keeps_app (keeps_app (opsP_keeps) (opsL0e_keeps)) (opsL0n_keeps)) (opsL1e_keeps)) (opsL1n_keeps)) (opsL2e_keeps)) (opsL2n_keeps)) (opsL3e_keeps)) (opsL3n_keeps)) (opsS_keeps)

/-! The same, argument by argument. -/

theorem after_ops_main_arg0 (V : Valuation τ sig (Elt F)) :
    after ops V (Proc.devRef .tc main_arg0) = V (Proc.devRef .tc main_arg0) := ops_keeps main_arg0 (by decide) V
theorem after_ops_main_arg1 (V : Valuation τ sig (Elt F)) :
    after ops V (Proc.devRef .tc main_arg1) = V (Proc.devRef .tc main_arg1) := ops_keeps main_arg1 (by decide) V
theorem after_ops_main_arg2 (V : Valuation τ sig (Elt F)) :
    after ops V (Proc.devRef .tc main_arg2) = V (Proc.devRef .tc main_arg2) := ops_keeps main_arg2 (by decide) V
theorem after_ops_main_arg3 (V : Valuation τ sig (Elt F)) :
    after ops V (Proc.devRef .tc main_arg3) = V (Proc.devRef .tc main_arg3) := ops_keeps main_arg3 (by decide) V
theorem after_ops_main_arg4 (V : Valuation τ sig (Elt F)) :
    after ops V (Proc.devRef .tc main_arg4) = V (Proc.devRef .tc main_arg4) := ops_keeps main_arg4 (by decide) V
theorem after_ops_main_arg5 (V : Valuation τ sig (Elt F)) :
    after ops V (Proc.devRef .tc main_arg5) = V (Proc.devRef .tc main_arg5) := ops_keeps main_arg5 (by decide) V
theorem after_ops_main_arg6 (V : Valuation τ sig (Elt F)) :
    after ops V (Proc.devRef .tc main_arg6) = V (Proc.devRef .tc main_arg6) := ops_keeps main_arg6 (by decide) V
theorem after_ops_main_arg7 (V : Valuation τ sig (Elt F)) :
    after ops V (Proc.devRef .tc main_arg7) = V (Proc.devRef .tc main_arg7) := ops_keeps main_arg7 (by decide) V
theorem after_ops_main_arg8 (V : Valuation τ sig (Elt F)) :
    after ops V (Proc.devRef .tc main_arg8) = V (Proc.devRef .tc main_arg8) := ops_keeps main_arg8 (by decide) V
theorem after_ops_main_arg9 (V : Valuation τ sig (Elt F)) :
    after ops V (Proc.devRef .tc main_arg9) = V (Proc.devRef .tc main_arg9) := ops_keeps main_arg9 (by decide) V
theorem after_ops_main_arg10 (V : Valuation τ sig (Elt F)) :
    after ops V (Proc.devRef .tc main_arg10) = V (Proc.devRef .tc main_arg10) := ops_keeps main_arg10 (by decide) V
theorem after_ops_main_arg11 (V : Valuation τ sig (Elt F)) :
    after ops V (Proc.devRef .tc main_arg11) = V (Proc.devRef .tc main_arg11) := ops_keeps main_arg11 (by decide) V
theorem after_ops_main_arg12 (V : Valuation τ sig (Elt F)) :
    after ops V (Proc.devRef .tc main_arg12) = V (Proc.devRef .tc main_arg12) := ops_keeps main_arg12 (by decide) V
theorem after_ops_main_arg13 (V : Valuation τ sig (Elt F)) :
    after ops V (Proc.devRef .tc main_arg13) = V (Proc.devRef .tc main_arg13) := ops_keeps main_arg13 (by decide) V
theorem after_ops_main_arg14 (V : Valuation τ sig (Elt F)) :
    after ops V (Proc.devRef .tc main_arg14) = V (Proc.devRef .tc main_arg14) := ops_keeps main_arg14 (by decide) V
theorem after_ops_main_arg15 (V : Valuation τ sig (Elt F)) :
    after ops V (Proc.devRef .tc main_arg15) = V (Proc.devRef .tc main_arg15) := ops_keeps main_arg15 (by decide) V
theorem after_ops_main_arg16 (V : Valuation τ sig (Elt F)) :
    after ops V (Proc.devRef .tc main_arg16) = V (Proc.devRef .tc main_arg16) := ops_keeps main_arg16 (by decide) V
theorem after_ops_main_arg17 (V : Valuation τ sig (Elt F)) :
    after ops V (Proc.devRef .tc main_arg17) = V (Proc.devRef .tc main_arg17) := ops_keeps main_arg17 (by decide) V
theorem after_ops_main_arg18 (V : Valuation τ sig (Elt F)) :
    after ops V (Proc.devRef .tc main_arg18) = V (Proc.devRef .tc main_arg18) := ops_keeps main_arg18 (by decide) V
theorem after_ops_main_arg19 (V : Valuation τ sig (Elt F)) :
    after ops V (Proc.devRef .tc main_arg19) = V (Proc.devRef .tc main_arg19) := ops_keeps main_arg19 (by decide) V
theorem after_ops_main_arg20 (V : Valuation τ sig (Elt F)) :
    after ops V (Proc.devRef .tc main_arg20) = V (Proc.devRef .tc main_arg20) := ops_keeps main_arg20 (by decide) V
theorem after_ops_main_arg21 (V : Valuation τ sig (Elt F)) :
    after ops V (Proc.devRef .tc main_arg21) = V (Proc.devRef .tc main_arg21) := ops_keeps main_arg21 (by decide) V

end Cert.ReferenceIdeal.RRun

end
-- ==== Proof.KStageWr.lean ====
/-
  What each stretch of host operations of the kernel program writes, and what therefore survives it.

  Every host operation writes exactly one buffer, its result. For each stretch the results are listed; a buffer
  outside the list holds after the stretch what it held before.
-/
import proofs.«156944_j45535243272652_2_alg».proof.Proof.Gen.KernelIdeal.Launch
import Idealize.ShloMosaic.Lib.StableHlo.Run

set_option maxRecDepth 16384

noncomputable section

namespace Cert.KernelIdeal.KStage

open Cert.KernelIdeal Cert.KernelIdeal.Gen
open Idealize.ShloMosaic Idealize.ShloMosaic.TcCoe

variable {F : FTy → Type} [FloatOps F]

/-! ## The results of each stretch -/

/-- One operation's only written buffer, its result, is in the stretch's list. -/
local macro "result_listed" : tactic =>
  `(tactic| (simp only [StableHlo.nullary_writes, StableHlo.unary_writes, StableHlo.binary_writes, StableHlo.ternary_writes, StableHlo.quaternary_writes, StableHlo.reshape_writes, Finset.singleton_subset_iff, List.mem_toFinset]; exact List.mem_map_of_mem (by decide)))

/-- The buffers the operations of `hostOps0` write. -/
abbrev wr0 : List (Ref sig .tc) :=
  [main_v0, main_v1, main_v2, main_v3]
theorem wr0_sub : (hostOps0 : List (HloOp τ sig (Elt F))).Forall fun op => op.writes ⊆ (wr0.map (Proc.devRef (τ := τ) .tc)).toFinset := by
  simp only [List.Forall]
  repeat' apply And.intro
  all_goals result_listed
/-- A buffer outside that list is unchanged by the stretch. -/
theorem keep0 (V : Valuation τ sig (Elt F)) (r : Ref sig .tc) (h : r ∉ wr0) :
    StableHlo.after hostOps0 V (Proc.devRef .tc r) = V (Proc.devRef .tc r) :=
  StableHlo.after_of_writes_sub hostOps0 V wr0_sub h

/-- The buffers the operations of `hostOps0_1` write. -/
abbrev wr0_1 : List (Ref sig .tc) :=
  [main_call0_cst, main_call0_v0, main_v4]
theorem wr0_1_sub : (hostOps0_1 : List (HloOp τ sig (Elt F))).Forall fun op => op.writes ⊆ (wr0_1.map (Proc.devRef (τ := τ) .tc)).toFinset := by
  simp only [List.Forall]
  repeat' apply And.intro
  all_goals result_listed
/-- A buffer outside that list is unchanged by the stretch. -/
theorem keep0_1 (V : Valuation τ sig (Elt F)) (r : Ref sig .tc) (h : r ∉ wr0_1) :
    StableHlo.after hostOps0_1 V (Proc.devRef .tc r) = V (Proc.devRef .tc r) :=
  StableHlo.after_of_writes_sub hostOps0_1 V wr0_1_sub h

/-- The buffers the operations of `hostOps0_2` write. -/
abbrev wr0_2 : List (Ref sig .tc) :=
  [main_cst, main_v5, main_v6, main_v7, main_cst_0, main_v8, main_cst_1, main_v9, main_v10, main_v11,
   main_cst_2, main_v12, main_v13, main_v14, main_v15, main_c, main_v16, main_v17, main_c_3, main_v18,
   main_v19, main_v20, main_v21, main_v22, main_v23, main_v24, main_v25, main_v26, main_v27, main_v28,
   main_c_4, main_v29, main_v30, main_c_5, main_v31, main_v32, main_v33, main_v34, main_v35, main_c_6,
   main_v36, main_v37, main_c_7, main_v38, main_v39, main_v40, main_v41, main_v42, main_c_8, main_v43,
   main_v44, main_c_9, main_v45, main_v46, main_v47, main_v48, main_v49, main_c_10, main_v50, main_v51,
   main_c_11, main_v52, main_v53, main_v54, main_v55, main_v56, main_v57]
theorem wr0_2_sub : (hostOps0_2 : List (HloOp τ sig (Elt F))).Forall fun op => op.writes ⊆ (wr0_2.map (Proc.devRef (τ := τ) .tc)).toFinset := by
  simp only [List.Forall]
  repeat' apply And.intro
  all_goals result_listed
/-- A buffer outside that list is unchanged by the stretch. -/
theorem keep0_2 (V : Valuation τ sig (Elt F)) (r : Ref sig .tc) (h : r ∉ wr0_2) :
    StableHlo.after hostOps0_2 V (Proc.devRef .tc r) = V (Proc.devRef .tc r) :=
  StableHlo.after_of_writes_sub hostOps0_2 V wr0_2_sub h

/-- The buffers the operations of `hostOps0_3` write. -/
abbrev wr0_3 : List (Ref sig .tc) :=
  [main_call1_v0, main_call1_cst, main_call1_v1, main_call1_v2, main_v58]
theorem wr0_3_sub : (hostOps0_3 : List (HloOp τ sig (Elt F))).Forall fun op => op.writes ⊆ (wr0_3.map (Proc.devRef (τ := τ) .tc)).toFinset := by
  simp only [List.Forall]
  repeat' apply And.intro
  all_goals result_listed
/-- A buffer outside that list is unchanged by the stretch. -/
theorem keep0_3 (V : Valuation τ sig (Elt F)) (r : Ref sig .tc) (h : r ∉ wr0_3) :
    StableHlo.after hostOps0_3 V (Proc.devRef .tc r) = V (Proc.devRef .tc r) :=
  StableHlo.after_of_writes_sub hostOps0_3 V wr0_3_sub h

/-- The buffers the operations of `hostOps0_4` write. -/
abbrev wr0_4 : List (Ref sig .tc) :=
  [main_v59, main_v60, main_v61, main_v62, main_v63, main_v64, main_v65, main_v66, main_v67, main_v68,
   main_v69, main_v70, main_v71, main_v72, main_v73, main_v74, main_v75, main_v76, main_v77]
theorem wr0_4_sub : (hostOps0_4 : List (HloOp τ sig (Elt F))).Forall fun op => op.writes ⊆ (wr0_4.map (Proc.devRef (τ := τ) .tc)).toFinset := by
  simp only [List.Forall]
  repeat' apply And.intro
  all_goals result_listed
/-- A buffer outside that list is unchanged by the stretch. -/
theorem keep0_4 (V : Valuation τ sig (Elt F)) (r : Ref sig .tc) (h : r ∉ wr0_4) :
    StableHlo.after hostOps0_4 V (Proc.devRef .tc r) = V (Proc.devRef .tc r) :=
  StableHlo.after_of_writes_sub hostOps0_4 V wr0_4_sub h

/-- The buffers the operations of `hostOps1` write. -/
abbrev wr1 : List (Ref sig .tc) :=
  [main_v79, main_cst_12, main_v80, main_v81, main_v82, main_v83, main_v84, main_v85, main_v86, main_v87,
   main_v88, main_v89, main_v90, main_v91, main_v92, main_v93, main_v94, main_v95, main_v96, main_v97,
   main_v98, main_v99, main_v100]
theorem wr1_sub : (hostOps1 : List (HloOp τ sig (Elt F))).Forall fun op => op.writes ⊆ (wr1.map (Proc.devRef (τ := τ) .tc)).toFinset := by
  simp only [List.Forall]
  repeat' apply And.intro
  all_goals result_listed
/-- A buffer outside that list is unchanged by the stretch. -/
theorem keep1 (V : Valuation τ sig (Elt F)) (r : Ref sig .tc) (h : r ∉ wr1) :
    StableHlo.after hostOps1 V (Proc.devRef .tc r) = V (Proc.devRef .tc r) :=
  StableHlo.after_of_writes_sub hostOps1 V wr1_sub h

/-- The buffers the operations of `hostOps2` write. -/
abbrev wr2 : List (Ref sig .tc) :=
  [main_v102, main_c_13, main_v103, main_v104, main_c_14, main_v105, main_v106, main_v107, main_v108,
   main_v109, main_c_15, main_v110, main_v111, main_c_16, main_v112, main_v113, main_v114, main_v115,
   main_v116, main_c_17, main_v117, main_v118, main_c_18, main_v119, main_v120, main_v121, main_v122,
   main_v123, main_c_19, main_v124, main_v125, main_c_20, main_v126, main_v127, main_v128, main_v129,
   main_v130, main_v131]
theorem wr2_sub : (hostOps2 : List (HloOp τ sig (Elt F))).Forall fun op => op.writes ⊆ (wr2.map (Proc.devRef (τ := τ) .tc)).toFinset := by
  simp only [List.Forall]
  repeat' apply And.intro
  all_goals result_listed
/-- A buffer outside that list is unchanged by the stretch. -/
theorem keep2 (V : Valuation τ sig (Elt F)) (r : Ref sig .tc) (h : r ∉ wr2) :
    StableHlo.after hostOps2 V (Proc.devRef .tc r) = V (Proc.devRef .tc r) :=
  StableHlo.after_of_writes_sub hostOps2 V wr2_sub h

/-- The buffers the operations of `hostOps2_1` write. -/
abbrev wr2_1 : List (Ref sig .tc) :=
  [main_call2_v0, main_call2_cst, main_call2_v1, main_call2_v2, main_v132]
theorem wr2_1_sub : (hostOps2_1 : List (HloOp τ sig (Elt F))).Forall fun op => op.writes ⊆ (wr2_1.map (Proc.devRef (τ := τ) .tc)).toFinset := by
  simp only [List.Forall]
  repeat' apply And.intro
  all_goals result_listed
/-- A buffer outside that list is unchanged by the stretch. -/
theorem keep2_1 (V : Valuation τ sig (Elt F)) (r : Ref sig .tc) (h : r ∉ wr2_1) :
    StableHlo.after hostOps2_1 V (Proc.devRef .tc r) = V (Proc.devRef .tc r) :=
  StableHlo.after_of_writes_sub hostOps2_1 V wr2_1_sub h

/-- The buffers the operations of `hostOps2_2` write. -/
abbrev wr2_2 : List (Ref sig .tc) :=
  [main_v133, main_v134, main_v135, main_v136, main_v137, main_v138, main_v139, main_v140, main_v141,
   main_v142, main_v143, main_v144, main_v145, main_v146, main_v147, main_v148, main_v149, main_v150,
   main_v151]
theorem wr2_2_sub : (hostOps2_2 : List (HloOp τ sig (Elt F))).Forall fun op => op.writes ⊆ (wr2_2.map (Proc.devRef (τ := τ) .tc)).toFinset := by
  simp only [List.Forall]
  repeat' apply And.intro
  all_goals result_listed
/-- A buffer outside that list is unchanged by the stretch. -/
theorem keep2_2 (V : Valuation τ sig (Elt F)) (r : Ref sig .tc) (h : r ∉ wr2_2) :
    StableHlo.after hostOps2_2 V (Proc.devRef .tc r) = V (Proc.devRef .tc r) :=
  StableHlo.after_of_writes_sub hostOps2_2 V wr2_2_sub h

/-- The buffers the operations of `hostOps3` write. -/
abbrev wr3 : List (Ref sig .tc) :=
  [main_v153, main_cst_21, main_v154, main_v155, main_v156, main_v157, main_v158, main_v159, main_v160,
   main_v161, main_v162, main_v163, main_v164, main_v165, main_v166, main_v167, main_v168, main_v169,
   main_v170, main_v171, main_v172, main_v173, main_v174]
theorem wr3_sub : (hostOps3 : List (HloOp τ sig (Elt F))).Forall fun op => op.writes ⊆ (wr3.map (Proc.devRef (τ := τ) .tc)).toFinset := by
  simp only [List.Forall]
  repeat' apply And.intro
  all_goals result_listed
/-- A buffer outside that list is unchanged by the stretch. -/
theorem keep3 (V : Valuation τ sig (Elt F)) (r : Ref sig .tc) (h : r ∉ wr3) :
    StableHlo.after hostOps3 V (Proc.devRef .tc r) = V (Proc.devRef .tc r) :=
  StableHlo.after_of_writes_sub hostOps3 V wr3_sub h

/-- The buffers the operations of `hostOps4` write. -/
abbrev wr4 : List (Ref sig .tc) :=
  [main_v176, main_c_22, main_v177, main_v178, main_c_23, main_v179, main_v180, main_v181, main_v182,
   main_v183, main_c_24, main_v184, main_v185, main_c_25, main_v186, main_v187, main_v188, main_v189,
   main_v190, main_c_26, main_v191, main_v192, main_c_27, main_v193, main_v194, main_v195, main_v196,
   main_v197, main_c_28, main_v198, main_v199, main_c_29, main_v200, main_v201, main_v202, main_v203,
   main_v204, main_v205]
theorem wr4_sub : (hostOps4 : List (HloOp τ sig (Elt F))).Forall fun op => op.writes ⊆ (wr4.map (Proc.devRef (τ := τ) .tc)).toFinset := by
  simp only [List.Forall]
  repeat' apply And.intro
  all_goals result_listed
/-- A buffer outside that list is unchanged by the stretch. -/
theorem keep4 (V : Valuation τ sig (Elt F)) (r : Ref sig .tc) (h : r ∉ wr4) :
    StableHlo.after hostOps4 V (Proc.devRef .tc r) = V (Proc.devRef .tc r) :=
  StableHlo.after_of_writes_sub hostOps4 V wr4_sub h

/-- The buffers the operations of `hostOps4_1` write. -/
abbrev wr4_1 : List (Ref sig .tc) :=
  [main_call3_v0, main_call3_cst, main_call3_v1, main_call3_v2, main_v206]
theorem wr4_1_sub : (hostOps4_1 : List (HloOp τ sig (Elt F))).Forall fun op => op.writes ⊆ (wr4_1.map (Proc.devRef (τ := τ) .tc)).toFinset := by
  simp only [List.Forall]
  repeat' apply And.intro
  all_goals result_listed
/-- A buffer outside that list is unchanged by the stretch. -/
theorem keep4_1 (V : Valuation τ sig (Elt F)) (r : Ref sig .tc) (h : r ∉ wr4_1) :
    StableHlo.after hostOps4_1 V (Proc.devRef .tc r) = V (Proc.devRef .tc r) :=
  StableHlo.after_of_writes_sub hostOps4_1 V wr4_1_sub h

/-- The buffers the operations of `hostOps4_2` write. -/
abbrev wr4_2 : List (Ref sig .tc) :=
  [main_v207, main_v208, main_v209, main_v210, main_v211, main_v212, main_v213, main_v214, main_v215,
   main_v216, main_v217, main_v218, main_v219, main_v220, main_v221, main_v222, main_v223, main_v224,
   main_v225]
theorem wr4_2_sub : (hostOps4_2 : List (HloOp τ sig (Elt F))).Forall fun op => op.writes ⊆ (wr4_2.map (Proc.devRef (τ := τ) .tc)).toFinset := by
  simp only [List.Forall]
  repeat' apply And.intro
  all_goals result_listed
/-- A buffer outside that list is unchanged by the stretch. -/
theorem keep4_2 (V : Valuation τ sig (Elt F)) (r : Ref sig .tc) (h : r ∉ wr4_2) :
    StableHlo.after hostOps4_2 V (Proc.devRef .tc r) = V (Proc.devRef .tc r) :=
  StableHlo.after_of_writes_sub hostOps4_2 V wr4_2_sub h

/-- The buffers the operations of `hostOps5` write. -/
abbrev wr5 : List (Ref sig .tc) :=
  [main_v227, main_cst_30, main_v228, main_v229, main_v230, main_v231, main_v232, main_v233, main_v234,
   main_v235, main_v236, main_v237, main_v238, main_v239, main_v240, main_v241, main_v242, main_v243,
   main_v244, main_v245, main_v246, main_v247, main_v248]
theorem wr5_sub : (hostOps5 : List (HloOp τ sig (Elt F))).Forall fun op => op.writes ⊆ (wr5.map (Proc.devRef (τ := τ) .tc)).toFinset := by
  simp only [List.Forall]
  repeat' apply And.intro
  all_goals result_listed
/-- A buffer outside that list is unchanged by the stretch. -/
theorem keep5 (V : Valuation τ sig (Elt F)) (r : Ref sig .tc) (h : r ∉ wr5) :
    StableHlo.after hostOps5 V (Proc.devRef .tc r) = V (Proc.devRef .tc r) :=
  StableHlo.after_of_writes_sub hostOps5 V wr5_sub h

/-- The buffers the operations of `hostOps6` write. -/
abbrev wr6 : List (Ref sig .tc) :=
  [main_v250, main_c_31, main_v251, main_v252, main_c_32, main_v253, main_v254, main_v255, main_v256,
   main_v257, main_c_33, main_v258, main_v259, main_c_34, main_v260, main_v261, main_v262, main_v263,
   main_v264, main_c_35, main_v265, main_v266, main_c_36, main_v267, main_v268, main_v269, main_v270,
   main_v271, main_c_37, main_v272, main_v273, main_c_38, main_v274, main_v275, main_v276, main_v277,
   main_v278, main_v279]
theorem wr6_sub : (hostOps6 : List (HloOp τ sig (Elt F))).Forall fun op => op.writes ⊆ (wr6.map (Proc.devRef (τ := τ) .tc)).toFinset := by
  simp only [List.Forall]
  repeat' apply And.intro
  all_goals result_listed
/-- A buffer outside that list is unchanged by the stretch. -/
theorem keep6 (V : Valuation τ sig (Elt F)) (r : Ref sig .tc) (h : r ∉ wr6) :
    StableHlo.after hostOps6 V (Proc.devRef .tc r) = V (Proc.devRef .tc r) :=
  StableHlo.after_of_writes_sub hostOps6 V wr6_sub h

/-- The buffers the operations of `hostOps6_1` write. -/
abbrev wr6_1 : List (Ref sig .tc) :=
  [main_call4_v0, main_call4_cst, main_call4_v1, main_call4_v2, main_v280]
theorem wr6_1_sub : (hostOps6_1 : List (HloOp τ sig (Elt F))).Forall fun op => op.writes ⊆ (wr6_1.map (Proc.devRef (τ := τ) .tc)).toFinset := by
  simp only [List.Forall]
  repeat' apply And.intro
  all_goals result_listed
/-- A buffer outside that list is unchanged by the stretch. -/
theorem keep6_1 (V : Valuation τ sig (Elt F)) (r : Ref sig .tc) (h : r ∉ wr6_1) :
    StableHlo.after hostOps6_1 V (Proc.devRef .tc r) = V (Proc.devRef .tc r) :=
  StableHlo.after_of_writes_sub hostOps6_1 V wr6_1_sub h

/-- The buffers the operations of `hostOps6_2` write. -/
abbrev wr6_2 : List (Ref sig .tc) :=
  [main_v281, main_v282, main_v283, main_v284, main_v285, main_v286, main_v287, main_v288, main_v289,
   main_v290, main_v291, main_v292, main_v293, main_v294, main_v295, main_v296, main_v297, main_v298,
   main_v299]
theorem wr6_2_sub : (hostOps6_2 : List (HloOp τ sig (Elt F))).Forall fun op => op.writes ⊆ (wr6_2.map (Proc.devRef (τ := τ) .tc)).toFinset := by
  simp only [List.Forall]
  repeat' apply And.intro
  all_goals result_listed
/-- A buffer outside that list is unchanged by the stretch. -/
theorem keep6_2 (V : Valuation τ sig (Elt F)) (r : Ref sig .tc) (h : r ∉ wr6_2) :
    StableHlo.after hostOps6_2 V (Proc.devRef .tc r) = V (Proc.devRef .tc r) :=
  StableHlo.after_of_writes_sub hostOps6_2 V wr6_2_sub h

/-- The buffers the operations of `hostOps7` write. -/
abbrev wr7 : List (Ref sig .tc) :=
  [main_v301, main_cst_39, main_v302, main_v303, main_v304, main_v305, main_v306, main_v307, main_v308,
   main_v309, main_v310, main_v311, main_v312, main_v313, main_v314, main_v315, main_v316, main_v317,
   main_v318, main_v319, main_v320, main_v321, main_v322]
theorem wr7_sub : (hostOps7 : List (HloOp τ sig (Elt F))).Forall fun op => op.writes ⊆ (wr7.map (Proc.devRef (τ := τ) .tc)).toFinset := by
  simp only [List.Forall]
  repeat' apply And.intro
  all_goals result_listed
/-- A buffer outside that list is unchanged by the stretch. -/
theorem keep7 (V : Valuation τ sig (Elt F)) (r : Ref sig .tc) (h : r ∉ wr7) :
    StableHlo.after hostOps7 V (Proc.devRef .tc r) = V (Proc.devRef .tc r) :=
  StableHlo.after_of_writes_sub hostOps7 V wr7_sub h

/-- The buffers the operations of `hostOps8` write. -/
abbrev wr8 : List (Ref sig .tc) :=
  [main_cst_40, main_v324, main_v325, main_v326, main_cst_41, main_v327, main_cst_42, main_v328, main_v329,
   main_v330, main_cst_43, main_v331, main_v332, main_v333, main_v334, main_v335, main_v336, main_v337,
   main_v338]
theorem wr8_sub : (hostOps8 : List (HloOp τ sig (Elt F))).Forall fun op => op.writes ⊆ (wr8.map (Proc.devRef (τ := τ) .tc)).toFinset := by
  simp only [List.Forall]
  repeat' apply And.intro
  all_goals result_listed
/-- A buffer outside that list is unchanged by the stretch. -/
theorem keep8 (V : Valuation τ sig (Elt F)) (r : Ref sig .tc) (h : r ∉ wr8) :
    StableHlo.after hostOps8 V (Proc.devRef .tc r) = V (Proc.devRef .tc r) :=
  StableHlo.after_of_writes_sub hostOps8 V wr8_sub h

/-- The buffers the operations of `hostOps8_1` write. -/
abbrev wr8_1 : List (Ref sig .tc) :=
  [main_call5_cst, main_call5_v0, main_v339]
theorem wr8_1_sub : (hostOps8_1 : List (HloOp τ sig (Elt F))).Forall fun op => op.writes ⊆ (wr8_1.map (Proc.devRef (τ := τ) .tc)).toFinset := by
  simp only [List.Forall]
  repeat' apply And.intro
  all_goals result_listed
/-- A buffer outside that list is unchanged by the stretch. -/
theorem keep8_1 (V : Valuation τ sig (Elt F)) (r : Ref sig .tc) (h : r ∉ wr8_1) :
    StableHlo.after hostOps8_1 V (Proc.devRef .tc r) = V (Proc.devRef .tc r) :=
  StableHlo.after_of_writes_sub hostOps8_1 V wr8_1_sub h

/-- The buffers the operations of `hostOps8_2` write. -/
abbrev wr8_2 : List (Ref sig .tc) :=
  [main_v340, main_v341, main_v342, main_v343]
theorem wr8_2_sub : (hostOps8_2 : List (HloOp τ sig (Elt F))).Forall fun op => op.writes ⊆ (wr8_2.map (Proc.devRef (τ := τ) .tc)).toFinset := by
  simp only [List.Forall]
  repeat' apply And.intro
  all_goals result_listed
/-- A buffer outside that list is unchanged by the stretch. -/
theorem keep8_2 (V : Valuation τ sig (Elt F)) (r : Ref sig .tc) (h : r ∉ wr8_2) :
    StableHlo.after hostOps8_2 V (Proc.devRef .tc r) = V (Proc.devRef .tc r) :=
  StableHlo.after_of_writes_sub hostOps8_2 V wr8_2_sub h

end Cert.KernelIdeal.KStage

end
-- ==== Proof.KStageKeep.lean ====
/-
  Walking back through the kernel program's boundaries.

  A stretch of host operations changes only its results; a pipelined region changes only its own arrays. Walking back
  from any boundary of the run, an argument array is therefore still as launched, and the centred positions, the
  source indices and the target indices, once computed in the third stretch, are still what that stretch left, at
  every later boundary.
-/
import proofs.«156944_j45535243272652_2_alg».proof.Proof.FrameKI
import proofs.«156944_j45535243272652_2_alg».proof.Proof.KStageWr

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable {F : FTy → Type} [FloatOps F]

/-! ## The argument arrays are as launched at every boundary -/

variable (m : (ℓ : Loc nD τ sig) → Buf (Elt F) ℓ) (ρ : Dev nD → PrngReg) (c : Dev nD)

/-- The program's argument arrays. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20, main_arg21]

theorem arg_W0 : ∀ r ∈ argRefs, W0 m ρ c (Proc.devRef .tc r) = m ((c : Thread nD τ).loc r) := fun _ _ => rfl
theorem arg_W1 : ∀ r ∈ argRefs, W1 m ρ c (Proc.devRef .tc r) = m ((c : Thread nD τ).loc r) := fun r hr =>
  (keep0 _ r ((by decide : ∀ r ∈ argRefs, r ∉ wr0) r hr)).trans (arg_W0 m ρ c r hr)
theorem arg_W2 : ∀ r ∈ argRefs, W2 m ρ c (Proc.devRef .tc r) = m ((c : Thread nD τ).loc r) := fun r hr =>
  (keep0_1 _ r ((by decide : ∀ r ∈ argRefs, r ∉ wr0_1) r hr)).trans (arg_W1 m ρ c r hr)
theorem arg_W3 : ∀ r ∈ argRefs, W3 m ρ c (Proc.devRef .tc r) = m ((c : Thread nD τ).loc r) := fun r hr =>
  (keep0_2 _ r ((by decide : ∀ r ∈ argRefs, r ∉ wr0_2) r hr)).trans (arg_W2 m ρ c r hr)
theorem arg_W4 : ∀ r ∈ argRefs, W4 m ρ c (Proc.devRef .tc r) = m ((c : Thread nD τ).loc r) := fun r hr =>
  (keep0_3 _ r ((by decide : ∀ r ∈ argRefs, r ∉ wr0_3) r hr)).trans (arg_W3 m ρ c r hr)
theorem arg_W5 : ∀ r ∈ argRefs, W5 m ρ c (Proc.devRef .tc r) = m ((c : Thread nD τ).loc r) := fun r hr =>
  (keep0_4 _ r ((by decide : ∀ r ∈ argRefs, r ∉ wr0_4) r hr)).trans (arg_W4 m ρ c r hr)
theorem arg_W6 : ∀ r ∈ argRefs, W6 m ρ c (Proc.devRef .tc r) = m ((c : Thread nD τ).loc r) := fun r hr =>
  (W6_of_ne m ρ c r ((by decide : ∀ r ∈ argRefs, ∀ w, Pipeline.arrRef spec0 w ≠ r) r hr)).trans (arg_W5 m ρ c r hr)
theorem arg_W7 : ∀ r ∈ argRefs, W7 m ρ c (Proc.devRef .tc r) = m ((c : Thread nD τ).loc r) := fun r hr =>
  (keep1 _ r ((by decide : ∀ r ∈ argRefs, r ∉ wr1) r hr)).trans (arg_W6 m ρ c r hr)
theorem arg_W8 : ∀ r ∈ argRefs, W8 m ρ c (Proc.devRef .tc r) = m ((c : Thread nD τ).loc r) := fun r hr =>
  (W8_of_ne m ρ c r ((by decide : ∀ r ∈ argRefs, ∀ w, Pipeline.arrRef spec1 w ≠ r) r hr)).trans (arg_W7 m ρ c r hr)
theorem arg_W9 : ∀ r ∈ argRefs, W9 m ρ c (Proc.devRef .tc r) = m ((c : Thread nD τ).loc r) := fun r hr =>
  (keep2 _ r ((by decide : ∀ r ∈ argRefs, r ∉ wr2) r hr)).trans (arg_W8 m ρ c r hr)
theorem arg_W10 : ∀ r ∈ argRefs, W10 m ρ c (Proc.devRef .tc r) = m ((c : Thread nD τ).loc r) := fun r hr =>
  (keep2_1 _ r ((by decide : ∀ r ∈ argRefs, r ∉ wr2_1) r hr)).trans (arg_W9 m ρ c r hr)
theorem arg_W11 : ∀ r ∈ argRefs, W11 m ρ c (Proc.devRef .tc r) = m ((c : Thread nD τ).loc r) := fun r hr =>
  (keep2_2 _ r ((by decide : ∀ r ∈ argRefs, r ∉ wr2_2) r hr)).trans (arg_W10 m ρ c r hr)
theorem arg_W12 : ∀ r ∈ argRefs, W12 m ρ c (Proc.devRef .tc r) = m ((c : Thread nD τ).loc r) := fun r hr =>
  (W12_of_ne m ρ c r ((by decide : ∀ r ∈ argRefs, ∀ w, Pipeline.arrRef spec2 w ≠ r) r hr)).trans (arg_W11 m ρ c r hr)
theorem arg_W13 : ∀ r ∈ argRefs, W13 m ρ c (Proc.devRef .tc r) = m ((c : Thread nD τ).loc r) := fun r hr =>
  (keep3 _ r ((by decide : ∀ r ∈ argRefs, r ∉ wr3) r hr)).trans (arg_W12 m ρ c r hr)
theorem arg_W14 : ∀ r ∈ argRefs, W14 m ρ c (Proc.devRef .tc r) = m ((c : Thread nD τ).loc r) := fun r hr =>
  (W14_of_ne m ρ c r ((by decide : ∀ r ∈ argRefs, ∀ w, Pipeline.arrRef spec3 w ≠ r) r hr)).trans (arg_W13 m ρ c r hr)
theorem arg_W15 : ∀ r ∈ argRefs, W15 m ρ c (Proc.devRef .tc r) = m ((c : Thread nD τ).loc r) := fun r hr =>
  (keep4 _ r ((by decide : ∀ r ∈ argRefs, r ∉ wr4) r hr)).trans (arg_W14 m ρ c r hr)
theorem arg_W16 : ∀ r ∈ argRefs, W16 m ρ c (Proc.devRef .tc r) = m ((c : Thread nD τ).loc r) := fun r hr =>
  (keep4_1 _ r ((by decide : ∀ r ∈ argRefs, r ∉ wr4_1) r hr)).trans (arg_W15 m ρ c r hr)
theorem arg_W17 : ∀ r ∈ argRefs, W17 m ρ c (Proc.devRef .tc r) = m ((c : Thread nD τ).loc r) := fun r hr =>
  (keep4_2 _ r ((by decide : ∀ r ∈ argRefs, r ∉ wr4_2) r hr)).trans (arg_W16 m ρ c r hr)
theorem arg_W18 : ∀ r ∈ argRefs, W18 m ρ c (Proc.devRef .tc r) = m ((c : Thread nD τ).loc r) := fun r hr =>
  (W18_of_ne m ρ c r ((by decide : ∀ r ∈ argRefs, ∀ w, Pipeline.arrRef spec4 w ≠ r) r hr)).trans (arg_W17 m ρ c r hr)
theorem arg_W19 : ∀ r ∈ argRefs, W19 m ρ c (Proc.devRef .tc r) = m ((c : Thread nD τ).loc r) := fun r hr =>
  (keep5 _ r ((by decide : ∀ r ∈ argRefs, r ∉ wr5) r hr)).trans (arg_W18 m ρ c r hr)
theorem arg_W20 : ∀ r ∈ argRefs, W20 m ρ c (Proc.devRef .tc r) = m ((c : Thread nD τ).loc r) := fun r hr =>
  (W20_of_ne m ρ c r ((by decide : ∀ r ∈ argRefs, ∀ w, Pipeline.arrRef spec5 w ≠ r) r hr)).trans (arg_W19 m ρ c r hr)
theorem arg_W21 : ∀ r ∈ argRefs, W21 m ρ c (Proc.devRef .tc r) = m ((c : Thread nD τ).loc r) := fun r hr =>
  (keep6 _ r ((by decide : ∀ r ∈ argRefs, r ∉ wr6) r hr)).trans (arg_W20 m ρ c r hr)
theorem arg_W22 : ∀ r ∈ argRefs, W22 m ρ c (Proc.devRef .tc r) = m ((c : Thread nD τ).loc r) := fun r hr =>
  (keep6_1 _ r ((by decide : ∀ r ∈ argRefs, r ∉ wr6_1) r hr)).trans (arg_W21 m ρ c r hr)
theorem arg_W23 : ∀ r ∈ argRefs, W23 m ρ c (Proc.devRef .tc r) = m ((c : Thread nD τ).loc r) := fun r hr =>
  (keep6_2 _ r ((by decide : ∀ r ∈ argRefs, r ∉ wr6_2) r hr)).trans (arg_W22 m ρ c r hr)
theorem arg_W24 : ∀ r ∈ argRefs, W24 m ρ c (Proc.devRef .tc r) = m ((c : Thread nD τ).loc r) := fun r hr =>
  (W24_of_ne m ρ c r ((by decide : ∀ r ∈ argRefs, ∀ w, Pipeline.arrRef spec6 w ≠ r) r hr)).trans (arg_W23 m ρ c r hr)
theorem arg_W25 : ∀ r ∈ argRefs, W25 m ρ c (Proc.devRef .tc r) = m ((c : Thread nD τ).loc r) := fun r hr =>
  (keep7 _ r ((by decide : ∀ r ∈ argRefs, r ∉ wr7) r hr)).trans (arg_W24 m ρ c r hr)
theorem arg_W26 : ∀ r ∈ argRefs, W26 m ρ c (Proc.devRef .tc r) = m ((c : Thread nD τ).loc r) := fun r hr =>
  (W26_of_ne m ρ c r ((by decide : ∀ r ∈ argRefs, ∀ w, Pipeline.arrRef spec7 w ≠ r) r hr)).trans (arg_W25 m ρ c r hr)
theorem arg_W27 : ∀ r ∈ argRefs, W27 m ρ c (Proc.devRef .tc r) = m ((c : Thread nD τ).loc r) := fun r hr =>
  (keep8 _ r ((by decide : ∀ r ∈ argRefs, r ∉ wr8) r hr)).trans (arg_W26 m ρ c r hr)
theorem arg_W28 : ∀ r ∈ argRefs, W28 m ρ c (Proc.devRef .tc r) = m ((c : Thread nD τ).loc r) := fun r hr =>
  (keep8_1 _ r ((by decide : ∀ r ∈ argRefs, r ∉ wr8_1) r hr)).trans (arg_W27 m ρ c r hr)
theorem arg_W29 : ∀ r ∈ argRefs, W29 m ρ c (Proc.devRef .tc r) = m ((c : Thread nD τ).loc r) := fun r hr =>
  (keep8_2 _ r ((by decide : ∀ r ∈ argRefs, r ∉ wr8_2) r hr)).trans (arg_W28 m ρ c r hr)

/-! ## The centred positions, the source indices and the target indices stay as the third stretch left them -/

/-- The centred positions, the edges' sources, the edges' targets. -/
abbrev geoRefs : List (Ref sig .tc) := [main_v23, main_v25, main_v27]

theorem geo_W3 : ∀ r ∈ geoRefs, W3 m ρ c (Proc.devRef .tc r) = W3 m ρ c (Proc.devRef .tc r) := fun _ _ => rfl
theorem geo_W4 : ∀ r ∈ geoRefs, W4 m ρ c (Proc.devRef .tc r) = W3 m ρ c (Proc.devRef .tc r) := fun r hr =>
  (keep0_3 _ r ((by decide : ∀ r ∈ geoRefs, r ∉ wr0_3) r hr)).trans (geo_W3 m ρ c r hr)
theorem geo_W5 : ∀ r ∈ geoRefs, W5 m ρ c (Proc.devRef .tc r) = W3 m ρ c (Proc.devRef .tc r) := fun r hr =>
  (keep0_4 _ r ((by decide : ∀ r ∈ geoRefs, r ∉ wr0_4) r hr)).trans (geo_W4 m ρ c r hr)
theorem geo_W6 : ∀ r ∈ geoRefs, W6 m ρ c (Proc.devRef .tc r) = W3 m ρ c (Proc.devRef .tc r) := fun r hr =>
  (W6_of_ne m ρ c r ((by decide : ∀ r ∈ geoRefs, ∀ w, Pipeline.arrRef spec0 w ≠ r) r hr)).trans (geo_W5 m ρ c r hr)
theorem geo_W7 : ∀ r ∈ geoRefs, W7 m ρ c (Proc.devRef .tc r) = W3 m ρ c (Proc.devRef .tc r) := fun r hr =>
  (keep1 _ r ((by decide : ∀ r ∈ geoRefs, r ∉ wr1) r hr)).trans (geo_W6 m ρ c r hr)
theorem geo_W8 : ∀ r ∈ geoRefs, W8 m ρ c (Proc.devRef .tc r) = W3 m ρ c (Proc.devRef .tc r) := fun r hr =>
  (W8_of_ne m ρ c r ((by decide : ∀ r ∈ geoRefs, ∀ w, Pipeline.arrRef spec1 w ≠ r) r hr)).trans (geo_W7 m ρ c r hr)
theorem geo_W9 : ∀ r ∈ geoRefs, W9 m ρ c (Proc.devRef .tc r) = W3 m ρ c (Proc.devRef .tc r) := fun r hr =>
  (keep2 _ r ((by decide : ∀ r ∈ geoRefs, r ∉ wr2) r hr)).trans (geo_W8 m ρ c r hr)
theorem geo_W10 : ∀ r ∈ geoRefs, W10 m ρ c (Proc.devRef .tc r) = W3 m ρ c (Proc.devRef .tc r) := fun r hr =>
  (keep2_1 _ r ((by decide : ∀ r ∈ geoRefs, r ∉ wr2_1) r hr)).trans (geo_W9 m ρ c r hr)
theorem geo_W11 : ∀ r ∈ geoRefs, W11 m ρ c (Proc.devRef .tc r) = W3 m ρ c (Proc.devRef .tc r) := fun r hr =>
  (keep2_2 _ r ((by decide : ∀ r ∈ geoRefs, r ∉ wr2_2) r hr)).trans (geo_W10 m ρ c r hr)
theorem geo_W12 : ∀ r ∈ geoRefs, W12 m ρ c (Proc.devRef .tc r) = W3 m ρ c (Proc.devRef .tc r) := fun r hr =>
  (W12_of_ne m ρ c r ((by decide : ∀ r ∈ geoRefs, ∀ w, Pipeline.arrRef spec2 w ≠ r) r hr)).trans (geo_W11 m ρ c r hr)
theorem geo_W13 : ∀ r ∈ geoRefs, W13 m ρ c (Proc.devRef .tc r) = W3 m ρ c (Proc.devRef .tc r) := fun r hr =>
  (keep3 _ r ((by decide : ∀ r ∈ geoRefs, r ∉ wr3) r hr)).trans (geo_W12 m ρ c r hr)
theorem geo_W14 : ∀ r ∈ geoRefs, W14 m ρ c (Proc.devRef .tc r) = W3 m ρ c (Proc.devRef .tc r) := fun r hr =>
  (W14_of_ne m ρ c r ((by decide : ∀ r ∈ geoRefs, ∀ w, Pipeline.arrRef spec3 w ≠ r) r hr)).trans (geo_W13 m ρ c r hr)
theorem geo_W15 : ∀ r ∈ geoRefs, W15 m ρ c (Proc.devRef .tc r) = W3 m ρ c (Proc.devRef .tc r) := fun r hr =>
  (keep4 _ r ((by decide : ∀ r ∈ geoRefs, r ∉ wr4) r hr)).trans (geo_W14 m ρ c r hr)
theorem geo_W16 : ∀ r ∈ geoRefs, W16 m ρ c (Proc.devRef .tc r) = W3 m ρ c (Proc.devRef .tc r) := fun r hr =>
  (keep4_1 _ r ((by decide : ∀ r ∈ geoRefs, r ∉ wr4_1) r hr)).trans (geo_W15 m ρ c r hr)
theorem geo_W17 : ∀ r ∈ geoRefs, W17 m ρ c (Proc.devRef .tc r) = W3 m ρ c (Proc.devRef .tc r) := fun r hr =>
  (keep4_2 _ r ((by decide : ∀ r ∈ geoRefs, r ∉ wr4_2) r hr)).trans (geo_W16 m ρ c r hr)
theorem geo_W18 : ∀ r ∈ geoRefs, W18 m ρ c (Proc.devRef .tc r) = W3 m ρ c (Proc.devRef .tc r) := fun r hr =>
  (W18_of_ne m ρ c r ((by decide : ∀ r ∈ geoRefs, ∀ w, Pipeline.arrRef spec4 w ≠ r) r hr)).trans (geo_W17 m ρ c r hr)
theorem geo_W19 : ∀ r ∈ geoRefs, W19 m ρ c (Proc.devRef .tc r) = W3 m ρ c (Proc.devRef .tc r) := fun r hr =>
  (keep5 _ r ((by decide : ∀ r ∈ geoRefs, r ∉ wr5) r hr)).trans (geo_W18 m ρ c r hr)
theorem geo_W20 : ∀ r ∈ geoRefs, W20 m ρ c (Proc.devRef .tc r) = W3 m ρ c (Proc.devRef .tc r) := fun r hr =>
  (W20_of_ne m ρ c r ((by decide : ∀ r ∈ geoRefs, ∀ w, Pipeline.arrRef spec5 w ≠ r) r hr)).trans (geo_W19 m ρ c r hr)
theorem geo_W21 : ∀ r ∈ geoRefs, W21 m ρ c (Proc.devRef .tc r) = W3 m ρ c (Proc.devRef .tc r) := fun r hr =>
  (keep6 _ r ((by decide : ∀ r ∈ geoRefs, r ∉ wr6) r hr)).trans (geo_W20 m ρ c r hr)
theorem geo_W22 : ∀ r ∈ geoRefs, W22 m ρ c (Proc.devRef .tc r) = W3 m ρ c (Proc.devRef .tc r) := fun r hr =>
  (keep6_1 _ r ((by decide : ∀ r ∈ geoRefs, r ∉ wr6_1) r hr)).trans (geo_W21 m ρ c r hr)
theorem geo_W23 : ∀ r ∈ geoRefs, W23 m ρ c (Proc.devRef .tc r) = W3 m ρ c (Proc.devRef .tc r) := fun r hr =>
  (keep6_2 _ r ((by decide : ∀ r ∈ geoRefs, r ∉ wr6_2) r hr)).trans (geo_W22 m ρ c r hr)
theorem geo_W24 : ∀ r ∈ geoRefs, W24 m ρ c (Proc.devRef .tc r) = W3 m ρ c (Proc.devRef .tc r) := fun r hr =>
  (W24_of_ne m ρ c r ((by decide : ∀ r ∈ geoRefs, ∀ w, Pipeline.arrRef spec6 w ≠ r) r hr)).trans (geo_W23 m ρ c r hr)
theorem geo_W25 : ∀ r ∈ geoRefs, W25 m ρ c (Proc.devRef .tc r) = W3 m ρ c (Proc.devRef .tc r) := fun r hr =>
  (keep7 _ r ((by decide : ∀ r ∈ geoRefs, r ∉ wr7) r hr)).trans (geo_W24 m ρ c r hr)
theorem geo_W26 : ∀ r ∈ geoRefs, W26 m ρ c (Proc.devRef .tc r) = W3 m ρ c (Proc.devRef .tc r) := fun r hr =>
  (W26_of_ne m ρ c r ((by decide : ∀ r ∈ geoRefs, ∀ w, Pipeline.arrRef spec7 w ≠ r) r hr)).trans (geo_W25 m ρ c r hr)

end Cert.KernelIdeal.KStage

end
-- ==== Proof.Spec.lean ====
/-
  The mathematics of one message-passing layer, stated once over extended reals, apart from both programs.

  An EDGE row: from the target's features `hi`, the source's features `hj` (128 each) and the edge length `d`,
  `ea c = Σₖ hi k · w1a k c + Σₖ hj k · w1b k c + d · w1c c + b1 c`, `m1 = silu ea`,
  `m2 c = silu (Σₖ m1 k · w2 k c + b2 c)`, the gate `att = logistic (Σₖ m2 k · aw k + ab)`, the message `m2 c · att`.
  A NODE row: from the node's features `h` and its aggregated messages `agg`,
  `nin c = Σₖ h k · w1a k c + Σₖ agg k · w1b k c + b1 c`, `upd c = Σₖ silu (nin k) · w2 k c + b2 c`, the residual
  `hr = h + upd`, its mean `mu` and variance `var` over the 128 features (each a quotient by 128), and the
  normalised row `(hr c − mu) · rsqrt (var + ε) · g c + b c`.
  The array forms apply a row function to every row of the edge list (250000 rows) or the node list (10000 rows).
-/
import Idealize.ShloMosaic.PureOps.Ideal
import Idealize.ShloMosaic.Lib.ValueIdx

noncomputable section

namespace Cert.Spec

open Idealize.ShloMosaic Idealize.ShloMosaic.ValueIdx

/-- `x · logistic x`. -/
def silu (x : EReal) : EReal := x * Ideal.logistic x

/-- The divisor 128 (the feature count) as both programs spell it: the f32 pattern of 128.0. -/
def c128 : EReal := Ideal.ofBits .f32 0x43000000#32
/-- The normalisation's epsilon as both programs spell it: the f32 pattern nearest 1e-5. -/
def cEps : EReal := Ideal.ofBits .f32 0x3727C5AC#32

/-- The first edge stage of one row: the three-part affine form, before its activation. -/
def edgeEa (hi hj : Fin 128 → EReal) (d : EReal) (w1a w1b : Fin 128 → Fin 128 → EReal) (w1c b1 : Fin 128 → EReal)
    (c : Fin 128) : EReal :=
  (∑ k : Fin 128, hi k * w1a k c) + (∑ k : Fin 128, hj k * w1b k c) + d * w1c c + b1 c

/-- The second edge stage of one row, activated. -/
def edgeM2 (m1 : Fin 128 → EReal) (w2 : Fin 128 → Fin 128 → EReal) (b2 : Fin 128 → EReal) (c : Fin 128) : EReal :=
  silu ((∑ k : Fin 128, m1 k * w2 k c) + b2 c)

/-- The attention gate of one row. -/
def edgeAtt (m2 : Fin 128 → EReal) (aw : Fin 128 → EReal) (ab : EReal) : EReal :=
  Ideal.logistic ((∑ k : Fin 128, m2 k * aw k) + ab)

/-- One edge's message row. -/
def edgeRow (hi hj : Fin 128 → EReal) (d : EReal) (w1a w1b : Fin 128 → Fin 128 → EReal) (w1c b1 : Fin 128 → EReal)
    (w2 : Fin 128 → Fin 128 → EReal) (b2 : Fin 128 → EReal) (aw : Fin 128 → EReal) (ab : EReal) (c : Fin 128) : EReal :=
  edgeM2 (fun k => silu (edgeEa hi hj d w1a w1b w1c b1 k)) w2 b2 c
    * edgeAtt (edgeM2 (fun k => silu (edgeEa hi hj d w1a w1b w1c b1 k)) w2 b2) aw ab

/-- The node update before normalisation: the residual row `h + upd`. -/
def nodeHr (h agg : Fin 128 → EReal) (w1a w1b : Fin 128 → Fin 128 → EReal) (b1 : Fin 128 → EReal)
    (w2 : Fin 128 → Fin 128 → EReal) (b2 : Fin 128 → EReal) (c : Fin 128) : EReal :=
  h c + ((∑ k : Fin 128, silu ((∑ j : Fin 128, h j * w1a j k) + (∑ j : Fin 128, agg j * w1b j k) + b1 k) * w2 k c) + b2 c)

/-- A row's mean over its 128 entries. -/
def rowMean (v : Fin 128 → EReal) : EReal := Ideal.div (∑ c : Fin 128, v c) c128

/-- A row's variance over its 128 entries (about its mean, quotient by 128). -/
def rowVar (v : Fin 128 → EReal) : EReal := Ideal.div (∑ c : Fin 128, (v c - rowMean v) * (v c - rowMean v)) c128

/-- Layer normalisation of one row with gain `g` and bias `b`, in the kernel's form (a product with the reciprocal root). -/
def layerNormRow (v : Fin 128 → EReal) (g b : Fin 128 → EReal) (c : Fin 128) : EReal :=
  (v c - rowMean v) * Ideal.rsqrt (rowVar v + cEps) * g c + b c

/-- One node's updated row. -/
def nodeRow (h agg : Fin 128 → EReal) (w1a w1b : Fin 128 → Fin 128 → EReal) (b1 : Fin 128 → EReal)
    (w2 : Fin 128 → Fin 128 → EReal) (b2 g b : Fin 128 → EReal) (c : Fin 128) : EReal :=
  layerNormRow (nodeHr h agg w1a w1b b1 w2 b2) g b c

/-! ## The array forms -/

abbrev SE : Shape := ⟨2, ![250000, 128]⟩
abbrev SE1 : Shape := ⟨2, ![250000, 1]⟩
abbrev SN : Shape := ⟨2, ![10000, 128]⟩
abbrev SW : Shape := ⟨2, ![128, 128]⟩
abbrev SR : Shape := ⟨2, ![1, 128]⟩
abbrev SC : Shape := ⟨2, ![128, 1]⟩
abbrev S11 : Shape := ⟨2, ![1, 1]⟩

/-- A 128×128 weight array as a function of its two coordinates. -/
def mat (w : SW.Idx → EReal) : Fin 128 → Fin 128 → EReal := fun k c => w (ix2 k c)
/-- A 1×128 row array as a function of its column. -/
def rowv (w : SR.Idx → EReal) : Fin 128 → EReal := fun c => w (ix2 (0 : Fin 1) c)
/-- A 128×1 column array as a function of its row. -/
def colv (w : SC.Idx → EReal) : Fin 128 → EReal := fun k => w (ix2 k (0 : Fin 1))

/-- Every edge's message row: row `e` of the result is `edgeRow` of rows `e` of the gathered features and the
    edge's length, with the layer's weights. -/
def edgeArr (hi hj : SE.Idx → EReal) (dist : SE1.Idx → EReal) (w1a w1b : SW.Idx → EReal) (w1c b1 : SR.Idx → EReal)
    (w2 : SW.Idx → EReal) (b2 : SR.Idx → EReal) (aw : SC.Idx → EReal) (ab : S11.Idx → EReal) : SE.Idx → EReal :=
  fun i => edgeRow (fun k => hi (ix2 (i 0) k)) (fun k => hj (ix2 (i 0) k)) (dist (ix2 (i 0) (0 : Fin 1)))
    (mat w1a) (mat w1b) (rowv w1c) (rowv b1) (mat w2) (rowv b2) (colv aw) (ab (ix2 (0 : Fin 1) (0 : Fin 1))) (i 1)

/-- Every node's updated row: row `n` of the result is `nodeRow` of rows `n` of the features and of the aggregated
    messages, with the layer's weights. -/
def nodeArr (h agg : SN.Idx → EReal) (w1a w1b : SW.Idx → EReal) (b1 : SR.Idx → EReal) (w2 : SW.Idx → EReal)
    (b2 g b : SR.Idx → EReal) : SN.Idx → EReal :=
  fun i => nodeRow (fun k => h (ix2 (i 0) k)) (fun k => agg (ix2 (i 0) k)) (mat w1a) (mat w1b) (rowv b1) (mat w2)
    (rowv b2) (rowv g) (rowv b) (i 1)

end Cert.Spec

end
-- ==== Proof.SpecW.lean ====
/-
  Layer `l`'s pieces of the stacked weight arrays, each stated as a direct read of the argument array: a 128×128 block
  of a [4, n, 128] stack starting at row `off`, one row of such a stack, a row of a [4, 128] stack of biases, the
  column of the [4, 128, 1] stack, the single entry of the [4, 1] stack. Both programs cut these pieces out by
  slice-and-reshape; read at an index they are these functions.
-/
import proofs.«156944_j45535243272652_2_alg».proof.Proof.Spec

noncomputable section

namespace Cert.Spec

open Idealize.ShloMosaic Idealize.ShloMosaic.ValueIdx

/-- Rows `off … off+127` of layer `l` of a [4, n, 128] stack, as a 128×128 array. -/
def wBlock {n : ℕ} (A : (⟨3, ![4, n, 128]⟩ : Shape).Idx → EReal) (l : Fin 4) (off : ℕ) (h : off + 128 ≤ n) : SW.Idx → EReal :=
  fun i => A (ix3 l (⟨off + (i 0).val, by have := (i 0).isLt; simp only [Matrix.cons_val_zero] at this; omega⟩ : Fin n) (i 1))

/-- Row `r` of layer `l` of a [4, n, 128] stack, as a 1×128 array. -/
def wRowAt {n : ℕ} (A : (⟨3, ![4, n, 128]⟩ : Shape).Idx → EReal) (l : Fin 4) (r : Fin n) : SR.Idx → EReal :=
  fun i => A (ix3 l r (i 1))

/-- Row `l` of a [4, 128] stack, as a 1×128 array. -/
def bRow (A : (⟨2, ![4, 128]⟩ : Shape).Idx → EReal) (l : Fin 4) : SR.Idx → EReal :=
  fun i => A (ix2 l (i 1))

/-- Layer `l` of the [4, 128, 1] stack, as a 128×1 array. -/
def wCol (A : (⟨3, ![4, 128, 1]⟩ : Shape).Idx → EReal) (l : Fin 4) : SC.Idx → EReal :=
  fun i => A (ix3 l (i 0) (0 : Fin 1))

/-- Entry `l` of the [4, 1] stack, as a 1×1 array. -/
def b11 (A : (⟨2, ![4, 1]⟩ : Shape).Idx → EReal) (l : Fin 4) : S11.Idx → EReal :=
  fun _ => A (ix2 l (0 : Fin 1))

end Cert.Spec

end
-- ==== Proof.KStageDefs.lean ====
/-
  The kernel program's host glue, as closed functions of arrays, at the ideal instance.

  Around its eight pipelined regions the program runs plain array operations. Here each group of them is written
  once as a function: the input embedding `pH` (a product with the embedding matrix, its bias, a rectifier), the
  positions centred on their graph's mean `pPos`, the two rows `pSrc` / `pDst` of the edge list, the index column
  a gather or a scatter takes (`idxCol`), the gathered node features in the narrow format (`kGatherH`), the gathered
  positions (`kGatherP`), the edge lengths (`kDist`), the aggregation of the messages onto their targets (`kAgg`).
  One message-passing layer `kLayer` is these around the two kernels' array functions of `Cert.Spec`, its weights read
  out of the stacked arguments; the tail `kSuffix` is the mean over each graph's nodes followed by the two-layer head.
-/
import proofs.«156944_j45535243272652_2_alg».proof.Proof.Gen.KernelIdeal
import proofs.«156944_j45535243272652_2_alg».proof.Proof.SpecW

noncomputable section

namespace Cert.KernelIdeal.KStage

open Cert.KernelIdeal Cert.KernelIdeal.Gen
open Idealize.ShloMosaic

/-! ## The prefix -/

/-- The embedded node features: `max (x · W + b) 0`. -/
def pH (A0 : FVec Ideal S10000x11 .f32) (A4 : FVec Ideal S11x128 .f32) (A5 : FVec Ideal S128 .f32) : FVec Ideal S10000x128 .f32 :=
  maximumf
    (addf (Host.dotGeneral (F := Ideal) dot_S10000x11_S11x128_S10000x128_1_0_0_1_n_n none A0 A4)
      (broadcastInDim S10000x128 ![0, 1] bcast_S1x128_S10000x128_0_1 (broadcastInDim S1x128 ![1] bcast_S128_S1x128_1 A5)))
    (broadcastInDim S10000x128 ![] bcast_S_S10000x128 (constant (F := Ideal) S_ .f32 0x00000000#32))

/-- The positions minus the mean position of their graph (the sum over the graph's nodes divided by the larger of
    their count and one, read back at each node's graph). -/
def pPos (A1 : FVec Ideal S10000x3 .f32) (A3 : IVec S10000 32) : FVec Ideal S10000x3 .f32 :=
  subf A1
    (Host.gather gather_S256x3_S10000x1_S10000x3_1_0_n_n_0_1_13
      (Host.divf (F := Ideal)
        (Host.scatterAdd (F := Ideal) scatter_S256x3_S10000x1_S10000x3_1_0_0_1
          (broadcastInDim S256x3 ![] bcast_S_S256x3 (constant (F := Ideal) S_ .f32 0x00000000#32))
          (broadcastInDim S10000x1 ![0] bcast_S10000_S10000x1_0 A3)
          A1)
        (broadcastInDim S256x3 ![0, 1] bcast_S256x1_S256x3_0_1
          (maximumf
            (Host.scatterAdd (F := Ideal) scatter_S256x1_S10000x1_S10000x1_1_0_0_1
              (broadcastInDim S256x1 ![] bcast_S_S256x1 (constant (F := Ideal) S_ .f32 0x00000000#32))
              (broadcastInDim S10000x1 ![0] bcast_S10000_S10000x1_0 A3)
              (broadcastInDim S10000x1 ![] bcast_S_S10000x1 (constant (F := Ideal) S_ .f32 0x3F800000#32)))
            (broadcastInDim S256x1 ![] bcast_S_S256x1 (constant (F := Ideal) S_ .f32 0x3F800000#32)))))
      (broadcastInDim S10000x1 ![0] bcast_S10000_S10000x1_0
        (select
          (cmpi .slt A3 (broadcastInDim S10000 ![] bcast_S_S10000 (constantI S_ 32 0#32)))
          (addi A3 (broadcastInDim S10000 ![] bcast_S_S10000 (constantI S_ 32 256#32)))
          A3)))

/-- Row 0 of the edge list: each edge's source. -/
def pSrc (A2 : IVec S2x250000 32) : IVec S250000 32 :=
  shapeCast S250000 (extractStridedSlice S1x250000 ![0, 0] A2 slices_S2x250000_S1x250000_0_0) shapeCasts_S1x250000_S250000

/-- Row 1 of the edge list: each edge's target. -/
def pDst (A2 : IVec S2x250000 32) : IVec S250000 32 :=
  shapeCast S250000 (extractStridedSlice S1x250000 ![1, 0] A2 slices_S2x250000_S1x250000_1_0) shapeCasts_S1x250000_S250000

/-! ## A layer's glue -/

/-- The index column a gather over the nodes takes: a negative entry moved up by the node count, as a column. -/
def idxCol (e : IVec S250000 32) : IVec S250000x1 32 :=
  broadcastInDim S250000x1 ![0] bcast_S250000_S250000x1_0
    (select
      (cmpi .slt e (broadcastInDim S250000 ![] bcast_S_S250000 (constantI S_ 32 0#32)))
      (addi e (broadcastInDim S250000 ![] bcast_S_S250000 (constantI S_ 32 10000#32)))
      e)

/-- The node features in the narrow format, one row per edge, taken at the edges' ends `e`. -/
def kGatherH (h : FVec Ideal S10000x128 .f32) (e : IVec S250000 32) : FVec Ideal S250000x128 .bf16 :=
  Host.gather gather_S10000x128_S250000x1_S250000x128_1_0_n_n_0_1_1128 (truncf .bf16 h bitsLt_bf16_f32) (idxCol e)

/-- The positions, one row per edge, taken at the edges' ends `e`. -/
def kGatherP (p : FVec Ideal S10000x3 .f32) (e : IVec S250000 32) : FVec Ideal S250000x3 .f32 :=
  Host.gather gather_S10000x3_S250000x1_S250000x3_1_0_n_n_0_1_13 p (idxCol e)

/-- The length of a row of three: the root of the sum of its squares, as a column. -/
def kNorm (d : FVec Ideal S250000x3 .f32) : FVec Ideal S250000x1 .f32 :=
  Host.sqrt (F := Ideal)
    (broadcastInDim S250000x1 ![0] bcast_S250000_S250000x1_0
      (Host.reduceAdd (F := Ideal) (mulf d d) (constant (F := Ideal) S_ .f32 0x00000000#32) reducesTo_S250000x3_S250000_d1 h_S_))

/-- Each edge's length: the distance between its target's and its source's centred position. -/
def kDist (p : FVec Ideal S10000x3 .f32) (src dst : IVec S250000 32) : FVec Ideal S250000x1 .f32 :=
  kNorm (subf (kGatherP p dst) (kGatherP p src))

/-- The messages, widened, summed onto their edges' targets. -/
def kAgg (msg : FVec Ideal S250000x128 .bf16) (dst : IVec S250000 32) : FVec Ideal S10000x128 .f32 :=
  Host.scatterAdd (F := Ideal) scatter_S10000x128_S250000x1_S250000x128_1_0_0_1
    (broadcastInDim S10000x128 ![] bcast_S_S10000x128 (constant (F := Ideal) S_ .f32 0x00000000#32))
    (broadcastInDim S250000x1 ![0] bcast_S250000_S250000x1_0 dst)
    (extf .f32 msg bitsLt_bf16_f32)

/-- The edge kernel's array function on layer `l`'s inputs: the features gathered at the targets and at the sources,
    the edge lengths, the layer's edge weights. -/
def kEdge (l : Fin 4) (h : FVec Ideal S10000x128 .f32) (p : FVec Ideal S10000x3 .f32) (src dst : IVec S250000 32)
    (A6 : FVec Ideal S4x257x128 .f32) (A7 : FVec Ideal S4x128 .f32) (A8 : FVec Ideal S4x128x128 .f32) (A9 : FVec Ideal S4x128 .f32)
    (A10 : FVec Ideal S4x128x1 .f32) (A11 : FVec Ideal S4x1 .f32) : FVec Ideal S250000x128 .bf16 :=
  Cert.Spec.edgeArr (kGatherH h dst) (kGatherH h src) (kDist p src dst)
    (Cert.Spec.wBlock (n := 257) A6 l 0 (by decide)) (Cert.Spec.wBlock (n := 257) A6 l 128 (by decide))
    (Cert.Spec.wRowAt (n := 257) A6 l ⟨256, by decide⟩) (Cert.Spec.bRow A7 l)
    (Cert.Spec.wBlock (n := 128) A8 l 0 (by decide)) (Cert.Spec.bRow A9 l) (Cert.Spec.wCol A10 l) (Cert.Spec.b11 A11 l)

/-- One message-passing layer: the node kernel's array function on the features, the aggregated messages of the edge
    kernel, and the layer's node weights. -/
def kLayer (l : Fin 4) (h : FVec Ideal S10000x128 .f32) (p : FVec Ideal S10000x3 .f32) (src dst : IVec S250000 32)
    (A6 : FVec Ideal S4x257x128 .f32) (A7 : FVec Ideal S4x128 .f32) (A8 : FVec Ideal S4x128x128 .f32) (A9 : FVec Ideal S4x128 .f32)
    (A10 : FVec Ideal S4x128x1 .f32) (A11 : FVec Ideal S4x1 .f32)
    (A12 : FVec Ideal S4x256x128 .f32) (A13 : FVec Ideal S4x128 .f32) (A14 : FVec Ideal S4x128x128 .f32) (A15 : FVec Ideal S4x128 .f32)
    (A16 : FVec Ideal S4x128 .f32) (A17 : FVec Ideal S4x128 .f32) : FVec Ideal S10000x128 .f32 :=
  Cert.Spec.nodeArr h (kAgg (kEdge l h p src dst A6 A7 A8 A9 A10 A11) dst)
    (Cert.Spec.wBlock (n := 256) A12 l 0 (by decide)) (Cert.Spec.wBlock (n := 256) A12 l 128 (by decide)) (Cert.Spec.bRow A13 l)
    (Cert.Spec.wBlock (n := 128) A14 l 0 (by decide)) (Cert.Spec.bRow A15 l) (Cert.Spec.bRow A16 l) (Cert.Spec.bRow A17 l)

/-! ## The suffix -/

/-- The mean of the final features over each graph's nodes, then the head: a product, a bias, a rectifier, a product
    with a column, a bias. -/
def kSuffix (h : FVec Ideal S10000x128 .f32) (A3 : IVec S10000 32) (A18 : FVec Ideal S128x128 .f32) (A19 : FVec Ideal S128 .f32)
    (A20 : FVec Ideal S128x1 .f32) (A21 : FVec Ideal S1 .f32) : FVec Ideal S256x1 .f32 :=
  addf
    (Host.dotGeneral (F := Ideal) dot_S256x128_S128x1_S256x1_1_0_0_1_n_n none
      (maximumf
        (addf
          (Host.dotGeneral (F := Ideal) dot_S256x128_S128x128_S256x128_1_0_0_1_n_n none
            (Host.divf (F := Ideal)
              (Host.scatterAdd (F := Ideal) scatter_S256x128_S10000x1_S10000x128_1_0_0_1
                (broadcastInDim S256x128 ![] bcast_S_S256x128 (constant (F := Ideal) S_ .f32 0x00000000#32))
                (broadcastInDim S10000x1 ![0] bcast_S10000_S10000x1_0 A3)
                h)
              (broadcastInDim S256x128 ![0, 1] bcast_S256x1_S256x128_0_1
                (maximumf
                  (Host.scatterAdd (F := Ideal) scatter_S256x1_S10000x1_S10000x1_1_0_0_1
                    (broadcastInDim S256x1 ![] bcast_S_S256x1 (constant (F := Ideal) S_ .f32 0x00000000#32))
                    (broadcastInDim S10000x1 ![0] bcast_S10000_S10000x1_0 A3)
                    (broadcastInDim S10000x1 ![] bcast_S_S10000x1 (constant (F := Ideal) S_ .f32 0x3F800000#32)))
                  (broadcastInDim S256x1 ![] bcast_S_S256x1 (constant (F := Ideal) S_ .f32 0x3F800000#32)))))
            A18)
          (broadcastInDim S256x128 ![0, 1] bcast_S1x128_S256x128_0_1 (broadcastInDim S1x128 ![1] bcast_S128_S1x128_1 A19)))
        (broadcastInDim S256x128 ![] bcast_S_S256x128 (constant (F := Ideal) S_ .f32 0x00000000#32)))
      A20)
    (broadcastInDim S256x1 ![0, 1] bcast_S1x1_S256x1_0_1 (broadcastInDim S1x1 ![1] bcast_S1_S1x1_1 A21))

end Cert.KernelIdeal.KStage

end
-- ==== Proof.SliceAt.lean ====
/-
  Slices of stacked arrays read at an index.

  Layer `l` of a stack is cut out by a unit-stride slice that starts at `(l, o, 0)` and has extent one on the leading
  axis, and the leading unit axis is then dropped by a reshape. Read at an index `(b, c)` the result is the stack at
  `(l, o + b, c)`: the slice shifts each coordinate by its offset, and dropping a leading unit axis keeps the row-major
  position. For a rank-2 stack the same two steps give, at `c`, the stack at `(l, c)`. A rank-1 array broadcast to a
  new leading unit axis reads, at `(u, c)`, the array at `c`.
-/
import Idealize.ShloMosaic.Lib.ValueLayout

namespace Cert.SliceAt

open Idealize.ShloMosaic Idealize.ShloMosaic.ValueIdx

variable {α : Type}

/-- A slice of a rank-3 array with a one-layer leading extent and full trailing extent, started at `(lv, o, 0)`, read
    at `(u, b, c)`: the array at `(l, r, c)`, where `l` is the layer `lv` and `r` the row `o + b`. -/
theorem slice3_layer_apply {n0 n1 n2 m1 : ℕ} (lv o : ℕ) (A : (⟨3, ![n0, n1, n2]⟩ : Shape).Idx → α)
    (hs : (⟨3, ![n0, n1, n2]⟩ : Shape).Slices ![lv, o, 0] ⟨3, ![1, m1, n2]⟩)
    (u : Fin 1) (b : Fin m1) (c : Fin n2) (l : Fin n0) (r : Fin n1) (hl : l.val = lv) (hr : r.val = o + b.val) :
    extractStridedSlice ⟨3, ![1, m1, n2]⟩ ![lv, o, 0] A hs (ix3 u b c) = A (ix3 l r c) :=
  extractStridedSlice_apply _ A hs _ _ fun a => match a with
    | ⟨0, _⟩ => by
        have hu : u.val = 0 := by omega
        show l.val = lv + u.val
        omega
    | ⟨1, _⟩ => by
        show r.val = o + b.val
        exact hr
    | ⟨2, _⟩ => by
        show c.val = 0 + c.val
        omega

/-- Layer `lv`, rows `o … o + m1 − 1` of a rank-3 stack, the leading unit axis dropped, read at `(b, c)`:
    the stack at `(l, r, c)` with `l` the layer and `r` the row `o + b`. -/
theorem cast_slice3_apply {n0 n1 n2 m1 : ℕ} (lv o : ℕ) (A : (⟨3, ![n0, n1, n2]⟩ : Shape).Idx → α)
    (hs : (⟨3, ![n0, n1, n2]⟩ : Shape).Slices ![lv, o, 0] ⟨3, ![1, m1, n2]⟩)
    (hc : (⟨3, ![1, m1, n2]⟩ : Shape).ShapeCasts ⟨2, ![m1, n2]⟩)
    (b : Fin m1) (c : Fin n2) (l : Fin n0) (r : Fin n1) (hl : l.val = lv) (hr : r.val = o + b.val) :
    shapeCast ⟨2, ![m1, n2]⟩ (extractStridedSlice ⟨3, ![1, m1, n2]⟩ ![lv, o, 0] A hs) hc (ix2 b c) = A (ix3 l r c) :=
  (shapeCast_1ab_ab_apply _ hc b c).trans (slice3_layer_apply lv o A hs 0 b c l r hl hr)

/-- A one-row slice of a rank-2 array with full trailing extent, started at `(lv, 0)`, read at `(u, c)`:
    the array at row `lv`, column `c`. -/
theorem slice2_row_apply {n0 n1 : ℕ} (lv : ℕ) (A : (⟨2, ![n0, n1]⟩ : Shape).Idx → α)
    (hs : (⟨2, ![n0, n1]⟩ : Shape).Slices ![lv, 0] ⟨2, ![1, n1]⟩)
    (u : Fin 1) (c : Fin n1) (l : Fin n0) (hl : l.val = lv) :
    extractStridedSlice ⟨2, ![1, n1]⟩ ![lv, 0] A hs (ix2 u c) = A (ix2 l c) :=
  extractStridedSlice_apply _ A hs _ _ fun a => match a with
    | ⟨0, _⟩ => by
        have hu : u.val = 0 := by omega
        show l.val = lv + u.val
        omega
    | ⟨1, _⟩ => by
        show c.val = 0 + c.val
        omega

/-- Row `lv` of a rank-2 stack, the leading unit axis dropped, read at `c`. -/
theorem cast_slice2_apply {n0 n1 : ℕ} (lv : ℕ) (A : (⟨2, ![n0, n1]⟩ : Shape).Idx → α)
    (hs : (⟨2, ![n0, n1]⟩ : Shape).Slices ![lv, 0] ⟨2, ![1, n1]⟩)
    (hc : (⟨2, ![1, n1]⟩ : Shape).ShapeCasts ⟨1, ![n1]⟩)
    (c : Fin n1) (l : Fin n0) (hl : l.val = lv) :
    shapeCast ⟨1, ![n1]⟩ (extractStridedSlice ⟨2, ![1, n1]⟩ ![lv, 0] A hs) hc (ix1 c) = A (ix2 l c) :=
  (shapeCast_1a_a_apply _ hc c).trans (slice2_row_apply lv A hs 0 c l hl)

/-- A rank-1 array broadcast to a new leading unit axis, read at `(u, c)`: the array at `c`. -/
theorem bcast_row_apply {m : ℕ} (v : (⟨1, ![m]⟩ : Shape).Idx → α)
    (hb : (⟨1, ![m]⟩ : Shape).BroadcastsInDim ⟨2, ![1, m]⟩ (![1] : Fin 1 → Fin 2))
    (u : Fin 1) (c : Fin m) :
    broadcastInDim ⟨2, ![1, m]⟩ (![1] : Fin 1 → Fin 2) hb v (ix2 u c) = v (ix1 c) :=
  broadcastInDim_apply _ hb v _ (ix1 c) fun a => match a with
    | ⟨0, _⟩ => by
        have hc := c.isLt
        show c.val = if m = 1 then 0 else c.val
        split <;> omega

end Cert.SliceAt
-- ==== Proof.SliceW.lean ====
/-
  The weight pieces of SpecW as slices: layer `l`'s pieces of the stacked weight arrays, cut out by a unit-stride slice
  and a reshape (and, for a bias, a broadcast back to one row), are the direct reads of the argument arrays that SpecW
  names. Each statement is for any layer number and any proofs of the slice, reshape and broadcast side conditions.
  Two ways of cutting occur: a piece cut out directly at its row offset, and a whole layer cut out and then read by rows.
-/
import proofs.«156944_j45535243272652_2_alg».proof.Proof.SpecW
import proofs.«156944_j45535243272652_2_alg».proof.Proof.SliceAt

namespace Cert.SliceW

open Idealize.ShloMosaic Idealize.ShloMosaic.ValueIdx Cert.SliceAt Cert.Spec

/-! ## Pieces cut out directly (the kernel's cuts; the reference's second-stage weights, gate column too) -/

/-- Rows `o … o + 127` of layer `l` of a [4, n, 128] stack, sliced and reshaped to 128×128. -/
theorem block_eq {n : ℕ} (l : Fin 4) (lv o : ℕ) (hl : l.val = lv) (ho : o + 128 ≤ n)
    (A : (⟨3, ![4, n, 128]⟩ : Shape).Idx → EReal)
    (hs : (⟨3, ![4, n, 128]⟩ : Shape).Slices ![lv, o, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![lv, o, 0] A hs) hc = wBlock A l o ho := by
  funext i
  obtain ⟨b, c, rfl⟩ : ∃ (b c : Fin 128), i = ix2 b c := ⟨i 0, i 1, eq_ix2 i⟩
  exact cast_slice3_apply lv o A hs hc b c l _ hl rfl

/-- Row `r` of layer `l` of a [4, n, 128] stack, sliced and reshaped to 1×128. -/
theorem rowAt_eq {n : ℕ} (l : Fin 4) (lv : ℕ) (hl : l.val = lv) (r : Fin n) (rv : ℕ) (hr : r.val = rv)
    (A : (⟨3, ![4, n, 128]⟩ : Shape).Idx → EReal)
    (hs : (⟨3, ![4, n, 128]⟩ : Shape).Slices ![lv, rv, 0] ⟨3, ![1, 1, 128]⟩)
    (hc : (⟨3, ![1, 1, 128]⟩ : Shape).ShapeCasts ⟨2, ![1, 128]⟩) :
    shapeCast ⟨2, ![1, 128]⟩ (extractStridedSlice ⟨3, ![1, 1, 128]⟩ ![lv, rv, 0] A hs) hc = wRowAt A l r := by
  funext i
  obtain ⟨b, c, rfl⟩ : ∃ (b : Fin 1) (c : Fin 128), i = ix2 b c := ⟨i 0, i 1, eq_ix2 i⟩
  exact cast_slice3_apply lv rv A hs hc b c l r hl (by have := b.isLt; omega)

/-- Layer `l` of the [4, 128, 1] stack, sliced and reshaped to 128×1. -/
theorem col_eq (l : Fin 4) (lv : ℕ) (hl : l.val = lv) (A : (⟨3, ![4, 128, 1]⟩ : Shape).Idx → EReal)
    (hs : (⟨3, ![4, 128, 1]⟩ : Shape).Slices ![lv, 0, 0] ⟨3, ![1, 128, 1]⟩)
    (hc : (⟨3, ![1, 128, 1]⟩ : Shape).ShapeCasts ⟨2, ![128, 1]⟩) :
    shapeCast ⟨2, ![128, 1]⟩ (extractStridedSlice ⟨3, ![1, 128, 1]⟩ ![lv, 0, 0] A hs) hc = wCol A l := by
  funext i
  obtain ⟨b, c, rfl⟩ : ∃ (b : Fin 128) (c : Fin 1), i = ix2 b c := ⟨i 0, i 1, eq_ix2 i⟩
  obtain rfl : c = 0 := Subsingleton.elim _ _
  exact cast_slice3_apply lv 0 A hs hc b 0 l b hl (Nat.zero_add _).symm

/-! ## Rows of the rank-2 stacks -/

/-- Row `l` of a [4, m] stack, sliced and reshaped to a vector, read at `c`. -/
theorem vec_apply {m : ℕ} (l : Fin 4) (lv : ℕ) (hl : l.val = lv) (A : (⟨2, ![4, m]⟩ : Shape).Idx → EReal)
    (hs : (⟨2, ![4, m]⟩ : Shape).Slices ![lv, 0] ⟨2, ![1, m]⟩)
    (hc : (⟨2, ![1, m]⟩ : Shape).ShapeCasts ⟨1, ![m]⟩) (c : Fin m) :
    shapeCast ⟨1, ![m]⟩ (extractStridedSlice ⟨2, ![1, m]⟩ ![lv, 0] A hs) hc (ix1 c) = A (ix2 l c) :=
  cast_slice2_apply lv A hs hc c l hl

/-- Row `l` of a [4, 128] stack as a 1×128 array, read off the sliced vector by its column. -/
theorem bvec_fun_eq (l : Fin 4) (lv : ℕ) (hl : l.val = lv) (A : (⟨2, ![4, 128]⟩ : Shape).Idx → EReal)
    (hs : (⟨2, ![4, 128]⟩ : Shape).Slices ![lv, 0] ⟨2, ![1, 128]⟩)
    (hc : (⟨2, ![1, 128]⟩ : Shape).ShapeCasts ⟨1, ![128]⟩) :
    (fun i : SR.Idx => shapeCast ⟨1, ![128]⟩ (extractStridedSlice ⟨2, ![1, 128]⟩ ![lv, 0] A hs) hc (ix1 (i 1))) = bRow A l := by
  funext i
  exact vec_apply l lv hl A hs hc (i 1)

/-- Row `l` of a [4, 128] stack, sliced, reshaped to a vector and broadcast back to 1×128. -/
theorem brow_eq (l : Fin 4) (lv : ℕ) (hl : l.val = lv) (A : (⟨2, ![4, 128]⟩ : Shape).Idx → EReal)
    (hs : (⟨2, ![4, 128]⟩ : Shape).Slices ![lv, 0] ⟨2, ![1, 128]⟩)
    (hc : (⟨2, ![1, 128]⟩ : Shape).ShapeCasts ⟨1, ![128]⟩)
    (hb : (⟨1, ![128]⟩ : Shape).BroadcastsInDim ⟨2, ![1, 128]⟩ (![1] : Fin 1 → Fin 2)) :
    broadcastInDim ⟨2, ![1, 128]⟩ (![1] : Fin 1 → Fin 2) hb
      (shapeCast ⟨1, ![128]⟩ (extractStridedSlice ⟨2, ![1, 128]⟩ ![lv, 0] A hs) hc) = bRow A l := by
  funext i
  obtain ⟨u, c, rfl⟩ : ∃ (u : Fin 1) (c : Fin 128), i = ix2 u c := ⟨i 0, i 1, eq_ix2 i⟩
  exact (bcast_row_apply _ hb u c).trans (vec_apply l lv hl A hs hc c)

/-- Entry `l` of the [4, 1] stack as a 1×1 array, read off the sliced one-entry vector. -/
theorem b11_fun_eq (l : Fin 4) (lv : ℕ) (hl : l.val = lv) (A : (⟨2, ![4, 1]⟩ : Shape).Idx → EReal)
    (hs : (⟨2, ![4, 1]⟩ : Shape).Slices ![lv, 0] ⟨2, ![1, 1]⟩)
    (hc : (⟨2, ![1, 1]⟩ : Shape).ShapeCasts ⟨1, ![1]⟩) :
    (fun _ : S11.Idx => shapeCast ⟨1, ![1]⟩ (extractStridedSlice ⟨2, ![1, 1]⟩ ![lv, 0] A hs) hc (ix1 (0 : Fin 1))) = b11 A l := by
  funext _
  exact vec_apply l lv hl A hs hc 0

/-- Entry `l` of the [4, 1] stack, sliced, reshaped to a one-entry vector and broadcast back to 1×1. -/
theorem b11_eq (l : Fin 4) (lv : ℕ) (hl : l.val = lv) (A : (⟨2, ![4, 1]⟩ : Shape).Idx → EReal)
    (hs : (⟨2, ![4, 1]⟩ : Shape).Slices ![lv, 0] ⟨2, ![1, 1]⟩)
    (hc : (⟨2, ![1, 1]⟩ : Shape).ShapeCasts ⟨1, ![1]⟩)
    (hb : (⟨1, ![1]⟩ : Shape).BroadcastsInDim ⟨2, ![1, 1]⟩ (![1] : Fin 1 → Fin 2)) :
    broadcastInDim ⟨2, ![1, 1]⟩ (![1] : Fin 1 → Fin 2) hb
      (shapeCast ⟨1, ![1]⟩ (extractStridedSlice ⟨2, ![1, 1]⟩ ![lv, 0] A hs) hc) = b11 A l := by
  funext i
  obtain ⟨u, c, rfl⟩ : ∃ (u : Fin 1) (c : Fin 1), i = ix2 u c := ⟨i 0, i 1, eq_ix2 i⟩
  obtain rfl : c = 0 := Subsingleton.elim _ _
  exact (bcast_row_apply _ hb u 0).trans (vec_apply l lv hl A hs hc 0)

/-! ## A whole layer cut out, then read by rows (the reference's first-stage weights) -/

/-- Layer `l` of a [4, n, 128] stack, sliced whole and reshaped to n×128, read at `(k, c)`. -/
theorem layer_apply {n : ℕ} (l : Fin 4) (lv : ℕ) (hl : l.val = lv) (A : (⟨3, ![4, n, 128]⟩ : Shape).Idx → EReal)
    (hs : (⟨3, ![4, n, 128]⟩ : Shape).Slices ![lv, 0, 0] ⟨3, ![1, n, 128]⟩)
    (hc : (⟨3, ![1, n, 128]⟩ : Shape).ShapeCasts ⟨2, ![n, 128]⟩) (k : Fin n) (c : Fin 128) :
    shapeCast ⟨2, ![n, 128]⟩ (extractStridedSlice ⟨3, ![1, n, 128]⟩ ![lv, 0, 0] A hs) hc (ix2 k c) = A (ix3 l k c) :=
  cast_slice3_apply lv 0 A hs hc k c l k hl (Nat.zero_add _).symm

/-- Rows `o … o + 127` of the whole-layer cut are the block of the stack at row offset `o`; the row index may carry
    any proof of its bound. -/
theorem layer_rows_eq {n : ℕ} (l : Fin 4) (lv o : ℕ) (hl : l.val = lv) (ho : o + 128 ≤ n)
    (A : (⟨3, ![4, n, 128]⟩ : Shape).Idx → EReal)
    (hs : (⟨3, ![4, n, 128]⟩ : Shape).Slices ![lv, 0, 0] ⟨3, ![1, n, 128]⟩)
    (hc : (⟨3, ![1, n, 128]⟩ : Shape).ShapeCasts ⟨2, ![n, 128]⟩)
    (hk : ∀ i : SW.Idx, o + (i 0).val < n) :
    (fun i : SW.Idx => shapeCast ⟨2, ![n, 128]⟩ (extractStridedSlice ⟨3, ![1, n, 128]⟩ ![lv, 0, 0] A hs) hc
        (ix2 (⟨o + (i 0).val, hk i⟩ : Fin n) (i 1))) = wBlock A l o ho := by
  funext i
  exact layer_apply l lv hl A hs hc _ (i 1)

/-- The first 128 rows of the whole-layer cut, the row index written without an offset. -/
theorem layer_top_eq {n : ℕ} (l : Fin 4) (lv : ℕ) (hl : l.val = lv) (ho : 0 + 128 ≤ n)
    (A : (⟨3, ![4, n, 128]⟩ : Shape).Idx → EReal)
    (hs : (⟨3, ![4, n, 128]⟩ : Shape).Slices ![lv, 0, 0] ⟨3, ![1, n, 128]⟩)
    (hc : (⟨3, ![1, n, 128]⟩ : Shape).ShapeCasts ⟨2, ![n, 128]⟩)
    (hk : ∀ i : SW.Idx, (i 0).val < n) :
    (fun i : SW.Idx => shapeCast ⟨2, ![n, 128]⟩ (extractStridedSlice ⟨3, ![1, n, 128]⟩ ![lv, 0, 0] A hs) hc
        (ix2 (⟨(i 0).val, hk i⟩ : Fin n) (i 1))) = wBlock A l 0 ho := by
  funext i
  refine (layer_apply l lv hl A hs hc _ (i 1)).trans ?_
  show A (ix3 l (⟨(i 0).val, hk i⟩ : Fin n) (i 1)) = A (ix3 l (⟨0 + (i 0).val, _⟩ : Fin n) (i 1))
  congr 2
  exact Fin.ext (Nat.zero_add _).symm

/-- One row of the whole-layer cut, as a 1×128 array. -/
theorem layer_row_eq {n : ℕ} (l : Fin 4) (lv : ℕ) (hl : l.val = lv) (r : Fin n)
    (A : (⟨3, ![4, n, 128]⟩ : Shape).Idx → EReal)
    (hs : (⟨3, ![4, n, 128]⟩ : Shape).Slices ![lv, 0, 0] ⟨3, ![1, n, 128]⟩)
    (hc : (⟨3, ![1, n, 128]⟩ : Shape).ShapeCasts ⟨2, ![n, 128]⟩) :
    (fun i : SR.Idx => shapeCast ⟨2, ![n, 128]⟩ (extractStridedSlice ⟨3, ![1, n, 128]⟩ ![lv, 0, 0] A hs) hc
        (ix2 r (i 1))) = wRowAt A l r := by
  funext i
  exact layer_apply l lv hl A hs hc r (i 1)

end Cert.SliceW
-- ==== Proof.KStageOps0.lean ====
/-
  Layer 0 of the kernel program, stretch by stretch: what each stretch of host operations computes, from ANY buffer
  contents `V` it is entered with.

  A stretch is a literal list of array operations; the contents of one buffer after it is the composition of the
  operations that feed that buffer, applied to the contents of the buffers the stretch reads. The first two stretches
  embed the node features; the third centres the positions, cuts the edge list into its two rows, and gathers the
  narrowed features and the positions at each edge's two ends; the callee after it turns the difference of
  the gathered positions into the edge lengths; the next stretch cuts the layer's edge weights out of the stacked
  arguments (each cut is that argument's block, row, column or entry for layer 0); the stretch after the edge region
  widens the messages, sums them onto their targets and cuts out the node weights.
-/
import proofs.«156944_j45535243272652_2_alg».proof.Proof.Gen.KernelIdeal.Launch
import proofs.«156944_j45535243272652_2_alg».proof.Proof.KStageDefs
import proofs.«156944_j45535243272652_2_alg».proof.Proof.SliceW
import Idealize.ShloMosaic.Lib.StableHlo.Run

set_option maxRecDepth 16384

noncomputable section

namespace Cert.KernelIdeal.KStage

open Cert.KernelIdeal Cert.KernelIdeal.Gen
open Idealize.ShloMosaic Idealize.ShloMosaic.TcCoe

/-- A callee's values pass through its typed references unchanged. -/
local macro "casts_off" : tactic => `(tactic| (try simp only [StableHlo.TRef.ofBuf, StableHlo.TRef.toBuf, cast_eq]))

/-! ## The embedding and the geometry (the first three stretches) -/

theorem ops_h (V : Valuation τ sig (Elt Ideal)) :
    StableHlo.after (hostOps0_1 (F := Ideal)) (StableHlo.after (hostOps0 (F := Ideal)) V) (Proc.devRef .tc main_v4)
      = pH (V (Proc.devRef .tc main_arg0)) (V (Proc.devRef .tc main_arg4)) (V (Proc.devRef .tc main_arg5)) := by
  after_results
  casts_off
  rfl
theorem ops_pos (V : Valuation τ sig (Elt Ideal)) :
    StableHlo.after (hostOps0_2 (F := Ideal)) V (Proc.devRef .tc main_v23) = pPos (V (Proc.devRef .tc main_arg1)) (V (Proc.devRef .tc main_arg3)) := by
  after_results_simp
  rfl
theorem ops_src (V : Valuation τ sig (Elt Ideal)) :
    StableHlo.after (hostOps0_2 (F := Ideal)) V (Proc.devRef .tc main_v25) = pSrc (V (Proc.devRef .tc main_arg2)) := by
  after_results_simp
  rfl
theorem ops_dst (V : Valuation τ sig (Elt Ideal)) :
    StableHlo.after (hostOps0_2 (F := Ideal)) V (Proc.devRef .tc main_v27) = pDst (V (Proc.devRef .tc main_arg2)) := by
  after_results_simp
  rfl

/-! ## Layer 0: what the edge region is entered with -/

theorem ops0_hi (V : Valuation τ sig (Elt Ideal)) :
    StableHlo.after (hostOps0_2 (F := Ideal)) V (Proc.devRef .tc main_v35) = kGatherH (V (Proc.devRef .tc main_v4)) (pDst (V (Proc.devRef .tc main_arg2))) := by
  after_results_simp
  rfl
theorem ops0_hj (V : Valuation τ sig (Elt Ideal)) :
    StableHlo.after (hostOps0_2 (F := Ideal)) V (Proc.devRef .tc main_v42) = kGatherH (V (Proc.devRef .tc main_v4)) (pSrc (V (Proc.devRef .tc main_arg2))) := by
  after_results_simp
  rfl
theorem ops0_dist (V : Valuation τ sig (Elt Ideal)) :
    StableHlo.after (hostOps0_3 (F := Ideal)) (StableHlo.after (hostOps0_2 (F := Ideal)) V) (Proc.devRef .tc main_v58)
      = kDist (pPos (V (Proc.devRef .tc main_arg1)) (V (Proc.devRef .tc main_arg3))) (pSrc (V (Proc.devRef .tc main_arg2))) (pDst (V (Proc.devRef .tc main_arg2))) := by
  after_results_simp
  casts_off
  rfl

/-! ### The edge weights: each slice of a stacked argument is that argument's piece for layer 0 -/

theorem ops0_w60 (V : Valuation τ sig (Elt Ideal)) :
    StableHlo.after (hostOps0_4 (F := Ideal)) V (Proc.devRef .tc main_v60) = Cert.Spec.wBlock (n := 257) (V (Proc.devRef .tc main_arg6)) 0 0 (by decide) := by
  after_results
  exact Cert.SliceW.block_eq (n := 257) 0 0 0 rfl (by decide) (V (Proc.devRef .tc main_arg6)) slices_S4x257x128_S1x128x128_0_0_0 shapeCasts_S1x128x128_S128x128

theorem ops0_w62 (V : Valuation τ sig (Elt Ideal)) :
    StableHlo.after (hostOps0_4 (F := Ideal)) V (Proc.devRef .tc main_v62) = Cert.Spec.wBlock (n := 257) (V (Proc.devRef .tc main_arg6)) 0 128 (by decide) := by
  after_results
  exact Cert.SliceW.block_eq (n := 257) 0 0 128 rfl (by decide) (V (Proc.devRef .tc main_arg6)) slices_S4x257x128_S1x128x128_0_128_0 shapeCasts_S1x128x128_S128x128

theorem ops0_w64 (V : Valuation τ sig (Elt Ideal)) :
    StableHlo.after (hostOps0_4 (F := Ideal)) V (Proc.devRef .tc main_v64) = Cert.Spec.wRowAt (n := 257) (V (Proc.devRef .tc main_arg6)) 0 ⟨256, by decide⟩ := by
  after_results
  exact Cert.SliceW.rowAt_eq (n := 257) 0 0 rfl ⟨256, by decide⟩ 256 rfl (V (Proc.devRef .tc main_arg6)) slices_S4x257x128_S1x1x128_0_256_0 shapeCasts_S1x1x128_S1x128

theorem ops0_w67 (V : Valuation τ sig (Elt Ideal)) :
    StableHlo.after (hostOps0_4 (F := Ideal)) V (Proc.devRef .tc main_v67) = Cert.Spec.bRow (V (Proc.devRef .tc main_arg7)) 0 := by
  after_results
  exact Cert.SliceW.brow_eq 0 0 rfl (V (Proc.devRef .tc main_arg7)) slices_S4x128_S1x128_0_0 shapeCasts_S1x128_S128 bcast_S128_S1x128_1

theorem ops0_w69 (V : Valuation τ sig (Elt Ideal)) :
    StableHlo.after (hostOps0_4 (F := Ideal)) V (Proc.devRef .tc main_v69) = Cert.Spec.wBlock (n := 128) (V (Proc.devRef .tc main_arg8)) 0 0 (by decide) := by
  after_results
  exact Cert.SliceW.block_eq (n := 128) 0 0 0 rfl (by decide) (V (Proc.devRef .tc main_arg8)) slices_S4x128x128_S1x128x128_0_0_0 shapeCasts_S1x128x128_S128x128

theorem ops0_w72 (V : Valuation τ sig (Elt Ideal)) :
    StableHlo.after (hostOps0_4 (F := Ideal)) V (Proc.devRef .tc main_v72) = Cert.Spec.bRow (V (Proc.devRef .tc main_arg9)) 0 := by
  after_results
  exact Cert.SliceW.brow_eq 0 0 rfl (V (Proc.devRef .tc main_arg9)) slices_S4x128_S1x128_0_0 shapeCasts_S1x128_S128 bcast_S128_S1x128_1

theorem ops0_w74 (V : Valuation τ sig (Elt Ideal)) :
    StableHlo.after (hostOps0_4 (F := Ideal)) V (Proc.devRef .tc main_v74) = Cert.Spec.wCol (V (Proc.devRef .tc main_arg10)) 0 := by
  after_results
  exact Cert.SliceW.col_eq 0 0 rfl (V (Proc.devRef .tc main_arg10)) slices_S4x128x1_S1x128x1_0_0_0 shapeCasts_S1x128x1_S128x1

theorem ops0_w77 (V : Valuation τ sig (Elt Ideal)) :
    StableHlo.after (hostOps0_4 (F := Ideal)) V (Proc.devRef .tc main_v77) = Cert.Spec.b11 (V (Proc.devRef .tc main_arg11)) 0 := by
  after_results
  exact Cert.SliceW.b11_eq 0 0 rfl (V (Proc.devRef .tc main_arg11)) slices_S4x1_S1x1_0_0 shapeCasts_S1x1_S1 bcast_S1_S1x1_1

/-! ## Layer 0: what the node region is entered with -/

theorem ops0_agg (V : Valuation τ sig (Elt Ideal)) :
    StableHlo.after (hostOps1 (F := Ideal)) V (Proc.devRef .tc main_v82) = kAgg (V (Proc.devRef .tc main_v78)) (V (Proc.devRef .tc main_v27)) := by
  after_results
  rfl

theorem ops0_nw84 (V : Valuation τ sig (Elt Ideal)) :
    StableHlo.after (hostOps1 (F := Ideal)) V (Proc.devRef .tc main_v84) = Cert.Spec.wBlock (n := 256) (V (Proc.devRef .tc main_arg12)) 0 0 (by decide) := by
  after_results
  exact Cert.SliceW.block_eq (n := 256) 0 0 0 rfl (by decide) (V (Proc.devRef .tc main_arg12)) slices_S4x256x128_S1x128x128_0_0_0 shapeCasts_S1x128x128_S128x128

theorem ops0_nw86 (V : Valuation τ sig (Elt Ideal)) :
    StableHlo.after (hostOps1 (F := Ideal)) V (Proc.devRef .tc main_v86) = Cert.Spec.wBlock (n := 256) (V (Proc.devRef .tc main_arg12)) 0 128 (by decide) := by
  after_results
  exact Cert.SliceW.block_eq (n := 256) 0 0 128 rfl (by decide) (V (Proc.devRef .tc main_arg12)) slices_S4x256x128_S1x128x128_0_128_0 shapeCasts_S1x128x128_S128x128

theorem ops0_nw89 (V : Valuation τ sig (Elt Ideal)) :
    StableHlo.after (hostOps1 (F := Ideal)) V (Proc.devRef .tc main_v89) = Cert.Spec.bRow (V (Proc.devRef .tc main_arg13)) 0 := by
  after_results
  exact Cert.SliceW.brow_eq 0 0 rfl (V (Proc.devRef .tc main_arg13)) slices_S4x128_S1x128_0_0 shapeCasts_S1x128_S128 bcast_S128_S1x128_1

theorem ops0_nw91 (V : Valuation τ sig (Elt Ideal)) :
    StableHlo.after (hostOps1 (F := Ideal)) V (Proc.devRef .tc main_v91) = Cert.Spec.wBlock (n := 128) (V (Proc.devRef .tc main_arg14)) 0 0 (by decide) := by
  after_results
  exact Cert.SliceW.block_eq (n := 128) 0 0 0 rfl (by decide) (V (Proc.devRef .tc main_arg14)) slices_S4x128x128_S1x128x128_0_0_0 shapeCasts_S1x128x128_S128x128

theorem ops0_nw94 (V : Valuation τ sig (Elt Ideal)) :
    StableHlo.after (hostOps1 (F := Ideal)) V (Proc.devRef .tc main_v94) = Cert.Spec.bRow (V (Proc.devRef .tc main_arg15)) 0 := by
  after_results
  exact Cert.SliceW.brow_eq 0 0 rfl (V (Proc.devRef .tc main_arg15)) slices_S4x128_S1x128_0_0 shapeCasts_S1x128_S128 bcast_S128_S1x128_1

theorem ops0_nw97 (V : Valuation τ sig (Elt Ideal)) :
    StableHlo.after (hostOps1 (F := Ideal)) V (Proc.devRef .tc main_v97) = Cert.Spec.bRow (V (Proc.devRef .tc main_arg16)) 0 := by
  after_results
  exact Cert.SliceW.brow_eq 0 0 rfl (V (Proc.devRef .tc main_arg16)) slices_S4x128_S1x128_0_0 shapeCasts_S1x128_S128 bcast_S128_S1x128_1

theorem ops0_nw100 (V : Valuation τ sig (Elt Ideal)) :
    StableHlo.after (hostOps1 (F := Ideal)) V (Proc.devRef .tc main_v100) = Cert.Spec.bRow (V (Proc.devRef .tc main_arg17)) 0 := by
  after_results
  exact Cert.SliceW.brow_eq 0 0 rfl (V (Proc.devRef .tc main_arg17)) slices_S4x128_S1x128_0_0 shapeCasts_S1x128_S128 bcast_S128_S1x128_1

end Cert.KernelIdeal.KStage

end
-- ==== Proof.KStageP.lean ====
/-
  The prefix of the kernel program at its boundaries: the embedded features, the centred positions and the two rows of
  the edge list, as functions of the argument arrays, at every boundary of the run from which a layer reads them.

  The first two stretches compute the embedded features from the arguments as launched; the third computes the centred
  positions and the edge rows from arguments that are still as launched. No later operation writes any of the four
  buffers and no region has one of the last three among its arrays, so each boundary's contents there are those values.
-/
import proofs.«156944_j45535243272652_2_alg».proof.Proof.FrameKI
import proofs.«156944_j45535243272652_2_alg».proof.Proof.KStageKeep
import proofs.«156944_j45535243272652_2_alg».proof.Proof.KStageOps0

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

/-! ## The embedded features -/

theorem h_W2 : W2 m ρ c (Proc.devRef .tc main_v4) = pH (m ((c : Thread nD τ).loc main_arg0)) (m ((c : Thread nD τ).loc main_arg4)) (m ((c : Thread nD τ).loc main_arg5)) :=
  ops_h (W0 m ρ c)
theorem h_W5 : W5 m ρ c (Proc.devRef .tc main_v4) = pH (m ((c : Thread nD τ).loc main_arg0)) (m ((c : Thread nD τ).loc main_arg4)) (m ((c : Thread nD τ).loc main_arg5)) :=
  (keep0_4 _ main_v4 (by decide)).trans ((keep0_3 _ main_v4 (by decide)).trans ((keep0_2 _ main_v4 (by decide)).trans (h_W2 m ρ c)))

/-! ## The geometry where it is computed -/

theorem pos_W3 : W3 m ρ c (Proc.devRef .tc main_v23) = pPos (m ((c : Thread nD τ).loc main_arg1)) (m ((c : Thread nD τ).loc main_arg3)) :=
  (ops_pos (W2 m ρ c)).trans (by rw [arg_W2 m ρ c main_arg1 (by decide), arg_W2 m ρ c main_arg3 (by decide)])
theorem src_W3 : W3 m ρ c (Proc.devRef .tc main_v25) = pSrc (m ((c : Thread nD τ).loc main_arg2)) :=
  (ops_src (W2 m ρ c)).trans (by rw [arg_W2 m ρ c main_arg2 (by decide)])
theorem dst_W3 : W3 m ρ c (Proc.devRef .tc main_v27) = pDst (m ((c : Thread nD τ).loc main_arg2)) :=
  (ops_dst (W2 m ρ c)).trans (by rw [arg_W2 m ρ c main_arg2 (by decide)])

/-! ## The geometry at every later boundary -/
theorem pos_W4 : W4 m ρ c (Proc.devRef .tc main_v23) = pPos (m ((c : Thread nD τ).loc main_arg1)) (m ((c : Thread nD τ).loc main_arg3)) := (geo_W4 m ρ c main_v23 (by decide)).trans (pos_W3 m ρ c)
theorem src_W4 : W4 m ρ c (Proc.devRef .tc main_v25) = pSrc (m ((c : Thread nD τ).loc main_arg2)) := (geo_W4 m ρ c main_v25 (by decide)).trans (src_W3 m ρ c)
theorem dst_W4 : W4 m ρ c (Proc.devRef .tc main_v27) = pDst (m ((c : Thread nD τ).loc main_arg2)) := (geo_W4 m ρ c main_v27 (by decide)).trans (dst_W3 m ρ c)
theorem pos_W5 : W5 m ρ c (Proc.devRef .tc main_v23) = pPos (m ((c : Thread nD τ).loc main_arg1)) (m ((c : Thread nD τ).loc main_arg3)) := (geo_W5 m ρ c main_v23 (by decide)).trans (pos_W3 m ρ c)
theorem src_W5 : W5 m ρ c (Proc.devRef .tc main_v25) = pSrc (m ((c : Thread nD τ).loc main_arg2)) := (geo_W5 m ρ c main_v25 (by decide)).trans (src_W3 m ρ c)
theorem dst_W5 : W5 m ρ c (Proc.devRef .tc main_v27) = pDst (m ((c : Thread nD τ).loc main_arg2)) := (geo_W5 m ρ c main_v27 (by decide)).trans (dst_W3 m ρ c)
theorem pos_W6 : W6 m ρ c (Proc.devRef .tc main_v23) = pPos (m ((c : Thread nD τ).loc main_arg1)) (m ((c : Thread nD τ).loc main_arg3)) := (geo_W6 m ρ c main_v23 (by decide)).trans (pos_W3 m ρ c)
theorem src_W6 : W6 m ρ c (Proc.devRef .tc main_v25) = pSrc (m ((c : Thread nD τ).loc main_arg2)) := (geo_W6 m ρ c main_v25 (by decide)).trans (src_W3 m ρ c)
theorem dst_W6 : W6 m ρ c (Proc.devRef .tc main_v27) = pDst (m ((c : Thread nD τ).loc main_arg2)) := (geo_W6 m ρ c main_v27 (by decide)).trans (dst_W3 m ρ c)
theorem pos_W7 : W7 m ρ c (Proc.devRef .tc main_v23) = pPos (m ((c : Thread nD τ).loc main_arg1)) (m ((c : Thread nD τ).loc main_arg3)) := (geo_W7 m ρ c main_v23 (by decide)).trans (pos_W3 m ρ c)
theorem src_W7 : W7 m ρ c (Proc.devRef .tc main_v25) = pSrc (m ((c : Thread nD τ).loc main_arg2)) := (geo_W7 m ρ c main_v25 (by decide)).trans (src_W3 m ρ c)
theorem dst_W7 : W7 m ρ c (Proc.devRef .tc main_v27) = pDst (m ((c : Thread nD τ).loc main_arg2)) := (geo_W7 m ρ c main_v27 (by decide)).trans (dst_W3 m ρ c)
theorem pos_W8 : W8 m ρ c (Proc.devRef .tc main_v23) = pPos (m ((c : Thread nD τ).loc main_arg1)) (m ((c : Thread nD τ).loc main_arg3)) := (geo_W8 m ρ c main_v23 (by decide)).trans (pos_W3 m ρ c)
theorem src_W8 : W8 m ρ c (Proc.devRef .tc main_v25) = pSrc (m ((c : Thread nD τ).loc main_arg2)) := (geo_W8 m ρ c main_v25 (by decide)).trans (src_W3 m ρ c)
theorem dst_W8 : W8 m ρ c (Proc.devRef .tc main_v27) = pDst (m ((c : Thread nD τ).loc main_arg2)) := (geo_W8 m ρ c main_v27 (by decide)).trans (dst_W3 m ρ c)
theorem pos_W9 : W9 m ρ c (Proc.devRef .tc main_v23) = pPos (m ((c : Thread nD τ).loc main_arg1)) (m ((c : Thread nD τ).loc main_arg3)) := (geo_W9 m ρ c main_v23 (by decide)).trans (pos_W3 m ρ c)
theorem src_W9 : W9 m ρ c (Proc.devRef .tc main_v25) = pSrc (m ((c : Thread nD τ).loc main_arg2)) := (geo_W9 m ρ c main_v25 (by decide)).trans (src_W3 m ρ c)
theorem dst_W9 : W9 m ρ c (Proc.devRef .tc main_v27) = pDst (m ((c : Thread nD τ).loc main_arg2)) := (geo_W9 m ρ c main_v27 (by decide)).trans (dst_W3 m ρ c)
theorem pos_W10 : W10 m ρ c (Proc.devRef .tc main_v23) = pPos (m ((c : Thread nD τ).loc main_arg1)) (m ((c : Thread nD τ).loc main_arg3)) := (geo_W10 m ρ c main_v23 (by decide)).trans (pos_W3 m ρ c)
theorem src_W10 : W10 m ρ c (Proc.devRef .tc main_v25) = pSrc (m ((c : Thread nD τ).loc main_arg2)) := (geo_W10 m ρ c main_v25 (by decide)).trans (src_W3 m ρ c)
theorem dst_W10 : W10 m ρ c (Proc.devRef .tc main_v27) = pDst (m ((c : Thread nD τ).loc main_arg2)) := (geo_W10 m ρ c main_v27 (by decide)).trans (dst_W3 m ρ c)
theorem pos_W11 : W11 m ρ c (Proc.devRef .tc main_v23) = pPos (m ((c : Thread nD τ).loc main_arg1)) (m ((c : Thread nD τ).loc main_arg3)) := (geo_W11 m ρ c main_v23 (by decide)).trans (pos_W3 m ρ c)
theorem src_W11 : W11 m ρ c (Proc.devRef .tc main_v25) = pSrc (m ((c : Thread nD τ).loc main_arg2)) := (geo_W11 m ρ c main_v25 (by decide)).trans (src_W3 m ρ c)
theorem dst_W11 : W11 m ρ c (Proc.devRef .tc main_v27) = pDst (m ((c : Thread nD τ).loc main_arg2)) := (geo_W11 m ρ c main_v27 (by decide)).trans (dst_W3 m ρ c)
theorem pos_W12 : W12 m ρ c (Proc.devRef .tc main_v23) = pPos (m ((c : Thread nD τ).loc main_arg1)) (m ((c : Thread nD τ).loc main_arg3)) := (geo_W12 m ρ c main_v23 (by decide)).trans (pos_W3 m ρ c)
theorem src_W12 : W12 m ρ c (Proc.devRef .tc main_v25) = pSrc (m ((c : Thread nD τ).loc main_arg2)) := (geo_W12 m ρ c main_v25 (by decide)).trans (src_W3 m ρ c)
theorem dst_W12 : W12 m ρ c (Proc.devRef .tc main_v27) = pDst (m ((c : Thread nD τ).loc main_arg2)) := (geo_W12 m ρ c main_v27 (by decide)).trans (dst_W3 m ρ c)
theorem pos_W13 : W13 m ρ c (Proc.devRef .tc main_v23) = pPos (m ((c : Thread nD τ).loc main_arg1)) (m ((c : Thread nD τ).loc main_arg3)) := (geo_W13 m ρ c main_v23 (by decide)).trans (pos_W3 m ρ c)
theorem src_W13 : W13 m ρ c (Proc.devRef .tc main_v25) = pSrc (m ((c : Thread nD τ).loc main_arg2)) := (geo_W13 m ρ c main_v25 (by decide)).trans (src_W3 m ρ c)
theorem dst_W13 : W13 m ρ c (Proc.devRef .tc main_v27) = pDst (m ((c : Thread nD τ).loc main_arg2)) := (geo_W13 m ρ c main_v27 (by decide)).trans (dst_W3 m ρ c)
theorem pos_W14 : W14 m ρ c (Proc.devRef .tc main_v23) = pPos (m ((c : Thread nD τ).loc main_arg1)) (m ((c : Thread nD τ).loc main_arg3)) := (geo_W14 m ρ c main_v23 (by decide)).trans (pos_W3 m ρ c)
theorem src_W14 : W14 m ρ c (Proc.devRef .tc main_v25) = pSrc (m ((c : Thread nD τ).loc main_arg2)) := (geo_W14 m ρ c main_v25 (by decide)).trans (src_W3 m ρ c)
theorem dst_W14 : W14 m ρ c (Proc.devRef .tc main_v27) = pDst (m ((c : Thread nD τ).loc main_arg2)) := (geo_W14 m ρ c main_v27 (by decide)).trans (dst_W3 m ρ c)
theorem pos_W15 : W15 m ρ c (Proc.devRef .tc main_v23) = pPos (m ((c : Thread nD τ).loc main_arg1)) (m ((c : Thread nD τ).loc main_arg3)) := (geo_W15 m ρ c main_v23 (by decide)).trans (pos_W3 m ρ c)
theorem src_W15 : W15 m ρ c (Proc.devRef .tc main_v25) = pSrc (m ((c : Thread nD τ).loc main_arg2)) := (geo_W15 m ρ c main_v25 (by decide)).trans (src_W3 m ρ c)
theorem dst_W15 : W15 m ρ c (Proc.devRef .tc main_v27) = pDst (m ((c : Thread nD τ).loc main_arg2)) := (geo_W15 m ρ c main_v27 (by decide)).trans (dst_W3 m ρ c)
theorem pos_W16 : W16 m ρ c (Proc.devRef .tc main_v23) = pPos (m ((c : Thread nD τ).loc main_arg1)) (m ((c : Thread nD τ).loc main_arg3)) := (geo_W16 m ρ c main_v23 (by decide)).trans (pos_W3 m ρ c)
theorem src_W16 : W16 m ρ c (Proc.devRef .tc main_v25) = pSrc (m ((c : Thread nD τ).loc main_arg2)) := (geo_W16 m ρ c main_v25 (by decide)).trans (src_W3 m ρ c)
theorem dst_W16 : W16 m ρ c (Proc.devRef .tc main_v27) = pDst (m ((c : Thread nD τ).loc main_arg2)) := (geo_W16 m ρ c main_v27 (by decide)).trans (dst_W3 m ρ c)
theorem pos_W17 : W17 m ρ c (Proc.devRef .tc main_v23) = pPos (m ((c : Thread nD τ).loc main_arg1)) (m ((c : Thread nD τ).loc main_arg3)) := (geo_W17 m ρ c main_v23 (by decide)).trans (pos_W3 m ρ c)
theorem src_W17 : W17 m ρ c (Proc.devRef .tc main_v25) = pSrc (m ((c : Thread nD τ).loc main_arg2)) := (geo_W17 m ρ c main_v25 (by decide)).trans (src_W3 m ρ c)
theorem dst_W17 : W17 m ρ c (Proc.devRef .tc main_v27) = pDst (m ((c : Thread nD τ).loc main_arg2)) := (geo_W17 m ρ c main_v27 (by decide)).trans (dst_W3 m ρ c)
theorem pos_W18 : W18 m ρ c (Proc.devRef .tc main_v23) = pPos (m ((c : Thread nD τ).loc main_arg1)) (m ((c : Thread nD τ).loc main_arg3)) := (geo_W18 m ρ c main_v23 (by decide)).trans (pos_W3 m ρ c)
theorem src_W18 : W18 m ρ c (Proc.devRef .tc main_v25) = pSrc (m ((c : Thread nD τ).loc main_arg2)) := (geo_W18 m ρ c main_v25 (by decide)).trans (src_W3 m ρ c)
theorem dst_W18 : W18 m ρ c (Proc.devRef .tc main_v27) = pDst (m ((c : Thread nD τ).loc main_arg2)) := (geo_W18 m ρ c main_v27 (by decide)).trans (dst_W3 m ρ c)
theorem pos_W19 : W19 m ρ c (Proc.devRef .tc main_v23) = pPos (m ((c : Thread nD τ).loc main_arg1)) (m ((c : Thread nD τ).loc main_arg3)) := (geo_W19 m ρ c main_v23 (by decide)).trans (pos_W3 m ρ c)
theorem src_W19 : W19 m ρ c (Proc.devRef .tc main_v25) = pSrc (m ((c : Thread nD τ).loc main_arg2)) := (geo_W19 m ρ c main_v25 (by decide)).trans (src_W3 m ρ c)
theorem dst_W19 : W19 m ρ c (Proc.devRef .tc main_v27) = pDst (m ((c : Thread nD τ).loc main_arg2)) := (geo_W19 m ρ c main_v27 (by decide)).trans (dst_W3 m ρ c)
theorem pos_W20 : W20 m ρ c (Proc.devRef .tc main_v23) = pPos (m ((c : Thread nD τ).loc main_arg1)) (m ((c : Thread nD τ).loc main_arg3)) := (geo_W20 m ρ c main_v23 (by decide)).trans (pos_W3 m ρ c)
theorem src_W20 : W20 m ρ c (Proc.devRef .tc main_v25) = pSrc (m ((c : Thread nD τ).loc main_arg2)) := (geo_W20 m ρ c main_v25 (by decide)).trans (src_W3 m ρ c)
theorem dst_W20 : W20 m ρ c (Proc.devRef .tc main_v27) = pDst (m ((c : Thread nD τ).loc main_arg2)) := (geo_W20 m ρ c main_v27 (by decide)).trans (dst_W3 m ρ c)
theorem pos_W21 : W21 m ρ c (Proc.devRef .tc main_v23) = pPos (m ((c : Thread nD τ).loc main_arg1)) (m ((c : Thread nD τ).loc main_arg3)) := (geo_W21 m ρ c main_v23 (by decide)).trans (pos_W3 m ρ c)
theorem src_W21 : W21 m ρ c (Proc.devRef .tc main_v25) = pSrc (m ((c : Thread nD τ).loc main_arg2)) := (geo_W21 m ρ c main_v25 (by decide)).trans (src_W3 m ρ c)
theorem dst_W21 : W21 m ρ c (Proc.devRef .tc main_v27) = pDst (m ((c : Thread nD τ).loc main_arg2)) := (geo_W21 m ρ c main_v27 (by decide)).trans (dst_W3 m ρ c)
theorem pos_W22 : W22 m ρ c (Proc.devRef .tc main_v23) = pPos (m ((c : Thread nD τ).loc main_arg1)) (m ((c : Thread nD τ).loc main_arg3)) := (geo_W22 m ρ c main_v23 (by decide)).trans (pos_W3 m ρ c)
theorem src_W22 : W22 m ρ c (Proc.devRef .tc main_v25) = pSrc (m ((c : Thread nD τ).loc main_arg2)) := (geo_W22 m ρ c main_v25 (by decide)).trans (src_W3 m ρ c)
theorem dst_W22 : W22 m ρ c (Proc.devRef .tc main_v27) = pDst (m ((c : Thread nD τ).loc main_arg2)) := (geo_W22 m ρ c main_v27 (by decide)).trans (dst_W3 m ρ c)
theorem pos_W23 : W23 m ρ c (Proc.devRef .tc main_v23) = pPos (m ((c : Thread nD τ).loc main_arg1)) (m ((c : Thread nD τ).loc main_arg3)) := (geo_W23 m ρ c main_v23 (by decide)).trans (pos_W3 m ρ c)
theorem src_W23 : W23 m ρ c (Proc.devRef .tc main_v25) = pSrc (m ((c : Thread nD τ).loc main_arg2)) := (geo_W23 m ρ c main_v25 (by decide)).trans (src_W3 m ρ c)
theorem dst_W23 : W23 m ρ c (Proc.devRef .tc main_v27) = pDst (m ((c : Thread nD τ).loc main_arg2)) := (geo_W23 m ρ c main_v27 (by decide)).trans (dst_W3 m ρ c)
theorem pos_W24 : W24 m ρ c (Proc.devRef .tc main_v23) = pPos (m ((c : Thread nD τ).loc main_arg1)) (m ((c : Thread nD τ).loc main_arg3)) := (geo_W24 m ρ c main_v23 (by decide)).trans (pos_W3 m ρ c)
theorem src_W24 : W24 m ρ c (Proc.devRef .tc main_v25) = pSrc (m ((c : Thread nD τ).loc main_arg2)) := (geo_W24 m ρ c main_v25 (by decide)).trans (src_W3 m ρ c)
theorem dst_W24 : W24 m ρ c (Proc.devRef .tc main_v27) = pDst (m ((c : Thread nD τ).loc main_arg2)) := (geo_W24 m ρ c main_v27 (by decide)).trans (dst_W3 m ρ c)
theorem pos_W25 : W25 m ρ c (Proc.devRef .tc main_v23) = pPos (m ((c : Thread nD τ).loc main_arg1)) (m ((c : Thread nD τ).loc main_arg3)) := (geo_W25 m ρ c main_v23 (by decide)).trans (pos_W3 m ρ c)
theorem src_W25 : W25 m ρ c (Proc.devRef .tc main_v25) = pSrc (m ((c : Thread nD τ).loc main_arg2)) := (geo_W25 m ρ c main_v25 (by decide)).trans (src_W3 m ρ c)
theorem dst_W25 : W25 m ρ c (Proc.devRef .tc main_v27) = pDst (m ((c : Thread nD τ).loc main_arg2)) := (geo_W25 m ρ c main_v27 (by decide)).trans (dst_W3 m ρ c)
theorem pos_W26 : W26 m ρ c (Proc.devRef .tc main_v23) = pPos (m ((c : Thread nD τ).loc main_arg1)) (m ((c : Thread nD τ).loc main_arg3)) := (geo_W26 m ρ c main_v23 (by decide)).trans (pos_W3 m ρ c)
theorem src_W26 : W26 m ρ c (Proc.devRef .tc main_v25) = pSrc (m ((c : Thread nD τ).loc main_arg2)) := (geo_W26 m ρ c main_v25 (by decide)).trans (src_W3 m ρ c)
theorem dst_W26 : W26 m ρ c (Proc.devRef .tc main_v27) = pDst (m ((c : Thread nD τ).loc main_arg2)) := (geo_W26 m ρ c main_v27 (by decide)).trans (dst_W3 m ρ c)

end Cert.KernelIdeal.KStage

end
-- ==== Proof.KStageL0.lean ====
/-
  Layer 0 of the kernel program at its boundaries.

  The layer enters with the node features `h` in one buffer. Three stretches of host operations prepare the edge
  region's eleven input arrays: the narrowed features gathered at each edge's target and at its source, the edge
  lengths from the centred positions, and the layer's eight edge weights cut out of the stacked arguments. The edge
  region leaves the messages; a stretch widens them, sums them onto their targets and cuts out the seven node weights;
  the node region leaves the new features. Given that each region's output array is its kernel's array function of the
  region's input arrays, the new features are `kLayer 0` of the old ones, the geometry and the argument arrays.
-/
import proofs.«156944_j45535243272652_2_alg».proof.Proof.FrameKI
import proofs.«156944_j45535243272652_2_alg».proof.Proof.KStageKeep
import proofs.«156944_j45535243272652_2_alg».proof.Proof.KStageP
import proofs.«156944_j45535243272652_2_alg».proof.Proof.KStageOps0

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

/-! ## The features the layer enters with stay in their buffer up to the node region -/
theorem hin0_W3 : W3 m ρ c (Proc.devRef .tc main_v4) = W2 m ρ c (Proc.devRef .tc main_v4) :=
  keep0_2 _ main_v4 (by decide)
theorem hin0_W4 : W4 m ρ c (Proc.devRef .tc main_v4) = W2 m ρ c (Proc.devRef .tc main_v4) :=
  (keep0_3 _ main_v4 (by decide)).trans (hin0_W3 m ρ c)
theorem hin0_W5 : W5 m ρ c (Proc.devRef .tc main_v4) = W2 m ρ c (Proc.devRef .tc main_v4) :=
  (keep0_4 _ main_v4 (by decide)).trans (hin0_W4 m ρ c)
theorem hin0_W6 : W6 m ρ c (Proc.devRef .tc main_v4) = W2 m ρ c (Proc.devRef .tc main_v4) :=
  (W6_of_ne m ρ c main_v4 (by decide)).trans (hin0_W5 m ρ c)
theorem hin0_W7 : W7 m ρ c (Proc.devRef .tc main_v4) = W2 m ρ c (Proc.devRef .tc main_v4) :=
  (keep1 _ main_v4 (by decide)).trans (hin0_W6 m ρ c)

/-! ## The edge region's input arrays -/
theorem in0_0 : W5 m ρ c (Proc.devRef .tc main_v35) = kGatherH (W2 m ρ c (Proc.devRef .tc main_v4)) (pDst (m ((c : Thread nD τ).loc main_arg2))) :=
  (keep0_4 _ main_v35 (by decide)).trans ((keep0_3 _ main_v35 (by decide)).trans ((ops0_hi (W2 m ρ c)).trans (by rw [arg_W2 m ρ c main_arg2 (by decide)])))
theorem in0_1 : W5 m ρ c (Proc.devRef .tc main_v42) = kGatherH (W2 m ρ c (Proc.devRef .tc main_v4)) (pSrc (m ((c : Thread nD τ).loc main_arg2))) :=
  (keep0_4 _ main_v42 (by decide)).trans ((keep0_3 _ main_v42 (by decide)).trans ((ops0_hj (W2 m ρ c)).trans (by rw [arg_W2 m ρ c main_arg2 (by decide)])))
theorem in0_2 : W5 m ρ c (Proc.devRef .tc main_v58) = kDist (pPos (m ((c : Thread nD τ).loc main_arg1)) (m ((c : Thread nD τ).loc main_arg3))) (pSrc (m ((c : Thread nD τ).loc main_arg2))) (pDst (m ((c : Thread nD τ).loc main_arg2))) :=
  (keep0_4 _ main_v58 (by decide)).trans ((ops0_dist (W2 m ρ c)).trans (by rw [arg_W2 m ρ c main_arg1 (by decide), arg_W2 m ρ c main_arg2 (by decide), arg_W2 m ρ c main_arg3 (by decide)]))
theorem in0_3 : W5 m ρ c (Proc.devRef .tc main_v60) = Cert.Spec.wBlock (n := 257) (m ((c : Thread nD τ).loc main_arg6)) 0 0 (by decide) :=
  (ops0_w60 (W4 m ρ c)).trans (by rw [arg_W4 m ρ c main_arg6 (by decide)])
theorem in0_4 : W5 m ρ c (Proc.devRef .tc main_v62) = Cert.Spec.wBlock (n := 257) (m ((c : Thread nD τ).loc main_arg6)) 0 128 (by decide) :=
  (ops0_w62 (W4 m ρ c)).trans (by rw [arg_W4 m ρ c main_arg6 (by decide)])
theorem in0_5 : W5 m ρ c (Proc.devRef .tc main_v64) = Cert.Spec.wRowAt (n := 257) (m ((c : Thread nD τ).loc main_arg6)) 0 ⟨256, by decide⟩ :=
  (ops0_w64 (W4 m ρ c)).trans (by rw [arg_W4 m ρ c main_arg6 (by decide)])
theorem in0_6 : W5 m ρ c (Proc.devRef .tc main_v67) = Cert.Spec.bRow (m ((c : Thread nD τ).loc main_arg7)) 0 :=
  (ops0_w67 (W4 m ρ c)).trans (by rw [arg_W4 m ρ c main_arg7 (by decide)])
theorem in0_7 : W5 m ρ c (Proc.devRef .tc main_v69) = Cert.Spec.wBlock (n := 128) (m ((c : Thread nD τ).loc main_arg8)) 0 0 (by decide) :=
  (ops0_w69 (W4 m ρ c)).trans (by rw [arg_W4 m ρ c main_arg8 (by decide)])
theorem in0_8 : W5 m ρ c (Proc.devRef .tc main_v72) = Cert.Spec.bRow (m ((c : Thread nD τ).loc main_arg9)) 0 :=
  (ops0_w72 (W4 m ρ c)).trans (by rw [arg_W4 m ρ c main_arg9 (by decide)])
theorem in0_9 : W5 m ρ c (Proc.devRef .tc main_v74) = Cert.Spec.wCol (m ((c : Thread nD τ).loc main_arg10)) 0 :=
  (ops0_w74 (W4 m ρ c)).trans (by rw [arg_W4 m ρ c main_arg10 (by decide)])
theorem in0_10 : W5 m ρ c (Proc.devRef .tc main_v77) = Cert.Spec.b11 (m ((c : Thread nD τ).loc main_arg11)) 0 :=
  (ops0_w77 (W4 m ρ c)).trans (by rw [arg_W4 m ρ c main_arg11 (by decide)])

/-! ## The edge region's output: the messages -/

set_option maxHeartbeats 4000000 in
theorem edgeOut0
    (hE : ∀ (V : (c : Dev nD) → (b : Ref sig .tc) → Buf (Elt Ideal) ((c : Thread nD τ).loc b)) (c : Dev nD),
      (dat0 (F := Ideal) V c).arrAt 11 cfg0.N
        = Cert.Spec.edgeArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) :
    W6 m ρ c (Proc.devRef .tc main_v78)
      = kEdge 0 (W2 m ρ c (Proc.devRef .tc main_v4)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 11).trans ((hE (V5 m ρ) c).trans ?_)
  show Cert.Spec.edgeArr (W5 m ρ c (Proc.devRef .tc main_v35)) (W5 m ρ c (Proc.devRef .tc main_v42)) (W5 m ρ c (Proc.devRef .tc main_v58)) (W5 m ρ c (Proc.devRef .tc main_v60)) (W5 m ρ c (Proc.devRef .tc main_v62)) (W5 m ρ c (Proc.devRef .tc main_v64)) (W5 m ρ c (Proc.devRef .tc main_v67)) (W5 m ρ c (Proc.devRef .tc main_v69)) (W5 m ρ c (Proc.devRef .tc main_v72)) (W5 m ρ c (Proc.devRef .tc main_v74)) (W5 m ρ c (Proc.devRef .tc main_v77)) = _
  rw [in0_0 m ρ c, in0_1 m ρ c, in0_2 m ρ c, in0_3 m ρ c, in0_4 m ρ c, in0_5 m ρ c, in0_6 m ρ c, in0_7 m ρ c, in0_8 m ρ c, in0_9 m ρ c, in0_10 m ρ c]
  rfl

/-! ## The node region's input arrays -/

set_option maxHeartbeats 4000000 in
theorem nin0_1
    (hE : ∀ (V : (c : Dev nD) → (b : Ref sig .tc) → Buf (Elt Ideal) ((c : Thread nD τ).loc b)) (c : Dev nD),
      (dat0 (F := Ideal) V c).arrAt 11 cfg0.N
        = Cert.Spec.edgeArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) :
    W7 m ρ c (Proc.devRef .tc main_v82)
      = kAgg (kEdge 0 (W2 m ρ c (Proc.devRef .tc main_v4)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (pDst (m ((c : Thread nD τ).loc main_arg2))) :=
  (ops0_agg (W6 m ρ c)).trans (by rw [edgeOut0 m ρ c hE, dst_W6 m ρ c])
theorem nin0_2 : W7 m ρ c (Proc.devRef .tc main_v84) = Cert.Spec.wBlock (n := 256) (m ((c : Thread nD τ).loc main_arg12)) 0 0 (by decide) :=
  (ops0_nw84 (W6 m ρ c)).trans (by rw [arg_W6 m ρ c main_arg12 (by decide)])
theorem nin0_3 : W7 m ρ c (Proc.devRef .tc main_v86) = Cert.Spec.wBlock (n := 256) (m ((c : Thread nD τ).loc main_arg12)) 0 128 (by decide) :=
  (ops0_nw86 (W6 m ρ c)).trans (by rw [arg_W6 m ρ c main_arg12 (by decide)])
theorem nin0_4 : W7 m ρ c (Proc.devRef .tc main_v89) = Cert.Spec.bRow (m ((c : Thread nD τ).loc main_arg13)) 0 :=
  (ops0_nw89 (W6 m ρ c)).trans (by rw [arg_W6 m ρ c main_arg13 (by decide)])
theorem nin0_5 : W7 m ρ c (Proc.devRef .tc main_v91) = Cert.Spec.wBlock (n := 128) (m ((c : Thread nD τ).loc main_arg14)) 0 0 (by decide) :=
  (ops0_nw91 (W6 m ρ c)).trans (by rw [arg_W6 m ρ c main_arg14 (by decide)])
theorem nin0_6 : W7 m ρ c (Proc.devRef .tc main_v94) = Cert.Spec.bRow (m ((c : Thread nD τ).loc main_arg15)) 0 :=
  (ops0_nw94 (W6 m ρ c)).trans (by rw [arg_W6 m ρ c main_arg15 (by decide)])
theorem nin0_7 : W7 m ρ c (Proc.devRef .tc main_v97) = Cert.Spec.bRow (m ((c : Thread nD τ).loc main_arg16)) 0 :=
  (ops0_nw97 (W6 m ρ c)).trans (by rw [arg_W6 m ρ c main_arg16 (by decide)])
theorem nin0_8 : W7 m ρ c (Proc.devRef .tc main_v100) = Cert.Spec.bRow (m ((c : Thread nD τ).loc main_arg17)) 0 :=
  (ops0_nw100 (W6 m ρ c)).trans (by rw [arg_W6 m ρ c main_arg17 (by decide)])

/-! ## The layer -/

set_option maxHeartbeats 4000000 in
theorem layer0_of
    (hE : ∀ (V : (c : Dev nD) → (b : Ref sig .tc) → Buf (Elt Ideal) ((c : Thread nD τ).loc b)) (c : Dev nD),
      (dat0 (F := Ideal) V c).arrAt 11 cfg0.N
        = Cert.Spec.edgeArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)))
    (hN : ∀ (V : (c : Dev nD) → (b : Ref sig .tc) → Buf (Elt Ideal) ((c : Thread nD τ).loc b)) (c : Dev nD),
      (dat1 (F := Ideal) V c).arrAt 9 cfg1.N
        = Cert.Spec.nodeArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8))) :
    W8 m ρ c (Proc.devRef .tc main_v101)
      = kLayer 0 (W2 m ρ c (Proc.devRef .tc main_v4)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W8_arr m ρ c 9).trans ((hN (V7 m ρ) c).trans ?_)
  show Cert.Spec.nodeArr (W7 m ρ c (Proc.devRef .tc main_v4)) (W7 m ρ c (Proc.devRef .tc main_v82)) (W7 m ρ c (Proc.devRef .tc main_v84)) (W7 m ρ c (Proc.devRef .tc main_v86)) (W7 m ρ c (Proc.devRef .tc main_v89)) (W7 m ρ c (Proc.devRef .tc main_v91)) (W7 m ρ c (Proc.devRef .tc main_v94)) (W7 m ρ c (Proc.devRef .tc main_v97)) (W7 m ρ c (Proc.devRef .tc main_v100)) = _
  rw [hin0_W7 m ρ c, nin0_1 m ρ c hE, nin0_2 m ρ c, nin0_3 m ρ c, nin0_4 m ρ c, nin0_5 m ρ c, nin0_6 m ρ c, nin0_7 m ρ c, nin0_8 m ρ c]
  rfl

end Cert.KernelIdeal.KStage

end
-- ==== Proof.KStageOps1.lean ====
/-
  Layer 1 of the kernel program, stretch by stretch: what each stretch of host operations computes, from ANY buffer
  contents `V` it is entered with.

  A stretch is a literal list of array operations; the contents of one buffer after it is the composition of the
  operations that feed that buffer, applied to the contents of the buffers the stretch reads. The first stretch gathers the narrowed features
  and the centred positions at each edge's two ends; the callee after it turns the difference of
  the gathered positions into the edge lengths; the next stretch cuts the layer's edge weights out of the stacked
  arguments (each cut is that argument's block, row, column or entry for layer 1); the stretch after the edge region
  widens the messages, sums them onto their targets and cuts out the node weights.
-/
import proofs.«156944_j45535243272652_2_alg».proof.Proof.Gen.KernelIdeal.Launch
import proofs.«156944_j45535243272652_2_alg».proof.Proof.KStageDefs
import proofs.«156944_j45535243272652_2_alg».proof.Proof.SliceW
import Idealize.ShloMosaic.Lib.StableHlo.Run

set_option maxRecDepth 16384

noncomputable section

namespace Cert.KernelIdeal.KStage

open Cert.KernelIdeal Cert.KernelIdeal.Gen
open Idealize.ShloMosaic Idealize.ShloMosaic.TcCoe

/-- A callee's values pass through its typed references unchanged. -/
local macro "casts_off" : tactic => `(tactic| (try simp only [StableHlo.TRef.ofBuf, StableHlo.TRef.toBuf, cast_eq]))

/-! ## Layer 1: what the edge region is entered with -/

theorem ops1_hi (V : Valuation τ sig (Elt Ideal)) :
    StableHlo.after (hostOps2 (F := Ideal)) V (Proc.devRef .tc main_v109) = kGatherH (V (Proc.devRef .tc main_v101)) (V (Proc.devRef .tc main_v27)) := by
  after_results_simp
  rfl
theorem ops1_hj (V : Valuation τ sig (Elt Ideal)) :
    StableHlo.after (hostOps2 (F := Ideal)) V (Proc.devRef .tc main_v116) = kGatherH (V (Proc.devRef .tc main_v101)) (V (Proc.devRef .tc main_v25)) := by
  after_results_simp
  rfl
theorem ops1_dist (V : Valuation τ sig (Elt Ideal)) :
    StableHlo.after (hostOps2_1 (F := Ideal)) (StableHlo.after (hostOps2 (F := Ideal)) V) (Proc.devRef .tc main_v132)
      = kDist (V (Proc.devRef .tc main_v23)) (V (Proc.devRef .tc main_v25)) (V (Proc.devRef .tc main_v27)) := by
  after_results_simp
  casts_off
  rfl

/-! ### The edge weights: each slice of a stacked argument is that argument's piece for layer 1 -/

theorem ops1_w60 (V : Valuation τ sig (Elt Ideal)) :
    StableHlo.after (hostOps2_2 (F := Ideal)) V (Proc.devRef .tc main_v134) = Cert.Spec.wBlock (n := 257) (V (Proc.devRef .tc main_arg6)) 1 0 (by decide) := by
  after_results
  exact Cert.SliceW.block_eq (n := 257) 1 1 0 rfl (by decide) (V (Proc.devRef .tc main_arg6)) slices_S4x257x128_S1x128x128_1_0_0 shapeCasts_S1x128x128_S128x128

theorem ops1_w62 (V : Valuation τ sig (Elt Ideal)) :
    StableHlo.after (hostOps2_2 (F := Ideal)) V (Proc.devRef .tc main_v136) = Cert.Spec.wBlock (n := 257) (V (Proc.devRef .tc main_arg6)) 1 128 (by decide) := by
  after_results
  exact Cert.SliceW.block_eq (n := 257) 1 1 128 rfl (by decide) (V (Proc.devRef .tc main_arg6)) slices_S4x257x128_S1x128x128_1_128_0 shapeCasts_S1x128x128_S128x128

theorem ops1_w64 (V : Valuation τ sig (Elt Ideal)) :
    StableHlo.after (hostOps2_2 (F := Ideal)) V (Proc.devRef .tc main_v138) = Cert.Spec.wRowAt (n := 257) (V (Proc.devRef .tc main_arg6)) 1 ⟨256, by decide⟩ := by
  after_results
  exact Cert.SliceW.rowAt_eq (n := 257) 1 1 rfl ⟨256, by decide⟩ 256 rfl (V (Proc.devRef .tc main_arg6)) slices_S4x257x128_S1x1x128_1_256_0 shapeCasts_S1x1x128_S1x128

theorem ops1_w67 (V : Valuation τ sig (Elt Ideal)) :
    StableHlo.after (hostOps2_2 (F := Ideal)) V (Proc.devRef .tc main_v141) = Cert.Spec.bRow (V (Proc.devRef .tc main_arg7)) 1 := by
  after_results
  exact Cert.SliceW.brow_eq 1 1 rfl (V (Proc.devRef .tc main_arg7)) slices_S4x128_S1x128_1_0 shapeCasts_S1x128_S128 bcast_S128_S1x128_1

theorem ops1_w69 (V : Valuation τ sig (Elt Ideal)) :
    StableHlo.after (hostOps2_2 (F := Ideal)) V (Proc.devRef .tc main_v143) = Cert.Spec.wBlock (n := 128) (V (Proc.devRef .tc main_arg8)) 1 0 (by decide) := by
  after_results
  exact Cert.SliceW.block_eq (n := 128) 1 1 0 rfl (by decide) (V (Proc.devRef .tc main_arg8)) slices_S4x128x128_S1x128x128_1_0_0 shapeCasts_S1x128x128_S128x128

theorem ops1_w72 (V : Valuation τ sig (Elt Ideal)) :
    StableHlo.after (hostOps2_2 (F := Ideal)) V (Proc.devRef .tc main_v146) = Cert.Spec.bRow (V (Proc.devRef .tc main_arg9)) 1 := by
  after_results
  exact Cert.SliceW.brow_eq 1 1 rfl (V (Proc.devRef .tc main_arg9)) slices_S4x128_S1x128_1_0 shapeCasts_S1x128_S128 bcast_S128_S1x128_1

theorem ops1_w74 (V : Valuation τ sig (Elt Ideal)) :
    StableHlo.after (hostOps2_2 (F := Ideal)) V (Proc.devRef .tc main_v148) = Cert.Spec.wCol (V (Proc.devRef .tc main_arg10)) 1 := by
  after_results
  exact Cert.SliceW.col_eq 1 1 rfl (V (Proc.devRef .tc main_arg10)) slices_S4x128x1_S1x128x1_1_0_0 shapeCasts_S1x128x1_S128x1

theorem ops1_w77 (V : Valuation τ sig (Elt Ideal)) :
    StableHlo.after (hostOps2_2 (F := Ideal)) V (Proc.devRef .tc main_v151) = Cert.Spec.b11 (V (Proc.devRef .tc main_arg11)) 1 := by
  after_results
  exact Cert.SliceW.b11_eq 1 1 rfl (V (Proc.devRef .tc main_arg11)) slices_S4x1_S1x1_1_0 shapeCasts_S1x1_S1 bcast_S1_S1x1_1

/-! ## Layer 1: what the node region is entered with -/

theorem ops1_agg (V : Valuation τ sig (Elt Ideal)) :
    StableHlo.after (hostOps3 (F := Ideal)) V (Proc.devRef .tc main_v156) = kAgg (V (Proc.devRef .tc main_v152)) (V (Proc.devRef .tc main_v27)) := by
  after_results
  rfl

theorem ops1_nw84 (V : Valuation τ sig (Elt Ideal)) :
    StableHlo.after (hostOps3 (F := Ideal)) V (Proc.devRef .tc main_v158) = Cert.Spec.wBlock (n := 256) (V (Proc.devRef .tc main_arg12)) 1 0 (by decide) := by
  after_results
  exact Cert.SliceW.block_eq (n := 256) 1 1 0 rfl (by decide) (V (Proc.devRef .tc main_arg12)) slices_S4x256x128_S1x128x128_1_0_0 shapeCasts_S1x128x128_S128x128

theorem ops1_nw86 (V : Valuation τ sig (Elt Ideal)) :
    StableHlo.after (hostOps3 (F := Ideal)) V (Proc.devRef .tc main_v160) = Cert.Spec.wBlock (n := 256) (V (Proc.devRef .tc main_arg12)) 1 128 (by decide) := by
  after_results
  exact Cert.SliceW.block_eq (n := 256) 1 1 128 rfl (by decide) (V (Proc.devRef .tc main_arg12)) slices_S4x256x128_S1x128x128_1_128_0 shapeCasts_S1x128x128_S128x128

theorem ops1_nw89 (V : Valuation τ sig (Elt Ideal)) :
    StableHlo.after (hostOps3 (F := Ideal)) V (Proc.devRef .tc main_v163) = Cert.Spec.bRow (V (Proc.devRef .tc main_arg13)) 1 := by
  after_results
  exact Cert.SliceW.brow_eq 1 1 rfl (V (Proc.devRef .tc main_arg13)) slices_S4x128_S1x128_1_0 shapeCasts_S1x128_S128 bcast_S128_S1x128_1

theorem ops1_nw91 (V : Valuation τ sig (Elt Ideal)) :
    StableHlo.after (hostOps3 (F := Ideal)) V (Proc.devRef .tc main_v165) = Cert.Spec.wBlock (n := 128) (V (Proc.devRef .tc main_arg14)) 1 0 (by decide) := by
  after_results
  exact Cert.SliceW.block_eq (n := 128) 1 1 0 rfl (by decide) (V (Proc.devRef .tc main_arg14)) slices_S4x128x128_S1x128x128_1_0_0 shapeCasts_S1x128x128_S128x128

theorem ops1_nw94 (V : Valuation τ sig (Elt Ideal)) :
    StableHlo.after (hostOps3 (F := Ideal)) V (Proc.devRef .tc main_v168) = Cert.Spec.bRow (V (Proc.devRef .tc main_arg15)) 1 := by
  after_results
  exact Cert.SliceW.brow_eq 1 1 rfl (V (Proc.devRef .tc main_arg15)) slices_S4x128_S1x128_1_0 shapeCasts_S1x128_S128 bcast_S128_S1x128_1

theorem ops1_nw97 (V : Valuation τ sig (Elt Ideal)) :
    StableHlo.after (hostOps3 (F := Ideal)) V (Proc.devRef .tc main_v171) = Cert.Spec.bRow (V (Proc.devRef .tc main_arg16)) 1 := by
  after_results
  exact Cert.SliceW.brow_eq 1 1 rfl (V (Proc.devRef .tc main_arg16)) slices_S4x128_S1x128_1_0 shapeCasts_S1x128_S128 bcast_S128_S1x128_1

theorem ops1_nw100 (V : Valuation τ sig (Elt Ideal)) :
    StableHlo.after (hostOps3 (F := Ideal)) V (Proc.devRef .tc main_v174) = Cert.Spec.bRow (V (Proc.devRef .tc main_arg17)) 1 := by
  after_results
  exact Cert.SliceW.brow_eq 1 1 rfl (V (Proc.devRef .tc main_arg17)) slices_S4x128_S1x128_1_0 shapeCasts_S1x128_S128 bcast_S128_S1x128_1

end Cert.KernelIdeal.KStage

end
-- ==== Proof.KStageL1.lean ====
/-
  Layer 1 of the kernel program at its boundaries.

  The layer enters with the node features `h` in one buffer. Three stretches of host operations prepare the edge
  region's eleven input arrays: the narrowed features gathered at each edge's target and at its source, the edge
  lengths from the centred positions, and the layer's eight edge weights cut out of the stacked arguments. The edge
  region leaves the messages; a stretch widens them, sums them onto their targets and cuts out the seven node weights;
  the node region leaves the new features. Given that each region's output array is its kernel's array function of the
  region's input arrays, the new features are `kLayer 1` of the old ones, the geometry and the argument arrays.
-/
import proofs.«156944_j45535243272652_2_alg».proof.Proof.FrameKI
import proofs.«156944_j45535243272652_2_alg».proof.Proof.KStageKeep
import proofs.«156944_j45535243272652_2_alg».proof.Proof.KStageP
import proofs.«156944_j45535243272652_2_alg».proof.Proof.KStageOps1

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

/-! ## The features the layer enters with stay in their buffer up to the node region -/
theorem hin1_W9 : W9 m ρ c (Proc.devRef .tc main_v101) = W8 m ρ c (Proc.devRef .tc main_v101) :=
  keep2 _ main_v101 (by decide)
theorem hin1_W10 : W10 m ρ c (Proc.devRef .tc main_v101) = W8 m ρ c (Proc.devRef .tc main_v101) :=
  (keep2_1 _ main_v101 (by decide)).trans (hin1_W9 m ρ c)
theorem hin1_W11 : W11 m ρ c (Proc.devRef .tc main_v101) = W8 m ρ c (Proc.devRef .tc main_v101) :=
  (keep2_2 _ main_v101 (by decide)).trans (hin1_W10 m ρ c)
theorem hin1_W12 : W12 m ρ c (Proc.devRef .tc main_v101) = W8 m ρ c (Proc.devRef .tc main_v101) :=
  (W12_of_ne m ρ c main_v101 (by decide)).trans (hin1_W11 m ρ c)
theorem hin1_W13 : W13 m ρ c (Proc.devRef .tc main_v101) = W8 m ρ c (Proc.devRef .tc main_v101) :=
  (keep3 _ main_v101 (by decide)).trans (hin1_W12 m ρ c)

/-! ## The edge region's input arrays -/
theorem in1_0 : W11 m ρ c (Proc.devRef .tc main_v109) = kGatherH (W8 m ρ c (Proc.devRef .tc main_v101)) (pDst (m ((c : Thread nD τ).loc main_arg2))) :=
  (keep2_2 _ main_v109 (by decide)).trans ((keep2_1 _ main_v109 (by decide)).trans ((ops1_hi (W8 m ρ c)).trans (by rw [dst_W8 m ρ c])))
theorem in1_1 : W11 m ρ c (Proc.devRef .tc main_v116) = kGatherH (W8 m ρ c (Proc.devRef .tc main_v101)) (pSrc (m ((c : Thread nD τ).loc main_arg2))) :=
  (keep2_2 _ main_v116 (by decide)).trans ((keep2_1 _ main_v116 (by decide)).trans ((ops1_hj (W8 m ρ c)).trans (by rw [src_W8 m ρ c])))
theorem in1_2 : W11 m ρ c (Proc.devRef .tc main_v132) = kDist (pPos (m ((c : Thread nD τ).loc main_arg1)) (m ((c : Thread nD τ).loc main_arg3))) (pSrc (m ((c : Thread nD τ).loc main_arg2))) (pDst (m ((c : Thread nD τ).loc main_arg2))) :=
  (keep2_2 _ main_v132 (by decide)).trans ((ops1_dist (W8 m ρ c)).trans (by rw [pos_W8 m ρ c, src_W8 m ρ c, dst_W8 m ρ c]))
theorem in1_3 : W11 m ρ c (Proc.devRef .tc main_v134) = Cert.Spec.wBlock (n := 257) (m ((c : Thread nD τ).loc main_arg6)) 1 0 (by decide) :=
  (ops1_w60 (W10 m ρ c)).trans (by rw [arg_W10 m ρ c main_arg6 (by decide)])
theorem in1_4 : W11 m ρ c (Proc.devRef .tc main_v136) = Cert.Spec.wBlock (n := 257) (m ((c : Thread nD τ).loc main_arg6)) 1 128 (by decide) :=
  (ops1_w62 (W10 m ρ c)).trans (by rw [arg_W10 m ρ c main_arg6 (by decide)])
theorem in1_5 : W11 m ρ c (Proc.devRef .tc main_v138) = Cert.Spec.wRowAt (n := 257) (m ((c : Thread nD τ).loc main_arg6)) 1 ⟨256, by decide⟩ :=
  (ops1_w64 (W10 m ρ c)).trans (by rw [arg_W10 m ρ c main_arg6 (by decide)])
theorem in1_6 : W11 m ρ c (Proc.devRef .tc main_v141) = Cert.Spec.bRow (m ((c : Thread nD τ).loc main_arg7)) 1 :=
  (ops1_w67 (W10 m ρ c)).trans (by rw [arg_W10 m ρ c main_arg7 (by decide)])
theorem in1_7 : W11 m ρ c (Proc.devRef .tc main_v143) = Cert.Spec.wBlock (n := 128) (m ((c : Thread nD τ).loc main_arg8)) 1 0 (by decide) :=
  (ops1_w69 (W10 m ρ c)).trans (by rw [arg_W10 m ρ c main_arg8 (by decide)])
theorem in1_8 : W11 m ρ c (Proc.devRef .tc main_v146) = Cert.Spec.bRow (m ((c : Thread nD τ).loc main_arg9)) 1 :=
  (ops1_w72 (W10 m ρ c)).trans (by rw [arg_W10 m ρ c main_arg9 (by decide)])
theorem in1_9 : W11 m ρ c (Proc.devRef .tc main_v148) = Cert.Spec.wCol (m ((c : Thread nD τ).loc main_arg10)) 1 :=
  (ops1_w74 (W10 m ρ c)).trans (by rw [arg_W10 m ρ c main_arg10 (by decide)])
theorem in1_10 : W11 m ρ c (Proc.devRef .tc main_v151) = Cert.Spec.b11 (m ((c : Thread nD τ).loc main_arg11)) 1 :=
  (ops1_w77 (W10 m ρ c)).trans (by rw [arg_W10 m ρ c main_arg11 (by decide)])

/-! ## The edge region's output: the messages -/

set_option maxHeartbeats 4000000 in
theorem edgeOut1
    (hE : ∀ (V : (c : Dev nD) → (b : Ref sig .tc) → Buf (Elt Ideal) ((c : Thread nD τ).loc b)) (c : Dev nD),
      (dat2 (F := Ideal) V c).arrAt 11 cfg2.N
        = Cert.Spec.edgeArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))) :
    W12 m ρ c (Proc.devRef .tc main_v152)
      = kEdge 1 (W8 m ρ c (Proc.devRef .tc main_v101)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 11).trans ((hE (V11 m ρ) c).trans ?_)
  show Cert.Spec.edgeArr (W11 m ρ c (Proc.devRef .tc main_v109)) (W11 m ρ c (Proc.devRef .tc main_v116)) (W11 m ρ c (Proc.devRef .tc main_v132)) (W11 m ρ c (Proc.devRef .tc main_v134)) (W11 m ρ c (Proc.devRef .tc main_v136)) (W11 m ρ c (Proc.devRef .tc main_v138)) (W11 m ρ c (Proc.devRef .tc main_v141)) (W11 m ρ c (Proc.devRef .tc main_v143)) (W11 m ρ c (Proc.devRef .tc main_v146)) (W11 m ρ c (Proc.devRef .tc main_v148)) (W11 m ρ c (Proc.devRef .tc main_v151)) = _
  rw [in1_0 m ρ c, in1_1 m ρ c, in1_2 m ρ c, in1_3 m ρ c, in1_4 m ρ c, in1_5 m ρ c, in1_6 m ρ c, in1_7 m ρ c, in1_8 m ρ c, in1_9 m ρ c, in1_10 m ρ c]
  rfl

/-! ## The node region's input arrays -/

set_option maxHeartbeats 4000000 in
theorem nin1_1
    (hE : ∀ (V : (c : Dev nD) → (b : Ref sig .tc) → Buf (Elt Ideal) ((c : Thread nD τ).loc b)) (c : Dev nD),
      (dat2 (F := Ideal) V c).arrAt 11 cfg2.N
        = Cert.Spec.edgeArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))) :
    W13 m ρ c (Proc.devRef .tc main_v156)
      = kAgg (kEdge 1 (W8 m ρ c (Proc.devRef .tc main_v101)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (pDst (m ((c : Thread nD τ).loc main_arg2))) :=
  (ops1_agg (W12 m ρ c)).trans (by rw [edgeOut1 m ρ c hE, dst_W12 m ρ c])
theorem nin1_2 : W13 m ρ c (Proc.devRef .tc main_v158) = Cert.Spec.wBlock (n := 256) (m ((c : Thread nD τ).loc main_arg12)) 1 0 (by decide) :=
  (ops1_nw84 (W12 m ρ c)).trans (by rw [arg_W12 m ρ c main_arg12 (by decide)])
theorem nin1_3 : W13 m ρ c (Proc.devRef .tc main_v160) = Cert.Spec.wBlock (n := 256) (m ((c : Thread nD τ).loc main_arg12)) 1 128 (by decide) :=
  (ops1_nw86 (W12 m ρ c)).trans (by rw [arg_W12 m ρ c main_arg12 (by decide)])
theorem nin1_4 : W13 m ρ c (Proc.devRef .tc main_v163) = Cert.Spec.bRow (m ((c : Thread nD τ).loc main_arg13)) 1 :=
  (ops1_nw89 (W12 m ρ c)).trans (by rw [arg_W12 m ρ c main_arg13 (by decide)])
theorem nin1_5 : W13 m ρ c (Proc.devRef .tc main_v165) = Cert.Spec.wBlock (n := 128) (m ((c : Thread nD τ).loc main_arg14)) 1 0 (by decide) :=
  (ops1_nw91 (W12 m ρ c)).trans (by rw [arg_W12 m ρ c main_arg14 (by decide)])
theorem nin1_6 : W13 m ρ c (Proc.devRef .tc main_v168) = Cert.Spec.bRow (m ((c : Thread nD τ).loc main_arg15)) 1 :=
  (ops1_nw94 (W12 m ρ c)).trans (by rw [arg_W12 m ρ c main_arg15 (by decide)])
theorem nin1_7 : W13 m ρ c (Proc.devRef .tc main_v171) = Cert.Spec.bRow (m ((c : Thread nD τ).loc main_arg16)) 1 :=
  (ops1_nw97 (W12 m ρ c)).trans (by rw [arg_W12 m ρ c main_arg16 (by decide)])
theorem nin1_8 : W13 m ρ c (Proc.devRef .tc main_v174) = Cert.Spec.bRow (m ((c : Thread nD τ).loc main_arg17)) 1 :=
  (ops1_nw100 (W12 m ρ c)).trans (by rw [arg_W12 m ρ c main_arg17 (by decide)])

/-! ## The layer -/

set_option maxHeartbeats 4000000 in
theorem layer1_of
    (hE : ∀ (V : (c : Dev nD) → (b : Ref sig .tc) → Buf (Elt Ideal) ((c : Thread nD τ).loc b)) (c : Dev nD),
      (dat2 (F := Ideal) V c).arrAt 11 cfg2.N
        = Cert.Spec.edgeArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)))
    (hN : ∀ (V : (c : Dev nD) → (b : Ref sig .tc) → Buf (Elt Ideal) ((c : Thread nD τ).loc b)) (c : Dev nD),
      (dat3 (F := Ideal) V c).arrAt 9 cfg3.N
        = Cert.Spec.nodeArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) :
    W14 m ρ c (Proc.devRef .tc main_v175)
      = kLayer 1 (W8 m ρ c (Proc.devRef .tc main_v101)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W14_arr m ρ c 9).trans ((hN (V13 m ρ) c).trans ?_)
  show Cert.Spec.nodeArr (W13 m ρ c (Proc.devRef .tc main_v101)) (W13 m ρ c (Proc.devRef .tc main_v156)) (W13 m ρ c (Proc.devRef .tc main_v158)) (W13 m ρ c (Proc.devRef .tc main_v160)) (W13 m ρ c (Proc.devRef .tc main_v163)) (W13 m ρ c (Proc.devRef .tc main_v165)) (W13 m ρ c (Proc.devRef .tc main_v168)) (W13 m ρ c (Proc.devRef .tc main_v171)) (W13 m ρ c (Proc.devRef .tc main_v174)) = _
  rw [hin1_W13 m ρ c, nin1_1 m ρ c hE, nin1_2 m ρ c, nin1_3 m ρ c, nin1_4 m ρ c, nin1_5 m ρ c, nin1_6 m ρ c, nin1_7 m ρ c, nin1_8 m ρ c]
  rfl

end Cert.KernelIdeal.KStage

end
-- ==== Proof.KStageOps2.lean ====
/-
  Layer 2 of the kernel program, stretch by stretch: what each stretch of host operations computes, from ANY buffer
  contents `V` it is entered with.

  A stretch is a literal list of array operations; the contents of one buffer after it is the composition of the
  operations that feed that buffer, applied to the contents of the buffers the stretch reads. The first stretch gathers the narrowed features
  and the centred positions at each edge's two ends; the callee after it turns the difference of
  the gathered positions into the edge lengths; the next stretch cuts the layer's edge weights out of the stacked
  arguments (each cut is that argument's block, row, column or entry for layer 2); the stretch after the edge region
  widens the messages, sums them onto their targets and cuts out the node weights.
-/
import proofs.«156944_j45535243272652_2_alg».proof.Proof.Gen.KernelIdeal.Launch
import proofs.«156944_j45535243272652_2_alg».proof.Proof.KStageDefs
import proofs.«156944_j45535243272652_2_alg».proof.Proof.SliceW
import Idealize.ShloMosaic.Lib.StableHlo.Run

set_option maxRecDepth 16384

noncomputable section

namespace Cert.KernelIdeal.KStage

open Cert.KernelIdeal Cert.KernelIdeal.Gen
open Idealize.ShloMosaic Idealize.ShloMosaic.TcCoe

/-- A callee's values pass through its typed references unchanged. -/
local macro "casts_off" : tactic => `(tactic| (try simp only [StableHlo.TRef.ofBuf, StableHlo.TRef.toBuf, cast_eq]))

/-! ## Layer 2: what the edge region is entered with -/

theorem ops2_hi (V : Valuation τ sig (Elt Ideal)) :
    StableHlo.after (hostOps4 (F := Ideal)) V (Proc.devRef .tc main_v183) = kGatherH (V (Proc.devRef .tc main_v175)) (V (Proc.devRef .tc main_v27)) := by
  after_results_simp
  rfl
theorem ops2_hj (V : Valuation τ sig (Elt Ideal)) :
    StableHlo.after (hostOps4 (F := Ideal)) V (Proc.devRef .tc main_v190) = kGatherH (V (Proc.devRef .tc main_v175)) (V (Proc.devRef .tc main_v25)) := by
  after_results_simp
  rfl
theorem ops2_dist (V : Valuation τ sig (Elt Ideal)) :
    StableHlo.after (hostOps4_1 (F := Ideal)) (StableHlo.after (hostOps4 (F := Ideal)) V) (Proc.devRef .tc main_v206)
      = kDist (V (Proc.devRef .tc main_v23)) (V (Proc.devRef .tc main_v25)) (V (Proc.devRef .tc main_v27)) := by
  after_results_simp
  casts_off
  rfl

/-! ### The edge weights: each slice of a stacked argument is that argument's piece for layer 2 -/

theorem ops2_w60 (V : Valuation τ sig (Elt Ideal)) :
    StableHlo.after (hostOps4_2 (F := Ideal)) V (Proc.devRef .tc main_v208) = Cert.Spec.wBlock (n := 257) (V (Proc.devRef .tc main_arg6)) 2 0 (by decide) := by
  after_results
  exact Cert.SliceW.block_eq (n := 257) 2 2 0 rfl (by decide) (V (Proc.devRef .tc main_arg6)) slices_S4x257x128_S1x128x128_2_0_0 shapeCasts_S1x128x128_S128x128

theorem ops2_w62 (V : Valuation τ sig (Elt Ideal)) :
    StableHlo.after (hostOps4_2 (F := Ideal)) V (Proc.devRef .tc main_v210) = Cert.Spec.wBlock (n := 257) (V (Proc.devRef .tc main_arg6)) 2 128 (by decide) := by
  after_results
  exact Cert.SliceW.block_eq (n := 257) 2 2 128 rfl (by decide) (V (Proc.devRef .tc main_arg6)) slices_S4x257x128_S1x128x128_2_128_0 shapeCasts_S1x128x128_S128x128

theorem ops2_w64 (V : Valuation τ sig (Elt Ideal)) :
    StableHlo.after (hostOps4_2 (F := Ideal)) V (Proc.devRef .tc main_v212) = Cert.Spec.wRowAt (n := 257) (V (Proc.devRef .tc main_arg6)) 2 ⟨256, by decide⟩ := by
  after_results
  exact Cert.SliceW.rowAt_eq (n := 257) 2 2 rfl ⟨256, by decide⟩ 256 rfl (V (Proc.devRef .tc main_arg6)) slices_S4x257x128_S1x1x128_2_256_0 shapeCasts_S1x1x128_S1x128

theorem ops2_w67 (V : Valuation τ sig (Elt Ideal)) :
    StableHlo.after (hostOps4_2 (F := Ideal)) V (Proc.devRef .tc main_v215) = Cert.Spec.bRow (V (Proc.devRef .tc main_arg7)) 2 := by
  after_results
  exact Cert.SliceW.brow_eq 2 2 rfl (V (Proc.devRef .tc main_arg7)) slices_S4x128_S1x128_2_0 shapeCasts_S1x128_S128 bcast_S128_S1x128_1

theorem ops2_w69 (V : Valuation τ sig (Elt Ideal)) :
    StableHlo.after (hostOps4_2 (F := Ideal)) V (Proc.devRef .tc main_v217) = Cert.Spec.wBlock (n := 128) (V (Proc.devRef .tc main_arg8)) 2 0 (by decide) := by
  after_results
  exact Cert.SliceW.block_eq (n := 128) 2 2 0 rfl (by decide) (V (Proc.devRef .tc main_arg8)) slices_S4x128x128_S1x128x128_2_0_0 shapeCasts_S1x128x128_S128x128

theorem ops2_w72 (V : Valuation τ sig (Elt Ideal)) :
    StableHlo.after (hostOps4_2 (F := Ideal)) V (Proc.devRef .tc main_v220) = Cert.Spec.bRow (V (Proc.devRef .tc main_arg9)) 2 := by
  after_results
  exact Cert.SliceW.brow_eq 2 2 rfl (V (Proc.devRef .tc main_arg9)) slices_S4x128_S1x128_2_0 shapeCasts_S1x128_S128 bcast_S128_S1x128_1

theorem ops2_w74 (V : Valuation τ sig (Elt Ideal)) :
    StableHlo.after (hostOps4_2 (F := Ideal)) V (Proc.devRef .tc main_v222) = Cert.Spec.wCol (V (Proc.devRef .tc main_arg10)) 2 := by
  after_results
  exact Cert.SliceW.col_eq 2 2 rfl (V (Proc.devRef .tc main_arg10)) slices_S4x128x1_S1x128x1_2_0_0 shapeCasts_S1x128x1_S128x1

theorem ops2_w77 (V : Valuation τ sig (Elt Ideal)) :
    StableHlo.after (hostOps4_2 (F := Ideal)) V (Proc.devRef .tc main_v225) = Cert.Spec.b11 (V (Proc.devRef .tc main_arg11)) 2 := by
  after_results
  exact Cert.SliceW.b11_eq 2 2 rfl (V (Proc.devRef .tc main_arg11)) slices_S4x1_S1x1_2_0 shapeCasts_S1x1_S1 bcast_S1_S1x1_1

/-! ## Layer 2: what the node region is entered with -/

theorem ops2_agg (V : Valuation τ sig (Elt Ideal)) :
    StableHlo.after (hostOps5 (F := Ideal)) V (Proc.devRef .tc main_v230) = kAgg (V (Proc.devRef .tc main_v226)) (V (Proc.devRef .tc main_v27)) := by
  after_results
  rfl

theorem ops2_nw84 (V : Valuation τ sig (Elt Ideal)) :
    StableHlo.after (hostOps5 (F := Ideal)) V (Proc.devRef .tc main_v232) = Cert.Spec.wBlock (n := 256) (V (Proc.devRef .tc main_arg12)) 2 0 (by decide) := by
  after_results
  exact Cert.SliceW.block_eq (n := 256) 2 2 0 rfl (by decide) (V (Proc.devRef .tc main_arg12)) slices_S4x256x128_S1x128x128_2_0_0 shapeCasts_S1x128x128_S128x128

theorem ops2_nw86 (V : Valuation τ sig (Elt Ideal)) :
    StableHlo.after (hostOps5 (F := Ideal)) V (Proc.devRef .tc main_v234) = Cert.Spec.wBlock (n := 256) (V (Proc.devRef .tc main_arg12)) 2 128 (by decide) := by
  after_results
  exact Cert.SliceW.block_eq (n := 256) 2 2 128 rfl (by decide) (V (Proc.devRef .tc main_arg12)) slices_S4x256x128_S1x128x128_2_128_0 shapeCasts_S1x128x128_S128x128

theorem ops2_nw89 (V : Valuation τ sig (Elt Ideal)) :
    StableHlo.after (hostOps5 (F := Ideal)) V (Proc.devRef .tc main_v237) = Cert.Spec.bRow (V (Proc.devRef .tc main_arg13)) 2 := by
  after_results
  exact Cert.SliceW.brow_eq 2 2 rfl (V (Proc.devRef .tc main_arg13)) slices_S4x128_S1x128_2_0 shapeCasts_S1x128_S128 bcast_S128_S1x128_1

theorem ops2_nw91 (V : Valuation τ sig (Elt Ideal)) :
    StableHlo.after (hostOps5 (F := Ideal)) V (Proc.devRef .tc main_v239) = Cert.Spec.wBlock (n := 128) (V (Proc.devRef .tc main_arg14)) 2 0 (by decide) := by
  after_results
  exact Cert.SliceW.block_eq (n := 128) 2 2 0 rfl (by decide) (V (Proc.devRef .tc main_arg14)) slices_S4x128x128_S1x128x128_2_0_0 shapeCasts_S1x128x128_S128x128

theorem ops2_nw94 (V : Valuation τ sig (Elt Ideal)) :
    StableHlo.after (hostOps5 (F := Ideal)) V (Proc.devRef .tc main_v242) = Cert.Spec.bRow (V (Proc.devRef .tc main_arg15)) 2 := by
  after_results
  exact Cert.SliceW.brow_eq 2 2 rfl (V (Proc.devRef .tc main_arg15)) slices_S4x128_S1x128_2_0 shapeCasts_S1x128_S128 bcast_S128_S1x128_1

theorem ops2_nw97 (V : Valuation τ sig (Elt Ideal)) :
    StableHlo.after (hostOps5 (F := Ideal)) V (Proc.devRef .tc main_v245) = Cert.Spec.bRow (V (Proc.devRef .tc main_arg16)) 2 := by
  after_results
  exact Cert.SliceW.brow_eq 2 2 rfl (V (Proc.devRef .tc main_arg16)) slices_S4x128_S1x128_2_0 shapeCasts_S1x128_S128 bcast_S128_S1x128_1

theorem ops2_nw100 (V : Valuation τ sig (Elt Ideal)) :
    StableHlo.after (hostOps5 (F := Ideal)) V (Proc.devRef .tc main_v248) = Cert.Spec.bRow (V (Proc.devRef .tc main_arg17)) 2 := by
  after_results
  exact Cert.SliceW.brow_eq 2 2 rfl (V (Proc.devRef .tc main_arg17)) slices_S4x128_S1x128_2_0 shapeCasts_S1x128_S128 bcast_S128_S1x128_1

end Cert.KernelIdeal.KStage

end
-- ==== Proof.KStageL2.lean ====
/-
  Layer 2 of the kernel program at its boundaries.

  The layer enters with the node features `h` in one buffer. Three stretches of host operations prepare the edge
  region's eleven input arrays: the narrowed features gathered at each edge's target and at its source, the edge
  lengths from the centred positions, and the layer's eight edge weights cut out of the stacked arguments. The edge
  region leaves the messages; a stretch widens them, sums them onto their targets and cuts out the seven node weights;
  the node region leaves the new features. Given that each region's output array is its kernel's array function of the
  region's input arrays, the new features are `kLayer 2` of the old ones, the geometry and the argument arrays.
-/
import proofs.«156944_j45535243272652_2_alg».proof.Proof.FrameKI
import proofs.«156944_j45535243272652_2_alg».proof.Proof.KStageKeep
import proofs.«156944_j45535243272652_2_alg».proof.Proof.KStageP
import proofs.«156944_j45535243272652_2_alg».proof.Proof.KStageOps2

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

/-! ## The features the layer enters with stay in their buffer up to the node region -/
theorem hin2_W15 : W15 m ρ c (Proc.devRef .tc main_v175) = W14 m ρ c (Proc.devRef .tc main_v175) :=
  keep4 _ main_v175 (by decide)
theorem hin2_W16 : W16 m ρ c (Proc.devRef .tc main_v175) = W14 m ρ c (Proc.devRef .tc main_v175) :=
  (keep4_1 _ main_v175 (by decide)).trans (hin2_W15 m ρ c)
theorem hin2_W17 : W17 m ρ c (Proc.devRef .tc main_v175) = W14 m ρ c (Proc.devRef .tc main_v175) :=
  (keep4_2 _ main_v175 (by decide)).trans (hin2_W16 m ρ c)
theorem hin2_W18 : W18 m ρ c (Proc.devRef .tc main_v175) = W14 m ρ c (Proc.devRef .tc main_v175) :=
  (W18_of_ne m ρ c main_v175 (by decide)).trans (hin2_W17 m ρ c)
theorem hin2_W19 : W19 m ρ c (Proc.devRef .tc main_v175) = W14 m ρ c (Proc.devRef .tc main_v175) :=
  (keep5 _ main_v175 (by decide)).trans (hin2_W18 m ρ c)

/-! ## The edge region's input arrays -/
theorem in2_0 : W17 m ρ c (Proc.devRef .tc main_v183) = kGatherH (W14 m ρ c (Proc.devRef .tc main_v175)) (pDst (m ((c : Thread nD τ).loc main_arg2))) :=
  (keep4_2 _ main_v183 (by decide)).trans ((keep4_1 _ main_v183 (by decide)).trans ((ops2_hi (W14 m ρ c)).trans (by rw [dst_W14 m ρ c])))
theorem in2_1 : W17 m ρ c (Proc.devRef .tc main_v190) = kGatherH (W14 m ρ c (Proc.devRef .tc main_v175)) (pSrc (m ((c : Thread nD τ).loc main_arg2))) :=
  (keep4_2 _ main_v190 (by decide)).trans ((keep4_1 _ main_v190 (by decide)).trans ((ops2_hj (W14 m ρ c)).trans (by rw [src_W14 m ρ c])))
theorem in2_2 : W17 m ρ c (Proc.devRef .tc main_v206) = kDist (pPos (m ((c : Thread nD τ).loc main_arg1)) (m ((c : Thread nD τ).loc main_arg3))) (pSrc (m ((c : Thread nD τ).loc main_arg2))) (pDst (m ((c : Thread nD τ).loc main_arg2))) :=
  (keep4_2 _ main_v206 (by decide)).trans ((ops2_dist (W14 m ρ c)).trans (by rw [pos_W14 m ρ c, src_W14 m ρ c, dst_W14 m ρ c]))
theorem in2_3 : W17 m ρ c (Proc.devRef .tc main_v208) = Cert.Spec.wBlock (n := 257) (m ((c : Thread nD τ).loc main_arg6)) 2 0 (by decide) :=
  (ops2_w60 (W16 m ρ c)).trans (by rw [arg_W16 m ρ c main_arg6 (by decide)])
theorem in2_4 : W17 m ρ c (Proc.devRef .tc main_v210) = Cert.Spec.wBlock (n := 257) (m ((c : Thread nD τ).loc main_arg6)) 2 128 (by decide) :=
  (ops2_w62 (W16 m ρ c)).trans (by rw [arg_W16 m ρ c main_arg6 (by decide)])
theorem in2_5 : W17 m ρ c (Proc.devRef .tc main_v212) = Cert.Spec.wRowAt (n := 257) (m ((c : Thread nD τ).loc main_arg6)) 2 ⟨256, by decide⟩ :=
  (ops2_w64 (W16 m ρ c)).trans (by rw [arg_W16 m ρ c main_arg6 (by decide)])
theorem in2_6 : W17 m ρ c (Proc.devRef .tc main_v215) = Cert.Spec.bRow (m ((c : Thread nD τ).loc main_arg7)) 2 :=
  (ops2_w67 (W16 m ρ c)).trans (by rw [arg_W16 m ρ c main_arg7 (by decide)])
theorem in2_7 : W17 m ρ c (Proc.devRef .tc main_v217) = Cert.Spec.wBlock (n := 128) (m ((c : Thread nD τ).loc main_arg8)) 2 0 (by decide) :=
  (ops2_w69 (W16 m ρ c)).trans (by rw [arg_W16 m ρ c main_arg8 (by decide)])
theorem in2_8 : W17 m ρ c (Proc.devRef .tc main_v220) = Cert.Spec.bRow (m ((c : Thread nD τ).loc main_arg9)) 2 :=
  (ops2_w72 (W16 m ρ c)).trans (by rw [arg_W16 m ρ c main_arg9 (by decide)])
theorem in2_9 : W17 m ρ c (Proc.devRef .tc main_v222) = Cert.Spec.wCol (m ((c : Thread nD τ).loc main_arg10)) 2 :=
  (ops2_w74 (W16 m ρ c)).trans (by rw [arg_W16 m ρ c main_arg10 (by decide)])
theorem in2_10 : W17 m ρ c (Proc.devRef .tc main_v225) = Cert.Spec.b11 (m ((c : Thread nD τ).loc main_arg11)) 2 :=
  (ops2_w77 (W16 m ρ c)).trans (by rw [arg_W16 m ρ c main_arg11 (by decide)])

/-! ## The edge region's output: the messages -/

set_option maxHeartbeats 4000000 in
theorem edgeOut2
    (hE : ∀ (V : (c : Dev nD) → (b : Ref sig .tc) → Buf (Elt Ideal) ((c : Thread nD τ).loc b)) (c : Dev nD),
      (dat4 (F := Ideal) V c).arrAt 11 cfg4.N
        = Cert.Spec.edgeArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10))) :
    W18 m ρ c (Proc.devRef .tc main_v226)
      = kEdge 2 (W14 m ρ c (Proc.devRef .tc main_v175)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W18_arr m ρ c 11).trans ((hE (V17 m ρ) c).trans ?_)
  show Cert.Spec.edgeArr (W17 m ρ c (Proc.devRef .tc main_v183)) (W17 m ρ c (Proc.devRef .tc main_v190)) (W17 m ρ c (Proc.devRef .tc main_v206)) (W17 m ρ c (Proc.devRef .tc main_v208)) (W17 m ρ c (Proc.devRef .tc main_v210)) (W17 m ρ c (Proc.devRef .tc main_v212)) (W17 m ρ c (Proc.devRef .tc main_v215)) (W17 m ρ c (Proc.devRef .tc main_v217)) (W17 m ρ c (Proc.devRef .tc main_v220)) (W17 m ρ c (Proc.devRef .tc main_v222)) (W17 m ρ c (Proc.devRef .tc main_v225)) = _
  rw [in2_0 m ρ c, in2_1 m ρ c, in2_2 m ρ c, in2_3 m ρ c, in2_4 m ρ c, in2_5 m ρ c, in2_6 m ρ c, in2_7 m ρ c, in2_8 m ρ c, in2_9 m ρ c, in2_10 m ρ c]
  rfl

/-! ## The node region's input arrays -/

set_option maxHeartbeats 4000000 in
theorem nin2_1
    (hE : ∀ (V : (c : Dev nD) → (b : Ref sig .tc) → Buf (Elt Ideal) ((c : Thread nD τ).loc b)) (c : Dev nD),
      (dat4 (F := Ideal) V c).arrAt 11 cfg4.N
        = Cert.Spec.edgeArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10))) :
    W19 m ρ c (Proc.devRef .tc main_v230)
      = kAgg (kEdge 2 (W14 m ρ c (Proc.devRef .tc main_v175)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (pDst (m ((c : Thread nD τ).loc main_arg2))) :=
  (ops2_agg (W18 m ρ c)).trans (by rw [edgeOut2 m ρ c hE, dst_W18 m ρ c])
theorem nin2_2 : W19 m ρ c (Proc.devRef .tc main_v232) = Cert.Spec.wBlock (n := 256) (m ((c : Thread nD τ).loc main_arg12)) 2 0 (by decide) :=
  (ops2_nw84 (W18 m ρ c)).trans (by rw [arg_W18 m ρ c main_arg12 (by decide)])
theorem nin2_3 : W19 m ρ c (Proc.devRef .tc main_v234) = Cert.Spec.wBlock (n := 256) (m ((c : Thread nD τ).loc main_arg12)) 2 128 (by decide) :=
  (ops2_nw86 (W18 m ρ c)).trans (by rw [arg_W18 m ρ c main_arg12 (by decide)])
theorem nin2_4 : W19 m ρ c (Proc.devRef .tc main_v237) = Cert.Spec.bRow (m ((c : Thread nD τ).loc main_arg13)) 2 :=
  (ops2_nw89 (W18 m ρ c)).trans (by rw [arg_W18 m ρ c main_arg13 (by decide)])
theorem nin2_5 : W19 m ρ c (Proc.devRef .tc main_v239) = Cert.Spec.wBlock (n := 128) (m ((c : Thread nD τ).loc main_arg14)) 2 0 (by decide) :=
  (ops2_nw91 (W18 m ρ c)).trans (by rw [arg_W18 m ρ c main_arg14 (by decide)])
theorem nin2_6 : W19 m ρ c (Proc.devRef .tc main_v242) = Cert.Spec.bRow (m ((c : Thread nD τ).loc main_arg15)) 2 :=
  (ops2_nw94 (W18 m ρ c)).trans (by rw [arg_W18 m ρ c main_arg15 (by decide)])
theorem nin2_7 : W19 m ρ c (Proc.devRef .tc main_v245) = Cert.Spec.bRow (m ((c : Thread nD τ).loc main_arg16)) 2 :=
  (ops2_nw97 (W18 m ρ c)).trans (by rw [arg_W18 m ρ c main_arg16 (by decide)])
theorem nin2_8 : W19 m ρ c (Proc.devRef .tc main_v248) = Cert.Spec.bRow (m ((c : Thread nD τ).loc main_arg17)) 2 :=
  (ops2_nw100 (W18 m ρ c)).trans (by rw [arg_W18 m ρ c main_arg17 (by decide)])

/-! ## The layer -/

set_option maxHeartbeats 4000000 in
theorem layer2_of
    (hE : ∀ (V : (c : Dev nD) → (b : Ref sig .tc) → Buf (Elt Ideal) ((c : Thread nD τ).loc b)) (c : Dev nD),
      (dat4 (F := Ideal) V c).arrAt 11 cfg4.N
        = Cert.Spec.edgeArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)))
    (hN : ∀ (V : (c : Dev nD) → (b : Ref sig .tc) → Buf (Elt Ideal) ((c : Thread nD τ).loc b)) (c : Dev nD),
      (dat5 (F := Ideal) V c).arrAt 9 cfg5.N
        = Cert.Spec.nodeArr (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))) :
    W20 m ρ c (Proc.devRef .tc main_v249)
      = kLayer 2 (W14 m ρ c (Proc.devRef .tc main_v175)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W20_arr m ρ c 9).trans ((hN (V19 m ρ) c).trans ?_)
  show Cert.Spec.nodeArr (W19 m ρ c (Proc.devRef .tc main_v175)) (W19 m ρ c (Proc.devRef .tc main_v230)) (W19 m ρ c (Proc.devRef .tc main_v232)) (W19 m ρ c (Proc.devRef .tc main_v234)) (W19 m ρ c (Proc.devRef .tc main_v237)) (W19 m ρ c (Proc.devRef .tc main_v239)) (W19 m ρ c (Proc.devRef .tc main_v242)) (W19 m ρ c (Proc.devRef .tc main_v245)) (W19 m ρ c (Proc.devRef .tc main_v248)) = _
  rw [hin2_W19 m ρ c, nin2_1 m ρ c hE, nin2_2 m ρ c, nin2_3 m ρ c, nin2_4 m ρ c, nin2_5 m ρ c, nin2_6 m ρ c, nin2_7 m ρ c, nin2_8 m ρ c]
  rfl

end Cert.KernelIdeal.KStage

end
-- ==== Proof.KStageOps3.lean ====
/-
  Layer 3 of the kernel program, stretch by stretch: what each stretch of host operations computes, from ANY buffer
  contents `V` it is entered with.

  A stretch is a literal list of array operations; the contents of one buffer after it is the composition of the
  operations that feed that buffer, applied to the contents of the buffers the stretch reads. The first stretch gathers the narrowed features
  and the centred positions at each edge's two ends; the callee after it turns the difference of
  the gathered positions into the edge lengths; the next stretch cuts the layer's edge weights out of the stacked
  arguments (each cut is that argument's block, row, column or entry for layer 3); the stretch after the edge region
  widens the messages, sums them onto their targets and cuts out the node weights. The last three stretches are the
  mean over each graph and the two-layer head.
-/
import proofs.«156944_j45535243272652_2_alg».proof.Proof.Gen.KernelIdeal.Launch
import proofs.«156944_j45535243272652_2_alg».proof.Proof.KStageDefs
import proofs.«156944_j45535243272652_2_alg».proof.Proof.SliceW
import Idealize.ShloMosaic.Lib.StableHlo.Run

set_option maxRecDepth 16384

noncomputable section

namespace Cert.KernelIdeal.KStage

open Cert.KernelIdeal Cert.KernelIdeal.Gen
open Idealize.ShloMosaic Idealize.ShloMosaic.TcCoe

/-- A callee's values pass through its typed references unchanged. -/
local macro "casts_off" : tactic => `(tactic| (try simp only [StableHlo.TRef.ofBuf, StableHlo.TRef.toBuf, cast_eq]))

/-! ## Layer 3: what the edge region is entered with -/

theorem ops3_hi (V : Valuation τ sig (Elt Ideal)) :
    StableHlo.after (hostOps6 (F := Ideal)) V (Proc.devRef .tc main_v257) = kGatherH (V (Proc.devRef .tc main_v249)) (V (Proc.devRef .tc main_v27)) := by
  after_results_simp
  rfl
theorem ops3_hj (V : Valuation τ sig (Elt Ideal)) :
    StableHlo.after (hostOps6 (F := Ideal)) V (Proc.devRef .tc main_v264) = kGatherH (V (Proc.devRef .tc main_v249)) (V (Proc.devRef .tc main_v25)) := by
  after_results_simp
  rfl
theorem ops3_dist (V : Valuation τ sig (Elt Ideal)) :
    StableHlo.after (hostOps6_1 (F := Ideal)) (StableHlo.after (hostOps6 (F := Ideal)) V) (Proc.devRef .tc main_v280)
      = kDist (V (Proc.devRef .tc main_v23)) (V (Proc.devRef .tc main_v25)) (V (Proc.devRef .tc main_v27)) := by
  after_results_simp
  casts_off
  rfl

/-! ### The edge weights: each slice of a stacked argument is that argument's piece for layer 3 -/

theorem ops3_w60 (V : Valuation τ sig (Elt Ideal)) :
    StableHlo.after (hostOps6_2 (F := Ideal)) V (Proc.devRef .tc main_v282) = Cert.Spec.wBlock (n := 257) (V (Proc.devRef .tc main_arg6)) 3 0 (by decide) := by
  after_results
  exact Cert.SliceW.block_eq (n := 257) 3 3 0 rfl (by decide) (V (Proc.devRef .tc main_arg6)) slices_S4x257x128_S1x128x128_3_0_0 shapeCasts_S1x128x128_S128x128

theorem ops3_w62 (V : Valuation τ sig (Elt Ideal)) :
    StableHlo.after (hostOps6_2 (F := Ideal)) V (Proc.devRef .tc main_v284) = Cert.Spec.wBlock (n := 257) (V (Proc.devRef .tc main_arg6)) 3 128 (by decide) := by
  after_results
  exact Cert.SliceW.block_eq (n := 257) 3 3 128 rfl (by decide) (V (Proc.devRef .tc main_arg6)) slices_S4x257x128_S1x128x128_3_128_0 shapeCasts_S1x128x128_S128x128

theorem ops3_w64 (V : Valuation τ sig (Elt Ideal)) :
    StableHlo.after (hostOps6_2 (F := Ideal)) V (Proc.devRef .tc main_v286) = Cert.Spec.wRowAt (n := 257) (V (Proc.devRef .tc main_arg6)) 3 ⟨256, by decide⟩ := by
  after_results
  exact Cert.SliceW.rowAt_eq (n := 257) 3 3 rfl ⟨256, by decide⟩ 256 rfl (V (Proc.devRef .tc main_arg6)) slices_S4x257x128_S1x1x128_3_256_0 shapeCasts_S1x1x128_S1x128

theorem ops3_w67 (V : Valuation τ sig (Elt Ideal)) :
    StableHlo.after (hostOps6_2 (F := Ideal)) V (Proc.devRef .tc main_v289) = Cert.Spec.bRow (V (Proc.devRef .tc main_arg7)) 3 := by
  after_results
  exact Cert.SliceW.brow_eq 3 3 rfl (V (Proc.devRef .tc main_arg7)) slices_S4x128_S1x128_3_0 shapeCasts_S1x128_S128 bcast_S128_S1x128_1

theorem ops3_w69 (V : Valuation τ sig (Elt Ideal)) :
    StableHlo.after (hostOps6_2 (F := Ideal)) V (Proc.devRef .tc main_v291) = Cert.Spec.wBlock (n := 128) (V (Proc.devRef .tc main_arg8)) 3 0 (by decide) := by
  after_results
  exact Cert.SliceW.block_eq (n := 128) 3 3 0 rfl (by decide) (V (Proc.devRef .tc main_arg8)) slices_S4x128x128_S1x128x128_3_0_0 shapeCasts_S1x128x128_S128x128

theorem ops3_w72 (V : Valuation τ sig (Elt Ideal)) :
    StableHlo.after (hostOps6_2 (F := Ideal)) V (Proc.devRef .tc main_v294) = Cert.Spec.bRow (V (Proc.devRef .tc main_arg9)) 3 := by
  after_results
  exact Cert.SliceW.brow_eq 3 3 rfl (V (Proc.devRef .tc main_arg9)) slices_S4x128_S1x128_3_0 shapeCasts_S1x128_S128 bcast_S128_S1x128_1

theorem ops3_w74 (V : Valuation τ sig (Elt Ideal)) :
    StableHlo.after (hostOps6_2 (F := Ideal)) V (Proc.devRef .tc main_v296) = Cert.Spec.wCol (V (Proc.devRef .tc main_arg10)) 3 := by
  after_results
  exact Cert.SliceW.col_eq 3 3 rfl (V (Proc.devRef .tc main_arg10)) slices_S4x128x1_S1x128x1_3_0_0 shapeCasts_S1x128x1_S128x1

theorem ops3_w77 (V : Valuation τ sig (Elt Ideal)) :
    StableHlo.after (hostOps6_2 (F := Ideal)) V (Proc.devRef .tc main_v299) = Cert.Spec.b11 (V (Proc.devRef .tc main_arg11)) 3 := by
  after_results
  exact Cert.SliceW.b11_eq 3 3 rfl (V (Proc.devRef .tc main_arg11)) slices_S4x1_S1x1_3_0 shapeCasts_S1x1_S1 bcast_S1_S1x1_1

/-! ## Layer 3: what the node region is entered with -/

theorem ops3_agg (V : Valuation τ sig (Elt Ideal)) :
    StableHlo.after (hostOps7 (F := Ideal)) V (Proc.devRef .tc main_v304) = kAgg (V (Proc.devRef .tc main_v300)) (V (Proc.devRef .tc main_v27)) := by
  after_results
  rfl

theorem ops3_nw84 (V : Valuation τ sig (Elt Ideal)) :
    StableHlo.after (hostOps7 (F := Ideal)) V (Proc.devRef .tc main_v306) = Cert.Spec.wBlock (n := 256) (V (Proc.devRef .tc main_arg12)) 3 0 (by decide) := by
  after_results
  exact Cert.SliceW.block_eq (n := 256) 3 3 0 rfl (by decide) (V (Proc.devRef .tc main_arg12)) slices_S4x256x128_S1x128x128_3_0_0 shapeCasts_S1x128x128_S128x128

theorem ops3_nw86 (V : Valuation τ sig (Elt Ideal)) :
    StableHlo.after (hostOps7 (F := Ideal)) V (Proc.devRef .tc main_v308) = Cert.Spec.wBlock (n := 256) (V (Proc.devRef .tc main_arg12)) 3 128 (by decide) := by
  after_results
  exact Cert.SliceW.block_eq (n := 256) 3 3 128 rfl (by decide) (V (Proc.devRef .tc main_arg12)) slices_S4x256x128_S1x128x128_3_128_0 shapeCasts_S1x128x128_S128x128

theorem ops3_nw89 (V : Valuation τ sig (Elt Ideal)) :
    StableHlo.after (hostOps7 (F := Ideal)) V (Proc.devRef .tc main_v311) = Cert.Spec.bRow (V (Proc.devRef .tc main_arg13)) 3 := by
  after_results
  exact Cert.SliceW.brow_eq 3 3 rfl (V (Proc.devRef .tc main_arg13)) slices_S4x128_S1x128_3_0 shapeCasts_S1x128_S128 bcast_S128_S1x128_1

theorem ops3_nw91 (V : Valuation τ sig (Elt Ideal)) :
    StableHlo.after (hostOps7 (F := Ideal)) V (Proc.devRef .tc main_v313) = Cert.Spec.wBlock (n := 128) (V (Proc.devRef .tc main_arg14)) 3 0 (by decide) := by
  after_results
  exact Cert.SliceW.block_eq (n := 128) 3 3 0 rfl (by decide) (V (Proc.devRef .tc main_arg14)) slices_S4x128x128_S1x128x128_3_0_0 shapeCasts_S1x128x128_S128x128

theorem ops3_nw94 (V : Valuation τ sig (Elt Ideal)) :
    StableHlo.after (hostOps7 (F := Ideal)) V (Proc.devRef .tc main_v316) = Cert.Spec.bRow (V (Proc.devRef .tc main_arg15)) 3 := by
  after_results
  exact Cert.SliceW.brow_eq 3 3 rfl (V (Proc.devRef .tc main_arg15)) slices_S4x128_S1x128_3_0 shapeCasts_S1x128_S128 bcast_S128_S1x128_1

theorem ops3_nw97 (V : Valuation τ sig (Elt Ideal)) :
    StableHlo.after (hostOps7 (F := Ideal)) V (Proc.devRef .tc main_v319) = Cert.Spec.bRow (V (Proc.devRef .tc main_arg16)) 3 := by
  after_results
  exact Cert.SliceW.brow_eq 3 3 rfl (V (Proc.devRef .tc main_arg16)) slices_S4x128_S1x128_3_0 shapeCasts_S1x128_S128 bcast_S128_S1x128_1

theorem ops3_nw100 (V : Valuation τ sig (Elt Ideal)) :
    StableHlo.after (hostOps7 (F := Ideal)) V (Proc.devRef .tc main_v322) = Cert.Spec.bRow (V (Proc.devRef .tc main_arg17)) 3 := by
  after_results
  exact Cert.SliceW.brow_eq 3 3 rfl (V (Proc.devRef .tc main_arg17)) slices_S4x128_S1x128_3_0 shapeCasts_S1x128_S128 bcast_S128_S1x128_1

/-! ## The suffix: the mean over each graph and the head -/

theorem ops_suffix (V : Valuation τ sig (Elt Ideal)) :
    StableHlo.after (hostOps8_2 (F := Ideal)) (StableHlo.after (hostOps8_1 (F := Ideal)) (StableHlo.after (hostOps8 (F := Ideal)) V)) (Proc.devRef .tc main_v343)
      = kSuffix (V (Proc.devRef .tc main_v323)) (V (Proc.devRef .tc main_arg3)) (V (Proc.devRef .tc main_arg18)) (V (Proc.devRef .tc main_arg19)) (V (Proc.devRef .tc main_arg20)) (V (Proc.devRef .tc main_arg21)) := by
  after_results_simp
  casts_off
  rfl

end Cert.KernelIdeal.KStage

end
-- ==== Proof.KStageL3.lean ====
/-
  Layer 3 of the kernel program at its boundaries.

  The layer enters with the node features `h` in one buffer. Three stretches of host operations prepare the edge
  region's eleven input arrays: the narrowed features gathered at each edge's target and at its source, the edge
  lengths from the centred positions, and the layer's eight edge weights cut out of the stacked arguments. The edge
  region leaves the messages; a stretch widens them, sums them onto their targets and cuts out the seven node weights;
  the node region leaves the new features. Given that each region's output array is its kernel's array function of the
  region's input arrays, the new features are `kLayer 3` of the old ones, the geometry and the argument arrays.
-/
import proofs.«156944_j45535243272652_2_alg».proof.Proof.FrameKI
import proofs.«156944_j45535243272652_2_alg».proof.Proof.KStageKeep
import proofs.«156944_j45535243272652_2_alg».proof.Proof.KStageP
import proofs.«156944_j45535243272652_2_alg».proof.Proof.KStageOps3

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

/-! ## The features the layer enters with stay in their buffer up to the node region -/
theorem hin3_W21 : W21 m ρ c (Proc.devRef .tc main_v249) = W20 m ρ c (Proc.devRef .tc main_v249) :=
  keep6 _ main_v249 (by decide)
theorem hin3_W22 : W22 m ρ c (Proc.devRef .tc main_v249) = W20 m ρ c (Proc.devRef .tc main_v249) :=
  (keep6_1 _ main_v249 (by decide)).trans (hin3_W21 m ρ c)
theorem hin3_W23 : W23 m ρ c (Proc.devRef .tc main_v249) = W20 m ρ c (Proc.devRef .tc main_v249) :=
  (keep6_2 _ main_v249 (by decide)).trans (hin3_W22 m ρ c)
theorem hin3_W24 : W24 m ρ c (Proc.devRef .tc main_v249) = W20 m ρ c (Proc.devRef .tc main_v249) :=
  (W24_of_ne m ρ c main_v249 (by decide)).trans (hin3_W23 m ρ c)
theorem hin3_W25 : W25 m ρ c (Proc.devRef .tc main_v249) = W20 m ρ c (Proc.devRef .tc main_v249) :=
  (keep7 _ main_v249 (by decide)).trans (hin3_W24 m ρ c)

/-! ## The edge region's input arrays -/
theorem in3_0 : W23 m ρ c (Proc.devRef .tc main_v257) = kGatherH (W20 m ρ c (Proc.devRef .tc main_v249)) (pDst (m ((c : Thread nD τ).loc main_arg2))) :=
  (keep6_2 _ main_v257 (by decide)).trans ((keep6_1 _ main_v257 (by decide)).trans ((ops3_hi (W20 m ρ c)).trans (by rw [dst_W20 m ρ c])))
theorem in3_1 : W23 m ρ c (Proc.devRef .tc main_v264) = kGatherH (W20 m ρ c (Proc.devRef .tc main_v249)) (pSrc (m ((c : Thread nD τ).loc main_arg2))) :=
  (keep6_2 _ main_v264 (by decide)).trans ((keep6_1 _ main_v264 (by decide)).trans ((ops3_hj (W20 m ρ c)).trans (by rw [src_W20 m ρ c])))
theorem in3_2 : W23 m ρ c (Proc.devRef .tc main_v280) = kDist (pPos (m ((c : Thread nD τ).loc main_arg1)) (m ((c : Thread nD τ).loc main_arg3))) (pSrc (m ((c : Thread nD τ).loc main_arg2))) (pDst (m ((c : Thread nD τ).loc main_arg2))) :=
  (keep6_2 _ main_v280 (by decide)).trans ((ops3_dist (W20 m ρ c)).trans (by rw [pos_W20 m ρ c, src_W20 m ρ c, dst_W20 m ρ c]))
theorem in3_3 : W23 m ρ c (Proc.devRef .tc main_v282) = Cert.Spec.wBlock (n := 257) (m ((c : Thread nD τ).loc main_arg6)) 3 0 (by decide) :=
  (ops3_w60 (W22 m ρ c)).trans (by rw [arg_W22 m ρ c main_arg6 (by decide)])
theorem in3_4 : W23 m ρ c (Proc.devRef .tc main_v284) = Cert.Spec.wBlock (n := 257) (m ((c : Thread nD τ).loc main_arg6)) 3 128 (by decide) :=
  (ops3_w62 (W22 m ρ c)).trans (by rw [arg_W22 m ρ c main_arg6 (by decide)])
theorem in3_5 : W23 m ρ c (Proc.devRef .tc main_v286) = Cert.Spec.wRowAt (n := 257) (m ((c : Thread nD τ).loc main_arg6)) 3 ⟨256, by decide⟩ :=
  (ops3_w64 (W22 m ρ c)).trans (by rw [arg_W22 m ρ c main_arg6 (by decide)])
theorem in3_6 : W23 m ρ c (Proc.devRef .tc main_v289) = Cert.Spec.bRow (m ((c : Thread nD τ).loc main_arg7)) 3 :=
  (ops3_w67 (W22 m ρ c)).trans (by rw [arg_W22 m ρ c main_arg7 (by decide)])
theorem in3_7 : W23 m ρ c (Proc.devRef .tc main_v291) = Cert.Spec.wBlock (n := 128) (m ((c : Thread nD τ).loc main_arg8)) 3 0 (by decide) :=
  (ops3_w69 (W22 m ρ c)).trans (by rw [arg_W22 m ρ c main_arg8 (by decide)])
theorem in3_8 : W23 m ρ c (Proc.devRef .tc main_v294) = Cert.Spec.bRow (m ((c : Thread nD τ).loc main_arg9)) 3 :=
  (ops3_w72 (W22 m ρ c)).trans (by rw [arg_W22 m ρ c main_arg9 (by decide)])
theorem in3_9 : W23 m ρ c (Proc.devRef .tc main_v296) = Cert.Spec.wCol (m ((c : Thread nD τ).loc main_arg10)) 3 :=
  (ops3_w74 (W22 m ρ c)).trans (by rw [arg_W22 m ρ c main_arg10 (by decide)])
theorem in3_10 : W23 m ρ c (Proc.devRef .tc main_v299) = Cert.Spec.b11 (m ((c : Thread nD τ).loc main_arg11)) 3 :=
  (ops3_w77 (W22 m ρ c)).trans (by rw [arg_W22 m ρ c main_arg11 (by decide)])

/-! ## The edge region's output: the messages -/

set_option maxHeartbeats 4000000 in
theorem edgeOut3
    (hE : ∀ (V : (c : Dev nD) → (b : Ref sig .tc) → Buf (Elt Ideal) ((c : Thread nD τ).loc b)) (c : Dev nD),
      (dat6 (F := Ideal) V c).arrAt 11 cfg6.N
        = Cert.Spec.edgeArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10))) :
    W24 m ρ c (Proc.devRef .tc main_v300)
      = kEdge 3 (W20 m ρ c (Proc.devRef .tc main_v249)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W24_arr m ρ c 11).trans ((hE (V23 m ρ) c).trans ?_)
  show Cert.Spec.edgeArr (W23 m ρ c (Proc.devRef .tc main_v257)) (W23 m ρ c (Proc.devRef .tc main_v264)) (W23 m ρ c (Proc.devRef .tc main_v280)) (W23 m ρ c (Proc.devRef .tc main_v282)) (W23 m ρ c (Proc.devRef .tc main_v284)) (W23 m ρ c (Proc.devRef .tc main_v286)) (W23 m ρ c (Proc.devRef .tc main_v289)) (W23 m ρ c (Proc.devRef .tc main_v291)) (W23 m ρ c (Proc.devRef .tc main_v294)) (W23 m ρ c (Proc.devRef .tc main_v296)) (W23 m ρ c (Proc.devRef .tc main_v299)) = _
  rw [in3_0 m ρ c, in3_1 m ρ c, in3_2 m ρ c, in3_3 m ρ c, in3_4 m ρ c, in3_5 m ρ c, in3_6 m ρ c, in3_7 m ρ c, in3_8 m ρ c, in3_9 m ρ c, in3_10 m ρ c]
  rfl

/-! ## The node region's input arrays -/

set_option maxHeartbeats 4000000 in
theorem nin3_1
    (hE : ∀ (V : (c : Dev nD) → (b : Ref sig .tc) → Buf (Elt Ideal) ((c : Thread nD τ).loc b)) (c : Dev nD),
      (dat6 (F := Ideal) V c).arrAt 11 cfg6.N
        = Cert.Spec.edgeArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10))) :
    W25 m ρ c (Proc.devRef .tc main_v304)
      = kAgg (kEdge 3 (W20 m ρ c (Proc.devRef .tc main_v249)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (pDst (m ((c : Thread nD τ).loc main_arg2))) :=
  (ops3_agg (W24 m ρ c)).trans (by rw [edgeOut3 m ρ c hE, dst_W24 m ρ c])
theorem nin3_2 : W25 m ρ c (Proc.devRef .tc main_v306) = Cert.Spec.wBlock (n := 256) (m ((c : Thread nD τ).loc main_arg12)) 3 0 (by decide) :=
  (ops3_nw84 (W24 m ρ c)).trans (by rw [arg_W24 m ρ c main_arg12 (by decide)])
theorem nin3_3 : W25 m ρ c (Proc.devRef .tc main_v308) = Cert.Spec.wBlock (n := 256) (m ((c : Thread nD τ).loc main_arg12)) 3 128 (by decide) :=
  (ops3_nw86 (W24 m ρ c)).trans (by rw [arg_W24 m ρ c main_arg12 (by decide)])
theorem nin3_4 : W25 m ρ c (Proc.devRef .tc main_v311) = Cert.Spec.bRow (m ((c : Thread nD τ).loc main_arg13)) 3 :=
  (ops3_nw89 (W24 m ρ c)).trans (by rw [arg_W24 m ρ c main_arg13 (by decide)])
theorem nin3_5 : W25 m ρ c (Proc.devRef .tc main_v313) = Cert.Spec.wBlock (n := 128) (m ((c : Thread nD τ).loc main_arg14)) 3 0 (by decide) :=
  (ops3_nw91 (W24 m ρ c)).trans (by rw [arg_W24 m ρ c main_arg14 (by decide)])
theorem nin3_6 : W25 m ρ c (Proc.devRef .tc main_v316) = Cert.Spec.bRow (m ((c : Thread nD τ).loc main_arg15)) 3 :=
  (ops3_nw94 (W24 m ρ c)).trans (by rw [arg_W24 m ρ c main_arg15 (by decide)])
theorem nin3_7 : W25 m ρ c (Proc.devRef .tc main_v319) = Cert.Spec.bRow (m ((c : Thread nD τ).loc main_arg16)) 3 :=
  (ops3_nw97 (W24 m ρ c)).trans (by rw [arg_W24 m ρ c main_arg16 (by decide)])
theorem nin3_8 : W25 m ρ c (Proc.devRef .tc main_v322) = Cert.Spec.bRow (m ((c : Thread nD τ).loc main_arg17)) 3 :=
  (ops3_nw100 (W24 m ρ c)).trans (by rw [arg_W24 m ρ c main_arg17 (by decide)])

/-! ## The layer -/

set_option maxHeartbeats 4000000 in
theorem layer3_of
    (hE : ∀ (V : (c : Dev nD) → (b : Ref sig .tc) → Buf (Elt Ideal) ((c : Thread nD τ).loc b)) (c : Dev nD),
      (dat6 (F := Ideal) V c).arrAt 11 cfg6.N
        = Cert.Spec.edgeArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)))
    (hN : ∀ (V : (c : Dev nD) → (b : Ref sig .tc) → Buf (Elt Ideal) ((c : Thread nD τ).loc b)) (c : Dev nD),
      (dat7 (F := Ideal) V c).arrAt 9 cfg7.N
        = Cert.Spec.nodeArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))) :
    W26 m ρ c (Proc.devRef .tc main_v323)
      = kLayer 3 (W20 m ρ c (Proc.devRef .tc main_v249)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W26_arr m ρ c 9).trans ((hN (V25 m ρ) c).trans ?_)
  show Cert.Spec.nodeArr (W25 m ρ c (Proc.devRef .tc main_v249)) (W25 m ρ c (Proc.devRef .tc main_v304)) (W25 m ρ c (Proc.devRef .tc main_v306)) (W25 m ρ c (Proc.devRef .tc main_v308)) (W25 m ρ c (Proc.devRef .tc main_v311)) (W25 m ρ c (Proc.devRef .tc main_v313)) (W25 m ρ c (Proc.devRef .tc main_v316)) (W25 m ρ c (Proc.devRef .tc main_v319)) (W25 m ρ c (Proc.devRef .tc main_v322)) = _
  rw [hin3_W25 m ρ c, nin3_1 m ρ c hE, nin3_2 m ρ c, nin3_3 m ρ c, nin3_4 m ρ c, nin3_5 m ρ c, nin3_6 m ρ c, nin3_7 m ρ c, nin3_8 m ρ c]
  rfl

end Cert.KernelIdeal.KStage

end
-- ==== Proof.KStageS.lean ====
/-
  The suffix of the kernel program at its boundaries: after the last node region, three stretches of host operations
  take the final node features to the program's result — the mean over each graph's nodes, then the two-layer head.
  They read the graph index and the head's weights from argument arrays that are still as launched.
-/
import proofs.«156944_j45535243272652_2_alg».proof.Proof.FrameKI
import proofs.«156944_j45535243272652_2_alg».proof.Proof.KStageKeep
import proofs.«156944_j45535243272652_2_alg».proof.Proof.KStageOps3

set_option maxRecDepth 16384
set_option Elab.async false

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

theorem out_W29 :
    W29 m ρ c (Proc.devRef .tc main_v343)
      = kSuffix (W26 m ρ c (Proc.devRef .tc main_v323)) (m ((c : Thread nD τ).loc main_arg3)) (m ((c : Thread nD τ).loc main_arg18)) (m ((c : Thread nD τ).loc main_arg19)) (m ((c : Thread nD τ).loc main_arg20)) (m ((c : Thread nD τ).loc main_arg21)) :=
  (ops_suffix (W26 m ρ c)).trans (by
    rw [arg_W26 m ρ c main_arg3 (by decide), arg_W26 m ρ c main_arg18 (by decide), arg_W26 m ρ c main_arg19 (by decide),
      arg_W26 m ρ c main_arg20 (by decide), arg_W26 m ρ c main_arg21 (by decide)])

end Cert.KernelIdeal.KStage

end
-- ==== Proof.EdgeOps.lean ====
/-
  The edge kernel's non-pointwise operations read at one element, over variables of the literal block shapes.

  A block product of a 2000×128 block by a 128×128 (or 128×1) block into the zero block, read at row `r` and column `c`,
  is the sum over the 128 contracted positions of the row's entries times the column's entries. A column block
  [2000,1] broadcast along the features reads the row's one entry; a row block [1,128] broadcast down the rows reads
  the column's entry; the 1×1 block broadcast to a column reads its one entry.
-/
import proofs.«156944_j45535243272652_2_alg».proof.KernelIdeal
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.EdgeOps

open Idealize.ShloMosaic Idealize.ShloMosaic.ValueIdx
open Cert.KernelIdeal

variable [Facts₀]
open Facts₀

/-! ## The 2000×128 by 128×128 product -/

theorem lhs_dotW_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch from List.not_mem_nil), dif_pos (show (0 : Fin S2000x128.rank) ∈ dot_S2000x128_S128x128_S2000x128_1_0_0_1_n_n.lhsNonContracting from List.mem_singleton.mpr rfl)]
  rfl

theorem lhs_dotW_1 (i : S2000x128.Idx) (q : dot_S2000x128_S128x128_S2000x128_1_0_0_1_n_n.contr.Idx) :
    (dot_S2000x128_S128x128_S2000x128_1_0_0_1_n_n.lhsIdx i q 1).val = (q ⟨0, Nat.one_pos⟩).val :=
  dot_S2000x128_S128x128_S2000x128_1_0_0_1_n_n.lhsIdx_val_of_single rfl i q

theorem rhs_dotW_0 (i : S2000x128.Idx) (q : dot_S2000x128_S128x128_S2000x128_1_0_0_1_n_n.contr.Idx) :
    (dot_S2000x128_S128x128_S2000x128_1_0_0_1_n_n.rhsIdx i q 0).val = (q ⟨0, Nat.one_pos⟩).val :=
  dot_S2000x128_S128x128_S2000x128_1_0_0_1_n_n.rhsIdx_val_of_single rfl i q

theorem rhs_dotW_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch from List.not_mem_nil), dif_pos (show (1 : Fin S128x128.rank) ∈ dot_S2000x128_S128x128_S2000x128_1_0_0_1_n_n.rhsNonContracting from List.mem_singleton.mpr rfl)]
  rfl

/-- The block product into the zero block at (r, c): the row of the left block against the column of the right. -/
theorem matmulW_apply {φ₁ φ₂ : FTy} (A : FVec Ideal S2000x128 φ₁) (B : FVec Ideal S128x128 φ₂) (r : Fin 2000) (c : Fin 128) :
    matmul dot_S2000x128_S128x128_S2000x128_1_0_0_1_n_n none A B (constant (F := Ideal) S2000x128 .f32 0x00000000#32) (ix2 r c)
      = ∑ k : Fin 128, A (ix2 r k) * B (ix2 k c) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r c) ((contrEquiv1 dot_S2000x128_S128x128_S2000x128_1_0_0_1_n_n 128 rfl rfl).symm k) = ix2 r k := funext fun a => Fin.ext (by
    match a with
    | ⟨0, _⟩ => exact lhs_dotW_0 _ _
    | ⟨1, _⟩ => exact (lhs_dotW_1 _ _).trans hk)
  have er : dot_S2000x128_S128x128_S2000x128_1_0_0_1_n_n.rhsIdx (ix2 r c) ((contrEquiv1 dot_S2000x128_S128x128_S2000x128_1_0_0_1_n_n 128 rfl rfl).symm k) = ix2 k c := funext fun a => Fin.ext (by
    match a with
    | ⟨0, _⟩ => exact (rhs_dotW_0 _ _).trans hk
    | ⟨1, _⟩ => exact rhs_dotW_1 _ _)
  rw [el, er]

/-! ## The 2000×128 by 128×1 product -/

theorem lhs_dotA_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch from List.not_mem_nil), dif_pos (show (0 : Fin S2000x128.rank) ∈ dot_S2000x128_S128x1_S2000x1_1_0_0_1_n_n.lhsNonContracting from List.mem_singleton.mpr rfl)]
  rfl

theorem lhs_dotA_1 (i : S2000x1.Idx) (q : dot_S2000x128_S128x1_S2000x1_1_0_0_1_n_n.contr.Idx) :
    (dot_S2000x128_S128x1_S2000x1_1_0_0_1_n_n.lhsIdx i q 1).val = (q ⟨0, Nat.one_pos⟩).val :=
  dot_S2000x128_S128x1_S2000x1_1_0_0_1_n_n.lhsIdx_val_of_single rfl i q

theorem rhs_dotA_0 (i : S2000x1.Idx) (q : dot_S2000x128_S128x1_S2000x1_1_0_0_1_n_n.contr.Idx) :
    (dot_S2000x128_S128x1_S2000x1_1_0_0_1_n_n.rhsIdx i q 0).val = (q ⟨0, Nat.one_pos⟩).val :=
  dot_S2000x128_S128x1_S2000x1_1_0_0_1_n_n.rhsIdx_val_of_single rfl i q

theorem rhs_dotA_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch from List.not_mem_nil), dif_pos (show (1 : Fin S128x1.rank) ∈ dot_S2000x128_S128x1_S2000x1_1_0_0_1_n_n.rhsNonContracting from List.mem_singleton.mpr rfl)]
  rfl

/-- The block product with a one-column block into the zero column at row r: the row against that column. -/
theorem matmulA_apply {φ₁ φ₂ : FTy} (A : FVec Ideal S2000x128 φ₁) (B : FVec Ideal S128x1 φ₂) (r : Fin 2000) :
    matmul dot_S2000x128_S128x1_S2000x1_1_0_0_1_n_n none A B (constant (F := Ideal) S2000x1 .f32 0x00000000#32) (ix2 r (0 : Fin 1))
      = ∑ k : Fin 128, A (ix2 r k) * B (ix2 k (0 : Fin 1)) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 r (0 : Fin 1)) ((contrEquiv1 dot_S2000x128_S128x1_S2000x1_1_0_0_1_n_n 128 rfl rfl).symm k) = ix2 r k := funext fun a => Fin.ext (by
    match a with
    | ⟨0, _⟩ => exact lhs_dotA_0 _ _
    | ⟨1, _⟩ => exact (lhs_dotA_1 _ _).trans hk)
  have er : dot_S2000x128_S128x1_S2000x1_1_0_0_1_n_n.rhsIdx (ix2 r (0 : Fin 1)) ((contrEquiv1 dot_S2000x128_S128x1_S2000x1_1_0_0_1_n_n 128 rfl rfl).symm k) = ix2 k (0 : Fin 1) := funext fun a => Fin.ext (by
    match a with
    | ⟨0, _⟩ => exact (rhs_dotA_0 _ _).trans hk
    | ⟨1, _⟩ => exact rhs_dotA_1 _ _)
  rw [el, er]

/-! ## The broadcasts -/

/-- A column block spread along the features reads the row's one entry. -/
theorem bcastCol_apply {α : Type} (x : S2000x1.Idx → α) (h : S2000x1.Broadcasts S2000x128) (r : Fin 2000) (c : Fin 128) :
    broadcastTo S2000x128 x h (ix2 r c) = x (ix2 r (0 : Fin 1)) := by
  refine broadcastTo_apply x _ (ix2 r c) (ix2 r (0 : Fin 1)) fun a => ?_
  match a with
  | ⟨0, _⟩ => rfl
  | ⟨1, _⟩ => rfl

/-- A row block spread down the rows reads the column's entry. -/
theorem bcastRow_apply {α : Type} (x : S1x128.Idx → α) (h : S1x128.Broadcasts S2000x128) (r : Fin 2000) (c : Fin 128) :
    broadcastTo S2000x128 x h (ix2 r c) = x (ix2 (0 : Fin 1) c) := by
  refine broadcastTo_apply x _ (ix2 r c) (ix2 (0 : Fin 1) c) fun a => ?_
  match a with
  | ⟨0, _⟩ => rfl
  | ⟨1, _⟩ => rfl

/-- The one-entry block spread to a column reads its entry. -/
theorem bcastOne_apply {α : Type} (x : S1x1.Idx → α) (h : S1x1.Broadcasts S2000x1) (r : Fin 2000) :
    broadcastTo S2000x1 x h (ix2 r (0 : Fin 1)) = x (ix2 (0 : Fin 1) (0 : Fin 1)) := by
  refine broadcastTo_apply x _ (ix2 r (0 : Fin 1)) (ix2 (0 : Fin 1) (0 : Fin 1)) fun a => ?_
  match a with
  | ⟨0, _⟩ => rfl
  | ⟨1, _⟩ => rfl

/-- The logistic of a block, element by element. -/
theorem logistic_apply {s : Shape} {φ : FTy} (v : FVec Ideal s φ) (i : s.Idx) : logistic v i = Ideal.logistic (v i) := rfl

end Cert.KernelIdeal.EdgeOps

end
-- ==== Proof.Edge0Pay.lean ====
/-
  The edge kernel's arithmetic at one element of its output block. At row r and feature c the body computes, from row r
  of the two feature blocks and of the length block and from the weight blocks: the three-part affine form and its
  activation, the second affine stage and its activation, the row's gate, and the gated entry. Every block product is
  into a zero block, so it is the plain sum over the 128 contracted positions; a change of float format is the
  identity on extended reals.
-/
import proofs.«156944_j45535243272652_2_alg».proof.Proof.Spec
import proofs.«156944_j45535243272652_2_alg».proof.Proof.EdgeOps
import proofs.«156944_j45535243272652_2_alg».proof.Proof.Gen.KernelIdeal.Skeleton

noncomputable section

namespace Cert.KernelIdeal.Edge0

open Idealize.ShloMosaic Idealize.ShloMosaic.ValueIdx
open Cert.KernelIdeal Cert.KernelIdeal.EdgeOps

/-- The first two stages of the body at (r, c): the second stage's activated row entry, from row r of the two feature
    blocks and of the length block and from the weight blocks. -/
theorem pay2_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (r : Fin 2000) (c : Fin 128) :
    Gen.k0_pay2 (F := Ideal) x0 x1 x2 x3 x4 x5 x6 x7 x8 (ix2 r c)
      = Spec.edgeM2 (fun k => Spec.silu (Spec.edgeEa (fun j => x0 (ix2 r j)) (fun j => x1 (ix2 r j)) (x2 (ix2 r (0 : Fin 1)))
          (Spec.mat x3) (Spec.mat x4) (Spec.rowv x5) (Spec.rowv x6) k)) (Spec.mat x7) (Spec.rowv x8) c := by
  unfold Gen.k0_pay2
  simp only [shapeCast_self, mulf_apply, addf_apply, truncf_apply, logistic_apply, matmulW_apply, bcastCol_apply, bcastRow_apply]
  rfl

/-- The last stage at (r, c): the second stage's entry times the row's gate. -/
theorem pay1_apply (v : FVec Ideal S2000x128 .f32) (x9 : Vec Ideal S128x1 .f32) (x10 : Vec Ideal S1x1 .f32) (r : Fin 2000) (c : Fin 128) :
    Gen.k0_pay1 (F := Ideal) v x9 x10 (ix2 r c)
      = v (ix2 r c) * Spec.edgeAtt (fun k => v (ix2 r k)) (Spec.colv x9) (x10 (ix2 (0 : Fin 1) (0 : Fin 1))) := by
  unfold Gen.k0_pay1
  simp only [shapeCast_self, mulf_apply, addf_apply, truncf_apply, logistic_apply, matmulA_apply, bcastCol_apply, bcastOne_apply]
  rfl

end Cert.KernelIdeal.Edge0

end
-- ==== Proof.Edge0Idx.lean ====
/-
  The edge region's index maps, decided once over its 125 grid points: at point t the two feature windows, the length
  window and the output window are at row block t; the eight weight windows are at their one block.
-/
import proofs.«156944_j45535243272652_2_alg».proof.Proof.Gen.KernelIdeal
import Idealize.ShloMosaic.Lib.Pipeline.Value
import Idealize.ShloMosaic.Lib.ValueIdx

noncomputable section

namespace Cert.KernelIdeal.Edge0

open Idealize.ShloMosaic Idealize.ShloMosaic.TcCoe Idealize.ShloMosaic.ValueIdx Idealize.SL.Sem
open Cert.KernelIdeal Cert.KernelIdeal.Gen

/-- The index maps over the grid's 125 points: the three row-blocked inputs and the output sit at block (t, 0) at
    point t; the eight weight windows sit at block (0, 0) at every point. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

end Cert.KernelIdeal.Edge0

end
-- ==== Proof.Edge0BlkR.lean ====
/-
  The three row-blocked input windows of the edge region: the block at point t, read off the array as the region finds
  it, is rows 2000·t … 2000·t + 1999 of the array.
-/
import proofs.«156944_j45535243272652_2_alg».proof.Proof.Spec
import proofs.«156944_j45535243272652_2_alg».proof.Proof.Edge0Idx
import proofs.«156944_j45535243272652_2_alg».proof.Proof.FrameKI
import Idealize.ShloMosaic.Lib.Pipeline.Value
import Idealize.ShloMosaic.Lib.ValueIdx

noncomputable section

namespace Cert.KernelIdeal.Edge0

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 0's block at point t is rows 2000·t … 2000·t + 1999 of its array. -/
theorem blkHi_apply (c : Dev nD) (t : Fin cfg0.N) (r : Fin 2000) (k : Fin 128) (R : Fin 250000) (hR : R.val = t.val * 2000 + r.val) :
    (iblk0 V c 0 t : Vec Ideal S2000x128 .bf16) (ix2 r k) = (V c (Pipeline.arrRef spec0 0) : Spec.SE.Idx → EReal) (ix2 R k) := by
  obtain ⟨h0, h1, -, -, -, -, -, -, -, -, -, -, -, -, -, -, -, -, -, -, -, -, -, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * r.val = R.val; rw [h0, hR]; omega
  | ⟨1, _⟩ => show win0_0.index t (1 : Fin 2) * 128 + 1 * k.val = k.val; rw [h1]; omega

/-- Window 1's block at point t is rows 2000·t … 2000·t + 1999 of its array. -/
theorem blkHj_apply (c : Dev nD) (t : Fin cfg0.N) (r : Fin 2000) (k : Fin 128) (R : Fin 250000) (hR : R.val = t.val * 2000 + r.val) :
    (iblk0 V c 1 t : Vec Ideal S2000x128 .bf16) (ix2 r k) = (V c (Pipeline.arrRef spec0 1) : Spec.SE.Idx → EReal) (ix2 R k) := by
  obtain ⟨-, -, h0, h1, -, -, -, -, -, -, -, -, -, -, -, -, -, -, -, -, -, -, -, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 2000 + 1 * r.val = R.val; rw [h0, hR]; omega
  | ⟨1, _⟩ => show win0_1.index t (1 : Fin 2) * 128 + 1 * k.val = k.val; rw [h1]; omega

/-- Window 2's block at point t is rows 2000·t … 2000·t + 1999 of its one-column array. -/
theorem blkDist_apply (c : Dev nD) (t : Fin cfg0.N) (r : Fin 2000) (k : Fin 1) (R : Fin 250000) (hR : R.val = t.val * 2000 + r.val) :
    (iblk0 V c 2 t : Vec Ideal S2000x1 .f32) (ix2 r k) = (V c (Pipeline.arrRef spec0 2) : Spec.SE1.Idx → EReal) (ix2 R k) := by
  obtain ⟨-, -, -, -, h0, h1, -, -, -, -, -, -, -, -, -, -, -, -, -, -, -, -, -, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 2000 + 1 * r.val = R.val; rw [h0, hR]; omega
  | ⟨1, _⟩ => show win0_2.index t (1 : Fin 2) * 1 + 1 * k.val = k.val; rw [h1]; omega

end Cert.KernelIdeal.Edge0

end
-- ==== Proof.Edge0BlkW.lean ====
/-
  The first-stage weight windows of the edge region (the two 128×128 matrices, the length row and the bias row): the
  block at every point is the whole array as the region finds it.
-/
import proofs.«156944_j45535243272652_2_alg».proof.Proof.Spec
import proofs.«156944_j45535243272652_2_alg».proof.Proof.Edge0Idx
import proofs.«156944_j45535243272652_2_alg».proof.Proof.FrameKI
import Idealize.ShloMosaic.Lib.Pipeline.Value
import Idealize.ShloMosaic.Lib.ValueIdx

noncomputable section

namespace Cert.KernelIdeal.Edge0

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 3's block at every point is its whole array. -/
theorem blkW1a_eq (c : Dev nD) (t : Fin cfg0.N) :
    (iblk0 V c 3 t : Vec Ideal S128x128 .f32) = (V c (Pipeline.arrRef spec0 3) : Spec.SW.Idx → EReal) := by
  obtain ⟨-, -, -, -, -, -, h0, h1, -, -, -, -, -, -, -, -, -, -, -, -, -, -, -, -⟩ := idx_facts t
  funext j
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 128 + 1 * (j 0).val = (j 0).val; rw [h0]; omega
  | ⟨1, _⟩ => show win0_3.index t (1 : Fin 2) * 128 + 1 * (j 1).val = (j 1).val; rw [h1]; omega

/-- Window 4's block at every point is its whole array. -/
theorem blkW1b_eq (c : Dev nD) (t : Fin cfg0.N) :
    (iblk0 V c 4 t : Vec Ideal S128x128 .f32) = (V c (Pipeline.arrRef spec0 4) : Spec.SW.Idx → EReal) := by
  obtain ⟨-, -, -, -, -, -, -, -, h0, h1, -, -, -, -, -, -, -, -, -, -, -, -, -, -⟩ := idx_facts t
  funext j
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 128 + 1 * (j 0).val = (j 0).val; rw [h0]; omega
  | ⟨1, _⟩ => show win0_4.index t (1 : Fin 2) * 128 + 1 * (j 1).val = (j 1).val; rw [h1]; omega

/-- Window 5's block at every point is its whole array. -/
theorem blkW1c_eq (c : Dev nD) (t : Fin cfg0.N) :
    (iblk0 V c 5 t : Vec Ideal S1x128 .f32) = (V c (Pipeline.arrRef spec0 5) : Spec.SR.Idx → EReal) := by
  obtain ⟨-, -, -, -, -, -, -, -, -, -, h0, h1, -, -, -, -, -, -, -, -, -, -, -, -⟩ := idx_facts t
  funext j
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 1 + 1 * (j 0).val = (j 0).val; rw [h0]; omega
  | ⟨1, _⟩ => show win0_5.index t (1 : Fin 2) * 128 + 1 * (j 1).val = (j 1).val; rw [h1]; omega

/-- Window 6's block at every point is its whole array. -/
theorem blkB1_eq (c : Dev nD) (t : Fin cfg0.N) :
    (iblk0 V c 6 t : Vec Ideal S1x128 .f32) = (V c (Pipeline.arrRef spec0 6) : Spec.SR.Idx → EReal) := by
  obtain ⟨-, -, -, -, -, -, -, -, -, -, -, -, h0, h1, -, -, -, -, -, -, -, -, -, -⟩ := idx_facts t
  funext j
  unfold iblk0
  rw [View.read_apply]
  show V c (Pipeline.arrRef spec0 6) _ = V c (Pipeline.arrRef spec0 6) _
  congr 1
  funext a
  apply Fin.ext
  match a with
  | ⟨0, _⟩ => show win0_6.index t (0 : Fin 2) * 1 + 1 * (j 0).val = (j 0).val; rw [h0]; omega
  | ⟨1, _⟩ => show win0_6.index t (1 : Fin 2) * 128 + 1 * (j 1).val = (j 1).val; rw [h1]; omega

end Cert.KernelIdeal.Edge0

end
-- ==== Proof.Edge0BlkX.lean ====
/-
  The second-stage and gate weight windows of the edge region (the 128×128 matrix and its bias row, the gate column and
  its one-entry bias): the block at every point is the whole array as the region finds it.
-/
import proofs.«156944_j45535243272652_2_alg».proof.Proof.Spec
import proofs.«156944_j45535243272652_2_alg».proof.Proof.Edge0Idx
import proofs.«156944_j45535243272652_2_alg».proof.Proof.FrameKI
import Idealize.ShloMosaic.Lib.Pipeline.Value
import Idealize.ShloMosaic.Lib.ValueIdx

noncomputable section

namespace Cert.KernelIdeal.Edge0

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 7's block at every point is its whole array. -/
theorem blkW2_eq (c : Dev nD) (t : Fin cfg0.N) :
    (iblk0 V c 7 t : Vec Ideal S128x128 .f32) = (V c (Pipeline.arrRef spec0 7) : Spec.SW.Idx → EReal) := by
  obtain ⟨-, -, -, -, -, -, -, -, -, -, -, -, -, -, h0, h1, -, -, -, -, -, -, -, -⟩ := idx_facts t
  funext j
  unfold iblk0
  rw [View.read_apply]
  show V c (Pipeline.arrRef spec0 7) _ = V c (Pipeline.arrRef spec0 7) _
  congr 1
  funext a
  apply Fin.ext
  match a with
  | ⟨0, _⟩ => show win0_7.index t (0 : Fin 2) * 128 + 1 * (j 0).val = (j 0).val; rw [h0]; omega
  | ⟨1, _⟩ => show win0_7.index t (1 : Fin 2) * 128 + 1 * (j 1).val = (j 1).val; rw [h1]; omega

/-- Window 8's block at every point is its whole array. -/
theorem blkB2_eq (c : Dev nD) (t : Fin cfg0.N) :
    (iblk0 V c 8 t : Vec Ideal S1x128 .f32) = (V c (Pipeline.arrRef spec0 8) : Spec.SR.Idx → EReal) := by
  obtain ⟨-, -, -, -, -, -, -, -, -, -, -, -, -, -, -, -, h0, h1, -, -, -, -, -, -⟩ := idx_facts t
  funext j
  unfold iblk0
  rw [View.read_apply]
  show V c (Pipeline.arrRef spec0 8) _ = V c (Pipeline.arrRef spec0 8) _
  congr 1
  funext a
  apply Fin.ext
  match a with
  | ⟨0, _⟩ => show win0_8.index t (0 : Fin 2) * 1 + 1 * (j 0).val = (j 0).val; rw [h0]; omega
  | ⟨1, _⟩ => show win0_8.index t (1 : Fin 2) * 128 + 1 * (j 1).val = (j 1).val; rw [h1]; omega

/-- Window 9's block at every point is its whole array. -/
theorem blkAw_eq (c : Dev nD) (t : Fin cfg0.N) :
    (iblk0 V c 9 t : Vec Ideal S128x1 .f32) = (V c (Pipeline.arrRef spec0 9) : Spec.SC.Idx → EReal) := by
  obtain ⟨-, -, -, -, -, -, -, -, -, -, -, -, -, -, -, -, -, -, h0, h1, -, -, -, -⟩ := idx_facts t
  funext j
  unfold iblk0
  rw [View.read_apply]
  show V c (Pipeline.arrRef spec0 9) _ = V c (Pipeline.arrRef spec0 9) _
  congr 1
  funext a
  apply Fin.ext
  match a with
  | ⟨0, _⟩ => show win0_9.index t (0 : Fin 2) * 128 + 1 * (j 0).val = (j 0).val; rw [h0]; omega
  | ⟨1, _⟩ => show win0_9.index t (1 : Fin 2) * 1 + 1 * (j 1).val = (j 1).val; rw [h1]; omega

/-- Window 10's block at every point is its whole array. -/
theorem blkAb_eq (c : Dev nD) (t : Fin cfg0.N) :
    (iblk0 V c 10 t : Vec Ideal S1x1 .f32) = (V c (Pipeline.arrRef spec0 10) : Spec.S11.Idx → EReal) := by
  obtain ⟨-, -, -, -, -, -, -, -, -, -, -, -, -, -, -, -, -, -, -, -, h0, h1, -, -⟩ := idx_facts t
  funext j
  unfold iblk0
  rw [View.read_apply]
  show V c (Pipeline.arrRef spec0 10) _ = V c (Pipeline.arrRef spec0 10) _
  congr 1
  funext a
  apply Fin.ext
  match a with
  | ⟨0, _⟩ => show win0_10.index t (0 : Fin 2) * 1 + 1 * (j 0).val = (j 0).val; rw [h0]; omega
  | ⟨1, _⟩ => show win0_10.index t (1 : Fin 2) * 1 + 1 * (j 1).val = (j 1).val; rw [h1]; omega

end Cert.KernelIdeal.Edge0

end
-- ==== Proof.Edge0Value.lean ====
/-
  The value of the edge region: after its 125 grid points the output array holds, in row e, the message row of edge e —
  the edge row function of rows e of the two feature arrays and of the length array, with the weight arrays. Point t
  computes rows 2000·t … 2000·t + 1999 from the same rows of its row-blocked inputs, and the 125 blocks cover the
  250000 rows.
-/
import proofs.«156944_j45535243272652_2_alg».proof.Proof.Spec
import proofs.«156944_j45535243272652_2_alg».proof.Proof.Edge0Pay
import proofs.«156944_j45535243272652_2_alg».proof.Proof.Edge0BlkR
import proofs.«156944_j45535243272652_2_alg».proof.Proof.Edge0BlkW
import proofs.«156944_j45535243272652_2_alg».proof.Proof.Edge0BlkX
import proofs.«156944_j45535243272652_2_alg».proof.Proof.FrameKI
import Idealize.ShloMosaic.Lib.Pipeline.Value
import Idealize.ShloMosaic.Lib.ValueIdx

noncomputable section

namespace Cert.KernelIdeal.Edge0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.EdgeOps

theorem hz : (![0, 0] : Fin 2 → Nat) = fun _ => 0 := funext fun a => by fin_cases a <;> rfl

/-- What the body leaves in the output block at (r, c), from the eleven input blocks: the message entry of row r. -/
theorem out_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (x9 : Vec Ideal S128x1 .f32)
    (x10 : Vec Ideal S1x1 .f32) (r : Fin 2000) (c : Fin 128) :
    GenP.out0_11 (F := Ideal) x0 x1 x2 x3 x4 x5 x6 x7 x8 x9 x10 (ix2 r c)
      = Spec.edgeRow (fun k => x0 (ix2 r k)) (fun k => x1 (ix2 r k)) (x2 (ix2 r (0 : Fin 1))) (Spec.mat x3) (Spec.mat x4)
          (Spec.rowv x5) (Spec.rowv x6) (Spec.mat x7) (Spec.rowv x8) (Spec.colv x9) (x10 (ix2 (0 : Fin 1) (0 : Fin 1))) c := by
  unfold GenP.out0_11
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x1) hz, View.ld_unit_zero (S := S1x1) hz]
  rw [pay1_apply]
  simp only [pay2_apply]
  rfl

/-- The edge row function respects equality of each of its arguments. -/
theorem edgeRow_congr {hi hi' hj hj' : Fin 128 → EReal} {d d' : EReal} {w1a w1a' w1b w1b' : Fin 128 → Fin 128 → EReal}
    {w1c w1c' b1 b1' : Fin 128 → EReal} {w2 w2' : Fin 128 → Fin 128 → EReal} {b2 b2' aw aw' : Fin 128 → EReal} {ab ab' : EReal}
    (e0 : hi = hi') (e1 : hj = hj') (e2 : d = d') (e3 : w1a = w1a') (e4 : w1b = w1b') (e5 : w1c = w1c') (e6 : b1 = b1')
    (e7 : w2 = w2') (e8 : b2 = b2') (e9 : aw = aw') (e10 : ab = ab') (c : Fin 128) :
    Spec.edgeRow hi hj d w1a w1b w1c b1 w2 b2 aw ab c = Spec.edgeRow hi' hj' d' w1a' w1b' w1c' b1' w2' b2' aw' ab' c := by
  subst e0 e1 e2 e3 e4 e5 e6 e7 e8 e9 e10; rfl

variable (V : (c : Dev nD) → (b : Ref sig .tc) → Buf (Elt Ideal) ((c : Thread nD τ).loc b))

/-- Every edge's message row, of the eleven arrays as the region finds them. -/
abbrev result (c : Dev nD) : Spec.SE.Idx → EReal :=
  Spec.edgeArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))

/-- What the body leaves at (r, q) of the output block at point t, from the point's input blocks: the message row of
    edge R = 2000·t + r at feature q, of the arrays. -/
theorem out_blocks (c : Dev nD) (t : Fin cfg0.N) (r : Fin 2000) (q : Fin 128) (R : Fin 250000) (hR : R.val = t.val * 2000 + r.val) :
    out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r q)
      = result V c (ix2 R q) := by
  refine (out_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) r q).trans ?_
  exact edgeRow_congr (funext fun k => blkHi_apply V c t r k R hR) (funext fun k => blkHj_apply V c t r k R hR)
    (blkDist_apply V c t r (0 : Fin 1) R hR) (congrArg Spec.mat (blkW1a_eq V c t)) (congrArg Spec.mat (blkW1b_eq V c t))
    (congrArg Spec.rowv (blkW1c_eq V c t)) (congrArg Spec.rowv (blkB1_eq V c t)) (congrArg Spec.mat (blkW2_eq V c t))
    (congrArg Spec.rowv (blkB2_eq V c t)) (congrArg Spec.colv (blkAw_eq V c t))
    (congrFun (blkAb_eq V c t) (ix2 (0 : Fin 1) (0 : Fin 1))) q

/-- WHAT POINT t WRITES BACK is block t of `result`: row r of the block is the message row of edge 2000·t + r. -/
theorem flushed_eq (c : Dev nD) (t : Fin cfg0.N) :
    (dat0 (F := Ideal) V c).flushed 11 t = ((cfg0.win 11).blk t).view.read (Elt Ideal) (result V c) := by
  unfold Dat.flushed
  rw [after0_11]
  have hN : cfg0.N = 125 := N_0
  funext j
  obtain ⟨r, q, rfl⟩ : ∃ (r : Fin 2000) (q : Fin 128), j = ix2 r q := ⟨j 0, j 1, eq_ix2 j⟩
  have ht : t.val < 125 := hN ▸ t.isLt
  obtain ⟨R, hR⟩ : ∃ R : Fin 250000, R.val = t.val * 2000 + r.val := ⟨⟨t.val * 2000 + r.val, by have := r.isLt; omega⟩, rfl⟩
  have hemb : ((cfg0.win 11).blk t).view.emb (ix2 r q) = (ix2 R q : Spec.SE.Idx) := by
    obtain ⟨-, -, -, -, -, -, -, -, -, -, -, -, -, -, -, -, -, -, -, -, -, -, h0, h1⟩ := idx_facts t
    funext a
    apply Fin.ext
    match a with
    | ⟨0, _⟩ => show win0_11.index t (0 : Fin 2) * 2000 + 1 * r.val = R.val; rw [h0, hR]; omega
    | ⟨1, _⟩ => show win0_11.index t (1 : Fin 2) * 128 + 1 * q.val = q.val; rw [h1]; omega
  refine (out_blocks V c t r q R hR).trans ?_
  rw [View.read_apply]
  show _ = result V c (((cfg0.win 11).blk t).view.emb (ix2 r q))
  rw [hemb]
/-- An index of the output array is in point t's block iff each coordinate is in the block's range on its axis. -/
theorem mem_blk (t : Fin cfg0.N) (i : Spec.SE.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole (Pipeline.arrRef spec0 11)).slice (win0_11.rect t)).set ↔ _
  rw [View.set_slice_whole, Rect.mem_set_unit]
  exact Iff.rfl

/-- Every row of the output array is in some point's block: row e is in block e / 2000. -/
theorem cover (i : Spec.SE.Idx) : ∃ t : Fin cfg0.N, (cfg0.win 11).flush t = true ∧ i ∈ ((cfg0.win 11).blk t).view.set := by
  have hN : cfg0.N = 125 := N_0
  have hi0 : (i 0).val < 250000 := (i 0).isLt
  have hi1 : (i 1).val < 128 := (i 1).isLt
  let t : Fin cfg0.N := ⟨(i 0).val / 2000, by rw [hN]; omega⟩
  have htv : t.val = (i 0).val / 2000 := rfl
  obtain ⟨-, -, -, -, -, -, -, -, -, -, -, -, -, -, -, -, -, -, -, -, -, -, h0, h1⟩ := idx_facts t
  refine ⟨t, flush0_11 t, ?_⟩
  rw [mem_blk]
  intro a
  match a with
  | ⟨0, _⟩ => show win0_11.index t (0 : Fin 2) * 2000 ≤ (i 0).val ∧ (i 0).val < win0_11.index t (0 : Fin 2) * 2000 + 2000; rw [h0, htv]; omega
  | ⟨1, _⟩ => show win0_11.index t (1 : Fin 2) * 128 ≤ (i 1).val ∧ (i 1).val < win0_11.index t (1 : Fin 2) * 128 + 128; rw [h1]; omega

/-- THE OUTPUT ARRAY after the region's run: every edge's message row. -/
theorem value (c : Dev nD) :
    (dat0 (F := Ideal) V c).arrAt 11 cfg0.N
      = Spec.edgeArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) :=
  (dat0 (F := Ideal) V c).arrAt_eq_of_cover 11 (result V c) (fun t _ => flushed_eq V c t) cover

end Cert.KernelIdeal.Edge0

end
-- ==== Proof.Node1Ops.lean ====
/-
  Single operations of the node kernel's body read at an index, at the extended reals.

  * A sum along the lanes: reducing an a×b array over its second axis gives, at row r, the sum over the b
    entries of row r.
  * A column with its unit axis kept: casting a length-a vector to a×1 reads, at (r, 0), entry r; broadcasting an
    a×1 column to a×b reads, at (r, c), the column's entry (r, 0).
  * The matrix product of the body: a 1000×128 by 128×128 product into a zero accumulator reads, at (r, c), the
    sum over k of left (r, k) times right (k, c).
-/
import Idealize.ShloMosaic.PureOps.Ideal.Laws
import Idealize.ShloMosaic.Lib.ValueIdx
import Idealize.ShloMosaic.Lib.ValueLayout
import proofs.«156944_j45535243272652_2_alg».proof.KernelIdeal

noncomputable section

namespace Cert.KernelIdeal.Node1

open Idealize.ShloMosaic Idealize.ShloMosaic.ValueIdx Cert.KernelIdeal

/-! ## A sum along the lanes -/

/-- Reducing an a×b array by addition over axis 1 from the zero word: at row r the sum of row r's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun c => Fin.ext ?_)
  match c with
  | ⟨0, _⟩ => rfl
  | ⟨1, _⟩ => rfl

/-! ## A column with its unit axis kept -/

variable {α : Type}

/-- A length-a vector cast to a×1 reads, at (r, u), entry r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An a×1 column broadcast to a×b reads, at (r, c), the column's entry in row r. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Pointwise unary operations -/

/-- The logistic function of a vector, at an index. -/
theorem logistic_apply {s : Shape} {φ : FTy} (x : FVec Ideal s φ) (i : s.Idx) : logistic x i = Ideal.logistic (x i) := rfl

/-- The reciprocal square root of a vector, at an index. -/
theorem rsqrt_apply {s : Shape} {φ : FTy} (x : FVec Ideal s φ) (i : s.Idx) : rsqrt x i = Ideal.rsqrt (x i) := rfl

/-! ## The body's matrix product -/

variable [Facts₀]

/-- The row coordinate of the left operand's index is the result's row. -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch from List.not_mem_nil),
    dif_pos (show (0 : Fin S1000x128.rank) ∈ dot_S1000x128_S128x128_S1000x128_1_0_0_1_n_n.lhsNonContracting from List.mem_singleton_self _)]
  rfl

/-- The column coordinate of the left operand's index is the contracted coordinate. -/
theorem lhs_1 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.lhsIdx i q 1).val = (q ⟨0, h0⟩).val :=
  dot_S1000x128_S128x128_S1000x128_1_0_0_1_n_n.lhsIdx_val_of_single rfl i q

/-- The row coordinate of the right operand's index is the contracted coordinate. -/
theorem rhs_0 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.rhsIdx i q 0).val = (q ⟨0, h0⟩).val :=
  dot_S1000x128_S128x128_S1000x128_1_0_0_1_n_n.rhsIdx_val_of_single rfl i q

/-- The column coordinate of the right operand's index is the result's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch from List.not_mem_nil),
    dif_pos (show (1 : Fin S128x128.rank) ∈ dot_S1000x128_S128x128_S1000x128_1_0_0_1_n_n.rhsNonContracting from List.mem_singleton_self _)]
  rfl

/-- The product into a zero accumulator, at (r, c): the sum over k of left (r, k) times right (k, c). -/
theorem matmul_apply {φ₁ φ₂ : FTy} (lhs : FVec Ideal S1000x128 φ₁) (rhs : FVec Ideal S128x128 φ₂) (r : Fin 1000) (c : Fin 128) :
    matmul dot_S1000x128_S128x128_S1000x128_1_0_0_1_n_n none lhs rhs (constant (F := Ideal) S1000x128 .f32 0x00000000#32) (ix2 r c)
      = ∑ k : Fin 128, lhs (ix2 r k) * rhs (ix2 k c) := by
  refine (Ideal.matmul_constant_zero_apply dot_S1000x128_S128x128_S1000x128_1_0_0_1_n_n none lhs rhs (ix2 r c)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r c)
      ((contrEquiv1 dot_S1000x128_S128x128_S1000x128_1_0_0_1_n_n 128 rfl rfl).symm k) = ix2 r k := funext fun a => Fin.ext (by
    match a with
    | ⟨0, _⟩ => exact lhs_0 _ _
    | ⟨1, _⟩ => exact (lhs_1 _ _ _).trans hk)
  have er : dot_S1000x128_S128x128_S1000x128_1_0_0_1_n_n.rhsIdx (ix2 r c)
      ((contrEquiv1 dot_S1000x128_S128x128_S1000x128_1_0_0_1_n_n 128 rfl rfl).symm k) = ix2 k c := funext fun a => Fin.ext (by
    match a with
    | ⟨0, _⟩ => exact (rhs_0 _ _ _).trans hk
    | ⟨1, _⟩ => exact rhs_1 _ _)
  rw [el, er]

end Cert.KernelIdeal.Node1

end
-- ==== Proof.Node1Pay.lean ====
/-
  The node kernel's body, read entry by entry.

  The body takes a block of 1000 rows of node features and of aggregated messages with the layer's weights, and
  leaves, in row r and column c, the normalised node update of row r: with
  `nin k = Σⱼ h j · w1a j k + Σⱼ agg j · w1b j k + b1 k` and `hr c = h c + (Σₖ silu (nin k) · w2 k c + b2 c)`,
  the mean `mu` of `hr` over its 128 entries, the mean `var` of `(hr c − mu)²`, the entry is
  `(hr c − mu) · rsqrt (var + ε) · g c + b c`. Each stage of the body is read here at an index: the residual
  row (two products, a bias, the activation, a third product, a bias, the residual), the mean column (a sum along
  the lanes and a quotient by 128), the sums of squared deviations, and the normalisation with gain and bias.
-/
import proofs.«156944_j45535243272652_2_alg».proof.Proof.Spec
import proofs.«156944_j45535243272652_2_alg».proof.Proof.Node1Ops
import proofs.«156944_j45535243272652_2_alg».proof.Proof.Gen.KernelIdeal.Skeleton

noncomputable section

namespace Cert.KernelIdeal.Node1

open Idealize.ShloMosaic Idealize.ShloMosaic.ValueIdx Cert.KernelIdeal Cert.KernelIdeal.Gen

/-! ## The stages of the body at an index -/

/-- The residual row: entry (r, c) of the first stage is the node update of row r of the two blocks. -/
theorem pay2_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (c : Fin 128) :
    k1_pay2 (F := Ideal) v0 v2 v5 v10 v15 v22 v26 (ix2 r c)
      = Cert.Spec.nodeHr (fun k => v0 (ix2 r k)) (fun k => v2 (ix2 r k)) (Cert.Spec.mat v5) (Cert.Spec.mat v10)
          (Cert.Spec.rowv v15) (Cert.Spec.mat v22) (Cert.Spec.rowv v26) c := by
  unfold k1_pay2
  simp only [shapeCast_self, addf_apply, mulf_apply, truncf_apply, logistic_apply, Node1.matmul_apply, broadcastTo_1b_ab_apply]
  rfl

/-- The mean column: entry (r, 0) is the mean of row r of the first stage. -/
theorem pay3_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (u : Fin 1) :
    k1_pay3 (F := Ideal) v0 v2 v5 v10 v15 v22 v26 (ix2 r u)
      = Cert.Spec.rowMean (fun c => k1_pay2 (F := Ideal) v0 v2 v5 v10 v15 v22 v26 (ix2 r c)) := by
  unfold k1_pay3
  simp only [divf_apply, broadcast_apply, shapeCast_a_a1_apply]
  exact congrArg (fun s => Ideal.div s _) (laneSum_apply (a := 1000) (b := 128) _ _ _ _ r)

/-- The sum of squared deviations: entry r is the sum over row r of the squares of (entry minus the row's mean). -/
theorem pay4_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) :
    k1_pay4 (F := Ideal) v0 v2 v5 v10 v15 v22 v26 (ix1 r)
      = ∑ c : Fin 128, (k1_pay2 (F := Ideal) v0 v2 v5 v10 v15 v22 v26 (ix2 r c) - k1_pay3 (F := Ideal) v0 v2 v5 v10 v15 v22 v26 (ix2 r (0 : Fin 1)))
          * (k1_pay2 (F := Ideal) v0 v2 v5 v10 v15 v22 v26 (ix2 r c) - k1_pay3 (F := Ideal) v0 v2 v5 v10 v15 v22 v26 (ix2 r (0 : Fin 1))) := by
  unfold k1_pay4
  refine (laneSum_apply (a := 1000) (b := 128) _ _ _ _ r).trans ?_
  simp only [mulf_apply, subf_apply, broadcastTo_a1_ab_apply]

/-- The normalisation: from a residual block, its mean column and its sums of squared deviations. -/
theorem pay1_apply (v30 : FVec Ideal S1000x128 .f32) (v34 : FVec Ideal S1000x1 .f32) (v38 : FVec Ideal S1000 .f32)
    (v49 v53 : Vec Ideal S1x128 .f32) (r : Fin 1000) (c : Fin 128) :
    k1_pay1 (F := Ideal) v30 v34 v38 v49 v53 (ix2 r c)
      = (v30 (ix2 r c) - v34 (ix2 r (0 : Fin 1))) * Ideal.rsqrt (Ideal.div (v38 (ix1 r)) Cert.Spec.c128 + Cert.Spec.cEps)
          * v49 (ix2 (0 : Fin 1) c) + v53 (ix2 (0 : Fin 1) c) := by
  unfold k1_pay1
  simp only [shapeCast_self, addf_apply, mulf_apply, subf_apply, divf_apply, rsqrt_apply, broadcast_apply, shapeCast_a_a1_apply,
    broadcastTo_a1_ab_apply, broadcastTo_1b_ab_apply]
  rfl

/-- The body's result at (r, c): the normalised node update of row r. -/
theorem body_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    k1_pay1 (F := Ideal) (k1_pay2 x0 x1 x2 x3 x4 x5 x6) (k1_pay3 x0 x1 x2 x3 x4 x5 x6) (k1_pay4 x0 x1 x2 x3 x4 x5 x6) x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  have h2 : (fun k => k1_pay2 (F := Ideal) x0 x1 x2 x3 x4 x5 x6 (ix2 r k))
      = Cert.Spec.nodeHr (fun k => x0 (ix2 r k)) (fun k => x1 (ix2 r k)) (Cert.Spec.mat x2) (Cert.Spec.mat x3)
          (Cert.Spec.rowv x4) (Cert.Spec.mat x5) (Cert.Spec.rowv x6) := funext fun k => pay2_apply x0 x1 x2 x3 x4 x5 x6 r k
  rw [pay1_apply, pay4_apply, pay3_apply, h2, congrFun h2 c]
  simp only [pay2_apply]
  rfl

end Cert.KernelIdeal.Node1

end
-- ==== Proof.Node1Blocks.lean ====
/-
  The node region's blocks, read against the whole arrays.

  The output window's staging buffer after the body is one store of the body's result, so at (r, c) it holds the
  normalised node update of row r of the two row blocks (`out_apply`). At grid point t the feature and message
  windows hold rows 1000·t … 1000·t + 999 of their arrays (`rows0`, `rows1`: a block's element sits at block index
  times block size plus its coordinate inside the block), and each of the seven weight windows holds its whole array
  at every point (`whole2` … `whole8`: block index (0, 0)). So the buffer at (p, q) is the layer's node update of
  the arrays at row 1000·t + p, column q (`block_apply`).
-/
import proofs.«156944_j45535243272652_2_alg».proof.Proof.Spec
import proofs.«156944_j45535243272652_2_alg».proof.Proof.Node1Pay
import proofs.«156944_j45535243272652_2_alg».proof.Proof.FrameKI
import Idealize.ShloMosaic.Lib.Pipeline.Value
import Idealize.ShloMosaic.Lib.Tactic

set_option maxRecDepth 16384

noncomputable section

namespace Cert.KernelIdeal.Node1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The staging buffer after the body, at an index -/

theorem hz : (![0, 0] : Fin 2 → Nat) = fun _ => 0 := funext fun a => by fin_cases a <;> rfl

/-- The output window's buffer after the body holds, in row r and column c, the normalised node update of row r of
    the two row blocks with the weight blocks. -/
theorem out_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    out1_9 (F := Ideal) x0 x1 x2 x3 x4 x5 x6 x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  unfold out1_9
  rw [View.canon_unit_zero hz]
  simp only [View.ld_unit_zero (S := S1000x128) hz, View.ld_unit_zero (S := S128x128) hz, View.ld_unit_zero (S := S1x128) hz]
  exact body_apply x0 x1 x2 x3 x4 x5 x6 x7 x8 r c

/-- A block of 1000 rows read through row offset 1000·n, against the whole arrays: if the two row blocks are rows
    1000·n … 1000·n + 999 of the feature and message arrays and the weight blocks are the weight arrays, the buffer
    after the body at (p, q) is the layer's node update of the arrays at row 1000·n + p, column q. -/
theorem block_apply (h agg : S10000x128.Idx → EReal) (w1a w1b : S128x128.Idx → EReal) (b1 : S1x128.Idx → EReal)
    (w2 : S128x128.Idx → EReal) (b2 g b : S1x128.Idx → EReal)
    (x0 x1 : Vec Ideal S1000x128 .f32) (x2 x3 : Vec Ideal S128x128 .f32) (x4 : Vec Ideal S1x128 .f32)
    (x5 : Vec Ideal S128x128 .f32) (x6 x7 x8 : Vec Ideal S1x128 .f32) (n : ℕ)
    (e0 : ∀ (p : Fin 1000) (k : Fin 128) (i : S10000x128.Idx), (i 0).val = 1000 * n + p.val → (i 1).val = k.val → x0 (ix2 p k) = h i)
    (e1 : ∀ (p : Fin 1000) (k : Fin 128) (i : S10000x128.Idx), (i 0).val = 1000 * n + p.val → (i 1).val = k.val → x1 (ix2 p k) = agg i)
    (e2 : x2 = w1a) (e3 : x3 = w1b) (e4 : x4 = b1) (e5 : x5 = w2) (e6 : x6 = b2) (e7 : x7 = g) (e8 : x8 = b)
    (y : S1000x128.Idx) (i : S10000x128.Idx) (hi0 : (i 0).val = 1000 * n + (y 0).val) (hi1 : (i 1).val = (y 1).val) :
    out1_9 (F := Ideal) x0 x1 x2 x3 x4 x5 x6 x7 x8 y = Cert.Spec.nodeArr h agg w1a w1b b1 w2 b2 g b i := by
  subst e2 e3 e4 e5 e6 e7 e8
  obtain ⟨p, q, rfl⟩ : ∃ (p : Fin 1000) (q : Fin 128), y = ix2 p q := ⟨y 0, y 1, eq_ix2 y⟩
  rw [out_apply]
  have hq : q = i 1 := Fin.ext hi1.symm
  have hrow0 : (fun k => x0 (ix2 p k)) = fun k => h (ix2 (i 0) k) := funext fun k => e0 p k (ix2 (i 0) k) hi0 rfl
  have hrow1 : (fun k => x1 (ix2 p k)) = fun k => agg (ix2 (i 0) k) := funext fun k => e1 p k (ix2 (i 0) k) hi0 rfl
  rw [hrow0, hrow1, hq]
  rfl

/-! ## Where each window's block sits in its array -/

/-- The row-blocked windows (features, messages, result) are at block row t at point t; every weight window is at
    block (0, 0) at every point. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- The feature window's block at point t is rows 1000·t … 1000·t + 999 of the feature array. -/
theorem rows0 (c : Dev nD) (t : Fin cfg1.N) (p : Fin 1000) (k : Fin 128) (i : S10000x128.Idx)
    (hi0 : (i 0).val = 1000 * t.val + p.val) (hi1 : (i 1).val = k.val) :
    (iblk1 (F := Ideal) V c 0 t : Vec Ideal S1000x128 .f32) (ix2 p k) = (V c (Pipeline.arrRef spec1 0) : S10000x128.Idx → EReal) i := by
  obtain ⟨⟨a0, a1⟩, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 1000 + 1 * p.val = (i 0).val; rw [a0, hi0]; omega
  | ⟨1, _⟩ => show win1_0.index t (1 : Fin 2) * 128 + 1 * k.val = (i 1).val; rw [a1, hi1]; omega

/-- The message window's block at point t is rows 1000·t … 1000·t + 999 of the message array. -/
theorem rows1 (c : Dev nD) (t : Fin cfg1.N) (p : Fin 1000) (k : Fin 128) (i : S10000x128.Idx)
    (hi0 : (i 0).val = 1000 * t.val + p.val) (hi1 : (i 1).val = k.val) :
    (iblk1 (F := Ideal) V c 1 t : Vec Ideal S1000x128 .f32) (ix2 p k) = (V c (Pipeline.arrRef spec1 1) : S10000x128.Idx → EReal) i := by
  obtain ⟨-, ⟨a0, a1⟩, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1000 + 1 * p.val = (i 0).val; rw [a0, hi0]; omega
  | ⟨1, _⟩ => show win1_1.index t (1 : Fin 2) * 128 + 1 * k.val = (i 1).val; rw [a1, hi1]; omega

/-- The first product's weight window's block is its whole array at every point. -/
theorem whole2 (c : Dev nD) (t : Fin cfg1.N) :
    (iblk1 (F := Ideal) V c 2 t : Vec Ideal S128x128 .f32) = (V c (Pipeline.arrRef spec1 2) : S128x128.Idx → EReal) := by
  obtain ⟨-, -, ⟨a0, a1⟩, -⟩ := idx_facts t
  funext j
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (j 0).val = (j 0).val; rw [a0]; omega
  | ⟨1, _⟩ => show win1_2.index t (1 : Fin 2) * 128 + 1 * (j 1).val = (j 1).val; rw [a1]; omega

/-- The second product's weight window's block is its whole array at every point. -/
theorem whole3 (c : Dev nD) (t : Fin cfg1.N) :
    (iblk1 (F := Ideal) V c 3 t : Vec Ideal S128x128 .f32) = (V c (Pipeline.arrRef spec1 3) : S128x128.Idx → EReal) := by
  obtain ⟨-, -, -, ⟨a0, a1⟩, -⟩ := idx_facts t
  funext j
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * (j 0).val = (j 0).val; rw [a0]; omega
  | ⟨1, _⟩ => show win1_3.index t (1 : Fin 2) * 128 + 1 * (j 1).val = (j 1).val; rw [a1]; omega

/-- The first bias window's block is its whole array at every point. -/
theorem whole4 (c : Dev nD) (t : Fin cfg1.N) :
    (iblk1 (F := Ideal) V c 4 t : Vec Ideal S1x128 .f32) = (V c (Pipeline.arrRef spec1 4) : S1x128.Idx → EReal) := by
  obtain ⟨-, -, -, -, ⟨a0, a1⟩, -⟩ := idx_facts t
  funext j
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (j 0).val = (j 0).val; rw [a0]; omega
  | ⟨1, _⟩ => show win1_4.index t (1 : Fin 2) * 128 + 1 * (j 1).val = (j 1).val; rw [a1]; omega

/-- The third product's weight window's block is its whole array at every point. -/
theorem whole5 (c : Dev nD) (t : Fin cfg1.N) :
    (iblk1 (F := Ideal) V c 5 t : Vec Ideal S128x128 .f32) = (V c (Pipeline.arrRef spec1 5) : S128x128.Idx → EReal) := by
  obtain ⟨-, -, -, -, -, ⟨a0, a1⟩, -⟩ := idx_facts t
  funext j
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * (j 0).val = (j 0).val; rw [a0]; omega
  | ⟨1, _⟩ => show win1_5.index t (1 : Fin 2) * 128 + 1 * (j 1).val = (j 1).val; rw [a1]; omega

/-- The second bias window's block is its whole array at every point. -/
theorem whole6 (c : Dev nD) (t : Fin cfg1.N) :
    (iblk1 (F := Ideal) V c 6 t : Vec Ideal S1x128 .f32) = (V c (Pipeline.arrRef spec1 6) : S1x128.Idx → EReal) := by
  obtain ⟨-, -, -, -, -, -, ⟨a0, a1⟩, -⟩ := idx_facts t
  funext j
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (j 0).val = (j 0).val; rw [a0]; omega
  | ⟨1, _⟩ => show win1_6.index t (1 : Fin 2) * 128 + 1 * (j 1).val = (j 1).val; rw [a1]; omega

/-- The gain window's block is its whole array at every point. -/
theorem whole7 (c : Dev nD) (t : Fin cfg1.N) :
    (iblk1 (F := Ideal) V c 7 t : Vec Ideal S1x128 .f32) = (V c (Pipeline.arrRef spec1 7) : S1x128.Idx → EReal) := by
  obtain ⟨-, -, -, -, -, -, -, ⟨a0, a1⟩, -⟩ := idx_facts t
  funext j
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * (j 0).val = (j 0).val; rw [a0]; omega
  | ⟨1, _⟩ => show win1_7.index t (1 : Fin 2) * 128 + 1 * (j 1).val = (j 1).val; rw [a1]; omega

/-- The normalisation bias window's block is its whole array at every point. -/
theorem whole8 (c : Dev nD) (t : Fin cfg1.N) :
    (iblk1 (F := Ideal) V c 8 t : Vec Ideal S1x128 .f32) = (V c (Pipeline.arrRef spec1 8) : S1x128.Idx → EReal) := by
  obtain ⟨-, -, -, -, -, -, -, -, ⟨a0, a1⟩, -⟩ := idx_facts t
  funext j
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * (j 0).val = (j 0).val; rw [a0]; omega
  | ⟨1, _⟩ => show win1_8.index t (1 : Fin 2) * 128 + 1 * (j 1).val = (j 1).val; rw [a1]; omega

end Cert.KernelIdeal.Node1

end
-- ==== Proof.Node1Value.lean ====
/-
  The node region's value: the result array after the region's ten grid points.

  Point t writes back block t of the result window, which is rows 1000·t … 1000·t + 999 of one function of the
  arrays the region finds, the layer's node update (`flushed_eq`). The ten blocks cover the 10000 rows: row i is in
  the block of point i / 1000 (`cover`). So the array ends holding that function everywhere (`value`).
-/
import proofs.«156944_j45535243272652_2_alg».proof.Proof.Spec
import proofs.«156944_j45535243272652_2_alg».proof.Proof.Node1Blocks
import proofs.«156944_j45535243272652_2_alg».proof.Proof.FrameKI
import Idealize.ShloMosaic.Lib.Pipeline.Value
import Idealize.ShloMosaic.Lib.Tactic

set_option maxRecDepth 16384

noncomputable section

namespace Cert.KernelIdeal.Node1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- What the region leaves in its result array: the layer's node update of the arrays the region finds. -/
abbrev outArr (c : Dev nD) : S10000x128.Idx → EReal :=
  Cert.Spec.nodeArr (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))

/-- What point t writes back is block t (rows 1000·t … 1000·t + 999) of that array. -/
theorem flushed_eq (c : Dev nD) (t : Fin cfg1.N) :
    (dat1 (F := Ideal) V c).flushed 9 t = ((cfg1.win 9).blk t).view.read (Elt Ideal) (outArr V c) := by
  obtain ⟨-, -, -, -, -, -, -, -, -, ⟨a0, a1⟩⟩ := idx_facts t
  show (cfg1.win 9).cut (grid1.coords t) ((dat1 (F := Ideal) V c).after 9 t) = _
  rw [after1_9]
  funext y
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) y = outArr V c (((cfg1.win 9).blk t).view.emb y)
  exact block_apply (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))
    (iblk1 V c 0 t) (iblk1 V c 1 t) (iblk1 V c 2 t) (iblk1 V c 3 t) (iblk1 V c 4 t) (iblk1 V c 5 t)
    (iblk1 V c 6 t) (iblk1 V c 7 t) (iblk1 V c 8 t) t.val
    (fun p k i h0 h1 => rows0 V c t p k i h0 h1) (fun p k i h0 h1 => rows1 V c t p k i h0 h1)
    (whole2 V c t) (whole3 V c t) (whole4 V c t) (whole5 V c t) (whole6 V c t) (whole7 V c t) (whole8 V c t)
    y (((cfg1.win 9).blk t).view.emb y)
    (by show win1_9.index t (0 : Fin 2) * 1000 + 1 * (y 0).val = 1000 * t.val + (y 0).val; rw [a0]; omega)
    (by show win1_9.index t (1 : Fin 2) * 128 + 1 * (y 1).val = (y 1).val; rw [a1]; omega)

/-- An index of the result array is in point t's block iff each coordinate is in the block's range on its axis. -/
theorem mem_blk (t : Fin cfg1.N) (i : S10000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole (Pipeline.arrRef spec1 9)).slice (win1_9.rect t)).set ↔ _
  rw [View.set_slice_whole, Rect.mem_set_unit]
  exact Iff.rfl

/-- Every row of the result array is in the block of the point numbered by the row's thousand. -/
theorem cover (i : S10000x128.Idx) : ∃ t : Fin cfg1.N, (cfg1.win 9).flush t = true ∧ i ∈ ((cfg1.win 9).blk t).view.set := by
  have hi0 : (i 0).val < 10000 := (i 0).isLt
  have hi1 : (i 1).val < 128 := (i 1).isLt
  have hN : grid1.N = 10 := N_1
  have ht : (i 0).val / 1000 < cfg1.N := by show _ < grid1.N; rw [hN]; omega
  obtain ⟨-, -, -, -, -, -, -, -, -, ⟨a0, a1⟩⟩ := idx_facts ⟨(i 0).val / 1000, ht⟩
  refine ⟨⟨(i 0).val / 1000, ht⟩, flush1_9 _, ?_⟩
  rw [mem_blk]
  intro a
  match a with
  | ⟨0, _⟩ =>
    show win1_9.index ⟨(i 0).val / 1000, ht⟩ (0 : Fin 2) * 1000 ≤ (i 0).val ∧ (i 0).val < win1_9.index ⟨(i 0).val / 1000, ht⟩ (0 : Fin 2) * 1000 + 1000
    rw [a0]; show (i 0).val / 1000 * 1000 ≤ (i 0).val ∧ (i 0).val < (i 0).val / 1000 * 1000 + 1000; omega
  | ⟨1, _⟩ =>
    show win1_9.index ⟨(i 0).val / 1000, ht⟩ (1 : Fin 2) * 128 ≤ (i 1).val ∧ (i 1).val < win1_9.index ⟨(i 0).val / 1000, ht⟩ (1 : Fin 2) * 128 + 128
    rw [a1]; omega

/-- THE REGION'S VALUE: after its ten points the result array holds the layer's node update of the arrays the region
    found, row by row. -/
theorem value (c : Dev nD) :
    (dat1 (F := Ideal) V c).arrAt 9 cfg1.N
      = Cert.Spec.nodeArr (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8)) :=
  (dat1 (F := Ideal) V c).arrAt_eq_of_cover 9 (outArr V c) (fun t _ => flushed_eq V c t) cover

end Cert.KernelIdeal.Node1

end
-- ==== Proof.Edge2Pay.lean ====
/-
  The edge kernel's arithmetic at one element of its output block. At row r and feature c the body computes, from row r
  of the two feature blocks and of the length block and from the weight blocks: the three-part affine form and its
  activation, the second affine stage and its activation, the row's gate, and the gated entry. Every block product is
  into a zero block, so it is the plain sum over the 128 contracted positions; a change of float format is the
  identity on extended reals.
-/
import proofs.«156944_j45535243272652_2_alg».proof.Proof.Spec
import proofs.«156944_j45535243272652_2_alg».proof.Proof.EdgeOps
import proofs.«156944_j45535243272652_2_alg».proof.Proof.Gen.KernelIdeal.Skeleton

noncomputable section

namespace Cert.KernelIdeal.Edge2

open Idealize.ShloMosaic Idealize.ShloMosaic.ValueIdx
open Cert.KernelIdeal Cert.KernelIdeal.EdgeOps

/-- The first two stages of the body at (r, c): the second stage's activated row entry, from row r of the two feature
    blocks and of the length block and from the weight blocks. -/
theorem pay2_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (r : Fin 2000) (c : Fin 128) :
    Gen.k2_pay2 (F := Ideal) x0 x1 x2 x3 x4 x5 x6 x7 x8 (ix2 r c)
      = Spec.edgeM2 (fun k => Spec.silu (Spec.edgeEa (fun j => x0 (ix2 r j)) (fun j => x1 (ix2 r j)) (x2 (ix2 r (0 : Fin 1)))
          (Spec.mat x3) (Spec.mat x4) (Spec.rowv x5) (Spec.rowv x6) k)) (Spec.mat x7) (Spec.rowv x8) c := by
  unfold Gen.k2_pay2
  simp only [shapeCast_self, mulf_apply, addf_apply, truncf_apply, logistic_apply, matmulW_apply, bcastCol_apply, bcastRow_apply]
  rfl

/-- The last stage at (r, c): the second stage's entry times the row's gate. -/
theorem pay1_apply (v : FVec Ideal S2000x128 .f32) (x9 : Vec Ideal S128x1 .f32) (x10 : Vec Ideal S1x1 .f32) (r : Fin 2000) (c : Fin 128) :
    Gen.k2_pay1 (F := Ideal) v x9 x10 (ix2 r c)
      = v (ix2 r c) * Spec.edgeAtt (fun k => v (ix2 r k)) (Spec.colv x9) (x10 (ix2 (0 : Fin 1) (0 : Fin 1))) := by
  unfold Gen.k2_pay1
  simp only [shapeCast_self, mulf_apply, addf_apply, truncf_apply, logistic_apply, matmulA_apply, bcastCol_apply, bcastOne_apply]
  rfl

end Cert.KernelIdeal.Edge2

end
-- ==== Proof.Edge2Idx.lean ====
/-
  The edge region's index maps, decided once over its 125 grid points: at point t the two feature windows, the length
  window and the output window are at row block t; the eight weight windows are at their one block.
-/
import proofs.«156944_j45535243272652_2_alg».proof.Proof.Gen.KernelIdeal
import Idealize.ShloMosaic.Lib.Pipeline.Value
import Idealize.ShloMosaic.Lib.ValueIdx

noncomputable section

namespace Cert.KernelIdeal.Edge2

open Idealize.ShloMosaic Idealize.ShloMosaic.TcCoe Idealize.ShloMosaic.ValueIdx Idealize.SL.Sem
open Cert.KernelIdeal Cert.KernelIdeal.Gen

/-- The index maps over the grid's 125 points: the three row-blocked inputs and the output sit at block (t, 0) at
    point t; the eight weight windows sit at block (0, 0) at every point. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

end Cert.KernelIdeal.Edge2

end
-- ==== Proof.Edge2BlkR.lean ====
/-
  The three row-blocked input windows of the edge region: the block at point t, read off the array as the region finds
  it, is rows 2000·t … 2000·t + 1999 of the array.
-/
import proofs.«156944_j45535243272652_2_alg».proof.Proof.Spec
import proofs.«156944_j45535243272652_2_alg».proof.Proof.Edge2Idx
import proofs.«156944_j45535243272652_2_alg».proof.Proof.FrameKI
import Idealize.ShloMosaic.Lib.Pipeline.Value
import Idealize.ShloMosaic.Lib.ValueIdx

noncomputable section

namespace Cert.KernelIdeal.Edge2

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 0's block at point t is rows 2000·t … 2000·t + 1999 of its array. -/
theorem blkHi_apply (c : Dev nD) (t : Fin cfg2.N) (r : Fin 2000) (k : Fin 128) (R : Fin 250000) (hR : R.val = t.val * 2000 + r.val) :
    (iblk2 V c 0 t : Vec Ideal S2000x128 .bf16) (ix2 r k) = (V c (Pipeline.arrRef spec2 0) : Spec.SE.Idx → EReal) (ix2 R k) := by
  obtain ⟨h0, h1, -, -, -, -, -, -, -, -, -, -, -, -, -, -, -, -, -, -, -, -, -, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * r.val = R.val; rw [h0, hR]; omega
  | ⟨1, _⟩ => show win2_0.index t (1 : Fin 2) * 128 + 1 * k.val = k.val; rw [h1]; omega

/-- Window 1's block at point t is rows 2000·t … 2000·t + 1999 of its array. -/
theorem blkHj_apply (c : Dev nD) (t : Fin cfg2.N) (r : Fin 2000) (k : Fin 128) (R : Fin 250000) (hR : R.val = t.val * 2000 + r.val) :
    (iblk2 V c 1 t : Vec Ideal S2000x128 .bf16) (ix2 r k) = (V c (Pipeline.arrRef spec2 1) : Spec.SE.Idx → EReal) (ix2 R k) := by
  obtain ⟨-, -, h0, h1, -, -, -, -, -, -, -, -, -, -, -, -, -, -, -, -, -, -, -, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2000 + 1 * r.val = R.val; rw [h0, hR]; omega
  | ⟨1, _⟩ => show win2_1.index t (1 : Fin 2) * 128 + 1 * k.val = k.val; rw [h1]; omega

/-- Window 2's block at point t is rows 2000·t … 2000·t + 1999 of its one-column array. -/
theorem blkDist_apply (c : Dev nD) (t : Fin cfg2.N) (r : Fin 2000) (k : Fin 1) (R : Fin 250000) (hR : R.val = t.val * 2000 + r.val) :
    (iblk2 V c 2 t : Vec Ideal S2000x1 .f32) (ix2 r k) = (V c (Pipeline.arrRef spec2 2) : Spec.SE1.Idx → EReal) (ix2 R k) := by
  obtain ⟨-, -, -, -, h0, h1, -, -, -, -, -, -, -, -, -, -, -, -, -, -, -, -, -, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 2000 + 1 * r.val = R.val; rw [h0, hR]; omega
  | ⟨1, _⟩ => show win2_2.index t (1 : Fin 2) * 1 + 1 * k.val = k.val; rw [h1]; omega

end Cert.KernelIdeal.Edge2

end
-- ==== Proof.Edge2BlkW.lean ====
/-
  The first-stage weight windows of the edge region (the two 128×128 matrices, the length row and the bias row): the
  block at every point is the whole array as the region finds it.
-/
import proofs.«156944_j45535243272652_2_alg».proof.Proof.Spec
import proofs.«156944_j45535243272652_2_alg».proof.Proof.Edge2Idx
import proofs.«156944_j45535243272652_2_alg».proof.Proof.FrameKI
import Idealize.ShloMosaic.Lib.Pipeline.Value
import Idealize.ShloMosaic.Lib.ValueIdx

noncomputable section

namespace Cert.KernelIdeal.Edge2

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 3's block at every point is its whole array. -/
theorem blkW1a_eq (c : Dev nD) (t : Fin cfg2.N) :
    (iblk2 V c 3 t : Vec Ideal S128x128 .f32) = (V c (Pipeline.arrRef spec2 3) : Spec.SW.Idx → EReal) := by
  obtain ⟨-, -, -, -, -, -, h0, h1, -, -, -, -, -, -, -, -, -, -, -, -, -, -, -, -⟩ := idx_facts t
  funext j
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 128 + 1 * (j 0).val = (j 0).val; rw [h0]; omega
  | ⟨1, _⟩ => show win2_3.index t (1 : Fin 2) * 128 + 1 * (j 1).val = (j 1).val; rw [h1]; omega

/-- Window 4's block at every point is its whole array. -/
theorem blkW1b_eq (c : Dev nD) (t : Fin cfg2.N) :
    (iblk2 V c 4 t : Vec Ideal S128x128 .f32) = (V c (Pipeline.arrRef spec2 4) : Spec.SW.Idx → EReal) := by
  obtain ⟨-, -, -, -, -, -, -, -, h0, h1, -, -, -, -, -, -, -, -, -, -, -, -, -, -⟩ := idx_facts t
  funext j
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 128 + 1 * (j 0).val = (j 0).val; rw [h0]; omega
  | ⟨1, _⟩ => show win2_4.index t (1 : Fin 2) * 128 + 1 * (j 1).val = (j 1).val; rw [h1]; omega

/-- Window 5's block at every point is its whole array. -/
theorem blkW1c_eq (c : Dev nD) (t : Fin cfg2.N) :
    (iblk2 V c 5 t : Vec Ideal S1x128 .f32) = (V c (Pipeline.arrRef spec2 5) : Spec.SR.Idx → EReal) := by
  obtain ⟨-, -, -, -, -, -, -, -, -, -, h0, h1, -, -, -, -, -, -, -, -, -, -, -, -⟩ := idx_facts t
  funext j
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (j 0).val = (j 0).val; rw [h0]; omega
  | ⟨1, _⟩ => show win2_5.index t (1 : Fin 2) * 128 + 1 * (j 1).val = (j 1).val; rw [h1]; omega

/-- Window 6's block at every point is its whole array. -/
theorem blkB1_eq (c : Dev nD) (t : Fin cfg2.N) :
    (iblk2 V c 6 t : Vec Ideal S1x128 .f32) = (V c (Pipeline.arrRef spec2 6) : Spec.SR.Idx → EReal) := by
  obtain ⟨-, -, -, -, -, -, -, -, -, -, -, -, h0, h1, -, -, -, -, -, -, -, -, -, -⟩ := idx_facts t
  funext j
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * (j 0).val = (j 0).val; rw [h0]; omega
  | ⟨1, _⟩ => show win2_6.index t (1 : Fin 2) * 128 + 1 * (j 1).val = (j 1).val; rw [h1]; omega

end Cert.KernelIdeal.Edge2

end
-- ==== Proof.Edge2BlkX.lean ====
/-
  The second-stage and gate weight windows of the edge region (the 128×128 matrix and its bias row, the gate column and
  its one-entry bias): the block at every point is the whole array as the region finds it.
-/
import proofs.«156944_j45535243272652_2_alg».proof.Proof.Spec
import proofs.«156944_j45535243272652_2_alg».proof.Proof.Edge2Idx
import proofs.«156944_j45535243272652_2_alg».proof.Proof.FrameKI
import Idealize.ShloMosaic.Lib.Pipeline.Value
import Idealize.ShloMosaic.Lib.ValueIdx

noncomputable section

namespace Cert.KernelIdeal.Edge2

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 7's block at every point is its whole array. -/
theorem blkW2_eq (c : Dev nD) (t : Fin cfg2.N) :
    (iblk2 V c 7 t : Vec Ideal S128x128 .f32) = (V c (Pipeline.arrRef spec2 7) : Spec.SW.Idx → EReal) := by
  obtain ⟨-, -, -, -, -, -, -, -, -, -, -, -, -, -, h0, h1, -, -, -, -, -, -, -, -⟩ := idx_facts t
  funext j
  unfold iblk2
  rw [View.read_apply]
  show V c (Pipeline.arrRef spec2 7) _ = V c (Pipeline.arrRef spec2 7) _
  congr 1
  funext a
  apply Fin.ext
  match a with
  | ⟨0, _⟩ => show win2_7.index t (0 : Fin 2) * 128 + 1 * (j 0).val = (j 0).val; rw [h0]; omega
  | ⟨1, _⟩ => show win2_7.index t (1 : Fin 2) * 128 + 1 * (j 1).val = (j 1).val; rw [h1]; omega

/-- Window 8's block at every point is its whole array. -/
theorem blkB2_eq (c : Dev nD) (t : Fin cfg2.N) :
    (iblk2 V c 8 t : Vec Ideal S1x128 .f32) = (V c (Pipeline.arrRef spec2 8) : Spec.SR.Idx → EReal) := by
  obtain ⟨-, -, -, -, -, -, -, -, -, -, -, -, -, -, -, -, h0, h1, -, -, -, -, -, -⟩ := idx_facts t
  funext j
  unfold iblk2
  rw [View.read_apply]
  show V c (Pipeline.arrRef spec2 8) _ = V c (Pipeline.arrRef spec2 8) _
  congr 1
  funext a
  apply Fin.ext
  match a with
  | ⟨0, _⟩ => show win2_8.index t (0 : Fin 2) * 1 + 1 * (j 0).val = (j 0).val; rw [h0]; omega
  | ⟨1, _⟩ => show win2_8.index t (1 : Fin 2) * 128 + 1 * (j 1).val = (j 1).val; rw [h1]; omega

/-- Window 9's block at every point is its whole array. -/
theorem blkAw_eq (c : Dev nD) (t : Fin cfg2.N) :
    (iblk2 V c 9 t : Vec Ideal S128x1 .f32) = (V c (Pipeline.arrRef spec2 9) : Spec.SC.Idx → EReal) := by
  obtain ⟨-, -, -, -, -, -, -, -, -, -, -, -, -, -, -, -, -, -, h0, h1, -, -, -, -⟩ := idx_facts t
  funext j
  unfold iblk2
  rw [View.read_apply]
  show V c (Pipeline.arrRef spec2 9) _ = V c (Pipeline.arrRef spec2 9) _
  congr 1
  funext a
  apply Fin.ext
  match a with
  | ⟨0, _⟩ => show win2_9.index t (0 : Fin 2) * 128 + 1 * (j 0).val = (j 0).val; rw [h0]; omega
  | ⟨1, _⟩ => show win2_9.index t (1 : Fin 2) * 1 + 1 * (j 1).val = (j 1).val; rw [h1]; omega

/-- Window 10's block at every point is its whole array. -/
theorem blkAb_eq (c : Dev nD) (t : Fin cfg2.N) :
    (iblk2 V c 10 t : Vec Ideal S1x1 .f32) = (V c (Pipeline.arrRef spec2 10) : Spec.S11.Idx → EReal) := by
  obtain ⟨-, -, -, -, -, -, -, -, -, -, -, -, -, -, -, -, -, -, -, -, h0, h1, -, -⟩ := idx_facts t
  funext j
  unfold iblk2
  rw [View.read_apply]
  show V c (Pipeline.arrRef spec2 10) _ = V c (Pipeline.arrRef spec2 10) _
  congr 1
  funext a
  apply Fin.ext
  match a with
  | ⟨0, _⟩ => show win2_10.index t (0 : Fin 2) * 1 + 1 * (j 0).val = (j 0).val; rw [h0]; omega
  | ⟨1, _⟩ => show win2_10.index t (1 : Fin 2) * 1 + 1 * (j 1).val = (j 1).val; rw [h1]; omega

end Cert.KernelIdeal.Edge2

end
-- ==== Proof.Edge2Value.lean ====
/-
  The value of the edge region: after its 125 grid points the output array holds, in row e, the message row of edge e —
  the edge row function of rows e of the two feature arrays and of the length array, with the weight arrays. Point t
  computes rows 2000·t … 2000·t + 1999 from the same rows of its row-blocked inputs, and the 125 blocks cover the
  250000 rows.
-/
import proofs.«156944_j45535243272652_2_alg».proof.Proof.Spec
import proofs.«156944_j45535243272652_2_alg».proof.Proof.Edge2Pay
import proofs.«156944_j45535243272652_2_alg».proof.Proof.Edge2BlkR
import proofs.«156944_j45535243272652_2_alg».proof.Proof.Edge2BlkW
import proofs.«156944_j45535243272652_2_alg».proof.Proof.Edge2BlkX
import proofs.«156944_j45535243272652_2_alg».proof.Proof.FrameKI
import Idealize.ShloMosaic.Lib.Pipeline.Value
import Idealize.ShloMosaic.Lib.ValueIdx

noncomputable section

namespace Cert.KernelIdeal.Edge2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.EdgeOps

theorem hz : (![0, 0] : Fin 2 → Nat) = fun _ => 0 := funext fun a => by fin_cases a <;> rfl

/-- What the body leaves in the output block at (r, c), from the eleven input blocks: the message entry of row r. -/
theorem out_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (x9 : Vec Ideal S128x1 .f32)
    (x10 : Vec Ideal S1x1 .f32) (r : Fin 2000) (c : Fin 128) :
    GenP.out2_11 (F := Ideal) x0 x1 x2 x3 x4 x5 x6 x7 x8 x9 x10 (ix2 r c)
      = Spec.edgeRow (fun k => x0 (ix2 r k)) (fun k => x1 (ix2 r k)) (x2 (ix2 r (0 : Fin 1))) (Spec.mat x3) (Spec.mat x4)
          (Spec.rowv x5) (Spec.rowv x6) (Spec.mat x7) (Spec.rowv x8) (Spec.colv x9) (x10 (ix2 (0 : Fin 1) (0 : Fin 1))) c := by
  unfold GenP.out2_11
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x1) hz, View.ld_unit_zero (S := S1x1) hz]
  rw [pay1_apply]
  simp only [pay2_apply]
  rfl

/-- The edge row function respects equality of each of its arguments. -/
theorem edgeRow_congr {hi hi' hj hj' : Fin 128 → EReal} {d d' : EReal} {w1a w1a' w1b w1b' : Fin 128 → Fin 128 → EReal}
    {w1c w1c' b1 b1' : Fin 128 → EReal} {w2 w2' : Fin 128 → Fin 128 → EReal} {b2 b2' aw aw' : Fin 128 → EReal} {ab ab' : EReal}
    (e0 : hi = hi') (e1 : hj = hj') (e2 : d = d') (e3 : w1a = w1a') (e4 : w1b = w1b') (e5 : w1c = w1c') (e6 : b1 = b1')
    (e7 : w2 = w2') (e8 : b2 = b2') (e9 : aw = aw') (e10 : ab = ab') (c : Fin 128) :
    Spec.edgeRow hi hj d w1a w1b w1c b1 w2 b2 aw ab c = Spec.edgeRow hi' hj' d' w1a' w1b' w1c' b1' w2' b2' aw' ab' c := by
  subst e0 e1 e2 e3 e4 e5 e6 e7 e8 e9 e10; rfl

variable (V : (c : Dev nD) → (b : Ref sig .tc) → Buf (Elt Ideal) ((c : Thread nD τ).loc b))

/-- Every edge's message row, of the eleven arrays as the region finds them. -/
abbrev result (c : Dev nD) : Spec.SE.Idx → EReal :=
  Spec.edgeArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))

/-- What the body leaves at (r, q) of the output block at point t, from the point's input blocks: the message row of
    edge R = 2000·t + r at feature q, of the arrays. -/
theorem out_blocks (c : Dev nD) (t : Fin cfg2.N) (r : Fin 2000) (q : Fin 128) (R : Fin 250000) (hR : R.val = t.val * 2000 + r.val) :
    out2_11 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (ix2 r q)
      = result V c (ix2 R q) := by
  refine (out_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) r q).trans ?_
  exact edgeRow_congr (funext fun k => blkHi_apply V c t r k R hR) (funext fun k => blkHj_apply V c t r k R hR)
    (blkDist_apply V c t r (0 : Fin 1) R hR) (congrArg Spec.mat (blkW1a_eq V c t)) (congrArg Spec.mat (blkW1b_eq V c t))
    (congrArg Spec.rowv (blkW1c_eq V c t)) (congrArg Spec.rowv (blkB1_eq V c t)) (congrArg Spec.mat (blkW2_eq V c t))
    (congrArg Spec.rowv (blkB2_eq V c t)) (congrArg Spec.colv (blkAw_eq V c t))
    (congrFun (blkAb_eq V c t) (ix2 (0 : Fin 1) (0 : Fin 1))) q

/-- WHAT POINT t WRITES BACK is block t of `result`: row r of the block is the message row of edge 2000·t + r. -/
theorem flushed_eq (c : Dev nD) (t : Fin cfg2.N) :
    (dat2 (F := Ideal) V c).flushed 11 t = ((cfg2.win 11).blk t).view.read (Elt Ideal) (result V c) := by
  unfold Dat.flushed
  rw [after2_11]
  have hN : cfg2.N = 125 := N_2
  funext j
  obtain ⟨r, q, rfl⟩ : ∃ (r : Fin 2000) (q : Fin 128), j = ix2 r q := ⟨j 0, j 1, eq_ix2 j⟩
  have ht : t.val < 125 := hN ▸ t.isLt
  obtain ⟨R, hR⟩ : ∃ R : Fin 250000, R.val = t.val * 2000 + r.val := ⟨⟨t.val * 2000 + r.val, by have := r.isLt; omega⟩, rfl⟩
  have hemb : ((cfg2.win 11).blk t).view.emb (ix2 r q) = (ix2 R q : Spec.SE.Idx) := by
    obtain ⟨-, -, -, -, -, -, -, -, -, -, -, -, -, -, -, -, -, -, -, -, -, -, h0, h1⟩ := idx_facts t
    funext a
    apply Fin.ext
    match a with
    | ⟨0, _⟩ => show win2_11.index t (0 : Fin 2) * 2000 + 1 * r.val = R.val; rw [h0, hR]; omega
    | ⟨1, _⟩ => show win2_11.index t (1 : Fin 2) * 128 + 1 * q.val = q.val; rw [h1]; omega
  refine (out_blocks V c t r q R hR).trans ?_
  rw [View.read_apply]
  show _ = result V c (((cfg2.win 11).blk t).view.emb (ix2 r q))
  rw [hemb]
/-- An index of the output array is in point t's block iff each coordinate is in the block's range on its axis. -/
theorem mem_blk (t : Fin cfg2.N) (i : Spec.SE.Idx) :
    i ∈ ((cfg2.win 11).blk t).view.set ↔ ∀ a : Fin 2, win2_11.index t a * S2000x128.size a ≤ (i a).val ∧ (i a).val < win2_11.index t a * S2000x128.size a + S2000x128.size a := by
  show i ∈ ((View.whole (Pipeline.arrRef spec2 11)).slice (win2_11.rect t)).set ↔ _
  rw [View.set_slice_whole, Rect.mem_set_unit]
  exact Iff.rfl

/-- Every row of the output array is in some point's block: row e is in block e / 2000. -/
theorem cover (i : Spec.SE.Idx) : ∃ t : Fin cfg2.N, (cfg2.win 11).flush t = true ∧ i ∈ ((cfg2.win 11).blk t).view.set := by
  have hN : cfg2.N = 125 := N_2
  have hi0 : (i 0).val < 250000 := (i 0).isLt
  have hi1 : (i 1).val < 128 := (i 1).isLt
  let t : Fin cfg2.N := ⟨(i 0).val / 2000, by rw [hN]; omega⟩
  have htv : t.val = (i 0).val / 2000 := rfl
  obtain ⟨-, -, -, -, -, -, -, -, -, -, -, -, -, -, -, -, -, -, -, -, -, -, h0, h1⟩ := idx_facts t
  refine ⟨t, flush2_11 t, ?_⟩
  rw [mem_blk]
  intro a
  match a with
  | ⟨0, _⟩ => show win2_11.index t (0 : Fin 2) * 2000 ≤ (i 0).val ∧ (i 0).val < win2_11.index t (0 : Fin 2) * 2000 + 2000; rw [h0, htv]; omega
  | ⟨1, _⟩ => show win2_11.index t (1 : Fin 2) * 128 ≤ (i 1).val ∧ (i 1).val < win2_11.index t (1 : Fin 2) * 128 + 128; rw [h1]; omega

/-- THE OUTPUT ARRAY after the region's run: every edge's message row. -/
theorem value (c : Dev nD) :
    (dat2 (F := Ideal) V c).arrAt 11 cfg2.N
      = Spec.edgeArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) :=
  (dat2 (F := Ideal) V c).arrAt_eq_of_cover 11 (result V c) (fun t _ => flushed_eq V c t) cover

end Cert.KernelIdeal.Edge2

end
-- ==== Proof.Node3Ops.lean ====
/-
  Single operations of the node kernel's body read at an index, at the extended reals.

  * A sum along the lanes: reducing an a×b array over its second axis gives, at row r, the sum over the b
    entries of row r.
  * A column with its unit axis kept: casting a length-a vector to a×1 reads, at (r, 0), entry r; broadcasting an
    a×1 column to a×b reads, at (r, c), the column's entry (r, 0).
  * The matrix product of the body: a 1000×128 by 128×128 product into a zero accumulator reads, at (r, c), the
    sum over k of left (r, k) times right (k, c).
-/
import Idealize.ShloMosaic.PureOps.Ideal.Laws
import Idealize.ShloMosaic.Lib.ValueIdx
import Idealize.ShloMosaic.Lib.ValueLayout
import proofs.«156944_j45535243272652_2_alg».proof.KernelIdeal

noncomputable section

namespace Cert.KernelIdeal.Node3

open Idealize.ShloMosaic Idealize.ShloMosaic.ValueIdx Cert.KernelIdeal

/-! ## A sum along the lanes -/

/-- Reducing an a×b array by addition over axis 1 from the zero word: at row r the sum of row r's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun c => Fin.ext ?_)
  match c with
  | ⟨0, _⟩ => rfl
  | ⟨1, _⟩ => rfl

/-! ## A column with its unit axis kept -/

variable {α : Type}

/-- A length-a vector cast to a×1 reads, at (r, u), entry r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An a×1 column broadcast to a×b reads, at (r, c), the column's entry in row r. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Pointwise unary operations -/

/-- The logistic function of a vector, at an index. -/
theorem logistic_apply {s : Shape} {φ : FTy} (x : FVec Ideal s φ) (i : s.Idx) : logistic x i = Ideal.logistic (x i) := rfl

/-- The reciprocal square root of a vector, at an index. -/
theorem rsqrt_apply {s : Shape} {φ : FTy} (x : FVec Ideal s φ) (i : s.Idx) : rsqrt x i = Ideal.rsqrt (x i) := rfl

/-! ## The body's matrix product -/

variable [Facts₀]

/-- The row coordinate of the left operand's index is the result's row. -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch from List.not_mem_nil),
    dif_pos (show (0 : Fin S1000x128.rank) ∈ dot_S1000x128_S128x128_S1000x128_1_0_0_1_n_n.lhsNonContracting from List.mem_singleton_self _)]
  rfl

/-- The column coordinate of the left operand's index is the contracted coordinate. -/
theorem lhs_1 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.lhsIdx i q 1).val = (q ⟨0, h0⟩).val :=
  dot_S1000x128_S128x128_S1000x128_1_0_0_1_n_n.lhsIdx_val_of_single rfl i q

/-- The row coordinate of the right operand's index is the contracted coordinate. -/
theorem rhs_0 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.rhsIdx i q 0).val = (q ⟨0, h0⟩).val :=
  dot_S1000x128_S128x128_S1000x128_1_0_0_1_n_n.rhsIdx_val_of_single rfl i q

/-- The column coordinate of the right operand's index is the result's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch from List.not_mem_nil),
    dif_pos (show (1 : Fin S128x128.rank) ∈ dot_S1000x128_S128x128_S1000x128_1_0_0_1_n_n.rhsNonContracting from List.mem_singleton_self _)]
  rfl

/-- The product into a zero accumulator, at (r, c): the sum over k of left (r, k) times right (k, c). -/
theorem matmul_apply {φ₁ φ₂ : FTy} (lhs : FVec Ideal S1000x128 φ₁) (rhs : FVec Ideal S128x128 φ₂) (r : Fin 1000) (c : Fin 128) :
    matmul dot_S1000x128_S128x128_S1000x128_1_0_0_1_n_n none lhs rhs (constant (F := Ideal) S1000x128 .f32 0x00000000#32) (ix2 r c)
      = ∑ k : Fin 128, lhs (ix2 r k) * rhs (ix2 k c) := by
  refine (Ideal.matmul_constant_zero_apply dot_S1000x128_S128x128_S1000x128_1_0_0_1_n_n none lhs rhs (ix2 r c)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r c)
      ((contrEquiv1 dot_S1000x128_S128x128_S1000x128_1_0_0_1_n_n 128 rfl rfl).symm k) = ix2 r k := funext fun a => Fin.ext (by
    match a with
    | ⟨0, _⟩ => exact lhs_0 _ _
    | ⟨1, _⟩ => exact (lhs_1 _ _ _).trans hk)
  have er : dot_S1000x128_S128x128_S1000x128_1_0_0_1_n_n.rhsIdx (ix2 r c)
      ((contrEquiv1 dot_S1000x128_S128x128_S1000x128_1_0_0_1_n_n 128 rfl rfl).symm k) = ix2 k c := funext fun a => Fin.ext (by
    match a with
    | ⟨0, _⟩ => exact (rhs_0 _ _ _).trans hk
    | ⟨1, _⟩ => exact rhs_1 _ _)
  rw [el, er]

end Cert.KernelIdeal.Node3

end
-- ==== Proof.Node3Pay.lean ====
/-
  The node kernel's body, read entry by entry.

  The body takes a block of 1000 rows of node features and of aggregated messages with the layer's weights, and
  leaves, in row r and column c, the normalised node update of row r: with
  `nin k = Σⱼ h j · w1a j k + Σⱼ agg j · w1b j k + b1 k` and `hr c = h c + (Σₖ silu (nin k) · w2 k c + b2 c)`,
  the mean `mu` of `hr` over its 128 entries, the mean `var` of `(hr c − mu)²`, the entry is
  `(hr c − mu) · rsqrt (var + ε) · g c + b c`. Each stage of the body is read here at an index: the residual
  row (two products, a bias, the activation, a third product, a bias, the residual), the mean column (a sum along
  the lanes and a quotient by 128), the sums of squared deviations, and the normalisation with gain and bias.
-/
import proofs.«156944_j45535243272652_2_alg».proof.Proof.Spec
import proofs.«156944_j45535243272652_2_alg».proof.Proof.Node3Ops
import proofs.«156944_j45535243272652_2_alg».proof.Proof.Gen.KernelIdeal.Skeleton

noncomputable section

namespace Cert.KernelIdeal.Node3

open Idealize.ShloMosaic Idealize.ShloMosaic.ValueIdx Cert.KernelIdeal Cert.KernelIdeal.Gen

/-! ## The stages of the body at an index -/

/-- The residual row: entry (r, c) of the first stage is the node update of row r of the two blocks. -/
theorem pay2_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (c : Fin 128) :
    k3_pay2 (F := Ideal) v0 v2 v5 v10 v15 v22 v26 (ix2 r c)
      = Cert.Spec.nodeHr (fun k => v0 (ix2 r k)) (fun k => v2 (ix2 r k)) (Cert.Spec.mat v5) (Cert.Spec.mat v10)
          (Cert.Spec.rowv v15) (Cert.Spec.mat v22) (Cert.Spec.rowv v26) c := by
  unfold k3_pay2
  simp only [shapeCast_self, addf_apply, mulf_apply, truncf_apply, logistic_apply, Node3.matmul_apply, broadcastTo_1b_ab_apply]
  rfl

/-- The mean column: entry (r, 0) is the mean of row r of the first stage. -/
theorem pay3_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (u : Fin 1) :
    k3_pay3 (F := Ideal) v0 v2 v5 v10 v15 v22 v26 (ix2 r u)
      = Cert.Spec.rowMean (fun c => k3_pay2 (F := Ideal) v0 v2 v5 v10 v15 v22 v26 (ix2 r c)) := by
  unfold k3_pay3
  simp only [divf_apply, broadcast_apply, shapeCast_a_a1_apply]
  exact congrArg (fun s => Ideal.div s _) (laneSum_apply (a := 1000) (b := 128) _ _ _ _ r)

/-- The sum of squared deviations: entry r is the sum over row r of the squares of (entry minus the row's mean). -/
theorem pay4_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) :
    k3_pay4 (F := Ideal) v0 v2 v5 v10 v15 v22 v26 (ix1 r)
      = ∑ c : Fin 128, (k3_pay2 (F := Ideal) v0 v2 v5 v10 v15 v22 v26 (ix2 r c) - k3_pay3 (F := Ideal) v0 v2 v5 v10 v15 v22 v26 (ix2 r (0 : Fin 1)))
          * (k3_pay2 (F := Ideal) v0 v2 v5 v10 v15 v22 v26 (ix2 r c) - k3_pay3 (F := Ideal) v0 v2 v5 v10 v15 v22 v26 (ix2 r (0 : Fin 1))) := by
  unfold k3_pay4
  refine (laneSum_apply (a := 1000) (b := 128) _ _ _ _ r).trans ?_
  simp only [mulf_apply, subf_apply, broadcastTo_a1_ab_apply]

/-- The normalisation: from a residual block, its mean column and its sums of squared deviations. -/
theorem pay1_apply (v30 : FVec Ideal S1000x128 .f32) (v34 : FVec Ideal S1000x1 .f32) (v38 : FVec Ideal S1000 .f32)
    (v49 v53 : Vec Ideal S1x128 .f32) (r : Fin 1000) (c : Fin 128) :
    k3_pay1 (F := Ideal) v30 v34 v38 v49 v53 (ix2 r c)
      = (v30 (ix2 r c) - v34 (ix2 r (0 : Fin 1))) * Ideal.rsqrt (Ideal.div (v38 (ix1 r)) Cert.Spec.c128 + Cert.Spec.cEps)
          * v49 (ix2 (0 : Fin 1) c) + v53 (ix2 (0 : Fin 1) c) := by
  unfold k3_pay1
  simp only [shapeCast_self, addf_apply, mulf_apply, subf_apply, divf_apply, rsqrt_apply, broadcast_apply, shapeCast_a_a1_apply,
    broadcastTo_a1_ab_apply, broadcastTo_1b_ab_apply]
  rfl

/-- The body's result at (r, c): the normalised node update of row r. -/
theorem body_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    k3_pay1 (F := Ideal) (k3_pay2 x0 x1 x2 x3 x4 x5 x6) (k3_pay3 x0 x1 x2 x3 x4 x5 x6) (k3_pay4 x0 x1 x2 x3 x4 x5 x6) x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  have h2 : (fun k => k3_pay2 (F := Ideal) x0 x1 x2 x3 x4 x5 x6 (ix2 r k))
      = Cert.Spec.nodeHr (fun k => x0 (ix2 r k)) (fun k => x1 (ix2 r k)) (Cert.Spec.mat x2) (Cert.Spec.mat x3)
          (Cert.Spec.rowv x4) (Cert.Spec.mat x5) (Cert.Spec.rowv x6) := funext fun k => pay2_apply x0 x1 x2 x3 x4 x5 x6 r k
  rw [pay1_apply, pay4_apply, pay3_apply, h2, congrFun h2 c]
  simp only [pay2_apply]
  rfl

end Cert.KernelIdeal.Node3

end
-- ==== Proof.Node3Blocks.lean ====
/-
  The node region's blocks, read against the whole arrays.

  The output window's staging buffer after the body is one store of the body's result, so at (r, c) it holds the
  normalised node update of row r of the two row blocks (`out_apply`). At grid point t the feature and message
  windows hold rows 1000·t … 1000·t + 999 of their arrays (`rows0`, `rows1`: a block's element sits at block index
  times block size plus its coordinate inside the block), and each of the seven weight windows holds its whole array
  at every point (`whole2` … `whole8`: block index (0, 0)). So the buffer at (p, q) is the layer's node update of
  the arrays at row 1000·t + p, column q (`block_apply`).
-/
import proofs.«156944_j45535243272652_2_alg».proof.Proof.Spec
import proofs.«156944_j45535243272652_2_alg».proof.Proof.Node3Pay
import proofs.«156944_j45535243272652_2_alg».proof.Proof.FrameKI
import Idealize.ShloMosaic.Lib.Pipeline.Value
import Idealize.ShloMosaic.Lib.Tactic

set_option maxRecDepth 16384

noncomputable section

namespace Cert.KernelIdeal.Node3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The staging buffer after the body, at an index -/

theorem hz : (![0, 0] : Fin 2 → Nat) = fun _ => 0 := funext fun a => by fin_cases a <;> rfl

/-- The output window's buffer after the body holds, in row r and column c, the normalised node update of row r of
    the two row blocks with the weight blocks. -/
theorem out_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    out3_9 (F := Ideal) x0 x1 x2 x3 x4 x5 x6 x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  unfold out3_9
  rw [View.canon_unit_zero hz]
  simp only [View.ld_unit_zero (S := S1000x128) hz, View.ld_unit_zero (S := S128x128) hz, View.ld_unit_zero (S := S1x128) hz]
  exact body_apply x0 x1 x2 x3 x4 x5 x6 x7 x8 r c

/-- A block of 1000 rows read through row offset 1000·n, against the whole arrays: if the two row blocks are rows
    1000·n … 1000·n + 999 of the feature and message arrays and the weight blocks are the weight arrays, the buffer
    after the body at (p, q) is the layer's node update of the arrays at row 1000·n + p, column q. -/
theorem block_apply (h agg : S10000x128.Idx → EReal) (w1a w1b : S128x128.Idx → EReal) (b1 : S1x128.Idx → EReal)
    (w2 : S128x128.Idx → EReal) (b2 g b : S1x128.Idx → EReal)
    (x0 x1 : Vec Ideal S1000x128 .f32) (x2 x3 : Vec Ideal S128x128 .f32) (x4 : Vec Ideal S1x128 .f32)
    (x5 : Vec Ideal S128x128 .f32) (x6 x7 x8 : Vec Ideal S1x128 .f32) (n : ℕ)
    (e0 : ∀ (p : Fin 1000) (k : Fin 128) (i : S10000x128.Idx), (i 0).val = 1000 * n + p.val → (i 1).val = k.val → x0 (ix2 p k) = h i)
    (e1 : ∀ (p : Fin 1000) (k : Fin 128) (i : S10000x128.Idx), (i 0).val = 1000 * n + p.val → (i 1).val = k.val → x1 (ix2 p k) = agg i)
    (e2 : x2 = w1a) (e3 : x3 = w1b) (e4 : x4 = b1) (e5 : x5 = w2) (e6 : x6 = b2) (e7 : x7 = g) (e8 : x8 = b)
    (y : S1000x128.Idx) (i : S10000x128.Idx) (hi0 : (i 0).val = 1000 * n + (y 0).val) (hi1 : (i 1).val = (y 1).val) :
    out3_9 (F := Ideal) x0 x1 x2 x3 x4 x5 x6 x7 x8 y = Cert.Spec.nodeArr h agg w1a w1b b1 w2 b2 g b i := by
  subst e2 e3 e4 e5 e6 e7 e8
  obtain ⟨p, q, rfl⟩ : ∃ (p : Fin 1000) (q : Fin 128), y = ix2 p q := ⟨y 0, y 1, eq_ix2 y⟩
  rw [out_apply]
  have hq : q = i 1 := Fin.ext hi1.symm
  have hrow0 : (fun k => x0 (ix2 p k)) = fun k => h (ix2 (i 0) k) := funext fun k => e0 p k (ix2 (i 0) k) hi0 rfl
  have hrow1 : (fun k => x1 (ix2 p k)) = fun k => agg (ix2 (i 0) k) := funext fun k => e1 p k (ix2 (i 0) k) hi0 rfl
  rw [hrow0, hrow1, hq]
  rfl

/-! ## Where each window's block sits in its array -/

/-- The row-blocked windows (features, messages, result) are at block row t at point t; every weight window is at
    block (0, 0) at every point. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0) :=
  (by decide +kernel : ∀ t : Fin grid3.N, _)

/-- The feature window's block at point t is rows 1000·t … 1000·t + 999 of the feature array. -/
theorem rows0 (c : Dev nD) (t : Fin cfg3.N) (p : Fin 1000) (k : Fin 128) (i : S10000x128.Idx)
    (hi0 : (i 0).val = 1000 * t.val + p.val) (hi1 : (i 1).val = k.val) :
    (iblk3 (F := Ideal) V c 0 t : Vec Ideal S1000x128 .f32) (ix2 p k) = (V c (Pipeline.arrRef spec3 0) : S10000x128.Idx → EReal) i := by
  obtain ⟨⟨a0, a1⟩, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 1000 + 1 * p.val = (i 0).val; rw [a0, hi0]; omega
  | ⟨1, _⟩ => show win3_0.index t (1 : Fin 2) * 128 + 1 * k.val = (i 1).val; rw [a1, hi1]; omega

/-- The message window's block at point t is rows 1000·t … 1000·t + 999 of the message array. -/
theorem rows1 (c : Dev nD) (t : Fin cfg3.N) (p : Fin 1000) (k : Fin 128) (i : S10000x128.Idx)
    (hi0 : (i 0).val = 1000 * t.val + p.val) (hi1 : (i 1).val = k.val) :
    (iblk3 (F := Ideal) V c 1 t : Vec Ideal S1000x128 .f32) (ix2 p k) = (V c (Pipeline.arrRef spec3 1) : S10000x128.Idx → EReal) i := by
  obtain ⟨-, ⟨a0, a1⟩, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1000 + 1 * p.val = (i 0).val; rw [a0, hi0]; omega
  | ⟨1, _⟩ => show win3_1.index t (1 : Fin 2) * 128 + 1 * k.val = (i 1).val; rw [a1, hi1]; omega

/-- The first product's weight window's block is its whole array at every point. -/
theorem whole2 (c : Dev nD) (t : Fin cfg3.N) :
    (iblk3 (F := Ideal) V c 2 t : Vec Ideal S128x128 .f32) = (V c (Pipeline.arrRef spec3 2) : S128x128.Idx → EReal) := by
  obtain ⟨-, -, ⟨a0, a1⟩, -⟩ := idx_facts t
  funext j
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * (j 0).val = (j 0).val; rw [a0]; omega
  | ⟨1, _⟩ => show win3_2.index t (1 : Fin 2) * 128 + 1 * (j 1).val = (j 1).val; rw [a1]; omega

/-- The second product's weight window's block is its whole array at every point. -/
theorem whole3 (c : Dev nD) (t : Fin cfg3.N) :
    (iblk3 (F := Ideal) V c 3 t : Vec Ideal S128x128 .f32) = (V c (Pipeline.arrRef spec3 3) : S128x128.Idx → EReal) := by
  obtain ⟨-, -, -, ⟨a0, a1⟩, -⟩ := idx_facts t
  funext j
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 128 + 1 * (j 0).val = (j 0).val; rw [a0]; omega
  | ⟨1, _⟩ => show win3_3.index t (1 : Fin 2) * 128 + 1 * (j 1).val = (j 1).val; rw [a1]; omega

/-- The first bias window's block is its whole array at every point. -/
theorem whole4 (c : Dev nD) (t : Fin cfg3.N) :
    (iblk3 (F := Ideal) V c 4 t : Vec Ideal S1x128 .f32) = (V c (Pipeline.arrRef spec3 4) : S1x128.Idx → EReal) := by
  obtain ⟨-, -, -, -, ⟨a0, a1⟩, -⟩ := idx_facts t
  funext j
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (j 0).val = (j 0).val; rw [a0]; omega
  | ⟨1, _⟩ => show win3_4.index t (1 : Fin 2) * 128 + 1 * (j 1).val = (j 1).val; rw [a1]; omega

/-- The third product's weight window's block is its whole array at every point. -/
theorem whole5 (c : Dev nD) (t : Fin cfg3.N) :
    (iblk3 (F := Ideal) V c 5 t : Vec Ideal S128x128 .f32) = (V c (Pipeline.arrRef spec3 5) : S128x128.Idx → EReal) := by
  obtain ⟨-, -, -, -, -, ⟨a0, a1⟩, -⟩ := idx_facts t
  funext j
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 128 + 1 * (j 0).val = (j 0).val; rw [a0]; omega
  | ⟨1, _⟩ => show win3_5.index t (1 : Fin 2) * 128 + 1 * (j 1).val = (j 1).val; rw [a1]; omega

/-- The second bias window's block is its whole array at every point. -/
theorem whole6 (c : Dev nD) (t : Fin cfg3.N) :
    (iblk3 (F := Ideal) V c 6 t : Vec Ideal S1x128 .f32) = (V c (Pipeline.arrRef spec3 6) : S1x128.Idx → EReal) := by
  obtain ⟨-, -, -, -, -, -, ⟨a0, a1⟩, -⟩ := idx_facts t
  funext j
  unfold iblk3
  rw [View.read_apply]
  show V c (Pipeline.arrRef spec3 6) _ = V c (Pipeline.arrRef spec3 6) _
  congr 1
  funext a
  apply Fin.ext
  match a with
  | ⟨0, _⟩ => show win3_6.index t (0 : Fin 2) * 1 + 1 * (j 0).val = (j 0).val; rw [a0]; omega
  | ⟨1, _⟩ => show win3_6.index t (1 : Fin 2) * 128 + 1 * (j 1).val = (j 1).val; rw [a1]; omega

/-- The gain window's block is its whole array at every point. -/
theorem whole7 (c : Dev nD) (t : Fin cfg3.N) :
    (iblk3 (F := Ideal) V c 7 t : Vec Ideal S1x128 .f32) = (V c (Pipeline.arrRef spec3 7) : S1x128.Idx → EReal) := by
  obtain ⟨-, -, -, -, -, -, -, ⟨a0, a1⟩, -⟩ := idx_facts t
  funext j
  unfold iblk3
  rw [View.read_apply]
  show V c (Pipeline.arrRef spec3 7) _ = V c (Pipeline.arrRef spec3 7) _
  congr 1
  funext a
  apply Fin.ext
  match a with
  | ⟨0, _⟩ => show win3_7.index t (0 : Fin 2) * 1 + 1 * (j 0).val = (j 0).val; rw [a0]; omega
  | ⟨1, _⟩ => show win3_7.index t (1 : Fin 2) * 128 + 1 * (j 1).val = (j 1).val; rw [a1]; omega

/-- The normalisation bias window's block is its whole array at every point. -/
theorem whole8 (c : Dev nD) (t : Fin cfg3.N) :
    (iblk3 (F := Ideal) V c 8 t : Vec Ideal S1x128 .f32) = (V c (Pipeline.arrRef spec3 8) : S1x128.Idx → EReal) := by
  obtain ⟨-, -, -, -, -, -, -, -, ⟨a0, a1⟩, -⟩ := idx_facts t
  funext j
  unfold iblk3
  rw [View.read_apply]
  show V c (Pipeline.arrRef spec3 8) _ = V c (Pipeline.arrRef spec3 8) _
  congr 1
  funext a
  apply Fin.ext
  match a with
  | ⟨0, _⟩ => show win3_8.index t (0 : Fin 2) * 1 + 1 * (j 0).val = (j 0).val; rw [a0]; omega
  | ⟨1, _⟩ => show win3_8.index t (1 : Fin 2) * 128 + 1 * (j 1).val = (j 1).val; rw [a1]; omega

end Cert.KernelIdeal.Node3

end
-- ==== Proof.Node3Value.lean ====
/-
  The node region's value: the result array after the region's ten grid points.

  Point t writes back block t of the result window, which is rows 1000·t … 1000·t + 999 of one function of the
  arrays the region finds, the layer's node update (`flushed_eq`). The ten blocks cover the 10000 rows: row i is in
  the block of point i / 1000 (`cover`). So the array ends holding that function everywhere (`value`).
-/
import proofs.«156944_j45535243272652_2_alg».proof.Proof.Spec
import proofs.«156944_j45535243272652_2_alg».proof.Proof.Node3Blocks
import proofs.«156944_j45535243272652_2_alg».proof.Proof.FrameKI
import Idealize.ShloMosaic.Lib.Pipeline.Value
import Idealize.ShloMosaic.Lib.Tactic

set_option maxRecDepth 16384

noncomputable section

namespace Cert.KernelIdeal.Node3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- What the region leaves in its result array: the layer's node update of the arrays the region finds. -/
abbrev outArr (c : Dev nD) : S10000x128.Idx → EReal :=
  Cert.Spec.nodeArr (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))

/-- What point t writes back is block t (rows 1000·t … 1000·t + 999) of that array. -/
theorem flushed_eq (c : Dev nD) (t : Fin cfg3.N) :
    (dat3 (F := Ideal) V c).flushed 9 t = ((cfg3.win 9).blk t).view.read (Elt Ideal) (outArr V c) := by
  obtain ⟨-, -, -, -, -, -, -, -, -, ⟨a0, a1⟩⟩ := idx_facts t
  show (cfg3.win 9).cut (grid3.coords t) ((dat3 (F := Ideal) V c).after 9 t) = _
  rw [after3_9]
  funext y
  show out3_9 (F := Ideal) (iblk3 V c 0 t) (iblk3 V c 1 t) (iblk3 V c 2 t) (iblk3 V c 3 t) (iblk3 V c 4 t) (iblk3 V c 5 t)
      (iblk3 V c 6 t) (iblk3 V c 7 t) (iblk3 V c 8 t) y = outArr V c (((cfg3.win 9).blk t).view.emb y)
  exact block_apply (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))
    (iblk3 V c 0 t) (iblk3 V c 1 t) (iblk3 V c 2 t) (iblk3 V c 3 t) (iblk3 V c 4 t) (iblk3 V c 5 t)
    (iblk3 V c 6 t) (iblk3 V c 7 t) (iblk3 V c 8 t) t.val
    (fun p k i h0 h1 => rows0 V c t p k i h0 h1) (fun p k i h0 h1 => rows1 V c t p k i h0 h1)
    (whole2 V c t) (whole3 V c t) (whole4 V c t) (whole5 V c t) (whole6 V c t) (whole7 V c t) (whole8 V c t)
    y (((cfg3.win 9).blk t).view.emb y)
    (by show win3_9.index t (0 : Fin 2) * 1000 + 1 * (y 0).val = 1000 * t.val + (y 0).val; rw [a0]; omega)
    (by show win3_9.index t (1 : Fin 2) * 128 + 1 * (y 1).val = (y 1).val; rw [a1]; omega)

/-- An index of the result array is in point t's block iff each coordinate is in the block's range on its axis. -/
theorem mem_blk (t : Fin cfg3.N) (i : S10000x128.Idx) :
    i ∈ ((cfg3.win 9).blk t).view.set ↔ ∀ a : Fin 2, win3_9.index t a * S1000x128.size a ≤ (i a).val ∧ (i a).val < win3_9.index t a * S1000x128.size a + S1000x128.size a := by
  show i ∈ ((View.whole (Pipeline.arrRef spec3 9)).slice (win3_9.rect t)).set ↔ _
  rw [View.set_slice_whole, Rect.mem_set_unit]
  exact Iff.rfl

/-- Every row of the result array is in the block of the point numbered by the row's thousand. -/
theorem cover (i : S10000x128.Idx) : ∃ t : Fin cfg3.N, (cfg3.win 9).flush t = true ∧ i ∈ ((cfg3.win 9).blk t).view.set := by
  have hi0 : (i 0).val < 10000 := (i 0).isLt
  have hi1 : (i 1).val < 128 := (i 1).isLt
  have hN : grid3.N = 10 := N_3
  have ht : (i 0).val / 1000 < cfg3.N := by show _ < grid3.N; rw [hN]; omega
  obtain ⟨-, -, -, -, -, -, -, -, -, ⟨a0, a1⟩⟩ := idx_facts ⟨(i 0).val / 1000, ht⟩
  refine ⟨⟨(i 0).val / 1000, ht⟩, flush3_9 _, ?_⟩
  rw [mem_blk]
  intro a
  match a with
  | ⟨0, _⟩ =>
    show win3_9.index ⟨(i 0).val / 1000, ht⟩ (0 : Fin 2) * 1000 ≤ (i 0).val ∧ (i 0).val < win3_9.index ⟨(i 0).val / 1000, ht⟩ (0 : Fin 2) * 1000 + 1000
    rw [a0]; show (i 0).val / 1000 * 1000 ≤ (i 0).val ∧ (i 0).val < (i 0).val / 1000 * 1000 + 1000; omega
  | ⟨1, _⟩ =>
    show win3_9.index ⟨(i 0).val / 1000, ht⟩ (1 : Fin 2) * 128 ≤ (i 1).val ∧ (i 1).val < win3_9.index ⟨(i 0).val / 1000, ht⟩ (1 : Fin 2) * 128 + 128
    rw [a1]; omega

/-- THE REGION'S VALUE: after its ten points the result array holds the layer's node update of the arrays the region
    found, row by row. -/
theorem value (c : Dev nD) :
    (dat3 (F := Ideal) V c).arrAt 9 cfg3.N
      = Cert.Spec.nodeArr (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8)) :=
  (dat3 (F := Ideal) V c).arrAt_eq_of_cover 9 (outArr V c) (fun t _ => flushed_eq V c t) cover

end Cert.KernelIdeal.Node3

end
-- ==== Proof.Edge4Pay.lean ====
/-
  The edge kernel's arithmetic at one element of its output block. At row r and feature c the body computes, from row r
  of the two feature blocks and of the length block and from the weight blocks: the three-part affine form and its
  activation, the second affine stage and its activation, the row's gate, and the gated entry. Every block product is
  into a zero block, so it is the plain sum over the 128 contracted positions; a change of float format is the
  identity on extended reals.
-/
import proofs.«156944_j45535243272652_2_alg».proof.Proof.Spec
import proofs.«156944_j45535243272652_2_alg».proof.Proof.EdgeOps
import proofs.«156944_j45535243272652_2_alg».proof.Proof.Gen.KernelIdeal.Skeleton

noncomputable section

namespace Cert.KernelIdeal.Edge4

open Idealize.ShloMosaic Idealize.ShloMosaic.ValueIdx
open Cert.KernelIdeal Cert.KernelIdeal.EdgeOps

/-- The first two stages of the body at (r, c): the second stage's activated row entry, from row r of the two feature
    blocks and of the length block and from the weight blocks. -/
theorem pay2_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (r : Fin 2000) (c : Fin 128) :
    Gen.k4_pay2 (F := Ideal) x0 x1 x2 x3 x4 x5 x6 x7 x8 (ix2 r c)
      = Spec.edgeM2 (fun k => Spec.silu (Spec.edgeEa (fun j => x0 (ix2 r j)) (fun j => x1 (ix2 r j)) (x2 (ix2 r (0 : Fin 1)))
          (Spec.mat x3) (Spec.mat x4) (Spec.rowv x5) (Spec.rowv x6) k)) (Spec.mat x7) (Spec.rowv x8) c := by
  unfold Gen.k4_pay2
  simp only [shapeCast_self, mulf_apply, addf_apply, truncf_apply, logistic_apply, matmulW_apply, bcastCol_apply, bcastRow_apply]
  rfl

/-- The last stage at (r, c): the second stage's entry times the row's gate. -/
theorem pay1_apply (v : FVec Ideal S2000x128 .f32) (x9 : Vec Ideal S128x1 .f32) (x10 : Vec Ideal S1x1 .f32) (r : Fin 2000) (c : Fin 128) :
    Gen.k4_pay1 (F := Ideal) v x9 x10 (ix2 r c)
      = v (ix2 r c) * Spec.edgeAtt (fun k => v (ix2 r k)) (Spec.colv x9) (x10 (ix2 (0 : Fin 1) (0 : Fin 1))) := by
  unfold Gen.k4_pay1
  simp only [shapeCast_self, mulf_apply, addf_apply, truncf_apply, logistic_apply, matmulA_apply, bcastCol_apply, bcastOne_apply]
  rfl

end Cert.KernelIdeal.Edge4

end
-- ==== Proof.Edge4Idx.lean ====
/-
  The edge region's index maps, decided once over its 125 grid points: at point t the two feature windows, the length
  window and the output window are at row block t; the eight weight windows are at their one block.
-/
import proofs.«156944_j45535243272652_2_alg».proof.Proof.Gen.KernelIdeal
import Idealize.ShloMosaic.Lib.Pipeline.Value
import Idealize.ShloMosaic.Lib.ValueIdx

noncomputable section

namespace Cert.KernelIdeal.Edge4

open Idealize.ShloMosaic Idealize.ShloMosaic.TcCoe Idealize.ShloMosaic.ValueIdx Idealize.SL.Sem
open Cert.KernelIdeal Cert.KernelIdeal.Gen

/-- The index maps over the grid's 125 points: the three row-blocked inputs and the output sit at block (t, 0) at
    point t; the eight weight windows sit at block (0, 0) at every point. -/
theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = t.val ∧ win4_11.index t (1 : Fin 2) = 0 :=
  (by decide +kernel : ∀ t : Fin grid4.N, _)

end Cert.KernelIdeal.Edge4

end
-- ==== Proof.Edge4BlkR.lean ====
/-
  The three row-blocked input windows of the edge region: the block at point t, read off the array as the region finds
  it, is rows 2000·t … 2000·t + 1999 of the array.
-/
import proofs.«156944_j45535243272652_2_alg».proof.Proof.Spec
import proofs.«156944_j45535243272652_2_alg».proof.Proof.Edge4Idx
import proofs.«156944_j45535243272652_2_alg».proof.Proof.FrameKI
import Idealize.ShloMosaic.Lib.Pipeline.Value
import Idealize.ShloMosaic.Lib.ValueIdx

noncomputable section

namespace Cert.KernelIdeal.Edge4

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 0's block at point t is rows 2000·t … 2000·t + 1999 of its array. -/
theorem blkHi_apply (c : Dev nD) (t : Fin cfg4.N) (r : Fin 2000) (k : Fin 128) (R : Fin 250000) (hR : R.val = t.val * 2000 + r.val) :
    (iblk4 V c 0 t : Vec Ideal S2000x128 .bf16) (ix2 r k) = (V c (Pipeline.arrRef spec4 0) : Spec.SE.Idx → EReal) (ix2 R k) := by
  obtain ⟨h0, h1, -, -, -, -, -, -, -, -, -, -, -, -, -, -, -, -, -, -, -, -, -, -⟩ := idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * r.val = R.val; rw [h0, hR]; omega
  | ⟨1, _⟩ => show win4_0.index t (1 : Fin 2) * 128 + 1 * k.val = k.val; rw [h1]; omega

/-- Window 1's block at point t is rows 2000·t … 2000·t + 1999 of its array. -/
theorem blkHj_apply (c : Dev nD) (t : Fin cfg4.N) (r : Fin 2000) (k : Fin 128) (R : Fin 250000) (hR : R.val = t.val * 2000 + r.val) :
    (iblk4 V c 1 t : Vec Ideal S2000x128 .bf16) (ix2 r k) = (V c (Pipeline.arrRef spec4 1) : Spec.SE.Idx → EReal) (ix2 R k) := by
  obtain ⟨-, -, h0, h1, -, -, -, -, -, -, -, -, -, -, -, -, -, -, -, -, -, -, -, -⟩ := idx_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * r.val = R.val; rw [h0, hR]; omega
  | ⟨1, _⟩ => show win4_1.index t (1 : Fin 2) * 128 + 1 * k.val = k.val; rw [h1]; omega

/-- Window 2's block at point t is rows 2000·t … 2000·t + 1999 of its one-column array. -/
theorem blkDist_apply (c : Dev nD) (t : Fin cfg4.N) (r : Fin 2000) (k : Fin 1) (R : Fin 250000) (hR : R.val = t.val * 2000 + r.val) :
    (iblk4 V c 2 t : Vec Ideal S2000x1 .f32) (ix2 r k) = (V c (Pipeline.arrRef spec4 2) : Spec.SE1.Idx → EReal) (ix2 R k) := by
  obtain ⟨-, -, -, -, h0, h1, -, -, -, -, -, -, -, -, -, -, -, -, -, -, -, -, -, -⟩ := idx_facts t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 2000 + 1 * r.val = R.val; rw [h0, hR]; omega
  | ⟨1, _⟩ => show win4_2.index t (1 : Fin 2) * 1 + 1 * k.val = k.val; rw [h1]; omega

end Cert.KernelIdeal.Edge4

end
-- ==== Proof.Edge4BlkW.lean ====
/-
  The first-stage weight windows of the edge region (the two 128×128 matrices, the length row and the bias row): the
  block at every point is the whole array as the region finds it.
-/
import proofs.«156944_j45535243272652_2_alg».proof.Proof.Spec
import proofs.«156944_j45535243272652_2_alg».proof.Proof.Edge4Idx
import proofs.«156944_j45535243272652_2_alg».proof.Proof.FrameKI
import Idealize.ShloMosaic.Lib.Pipeline.Value
import Idealize.ShloMosaic.Lib.ValueIdx

noncomputable section

namespace Cert.KernelIdeal.Edge4

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 3's block at every point is its whole array. -/
theorem blkW1a_eq (c : Dev nD) (t : Fin cfg4.N) :
    (iblk4 V c 3 t : Vec Ideal S128x128 .f32) = (V c (Pipeline.arrRef spec4 3) : Spec.SW.Idx → EReal) := by
  obtain ⟨-, -, -, -, -, -, h0, h1, -, -, -, -, -, -, -, -, -, -, -, -, -, -, -, -⟩ := idx_facts t
  funext j
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 128 + 1 * (j 0).val = (j 0).val; rw [h0]; omega
  | ⟨1, _⟩ => show win4_3.index t (1 : Fin 2) * 128 + 1 * (j 1).val = (j 1).val; rw [h1]; omega

/-- Window 4's block at every point is its whole array. -/
theorem blkW1b_eq (c : Dev nD) (t : Fin cfg4.N) :
    (iblk4 V c 4 t : Vec Ideal S128x128 .f32) = (V c (Pipeline.arrRef spec4 4) : Spec.SW.Idx → EReal) := by
  obtain ⟨-, -, -, -, -, -, -, -, h0, h1, -, -, -, -, -, -, -, -, -, -, -, -, -, -⟩ := idx_facts t
  funext j
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 128 + 1 * (j 0).val = (j 0).val; rw [h0]; omega
  | ⟨1, _⟩ => show win4_4.index t (1 : Fin 2) * 128 + 1 * (j 1).val = (j 1).val; rw [h1]; omega

/-- Window 5's block at every point is its whole array. -/
theorem blkW1c_eq (c : Dev nD) (t : Fin cfg4.N) :
    (iblk4 V c 5 t : Vec Ideal S1x128 .f32) = (V c (Pipeline.arrRef spec4 5) : Spec.SR.Idx → EReal) := by
  obtain ⟨-, -, -, -, -, -, -, -, -, -, h0, h1, -, -, -, -, -, -, -, -, -, -, -, -⟩ := idx_facts t
  funext j
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * (j 0).val = (j 0).val; rw [h0]; omega
  | ⟨1, _⟩ => show win4_5.index t (1 : Fin 2) * 128 + 1 * (j 1).val = (j 1).val; rw [h1]; omega

/-- Window 6's block at every point is its whole array. -/
theorem blkB1_eq (c : Dev nD) (t : Fin cfg4.N) :
    (iblk4 V c 6 t : Vec Ideal S1x128 .f32) = (V c (Pipeline.arrRef spec4 6) : Spec.SR.Idx → EReal) := by
  obtain ⟨-, -, -, -, -, -, -, -, -, -, -, -, h0, h1, -, -, -, -, -, -, -, -, -, -⟩ := idx_facts t
  funext j
  unfold iblk4
  rw [View.read_apply]
  show V c (Pipeline.arrRef spec4 6) _ = V c (Pipeline.arrRef spec4 6) _
  congr 1
  funext a
  apply Fin.ext
  match a with
  | ⟨0, _⟩ => show win4_6.index t (0 : Fin 2) * 1 + 1 * (j 0).val = (j 0).val; rw [h0]; omega
  | ⟨1, _⟩ => show win4_6.index t (1 : Fin 2) * 128 + 1 * (j 1).val = (j 1).val; rw [h1]; omega

end Cert.KernelIdeal.Edge4

end
-- ==== Proof.Edge4BlkX.lean ====
/-
  The second-stage and gate weight windows of the edge region (the 128×128 matrix and its bias row, the gate column and
  its one-entry bias): the block at every point is the whole array as the region finds it.
-/
import proofs.«156944_j45535243272652_2_alg».proof.Proof.Spec
import proofs.«156944_j45535243272652_2_alg».proof.Proof.Edge4Idx
import proofs.«156944_j45535243272652_2_alg».proof.Proof.FrameKI
import Idealize.ShloMosaic.Lib.Pipeline.Value
import Idealize.ShloMosaic.Lib.ValueIdx

noncomputable section

namespace Cert.KernelIdeal.Edge4

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 7's block at every point is its whole array. -/
theorem blkW2_eq (c : Dev nD) (t : Fin cfg4.N) :
    (iblk4 V c 7 t : Vec Ideal S128x128 .f32) = (V c (Pipeline.arrRef spec4 7) : Spec.SW.Idx → EReal) := by
  obtain ⟨-, -, -, -, -, -, -, -, -, -, -, -, -, -, h0, h1, -, -, -, -, -, -, -, -⟩ := idx_facts t
  funext j
  unfold iblk4
  rw [View.read_apply]
  show V c (Pipeline.arrRef spec4 7) _ = V c (Pipeline.arrRef spec4 7) _
  congr 1
  funext a
  apply Fin.ext
  match a with
  | ⟨0, _⟩ => show win4_7.index t (0 : Fin 2) * 128 + 1 * (j 0).val = (j 0).val; rw [h0]; omega
  | ⟨1, _⟩ => show win4_7.index t (1 : Fin 2) * 128 + 1 * (j 1).val = (j 1).val; rw [h1]; omega

/-- Window 8's block at every point is its whole array. -/
theorem blkB2_eq (c : Dev nD) (t : Fin cfg4.N) :
    (iblk4 V c 8 t : Vec Ideal S1x128 .f32) = (V c (Pipeline.arrRef spec4 8) : Spec.SR.Idx → EReal) := by
  obtain ⟨-, -, -, -, -, -, -, -, -, -, -, -, -, -, -, -, h0, h1, -, -, -, -, -, -⟩ := idx_facts t
  funext j
  unfold iblk4
  rw [View.read_apply]
  show V c (Pipeline.arrRef spec4 8) _ = V c (Pipeline.arrRef spec4 8) _
  congr 1
  funext a
  apply Fin.ext
  match a with
  | ⟨0, _⟩ => show win4_8.index t (0 : Fin 2) * 1 + 1 * (j 0).val = (j 0).val; rw [h0]; omega
  | ⟨1, _⟩ => show win4_8.index t (1 : Fin 2) * 128 + 1 * (j 1).val = (j 1).val; rw [h1]; omega

/-- Window 9's block at every point is its whole array. -/
theorem blkAw_eq (c : Dev nD) (t : Fin cfg4.N) :
    (iblk4 V c 9 t : Vec Ideal S128x1 .f32) = (V c (Pipeline.arrRef spec4 9) : Spec.SC.Idx → EReal) := by
  obtain ⟨-, -, -, -, -, -, -, -, -, -, -, -, -, -, -, -, -, -, h0, h1, -, -, -, -⟩ := idx_facts t
  funext j
  unfold iblk4
  rw [View.read_apply]
  show V c (Pipeline.arrRef spec4 9) _ = V c (Pipeline.arrRef spec4 9) _
  congr 1
  funext a
  apply Fin.ext
  match a with
  | ⟨0, _⟩ => show win4_9.index t (0 : Fin 2) * 128 + 1 * (j 0).val = (j 0).val; rw [h0]; omega
  | ⟨1, _⟩ => show win4_9.index t (1 : Fin 2) * 1 + 1 * (j 1).val = (j 1).val; rw [h1]; omega

/-- Window 10's block at every point is its whole array. -/
theorem blkAb_eq (c : Dev nD) (t : Fin cfg4.N) :
    (iblk4 V c 10 t : Vec Ideal S1x1 .f32) = (V c (Pipeline.arrRef spec4 10) : Spec.S11.Idx → EReal) := by
  obtain ⟨-, -, -, -, -, -, -, -, -, -, -, -, -, -, -, -, -, -, -, -, h0, h1, -, -⟩ := idx_facts t
  funext j
  unfold iblk4
  rw [View.read_apply]
  show V c (Pipeline.arrRef spec4 10) _ = V c (Pipeline.arrRef spec4 10) _
  congr 1
  funext a
  apply Fin.ext
  match a with
  | ⟨0, _⟩ => show win4_10.index t (0 : Fin 2) * 1 + 1 * (j 0).val = (j 0).val; rw [h0]; omega
  | ⟨1, _⟩ => show win4_10.index t (1 : Fin 2) * 1 + 1 * (j 1).val = (j 1).val; rw [h1]; omega

end Cert.KernelIdeal.Edge4

end
-- ==== Proof.Edge4Value.lean ====
/-
  The value of the edge region: after its 125 grid points the output array holds, in row e, the message row of edge e —
  the edge row function of rows e of the two feature arrays and of the length array, with the weight arrays. Point t
  computes rows 2000·t … 2000·t + 1999 from the same rows of its row-blocked inputs, and the 125 blocks cover the
  250000 rows.
-/
import proofs.«156944_j45535243272652_2_alg».proof.Proof.Spec
import proofs.«156944_j45535243272652_2_alg».proof.Proof.Edge4Pay
import proofs.«156944_j45535243272652_2_alg».proof.Proof.Edge4BlkR
import proofs.«156944_j45535243272652_2_alg».proof.Proof.Edge4BlkW
import proofs.«156944_j45535243272652_2_alg».proof.Proof.Edge4BlkX
import proofs.«156944_j45535243272652_2_alg».proof.Proof.FrameKI
import Idealize.ShloMosaic.Lib.Pipeline.Value
import Idealize.ShloMosaic.Lib.ValueIdx

noncomputable section

namespace Cert.KernelIdeal.Edge4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.EdgeOps

theorem hz : (![0, 0] : Fin 2 → Nat) = fun _ => 0 := funext fun a => by fin_cases a <;> rfl

/-- What the body leaves in the output block at (r, c), from the eleven input blocks: the message entry of row r. -/
theorem out_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (x9 : Vec Ideal S128x1 .f32)
    (x10 : Vec Ideal S1x1 .f32) (r : Fin 2000) (c : Fin 128) :
    GenP.out4_11 (F := Ideal) x0 x1 x2 x3 x4 x5 x6 x7 x8 x9 x10 (ix2 r c)
      = Spec.edgeRow (fun k => x0 (ix2 r k)) (fun k => x1 (ix2 r k)) (x2 (ix2 r (0 : Fin 1))) (Spec.mat x3) (Spec.mat x4)
          (Spec.rowv x5) (Spec.rowv x6) (Spec.mat x7) (Spec.rowv x8) (Spec.colv x9) (x10 (ix2 (0 : Fin 1) (0 : Fin 1))) c := by
  unfold GenP.out4_11
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x1) hz, View.ld_unit_zero (S := S1x1) hz]
  rw [pay1_apply]
  simp only [pay2_apply]
  rfl

/-- The edge row function respects equality of each of its arguments. -/
theorem edgeRow_congr {hi hi' hj hj' : Fin 128 → EReal} {d d' : EReal} {w1a w1a' w1b w1b' : Fin 128 → Fin 128 → EReal}
    {w1c w1c' b1 b1' : Fin 128 → EReal} {w2 w2' : Fin 128 → Fin 128 → EReal} {b2 b2' aw aw' : Fin 128 → EReal} {ab ab' : EReal}
    (e0 : hi = hi') (e1 : hj = hj') (e2 : d = d') (e3 : w1a = w1a') (e4 : w1b = w1b') (e5 : w1c = w1c') (e6 : b1 = b1')
    (e7 : w2 = w2') (e8 : b2 = b2') (e9 : aw = aw') (e10 : ab = ab') (c : Fin 128) :
    Spec.edgeRow hi hj d w1a w1b w1c b1 w2 b2 aw ab c = Spec.edgeRow hi' hj' d' w1a' w1b' w1c' b1' w2' b2' aw' ab' c := by
  subst e0 e1 e2 e3 e4 e5 e6 e7 e8 e9 e10; rfl

variable (V : (c : Dev nD) → (b : Ref sig .tc) → Buf (Elt Ideal) ((c : Thread nD τ).loc b))

/-- Every edge's message row, of the eleven arrays as the region finds them. -/
abbrev result (c : Dev nD) : Spec.SE.Idx → EReal :=
  Spec.edgeArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10))

/-- What the body leaves at (r, q) of the output block at point t, from the point's input blocks: the message row of
    edge R = 2000·t + r at feature q, of the arrays. -/
theorem out_blocks (c : Dev nD) (t : Fin cfg4.N) (r : Fin 2000) (q : Fin 128) (R : Fin 250000) (hR : R.val = t.val * 2000 + r.val) :
    out4_11 (F := Ideal) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (ix2 r q)
      = result V c (ix2 R q) := by
  refine (out_apply (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) r q).trans ?_
  exact edgeRow_congr (funext fun k => blkHi_apply V c t r k R hR) (funext fun k => blkHj_apply V c t r k R hR)
    (blkDist_apply V c t r (0 : Fin 1) R hR) (congrArg Spec.mat (blkW1a_eq V c t)) (congrArg Spec.mat (blkW1b_eq V c t))
    (congrArg Spec.rowv (blkW1c_eq V c t)) (congrArg Spec.rowv (blkB1_eq V c t)) (congrArg Spec.mat (blkW2_eq V c t))
    (congrArg Spec.rowv (blkB2_eq V c t)) (congrArg Spec.colv (blkAw_eq V c t))
    (congrFun (blkAb_eq V c t) (ix2 (0 : Fin 1) (0 : Fin 1))) q

/-- WHAT POINT t WRITES BACK is block t of `result`: row r of the block is the message row of edge 2000·t + r. -/
theorem flushed_eq (c : Dev nD) (t : Fin cfg4.N) :
    (dat4 (F := Ideal) V c).flushed 11 t = ((cfg4.win 11).blk t).view.read (Elt Ideal) (result V c) := by
  unfold Dat.flushed
  rw [after4_11]
  have hN : cfg4.N = 125 := N_4
  funext j
  obtain ⟨r, q, rfl⟩ : ∃ (r : Fin 2000) (q : Fin 128), j = ix2 r q := ⟨j 0, j 1, eq_ix2 j⟩
  have ht : t.val < 125 := hN ▸ t.isLt
  obtain ⟨R, hR⟩ : ∃ R : Fin 250000, R.val = t.val * 2000 + r.val := ⟨⟨t.val * 2000 + r.val, by have := r.isLt; omega⟩, rfl⟩
  have hemb : ((cfg4.win 11).blk t).view.emb (ix2 r q) = (ix2 R q : Spec.SE.Idx) := by
    obtain ⟨-, -, -, -, -, -, -, -, -, -, -, -, -, -, -, -, -, -, -, -, -, -, h0, h1⟩ := idx_facts t
    funext a
    apply Fin.ext
    match a with
    | ⟨0, _⟩ => show win4_11.index t (0 : Fin 2) * 2000 + 1 * r.val = R.val; rw [h0, hR]; omega
    | ⟨1, _⟩ => show win4_11.index t (1 : Fin 2) * 128 + 1 * q.val = q.val; rw [h1]; omega
  refine (out_blocks V c t r q R hR).trans ?_
  rw [View.read_apply]
  show _ = result V c (((cfg4.win 11).blk t).view.emb (ix2 r q))
  rw [hemb]
/-- An index of the output array is in point t's block iff each coordinate is in the block's range on its axis. -/
theorem mem_blk (t : Fin cfg4.N) (i : Spec.SE.Idx) :
    i ∈ ((cfg4.win 11).blk t).view.set ↔ ∀ a : Fin 2, win4_11.index t a * S2000x128.size a ≤ (i a).val ∧ (i a).val < win4_11.index t a * S2000x128.size a + S2000x128.size a := by
  show i ∈ ((View.whole (Pipeline.arrRef spec4 11)).slice (win4_11.rect t)).set ↔ _
  rw [View.set_slice_whole, Rect.mem_set_unit]
  exact Iff.rfl

/-- Every row of the output array is in some point's block: row e is in block e / 2000. -/
theorem cover (i : Spec.SE.Idx) : ∃ t : Fin cfg4.N, (cfg4.win 11).flush t = true ∧ i ∈ ((cfg4.win 11).blk t).view.set := by
  have hN : cfg4.N = 125 := N_4
  have hi0 : (i 0).val < 250000 := (i 0).isLt
  have hi1 : (i 1).val < 128 := (i 1).isLt
  let t : Fin cfg4.N := ⟨(i 0).val / 2000, by rw [hN]; omega⟩
  have htv : t.val = (i 0).val / 2000 := rfl
  obtain ⟨-, -, -, -, -, -, -, -, -, -, -, -, -, -, -, -, -, -, -, -, -, -, h0, h1⟩ := idx_facts t
  refine ⟨t, flush4_11 t, ?_⟩
  rw [mem_blk]
  intro a
  match a with
  | ⟨0, _⟩ => show win4_11.index t (0 : Fin 2) * 2000 ≤ (i 0).val ∧ (i 0).val < win4_11.index t (0 : Fin 2) * 2000 + 2000; rw [h0, htv]; omega
  | ⟨1, _⟩ => show win4_11.index t (1 : Fin 2) * 128 ≤ (i 1).val ∧ (i 1).val < win4_11.index t (1 : Fin 2) * 128 + 128; rw [h1]; omega

/-- THE OUTPUT ARRAY after the region's run: every edge's message row. -/
theorem value (c : Dev nD) :
    (dat4 (F := Ideal) V c).arrAt 11 cfg4.N
      = Spec.edgeArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) :=
  (dat4 (F := Ideal) V c).arrAt_eq_of_cover 11 (result V c) (fun t _ => flushed_eq V c t) cover

end Cert.KernelIdeal.Edge4

end
-- ==== Proof.Node5Ops.lean ====
/-
  Single operations of the node kernel's body read at an index, at the extended reals.

  * A sum along the lanes: reducing an a×b array over its second axis gives, at row r, the sum over the b
    entries of row r.
  * A column with its unit axis kept: casting a length-a vector to a×1 reads, at (r, 0), entry r; broadcasting an
    a×1 column to a×b reads, at (r, c), the column's entry (r, 0).
  * The matrix product of the body: a 1000×128 by 128×128 product into a zero accumulator reads, at (r, c), the
    sum over k of left (r, k) times right (k, c).
-/
import Idealize.ShloMosaic.PureOps.Ideal.Laws
import Idealize.ShloMosaic.Lib.ValueIdx
import Idealize.ShloMosaic.Lib.ValueLayout
import proofs.«156944_j45535243272652_2_alg».proof.KernelIdeal

noncomputable section

namespace Cert.KernelIdeal.Node5

open Idealize.ShloMosaic Idealize.ShloMosaic.ValueIdx Cert.KernelIdeal

/-! ## A sum along the lanes -/

/-- Reducing an a×b array by addition over axis 1 from the zero word: at row r the sum of row r's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun c => Fin.ext ?_)
  match c with
  | ⟨0, _⟩ => rfl
  | ⟨1, _⟩ => rfl

/-! ## A column with its unit axis kept -/

variable {α : Type}

/-- A length-a vector cast to a×1 reads, at (r, u), entry r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An a×1 column broadcast to a×b reads, at (r, c), the column's entry in row r. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Pointwise unary operations -/

/-- The logistic function of a vector, at an index. -/
theorem logistic_apply {s : Shape} {φ : FTy} (x : FVec Ideal s φ) (i : s.Idx) : logistic x i = Ideal.logistic (x i) := rfl

/-- The reciprocal square root of a vector, at an index. -/
theorem rsqrt_apply {s : Shape} {φ : FTy} (x : FVec Ideal s φ) (i : s.Idx) : rsqrt x i = Ideal.rsqrt (x i) := rfl

/-! ## The body's matrix product -/

variable [Facts₀]

/-- The row coordinate of the left operand's index is the result's row. -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch from List.not_mem_nil),
    dif_pos (show (0 : Fin S1000x128.rank) ∈ dot_S1000x128_S128x128_S1000x128_1_0_0_1_n_n.lhsNonContracting from List.mem_singleton_self _)]
  rfl

/-- The column coordinate of the left operand's index is the contracted coordinate. -/
theorem lhs_1 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.lhsIdx i q 1).val = (q ⟨0, h0⟩).val :=
  dot_S1000x128_S128x128_S1000x128_1_0_0_1_n_n.lhsIdx_val_of_single rfl i q

/-- The row coordinate of the right operand's index is the contracted coordinate. -/
theorem rhs_0 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.rhsIdx i q 0).val = (q ⟨0, h0⟩).val :=
  dot_S1000x128_S128x128_S1000x128_1_0_0_1_n_n.rhsIdx_val_of_single rfl i q

/-- The column coordinate of the right operand's index is the result's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch from List.not_mem_nil),
    dif_pos (show (1 : Fin S128x128.rank) ∈ dot_S1000x128_S128x128_S1000x128_1_0_0_1_n_n.rhsNonContracting from List.mem_singleton_self _)]
  rfl

/-- The product into a zero accumulator, at (r, c): the sum over k of left (r, k) times right (k, c). -/
theorem matmul_apply {φ₁ φ₂ : FTy} (lhs : FVec Ideal S1000x128 φ₁) (rhs : FVec Ideal S128x128 φ₂) (r : Fin 1000) (c : Fin 128) :
    matmul dot_S1000x128_S128x128_S1000x128_1_0_0_1_n_n none lhs rhs (constant (F := Ideal) S1000x128 .f32 0x00000000#32) (ix2 r c)
      = ∑ k : Fin 128, lhs (ix2 r k) * rhs (ix2 k c) := by
  refine (Ideal.matmul_constant_zero_apply dot_S1000x128_S128x128_S1000x128_1_0_0_1_n_n none lhs rhs (ix2 r c)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r c)
      ((contrEquiv1 dot_S1000x128_S128x128_S1000x128_1_0_0_1_n_n 128 rfl rfl).symm k) = ix2 r k := funext fun a => Fin.ext (by
    match a with
    | ⟨0, _⟩ => exact lhs_0 _ _
    | ⟨1, _⟩ => exact (lhs_1 _ _ _).trans hk)
  have er : dot_S1000x128_S128x128_S1000x128_1_0_0_1_n_n.rhsIdx (ix2 r c)
      ((contrEquiv1 dot_S1000x128_S128x128_S1000x128_1_0_0_1_n_n 128 rfl rfl).symm k) = ix2 k c := funext fun a => Fin.ext (by
    match a with
    | ⟨0, _⟩ => exact (rhs_0 _ _ _).trans hk
    | ⟨1, _⟩ => exact rhs_1 _ _)
  rw [el, er]

end Cert.KernelIdeal.Node5

end
-- ==== Proof.Node5Pay.lean ====
/-
  The node kernel's body, read entry by entry.

  The body takes a block of 1000 rows of node features and of aggregated messages with the layer's weights, and
  leaves, in row r and column c, the normalised node update of row r: with
  `nin k = Σⱼ h j · w1a j k + Σⱼ agg j · w1b j k + b1 k` and `hr c = h c + (Σₖ silu (nin k) · w2 k c + b2 c)`,
  the mean `mu` of `hr` over its 128 entries, the mean `var` of `(hr c − mu)²`, the entry is
  `(hr c − mu) · rsqrt (var + ε) · g c + b c`. Each stage of the body is read here at an index: the residual
  row (two products, a bias, the activation, a third product, a bias, the residual), the mean column (a sum along
  the lanes and a quotient by 128), the sums of squared deviations, and the normalisation with gain and bias.
-/
import proofs.«156944_j45535243272652_2_alg».proof.Proof.Spec
import proofs.«156944_j45535243272652_2_alg».proof.Proof.Node5Ops
import proofs.«156944_j45535243272652_2_alg».proof.Proof.Gen.KernelIdeal.Skeleton

noncomputable section

namespace Cert.KernelIdeal.Node5

open Idealize.ShloMosaic Idealize.ShloMosaic.ValueIdx Cert.KernelIdeal Cert.KernelIdeal.Gen

/-! ## The stages of the body at an index -/

/-- The residual row: entry (r, c) of the first stage is the node update of row r of the two blocks. -/
theorem pay2_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (c : Fin 128) :
    k5_pay2 (F := Ideal) v0 v2 v5 v10 v15 v22 v26 (ix2 r c)
      = Cert.Spec.nodeHr (fun k => v0 (ix2 r k)) (fun k => v2 (ix2 r k)) (Cert.Spec.mat v5) (Cert.Spec.mat v10)
          (Cert.Spec.rowv v15) (Cert.Spec.mat v22) (Cert.Spec.rowv v26) c := by
  unfold k5_pay2
  simp only [shapeCast_self, addf_apply, mulf_apply, truncf_apply, logistic_apply, Node5.matmul_apply, broadcastTo_1b_ab_apply]
  rfl

/-- The mean column: entry (r, 0) is the mean of row r of the first stage. -/
theorem pay3_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (u : Fin 1) :
    k5_pay3 (F := Ideal) v0 v2 v5 v10 v15 v22 v26 (ix2 r u)
      = Cert.Spec.rowMean (fun c => k5_pay2 (F := Ideal) v0 v2 v5 v10 v15 v22 v26 (ix2 r c)) := by
  unfold k5_pay3
  simp only [divf_apply, broadcast_apply, shapeCast_a_a1_apply]
  exact congrArg (fun s => Ideal.div s _) (laneSum_apply (a := 1000) (b := 128) _ _ _ _ r)

/-- The sum of squared deviations: entry r is the sum over row r of the squares of (entry minus the row's mean). -/
theorem pay4_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) :
    k5_pay4 (F := Ideal) v0 v2 v5 v10 v15 v22 v26 (ix1 r)
      = ∑ c : Fin 128, (k5_pay2 (F := Ideal) v0 v2 v5 v10 v15 v22 v26 (ix2 r c) - k5_pay3 (F := Ideal) v0 v2 v5 v10 v15 v22 v26 (ix2 r (0 : Fin 1)))
          * (k5_pay2 (F := Ideal) v0 v2 v5 v10 v15 v22 v26 (ix2 r c) - k5_pay3 (F := Ideal) v0 v2 v5 v10 v15 v22 v26 (ix2 r (0 : Fin 1))) := by
  unfold k5_pay4
  refine (laneSum_apply (a := 1000) (b := 128) _ _ _ _ r).trans ?_
  simp only [mulf_apply, subf_apply, broadcastTo_a1_ab_apply]

/-- The normalisation: from a residual block, its mean column and its sums of squared deviations. -/
theorem pay1_apply (v30 : FVec Ideal S1000x128 .f32) (v34 : FVec Ideal S1000x1 .f32) (v38 : FVec Ideal S1000 .f32)
    (v49 v53 : Vec Ideal S1x128 .f32) (r : Fin 1000) (c : Fin 128) :
    k5_pay1 (F := Ideal) v30 v34 v38 v49 v53 (ix2 r c)
      = (v30 (ix2 r c) - v34 (ix2 r (0 : Fin 1))) * Ideal.rsqrt (Ideal.div (v38 (ix1 r)) Cert.Spec.c128 + Cert.Spec.cEps)
          * v49 (ix2 (0 : Fin 1) c) + v53 (ix2 (0 : Fin 1) c) := by
  unfold k5_pay1
  simp only [shapeCast_self, addf_apply, mulf_apply, subf_apply, divf_apply, rsqrt_apply, broadcast_apply, shapeCast_a_a1_apply,
    broadcastTo_a1_ab_apply, broadcastTo_1b_ab_apply]
  rfl

/-- The body's result at (r, c): the normalised node update of row r. -/
theorem body_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    k5_pay1 (F := Ideal) (k5_pay2 x0 x1 x2 x3 x4 x5 x6) (k5_pay3 x0 x1 x2 x3 x4 x5 x6) (k5_pay4 x0 x1 x2 x3 x4 x5 x6) x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  have h2 : (fun k => k5_pay2 (F := Ideal) x0 x1 x2 x3 x4 x5 x6 (ix2 r k))
      = Cert.Spec.nodeHr (fun k => x0 (ix2 r k)) (fun k => x1 (ix2 r k)) (Cert.Spec.mat x2) (Cert.Spec.mat x3)
          (Cert.Spec.rowv x4) (Cert.Spec.mat x5) (Cert.Spec.rowv x6) := funext fun k => pay2_apply x0 x1 x2 x3 x4 x5 x6 r k
  rw [pay1_apply, pay4_apply, pay3_apply, h2, congrFun h2 c]
  simp only [pay2_apply]
  rfl

end Cert.KernelIdeal.Node5

end
-- ==== Proof.Node5Blocks.lean ====
/-
  The node region's blocks, read against the whole arrays.

  The output window's staging buffer after the body is one store of the body's result, so at (r, c) it holds the
  normalised node update of row r of the two row blocks (`out_apply`). At grid point t the feature and message
  windows hold rows 1000·t … 1000·t + 999 of their arrays (`rows0`, `rows1`: a block's element sits at block index
  times block size plus its coordinate inside the block), and each of the seven weight windows holds its whole array
  at every point (`whole2` … `whole8`: block index (0, 0)). So the buffer at (p, q) is the layer's node update of
  the arrays at row 1000·t + p, column q (`block_apply`).
-/
import proofs.«156944_j45535243272652_2_alg».proof.Proof.Spec
import proofs.«156944_j45535243272652_2_alg».proof.Proof.Node5Pay
import proofs.«156944_j45535243272652_2_alg».proof.Proof.FrameKI
import Idealize.ShloMosaic.Lib.Pipeline.Value
import Idealize.ShloMosaic.Lib.Tactic

set_option maxRecDepth 16384

noncomputable section

namespace Cert.KernelIdeal.Node5

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The staging buffer after the body, at an index -/

theorem hz : (![0, 0] : Fin 2 → Nat) = fun _ => 0 := funext fun a => by fin_cases a <;> rfl

/-- The output window's buffer after the body holds, in row r and column c, the normalised node update of row r of
    the two row blocks with the weight blocks. -/
theorem out_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    out5_9 (F := Ideal) x0 x1 x2 x3 x4 x5 x6 x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  unfold out5_9
  rw [View.canon_unit_zero hz]
  simp only [View.ld_unit_zero (S := S1000x128) hz, View.ld_unit_zero (S := S128x128) hz, View.ld_unit_zero (S := S1x128) hz]
  exact body_apply x0 x1 x2 x3 x4 x5 x6 x7 x8 r c

/-- A block of 1000 rows read through row offset 1000·n, against the whole arrays: if the two row blocks are rows
    1000·n … 1000·n + 999 of the feature and message arrays and the weight blocks are the weight arrays, the buffer
    after the body at (p, q) is the layer's node update of the arrays at row 1000·n + p, column q. -/
theorem block_apply (h agg : S10000x128.Idx → EReal) (w1a w1b : S128x128.Idx → EReal) (b1 : S1x128.Idx → EReal)
    (w2 : S128x128.Idx → EReal) (b2 g b : S1x128.Idx → EReal)
    (x0 x1 : Vec Ideal S1000x128 .f32) (x2 x3 : Vec Ideal S128x128 .f32) (x4 : Vec Ideal S1x128 .f32)
    (x5 : Vec Ideal S128x128 .f32) (x6 x7 x8 : Vec Ideal S1x128 .f32) (n : ℕ)
    (e0 : ∀ (p : Fin 1000) (k : Fin 128) (i : S10000x128.Idx), (i 0).val = 1000 * n + p.val → (i 1).val = k.val → x0 (ix2 p k) = h i)
    (e1 : ∀ (p : Fin 1000) (k : Fin 128) (i : S10000x128.Idx), (i 0).val = 1000 * n + p.val → (i 1).val = k.val → x1 (ix2 p k) = agg i)
    (e2 : x2 = w1a) (e3 : x3 = w1b) (e4 : x4 = b1) (e5 : x5 = w2) (e6 : x6 = b2) (e7 : x7 = g) (e8 : x8 = b)
    (y : S1000x128.Idx) (i : S10000x128.Idx) (hi0 : (i 0).val = 1000 * n + (y 0).val) (hi1 : (i 1).val = (y 1).val) :
    out5_9 (F := Ideal) x0 x1 x2 x3 x4 x5 x6 x7 x8 y = Cert.Spec.nodeArr h agg w1a w1b b1 w2 b2 g b i := by
  subst e2 e3 e4 e5 e6 e7 e8
  obtain ⟨p, q, rfl⟩ : ∃ (p : Fin 1000) (q : Fin 128), y = ix2 p q := ⟨y 0, y 1, eq_ix2 y⟩
  rw [out_apply]
  have hq : q = i 1 := Fin.ext hi1.symm
  have hrow0 : (fun k => x0 (ix2 p k)) = fun k => h (ix2 (i 0) k) := funext fun k => e0 p k (ix2 (i 0) k) hi0 rfl
  have hrow1 : (fun k => x1 (ix2 p k)) = fun k => agg (ix2 (i 0) k) := funext fun k => e1 p k (ix2 (i 0) k) hi0 rfl
  rw [hrow0, hrow1, hq]
  rfl

/-! ## Where each window's block sits in its array -/

/-- The row-blocked windows (features, messages, result) are at block row t at point t; every weight window is at
    block (0, 0) at every point. -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = t.val ∧ win5_9.index t (1 : Fin 2) = 0) :=
  (by decide +kernel : ∀ t : Fin grid5.N, _)

/-- The feature window's block at point t is rows 1000·t … 1000·t + 999 of the feature array. -/
theorem rows0 (c : Dev nD) (t : Fin cfg5.N) (p : Fin 1000) (k : Fin 128) (i : S10000x128.Idx)
    (hi0 : (i 0).val = 1000 * t.val + p.val) (hi1 : (i 1).val = k.val) :
    (iblk5 (F := Ideal) V c 0 t : Vec Ideal S1000x128 .f32) (ix2 p k) = (V c (Pipeline.arrRef spec5 0) : S10000x128.Idx → EReal) i := by
  obtain ⟨⟨a0, a1⟩, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 1000 + 1 * p.val = (i 0).val; rw [a0, hi0]; omega
  | ⟨1, _⟩ => show win5_0.index t (1 : Fin 2) * 128 + 1 * k.val = (i 1).val; rw [a1, hi1]; omega

/-- The message window's block at point t is rows 1000·t … 1000·t + 999 of the message array. -/
theorem rows1 (c : Dev nD) (t : Fin cfg5.N) (p : Fin 1000) (k : Fin 128) (i : S10000x128.Idx)
    (hi0 : (i 0).val = 1000 * t.val + p.val) (hi1 : (i 1).val = k.val) :
    (iblk5 (F := Ideal) V c 1 t : Vec Ideal S1000x128 .f32) (ix2 p k) = (V c (Pipeline.arrRef spec5 1) : S10000x128.Idx → EReal) i := by
  obtain ⟨-, ⟨a0, a1⟩, -⟩ := idx_facts t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1000 + 1 * p.val = (i 0).val; rw [a0, hi0]; omega
  | ⟨1, _⟩ => show win5_1.index t (1 : Fin 2) * 128 + 1 * k.val = (i 1).val; rw [a1, hi1]; omega

/-- The first product's weight window's block is its whole array at every point. -/
theorem whole2 (c : Dev nD) (t : Fin cfg5.N) :
    (iblk5 (F := Ideal) V c 2 t : Vec Ideal S128x128 .f32) = (V c (Pipeline.arrRef spec5 2) : S128x128.Idx → EReal) := by
  obtain ⟨-, -, ⟨a0, a1⟩, -⟩ := idx_facts t
  funext j
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 128 + 1 * (j 0).val = (j 0).val; rw [a0]; omega
  | ⟨1, _⟩ => show win5_2.index t (1 : Fin 2) * 128 + 1 * (j 1).val = (j 1).val; rw [a1]; omega

/-- The second product's weight window's block is its whole array at every point. -/
theorem whole3 (c : Dev nD) (t : Fin cfg5.N) :
    (iblk5 (F := Ideal) V c 3 t : Vec Ideal S128x128 .f32) = (V c (Pipeline.arrRef spec5 3) : S128x128.Idx → EReal) := by
  obtain ⟨-, -, -, ⟨a0, a1⟩, -⟩ := idx_facts t
  funext j
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 128 + 1 * (j 0).val = (j 0).val; rw [a0]; omega
  | ⟨1, _⟩ => show win5_3.index t (1 : Fin 2) * 128 + 1 * (j 1).val = (j 1).val; rw [a1]; omega

/-- The first bias window's block is its whole array at every point. -/
theorem whole4 (c : Dev nD) (t : Fin cfg5.N) :
    (iblk5 (F := Ideal) V c 4 t : Vec Ideal S1x128 .f32) = (V c (Pipeline.arrRef spec5 4) : S1x128.Idx → EReal) := by
  obtain ⟨-, -, -, -, ⟨a0, a1⟩, -⟩ := idx_facts t
  funext j
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (j 0).val = (j 0).val; rw [a0]; omega
  | ⟨1, _⟩ => show win5_4.index t (1 : Fin 2) * 128 + 1 * (j 1).val = (j 1).val; rw [a1]; omega

/-- The third product's weight window's block is its whole array at every point. -/
theorem whole5 (c : Dev nD) (t : Fin cfg5.N) :
    (iblk5 (F := Ideal) V c 5 t : Vec Ideal S128x128 .f32) = (V c (Pipeline.arrRef spec5 5) : S128x128.Idx → EReal) := by
  obtain ⟨-, -, -, -, -, ⟨a0, a1⟩, -⟩ := idx_facts t
  funext j
  unfold iblk5
  rw [View.read_apply]
  show V c (Pipeline.arrRef spec5 5) _ = V c (Pipeline.arrRef spec5 5) _
  congr 1
  funext a
  apply Fin.ext
  match a with
  | ⟨0, _⟩ => show win5_5.index t (0 : Fin 2) * 128 + 1 * (j 0).val = (j 0).val; rw [a0]; omega
  | ⟨1, _⟩ => show win5_5.index t (1 : Fin 2) * 128 + 1 * (j 1).val = (j 1).val; rw [a1]; omega

/-- The second bias window's block is its whole array at every point. -/
theorem whole6 (c : Dev nD) (t : Fin cfg5.N) :
    (iblk5 (F := Ideal) V c 6 t : Vec Ideal S1x128 .f32) = (V c (Pipeline.arrRef spec5 6) : S1x128.Idx → EReal) := by
  obtain ⟨-, -, -, -, -, -, ⟨a0, a1⟩, -⟩ := idx_facts t
  funext j
  unfold iblk5
  rw [View.read_apply]
  show V c (Pipeline.arrRef spec5 6) _ = V c (Pipeline.arrRef spec5 6) _
  congr 1
  funext a
  apply Fin.ext
  match a with
  | ⟨0, _⟩ => show win5_6.index t (0 : Fin 2) * 1 + 1 * (j 0).val = (j 0).val; rw [a0]; omega
  | ⟨1, _⟩ => show win5_6.index t (1 : Fin 2) * 128 + 1 * (j 1).val = (j 1).val; rw [a1]; omega

/-- The gain window's block is its whole array at every point. -/
theorem whole7 (c : Dev nD) (t : Fin cfg5.N) :
    (iblk5 (F := Ideal) V c 7 t : Vec Ideal S1x128 .f32) = (V c (Pipeline.arrRef spec5 7) : S1x128.Idx → EReal) := by
  obtain ⟨-, -, -, -, -, -, -, ⟨a0, a1⟩, -⟩ := idx_facts t
  funext j
  unfold iblk5
  rw [View.read_apply]
  show V c (Pipeline.arrRef spec5 7) _ = V c (Pipeline.arrRef spec5 7) _
  congr 1
  funext a
  apply Fin.ext
  match a with
  | ⟨0, _⟩ => show win5_7.index t (0 : Fin 2) * 1 + 1 * (j 0).val = (j 0).val; rw [a0]; omega
  | ⟨1, _⟩ => show win5_7.index t (1 : Fin 2) * 128 + 1 * (j 1).val = (j 1).val; rw [a1]; omega

/-- The normalisation bias window's block is its whole array at every point. -/
theorem whole8 (c : Dev nD) (t : Fin cfg5.N) :
    (iblk5 (F := Ideal) V c 8 t : Vec Ideal S1x128 .f32) = (V c (Pipeline.arrRef spec5 8) : S1x128.Idx → EReal) := by
  obtain ⟨-, -, -, -, -, -, -, -, ⟨a0, a1⟩, -⟩ := idx_facts t
  funext j
  unfold iblk5
  rw [View.read_apply]
  show V c (Pipeline.arrRef spec5 8) _ = V c (Pipeline.arrRef spec5 8) _
  congr 1
  funext a
  apply Fin.ext
  match a with
  | ⟨0, _⟩ => show win5_8.index t (0 : Fin 2) * 1 + 1 * (j 0).val = (j 0).val; rw [a0]; omega
  | ⟨1, _⟩ => show win5_8.index t (1 : Fin 2) * 128 + 1 * (j 1).val = (j 1).val; rw [a1]; omega

end Cert.KernelIdeal.Node5

end
-- ==== Proof.Node5Value.lean ====
/-
  The node region's value: the result array after the region's ten grid points.

  Point t writes back block t of the result window, which is rows 1000·t … 1000·t + 999 of one function of the
  arrays the region finds, the layer's node update (`flushed_eq`). The ten blocks cover the 10000 rows: row i is in
  the block of point i / 1000 (`cover`). So the array ends holding that function everywhere (`value`).
-/
import proofs.«156944_j45535243272652_2_alg».proof.Proof.Spec
import proofs.«156944_j45535243272652_2_alg».proof.Proof.Node5Blocks
import proofs.«156944_j45535243272652_2_alg».proof.Proof.FrameKI
import Idealize.ShloMosaic.Lib.Pipeline.Value
import Idealize.ShloMosaic.Lib.Tactic

set_option maxRecDepth 16384

noncomputable section

namespace Cert.KernelIdeal.Node5

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- What the region leaves in its result array: the layer's node update of the arrays the region finds. -/
abbrev outArr (c : Dev nD) : S10000x128.Idx → EReal :=
  Cert.Spec.nodeArr (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6)) (V c (Pipeline.arrRef spec5 7)) (V c (Pipeline.arrRef spec5 8))

/-- What point t writes back is block t (rows 1000·t … 1000·t + 999) of that array. -/
theorem flushed_eq (c : Dev nD) (t : Fin cfg5.N) :
    (dat5 (F := Ideal) V c).flushed 9 t = ((cfg5.win 9).blk t).view.read (Elt Ideal) (outArr V c) := by
  obtain ⟨-, -, -, -, -, -, -, -, -, ⟨a0, a1⟩⟩ := idx_facts t
  show (cfg5.win 9).cut (grid5.coords t) ((dat5 (F := Ideal) V c).after 9 t) = _
  rw [after5_9]
  funext y
  show out5_9 (F := Ideal) (iblk5 V c 0 t) (iblk5 V c 1 t) (iblk5 V c 2 t) (iblk5 V c 3 t) (iblk5 V c 4 t) (iblk5 V c 5 t)
      (iblk5 V c 6 t) (iblk5 V c 7 t) (iblk5 V c 8 t) y = outArr V c (((cfg5.win 9).blk t).view.emb y)
  exact block_apply (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6)) (V c (Pipeline.arrRef spec5 7)) (V c (Pipeline.arrRef spec5 8))
    (iblk5 V c 0 t) (iblk5 V c 1 t) (iblk5 V c 2 t) (iblk5 V c 3 t) (iblk5 V c 4 t) (iblk5 V c 5 t)
    (iblk5 V c 6 t) (iblk5 V c 7 t) (iblk5 V c 8 t) t.val
    (fun p k i h0 h1 => rows0 V c t p k i h0 h1) (fun p k i h0 h1 => rows1 V c t p k i h0 h1)
    (whole2 V c t) (whole3 V c t) (whole4 V c t) (whole5 V c t) (whole6 V c t) (whole7 V c t) (whole8 V c t)
    y (((cfg5.win 9).blk t).view.emb y)
    (by show win5_9.index t (0 : Fin 2) * 1000 + 1 * (y 0).val = 1000 * t.val + (y 0).val; rw [a0]; omega)
    (by show win5_9.index t (1 : Fin 2) * 128 + 1 * (y 1).val = (y 1).val; rw [a1]; omega)

/-- An index of the result array is in point t's block iff each coordinate is in the block's range on its axis. -/
theorem mem_blk (t : Fin cfg5.N) (i : S10000x128.Idx) :
    i ∈ ((cfg5.win 9).blk t).view.set ↔ ∀ a : Fin 2, win5_9.index t a * S1000x128.size a ≤ (i a).val ∧ (i a).val < win5_9.index t a * S1000x128.size a + S1000x128.size a := by
  show i ∈ ((View.whole (Pipeline.arrRef spec5 9)).slice (win5_9.rect t)).set ↔ _
  rw [View.set_slice_whole, Rect.mem_set_unit]
  exact Iff.rfl

/-- Every row of the result array is in the block of the point numbered by the row's thousand. -/
theorem cover (i : S10000x128.Idx) : ∃ t : Fin cfg5.N, (cfg5.win 9).flush t = true ∧ i ∈ ((cfg5.win 9).blk t).view.set := by
  have hi0 : (i 0).val < 10000 := (i 0).isLt
  have hi1 : (i 1).val < 128 := (i 1).isLt
  have hN : grid5.N = 10 := N_5
  have ht : (i 0).val / 1000 < cfg5.N := by show _ < grid5.N; rw [hN]; omega
  obtain ⟨-, -, -, -, -, -, -, -, -, ⟨a0, a1⟩⟩ := idx_facts ⟨(i 0).val / 1000, ht⟩
  refine ⟨⟨(i 0).val / 1000, ht⟩, flush5_9 _, ?_⟩
  rw [mem_blk]
  intro a
  match a with
  | ⟨0, _⟩ =>
    show win5_9.index ⟨(i 0).val / 1000, ht⟩ (0 : Fin 2) * 1000 ≤ (i 0).val ∧ (i 0).val < win5_9.index ⟨(i 0).val / 1000, ht⟩ (0 : Fin 2) * 1000 + 1000
    rw [a0]; show (i 0).val / 1000 * 1000 ≤ (i 0).val ∧ (i 0).val < (i 0).val / 1000 * 1000 + 1000; omega
  | ⟨1, _⟩ =>
    show win5_9.index ⟨(i 0).val / 1000, ht⟩ (1 : Fin 2) * 128 ≤ (i 1).val ∧ (i 1).val < win5_9.index ⟨(i 0).val / 1000, ht⟩ (1 : Fin 2) * 128 + 128
    rw [a1]; omega

/-- THE REGION'S VALUE: after its ten points the result array holds the layer's node update of the arrays the region
    found, row by row. -/
theorem value (c : Dev nD) :
    (dat5 (F := Ideal) V c).arrAt 9 cfg5.N
      = Cert.Spec.nodeArr (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) (V c (Pipeline.arrRef spec5 7)) (V c (Pipeline.arrRef spec5 8)) :=
  (dat5 (F := Ideal) V c).arrAt_eq_of_cover 9 (outArr V c) (fun t _ => flushed_eq V c t) cover

end Cert.KernelIdeal.Node5

end
-- ==== Proof.Edge6Pay.lean ====
/-
  The edge kernel's arithmetic at one element of its output block. At row r and feature c the body computes, from row r
  of the two feature blocks and of the length block and from the weight blocks: the three-part affine form and its
  activation, the second affine stage and its activation, the row's gate, and the gated entry. Every block product is
  into a zero block, so it is the plain sum over the 128 contracted positions; a change of float format is the
  identity on extended reals.
-/
import proofs.«156944_j45535243272652_2_alg».proof.Proof.Spec
import proofs.«156944_j45535243272652_2_alg».proof.Proof.EdgeOps
import proofs.«156944_j45535243272652_2_alg».proof.Proof.Gen.KernelIdeal.Skeleton

noncomputable section

namespace Cert.KernelIdeal.Edge6

open Idealize.ShloMosaic Idealize.ShloMosaic.ValueIdx
open Cert.KernelIdeal Cert.KernelIdeal.EdgeOps

/-- The first two stages of the body at (r, c): the second stage's activated row entry, from row r of the two feature
    blocks and of the length block and from the weight blocks. -/
theorem pay2_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (r : Fin 2000) (c : Fin 128) :
    Gen.k6_pay2 (F := Ideal) x0 x1 x2 x3 x4 x5 x6 x7 x8 (ix2 r c)
      = Spec.edgeM2 (fun k => Spec.silu (Spec.edgeEa (fun j => x0 (ix2 r j)) (fun j => x1 (ix2 r j)) (x2 (ix2 r (0 : Fin 1)))
          (Spec.mat x3) (Spec.mat x4) (Spec.rowv x5) (Spec.rowv x6) k)) (Spec.mat x7) (Spec.rowv x8) c := by
  unfold Gen.k6_pay2
  simp only [shapeCast_self, mulf_apply, addf_apply, truncf_apply, logistic_apply, matmulW_apply, bcastCol_apply, bcastRow_apply]
  rfl

/-- The last stage at (r, c): the second stage's entry times the row's gate. -/
theorem pay1_apply (v : FVec Ideal S2000x128 .f32) (x9 : Vec Ideal S128x1 .f32) (x10 : Vec Ideal S1x1 .f32) (r : Fin 2000) (c : Fin 128) :
    Gen.k6_pay1 (F := Ideal) v x9 x10 (ix2 r c)
      = v (ix2 r c) * Spec.edgeAtt (fun k => v (ix2 r k)) (Spec.colv x9) (x10 (ix2 (0 : Fin 1) (0 : Fin 1))) := by
  unfold Gen.k6_pay1
  simp only [shapeCast_self, mulf_apply, addf_apply, truncf_apply, logistic_apply, matmulA_apply, bcastCol_apply, bcastOne_apply]
  rfl

end Cert.KernelIdeal.Edge6

end
-- ==== Proof.Edge6Idx.lean ====
/-
  The edge region's index maps, decided once over its 125 grid points: at point t the two feature windows, the length
  window and the output window are at row block t; the eight weight windows are at their one block.
-/
import proofs.«156944_j45535243272652_2_alg».proof.Proof.Gen.KernelIdeal
import Idealize.ShloMosaic.Lib.Pipeline.Value
import Idealize.ShloMosaic.Lib.ValueIdx

noncomputable section

namespace Cert.KernelIdeal.Edge6

open Idealize.ShloMosaic Idealize.ShloMosaic.TcCoe Idealize.ShloMosaic.ValueIdx Idealize.SL.Sem
open Cert.KernelIdeal Cert.KernelIdeal.Gen

/-- The index maps over the grid's 125 points: the three row-blocked inputs and the output sit at block (t, 0) at
    point t; the eight weight windows sit at block (0, 0) at every point. -/
theorem idx_facts : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0
    ∧ win6_11.index t (0 : Fin 2) = t.val ∧ win6_11.index t (1 : Fin 2) = 0 :=
  (by decide +kernel : ∀ t : Fin grid6.N, _)

end Cert.KernelIdeal.Edge6

end
-- ==== Proof.Edge6BlkR.lean ====
/-
  The three row-blocked input windows of the edge region: the block at point t, read off the array as the region finds
  it, is rows 2000·t … 2000·t + 1999 of the array.
-/
import proofs.«156944_j45535243272652_2_alg».proof.Proof.Spec
import proofs.«156944_j45535243272652_2_alg».proof.Proof.Edge6Idx
import proofs.«156944_j45535243272652_2_alg».proof.Proof.FrameKI
import Idealize.ShloMosaic.Lib.Pipeline.Value
import Idealize.ShloMosaic.Lib.ValueIdx

noncomputable section

namespace Cert.KernelIdeal.Edge6

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 0's block at point t is rows 2000·t … 2000·t + 1999 of its array. -/
theorem blkHi_apply (c : Dev nD) (t : Fin cfg6.N) (r : Fin 2000) (k : Fin 128) (R : Fin 250000) (hR : R.val = t.val * 2000 + r.val) :
    (iblk6 V c 0 t : Vec Ideal S2000x128 .bf16) (ix2 r k) = (V c (Pipeline.arrRef spec6 0) : Spec.SE.Idx → EReal) (ix2 R k) := by
  obtain ⟨h0, h1, -, -, -, -, -, -, -, -, -, -, -, -, -, -, -, -, -, -, -, -, -, -⟩ := idx_facts t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 2000 + 1 * r.val = R.val; rw [h0, hR]; omega
  | ⟨1, _⟩ => show win6_0.index t (1 : Fin 2) * 128 + 1 * k.val = k.val; rw [h1]; omega

/-- Window 1's block at point t is rows 2000·t … 2000·t + 1999 of its array. -/
theorem blkHj_apply (c : Dev nD) (t : Fin cfg6.N) (r : Fin 2000) (k : Fin 128) (R : Fin 250000) (hR : R.val = t.val * 2000 + r.val) :
    (iblk6 V c 1 t : Vec Ideal S2000x128 .bf16) (ix2 r k) = (V c (Pipeline.arrRef spec6 1) : Spec.SE.Idx → EReal) (ix2 R k) := by
  obtain ⟨-, -, h0, h1, -, -, -, -, -, -, -, -, -, -, -, -, -, -, -, -, -, -, -, -⟩ := idx_facts t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 2000 + 1 * r.val = R.val; rw [h0, hR]; omega
  | ⟨1, _⟩ => show win6_1.index t (1 : Fin 2) * 128 + 1 * k.val = k.val; rw [h1]; omega

/-- Window 2's block at point t is rows 2000·t … 2000·t + 1999 of its one-column array. -/
theorem blkDist_apply (c : Dev nD) (t : Fin cfg6.N) (r : Fin 2000) (k : Fin 1) (R : Fin 250000) (hR : R.val = t.val * 2000 + r.val) :
    (iblk6 V c 2 t : Vec Ideal S2000x1 .f32) (ix2 r k) = (V c (Pipeline.arrRef spec6 2) : Spec.SE1.Idx → EReal) (ix2 R k) := by
  obtain ⟨-, -, -, -, h0, h1, -, -, -, -, -, -, -, -, -, -, -, -, -, -, -, -, -, -⟩ := idx_facts t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 2000 + 1 * r.val = R.val; rw [h0, hR]; omega
  | ⟨1, _⟩ => show win6_2.index t (1 : Fin 2) * 1 + 1 * k.val = k.val; rw [h1]; omega

end Cert.KernelIdeal.Edge6

end
-- ==== Proof.Edge6BlkW.lean ====
/-
  The first-stage weight windows of the edge region (the two 128×128 matrices, the length row and the bias row): the
  block at every point is the whole array as the region finds it.
-/
import proofs.«156944_j45535243272652_2_alg».proof.Proof.Spec
import proofs.«156944_j45535243272652_2_alg».proof.Proof.Edge6Idx
import proofs.«156944_j45535243272652_2_alg».proof.Proof.FrameKI
import Idealize.ShloMosaic.Lib.Pipeline.Value
import Idealize.ShloMosaic.Lib.ValueIdx

noncomputable section

namespace Cert.KernelIdeal.Edge6

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 3's block at every point is its whole array. -/
theorem blkW1a_eq (c : Dev nD) (t : Fin cfg6.N) :
    (iblk6 V c 3 t : Vec Ideal S128x128 .f32) = (V c (Pipeline.arrRef spec6 3) : Spec.SW.Idx → EReal) := by
  obtain ⟨-, -, -, -, -, -, h0, h1, -, -, -, -, -, -, -, -, -, -, -, -, -, -, -, -⟩ := idx_facts t
  funext j
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 128 + 1 * (j 0).val = (j 0).val; rw [h0]; omega
  | ⟨1, _⟩ => show win6_3.index t (1 : Fin 2) * 128 + 1 * (j 1).val = (j 1).val; rw [h1]; omega

/-- Window 4's block at every point is its whole array. -/
theorem blkW1b_eq (c : Dev nD) (t : Fin cfg6.N) :
    (iblk6 V c 4 t : Vec Ideal S128x128 .f32) = (V c (Pipeline.arrRef spec6 4) : Spec.SW.Idx → EReal) := by
  obtain ⟨-, -, -, -, -, -, -, -, h0, h1, -, -, -, -, -, -, -, -, -, -, -, -, -, -⟩ := idx_facts t
  funext j
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 128 + 1 * (j 0).val = (j 0).val; rw [h0]; omega
  | ⟨1, _⟩ => show win6_4.index t (1 : Fin 2) * 128 + 1 * (j 1).val = (j 1).val; rw [h1]; omega

/-- Window 5's block at every point is its whole array. -/
theorem blkW1c_eq (c : Dev nD) (t : Fin cfg6.N) :
    (iblk6 V c 5 t : Vec Ideal S1x128 .f32) = (V c (Pipeline.arrRef spec6 5) : Spec.SR.Idx → EReal) := by
  obtain ⟨-, -, -, -, -, -, -, -, -, -, h0, h1, -, -, -, -, -, -, -, -, -, -, -, -⟩ := idx_facts t
  funext j
  unfold iblk6
  rw [View.read_apply]
  show V c (Pipeline.arrRef spec6 5) _ = V c (Pipeline.arrRef spec6 5) _
  congr 1
  funext a
  apply Fin.ext
  match a with
  | ⟨0, _⟩ => show win6_5.index t (0 : Fin 2) * 1 + 1 * (j 0).val = (j 0).val; rw [h0]; omega
  | ⟨1, _⟩ => show win6_5.index t (1 : Fin 2) * 128 + 1 * (j 1).val = (j 1).val; rw [h1]; omega

/-- Window 6's block at every point is its whole array. -/
theorem blkB1_eq (c : Dev nD) (t : Fin cfg6.N) :
    (iblk6 V c 6 t : Vec Ideal S1x128 .f32) = (V c (Pipeline.arrRef spec6 6) : Spec.SR.Idx → EReal) := by
  obtain ⟨-, -, -, -, -, -, -, -, -, -, -, -, h0, h1, -, -, -, -, -, -, -, -, -, -⟩ := idx_facts t
  funext j
  unfold iblk6
  rw [View.read_apply]
  show V c (Pipeline.arrRef spec6 6) _ = V c (Pipeline.arrRef spec6 6) _
  congr 1
  funext a
  apply Fin.ext
  match a with
  | ⟨0, _⟩ => show win6_6.index t (0 : Fin 2) * 1 + 1 * (j 0).val = (j 0).val; rw [h0]; omega
  | ⟨1, _⟩ => show win6_6.index t (1 : Fin 2) * 128 + 1 * (j 1).val = (j 1).val; rw [h1]; omega

end Cert.KernelIdeal.Edge6

end
-- ==== Proof.Edge6BlkX.lean ====
/-
  The second-stage and gate weight windows of the edge region (the 128×128 matrix and its bias row, the gate column and
  its one-entry bias): the block at every point is the whole array as the region finds it.
-/
import proofs.«156944_j45535243272652_2_alg».proof.Proof.Spec
import proofs.«156944_j45535243272652_2_alg».proof.Proof.Edge6Idx
import proofs.«156944_j45535243272652_2_alg».proof.Proof.FrameKI
import Idealize.ShloMosaic.Lib.Pipeline.Value
import Idealize.ShloMosaic.Lib.ValueIdx

noncomputable section

namespace Cert.KernelIdeal.Edge6

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

/-- Window 7's block at every point is its whole array. -/
theorem blkW2_eq (c : Dev nD) (t : Fin cfg6.N) :
    (iblk6 V c 7 t : Vec Ideal S128x128 .f32) = (V c (Pipeline.arrRef spec6 7) : Spec.SW.Idx → EReal) := by
  obtain ⟨-, -, -, -, -, -, -, -, -, -, -, -, -, -, h0, h1, -, -, -, -, -, -, -, -⟩ := idx_facts t
  funext j
  unfold iblk6
  rw [View.read_apply]
  show V c (Pipeline.arrRef spec6 7) _ = V c (Pipeline.arrRef spec6 7) _
  congr 1
  funext a
  apply Fin.ext
  match a with
  | ⟨0, _⟩ => show win6_7.index t (0 : Fin 2) * 128 + 1 * (j 0).val = (j 0).val; rw [h0]; omega
  | ⟨1, _⟩ => show win6_7.index t (1 : Fin 2) * 128 + 1 * (j 1).val = (j 1).val; rw [h1]; omega

/-- Window 8's block at every point is its whole array. -/
theorem blkB2_eq (c : Dev nD) (t : Fin cfg6.N) :
    (iblk6 V c 8 t : Vec Ideal S1x128 .f32) = (V c (Pipeline.arrRef spec6 8) : Spec.SR.Idx → EReal) := by
  obtain ⟨-, -, -, -, -, -, -, -, -, -, -, -, -, -, -, -, h0, h1, -, -, -, -, -, -⟩ := idx_facts t
  funext j
  unfold iblk6
  rw [View.read_apply]
  show V c (Pipeline.arrRef spec6 8) _ = V c (Pipeline.arrRef spec6 8) _
  congr 1
  funext a
  apply Fin.ext
  match a with
  | ⟨0, _⟩ => show win6_8.index t (0 : Fin 2) * 1 + 1 * (j 0).val = (j 0).val; rw [h0]; omega
  | ⟨1, _⟩ => show win6_8.index t (1 : Fin 2) * 128 + 1 * (j 1).val = (j 1).val; rw [h1]; omega

/-- Window 9's block at every point is its whole array. -/
theorem blkAw_eq (c : Dev nD) (t : Fin cfg6.N) :
    (iblk6 V c 9 t : Vec Ideal S128x1 .f32) = (V c (Pipeline.arrRef spec6 9) : Spec.SC.Idx → EReal) := by
  obtain ⟨-, -, -, -, -, -, -, -, -, -, -, -, -, -, -, -, -, -, h0, h1, -, -, -, -⟩ := idx_facts t
  funext j
  unfold iblk6
  rw [View.read_apply]
  show V c (Pipeline.arrRef spec6 9) _ = V c (Pipeline.arrRef spec6 9) _
  congr 1
  funext a
  apply Fin.ext
  match a with
  | ⟨0, _⟩ => show win6_9.index t (0 : Fin 2) * 128 + 1 * (j 0).val = (j 0).val; rw [h0]; omega
  | ⟨1, _⟩ => show win6_9.index t (1 : Fin 2) * 1 + 1 * (j 1).val = (j 1).val; rw [h1]; omega

/-- Window 10's block at every point is its whole array. -/
theorem blkAb_eq (c : Dev nD) (t : Fin cfg6.N) :
    (iblk6 V c 10 t : Vec Ideal S1x1 .f32) = (V c (Pipeline.arrRef spec6 10) : Spec.S11.Idx → EReal) := by
  obtain ⟨-, -, -, -, -, -, -, -, -, -, -, -, -, -, -, -, -, -, -, -, h0, h1, -, -⟩ := idx_facts t
  funext j
  unfold iblk6
  rw [View.read_apply]
  show V c (Pipeline.arrRef spec6 10) _ = V c (Pipeline.arrRef spec6 10) _
  congr 1
  funext a
  apply Fin.ext
  match a with
  | ⟨0, _⟩ => show win6_10.index t (0 : Fin 2) * 1 + 1 * (j 0).val = (j 0).val; rw [h0]; omega
  | ⟨1, _⟩ => show win6_10.index t (1 : Fin 2) * 1 + 1 * (j 1).val = (j 1).val; rw [h1]; omega

end Cert.KernelIdeal.Edge6

end
-- ==== Proof.Edge6Value.lean ====
/-
  The value of the edge region: after its 125 grid points the output array holds, in row e, the message row of edge e —
  the edge row function of rows e of the two feature arrays and of the length array, with the weight arrays. Point t
  computes rows 2000·t … 2000·t + 1999 from the same rows of its row-blocked inputs, and the 125 blocks cover the
  250000 rows.
-/
import proofs.«156944_j45535243272652_2_alg».proof.Proof.Spec
import proofs.«156944_j45535243272652_2_alg».proof.Proof.Edge6Pay
import proofs.«156944_j45535243272652_2_alg».proof.Proof.Edge6BlkR
import proofs.«156944_j45535243272652_2_alg».proof.Proof.Edge6BlkW
import proofs.«156944_j45535243272652_2_alg».proof.Proof.Edge6BlkX
import proofs.«156944_j45535243272652_2_alg».proof.Proof.FrameKI
import Idealize.ShloMosaic.Lib.Pipeline.Value
import Idealize.ShloMosaic.Lib.ValueIdx

noncomputable section

namespace Cert.KernelIdeal.Edge6

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.EdgeOps

theorem hz : (![0, 0] : Fin 2 → Nat) = fun _ => 0 := funext fun a => by fin_cases a <;> rfl

/-- What the body leaves in the output block at (r, c), from the eleven input blocks: the message entry of row r. -/
theorem out_apply (x0 x1 : Vec Ideal S2000x128 .bf16) (x2 : Vec Ideal S2000x1 .f32) (x3 x4 : Vec Ideal S128x128 .f32)
    (x5 x6 : Vec Ideal S1x128 .f32) (x7 : Vec Ideal S128x128 .f32) (x8 : Vec Ideal S1x128 .f32) (x9 : Vec Ideal S128x1 .f32)
    (x10 : Vec Ideal S1x1 .f32) (r : Fin 2000) (c : Fin 128) :
    GenP.out6_11 (F := Ideal) x0 x1 x2 x3 x4 x5 x6 x7 x8 x9 x10 (ix2 r c)
      = Spec.edgeRow (fun k => x0 (ix2 r k)) (fun k => x1 (ix2 r k)) (x2 (ix2 r (0 : Fin 1))) (Spec.mat x3) (Spec.mat x4)
          (Spec.rowv x5) (Spec.rowv x6) (Spec.mat x7) (Spec.rowv x8) (Spec.colv x9) (x10 (ix2 (0 : Fin 1) (0 : Fin 1))) c := by
  unfold GenP.out6_11
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x1) hz, View.ld_unit_zero (S := S1x1) hz]
  rw [pay1_apply]
  simp only [pay2_apply]
  rfl

/-- The edge row function respects equality of each of its arguments. -/
theorem edgeRow_congr {hi hi' hj hj' : Fin 128 → EReal} {d d' : EReal} {w1a w1a' w1b w1b' : Fin 128 → Fin 128 → EReal}
    {w1c w1c' b1 b1' : Fin 128 → EReal} {w2 w2' : Fin 128 → Fin 128 → EReal} {b2 b2' aw aw' : Fin 128 → EReal} {ab ab' : EReal}
    (e0 : hi = hi') (e1 : hj = hj') (e2 : d = d') (e3 : w1a = w1a') (e4 : w1b = w1b') (e5 : w1c = w1c') (e6 : b1 = b1')
    (e7 : w2 = w2') (e8 : b2 = b2') (e9 : aw = aw') (e10 : ab = ab') (c : Fin 128) :
    Spec.edgeRow hi hj d w1a w1b w1c b1 w2 b2 aw ab c = Spec.edgeRow hi' hj' d' w1a' w1b' w1c' b1' w2' b2' aw' ab' c := by
  subst e0 e1 e2 e3 e4 e5 e6 e7 e8 e9 e10; rfl

variable (V : (c : Dev nD) → (b : Ref sig .tc) → Buf (Elt Ideal) ((c : Thread nD τ).loc b))

/-- Every edge's message row, of the eleven arrays as the region finds them. -/
abbrev result (c : Dev nD) : Spec.SE.Idx → EReal :=
  Spec.edgeArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10))

/-- What the body leaves at (r, q) of the output block at point t, from the point's input blocks: the message row of
    edge R = 2000·t + r at feature q, of the arrays. -/
theorem out_blocks (c : Dev nD) (t : Fin cfg6.N) (r : Fin 2000) (q : Fin 128) (R : Fin 250000) (hR : R.val = t.val * 2000 + r.val) :
    out6_11 (F := Ideal) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (ix2 r q)
      = result V c (ix2 R q) := by
  refine (out_apply (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) r q).trans ?_
  exact edgeRow_congr (funext fun k => blkHi_apply V c t r k R hR) (funext fun k => blkHj_apply V c t r k R hR)
    (blkDist_apply V c t r (0 : Fin 1) R hR) (congrArg Spec.mat (blkW1a_eq V c t)) (congrArg Spec.mat (blkW1b_eq V c t))
    (congrArg Spec.rowv (blkW1c_eq V c t)) (congrArg Spec.rowv (blkB1_eq V c t)) (congrArg Spec.mat (blkW2_eq V c t))
    (congrArg Spec.rowv (blkB2_eq V c t)) (congrArg Spec.colv (blkAw_eq V c t))
    (congrFun (blkAb_eq V c t) (ix2 (0 : Fin 1) (0 : Fin 1))) q

/-- WHAT POINT t WRITES BACK is block t of `result`: row r of the block is the message row of edge 2000·t + r. -/
theorem flushed_eq (c : Dev nD) (t : Fin cfg6.N) :
    (dat6 (F := Ideal) V c).flushed 11 t = ((cfg6.win 11).blk t).view.read (Elt Ideal) (result V c) := by
  unfold Dat.flushed
  rw [after6_11]
  have hN : cfg6.N = 125 := N_6
  funext j
  obtain ⟨r, q, rfl⟩ : ∃ (r : Fin 2000) (q : Fin 128), j = ix2 r q := ⟨j 0, j 1, eq_ix2 j⟩
  have ht : t.val < 125 := hN ▸ t.isLt
  obtain ⟨R, hR⟩ : ∃ R : Fin 250000, R.val = t.val * 2000 + r.val := ⟨⟨t.val * 2000 + r.val, by have := r.isLt; omega⟩, rfl⟩
  have hemb : ((cfg6.win 11).blk t).view.emb (ix2 r q) = (ix2 R q : Spec.SE.Idx) := by
    obtain ⟨-, -, -, -, -, -, -, -, -, -, -, -, -, -, -, -, -, -, -, -, -, -, h0, h1⟩ := idx_facts t
    funext a
    apply Fin.ext
    match a with
    | ⟨0, _⟩ => show win6_11.index t (0 : Fin 2) * 2000 + 1 * r.val = R.val; rw [h0, hR]; omega
    | ⟨1, _⟩ => show win6_11.index t (1 : Fin 2) * 128 + 1 * q.val = q.val; rw [h1]; omega
  refine (out_blocks V c t r q R hR).trans ?_
  rw [View.read_apply]
  show _ = result V c (((cfg6.win 11).blk t).view.emb (ix2 r q))
  rw [hemb]
/-- An index of the output array is in point t's block iff each coordinate is in the block's range on its axis. -/
theorem mem_blk (t : Fin cfg6.N) (i : Spec.SE.Idx) :
    i ∈ ((cfg6.win 11).blk t).view.set ↔ ∀ a : Fin 2, win6_11.index t a * S2000x128.size a ≤ (i a).val ∧ (i a).val < win6_11.index t a * S2000x128.size a + S2000x128.size a := by
  show i ∈ ((View.whole (Pipeline.arrRef spec6 11)).slice (win6_11.rect t)).set ↔ _
  rw [View.set_slice_whole, Rect.mem_set_unit]
  exact Iff.rfl

/-- Every row of the output array is in some point's block: row e is in block e / 2000. -/
theorem cover (i : Spec.SE.Idx) : ∃ t : Fin cfg6.N, (cfg6.win 11).flush t = true ∧ i ∈ ((cfg6.win 11).blk t).view.set := by
  have hN : cfg6.N = 125 := N_6
  have hi0 : (i 0).val < 250000 := (i 0).isLt
  have hi1 : (i 1).val < 128 := (i 1).isLt
  let t : Fin cfg6.N := ⟨(i 0).val / 2000, by rw [hN]; omega⟩
  have htv : t.val = (i 0).val / 2000 := rfl
  obtain ⟨-, -, -, -, -, -, -, -, -, -, -, -, -, -, -, -, -, -, -, -, -, -, h0, h1⟩ := idx_facts t
  refine ⟨t, flush6_11 t, ?_⟩
  rw [mem_blk]
  intro a
  match a with
  | ⟨0, _⟩ => show win6_11.index t (0 : Fin 2) * 2000 ≤ (i 0).val ∧ (i 0).val < win6_11.index t (0 : Fin 2) * 2000 + 2000; rw [h0, htv]; omega
  | ⟨1, _⟩ => show win6_11.index t (1 : Fin 2) * 128 ≤ (i 1).val ∧ (i 1).val < win6_11.index t (1 : Fin 2) * 128 + 128; rw [h1]; omega

/-- THE OUTPUT ARRAY after the region's run: every edge's message row. -/
theorem value (c : Dev nD) :
    (dat6 (F := Ideal) V c).arrAt 11 cfg6.N
      = Spec.edgeArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) :=
  (dat6 (F := Ideal) V c).arrAt_eq_of_cover 11 (result V c) (fun t _ => flushed_eq V c t) cover

end Cert.KernelIdeal.Edge6

end
-- ==== Proof.Node7Ops.lean ====
/-
  Single operations of the node kernel's body read at an index, at the extended reals.

  * A sum along the lanes: reducing an a×b array over its second axis gives, at row r, the sum over the b
    entries of row r.
  * A column with its unit axis kept: casting a length-a vector to a×1 reads, at (r, 0), entry r; broadcasting an
    a×1 column to a×b reads, at (r, c), the column's entry (r, 0).
  * The matrix product of the body: a 1000×128 by 128×128 product into a zero accumulator reads, at (r, c), the
    sum over k of left (r, k) times right (k, c).
-/
import Idealize.ShloMosaic.PureOps.Ideal.Laws
import Idealize.ShloMosaic.Lib.ValueIdx
import Idealize.ShloMosaic.Lib.ValueLayout
import proofs.«156944_j45535243272652_2_alg».proof.KernelIdeal

noncomputable section

namespace Cert.KernelIdeal.Node7

open Idealize.ShloMosaic Idealize.ShloMosaic.ValueIdx Cert.KernelIdeal

/-! ## A sum along the lanes -/

/-- Reducing an a×b array by addition over axis 1 from the zero word: at row r the sum of row r's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun c => Fin.ext ?_)
  match c with
  | ⟨0, _⟩ => rfl
  | ⟨1, _⟩ => rfl

/-! ## A column with its unit axis kept -/

variable {α : Type}

/-- A length-a vector cast to a×1 reads, at (r, u), entry r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An a×1 column broadcast to a×b reads, at (r, c), the column's entry in row r. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Pointwise unary operations -/

/-- The logistic function of a vector, at an index. -/
theorem logistic_apply {s : Shape} {φ : FTy} (x : FVec Ideal s φ) (i : s.Idx) : logistic x i = Ideal.logistic (x i) := rfl

/-- The reciprocal square root of a vector, at an index. -/
theorem rsqrt_apply {s : Shape} {φ : FTy} (x : FVec Ideal s φ) (i : s.Idx) : rsqrt x i = Ideal.rsqrt (x i) := rfl

/-! ## The body's matrix product -/

variable [Facts₀]

/-- The row coordinate of the left operand's index is the result's row. -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch from List.not_mem_nil),
    dif_pos (show (0 : Fin S1000x128.rank) ∈ dot_S1000x128_S128x128_S1000x128_1_0_0_1_n_n.lhsNonContracting from List.mem_singleton_self _)]
  rfl

/-- The column coordinate of the left operand's index is the contracted coordinate. -/
theorem lhs_1 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.lhsIdx i q 1).val = (q ⟨0, h0⟩).val :=
  dot_S1000x128_S128x128_S1000x128_1_0_0_1_n_n.lhsIdx_val_of_single rfl i q

/-- The row coordinate of the right operand's index is the contracted coordinate. -/
theorem rhs_0 (i : S1000x128.Idx) (q : dot_S1000x128_S128x128_S1000x128_1_0_0_1_n_n.contr.Idx)
    (h0 : 0 < dot_S1000x128_S128x128_S1000x128_1_0_0_1_n_n.contr.rank) :
    (dot_S1000x128_S128x128_S1000x128_1_0_0_1_n_n.rhsIdx i q 0).val = (q ⟨0, h0⟩).val :=
  dot_S1000x128_S128x128_S1000x128_1_0_0_1_n_n.rhsIdx_val_of_single rfl i q

/-- The column coordinate of the right operand's index is the result's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch from List.not_mem_nil),
    dif_pos (show (1 : Fin S128x128.rank) ∈ dot_S1000x128_S128x128_S1000x128_1_0_0_1_n_n.rhsNonContracting from List.mem_singleton_self _)]
  rfl

/-- The product into a zero accumulator, at (r, c): the sum over k of left (r, k) times right (k, c). -/
theorem matmul_apply {φ₁ φ₂ : FTy} (lhs : FVec Ideal S1000x128 φ₁) (rhs : FVec Ideal S128x128 φ₂) (r : Fin 1000) (c : Fin 128) :
    matmul dot_S1000x128_S128x128_S1000x128_1_0_0_1_n_n none lhs rhs (constant (F := Ideal) S1000x128 .f32 0x00000000#32) (ix2 r c)
      = ∑ k : Fin 128, lhs (ix2 r k) * rhs (ix2 k c) := by
  refine (Ideal.matmul_constant_zero_apply dot_S1000x128_S128x128_S1000x128_1_0_0_1_n_n none lhs rhs (ix2 r c)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r c)
      ((contrEquiv1 dot_S1000x128_S128x128_S1000x128_1_0_0_1_n_n 128 rfl rfl).symm k) = ix2 r k := funext fun a => Fin.ext (by
    match a with
    | ⟨0, _⟩ => exact lhs_0 _ _
    | ⟨1, _⟩ => exact (lhs_1 _ _ _).trans hk)
  have er : dot_S1000x128_S128x128_S1000x128_1_0_0_1_n_n.rhsIdx (ix2 r c)
      ((contrEquiv1 dot_S1000x128_S128x128_S1000x128_1_0_0_1_n_n 128 rfl rfl).symm k) = ix2 k c := funext fun a => Fin.ext (by
    match a with
    | ⟨0, _⟩ => exact (rhs_0 _ _ _).trans hk
    | ⟨1, _⟩ => exact rhs_1 _ _)
  rw [el, er]

end Cert.KernelIdeal.Node7

end
-- ==== Proof.Node7Pay.lean ====
/-
  The node kernel's body, read entry by entry.

  The body takes a block of 1000 rows of node features and of aggregated messages with the layer's weights, and
  leaves, in row r and column c, the normalised node update of row r: with
  `nin k = Σⱼ h j · w1a j k + Σⱼ agg j · w1b j k + b1 k` and `hr c = h c + (Σₖ silu (nin k) · w2 k c + b2 c)`,
  the mean `mu` of `hr` over its 128 entries, the mean `var` of `(hr c − mu)²`, the entry is
  `(hr c − mu) · rsqrt (var + ε) · g c + b c`. Each stage of the body is read here at an index: the residual
  row (two products, a bias, the activation, a third product, a bias, the residual), the mean column (a sum along
  the lanes and a quotient by 128), the sums of squared deviations, and the normalisation with gain and bias.
-/
import proofs.«156944_j45535243272652_2_alg».proof.Proof.Spec
import proofs.«156944_j45535243272652_2_alg».proof.Proof.Node7Ops
import proofs.«156944_j45535243272652_2_alg».proof.Proof.Gen.KernelIdeal.Skeleton

noncomputable section

namespace Cert.KernelIdeal.Node7

open Idealize.ShloMosaic Idealize.ShloMosaic.ValueIdx Cert.KernelIdeal Cert.KernelIdeal.Gen

/-! ## The stages of the body at an index -/

/-- The residual row: entry (r, c) of the first stage is the node update of row r of the two blocks. -/
theorem pay2_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (c : Fin 128) :
    k7_pay2 (F := Ideal) v0 v2 v5 v10 v15 v22 v26 (ix2 r c)
      = Cert.Spec.nodeHr (fun k => v0 (ix2 r k)) (fun k => v2 (ix2 r k)) (Cert.Spec.mat v5) (Cert.Spec.mat v10)
          (Cert.Spec.rowv v15) (Cert.Spec.mat v22) (Cert.Spec.rowv v26) c := by
  unfold k7_pay2
  simp only [shapeCast_self, addf_apply, mulf_apply, truncf_apply, logistic_apply, Node7.matmul_apply, broadcastTo_1b_ab_apply]
  rfl

/-- The mean column: entry (r, 0) is the mean of row r of the first stage. -/
theorem pay3_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) (u : Fin 1) :
    k7_pay3 (F := Ideal) v0 v2 v5 v10 v15 v22 v26 (ix2 r u)
      = Cert.Spec.rowMean (fun c => k7_pay2 (F := Ideal) v0 v2 v5 v10 v15 v22 v26 (ix2 r c)) := by
  unfold k7_pay3
  simp only [divf_apply, broadcast_apply, shapeCast_a_a1_apply]
  exact congrArg (fun s => Ideal.div s _) (laneSum_apply (a := 1000) (b := 128) _ _ _ _ r)

/-- The sum of squared deviations: entry r is the sum over row r of the squares of (entry minus the row's mean). -/
theorem pay4_apply (v0 v2 : Vec Ideal S1000x128 .f32) (v5 v10 : Vec Ideal S128x128 .f32) (v15 : Vec Ideal S1x128 .f32)
    (v22 : Vec Ideal S128x128 .f32) (v26 : Vec Ideal S1x128 .f32) (r : Fin 1000) :
    k7_pay4 (F := Ideal) v0 v2 v5 v10 v15 v22 v26 (ix1 r)
      = ∑ c : Fin 128, (k7_pay2 (F := Ideal) v0 v2 v5 v10 v15 v22 v26 (ix2 r c) - k7_pay3 (F := Ideal) v0 v2 v5 v10 v15 v22 v26 (ix2 r (0 : Fin 1)))
          * (k7_pay2 (F := Ideal) v0 v2 v5 v10 v15 v22 v26 (ix2 r c) - k7_pay3 (F := Ideal) v0 v2 v5 v10 v15 v22 v26 (ix2 r (0 : Fin 1))) := by
  unfold k7_pay4
  refine (laneSum_apply (a := 1000) (b := 128) _ _ _ _ r).trans ?_
  simp only [mulf_apply, subf_apply, broadcastTo_a1_ab_apply]

/-- The normalisation: from a residual block, its mean column and its sums of squared deviations. -/
theorem pay1_apply (v30 : FVec Ideal S1000x128 .f32) (v34 : FVec Ideal S1000x1 .f32) (v38 : FVec Ideal S1000 .f32)
    (v49 v53 : Vec Ideal S1x128 .f32) (r : Fin 1000) (c : Fin 128) :
    k7_pay1 (F := Ideal) v30 v34 v38 v49 v53 (ix2 r c)
      = (v30 (ix2 r c) - v34 (ix2 r (0 : Fin 1))) * Ideal.rsqrt (Ideal.div (v38 (ix1 r)) Cert.Spec.c128 + Cert.Spec.cEps)
          * v49 (ix2 (0 : Fin 1) c) + v53 (ix2 (0 : Fin 1) c) := by
  unfold k7_pay1
  simp only [shapeCast_self, addf_apply, mulf_apply, subf_apply, divf_apply, rsqrt_apply, broadcast_apply, shapeCast_a_a1_apply,
    broadcastTo_a1_ab_apply, broadcastTo_1b_ab_apply]
  rfl

/-- The body's result at (r, c): the normalised node update of row r. -/
theorem body_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    k7_pay1 (F := Ideal) (k7_pay2 x0 x1 x2 x3 x4 x5 x6) (k7_pay3 x0 x1 x2 x3 x4 x5 x6) (k7_pay4 x0 x1 x2 x3 x4 x5 x6) x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  have h2 : (fun k => k7_pay2 (F := Ideal) x0 x1 x2 x3 x4 x5 x6 (ix2 r k))
      = Cert.Spec.nodeHr (fun k => x0 (ix2 r k)) (fun k => x1 (ix2 r k)) (Cert.Spec.mat x2) (Cert.Spec.mat x3)
          (Cert.Spec.rowv x4) (Cert.Spec.mat x5) (Cert.Spec.rowv x6) := funext fun k => pay2_apply x0 x1 x2 x3 x4 x5 x6 r k
  rw [pay1_apply, pay4_apply, pay3_apply, h2, congrFun h2 c]
  simp only [pay2_apply]
  rfl

end Cert.KernelIdeal.Node7

end
-- ==== Proof.Node7Blocks.lean ====
/-
  The node region's blocks, read against the whole arrays.

  The output window's staging buffer after the body is one store of the body's result, so at (r, c) it holds the
  normalised node update of row r of the two row blocks (`out_apply`). At grid point t the feature and message
  windows hold rows 1000·t … 1000·t + 999 of their arrays (`rows0`, `rows1`: a block's element sits at block index
  times block size plus its coordinate inside the block), and each of the seven weight windows holds its whole array
  at every point (`whole2` … `whole8`: block index (0, 0)). So the buffer at (p, q) is the layer's node update of
  the arrays at row 1000·t + p, column q (`block_apply`).
-/
import proofs.«156944_j45535243272652_2_alg».proof.Proof.Spec
import proofs.«156944_j45535243272652_2_alg».proof.Proof.Node7Pay
import proofs.«156944_j45535243272652_2_alg».proof.Proof.FrameKI
import Idealize.ShloMosaic.Lib.Pipeline.Value
import Idealize.ShloMosaic.Lib.Tactic

set_option maxRecDepth 16384

noncomputable section

namespace Cert.KernelIdeal.Node7

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-! ## The staging buffer after the body, at an index -/

theorem hz : (![0, 0] : Fin 2 → Nat) = fun _ => 0 := funext fun a => by fin_cases a <;> rfl

/-- The output window's buffer after the body holds, in row r and column c, the normalised node update of row r of
    the two row blocks with the weight blocks. -/
theorem out_apply (x0 x1 : Vec Ideal S1000x128 .f32) (x2 x3 : Vec Ideal S128x128 .f32) (x4 : Vec Ideal S1x128 .f32)
    (x5 : Vec Ideal S128x128 .f32) (x6 x7 x8 : Vec Ideal S1x128 .f32) (r : Fin 1000) (c : Fin 128) :
    out7_9 (F := Ideal) x0 x1 x2 x3 x4 x5 x6 x7 x8 (ix2 r c)
      = Cert.Spec.nodeRow (fun k => x0 (ix2 r k)) (fun k => x1 (ix2 r k)) (Cert.Spec.mat x2) (Cert.Spec.mat x3)
          (Cert.Spec.rowv x4) (Cert.Spec.mat x5) (Cert.Spec.rowv x6) (Cert.Spec.rowv x7) (Cert.Spec.rowv x8) c := by
  unfold out7_9
  rw [View.canon_unit_zero hz]
  simp only [View.ld_unit_zero (S := S1000x128) hz, View.ld_unit_zero (S := S128x128) hz, View.ld_unit_zero (S := S1x128) hz]
  exact body_apply x0 x1 x2 x3 x4 x5 x6 x7 x8 r c

/-- A block of 1000 rows read through row offset 1000·n, against the whole arrays: if the two row blocks are rows
    1000·n … 1000·n + 999 of the feature and message arrays and the weight blocks are the weight arrays, the buffer
    after the body at (p, q) is the layer's node update of the arrays at row 1000·n + p, column q. -/
theorem block_apply (h agg : S10000x128.Idx → EReal) (w1a w1b : S128x128.Idx → EReal) (b1 : S1x128.Idx → EReal)
    (w2 : S128x128.Idx → EReal) (b2 g b : S1x128.Idx → EReal)
    (x0 x1 : Vec Ideal S1000x128 .f32) (x2 x3 : Vec Ideal S128x128 .f32) (x4 : Vec Ideal S1x128 .f32)
    (x5 : Vec Ideal S128x128 .f32) (x6 x7 x8 : Vec Ideal S1x128 .f32) (n : ℕ)
    (e0 : ∀ (p : Fin 1000) (k : Fin 128) (i : S10000x128.Idx), (i 0).val = 1000 * n + p.val → (i 1).val = k.val → x0 (ix2 p k) = h i)
    (e1 : ∀ (p : Fin 1000) (k : Fin 128) (i : S10000x128.Idx), (i 0).val = 1000 * n + p.val → (i 1).val = k.val → x1 (ix2 p k) = agg i)
    (e2 : x2 = w1a) (e3 : x3 = w1b) (e4 : x4 = b1) (e5 : x5 = w2) (e6 : x6 = b2) (e7 : x7 = g) (e8 : x8 = b)
    (y : S1000x128.Idx) (i : S10000x128.Idx) (hi0 : (i 0).val = 1000 * n + (y 0).val) (hi1 : (i 1).val = (y 1).val) :
    out7_9 (F := Ideal) x0 x1 x2 x3 x4 x5 x6 x7 x8 y = Cert.Spec.nodeArr h agg w1a w1b b1 w2 b2 g b i := by
  subst e2 e3 e4 e5 e6 e7 e8
  obtain ⟨p, q, rfl⟩ : ∃ (p : Fin 1000) (q : Fin 128), y = ix2 p q := ⟨y 0, y 1, eq_ix2 y⟩
  rw [out_apply]
  have hq : q = i 1 := Fin.ext hi1.symm
  have hrow0 : (fun k => x0 (ix2 p k)) = fun k => h (ix2 (i 0) k) := funext fun k => e0 p k (ix2 (i 0) k) hi0 rfl
  have hrow1 : (fun k => x1 (ix2 p k)) = fun k => agg (ix2 (i 0) k) := funext fun k => e1 p k (ix2 (i 0) k) hi0 rfl
  rw [hrow0, hrow1, hq]
  rfl

/-! ## Where each window's block sits in its array -/

/-- The row-blocked windows (features, messages, result) are at block row t at point t; every weight window is at
    block (0, 0) at every point. -/
theorem idx_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = 0 ∧ win7_7.index t (1 : Fin 2) = 0)
    ∧ (win7_8.index t (0 : Fin 2) = 0 ∧ win7_8.index t (1 : Fin 2) = 0)
    ∧ (win7_9.index t (0 : Fin 2) = t.val ∧ win7_9.index t (1 : Fin 2) = 0) :=
  (by decide +kernel : ∀ t : Fin grid7.N, _)

/-- The feature window's block at point t is rows 1000·t … 1000·t + 999 of the feature array. -/
theorem rows0 (c : Dev nD) (t : Fin cfg7.N) (p : Fin 1000) (k : Fin 128) (i : S10000x128.Idx)
    (hi0 : (i 0).val = 1000 * t.val + p.val) (hi1 : (i 1).val = k.val) :
    (iblk7 (F := Ideal) V c 0 t : Vec Ideal S1000x128 .f32) (ix2 p k) = (V c (Pipeline.arrRef spec7 0) : S10000x128.Idx → EReal) i := by
  obtain ⟨⟨a0, a1⟩, -⟩ := idx_facts t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 1000 + 1 * p.val = (i 0).val; rw [a0, hi0]; omega
  | ⟨1, _⟩ => show win7_0.index t (1 : Fin 2) * 128 + 1 * k.val = (i 1).val; rw [a1, hi1]; omega

/-- The message window's block at point t is rows 1000·t … 1000·t + 999 of the message array. -/
theorem rows1 (c : Dev nD) (t : Fin cfg7.N) (p : Fin 1000) (k : Fin 128) (i : S10000x128.Idx)
    (hi0 : (i 0).val = 1000 * t.val + p.val) (hi1 : (i 1).val = k.val) :
    (iblk7 (F := Ideal) V c 1 t : Vec Ideal S1000x128 .f32) (ix2 p k) = (V c (Pipeline.arrRef spec7 1) : S10000x128.Idx → EReal) i := by
  obtain ⟨-, ⟨a0, a1⟩, -⟩ := idx_facts t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 1000 + 1 * p.val = (i 0).val; rw [a0, hi0]; omega
  | ⟨1, _⟩ => show win7_1.index t (1 : Fin 2) * 128 + 1 * k.val = (i 1).val; rw [a1, hi1]; omega

/-- The first product's weight window's block is its whole array at every point. -/
theorem whole2 (c : Dev nD) (t : Fin cfg7.N) :
    (iblk7 (F := Ideal) V c 2 t : Vec Ideal S128x128 .f32) = (V c (Pipeline.arrRef spec7 2) : S128x128.Idx → EReal) := by
  obtain ⟨-, -, ⟨a0, a1⟩, -⟩ := idx_facts t
  funext j
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 128 + 1 * (j 0).val = (j 0).val; rw [a0]; omega
  | ⟨1, _⟩ => show win7_2.index t (1 : Fin 2) * 128 + 1 * (j 1).val = (j 1).val; rw [a1]; omega

/-- The second product's weight window's block is its whole array at every point. -/
theorem whole3 (c : Dev nD) (t : Fin cfg7.N) :
    (iblk7 (F := Ideal) V c 3 t : Vec Ideal S128x128 .f32) = (V c (Pipeline.arrRef spec7 3) : S128x128.Idx → EReal) := by
  obtain ⟨-, -, -, ⟨a0, a1⟩, -⟩ := idx_facts t
  funext j
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 128 + 1 * (j 0).val = (j 0).val; rw [a0]; omega
  | ⟨1, _⟩ => show win7_3.index t (1 : Fin 2) * 128 + 1 * (j 1).val = (j 1).val; rw [a1]; omega

/-- The first bias window's block is its whole array at every point. -/
theorem whole4 (c : Dev nD) (t : Fin cfg7.N) :
    (iblk7 (F := Ideal) V c 4 t : Vec Ideal S1x128 .f32) = (V c (Pipeline.arrRef spec7 4) : S1x128.Idx → EReal) := by
  obtain ⟨-, -, -, -, ⟨a0, a1⟩, -⟩ := idx_facts t
  funext j
  unfold iblk7
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * (j 0).val = (j 0).val; rw [a0]; omega
  | ⟨1, _⟩ => show win7_4.index t (1 : Fin 2) * 128 + 1 * (j 1).val = (j 1).val; rw [a1]; omega

/-- The third product's weight window's block is its whole array at every point. -/
theorem whole5 (c : Dev nD) (t : Fin cfg7.N) :
    (iblk7 (F := Ideal) V c 5 t : Vec Ideal S128x128 .f32) = (V c (Pipeline.arrRef spec7 5) : S128x128.Idx → EReal) := by
  obtain ⟨-, -, -, -, -, ⟨a0, a1⟩, -⟩ := idx_facts t
  funext j
  unfold iblk7
  rw [View.read_apply]
  show V c (Pipeline.arrRef spec7 5) _ = V c (Pipeline.arrRef spec7 5) _
  congr 1
  funext a
  apply Fin.ext
  match a with
  | ⟨0, _⟩ => show win7_5.index t (0 : Fin 2) * 128 + 1 * (j 0).val = (j 0).val; rw [a0]; omega
  | ⟨1, _⟩ => show win7_5.index t (1 : Fin 2) * 128 + 1 * (j 1).val = (j 1).val; rw [a1]; omega

/-- The second bias window's block is its whole array at every point. -/
theorem whole6 (c : Dev nD) (t : Fin cfg7.N) :
    (iblk7 (F := Ideal) V c 6 t : Vec Ideal S1x128 .f32) = (V c (Pipeline.arrRef spec7 6) : S1x128.Idx → EReal) := by
  obtain ⟨-, -, -, -, -, -, ⟨a0, a1⟩, -⟩ := idx_facts t
  funext j
  unfold iblk7
  rw [View.read_apply]
  show V c (Pipeline.arrRef spec7 6) _ = V c (Pipeline.arrRef spec7 6) _
  congr 1
  funext a
  apply Fin.ext
  match a with
  | ⟨0, _⟩ => show win7_6.index t (0 : Fin 2) * 1 + 1 * (j 0).val = (j 0).val; rw [a0]; omega
  | ⟨1, _⟩ => show win7_6.index t (1 : Fin 2) * 128 + 1 * (j 1).val = (j 1).val; rw [a1]; omega

/-- The gain window's block is its whole array at every point. -/
theorem whole7 (c : Dev nD) (t : Fin cfg7.N) :
    (iblk7 (F := Ideal) V c 7 t : Vec Ideal S1x128 .f32) = (V c (Pipeline.arrRef spec7 7) : S1x128.Idx → EReal) := by
  obtain ⟨-, -, -, -, -, -, -, ⟨a0, a1⟩, -⟩ := idx_facts t
  funext j
  unfold iblk7
  rw [View.read_apply]
  show V c (Pipeline.arrRef spec7 7) _ = V c (Pipeline.arrRef spec7 7) _
  congr 1
  funext a
  apply Fin.ext
  match a with
  | ⟨0, _⟩ => show win7_7.index t (0 : Fin 2) * 1 + 1 * (j 0).val = (j 0).val; rw [a0]; omega
  | ⟨1, _⟩ => show win7_7.index t (1 : Fin 2) * 128 + 1 * (j 1).val = (j 1).val; rw [a1]; omega

/-- The normalisation bias window's block is its whole array at every point. -/
theorem whole8 (c : Dev nD) (t : Fin cfg7.N) :
    (iblk7 (F := Ideal) V c 8 t : Vec Ideal S1x128 .f32) = (V c (Pipeline.arrRef spec7 8) : S1x128.Idx → EReal) := by
  obtain ⟨-, -, -, -, -, -, -, -, ⟨a0, a1⟩, -⟩ := idx_facts t
  funext j
  unfold iblk7
  rw [View.read_apply]
  show V c (Pipeline.arrRef spec7 8) _ = V c (Pipeline.arrRef spec7 8) _
  congr 1
  funext a
  apply Fin.ext
  match a with
  | ⟨0, _⟩ => show win7_8.index t (0 : Fin 2) * 1 + 1 * (j 0).val = (j 0).val; rw [a0]; omega
  | ⟨1, _⟩ => show win7_8.index t (1 : Fin 2) * 128 + 1 * (j 1).val = (j 1).val; rw [a1]; omega

end Cert.KernelIdeal.Node7

end
-- ==== Proof.Node7Value.lean ====
/-
  The node region's value: the result array after the region's ten grid points.

  Point t writes back block t of the result window, which is rows 1000·t … 1000·t + 999 of one function of the
  arrays the region finds, the layer's node update (`flushed_eq`). The ten blocks cover the 10000 rows: row i is in
  the block of point i / 1000 (`cover`). So the array ends holding that function everywhere (`value`).
-/
import proofs.«156944_j45535243272652_2_alg».proof.Proof.Spec
import proofs.«156944_j45535243272652_2_alg».proof.Proof.Node7Blocks
import proofs.«156944_j45535243272652_2_alg».proof.Proof.FrameKI
import Idealize.ShloMosaic.Lib.Pipeline.Value
import Idealize.ShloMosaic.Lib.Tactic

set_option maxRecDepth 16384

noncomputable section

namespace Cert.KernelIdeal.Node7

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- What the region leaves in its result array: the layer's node update of the arrays the region finds. -/
abbrev outArr (c : Dev nD) : S10000x128.Idx → EReal :=
  Cert.Spec.nodeArr (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (V c (Pipeline.arrRef spec7 6)) (V c (Pipeline.arrRef spec7 7)) (V c (Pipeline.arrRef spec7 8))

/-- What point t writes back is block t (rows 1000·t … 1000·t + 999) of that array. -/
theorem flushed_eq (c : Dev nD) (t : Fin cfg7.N) :
    (dat7 (F := Ideal) V c).flushed 9 t = ((cfg7.win 9).blk t).view.read (Elt Ideal) (outArr V c) := by
  obtain ⟨-, -, -, -, -, -, -, -, -, ⟨a0, a1⟩⟩ := idx_facts t
  show (cfg7.win 9).cut (grid7.coords t) ((dat7 (F := Ideal) V c).after 9 t) = _
  rw [after7_9]
  funext y
  show out7_9 (F := Ideal) (iblk7 V c 0 t) (iblk7 V c 1 t) (iblk7 V c 2 t) (iblk7 V c 3 t) (iblk7 V c 4 t) (iblk7 V c 5 t)
      (iblk7 V c 6 t) (iblk7 V c 7 t) (iblk7 V c 8 t) y = outArr V c (((cfg7.win 9).blk t).view.emb y)
  exact block_apply (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (V c (Pipeline.arrRef spec7 6)) (V c (Pipeline.arrRef spec7 7)) (V c (Pipeline.arrRef spec7 8))
    (iblk7 V c 0 t) (iblk7 V c 1 t) (iblk7 V c 2 t) (iblk7 V c 3 t) (iblk7 V c 4 t) (iblk7 V c 5 t)
    (iblk7 V c 6 t) (iblk7 V c 7 t) (iblk7 V c 8 t) t.val
    (fun p k i h0 h1 => rows0 V c t p k i h0 h1) (fun p k i h0 h1 => rows1 V c t p k i h0 h1)
    (whole2 V c t) (whole3 V c t) (whole4 V c t) (whole5 V c t) (whole6 V c t) (whole7 V c t) (whole8 V c t)
    y (((cfg7.win 9).blk t).view.emb y)
    (by show win7_9.index t (0 : Fin 2) * 1000 + 1 * (y 0).val = 1000 * t.val + (y 0).val; rw [a0]; omega)
    (by show win7_9.index t (1 : Fin 2) * 128 + 1 * (y 1).val = (y 1).val; rw [a1]; omega)

/-- An index of the result array is in point t's block iff each coordinate is in the block's range on its axis. -/
theorem mem_blk (t : Fin cfg7.N) (i : S10000x128.Idx) :
    i ∈ ((cfg7.win 9).blk t).view.set ↔ ∀ a : Fin 2, win7_9.index t a * S1000x128.size a ≤ (i a).val ∧ (i a).val < win7_9.index t a * S1000x128.size a + S1000x128.size a := by
  show i ∈ ((View.whole (Pipeline.arrRef spec7 9)).slice (win7_9.rect t)).set ↔ _
  rw [View.set_slice_whole, Rect.mem_set_unit]
  exact Iff.rfl

/-- Every row of the result array is in the block of the point numbered by the row's thousand. -/
theorem cover (i : S10000x128.Idx) : ∃ t : Fin cfg7.N, (cfg7.win 9).flush t = true ∧ i ∈ ((cfg7.win 9).blk t).view.set := by
  have hi0 : (i 0).val < 10000 := (i 0).isLt
  have hi1 : (i 1).val < 128 := (i 1).isLt
  have hN : grid7.N = 10 := N_7
  have ht : (i 0).val / 1000 < cfg7.N := by show _ < grid7.N; rw [hN]; omega
  obtain ⟨-, -, -, -, -, -, -, -, -, ⟨a0, a1⟩⟩ := idx_facts ⟨(i 0).val / 1000, ht⟩
  refine ⟨⟨(i 0).val / 1000, ht⟩, flush7_9 _, ?_⟩
  rw [mem_blk]
  intro a
  match a with
  | ⟨0, _⟩ =>
    show win7_9.index ⟨(i 0).val / 1000, ht⟩ (0 : Fin 2) * 1000 ≤ (i 0).val ∧ (i 0).val < win7_9.index ⟨(i 0).val / 1000, ht⟩ (0 : Fin 2) * 1000 + 1000
    rw [a0]; show (i 0).val / 1000 * 1000 ≤ (i 0).val ∧ (i 0).val < (i 0).val / 1000 * 1000 + 1000; omega
  | ⟨1, _⟩ =>
    show win7_9.index ⟨(i 0).val / 1000, ht⟩ (1 : Fin 2) * 128 ≤ (i 1).val ∧ (i 1).val < win7_9.index ⟨(i 0).val / 1000, ht⟩ (1 : Fin 2) * 128 + 128
    rw [a1]; omega

/-- THE REGION'S VALUE: after its ten points the result array holds the layer's node update of the arrays the region
    found, row by row. -/
theorem value (c : Dev nD) :
    (dat7 (F := Ideal) V c).arrAt 9 cfg7.N
      = Cert.Spec.nodeArr (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) (V c (Pipeline.arrRef spec7 7)) (V c (Pipeline.arrRef spec7 8)) :=
  (dat7 (F := Ideal) V c).arrAt_eq_of_cover 9 (outArr V c) (fun t _ => flushed_eq V c t) cover

end Cert.KernelIdeal.Node7

end
-- ==== Proof.KStage.lean ====
/-
  The kernel program's boundary contents, stage by stage, at the ideal instance.

  The program's result buffer ends at the contents the last boundary gives it. Read backwards: that is the suffix
  function of the features the fourth node region leaves; each node region leaves `kLayer l` of the features the layer
  entered with, the centred positions, the two rows of the edge list and the stacked weights; the first layer enters
  with the embedding `pH` of the input features. Each region's own law — its output array is its kernel's array
  function of its input arrays — is the value theorem of that region.
-/
import proofs.«156944_j45535243272652_2_alg».proof.Proof.KStageP
import proofs.«156944_j45535243272652_2_alg».proof.Proof.KStageL0
import proofs.«156944_j45535243272652_2_alg».proof.Proof.KStageL1
import proofs.«156944_j45535243272652_2_alg».proof.Proof.KStageL2
import proofs.«156944_j45535243272652_2_alg».proof.Proof.KStageL3
import proofs.«156944_j45535243272652_2_alg».proof.Proof.KStageS
import proofs.«156944_j45535243272652_2_alg».proof.Proof.Edge0Value
import proofs.«156944_j45535243272652_2_alg».proof.Proof.Node1Value
import proofs.«156944_j45535243272652_2_alg».proof.Proof.Edge2Value
import proofs.«156944_j45535243272652_2_alg».proof.Proof.Node3Value
import proofs.«156944_j45535243272652_2_alg».proof.Proof.Edge4Value
import proofs.«156944_j45535243272652_2_alg».proof.Proof.Node5Value
import proofs.«156944_j45535243272652_2_alg».proof.Proof.Edge6Value
import proofs.«156944_j45535243272652_2_alg».proof.Proof.Node7Value

set_option maxRecDepth 16384

noncomputable section

namespace Cert.KernelIdeal.KStage

open Cert.KernelIdeal Cert.KernelIdeal.Gen
open Cert.KernelIdeal.GenP
open Idealize.ShloMosaic Idealize.ShloMosaic.TcCoe

variable (m : (ℓ : Loc nD τ sig) → Buf (Elt Ideal) ℓ) (ρ : Dev nD → PrngReg) (c : Dev nD)

/-- The features the first layer enters with: the embedding of the input features. -/
theorem h0 : W5 m ρ c (Proc.devRef .tc main_v4) = pH (m ((c : Thread nD τ).loc main_arg0)) (m ((c : Thread nD τ).loc main_arg4)) (m ((c : Thread nD τ).loc main_arg5)) :=
  h_W5 m ρ c

/-- Layer 0. -/
theorem layer0 :
    W8 m ρ c (Proc.devRef .tc main_v101)
      = kLayer 0 (W5 m ρ c (Proc.devRef .tc main_v4)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [hin0_W5 m ρ c]
  exact layer0_of m ρ c (fun V c => Cert.KernelIdeal.Edge0.value V c) (fun V c => Cert.KernelIdeal.Node1.value V c)

/-- Layer 1. -/
theorem layer1 :
    W14 m ρ c (Proc.devRef .tc main_v175)
      = kLayer 1 (W8 m ρ c (Proc.devRef .tc main_v101)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  layer1_of m ρ c (fun V c => Cert.KernelIdeal.Edge2.value V c) (fun V c => Cert.KernelIdeal.Node3.value V c)

/-- Layer 2. -/
theorem layer2 :
    W20 m ρ c (Proc.devRef .tc main_v249)
      = kLayer 2 (W14 m ρ c (Proc.devRef .tc main_v175)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  layer2_of m ρ c (fun V c => Cert.KernelIdeal.Edge4.value V c) (fun V c => Cert.KernelIdeal.Node5.value V c)

/-- Layer 3. -/
theorem layer3 :
    W26 m ρ c (Proc.devRef .tc main_v323)
      = kLayer 3 (W20 m ρ c (Proc.devRef .tc main_v249)) (pPos (m ((c : Thread nD τ).loc main_arg1)) (m ((c : Thread nD τ).loc main_arg3))) (pSrc (m ((c : Thread nD τ).loc main_arg2))) (pDst (m ((c : Thread nD τ).loc main_arg2))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  layer3_of m ρ c (fun V c => Cert.KernelIdeal.Edge6.value V c) (fun V c => Cert.KernelIdeal.Node7.value V c)

/-- The result: the suffix of the features the last layer leaves. -/
theorem out :
    W29 m ρ c (Proc.devRef .tc main_v343)
      = kSuffix (W26 m ρ c (Proc.devRef .tc main_v323)) (m ((c : Thread nD τ).loc main_arg3)) (m ((c : Thread nD τ).loc main_arg18)) (m ((c : Thread nD τ).loc main_arg19)) (m ((c : Thread nD τ).loc main_arg20)) (m ((c : Thread nD τ).loc main_arg21)) :=
  out_W29 m ρ c

end Cert.KernelIdeal.KStage

end
-- ==== Proof.RStageDefs.lean ====
/-
  The pieces of the reference program that stand around its layer stages, as functions of array variables: the
  prologue (the input embedding, the positions centred per graph, the two rows of the edge list), the readout (the
  per-graph mean of the features through two affine maps), and between a layer's stages the index
  column a vector of node numbers becomes (a negative entry wrapped by the node count), the gathers of features and
  of positions along it, each edge's length, the scatter-add of the messages into their target nodes, and each
  layer's slices of the stacked weight arrays. Each is the composition of host functions the program prints.
-/
import proofs.«156944_j45535243272652_2_alg».proof.ReferenceIdeal

noncomputable section

namespace Cert.ReferenceIdeal.RStage

open Cert.ReferenceIdeal Idealize.ShloMosaic
open Cert.ReferenceIdeal.Facts₀

variable {F : FTy → Type} [FloatOps F] [Facts₀]

/-! ## The prologue -/

/-- The input embedding: the dot product with the weight, plus the bias row broadcast, clamped below at zero. -/
def pH (x : FVec F S10000x11 .f32) (w : FVec F S11x128 .f32) (b : FVec F S128 .f32) : FVec F S10000x128 .f32 :=
  maximumf (addf (Host.dotGeneral dot_S10000x11_S11x128_S10000x128_1_0_0_1_n_n none x w)
      (broadcastInDim S10000x128 ![0, 1] bcast_S1x128_S10000x128_0_1 (broadcastInDim S1x128 ![1] bcast_S128_S1x128_1 b)))
    (broadcastInDim S10000x128 ![] bcast_S_S10000x128 (constant S_ .f32 0x00000000#32))

/-- The batch vector as a column of scatter indices into the 256 graphs. -/
def pBatchCol (batch : IVec S10000 32) : IVec S10000x1 32 :=
  broadcastInDim S10000x1 ![0] bcast_S10000_S10000x1_0 batch

/-- Each graph's node count, clamped below at one, as a column: ones summed per graph. -/
def pCount (batch : IVec S10000 32) : FVec F S256x1 .f32 :=
  maximumf
    (Host.scatterAdd scatter_S256x1_S10000x1_S10000x1_1_0_0_1
      (broadcastInDim S256x1 ![] bcast_S_S256x1 (constant S_ .f32 0x00000000#32))
      (pBatchCol batch)
      (broadcastInDim S10000x1 ![] bcast_S_S10000x1 (constant S_ .f32 0x3F800000#32)))
    (broadcastInDim S256x1 ![] bcast_S_S256x1 (constant S_ .f32 0x3F800000#32))

/-- Each graph's centroid: the positions summed per graph, divided by the graph's clamped node count. -/
def pCentroid (pos : FVec F S10000x3 .f32) (batch : IVec S10000 32) : FVec F S256x3 .f32 :=
  Host.divf
    (Host.scatterAdd scatter_S256x3_S10000x1_S10000x3_1_0_0_1
      (broadcastInDim S256x3 ![] bcast_S_S256x3 (constant S_ .f32 0x00000000#32)) (pBatchCol batch) pos)
    (broadcastInDim S256x3 ![0, 1] bcast_S256x1_S256x3_0_1 (pCount batch))

/-- The batch vector as gather indices into the 256 graphs: a negative entry wrapped by 256, as a column. -/
def pBatchIdx (batch : IVec S10000 32) : IVec S10000x1 32 :=
  broadcastInDim S10000x1 ![0] bcast_S10000_S10000x1_0
    (select (cmpi .slt batch (broadcastInDim S10000 ![] bcast_S_S10000 (constantI S_ 32 0#32)))
      (addi batch (broadcastInDim S10000 ![] bcast_S_S10000 (constantI S_ 32 256#32))) batch)

/-- The centred positions: each node's position minus its graph's centroid. -/
def pPos (pos : FVec F S10000x3 .f32) (batch : IVec S10000 32) : FVec F S10000x3 .f32 :=
  subf pos (Host.gather gather_S256x3_S10000x1_S10000x3_1_0_n_n_0_1_13 (pCentroid pos batch) (pBatchIdx batch))

/-- Row 0 of the edge list as a vector. -/
def pSrc (ei : IVec S2x250000 32) : IVec S250000 32 :=
  fun i => shapeCast S250000 (extractStridedSlice S1x250000 ![0, 0] ei slices_S2x250000_S1x250000_0_0) shapeCasts_S1x250000_S250000 i

/-- Row 1 of the edge list as a vector. -/
def pDst (ei : IVec S2x250000 32) : IVec S250000 32 :=
  fun i => shapeCast S250000 (extractStridedSlice S1x250000 ![1, 0] ei slices_S2x250000_S1x250000_1_0) shapeCasts_S1x250000_S250000 i

/-! ## Between the stages of a layer -/

/-- A vector of node numbers as row indices into the 10000 nodes: a negative entry wrapped by 10000, as a column. -/
def eIdx (i : IVec S250000 32) : IVec S250000x1 32 :=
  broadcastInDim S250000x1 ![0] bcast_S250000_S250000x1_0
    (select (cmpi .slt i (broadcastInDim S250000 ![] bcast_S_S250000 (constantI S_ 32 0#32)))
      (addi i (broadcastInDim S250000 ![] bcast_S_S250000 (constantI S_ 32 10000#32))) i)

/-- The node features gathered along a vector of node numbers: one row per edge. -/
def eGatherH (h : FVec F S10000x128 .f32) (i : IVec S250000 32) : FVec F S250000x128 .f32 :=
  Host.gather gather_S10000x128_S250000x1_S250000x128_1_0_n_n_0_1_1128 h (eIdx i)

/-- The centred positions gathered along a vector of node numbers. -/
def eGatherPos (pos : FVec F S10000x3 .f32) (i : IVec S250000 32) : FVec F S250000x3 .f32 :=
  Host.gather gather_S10000x3_S250000x1_S250000x3_1_0_n_n_0_1_13 pos (eIdx i)

/-- The Euclidean norm of each row of three, as a column: the root of the row's sum of squares. -/
def eNorm (d : FVec F S250000x3 .f32) : FVec F S250000x1 .f32 :=
  Host.sqrt (broadcastInDim S250000x1 ![0] bcast_S250000_S250000x1_0
    (Host.reduceAdd (mulf d d) (constant S_ .f32 0x00000000#32) reducesTo_S250000x3_S250000_d1 h_S_))

/-- Each edge's length: the norm of the target's position minus the source's. -/
def eDist (pos : FVec F S10000x3 .f32) (src dst : IVec S250000 32) : FVec F S250000x1 .f32 :=
  eNorm (subf (eGatherPos pos dst) (eGatherPos pos src))

/-- The messages summed into their target nodes: a scatter-add into zeros along the target vector as a column. -/
def rAgg (dst : IVec S250000 32) (msg : FVec F S250000x128 .f32) : FVec F S10000x128 .f32 :=
  Host.scatterAdd scatter_S10000x128_S250000x1_S250000x128_1_0_0_1
    (broadcastInDim S10000x128 ![] bcast_S_S10000x128 (constant S_ .f32 0x00000000#32))
    (broadcastInDim S250000x1 ![0] bcast_S250000_S250000x1_0 dst) msg

/-- Layer 0's first edge weight: block 0 of the stacked 4×257×128 array, as a 257×128 matrix. -/
def sliceW1_0 (a : FVec F S4x257x128 .f32) : FVec F S257x128 .f32 :=
  fun i => shapeCast S257x128 (extractStridedSlice S1x257x128 ![0, 0, 0] a slices_S4x257x128_S1x257x128_0_0_0) shapeCasts_S1x257x128_S257x128 i

/-- Layer 0's row of a stacked 4×128 array, as a vector of 128. -/
def sliceV_0 (a : FVec F S4x128 .f32) : FVec F S128 .f32 :=
  fun i => shapeCast S128 (extractStridedSlice S1x128 ![0, 0] a slices_S4x128_S1x128_0_0) shapeCasts_S1x128_S128 i

/-- Layer 0's block of a stacked 4×128×128 array, as a 128×128 matrix. -/
def sliceW_0 (a : FVec F S4x128x128 .f32) : FVec F S128x128 .f32 :=
  fun i => shapeCast S128x128 (extractStridedSlice S1x128x128 ![0, 0, 0] a slices_S4x128x128_S1x128x128_0_0_0) shapeCasts_S1x128x128_S128x128 i

/-- Layer 0's gate column: block 0 of the stacked 4×128×1 array, as a 128×1 matrix. -/
def sliceAw_0 (a : FVec F S4x128x1 .f32) : FVec F S128x1 .f32 :=
  fun i => shapeCast S128x1 (extractStridedSlice S1x128x1 ![0, 0, 0] a slices_S4x128x1_S1x128x1_0_0_0) shapeCasts_S1x128x1_S128x1 i

/-- Layer 0's gate bias: row 0 of the stacked 4×1 array, as a vector of one. -/
def sliceAb_0 (a : FVec F S4x1 .f32) : FVec F S1 .f32 :=
  fun i => shapeCast S1 (extractStridedSlice S1x1 ![0, 0] a slices_S4x1_S1x1_0_0) shapeCasts_S1x1_S1 i

/-- Layer 0's first node weight: block 0 of the stacked 4×256×128 array, as a 256×128 matrix. -/
def sliceWn1_0 (a : FVec F S4x256x128 .f32) : FVec F S256x128 .f32 :=
  fun i => shapeCast S256x128 (extractStridedSlice S1x256x128 ![0, 0, 0] a slices_S4x256x128_S1x256x128_0_0_0) shapeCasts_S1x256x128_S256x128 i

/-- Layer 1's first edge weight: block 1 of the stacked 4×257×128 array, as a 257×128 matrix. -/
def sliceW1_1 (a : FVec F S4x257x128 .f32) : FVec F S257x128 .f32 :=
  fun i => shapeCast S257x128 (extractStridedSlice S1x257x128 ![1, 0, 0] a slices_S4x257x128_S1x257x128_1_0_0) shapeCasts_S1x257x128_S257x128 i

/-- Layer 1's row of a stacked 4×128 array, as a vector of 128. -/
def sliceV_1 (a : FVec F S4x128 .f32) : FVec F S128 .f32 :=
  fun i => shapeCast S128 (extractStridedSlice S1x128 ![1, 0] a slices_S4x128_S1x128_1_0) shapeCasts_S1x128_S128 i

/-- Layer 1's block of a stacked 4×128×128 array, as a 128×128 matrix. -/
def sliceW_1 (a : FVec F S4x128x128 .f32) : FVec F S128x128 .f32 :=
  fun i => shapeCast S128x128 (extractStridedSlice S1x128x128 ![1, 0, 0] a slices_S4x128x128_S1x128x128_1_0_0) shapeCasts_S1x128x128_S128x128 i

/-- Layer 1's gate column: block 1 of the stacked 4×128×1 array, as a 128×1 matrix. -/
def sliceAw_1 (a : FVec F S4x128x1 .f32) : FVec F S128x1 .f32 :=
  fun i => shapeCast S128x1 (extractStridedSlice S1x128x1 ![1, 0, 0] a slices_S4x128x1_S1x128x1_1_0_0) shapeCasts_S1x128x1_S128x1 i

/-- Layer 1's gate bias: row 1 of the stacked 4×1 array, as a vector of one. -/
def sliceAb_1 (a : FVec F S4x1 .f32) : FVec F S1 .f32 :=
  fun i => shapeCast S1 (extractStridedSlice S1x1 ![1, 0] a slices_S4x1_S1x1_1_0) shapeCasts_S1x1_S1 i

/-- Layer 1's first node weight: block 1 of the stacked 4×256×128 array, as a 256×128 matrix. -/
def sliceWn1_1 (a : FVec F S4x256x128 .f32) : FVec F S256x128 .f32 :=
  fun i => shapeCast S256x128 (extractStridedSlice S1x256x128 ![1, 0, 0] a slices_S4x256x128_S1x256x128_1_0_0) shapeCasts_S1x256x128_S256x128 i

/-- Layer 2's first edge weight: block 2 of the stacked 4×257×128 array, as a 257×128 matrix. -/
def sliceW1_2 (a : FVec F S4x257x128 .f32) : FVec F S257x128 .f32 :=
  fun i => shapeCast S257x128 (extractStridedSlice S1x257x128 ![2, 0, 0] a slices_S4x257x128_S1x257x128_2_0_0) shapeCasts_S1x257x128_S257x128 i

/-- Layer 2's row of a stacked 4×128 array, as a vector of 128. -/
def sliceV_2 (a : FVec F S4x128 .f32) : FVec F S128 .f32 :=
  fun i => shapeCast S128 (extractStridedSlice S1x128 ![2, 0] a slices_S4x128_S1x128_2_0) shapeCasts_S1x128_S128 i

/-- Layer 2's block of a stacked 4×128×128 array, as a 128×128 matrix. -/
def sliceW_2 (a : FVec F S4x128x128 .f32) : FVec F S128x128 .f32 :=
  fun i => shapeCast S128x128 (extractStridedSlice S1x128x128 ![2, 0, 0] a slices_S4x128x128_S1x128x128_2_0_0) shapeCasts_S1x128x128_S128x128 i

/-- Layer 2's gate column: block 2 of the stacked 4×128×1 array, as a 128×1 matrix. -/
def sliceAw_2 (a : FVec F S4x128x1 .f32) : FVec F S128x1 .f32 :=
  fun i => shapeCast S128x1 (extractStridedSlice S1x128x1 ![2, 0, 0] a slices_S4x128x1_S1x128x1_2_0_0) shapeCasts_S1x128x1_S128x1 i

/-- Layer 2's gate bias: row 2 of the stacked 4×1 array, as a vector of one. -/
def sliceAb_2 (a : FVec F S4x1 .f32) : FVec F S1 .f32 :=
  fun i => shapeCast S1 (extractStridedSlice S1x1 ![2, 0] a slices_S4x1_S1x1_2_0) shapeCasts_S1x1_S1 i

/-- Layer 2's first node weight: block 2 of the stacked 4×256×128 array, as a 256×128 matrix. -/
def sliceWn1_2 (a : FVec F S4x256x128 .f32) : FVec F S256x128 .f32 :=
  fun i => shapeCast S256x128 (extractStridedSlice S1x256x128 ![2, 0, 0] a slices_S4x256x128_S1x256x128_2_0_0) shapeCasts_S1x256x128_S256x128 i

/-- Layer 3's first edge weight: block 3 of the stacked 4×257×128 array, as a 257×128 matrix. -/
def sliceW1_3 (a : FVec F S4x257x128 .f32) : FVec F S257x128 .f32 :=
  fun i => shapeCast S257x128 (extractStridedSlice S1x257x128 ![3, 0, 0] a slices_S4x257x128_S1x257x128_3_0_0) shapeCasts_S1x257x128_S257x128 i

/-- Layer 3's row of a stacked 4×128 array, as a vector of 128. -/
def sliceV_3 (a : FVec F S4x128 .f32) : FVec F S128 .f32 :=
  fun i => shapeCast S128 (extractStridedSlice S1x128 ![3, 0] a slices_S4x128_S1x128_3_0) shapeCasts_S1x128_S128 i

/-- Layer 3's block of a stacked 4×128×128 array, as a 128×128 matrix. -/
def sliceW_3 (a : FVec F S4x128x128 .f32) : FVec F S128x128 .f32 :=
  fun i => shapeCast S128x128 (extractStridedSlice S1x128x128 ![3, 0, 0] a slices_S4x128x128_S1x128x128_3_0_0) shapeCasts_S1x128x128_S128x128 i

/-- Layer 3's gate column: block 3 of the stacked 4×128×1 array, as a 128×1 matrix. -/
def sliceAw_3 (a : FVec F S4x128x1 .f32) : FVec F S128x1 .f32 :=
  fun i => shapeCast S128x1 (extractStridedSlice S1x128x1 ![3, 0, 0] a slices_S4x128x1_S1x128x1_3_0_0) shapeCasts_S1x128x1_S128x1 i

/-- Layer 3's gate bias: row 3 of the stacked 4×1 array, as a vector of one. -/
def sliceAb_3 (a : FVec F S4x1 .f32) : FVec F S1 .f32 :=
  fun i => shapeCast S1 (extractStridedSlice S1x1 ![3, 0] a slices_S4x1_S1x1_3_0) shapeCasts_S1x1_S1 i

/-- Layer 3's first node weight: block 3 of the stacked 4×256×128 array, as a 256×128 matrix. -/
def sliceWn1_3 (a : FVec F S4x256x128 .f32) : FVec F S256x128 .f32 :=
  fun i => shapeCast S256x128 (extractStridedSlice S1x256x128 ![3, 0, 0] a slices_S4x256x128_S1x256x128_3_0_0) shapeCasts_S1x256x128_S256x128 i

/-! ## The readout -/

/-- The mean of the node features per graph: the features summed per graph, divided by the clamped node count. -/
def sPool (h : FVec F S10000x128 .f32) (batch : IVec S10000 32) : FVec F S256x128 .f32 :=
  Host.divf
    (Host.scatterAdd scatter_S256x128_S10000x1_S10000x128_1_0_0_1
      (broadcastInDim S256x128 ![] bcast_S_S256x128 (constant S_ .f32 0x00000000#32)) (pBatchCol batch) h)
    (broadcastInDim S256x128 ![0, 1] bcast_S256x1_S256x128_0_1 (pCount batch))

/-- The readout: the pooled features through an affine map, clamped below at zero, through a second affine map to one
    number per graph. -/
def rSuffix (h : FVec F S10000x128 .f32) (batch : IVec S10000 32) (w1 : FVec F S128x128 .f32) (b1 : FVec F S128 .f32)
    (w2 : FVec F S128x1 .f32) (b2 : FVec F S1 .f32) : FVec F S256x1 .f32 :=
  addf
    (Host.dotGeneral dot_S256x128_S128x1_S256x1_1_0_0_1_n_n none
      (maximumf
        (addf (Host.dotGeneral dot_S256x128_S128x128_S256x128_1_0_0_1_n_n none (sPool h batch) w1)
          (broadcastInDim S256x128 ![0, 1] bcast_S1x128_S256x128_0_1 (broadcastInDim S1x128 ![1] bcast_S128_S1x128_1 b1)))
        (broadcastInDim S256x128 ![] bcast_S_S256x128 (constant S_ .f32 0x00000000#32)))
      w2)
    (broadcastInDim S256x1 ![0, 1] bcast_S1x1_S256x1_0_1 (broadcastInDim S1x1 ![1] bcast_S1_S1x1_1 b2))

end Cert.ReferenceIdeal.RStage

end
-- ==== Proof.REdgeRow.lean ====
/-
  The row-level mathematics of the reference's edge stage, over plain functions of finite index types into the
  extended reals; no program is imported.

  A sum over 257 terms is the sum of its first 128 terms, of its next 128 terms and of its last term; the host's
  spelling of the sigmoid, `1 / (1 + exp (−x))` with the constant one, is `Ideal.logistic x`.
-/
import Idealize.ShloMosaic.PureOps.Ideal
import Idealize.ShloMosaic.Lib.ValueIdx
import Idealize.ShloMosaic.Lib.IdealHost

noncomputable section

open scoped BigOperators

namespace Cert.ReferenceIdeal.REdge

open Idealize.ShloMosaic

/-- A sum over `Fin 257`: the first 128 terms, the next 128 terms (shifted by 128), and the term at 256. Addition of
    extended reals is commutative and associative, so nothing about finiteness is needed. -/
theorem sum_fin257 (f : Fin 257 → EReal) :
    ∑ k : Fin 257, f k
      = (∑ k : Fin 128, f ⟨k.val, by omega⟩) + (∑ k : Fin 128, f ⟨128 + k.val, by omega⟩) + f ⟨256, by omega⟩ := by
  rw [Fin.sum_univ_castSucc (n := 256)]
  refine congrArg₂ (· + ·) ?_ rfl
  exact Fin.sum_univ_add (a := 128) (b := 128) (fun i : Fin (128 + 128) => f (Fin.castSucc (n := 256) i))

/-- The host's expansion of the sigmoid, with the f32 pattern of one for both constants, is the ideal sigmoid. -/
theorem logistic_expansion (x : EReal) :
    Ideal.div (Ideal.ofBits .f32 0x3F800000#32) (Ideal.ofBits .f32 0x3F800000#32 + Ideal.exp (-x)) = Ideal.logistic x := by
  rw [Ideal.ofBits_one_f32]; rfl

end Cert.ReferenceIdeal.REdge

end
-- ==== Proof.REdgeTerm.lean ====
/-
  The reference's edge stage as one term over array variables, and each of its operations read at an index (at the
  ideal values).

  The concatenation of the two gathered feature arrays and the length column, read at column k, is the first array for
  k < 128, the second (at k − 128) for 128 ≤ k < 256 and the length at k = 256; each matrix product is the sum over its
  contracted coordinate; a bias row broadcast to every edge reads the bias at the column; the gate column broadcast
  to every feature reads the gate at the row.
-/
import proofs.«156944_j45535243272652_2_alg».proof.ReferenceIdeal
import proofs.«156944_j45535243272652_2_alg».proof.Proof.REdgeRow
import Idealize.ShloMosaic.Lib.Pipeline.Value
import Idealize.ShloMosaic.Lib.StackMember
import Idealize.ShloMosaic.Lib.IdealHost

noncomputable section

open scoped BigOperators

namespace Cert.ReferenceIdeal.REdge

open Idealize.ShloMosaic Idealize.ShloMosaic.ValueIdx
open Cert.ReferenceIdeal.Facts₀

/-! ## The stage, operation by operation -/

section Defs
variable {F : FTy → Type} [FloatOps F] [Facts₀]

/-- The activation `x · (1 / (1 + exp (−x)))` on an edge-sized array, as the program spells it. -/
def siluT (x : FVec F S250000x128 .f32) : FVec F S250000x128 .f32 :=
  mulf x
    (Host.divf (broadcastInDim S250000x128 ![] bcast_S_S250000x128 (constant S_ .f32 0x3F800000#32))
      (addf (broadcastInDim S250000x128 ![] bcast_S_S250000x128 (constant S_ .f32 0x3F800000#32)) (Host.exp (Host.negf x))))

/-- The first affine map: the concatenated row times the 257×128 weights, plus the bias row. -/
def eaT (hi hj : FVec F S250000x128 .f32) (dist : FVec F S250000x1 .f32) (W1 : FVec F S257x128 .f32) (b1v : FVec F S128 .f32) :
    FVec F S250000x128 .f32 :=
  addf
    (Host.dotGeneral dot_S250000x257_S257x128_S250000x128_1_0_0_1_n_n none
      (concatenate S250000x257 1 [⟨S250000x128, hi⟩, ⟨S250000x128, hj⟩, ⟨S250000x1, dist⟩]
        concatenates_S250000x128_S250000x128_S250000x1_S250000x257_d1) W1)
    (broadcastInDim S250000x128 ![0, 1] bcast_S1x128_S250000x128_0_1 (broadcastInDim S1x128 ![1] bcast_S128_S1x128_1 b1v))

/-- The second affine map and its activation, from the first map's values. -/
def m2T (ea : FVec F S250000x128 .f32) (W2 : FVec F S128x128 .f32) (b2v : FVec F S128 .f32) : FVec F S250000x128 .f32 :=
  siluT
    (addf (Host.dotGeneral dot_S250000x128_S128x128_S250000x128_1_0_0_1_n_n none (siluT ea) W2)
      (broadcastInDim S250000x128 ![0, 1] bcast_S1x128_S250000x128_0_1 (broadcastInDim S1x128 ![1] bcast_S128_S1x128_1 b2v)))

/-- The gate column: the sigmoid of the second map's rows against the attention vector, plus its bias. -/
def gateT (m2 : FVec F S250000x128 .f32) (aw : FVec F S128x1 .f32) (abv : FVec F S1 .f32) : FVec F S250000x1 .f32 :=
  Host.divf (broadcastInDim S250000x1 ![] bcast_S_S250000x1 (constant S_ .f32 0x3F800000#32))
    (addf (broadcastInDim S250000x1 ![] bcast_S_S250000x1 (constant S_ .f32 0x3F800000#32))
      (Host.exp (Host.negf
        (addf (Host.dotGeneral dot_S250000x128_S128x1_S250000x1_1_0_0_1_n_n none m2 aw)
          (broadcastInDim S250000x1 ![0, 1] bcast_S1x1_S250000x1_0_1 (broadcastInDim S1x1 ![1] bcast_S1_S1x1_1 abv))))))

/-- The edge stage: the second map's values times the gate, the gate broadcast along the features. -/
def term (hi hj : FVec F S250000x128 .f32) (dist : FVec F S250000x1 .f32) (W1 : FVec F S257x128 .f32) (b1v : FVec F S128 .f32)
    (W2 : FVec F S128x128 .f32) (b2v : FVec F S128 .f32) (aw : FVec F S128x1 .f32) (abv : FVec F S1 .f32) :
    FVec F S250000x128 .f32 :=
  mulf (m2T (eaT hi hj dist W1 b1v) W2 b2v)
    (broadcastInDim S250000x128 ![0, 1] bcast_S250000x1_S250000x128_0_1 (gateT (m2T (eaT hi hj dist W1 b1v) W2 b2v) aw abv))

end Defs

/-! ## The layout operations at an index -/

section Layout
variable [Facts₀] {α : Type}

/-- The concatenation at a column below 128 is the first array. -/
theorem concat_apply_fst (hi hj : S250000x128.Idx → α) (dist : S250000x1.Idx → α) (e : Fin 250000) (k : Fin 128) :
    concatenate S250000x257 1 [⟨S250000x128, hi⟩, ⟨S250000x128, hj⟩, ⟨S250000x1, dist⟩]
        concatenates_S250000x128_S250000x128_S250000x1_S250000x257_d1 (ix2 e (⟨k.val, by omega⟩ : Fin 257))
      = hi (ix2 e k) := by
  refine concatenate_apply_piece (t := S250000x257) (1 : Fin 2) [⟨S250000x128, hi⟩, ⟨S250000x128, hj⟩, ⟨S250000x1, dist⟩] _ _
    0 (by show (0 : ℕ) < 3; omega) S250000x128 hi rfl rfl 0 rfl (ix2 e k) ?_ ?_
  · intro b hb
    match b with
    | ⟨0, _⟩ => rfl
    | ⟨1, _⟩ => exact absurd rfl hb
  · exact Nat.zero_add _

/-- The concatenation at a column 128 + k, k below 128, is the second array at column k. -/
theorem concat_apply_snd (hi hj : S250000x128.Idx → α) (dist : S250000x1.Idx → α) (e : Fin 250000) (k : Fin 128) :
    concatenate S250000x257 1 [⟨S250000x128, hi⟩, ⟨S250000x128, hj⟩, ⟨S250000x1, dist⟩]
        concatenates_S250000x128_S250000x128_S250000x1_S250000x257_d1 (ix2 e (⟨128 + k.val, by omega⟩ : Fin 257))
      = hj (ix2 e k) := by
  refine concatenate_apply_piece (t := S250000x257) (1 : Fin 2) [⟨S250000x128, hi⟩, ⟨S250000x128, hj⟩, ⟨S250000x1, dist⟩] _ _
    1 (by show (1 : ℕ) < 3; omega) S250000x128 hj rfl rfl 128 rfl (ix2 e k) ?_ ?_
  · intro b hb
    match b with
    | ⟨0, _⟩ => rfl
    | ⟨1, _⟩ => exact absurd rfl hb
  · rfl

/-- The concatenation at column 256 is the length column. -/
theorem concat_apply_last (hi hj : S250000x128.Idx → α) (dist : S250000x1.Idx → α) (e : Fin 250000) :
    concatenate S250000x257 1 [⟨S250000x128, hi⟩, ⟨S250000x128, hj⟩, ⟨S250000x1, dist⟩]
        concatenates_S250000x128_S250000x128_S250000x1_S250000x257_d1 (ix2 e (⟨256, by omega⟩ : Fin 257))
      = dist (ix2 e (0 : Fin 1)) := by
  refine concatenate_apply_piece (t := S250000x257) (1 : Fin 2) [⟨S250000x128, hi⟩, ⟨S250000x128, hj⟩, ⟨S250000x1, dist⟩] _ _
    2 (by show (2 : ℕ) < 3; omega) S250000x1 dist rfl rfl 256 rfl (ix2 e (0 : Fin 1)) ?_ ?_
  · intro b hb
    match b with
    | ⟨0, _⟩ => rfl
    | ⟨1, _⟩ => exact absurd rfl hb
  · rfl

/-- A 128-vector made a row and repeated for every edge reads the vector at the column. -/
theorem bias_row_apply (b : S128.Idx → α) (e : Fin 250000) (c : Fin 128) :
    broadcastInDim S250000x128 ![0, 1] bcast_S1x128_S250000x128_0_1 (broadcastInDim S1x128 ![1] bcast_S128_S1x128_1 b) (ix2 e c)
      = b (ix1 c) := by
  rw [broadcastInDim_apply _ _ _ (ix2 e c) (ix2 (0 : Fin 1) c) (fun a => by match a with | ⟨0, _⟩ => rfl | ⟨1, _⟩ => rfl)]
  exact broadcastInDim_apply _ _ _ (ix2 (0 : Fin 1) c) (ix1 c) (fun a => by match a with | ⟨0, _⟩ => rfl)

/-- A one-element vector made 1×1 and repeated for every edge reads its element. -/
theorem bias_col_apply (b : S1.Idx → α) (e : Fin 250000) :
    broadcastInDim S250000x1 ![0, 1] bcast_S1x1_S250000x1_0_1 (broadcastInDim S1x1 ![1] bcast_S1_S1x1_1 b) (ix2 e (0 : Fin 1))
      = b (ix1 (0 : Fin 1)) := by
  rw [broadcastInDim_apply _ _ _ (ix2 e (0 : Fin 1)) (ix2 (0 : Fin 1) (0 : Fin 1))
    (fun a => by match a with | ⟨0, _⟩ => rfl | ⟨1, _⟩ => rfl)]
  exact broadcastInDim_apply _ _ _ (ix2 (0 : Fin 1) (0 : Fin 1)) (ix1 (0 : Fin 1)) (fun a => by match a with | ⟨0, _⟩ => rfl)

/-- A column repeated along the 128 features reads the column at the row. -/
theorem gate_bcast_apply (g : S250000x1.Idx → α) (e : Fin 250000) (c : Fin 128) :
    broadcastInDim S250000x128 ![0, 1] bcast_S250000x1_S250000x128_0_1 g (ix2 e c) = g (ix2 e (0 : Fin 1)) :=
  broadcastInDim_apply _ _ _ (ix2 e c) (ix2 e (0 : Fin 1)) (fun a => by match a with | ⟨0, _⟩ => rfl | ⟨1, _⟩ => rfl)

end Layout

/-! ## The three matrix products at an index -/

section Dots
variable [Facts₀]

theorem dot257_apply (A : FVec Ideal S250000x257 .f32) (B : FVec Ideal S257x128 .f32) (e : Fin 250000) (c : Fin 128) :
    Host.dotGeneral (F := Ideal) dot_S250000x257_S257x128_S250000x128_1_0_0_1_n_n none A B (ix2 e c)
      = ∑ k : Fin 257, A (ix2 e k) * B (ix2 k c) :=
  StackMember.dotGeneral_plain_apply (m := 250000) (k := 257) (n := 128) none A B e c

theorem dot128_apply (A : FVec Ideal S250000x128 .f32) (B : FVec Ideal S128x128 .f32) (e : Fin 250000) (c : Fin 128) :
    Host.dotGeneral (F := Ideal) dot_S250000x128_S128x128_S250000x128_1_0_0_1_n_n none A B (ix2 e c)
      = ∑ k : Fin 128, A (ix2 e k) * B (ix2 k c) :=
  StackMember.dotGeneral_plain_apply (m := 250000) (k := 128) (n := 128) none A B e c

theorem dot128x1_apply (A : FVec Ideal S250000x128 .f32) (B : FVec Ideal S128x1 .f32) (e : Fin 250000) :
    Host.dotGeneral (F := Ideal) dot_S250000x128_S128x1_S250000x1_1_0_0_1_n_n none A B (ix2 e (0 : Fin 1))
      = ∑ k : Fin 128, A (ix2 e k) * B (ix2 k (0 : Fin 1)) :=
  StackMember.dotGeneral_plain_apply (m := 250000) (k := 128) (n := 1) none A B e (0 : Fin 1)

end Dots

/-! ## The stages at an index -/

section Stages
variable [Facts₀]

/-- The activation at an index: the element times its sigmoid. -/
theorem siluT_apply (x : FVec Ideal S250000x128 .f32) (i : S250000x128.Idx) :
    siluT (F := Ideal) x i = x i * Ideal.logistic (x i) := by
  rw [← logistic_expansion]; rfl

/-- The first affine map at an index: the 257-term contraction, split where the concatenation changes piece, plus
    the bias. -/
theorem eaT_apply (hi hj : FVec Ideal S250000x128 .f32) (dist : FVec Ideal S250000x1 .f32) (W1 : FVec Ideal S257x128 .f32)
    (b1v : FVec Ideal S128 .f32) (e : Fin 250000) (c : Fin 128) :
    eaT (F := Ideal) hi hj dist W1 b1v (ix2 e c)
      = (∑ k : Fin 128, hi (ix2 e k) * W1 (ix2 (⟨k.val, by omega⟩ : Fin 257) c))
        + (∑ k : Fin 128, hj (ix2 e k) * W1 (ix2 (⟨128 + k.val, by omega⟩ : Fin 257) c))
        + dist (ix2 e (0 : Fin 1)) * W1 (ix2 (⟨256, by omega⟩ : Fin 257) c) + b1v (ix1 c) := by
  unfold eaT
  rw [addf_apply, dot257_apply, bias_row_apply, sum_fin257]
  simp only [concat_apply_fst, concat_apply_snd, concat_apply_last]

/-- The second affine map, activated, at an index. -/
theorem m2T_apply (ea : FVec Ideal S250000x128 .f32) (W2 : FVec Ideal S128x128 .f32) (b2v : FVec Ideal S128 .f32)
    (e : Fin 250000) (c : Fin 128) :
    m2T (F := Ideal) ea W2 b2v (ix2 e c)
      = ((∑ k : Fin 128, (ea (ix2 e k) * Ideal.logistic (ea (ix2 e k))) * W2 (ix2 k c)) + b2v (ix1 c))
        * Ideal.logistic ((∑ k : Fin 128, (ea (ix2 e k) * Ideal.logistic (ea (ix2 e k))) * W2 (ix2 k c)) + b2v (ix1 c)) := by
  unfold m2T
  rw [siluT_apply, addf_apply, dot128_apply, bias_row_apply]
  simp only [siluT_apply]

/-- The gate at a row: the sigmoid of the row's product with the attention vector, plus the bias. -/
theorem gateT_apply (m2 : FVec Ideal S250000x128 .f32) (aw : FVec Ideal S128x1 .f32) (abv : FVec Ideal S1 .f32) (e : Fin 250000) :
    gateT (F := Ideal) m2 aw abv (ix2 e (0 : Fin 1))
      = Ideal.logistic ((∑ k : Fin 128, m2 (ix2 e k) * aw (ix2 k (0 : Fin 1))) + abv (ix1 (0 : Fin 1))) := by
  rw [← logistic_expansion, ← dot128x1_apply m2 aw e, ← bias_col_apply abv e]; rfl

/-- The stage at an index: the second map's value there times the row's gate. -/
theorem term_apply (hi hj : FVec Ideal S250000x128 .f32) (dist : FVec Ideal S250000x1 .f32) (W1 : FVec Ideal S257x128 .f32)
    (b1v : FVec Ideal S128 .f32) (W2 : FVec Ideal S128x128 .f32) (b2v : FVec Ideal S128 .f32) (aw : FVec Ideal S128x1 .f32)
    (abv : FVec Ideal S1 .f32) (e : Fin 250000) (c : Fin 128) :
    term (F := Ideal) hi hj dist W1 b1v W2 b2v aw abv (ix2 e c)
      = m2T (F := Ideal) (eaT (F := Ideal) hi hj dist W1 b1v) W2 b2v (ix2 e c)
        * gateT (F := Ideal) (m2T (F := Ideal) (eaT (F := Ideal) hi hj dist W1 b1v) W2 b2v) aw abv (ix2 e (0 : Fin 1)) := by
  unfold term
  rw [mulf_apply, gate_bcast_apply]

end Stages

end Cert.ReferenceIdeal.REdge

end
-- ==== Proof.RNodeLaw.lean ====
/-
  Extended-real laws behind the reference's node stage, apart from any program.

  * A sum over 256 indices is the sum over the first 128 plus the sum over the last 128.
  * The f32 pattern of 128.0 is the real 128; the pattern nearest 1e-5 is a positive real.
  * A product of an extended real with itself is never negative (bottom times bottom is top), so a sum of such
    squares divided by 128 is never negative, and adding a positive epsilon gives a positive quantity.
  * For a positive y (a positive real, or top) the quotient by the square root is the product with the
    reciprocal root: x / sqrt y = x * rsqrt y. At top both sides are x * 0; at a positive real both sides are
    x times the real reciprocal of the real root. (At y <= 0 the two differ, which is why positivity is needed.)
-/
import Idealize.ShloMosaic.PureOps.Ideal
import Idealize.ShloMosaic.Lib.IdealHost

noncomputable section

namespace Cert.ReferenceIdeal.RNode

open Idealize.ShloMosaic
open scoped BigOperators

/-- A sum over 256 indices, split at 128. -/
theorem sum256_split (f : Fin 256 → EReal) :
    ∑ k : Fin 256, f k
      = (∑ k : Fin 128, f ⟨k.val, by have := k.isLt; omega⟩) + ∑ k : Fin 128, f ⟨128 + k.val, by have := k.isLt; omega⟩ := by
  have h := Fin.sum_univ_add (a := 128) (b := 128) (f := fun i : Fin (128 + 128) => f ⟨i.val, by have := i.isLt; omega⟩)
  simp only [Fin.val_castAdd, Fin.val_natAdd] at h
  exact h

/-- The f32 pattern 0x43000000 is the real 128. -/
theorem ofBits_128 : Ideal.ofBits .f32 0x43000000#32 = ((128 : ℝ) : EReal) := by
  simp [Ideal.ofBits, Ideal.ieee, -EReal.coe_mul]; norm_num

/-- The f32 pattern 0x3727C5AC (nearest 1e-5) is positive. -/
theorem ofBits_eps_pos : (0 : EReal) < Ideal.ofBits .f32 0x3727C5AC#32 := by
  simp [Ideal.ofBits, Ideal.ieee, -EReal.coe_mul]

/-- 128 is positive. -/
theorem ofBits_128_pos : (0 : EReal) < Ideal.ofBits .f32 0x43000000#32 := by
  rw [ofBits_128]; exact EReal.coe_pos.mpr (by norm_num)

theorem ofBits_128_ne_zero : Ideal.ofBits .f32 0x43000000#32 ≠ 0 := ne_of_gt ofBits_128_pos

/-- The signed 32-bit zero converted to a float is zero, and 128 less zero is 128. -/
theorem c128_sub_zero :
    Ideal.ofBits .f32 0x43000000#32 - (((0#32 : BitVec 32).toInt : ℝ) : EReal) = Ideal.ofBits .f32 0x43000000#32 := by
  simp

/-- The comparison 128 > 0 holds: its bit is one. -/
theorem cmp_128_gt_zero : Ideal.cmp .ogt (Ideal.ofBits .f32 0x43000000#32) 0 = 1#1 := by
  simp [Ideal.cmp, ofBits_128_pos]

/-- An extended real times itself is not negative. -/
theorem mul_self_nonneg' (d : EReal) : 0 ≤ d * d :=
  EReal.mul_nonneg_iff.mpr ((le_total 0 d).imp (fun h => ⟨h, h⟩) (fun h => ⟨h, h⟩))

/-- A quantity that is not negative, divided by 128, is not negative. -/
theorem div128_nonneg {S : EReal} (hS : 0 ≤ S) : 0 ≤ Ideal.div S (Ideal.ofBits .f32 0x43000000#32) := by
  unfold Ideal.div
  rw [if_neg ofBits_128_ne_zero]
  exact EReal.mul_nonneg hS (EReal.inv_nonneg_of_nonneg ofBits_128_pos.le)

/-- A sum of squares of deviations over 128, plus epsilon, is positive. -/
theorem var_add_eps_pos (d : Fin 128 → EReal) :
    0 < Ideal.div (∑ c : Fin 128, d c * d c) (Ideal.ofBits .f32 0x43000000#32) + Ideal.ofBits .f32 0x3727C5AC#32 :=
  lt_of_lt_of_le ofBits_eps_pos
    (le_add_of_nonneg_left (div128_nonneg (Finset.sum_nonneg fun c _ => mul_self_nonneg' (d c))))

/-- THE ROOT LAW: for positive y, dividing by the square root is multiplying by the reciprocal root. -/
theorem div_sqrt_eq_mul_rsqrt (x : EReal) {y : EReal} (hy : 0 < y) : Ideal.div x (Ideal.sqrt y) = x * Ideal.rsqrt y := by
  induction y using EReal.rec with
  | bot => exact absurd hy (not_lt.mpr bot_le)
  | top =>
    show Ideal.div x ⊤ = x * 0
    unfold Ideal.div
    rw [if_neg (by simp), EReal.inv_top]
  | coe r =>
    have hr : 0 < r := EReal.coe_pos.mp hy
    have hs : 0 < Real.sqrt r := Real.sqrt_pos.mpr hr
    have e1 : Ideal.sqrt (r : EReal) = ((Real.sqrt r : ℝ) : EReal) := by
      show (if r < 0 then (⊥ : EReal) else ((Real.sqrt r : ℝ) : EReal)) = _
      rw [if_neg (not_lt.mpr hr.le)]
    have e2 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e1, e2]
    unfold Ideal.div
    rw [if_neg (EReal.coe_ne_zero.mpr hs.ne'), EReal.coe_inv]

end Cert.ReferenceIdeal.RNode

end
-- ==== Proof.RNodeRead.lean ====
/-
  The reference's host operations of the node stage, each read at one index of its result.

  A row vector [128] broadcast to [1,128] and then to [10000,128] reads, at (n, c), the vector at c.
  A column [10000,1] broadcast to [10000,128] reads, at (n, c), the column at (n, 0); a vector [10000] broadcast to
  [10000,1] reads, at (n, 0), the vector at n; a scalar broadcast anywhere reads the scalar.
  The sum over axis 1 of a [10000,128] array from the initial value 0.0 reads, at n, the sum over c of the array at (n, c).
  A product with one contracted axis reads, at (n, c), the sum over the contracted coordinate k of l(n,k) · r(k,c).
  The concatenation of two [10000,128] arrays along axis 1 reads, at (n, k), the first at (n, k) for k < 128 and the
  second at (n, k − 128) for 128 ≤ k < 256.
-/
import proofs.«156944_j45535243272652_2_alg».proof.ReferenceIdeal
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.RNode

open Idealize.ShloMosaic Idealize.ShloMosaic.ValueIdx
open scoped BigOperators

variable [Facts₀]
open Facts₀

/-! ## Broadcasts -/

section Broadcasts
variable {α : Type}

/-- [128] → [1,128] → [10000,128] at (n, c) is the vector at c. -/
theorem bcastRow_apply (v : S128.Idx → α) (n : Fin 10000) (c : Fin 128) :
    broadcastInDim S10000x128 ![0, 1] bcast_S1x128_S10000x128_0_1 (broadcastInDim S1x128 ![1] bcast_S128_S1x128_1 v) (ix2 n c)
      = v (ix1 c) := by
  refine (broadcastInDim_apply ![0, 1] bcast_S1x128_S10000x128_0_1 _ (ix2 n c) (ix2 (0 : Fin 1) c) ?_).trans ?_
  · intro a; match a with | ⟨0, _⟩ => rfl | ⟨1, _⟩ => rfl
  · refine broadcastInDim_apply ![1] bcast_S128_S1x128_1 v (ix2 (0 : Fin 1) c) (ix1 c) ?_
    intro a; match a with | ⟨0, _⟩ => rfl

/-- [10000,1] → [10000,128] at (n, c) is the column at (n, 0). -/
theorem bcastCol_apply (v : S10000x1.Idx → α) (n : Fin 10000) (c : Fin 128) :
    broadcastInDim S10000x128 ![0, 1] bcast_S10000x1_S10000x128_0_1 v (ix2 n c) = v (ix2 n (0 : Fin 1)) := by
  refine broadcastInDim_apply ![0, 1] bcast_S10000x1_S10000x128_0_1 v (ix2 n c) (ix2 n (0 : Fin 1)) ?_
  intro a; match a with | ⟨0, _⟩ => rfl | ⟨1, _⟩ => rfl

/-- [10000] → [10000,1] at (n, 0) is the vector at n. -/
theorem bcastKeep_apply (v : S10000.Idx → α) (n : Fin 10000) :
    broadcastInDim S10000x1 ![0] bcast_S10000_S10000x1_0 v (ix2 n (0 : Fin 1)) = v (ix1 n) := by
  refine broadcastInDim_apply ![0] bcast_S10000_S10000x1_0 v (ix2 n (0 : Fin 1)) (ix1 n) ?_
  intro a; match a with | ⟨0, _⟩ => rfl

/-- A scalar → [10000,1] reads the scalar. -/
theorem bcastS1_apply (v : S_.Idx → α) (j : S10000x1.Idx) :
    broadcastInDim S10000x1 ![] bcast_S_S10000x1 v j = v ix0 :=
  broadcastInDim_scalar_apply bcast_S_S10000x1 v j

/-- A scalar → [10000,128] reads the scalar. -/
theorem bcastS128_apply (v : S_.Idx → α) (j : S10000x128.Idx) :
    broadcastInDim S10000x128 ![] bcast_S_S10000x128 v j = v ix0 :=
  broadcastInDim_scalar_apply bcast_S_S10000x128 v j

end Broadcasts

/-! ## The row sum -/

/-- The host sum over axis 1 from 0.0, at n: the sum over c of the array at (n, c). -/
theorem rowSum_apply (x : FVec Ideal S10000x128 .f32) (n : Fin 10000) :
    Host.reduceAdd x (constant (F := Ideal) S_ .f32 0x00000000#32) reducesTo_S10000x128_S10000_d1 h_S_ (ix1 n)
      = ∑ c : Fin 128, x (ix2 n c) := by
  refine (Ideal.hostReduceAdd_single reducesTo_S10000x128_S10000_d1 (by decide) x _ (ix1 n)).trans ?_
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

/-! ## The two products -/

theorem lhs_d256_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch from List.not_mem_nil), dif_pos (show (0 : Fin S10000x256.rank) ∈ dot_S10000x256_S256x128_S10000x128_1_0_0_1_n_n.lhsNonContracting from List.mem_singleton.mpr rfl)]
  rfl
theorem lhs_d256_1 (i : S10000x128.Idx) (q : dot_S10000x256_S256x128_S10000x128_1_0_0_1_n_n.contr.Idx) :
    (dot_S10000x256_S256x128_S10000x128_1_0_0_1_n_n.lhsIdx i q 1).val = (q ⟨0, Nat.one_pos⟩).val :=
  dot_S10000x256_S256x128_S10000x128_1_0_0_1_n_n.lhsIdx_val_of_single rfl i q
theorem rhs_d256_0 (i : S10000x128.Idx) (q : dot_S10000x256_S256x128_S10000x128_1_0_0_1_n_n.contr.Idx) :
    (dot_S10000x256_S256x128_S10000x128_1_0_0_1_n_n.rhsIdx i q 0).val = (q ⟨0, Nat.one_pos⟩).val :=
  dot_S10000x256_S256x128_S10000x128_1_0_0_1_n_n.rhsIdx_val_of_single rfl i q
theorem rhs_d256_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch from List.not_mem_nil), dif_pos (show (1 : Fin S256x128.rank) ∈ dot_S10000x256_S256x128_S10000x128_1_0_0_1_n_n.rhsNonContracting from List.mem_singleton.mpr rfl)]
  rfl

/-- The product of a [10000,256] array with a [256,128] array at (n, c): the sum over k of l(n,k) · r(k,c). -/
theorem d256_apply (l : FVec Ideal S10000x256 .f32) (r : FVec Ideal S256x128 .f32) (n : Fin 10000) (c : Fin 128) :
    Host.dotGeneral dot_S10000x256_S256x128_S10000x128_1_0_0_1_n_n none l r (ix2 n c) = ∑ k : Fin 256, l (ix2 n k) * r (ix2 k c) := by
  simp only [Host.dotGeneral]
  rw [Ideal.dotGeneral_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx (ix2 n c) ((ValueIdx.contrEquiv1 dot_S10000x256_S256x128_S10000x128_1_0_0_1_n_n 256 rfl rfl).symm k) = ix2 n k := funext fun a => Fin.ext (by
    match a with
    | ⟨0, _⟩ => exact lhs_d256_0 _ _
    | ⟨1, _⟩ => exact (lhs_d256_1 _ _).trans hk)
  have er : dot_S10000x256_S256x128_S10000x128_1_0_0_1_n_n.rhsIdx (ix2 n c) ((ValueIdx.contrEquiv1 dot_S10000x256_S256x128_S10000x128_1_0_0_1_n_n 256 rfl rfl).symm k) = ix2 k c := funext fun a => Fin.ext (by
    match a with
    | ⟨0, _⟩ => exact (rhs_d256_0 _ _).trans hk
    | ⟨1, _⟩ => exact rhs_d256_1 _ _)
  rw [el, er]

theorem lhs_d128_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch from List.not_mem_nil), dif_pos (show (0 : Fin S10000x128.rank) ∈ dot_S10000x128_S128x128_S10000x128_1_0_0_1_n_n.lhsNonContracting from List.mem_singleton.mpr rfl)]
  rfl
theorem lhs_d128_1 (i : S10000x128.Idx) (q : dot_S10000x128_S128x128_S10000x128_1_0_0_1_n_n.contr.Idx) :
    (dot_S10000x128_S128x128_S10000x128_1_0_0_1_n_n.lhsIdx i q 1).val = (q ⟨0, Nat.one_pos⟩).val :=
  dot_S10000x128_S128x128_S10000x128_1_0_0_1_n_n.lhsIdx_val_of_single rfl i q
theorem rhs_d128_0 (i : S10000x128.Idx) (q : dot_S10000x128_S128x128_S10000x128_1_0_0_1_n_n.contr.Idx) :
    (dot_S10000x128_S128x128_S10000x128_1_0_0_1_n_n.rhsIdx i q 0).val = (q ⟨0, Nat.one_pos⟩).val :=
  dot_S10000x128_S128x128_S10000x128_1_0_0_1_n_n.rhsIdx_val_of_single rfl i q
theorem rhs_d128_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch from List.not_mem_nil), dif_pos (show (1 : Fin S128x128.rank) ∈ dot_S10000x128_S128x128_S10000x128_1_0_0_1_n_n.rhsNonContracting from List.mem_singleton.mpr rfl)]
  rfl

/-- The product of a [10000,128] array with a [128,128] array at (n, c): the sum over k of l(n,k) · r(k,c). -/
theorem d128_apply (l : FVec Ideal S10000x128 .f32) (r : FVec Ideal S128x128 .f32) (n : Fin 10000) (c : Fin 128) :
    Host.dotGeneral dot_S10000x128_S128x128_S10000x128_1_0_0_1_n_n none l r (ix2 n c) = ∑ k : Fin 128, l (ix2 n k) * r (ix2 k c) := by
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 n c) ((ValueIdx.contrEquiv1 dot_S10000x128_S128x128_S10000x128_1_0_0_1_n_n 128 rfl rfl).symm k) = ix2 n k := funext fun a => Fin.ext (by
    match a with
    | ⟨0, _⟩ => exact lhs_d128_0 _ _
    | ⟨1, _⟩ => exact (lhs_d128_1 _ _).trans hk)
  have er : dot_S10000x128_S128x128_S10000x128_1_0_0_1_n_n.rhsIdx (ix2 n c) ((ValueIdx.contrEquiv1 dot_S10000x128_S128x128_S10000x128_1_0_0_1_n_n 128 rfl rfl).symm k) = ix2 k c := funext fun a => Fin.ext (by
    match a with
    | ⟨0, _⟩ => exact (rhs_d128_0 _ _).trans hk
    | ⟨1, _⟩ => exact rhs_d128_1 _ _)
  rw [el, er]

/-! ## The concatenation along axis 1 -/

section Concat
variable {α : Type}

/-- At a column below 128 the concatenation reads the first array. -/
theorem cat_apply_left (a b : S10000x128.Idx → α) (n : Fin 10000) (k : Fin 128) :
    concatenate S10000x256 1 [⟨S10000x128, a⟩, ⟨S10000x128, b⟩] concatenates_S10000x128_S10000x128_S10000x256_d1
        (ix2 n (⟨k.val, by have := k.isLt; omega⟩ : Fin 256)) = a (ix2 n k) :=
  concatenate_pair_apply_left 1 a b concatenates_S10000x128_S10000x128_S10000x256_d1 _ rfl (ix2 n k)
    (by intro b; match b with | ⟨0, _⟩ => rfl | ⟨1, _⟩ => rfl)

/-- At a column 128 + k the concatenation reads the second array at column k. -/
theorem cat_apply_right (a b : S10000x128.Idx → α) (n : Fin 10000) (k : Fin 128) :
    concatenate S10000x256 1 [⟨S10000x128, a⟩, ⟨S10000x128, b⟩] concatenates_S10000x128_S10000x128_S10000x256_d1
        (ix2 n (⟨128 + k.val, by have := k.isLt; omega⟩ : Fin 256)) = b (ix2 n k) :=
  concatenate_pair_apply_right 1 a b concatenates_S10000x128_S10000x128_S10000x256_d1 _ rfl rfl (ix2 n k)
    (by
      intro b hb
      match b, hb with
      | ⟨0, _⟩, _ => rfl
      | ⟨1, _⟩, hb => exact absurd rfl hb)
    (by show k.val + 128 = 128 + k.val; omega)

end Concat

end Cert.ReferenceIdeal.RNode

end
-- ==== Proof.RNode.lean ====
/-
  The reference's node stage as one function of its buffers, and its value at every index.

  `term` composes, in program order, the operations the reference prints for one layer's node update: the
  concatenation of the features with the aggregated messages, the first affine map, the activation x · (1 / (1 + exp (−x))),
  the second affine map, the residual, and the layer normalisation as the reference spells it: mean over the 128
  features, the variance function (mean again, deviations, their squares summed, divided by 128 − 0, selected against
  a NaN constant by the test 128 − 0 > 0), and the quotient of the deviations by the square root of variance + epsilon,
  scaled and shifted.

  At an index (n, c):
  * the 256-term contraction splits at 128 into the features' part and the messages' part;
  * the activation is `Spec.silu` because the pattern of 1.0 is the real one;
  * the test 128 − 0 > 0 is true, so the select returns the variance and the NaN constant is never read;
  * variance + epsilon is positive (squares are never negative on the extended reals), so the quotient by the square
    root is the product with the reciprocal root, which is how the specification spells the normalisation.
-/
import proofs.«156944_j45535243272652_2_alg».proof.ReferenceIdeal
import proofs.«156944_j45535243272652_2_alg».proof.Proof.Spec
import proofs.«156944_j45535243272652_2_alg».proof.Proof.RNodeLaw
import proofs.«156944_j45535243272652_2_alg».proof.Proof.RNodeRead

noncomputable section

namespace Cert.ReferenceIdeal.RNode

open Idealize.ShloMosaic Idealize.ShloMosaic.ValueIdx
open scoped BigOperators

variable [Facts₀]
open Facts₀

/-! ## The printed functions, composed -/

section Terms
variable {F : FTy → Type} [FloatOps F]

/-- The activation function's body: x · (1 / (1 + exp (−x))), each 1 a broadcast scalar constant. -/
def siluT (x : FVec F S10000x128 .f32) : FVec F S10000x128 .f32 :=
  mulf x
    (Host.divf (broadcastInDim S10000x128 ![] bcast_S_S10000x128 (constant (F := F) S_ .f32 0x3F800000#32))
      (addf (broadcastInDim S10000x128 ![] bcast_S_S10000x128 (constant (F := F) S_ .f32 0x3F800000#32)) (Host.exp (Host.negf x))))

/-- The select function's body: the value where the scalar condition holds, else the broadcast scalar. -/
def whereT (p : IVec S_ 1) (a : FVec F S10000x1 .f32) (z : FVec F S_ .f32) : FVec F S10000x1 .f32 :=
  (fun p a b => select (broadcastInDim S10000x1 ![] bcast_S_S10000x1 p) a b) p a
    (broadcastInDim S10000x1 ![] bcast_S_S10000x1 (id z))

/-- A row's mean, kept as a column: the row sum from 0.0, divided by the broadcast constant 128.0. -/
def meanT (x : FVec F S10000x128 .f32) : FVec F S10000x1 .f32 :=
  Host.divf
    (broadcastInDim S10000x1 ![0] bcast_S10000_S10000x1_0
      ((fun x v => Host.reduceAdd x v reducesTo_S10000x128_S10000_d1 h_S_) x (constant (F := F) S_ .f32 0x00000000#32)))
    (broadcastInDim S10000x1 ![] bcast_S_S10000x1 (constant (F := F) S_ .f32 0x43000000#32))

/-- The variance function's body, with its integer argument (the degrees of freedom removed). -/
def varT (x : FVec F S10000x128 .f32) (dd : IVec S_ 32) : FVec F S10000x1 .f32 :=
  whereT
    (cmpf .ogt (subf (constant (F := F) S_ .f32 0x43000000#32) (sitofp .f32 dd)) (constant (F := F) S_ .f32 0x00000000#32))
    (Host.divf
      (broadcastInDim S10000x1 ![0] bcast_S10000_S10000x1_0
        ((fun x v => Host.reduceAdd x v reducesTo_S10000x128_S10000_d1 h_S_)
          (mulf (subf x (broadcastInDim S10000x128 ![0, 1] bcast_S10000x1_S10000x128_0_1 (meanT x)))
            (subf x (broadcastInDim S10000x128 ![0, 1] bcast_S10000x1_S10000x128_0_1 (meanT x))))
          (constant (F := F) S_ .f32 0x00000000#32)))
      (broadcastInDim S10000x1 ![] bcast_S_S10000x1
        (subf (constant (F := F) S_ .f32 0x43000000#32) (sitofp .f32 dd))))
    (constant (F := F) S_ .f32 0x7FC00000#32)

/-- The residual: the features plus the two-layer update of the concatenated row. -/
def residT (h agg : FVec F S10000x128 .f32) (Wn1 : FVec F S256x128 .f32) (nb1v : FVec F S128 .f32)
    (Wn2 : FVec F S128x128 .f32) (nb2v : FVec F S128 .f32) : FVec F S10000x128 .f32 :=
  addf h
    (addf
      ((fun l r => Host.dotGeneral dot_S10000x128_S128x128_S10000x128_1_0_0_1_n_n none l r)
        (siluT
          (addf
            ((fun l r => Host.dotGeneral dot_S10000x256_S256x128_S10000x128_1_0_0_1_n_n none l r)
              ((fun a b => concatenate S10000x256 1 [⟨S10000x128, a⟩, ⟨S10000x128, b⟩] concatenates_S10000x128_S10000x128_S10000x256_d1) h agg)
              Wn1)
            (broadcastInDim S10000x128 ![0, 1] bcast_S1x128_S10000x128_0_1 (broadcastInDim S1x128 ![1] bcast_S128_S1x128_1 nb1v))))
        Wn2)
      (broadcastInDim S10000x128 ![0, 1] bcast_S1x128_S10000x128_0_1 (broadcastInDim S1x128 ![1] bcast_S128_S1x128_1 nb2v)))

/-- The normalisation of an array's rows, as the reference spells it. -/
def normT (x : FVec F S10000x128 .f32) (gv bv : FVec F S128 .f32) : FVec F S10000x128 .f32 :=
  addf
    (mulf
      (Host.divf
        (subf x (broadcastInDim S10000x128 ![0, 1] bcast_S10000x1_S10000x128_0_1 (meanT x)))
        (broadcastInDim S10000x128 ![0, 1] bcast_S10000x1_S10000x128_0_1
          (Host.sqrt
            (addf (varT x (constantI S_ 32 0#32))
              (broadcastInDim S10000x1 ![] bcast_S_S10000x1 (constant (F := F) S_ .f32 0x3727C5AC#32))))))
      (broadcastInDim S10000x128 ![0, 1] bcast_S1x128_S10000x128_0_1 (broadcastInDim S1x128 ![1] bcast_S128_S1x128_1 gv)))
    (broadcastInDim S10000x128 ![0, 1] bcast_S1x128_S10000x128_0_1 (broadcastInDim S1x128 ![1] bcast_S128_S1x128_1 bv))

/-- The node stage's result as a function of its eight buffers. -/
def term (h agg : FVec F S10000x128 .f32) (Wn1 : FVec F S256x128 .f32) (nb1v : FVec F S128 .f32)
    (Wn2 : FVec F S128x128 .f32) (nb2v gv bv : FVec F S128 .f32) : FVec F S10000x128 .f32 :=
  normT (residT h agg Wn1 nb1v Wn2 nb2v) gv bv

end Terms

/-! ## Their values at an index, at the ideal instance -/

/-- The host's square root at an index is the ideal square root of the element. -/
theorem hostSqrt_apply {s : Shape} {φ : FTy} (a : FVec Ideal s φ) (i : s.Idx) : Host.sqrt a i = Ideal.sqrt (a i) := rfl

/-- The activation at an index. -/
theorem siluT_apply (x : FVec Ideal S10000x128 .f32) (j : S10000x128.Idx) : siluT x j = Cert.Spec.silu (x j) := by
  unfold siluT
  simp only [mulf_apply, hostDivf_apply, addf_apply, bcastS128_apply (α := Ideal .f32), constant_apply, Ideal.ofBits_one_f32]
  rfl

/-- The mean column at row n is the row's mean. -/
theorem meanT_apply (x : FVec Ideal S10000x128 .f32) (n : Fin 10000) :
    meanT x (ix2 n (0 : Fin 1)) = Cert.Spec.rowMean (fun c => x (ix2 n c)) := by
  unfold meanT
  simp only [hostDivf_apply, bcastKeep_apply (α := Ideal .f32), bcastS1_apply (α := Ideal .f32), rowSum_apply, constant_apply]
  rfl

/-- The variance function at row n, at zero degrees of freedom removed, is the row's variance. -/
theorem varT_apply (x : FVec Ideal S10000x128 .f32) (n : Fin 10000) :
    varT x (constantI S_ 32 0#32) (ix2 n (0 : Fin 1)) = Cert.Spec.rowVar (fun c => x (ix2 n c)) := by
  unfold varT whereT
  simp only [select_apply, bcastS1_apply (α := Ideal .f32), bcastS1_apply (α := BitVec 1), cmpf_apply, subf_apply, sitofp_apply,
    constant_apply, hostDivf_apply, bcastKeep_apply (α := Ideal .f32), rowSum_apply, mulf_apply, bcastCol_apply (α := Ideal .f32), meanT_apply, id]
  show Scalar.select (Ideal.cmp .ogt (Ideal.ofBits .f32 0x43000000#32 - (((0#32 : BitVec 32).toInt : ℝ) : EReal))
      (Ideal.ofBits .f32 0x00000000#32)) _ _ = _
  rw [c128_sub_zero, Ideal.ofBits_zero_f32, cmp_128_gt_zero, select_one]
  show Ideal.div _ (Ideal.ofBits .f32 0x43000000#32 - (((0#32 : BitVec 32).toInt : ℝ) : EReal)) = _
  rw [c128_sub_zero]
  rfl

/-- The residual at (n, c) is the specification's residual row. -/
theorem residT_apply (h agg : FVec Ideal S10000x128 .f32) (Wn1 : FVec Ideal S256x128 .f32) (nb1v : FVec Ideal S128 .f32)
    (Wn2 : FVec Ideal S128x128 .f32) (nb2v : FVec Ideal S128 .f32) (n : Fin 10000) (c : Fin 128) :
    residT h agg Wn1 nb1v Wn2 nb2v (ix2 n c)
      = Cert.Spec.nodeHr (fun k => h (ix2 n k)) (fun k => agg (ix2 n k))
          (fun j k => Wn1 (ix2 (⟨j.val, by have := j.isLt; omega⟩ : Fin 256) k))
          (fun j k => Wn1 (ix2 (⟨128 + j.val, by have := j.isLt; omega⟩ : Fin 256) k))
          (fun k => nb1v (ix1 k)) (fun k c => Wn2 (ix2 k c)) (fun k => nb2v (ix1 k)) c := by
  unfold residT Cert.Spec.nodeHr
  simp only [addf_apply, d128_apply, d256_apply, bcastRow_apply (α := Ideal .f32), siluT_apply]
  refine congrArg (h (ix2 n c) + ·) (congrArg (· + nb2v (ix1 c)) (Finset.sum_congr rfl fun k _ => ?_))
  refine congrArg (fun t => Cert.Spec.silu (t + nb1v (ix1 k)) * Wn2 (ix2 k c)) ?_
  rw [sum256_split]
  refine congrArg₂ (· + ·) (Finset.sum_congr rfl fun j _ => ?_) (Finset.sum_congr rfl fun j _ => ?_)
  · rw [cat_apply_left]
  · rw [cat_apply_right]

/-- The normalisation at (n, c) is the specification's layer normalisation of row n. -/
theorem normT_apply (x : FVec Ideal S10000x128 .f32) (gv bv : FVec Ideal S128 .f32) (n : Fin 10000) (c : Fin 128) :
    normT x gv bv (ix2 n c)
      = Cert.Spec.layerNormRow (fun k => x (ix2 n k)) (fun k => gv (ix1 k)) (fun k => bv (ix1 k)) c := by
  unfold normT Cert.Spec.layerNormRow
  simp only [addf_apply, mulf_apply, hostDivf_apply, hostSqrt_apply, subf_apply, bcastCol_apply (α := Ideal .f32), bcastRow_apply (α := Ideal .f32),
    meanT_apply, varT_apply, bcastS1_apply (α := Ideal .f32), constant_apply]
  have hpos : 0 < Cert.Spec.rowVar (fun k => x (ix2 n k)) + Cert.Spec.cEps :=
    var_add_eps_pos fun k => x (ix2 n k) - Cert.Spec.rowMean (fun k => x (ix2 n k))
  show Ideal.div _ (Ideal.sqrt (Cert.Spec.rowVar (fun k => x (ix2 n k)) + Cert.Spec.cEps)) * _ + _ = _
  rw [div_sqrt_eq_mul_rsqrt _ hpos]

/-! ## The stage -/

/-- The reference's node stage is the specification's node array of its buffers: the first weight's rows 0 … 127
    act on the features and its rows 128 … 255 on the aggregated messages. -/
theorem term_eq (h agg : FVec Ideal S10000x128 .f32) (Wn1 : FVec Ideal S256x128 .f32) (nb1v : FVec Ideal S128 .f32)
    (Wn2 : FVec Ideal S128x128 .f32) (nb2v gv bv : FVec Ideal S128 .f32) :
    term h agg Wn1 nb1v Wn2 nb2v gv bv
      = Cert.Spec.nodeArr h agg
          (fun i => Wn1 (ix2 (⟨(i 0).val, by have := idx2_lt0 i; omega⟩ : Fin 256) (i 1)))
          (fun i => Wn1 (ix2 (⟨128 + (i 0).val, by have := idx2_lt0 i; omega⟩ : Fin 256) (i 1)))
          (fun i => nb1v (ix1 (i 1))) Wn2 (fun i => nb2v (ix1 (i 1))) (fun i => gv (ix1 (i 1))) (fun i => bv (ix1 (i 1))) := by
  funext i
  obtain ⟨n, c, rfl⟩ : ∃ (n : Fin 10000) (c : Fin 128), i = ix2 n c := ⟨i 0, i 1, eq_ix2 i⟩
  unfold term
  rw [normT_apply]
  show _ = Cert.Spec.layerNormRow
      (Cert.Spec.nodeHr (fun k => h (ix2 n k)) (fun k => agg (ix2 n k))
        (fun j k => Wn1 (ix2 (⟨j.val, by have := j.isLt; omega⟩ : Fin 256) k))
        (fun j k => Wn1 (ix2 (⟨128 + j.val, by have := j.isLt; omega⟩ : Fin 256) k))
        (fun k => nb1v (ix1 k)) (fun k c => Wn2 (ix2 k c)) (fun k => nb2v (ix1 k)))
      (fun k => gv (ix1 k)) (fun k => bv (ix1 k)) c
  refine congrArg (fun v => Cert.Spec.layerNormRow v (fun k => gv (ix1 k)) (fun k => bv (ix1 k)) c) ?_
  funext k
  exact residT_apply h agg Wn1 nb1v Wn2 nb2v n k

end Cert.ReferenceIdeal.RNode

end
-- ==== Proof.RStageLayer.lean ====
/-
  One layer of the reference program as a function of array variables: the features, the centred positions, the two
  edge vectors and the twelve stacked weight arrays. The edge stage (`REdge.term`) runs on the features gathered at
  each edge's target and source and on the edge lengths; its messages are summed into their target nodes; the node
  stage (`RNode.term`) runs on the features and that aggregate. The four layers differ only in the block of each
  stacked weight array they read.
-/
import proofs.«156944_j45535243272652_2_alg».proof.Proof.RStageDefs
import proofs.«156944_j45535243272652_2_alg».proof.Proof.REdgeTerm
import proofs.«156944_j45535243272652_2_alg».proof.Proof.RNode

noncomputable section

namespace Cert.ReferenceIdeal.RStage

open Cert.ReferenceIdeal Idealize.ShloMosaic
open Cert.ReferenceIdeal.Facts₀

variable {F : FTy → Type} [FloatOps F] [Facts₀]

/-- Layer 0: the node stage of the features and of the aggregate of the edge stage's messages, with layer 0's slices of
    the twelve stacked weight arrays. -/
def rLayer_0 (h : FVec F S10000x128 .f32) (p : FVec F S10000x3 .f32) (src dst : IVec S250000 32)
    (A6 : FVec F S4x257x128 .f32) (A7 : FVec F S4x128 .f32) (A8 : FVec F S4x128x128 .f32) (A9 : FVec F S4x128 .f32) (A10 : FVec F S4x128x1 .f32) (A11 : FVec F S4x1 .f32)
    (A12 : FVec F S4x256x128 .f32) (A13 : FVec F S4x128 .f32) (A14 : FVec F S4x128x128 .f32) (A15 : FVec F S4x128 .f32) (A16 : FVec F S4x128 .f32) (A17 : FVec F S4x128 .f32) :
    FVec F S10000x128 .f32 :=
  RNode.term h
    (rAgg dst (REdge.term (eGatherH h dst) (eGatherH h src) (eDist p src dst)
      (sliceW1_0 A6) (sliceV_0 A7) (sliceW_0 A8) (sliceV_0 A9) (sliceAw_0 A10) (sliceAb_0 A11)))
    (sliceWn1_0 A12) (sliceV_0 A13) (sliceW_0 A14) (sliceV_0 A15) (sliceV_0 A16) (sliceV_0 A17)

/-- Layer 1: the node stage of the features and of the aggregate of the edge stage's messages, with layer 1's slices of
    the twelve stacked weight arrays. -/
def rLayer_1 (h : FVec F S10000x128 .f32) (p : FVec F S10000x3 .f32) (src dst : IVec S250000 32)
    (A6 : FVec F S4x257x128 .f32) (A7 : FVec F S4x128 .f32) (A8 : FVec F S4x128x128 .f32) (A9 : FVec F S4x128 .f32) (A10 : FVec F S4x128x1 .f32) (A11 : FVec F S4x1 .f32)
    (A12 : FVec F S4x256x128 .f32) (A13 : FVec F S4x128 .f32) (A14 : FVec F S4x128x128 .f32) (A15 : FVec F S4x128 .f32) (A16 : FVec F S4x128 .f32) (A17 : FVec F S4x128 .f32) :
    FVec F S10000x128 .f32 :=
  RNode.term h
    (rAgg dst (REdge.term (eGatherH h dst) (eGatherH h src) (eDist p src dst)
      (sliceW1_1 A6) (sliceV_1 A7) (sliceW_1 A8) (sliceV_1 A9) (sliceAw_1 A10) (sliceAb_1 A11)))
    (sliceWn1_1 A12) (sliceV_1 A13) (sliceW_1 A14) (sliceV_1 A15) (sliceV_1 A16) (sliceV_1 A17)

/-- Layer 2: the node stage of the features and of the aggregate of the edge stage's messages, with layer 2's slices of
    the twelve stacked weight arrays. -/
def rLayer_2 (h : FVec F S10000x128 .f32) (p : FVec F S10000x3 .f32) (src dst : IVec S250000 32)
    (A6 : FVec F S4x257x128 .f32) (A7 : FVec F S4x128 .f32) (A8 : FVec F S4x128x128 .f32) (A9 : FVec F S4x128 .f32) (A10 : FVec F S4x128x1 .f32) (A11 : FVec F S4x1 .f32)
    (A12 : FVec F S4x256x128 .f32) (A13 : FVec F S4x128 .f32) (A14 : FVec F S4x128x128 .f32) (A15 : FVec F S4x128 .f32) (A16 : FVec F S4x128 .f32) (A17 : FVec F S4x128 .f32) :
    FVec F S10000x128 .f32 :=
  RNode.term h
    (rAgg dst (REdge.term (eGatherH h dst) (eGatherH h src) (eDist p src dst)
      (sliceW1_2 A6) (sliceV_2 A7) (sliceW_2 A8) (sliceV_2 A9) (sliceAw_2 A10) (sliceAb_2 A11)))
    (sliceWn1_2 A12) (sliceV_2 A13) (sliceW_2 A14) (sliceV_2 A15) (sliceV_2 A16) (sliceV_2 A17)

/-- Layer 3: the node stage of the features and of the aggregate of the edge stage's messages, with layer 3's slices of
    the twelve stacked weight arrays. -/
def rLayer_3 (h : FVec F S10000x128 .f32) (p : FVec F S10000x3 .f32) (src dst : IVec S250000 32)
    (A6 : FVec F S4x257x128 .f32) (A7 : FVec F S4x128 .f32) (A8 : FVec F S4x128x128 .f32) (A9 : FVec F S4x128 .f32) (A10 : FVec F S4x128x1 .f32) (A11 : FVec F S4x1 .f32)
    (A12 : FVec F S4x256x128 .f32) (A13 : FVec F S4x128 .f32) (A14 : FVec F S4x128x128 .f32) (A15 : FVec F S4x128 .f32) (A16 : FVec F S4x128 .f32) (A17 : FVec F S4x128 .f32) :
    FVec F S10000x128 .f32 :=
  RNode.term h
    (rAgg dst (REdge.term (eGatherH h dst) (eGatherH h src) (eDist p src dst)
      (sliceW1_3 A6) (sliceV_3 A7) (sliceW_3 A8) (sliceV_3 A9) (sliceAw_3 A10) (sliceAb_3 A11)))
    (sliceWn1_3 A12) (sliceV_3 A13) (sliceW_3 A14) (sliceV_3 A15) (sliceV_3 A16) (sliceV_3 A17)

end Cert.ReferenceIdeal.RStage

end
-- ==== Proof.RStageP.lean ====
/-
  The reference program's prologue (statements %0 … %27), read back at an arbitrary valuation of the buffers.

  Four values leave it: the input embedding; the positions with each graph's centroid subtracted; and the two rows of
  the edge list as vectors. Each is the composition of the host functions the program prints (`pH`, `pPos`, `pSrc`,
  `pDst`), applied to the valuation at the argument buffers.
-/
import proofs.«156944_j45535243272652_2_alg».proof.Proof.RRun
import proofs.«156944_j45535243272652_2_alg».proof.Proof.RStageDefs
import Idealize.ShloMosaic.Lib.StableHlo.Run

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- After the prologue the embedding's buffer holds `pH` of the inputs, the weight and the bias. -/
theorem opsP_h (V : Valuation τ sig (Elt F)) :
    after opsP V (main_v4 : DevRef τ sig)
      = pH (V (main_arg0 : DevRef τ sig)) (V (main_arg4 : DevRef τ sig)) (V (main_arg5 : DevRef τ sig)) := by
  after_results_simp
  rfl

/-- After the prologue the centred positions' buffer holds `pPos` of the positions and the batch vector. -/
theorem opsP_pos (V : Valuation τ sig (Elt F)) :
    after opsP V (main_v23 : DevRef τ sig) = pPos (V (main_arg1 : DevRef τ sig)) (V (main_arg3 : DevRef τ sig)) := by
  after_results_simp
  rfl

/-- After the prologue the source vector's buffer holds row 0 of the edge list. -/
theorem opsP_src (V : Valuation τ sig (Elt F)) :
    after opsP V (main_v25 : DevRef τ sig) = pSrc (V (main_arg2 : DevRef τ sig)) := by
  after_results_simp
  rfl

/-- After the prologue the target vector's buffer holds row 1 of the edge list. -/
theorem opsP_dst (V : Valuation τ sig (Elt F)) :
    after opsP V (main_v27 : DevRef τ sig) = pDst (V (main_arg2 : DevRef τ sig)) := by
  after_results_simp
  rfl

end Cert.ReferenceIdeal.RStage

end
-- ==== Proof.LibNary3.lean ====
/-
  The result of a StableHLO operation over a LITERAL family of three operand references (a three-piece
  `stablehlo.concatenate`, printed `nary ![a, b, c] y f`), with each operand's contents AT ITS OWN REFERENCE:
  `Fin.cons (F ↑a) (Fin.cons (F ↑b) (Fin.cons (F ↑c) _))` in place of `fun k => F ↑(![a, b, c] k)`. Under the binder
  the reference `![a, b, c] k` is no literal and no result lemma of the library applies to it; in this form the
  operands' contents stand at literal references and the evaluation of the fold goes on inside them. It is the
  library's statement for four references (`nary4_result`, `nary4_result'`) at three.
-/
import Idealize.ShloMosaic.Lib.StableHlo.Run

namespace Idealize.ShloMosaic.StableHlo

variable {τ : Topo} {sig : RefSig} {Val : EltTy → Type}

section Nary3

variable {x a b y : Ref sig .tc}

/-- `nary` over a literal family of three references: after it the result buffer holds the function's value at the
    family whose member `k` is operand `k`'s contents, each spelt at its own literal reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a `simp only` pass over the fold fires
    (as the library's primed result lemmas). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-- The library's one-pass evaluation of a fold of operations at a buffer, with the three-reference result
    lemma among its rewrite rules (tried before the general `nary` one, whose right side reads the operands under a binder). -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RStageE0.lean ====
/-
  Layer 0's edge part of the reference program, read back at an arbitrary valuation of the buffers.

  The part gathers the node features at each edge's target and source, computes each edge's length from the centred
  positions, runs the edge stage (the function `REdge.term` of those three arrays and the layer's slices of the six
  stacked weight arrays), and sums the messages into their target nodes. After it the aggregate's buffer holds exactly
  that composition of the valuation at the buffers the part reads; the features, the positions and the two edge
  vectors are not written.
-/
import proofs.«156944_j45535243272652_2_alg».proof.Proof.RRun
import proofs.«156944_j45535243272652_2_alg».proof.Proof.RStageDefs
import proofs.«156944_j45535243272652_2_alg».proof.Proof.REdgeTerm
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 0's edge part the aggregate's buffer holds the scatter-add, along the target vector, of the edge stage
    of the gathered features, the edge lengths and the layer's weight slices. -/
theorem opsL0e_agg (V : Valuation τ sig (Elt F)) :
    after opsL0e V (main_v95 : DevRef τ sig)
      = rAgg (V (main_v27 : DevRef τ sig))
          (REdge.term (eGatherH (V (main_v4 : DevRef τ sig)) (V (main_v27 : DevRef τ sig))) (eGatherH (V (main_v4 : DevRef τ sig)) (V (main_v25 : DevRef τ sig)))
            (eDist (V (main_v23 : DevRef τ sig)) (V (main_v25 : DevRef τ sig)) (V (main_v27 : DevRef τ sig)))
            (sliceW1_0 (V (main_arg6 : DevRef τ sig))) (sliceV_0 (V (main_arg7 : DevRef τ sig))) (sliceW_0 (V (main_arg8 : DevRef τ sig)))
            (sliceV_0 (V (main_arg9 : DevRef τ sig))) (sliceAw_0 (V (main_arg10 : DevRef τ sig))) (sliceAb_0 (V (main_arg11 : DevRef τ sig)))) := by
  simp only [opsL0e, after_append]
  after_results_simp3
  simp only [TRef.ofBuf, TRef.toBuf, cast_eq]
  rfl

/-- A buffer layer 0's edge part does not write keeps its contents. -/
theorem opsL0e_frame (V : Valuation τ sig (Elt F)) {r : Ref sig .tc} (h0 : r ∉ k1_W) (h1 : r ∉ k2_W) (h2 : r ∉ k3_W) :
    after opsL0e V (Proc.devRef .tc r) = V (Proc.devRef .tc r) := by
  simp only [opsL0e, after_append]
  rw [after_of_writes_sub k3 _ k3_writes h2, after_of_writes_sub k2 _ k2_writes h1, after_of_writes_sub k1 _ k1_writes h0]

theorem opsL0e_main_v4 (V : Valuation τ sig (Elt F)) :
    after opsL0e V (main_v4 : DevRef τ sig) = V (main_v4 : DevRef τ sig) :=
  opsL0e_frame V (by decide) (by decide) (by decide)
theorem opsL0e_main_v23 (V : Valuation τ sig (Elt F)) :
    after opsL0e V (main_v23 : DevRef τ sig) = V (main_v23 : DevRef τ sig) :=
  opsL0e_frame V (by decide) (by decide) (by decide)
theorem opsL0e_main_v25 (V : Valuation τ sig (Elt F)) :
    after opsL0e V (main_v25 : DevRef τ sig) = V (main_v25 : DevRef τ sig) :=
  opsL0e_frame V (by decide) (by decide) (by decide)
theorem opsL0e_main_v27 (V : Valuation τ sig (Elt F)) :
    after opsL0e V (main_v27 : DevRef τ sig) = V (main_v27 : DevRef τ sig) :=
  opsL0e_frame V (by decide) (by decide) (by decide)
end Cert.ReferenceIdeal.RStage

end
-- ==== Proof.RStageN0.lean ====
/-
  Layer 0's node part of the reference program, read back at an arbitrary valuation of the buffers.

  The part is the node stage: the function `RNode.term` of the node features, the aggregated messages and the layer's
  slices of the six stacked node weight arrays. After it the new features' buffer holds exactly that function of the
  valuation at the buffers the part reads; the positions and the two edge vectors are not written.
-/
import proofs.«156944_j45535243272652_2_alg».proof.Proof.RRun
import proofs.«156944_j45535243272652_2_alg».proof.Proof.RStageDefs
import proofs.«156944_j45535243272652_2_alg».proof.Proof.RNode
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 0's node part the new features' buffer holds the node stage of the features, the aggregate and the
    layer's weight slices. -/
theorem opsL0n_h (V : Valuation τ sig (Elt F)) :
    after opsL0n V (main_v136 : DevRef τ sig)
      = RNode.term (V (main_v4 : DevRef τ sig)) (V (main_v95 : DevRef τ sig))
          (sliceWn1_0 (V (main_arg12 : DevRef τ sig))) (sliceV_0 (V (main_arg13 : DevRef τ sig))) (sliceW_0 (V (main_arg14 : DevRef τ sig)))
          (sliceV_0 (V (main_arg15 : DevRef τ sig))) (sliceV_0 (V (main_arg16 : DevRef τ sig))) (sliceV_0 (V (main_arg17 : DevRef τ sig))) := by
  simp only [opsL0n, after_append]
  after_results_simp3
  simp only [TRef.ofBuf, TRef.toBuf, cast_eq]
  rfl

/-- A buffer layer 0's node part does not write keeps its contents. -/
theorem opsL0n_frame (V : Valuation τ sig (Elt F)) {r : Ref sig .tc} (h0 : r ∉ k4_W) (h1 : r ∉ k5_W) (h2 : r ∉ k6_W) :
    after opsL0n V (Proc.devRef .tc r) = V (Proc.devRef .tc r) := by
  simp only [opsL0n, after_append]
  rw [after_of_writes_sub k6 _ k6_writes h2, after_of_writes_sub k5 _ k5_writes h1, after_of_writes_sub k4 _ k4_writes h0]

theorem opsL0n_main_v23 (V : Valuation τ sig (Elt F)) :
    after opsL0n V (main_v23 : DevRef τ sig) = V (main_v23 : DevRef τ sig) :=
  opsL0n_frame V (by decide) (by decide) (by decide)
theorem opsL0n_main_v25 (V : Valuation τ sig (Elt F)) :
    after opsL0n V (main_v25 : DevRef τ sig) = V (main_v25 : DevRef τ sig) :=
  opsL0n_frame V (by decide) (by decide) (by decide)
theorem opsL0n_main_v27 (V : Valuation τ sig (Elt F)) :
    after opsL0n V (main_v27 : DevRef τ sig) = V (main_v27 : DevRef τ sig) :=
  opsL0n_frame V (by decide) (by decide) (by decide)
end Cert.ReferenceIdeal.RStage

end
-- ==== Proof.RStageE1.lean ====
/-
  Layer 1's edge part of the reference program, read back at an arbitrary valuation of the buffers.

  The part gathers the node features at each edge's target and source, computes each edge's length from the centred
  positions, runs the edge stage (the function `REdge.term` of those three arrays and the layer's slices of the six
  stacked weight arrays), and sums the messages into their target nodes. After it the aggregate's buffer holds exactly
  that composition of the valuation at the buffers the part reads; the features, the positions and the two edge
  vectors are not written.
-/
import proofs.«156944_j45535243272652_2_alg».proof.Proof.RRun
import proofs.«156944_j45535243272652_2_alg».proof.Proof.RStageDefs
import proofs.«156944_j45535243272652_2_alg».proof.Proof.REdgeTerm
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 1's edge part the aggregate's buffer holds the scatter-add, along the target vector, of the edge stage
    of the gathered features, the edge lengths and the layer's weight slices. -/
theorem opsL1e_agg (V : Valuation τ sig (Elt F)) :
    after opsL1e V (main_v204 : DevRef τ sig)
      = rAgg (V (main_v27 : DevRef τ sig))
          (REdge.term (eGatherH (V (main_v136 : DevRef τ sig)) (V (main_v27 : DevRef τ sig))) (eGatherH (V (main_v136 : DevRef τ sig)) (V (main_v25 : DevRef τ sig)))
            (eDist (V (main_v23 : DevRef τ sig)) (V (main_v25 : DevRef τ sig)) (V (main_v27 : DevRef τ sig)))
            (sliceW1_1 (V (main_arg6 : DevRef τ sig))) (sliceV_1 (V (main_arg7 : DevRef τ sig))) (sliceW_1 (V (main_arg8 : DevRef τ sig)))
            (sliceV_1 (V (main_arg9 : DevRef τ sig))) (sliceAw_1 (V (main_arg10 : DevRef τ sig))) (sliceAb_1 (V (main_arg11 : DevRef τ sig)))) := by
  simp only [opsL1e, after_append]
  after_results_simp3
  simp only [TRef.ofBuf, TRef.toBuf, cast_eq]
  rfl

/-- A buffer layer 1's edge part does not write keeps its contents. -/
theorem opsL1e_frame (V : Valuation τ sig (Elt F)) {r : Ref sig .tc} (h0 : r ∉ k7_W) (h1 : r ∉ k8_W) (h2 : r ∉ k9_W) :
    after opsL1e V (Proc.devRef .tc r) = V (Proc.devRef .tc r) := by
  simp only [opsL1e, after_append]
  rw [after_of_writes_sub k9 _ k9_writes h2, after_of_writes_sub k8 _ k8_writes h1, after_of_writes_sub k7 _ k7_writes h0]

theorem opsL1e_main_v136 (V : Valuation τ sig (Elt F)) :
    after opsL1e V (main_v136 : DevRef τ sig) = V (main_v136 : DevRef τ sig) :=
  opsL1e_frame V (by decide) (by decide) (by decide)
theorem opsL1e_main_v23 (V : Valuation τ sig (Elt F)) :
    after opsL1e V (main_v23 : DevRef τ sig) = V (main_v23 : DevRef τ sig) :=
  opsL1e_frame V (by decide) (by decide) (by decide)
theorem opsL1e_main_v25 (V : Valuation τ sig (Elt F)) :
    after opsL1e V (main_v25 : DevRef τ sig) = V (main_v25 : DevRef τ sig) :=
  opsL1e_frame V (by decide) (by decide) (by decide)
theorem opsL1e_main_v27 (V : Valuation τ sig (Elt F)) :
    after opsL1e V (main_v27 : DevRef τ sig) = V (main_v27 : DevRef τ sig) :=
  opsL1e_frame V (by decide) (by decide) (by decide)
end Cert.ReferenceIdeal.RStage

end
-- ==== Proof.RStageN1.lean ====
/-
  Layer 1's node part of the reference program, read back at an arbitrary valuation of the buffers.

  The part is the node stage: the function `RNode.term` of the node features, the aggregated messages and the layer's
  slices of the six stacked node weight arrays. After it the new features' buffer holds exactly that function of the
  valuation at the buffers the part reads; the positions and the two edge vectors are not written.
-/
import proofs.«156944_j45535243272652_2_alg».proof.Proof.RRun
import proofs.«156944_j45535243272652_2_alg».proof.Proof.RStageDefs
import proofs.«156944_j45535243272652_2_alg».proof.Proof.RNode
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 1's node part the new features' buffer holds the node stage of the features, the aggregate and the
    layer's weight slices. -/
theorem opsL1n_h (V : Valuation τ sig (Elt F)) :
    after opsL1n V (main_v245 : DevRef τ sig)
      = RNode.term (V (main_v136 : DevRef τ sig)) (V (main_v204 : DevRef τ sig))
          (sliceWn1_1 (V (main_arg12 : DevRef τ sig))) (sliceV_1 (V (main_arg13 : DevRef τ sig))) (sliceW_1 (V (main_arg14 : DevRef τ sig)))
          (sliceV_1 (V (main_arg15 : DevRef τ sig))) (sliceV_1 (V (main_arg16 : DevRef τ sig))) (sliceV_1 (V (main_arg17 : DevRef τ sig))) := by
  simp only [opsL1n, after_append]
  after_results_simp3
  simp only [TRef.ofBuf, TRef.toBuf, cast_eq]
  rfl

/-- A buffer layer 1's node part does not write keeps its contents. -/
theorem opsL1n_frame (V : Valuation τ sig (Elt F)) {r : Ref sig .tc} (h0 : r ∉ k10_W) (h1 : r ∉ k11_W) (h2 : r ∉ k12_W) :
    after opsL1n V (Proc.devRef .tc r) = V (Proc.devRef .tc r) := by
  simp only [opsL1n, after_append]
  rw [after_of_writes_sub k12 _ k12_writes h2, after_of_writes_sub k11 _ k11_writes h1, after_of_writes_sub k10 _ k10_writes h0]

theorem opsL1n_main_v23 (V : Valuation τ sig (Elt F)) :
    after opsL1n V (main_v23 : DevRef τ sig) = V (main_v23 : DevRef τ sig) :=
  opsL1n_frame V (by decide) (by decide) (by decide)
theorem opsL1n_main_v25 (V : Valuation τ sig (Elt F)) :
    after opsL1n V (main_v25 : DevRef τ sig) = V (main_v25 : DevRef τ sig) :=
  opsL1n_frame V (by decide) (by decide) (by decide)
theorem opsL1n_main_v27 (V : Valuation τ sig (Elt F)) :
    after opsL1n V (main_v27 : DevRef τ sig) = V (main_v27 : DevRef τ sig) :=
  opsL1n_frame V (by decide) (by decide) (by decide)
end Cert.ReferenceIdeal.RStage

end
-- ==== Proof.RStageE2.lean ====
/-
  Layer 2's edge part of the reference program, read back at an arbitrary valuation of the buffers.

  The part gathers the node features at each edge's target and source, computes each edge's length from the centred
  positions, runs the edge stage (the function `REdge.term` of those three arrays and the layer's slices of the six
  stacked weight arrays), and sums the messages into their target nodes. After it the aggregate's buffer holds exactly
  that composition of the valuation at the buffers the part reads; the features, the positions and the two edge
  vectors are not written.
-/
import proofs.«156944_j45535243272652_2_alg».proof.Proof.RRun
import proofs.«156944_j45535243272652_2_alg».proof.Proof.RStageDefs
import proofs.«156944_j45535243272652_2_alg».proof.Proof.REdgeTerm
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 2's edge part the aggregate's buffer holds the scatter-add, along the target vector, of the edge stage
    of the gathered features, the edge lengths and the layer's weight slices. -/
theorem opsL2e_agg (V : Valuation τ sig (Elt F)) :
    after opsL2e V (main_v313 : DevRef τ sig)
      = rAgg (V (main_v27 : DevRef τ sig))
          (REdge.term (eGatherH (V (main_v245 : DevRef τ sig)) (V (main_v27 : DevRef τ sig))) (eGatherH (V (main_v245 : DevRef τ sig)) (V (main_v25 : DevRef τ sig)))
            (eDist (V (main_v23 : DevRef τ sig)) (V (main_v25 : DevRef τ sig)) (V (main_v27 : DevRef τ sig)))
            (sliceW1_2 (V (main_arg6 : DevRef τ sig))) (sliceV_2 (V (main_arg7 : DevRef τ sig))) (sliceW_2 (V (main_arg8 : DevRef τ sig)))
            (sliceV_2 (V (main_arg9 : DevRef τ sig))) (sliceAw_2 (V (main_arg10 : DevRef τ sig))) (sliceAb_2 (V (main_arg11 : DevRef τ sig)))) := by
  simp only [opsL2e, after_append]
  after_results_simp3
  simp only [TRef.ofBuf, TRef.toBuf, cast_eq]
  rfl

/-- A buffer layer 2's edge part does not write keeps its contents. -/
theorem opsL2e_frame (V : Valuation τ sig (Elt F)) {r : Ref sig .tc} (h0 : r ∉ k13_W) (h1 : r ∉ k14_W) (h2 : r ∉ k15_W) (h3 : r ∉ k16_W) :
    after opsL2e V (Proc.devRef .tc r) = V (Proc.devRef .tc r) := by
  simp only [opsL2e, after_append]
  rw [after_of_writes_sub k16 _ k16_writes h3, after_of_writes_sub k15 _ k15_writes h2, after_of_writes_sub k14 _ k14_writes h1, after_of_writes_sub k13 _ k13_writes h0]

theorem opsL2e_main_v245 (V : Valuation τ sig (Elt F)) :
    after opsL2e V (main_v245 : DevRef τ sig) = V (main_v245 : DevRef τ sig) :=
  opsL2e_frame V (by decide) (by decide) (by decide) (by decide)
theorem opsL2e_main_v23 (V : Valuation τ sig (Elt F)) :
    after opsL2e V (main_v23 : DevRef τ sig) = V (main_v23 : DevRef τ sig) :=
  opsL2e_frame V (by decide) (by decide) (by decide) (by decide)
theorem opsL2e_main_v25 (V : Valuation τ sig (Elt F)) :
    after opsL2e V (main_v25 : DevRef τ sig) = V (main_v25 : DevRef τ sig) :=
  opsL2e_frame V (by decide) (by decide) (by decide) (by decide)
theorem opsL2e_main_v27 (V : Valuation τ sig (Elt F)) :
    after opsL2e V (main_v27 : DevRef τ sig) = V (main_v27 : DevRef τ sig) :=
  opsL2e_frame V (by decide) (by decide) (by decide) (by decide)
end Cert.ReferenceIdeal.RStage

end
-- ==== Proof.RStageN2.lean ====
/-
  Layer 2's node part of the reference program, read back at an arbitrary valuation of the buffers.

  The part is the node stage: the function `RNode.term` of the node features, the aggregated messages and the layer's
  slices of the six stacked node weight arrays. After it the new features' buffer holds exactly that function of the
  valuation at the buffers the part reads; the positions and the two edge vectors are not written.
-/
import proofs.«156944_j45535243272652_2_alg».proof.Proof.RRun
import proofs.«156944_j45535243272652_2_alg».proof.Proof.RStageDefs
import proofs.«156944_j45535243272652_2_alg».proof.Proof.RNode
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 2's node part the new features' buffer holds the node stage of the features, the aggregate and the
    layer's weight slices. -/
theorem opsL2n_h (V : Valuation τ sig (Elt F)) :
    after opsL2n V (main_v354 : DevRef τ sig)
      = RNode.term (V (main_v245 : DevRef τ sig)) (V (main_v313 : DevRef τ sig))
          (sliceWn1_2 (V (main_arg12 : DevRef τ sig))) (sliceV_2 (V (main_arg13 : DevRef τ sig))) (sliceW_2 (V (main_arg14 : DevRef τ sig)))
          (sliceV_2 (V (main_arg15 : DevRef τ sig))) (sliceV_2 (V (main_arg16 : DevRef τ sig))) (sliceV_2 (V (main_arg17 : DevRef τ sig))) := by
  simp only [opsL2n, after_append]
  after_results_simp3
  simp only [TRef.ofBuf, TRef.toBuf, cast_eq]
  rfl

/-- A buffer layer 2's node part does not write keeps its contents. -/
theorem opsL2n_frame (V : Valuation τ sig (Elt F)) {r : Ref sig .tc} (h0 : r ∉ k17_W) (h1 : r ∉ k18_W) :
    after opsL2n V (Proc.devRef .tc r) = V (Proc.devRef .tc r) := by
  simp only [opsL2n, after_append]
  rw [after_of_writes_sub k18 _ k18_writes h1, after_of_writes_sub k17 _ k17_writes h0]

theorem opsL2n_main_v23 (V : Valuation τ sig (Elt F)) :
    after opsL2n V (main_v23 : DevRef τ sig) = V (main_v23 : DevRef τ sig) :=
  opsL2n_frame V (by decide) (by decide)
theorem opsL2n_main_v25 (V : Valuation τ sig (Elt F)) :
    after opsL2n V (main_v25 : DevRef τ sig) = V (main_v25 : DevRef τ sig) :=
  opsL2n_frame V (by decide) (by decide)
theorem opsL2n_main_v27 (V : Valuation τ sig (Elt F)) :
    after opsL2n V (main_v27 : DevRef τ sig) = V (main_v27 : DevRef τ sig) :=
  opsL2n_frame V (by decide) (by decide)
end Cert.ReferenceIdeal.RStage

end
-- ==== Proof.RStageE3.lean ====
/-
  Layer 3's edge part of the reference program, read back at an arbitrary valuation of the buffers.

  The part gathers the node features at each edge's target and source, computes each edge's length from the centred
  positions, runs the edge stage (the function `REdge.term` of those three arrays and the layer's slices of the six
  stacked weight arrays), and sums the messages into their target nodes. After it the aggregate's buffer holds exactly
  that composition of the valuation at the buffers the part reads; the features, the positions and the two edge
  vectors are not written.
-/
import proofs.«156944_j45535243272652_2_alg».proof.Proof.RRun
import proofs.«156944_j45535243272652_2_alg».proof.Proof.RStageDefs
import proofs.«156944_j45535243272652_2_alg».proof.Proof.REdgeTerm
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 3's edge part the aggregate's buffer holds the scatter-add, along the target vector, of the edge stage
    of the gathered features, the edge lengths and the layer's weight slices. -/
theorem opsL3e_agg (V : Valuation τ sig (Elt F)) :
    after opsL3e V (main_v422 : DevRef τ sig)
      = rAgg (V (main_v27 : DevRef τ sig))
          (REdge.term (eGatherH (V (main_v354 : DevRef τ sig)) (V (main_v27 : DevRef τ sig))) (eGatherH (V (main_v354 : DevRef τ sig)) (V (main_v25 : DevRef τ sig)))
            (eDist (V (main_v23 : DevRef τ sig)) (V (main_v25 : DevRef τ sig)) (V (main_v27 : DevRef τ sig)))
            (sliceW1_3 (V (main_arg6 : DevRef τ sig))) (sliceV_3 (V (main_arg7 : DevRef τ sig))) (sliceW_3 (V (main_arg8 : DevRef τ sig)))
            (sliceV_3 (V (main_arg9 : DevRef τ sig))) (sliceAw_3 (V (main_arg10 : DevRef τ sig))) (sliceAb_3 (V (main_arg11 : DevRef τ sig)))) := by
  simp only [opsL3e, after_append]
  after_results_simp3
  simp only [TRef.ofBuf, TRef.toBuf, cast_eq]
  rfl

/-- A buffer layer 3's edge part does not write keeps its contents. -/
theorem opsL3e_frame (V : Valuation τ sig (Elt F)) {r : Ref sig .tc} (h0 : r ∉ k19_W) (h1 : r ∉ k20_W) (h2 : r ∉ k21_W) (h3 : r ∉ k22_W) :
    after opsL3e V (Proc.devRef .tc r) = V (Proc.devRef .tc r) := by
  simp only [opsL3e, after_append]
  rw [after_of_writes_sub k22 _ k22_writes h3, after_of_writes_sub k21 _ k21_writes h2, after_of_writes_sub k20 _ k20_writes h1, after_of_writes_sub k19 _ k19_writes h0]

theorem opsL3e_main_v354 (V : Valuation τ sig (Elt F)) :
    after opsL3e V (main_v354 : DevRef τ sig) = V (main_v354 : DevRef τ sig) :=
  opsL3e_frame V (by decide) (by decide) (by decide) (by decide)
theorem opsL3e_main_v23 (V : Valuation τ sig (Elt F)) :
    after opsL3e V (main_v23 : DevRef τ sig) = V (main_v23 : DevRef τ sig) :=
  opsL3e_frame V (by decide) (by decide) (by decide) (by decide)
theorem opsL3e_main_v25 (V : Valuation τ sig (Elt F)) :
    after opsL3e V (main_v25 : DevRef τ sig) = V (main_v25 : DevRef τ sig) :=
  opsL3e_frame V (by decide) (by decide) (by decide) (by decide)
theorem opsL3e_main_v27 (V : Valuation τ sig (Elt F)) :
    after opsL3e V (main_v27 : DevRef τ sig) = V (main_v27 : DevRef τ sig) :=
  opsL3e_frame V (by decide) (by decide) (by decide) (by decide)
end Cert.ReferenceIdeal.RStage

end
-- ==== Proof.RStageN3.lean ====
/-
  Layer 3's node part of the reference program, read back at an arbitrary valuation of the buffers.

  The part is the node stage: the function `RNode.term` of the node features, the aggregated messages and the layer's
  slices of the six stacked node weight arrays. After it the new features' buffer holds exactly that function of the
  valuation at the buffers the part reads; the positions and the two edge vectors are not written.
-/
import proofs.«156944_j45535243272652_2_alg».proof.Proof.RRun
import proofs.«156944_j45535243272652_2_alg».proof.Proof.RStageDefs
import proofs.«156944_j45535243272652_2_alg».proof.Proof.RNode
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
set_option maxHeartbeats 4000000 in
/-- After layer 3's node part the new features' buffer holds the node stage of the features, the aggregate and the
    layer's weight slices. -/
theorem opsL3n_h (V : Valuation τ sig (Elt F)) :
    after opsL3n V (main_v463 : DevRef τ sig)
      = RNode.term (V (main_v354 : DevRef τ sig)) (V (main_v422 : DevRef τ sig))
          (sliceWn1_3 (V (main_arg12 : DevRef τ sig))) (sliceV_3 (V (main_arg13 : DevRef τ sig))) (sliceW_3 (V (main_arg14 : DevRef τ sig)))
          (sliceV_3 (V (main_arg15 : DevRef τ sig))) (sliceV_3 (V (main_arg16 : DevRef τ sig))) (sliceV_3 (V (main_arg17 : DevRef τ sig))) := by
  simp only [opsL3n, after_append]
  after_results_simp3
  simp only [TRef.ofBuf, TRef.toBuf, cast_eq]
  rfl

/-- A buffer layer 3's node part does not write keeps its contents. -/
theorem opsL3n_frame (V : Valuation τ sig (Elt F)) {r : Ref sig .tc} (h0 : r ∉ k23_W) (h1 : r ∉ k24_W) :
    after opsL3n V (Proc.devRef .tc r) = V (Proc.devRef .tc r) := by
  simp only [opsL3n, after_append]
  rw [after_of_writes_sub k24 _ k24_writes h1, after_of_writes_sub k23 _ k23_writes h0]

theorem opsL3n_main_v23 (V : Valuation τ sig (Elt F)) :
    after opsL3n V (main_v23 : DevRef τ sig) = V (main_v23 : DevRef τ sig) :=
  opsL3n_frame V (by decide) (by decide)
theorem opsL3n_main_v25 (V : Valuation τ sig (Elt F)) :
    after opsL3n V (main_v25 : DevRef τ sig) = V (main_v25 : DevRef τ sig) :=
  opsL3n_frame V (by decide) (by decide)
theorem opsL3n_main_v27 (V : Valuation τ sig (Elt F)) :
    after opsL3n V (main_v27 : DevRef τ sig) = V (main_v27 : DevRef τ sig) :=
  opsL3n_frame V (by decide) (by decide)
end Cert.ReferenceIdeal.RStage

end
-- ==== Proof.RStageS.lean ====
/-
  The reference program's readout (statements %cst_64 … %483), read back at an arbitrary valuation of the buffers.

  After it the result's buffer holds `rSuffix` of the last layer's features, the batch vector and the readout's two
  weights and two biases.
-/
import proofs.«156944_j45535243272652_2_alg».proof.Proof.RRun
import proofs.«156944_j45535243272652_2_alg».proof.Proof.RStageDefs
import proofs.«156944_j45535243272652_2_alg».proof.Proof.LibNary3
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 8192 in
/-- After the readout the result's buffer holds `rSuffix` of the features, the batch vector and the four parameters. -/
theorem opsS_out (V : Valuation τ sig (Elt F)) :
    after opsS V (main_v483 : DevRef τ sig)
      = rSuffix (V (main_v463 : DevRef τ sig)) (V (main_arg3 : DevRef τ sig)) (V (main_arg18 : DevRef τ sig)) (V (main_arg19 : DevRef τ sig))
          (V (main_arg20 : DevRef τ sig)) (V (main_arg21 : DevRef τ sig)) := by
  simp only [opsS, after_append]
  after_results_simp3
  simp only [TRef.ofBuf, TRef.toBuf, cast_eq]
  rfl

end Cert.ReferenceIdeal.RStage

end
-- ==== Proof.RStage.lean ====
/-
  The reference program read back stage by stage from an arbitrary valuation of its buffers: after the prologue the
  embedding; after each layer's two parts `rLayer` of the features the line before left, of the centred positions, of
  the two edge vectors and of the twelve weight arguments; after the readout `rSuffix` of the last features.

  Each step composes a part's value lemma with the facts that the earlier parts' results it reads (the centred
  positions, the edge vectors) and the arguments are written by no part in between.
-/
import proofs.«156944_j45535243272652_2_alg».proof.Proof.RRun
import proofs.«156944_j45535243272652_2_alg».proof.Proof.RStageDefs
import proofs.«156944_j45535243272652_2_alg».proof.Proof.RStageLayer
import proofs.«156944_j45535243272652_2_alg».proof.Proof.RStageP
import proofs.«156944_j45535243272652_2_alg».proof.Proof.RStageE0
import proofs.«156944_j45535243272652_2_alg».proof.Proof.RStageN0
import proofs.«156944_j45535243272652_2_alg».proof.Proof.RStageE1
import proofs.«156944_j45535243272652_2_alg».proof.Proof.RStageN1
import proofs.«156944_j45535243272652_2_alg».proof.Proof.RStageE2
import proofs.«156944_j45535243272652_2_alg».proof.Proof.RStageN2
import proofs.«156944_j45535243272652_2_alg».proof.Proof.RStageE3
import proofs.«156944_j45535243272652_2_alg».proof.Proof.RStageN3
import proofs.«156944_j45535243272652_2_alg».proof.Proof.RStageS
import Idealize.ShloMosaic.Lib.StableHlo.Run
import Idealize.ShloMosaic.Lib.Pipeline.Frame

noncomputable section

namespace Cert.ReferenceIdeal.RStage

open Cert.ReferenceIdeal Cert.ReferenceIdeal.RRun Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- A valuation holds what every part after the prologue reads besides the features: the centred positions, the two
    edge vectors (as the prologue computes them from the valuation `V0` at the arguments) and the arguments of `V0`. -/
structure Ctx (V0 W : Valuation τ sig (Elt F)) : Prop where
  pos : W (main_v23 : DevRef τ sig) = pPos (V0 (main_arg1 : DevRef τ sig)) (V0 (main_arg3 : DevRef τ sig))
  src : W (main_v25 : DevRef τ sig) = pSrc (V0 (main_arg2 : DevRef τ sig))
  dst : W (main_v27 : DevRef τ sig) = pDst (V0 (main_arg2 : DevRef τ sig))
  args : ∀ r ∈ argList, W (Proc.devRef .tc r) = V0 (Proc.devRef .tc r)

/-- Layer 0's edge part keeps what the later parts read. -/
theorem ctx_e0 {V0 W : Valuation τ sig (Elt F)} (c : Ctx V0 W) : Ctx V0 (after opsL0e W) :=
  ⟨(opsL0e_main_v23 W).trans c.pos, (opsL0e_main_v25 W).trans c.src, (opsL0e_main_v27 W).trans c.dst,
    fun r hr => (opsL0e_keeps r hr W).trans (c.args r hr)⟩

/-- Layer 0's node part keeps what the later parts read. -/
theorem ctx_n0 {V0 W : Valuation τ sig (Elt F)} (c : Ctx V0 W) : Ctx V0 (after opsL0n W) :=
  ⟨(opsL0n_main_v23 W).trans c.pos, (opsL0n_main_v25 W).trans c.src, (opsL0n_main_v27 W).trans c.dst,
    fun r hr => (opsL0n_keeps r hr W).trans (c.args r hr)⟩

/-- Layer 0 from any valuation that holds the prologue's values and the arguments: its two parts in turn leave
    `rLayer_0` of the features found there in the new features' buffer. -/
theorem step_0 {V0 W : Valuation τ sig (Elt F)} (c : Ctx V0 W) :
    after opsL0n (after opsL0e W) (main_v136 : DevRef τ sig)
      = rLayer_0 (W (main_v4 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [opsL0n_h, opsL0e_main_v4, opsL0e_agg,
    opsL0e_keeps main_arg12 (by decide) W, opsL0e_keeps main_arg13 (by decide) W, opsL0e_keeps main_arg14 (by decide) W, opsL0e_keeps main_arg15 (by decide) W, opsL0e_keeps main_arg16 (by decide) W, opsL0e_keeps main_arg17 (by decide) W,
    c.pos, c.src, c.dst,
    c.args main_arg6 (by decide), c.args main_arg7 (by decide), c.args main_arg8 (by decide), c.args main_arg9 (by decide), c.args main_arg10 (by decide), c.args main_arg11 (by decide), c.args main_arg12 (by decide), c.args main_arg13 (by decide), c.args main_arg14 (by decide), c.args main_arg15 (by decide), c.args main_arg16 (by decide), c.args main_arg17 (by decide)]
  all_goals rfl

/-- Layer 1's edge part keeps what the later parts read. -/
theorem ctx_e1 {V0 W : Valuation τ sig (Elt F)} (c : Ctx V0 W) : Ctx V0 (after opsL1e W) :=
  ⟨(opsL1e_main_v23 W).trans c.pos, (opsL1e_main_v25 W).trans c.src, (opsL1e_main_v27 W).trans c.dst,
    fun r hr => (opsL1e_keeps r hr W).trans (c.args r hr)⟩

/-- Layer 1's node part keeps what the later parts read. -/
theorem ctx_n1 {V0 W : Valuation τ sig (Elt F)} (c : Ctx V0 W) : Ctx V0 (after opsL1n W) :=
  ⟨(opsL1n_main_v23 W).trans c.pos, (opsL1n_main_v25 W).trans c.src, (opsL1n_main_v27 W).trans c.dst,
    fun r hr => (opsL1n_keeps r hr W).trans (c.args r hr)⟩

/-- Layer 1 from any valuation that holds the prologue's values and the arguments: its two parts in turn leave
    `rLayer_1` of the features found there in the new features' buffer. -/
theorem step_1 {V0 W : Valuation τ sig (Elt F)} (c : Ctx V0 W) :
    after opsL1n (after opsL1e W) (main_v245 : DevRef τ sig)
      = rLayer_1 (W (main_v136 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [opsL1n_h, opsL1e_main_v136, opsL1e_agg,
    opsL1e_keeps main_arg12 (by decide) W, opsL1e_keeps main_arg13 (by decide) W, opsL1e_keeps main_arg14 (by decide) W, opsL1e_keeps main_arg15 (by decide) W, opsL1e_keeps main_arg16 (by decide) W, opsL1e_keeps main_arg17 (by decide) W,
    c.pos, c.src, c.dst,
    c.args main_arg6 (by decide), c.args main_arg7 (by decide), c.args main_arg8 (by decide), c.args main_arg9 (by decide), c.args main_arg10 (by decide), c.args main_arg11 (by decide), c.args main_arg12 (by decide), c.args main_arg13 (by decide), c.args main_arg14 (by decide), c.args main_arg15 (by decide), c.args main_arg16 (by decide), c.args main_arg17 (by decide)]
  all_goals rfl

/-- Layer 2's edge part keeps what the later parts read. -/
theorem ctx_e2 {V0 W : Valuation τ sig (Elt F)} (c : Ctx V0 W) : Ctx V0 (after opsL2e W) :=
  ⟨(opsL2e_main_v23 W).trans c.pos, (opsL2e_main_v25 W).trans c.src, (opsL2e_main_v27 W).trans c.dst,
    fun r hr => (opsL2e_keeps r hr W).trans (c.args r hr)⟩

/-- Layer 2's node part keeps what the later parts read. -/
theorem ctx_n2 {V0 W : Valuation τ sig (Elt F)} (c : Ctx V0 W) : Ctx V0 (after opsL2n W) :=
  ⟨(opsL2n_main_v23 W).trans c.pos, (opsL2n_main_v25 W).trans c.src, (opsL2n_main_v27 W).trans c.dst,
    fun r hr => (opsL2n_keeps r hr W).trans (c.args r hr)⟩

/-- Layer 2 from any valuation that holds the prologue's values and the arguments: its two parts in turn leave
    `rLayer_2` of the features found there in the new features' buffer. -/
theorem step_2 {V0 W : Valuation τ sig (Elt F)} (c : Ctx V0 W) :
    after opsL2n (after opsL2e W) (main_v354 : DevRef τ sig)
      = rLayer_2 (W (main_v245 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [opsL2n_h, opsL2e_main_v245, opsL2e_agg,
    opsL2e_keeps main_arg12 (by decide) W, opsL2e_keeps main_arg13 (by decide) W, opsL2e_keeps main_arg14 (by decide) W, opsL2e_keeps main_arg15 (by decide) W, opsL2e_keeps main_arg16 (by decide) W, opsL2e_keeps main_arg17 (by decide) W,
    c.pos, c.src, c.dst,
    c.args main_arg6 (by decide), c.args main_arg7 (by decide), c.args main_arg8 (by decide), c.args main_arg9 (by decide), c.args main_arg10 (by decide), c.args main_arg11 (by decide), c.args main_arg12 (by decide), c.args main_arg13 (by decide), c.args main_arg14 (by decide), c.args main_arg15 (by decide), c.args main_arg16 (by decide), c.args main_arg17 (by decide)]
  all_goals rfl

/-- Layer 3's edge part keeps what the later parts read. -/
theorem ctx_e3 {V0 W : Valuation τ sig (Elt F)} (c : Ctx V0 W) : Ctx V0 (after opsL3e W) :=
  ⟨(opsL3e_main_v23 W).trans c.pos, (opsL3e_main_v25 W).trans c.src, (opsL3e_main_v27 W).trans c.dst,
    fun r hr => (opsL3e_keeps r hr W).trans (c.args r hr)⟩

/-- Layer 3's node part keeps what the later parts read. -/
theorem ctx_n3 {V0 W : Valuation τ sig (Elt F)} (c : Ctx V0 W) : Ctx V0 (after opsL3n W) :=
  ⟨(opsL3n_main_v23 W).trans c.pos, (opsL3n_main_v25 W).trans c.src, (opsL3n_main_v27 W).trans c.dst,
    fun r hr => (opsL3n_keeps r hr W).trans (c.args r hr)⟩

/-- Layer 3 from any valuation that holds the prologue's values and the arguments: its two parts in turn leave
    `rLayer_3` of the features found there in the new features' buffer. -/
theorem step_3 {V0 W : Valuation τ sig (Elt F)} (c : Ctx V0 W) :
    after opsL3n (after opsL3e W) (main_v463 : DevRef τ sig)
      = rLayer_3 (W (main_v354 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [opsL3n_h, opsL3e_main_v354, opsL3e_agg,
    opsL3e_keeps main_arg12 (by decide) W, opsL3e_keeps main_arg13 (by decide) W, opsL3e_keeps main_arg14 (by decide) W, opsL3e_keeps main_arg15 (by decide) W, opsL3e_keeps main_arg16 (by decide) W, opsL3e_keeps main_arg17 (by decide) W,
    c.pos, c.src, c.dst,
    c.args main_arg6 (by decide), c.args main_arg7 (by decide), c.args main_arg8 (by decide), c.args main_arg9 (by decide), c.args main_arg10 (by decide), c.args main_arg11 (by decide), c.args main_arg12 (by decide), c.args main_arg13 (by decide), c.args main_arg14 (by decide), c.args main_arg15 (by decide), c.args main_arg16 (by decide), c.args main_arg17 (by decide)]
  all_goals rfl

/-! ## The line from its start -/

/-- The prologue leaves what the later parts read. -/
theorem ctx_pre0 (V0 : Valuation τ sig (Elt F)) : Ctx V0 (after opsP V0) :=
  ⟨opsP_pos V0, opsP_src V0, opsP_dst V0, fun r hr => opsP_keeps r hr V0⟩

/-- So does the line through layer 0. -/
theorem ctx_pre1 (V0 : Valuation τ sig (Elt F)) : Ctx V0 (after (opsP ++ opsL0e ++ opsL0n) V0) := by
  rw [after_append (opsP ++ opsL0e) opsL0n V0, after_append (opsP) opsL0e V0]
  exact ctx_n0 (ctx_e0 (ctx_pre0 V0))

/-- So does the line through layer 1. -/
theorem ctx_pre2 (V0 : Valuation τ sig (Elt F)) : Ctx V0 (after (opsP ++ opsL0e ++ opsL0n ++ opsL1e ++ opsL1n) V0) := by
  rw [after_append (opsP ++ opsL0e ++ opsL0n ++ opsL1e) opsL1n V0, after_append (opsP ++ opsL0e ++ opsL0n) opsL1e V0]
  exact ctx_n1 (ctx_e1 (ctx_pre1 V0))

/-- So does the line through layer 2. -/
theorem ctx_pre3 (V0 : Valuation τ sig (Elt F)) : Ctx V0 (after (opsP ++ opsL0e ++ opsL0n ++ opsL1e ++ opsL1n ++ opsL2e ++ opsL2n) V0) := by
  rw [after_append (opsP ++ opsL0e ++ opsL0n ++ opsL1e ++ opsL1n ++ opsL2e) opsL2n V0, after_append (opsP ++ opsL0e ++ opsL0n ++ opsL1e ++ opsL1n) opsL2e V0]
  exact ctx_n2 (ctx_e2 (ctx_pre2 V0))

/-- So does the line through layer 3. -/
theorem ctx_pre4 (V0 : Valuation τ sig (Elt F)) : Ctx V0 (after (opsP ++ opsL0e ++ opsL0n ++ opsL1e ++ opsL1n ++ opsL2e ++ opsL2n ++ opsL3e ++ opsL3n) V0) := by
  rw [after_append (opsP ++ opsL0e ++ opsL0n ++ opsL1e ++ opsL1n ++ opsL2e ++ opsL2n ++ opsL3e) opsL3n V0, after_append (opsP ++ opsL0e ++ opsL0n ++ opsL1e ++ opsL1n ++ opsL2e ++ opsL2n) opsL3e V0]
  exact ctx_n3 (ctx_e3 (ctx_pre3 V0))

/-- After the prologue the embedding. -/
theorem h0 (V0 : Valuation τ sig (Elt F)) :
    after opsP V0 (main_v4 : DevRef τ sig) = pH (V0 (main_arg0 : DevRef τ sig)) (V0 (main_arg4 : DevRef τ sig)) (V0 (main_arg5 : DevRef τ sig)) :=
  opsP_h V0

/-- Through layer 0: the new features are `rLayer_0` of the features the line before left, of the prologue's
    values and of the arguments. -/
theorem layer0 (V0 : Valuation τ sig (Elt F)) :
    after (opsP ++ opsL0e ++ opsL0n) V0 (main_v136 : DevRef τ sig)
      = rLayer_0 (after (opsP) V0 (main_v4 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [after_append (opsP ++ opsL0e) opsL0n V0, after_append (opsP) opsL0e V0]
  exact step_0 (ctx_pre0 V0)

/-- Through layer 1: the new features are `rLayer_1` of the features the line before left, of the prologue's
    values and of the arguments. -/
theorem layer1 (V0 : Valuation τ sig (Elt F)) :
    after (opsP ++ opsL0e ++ opsL0n ++ opsL1e ++ opsL1n) V0 (main_v245 : DevRef τ sig)
      = rLayer_1 (after (opsP ++ opsL0e ++ opsL0n) V0 (main_v136 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [after_append (opsP ++ opsL0e ++ opsL0n ++ opsL1e) opsL1n V0, after_append (opsP ++ opsL0e ++ opsL0n) opsL1e V0]
  exact step_1 (ctx_pre1 V0)

/-- Through layer 2: the new features are `rLayer_2` of the features the line before left, of the prologue's
    values and of the arguments. -/
theorem layer2 (V0 : Valuation τ sig (Elt F)) :
    after (opsP ++ opsL0e ++ opsL0n ++ opsL1e ++ opsL1n ++ opsL2e ++ opsL2n) V0 (main_v354 : DevRef τ sig)
      = rLayer_2 (after (opsP ++ opsL0e ++ opsL0n ++ opsL1e ++ opsL1n) V0 (main_v245 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [after_append (opsP ++ opsL0e ++ opsL0n ++ opsL1e ++ opsL1n ++ opsL2e) opsL2n V0, after_append (opsP ++ opsL0e ++ opsL0n ++ opsL1e ++ opsL1n) opsL2e V0]
  exact step_2 (ctx_pre2 V0)

/-- Through layer 3: the new features are `rLayer_3` of the features the line before left, of the prologue's
    values and of the arguments. -/
theorem layer3 (V0 : Valuation τ sig (Elt F)) :
    after (opsP ++ opsL0e ++ opsL0n ++ opsL1e ++ opsL1n ++ opsL2e ++ opsL2n ++ opsL3e ++ opsL3n) V0 (main_v463 : DevRef τ sig)
      = rLayer_3 (after (opsP ++ opsL0e ++ opsL0n ++ opsL1e ++ opsL1n ++ opsL2e ++ opsL2n) V0 (main_v354 : DevRef τ sig)) (pPos (V0 (main_arg1 : DevRef τ sig)) (V0 (main_arg3 : DevRef τ sig))) (pSrc (V0 (main_arg2 : DevRef τ sig))) (pDst (V0 (main_arg2 : DevRef τ sig)))
          (V0 (main_arg6 : DevRef τ sig)) (V0 (main_arg7 : DevRef τ sig)) (V0 (main_arg8 : DevRef τ sig)) (V0 (main_arg9 : DevRef τ sig)) (V0 (main_arg10 : DevRef τ sig)) (V0 (main_arg11 : DevRef τ sig))
          (V0 (main_arg12 : DevRef τ sig)) (V0 (main_arg13 : DevRef τ sig)) (V0 (main_arg14 : DevRef τ sig)) (V0 (main_arg15 : DevRef τ sig)) (V0 (main_arg16 : DevRef τ sig)) (V0 (main_arg17 : DevRef τ sig)) := by
  rw [after_append (opsP ++ opsL0e ++ opsL0n ++ opsL1e ++ opsL1n ++ opsL2e ++ opsL2n ++ opsL3e) opsL3n V0, after_append (opsP ++ opsL0e ++ opsL0n ++ opsL1e ++ opsL1n ++ opsL2e ++ opsL2n) opsL3e V0]
  exact step_3 (ctx_pre3 V0)

/-- After the whole line the result is the readout of the last layer's features. -/
theorem out (V0 : Valuation τ sig (Elt F)) :
    after RRun.ops V0 (main_v483 : DevRef τ sig)
      = rSuffix (after (opsP ++ opsL0e ++ opsL0n ++ opsL1e ++ opsL1n ++ opsL2e ++ opsL2n ++ opsL3e ++ opsL3n) V0 (main_v463 : DevRef τ sig)) (V0 (main_arg3 : DevRef τ sig)) (V0 (main_arg18 : DevRef τ sig)) (V0 (main_arg19 : DevRef τ sig)) (V0 (main_arg20 : DevRef τ sig)) (V0 (main_arg21 : DevRef τ sig)) := by
  show after ((opsP ++ opsL0e ++ opsL0n ++ opsL1e ++ opsL1n ++ opsL2e ++ opsL2n ++ opsL3e ++ opsL3n) ++ opsS) V0 _ = _
  rw [after_append (opsP ++ opsL0e ++ opsL0n ++ opsL1e ++ opsL1n ++ opsL2e ++ opsL2n ++ opsL3e ++ opsL3n) opsS V0, opsS_out,
    (ctx_pre4 V0).args main_arg3 (by decide), (ctx_pre4 V0).args main_arg18 (by decide), (ctx_pre4 V0).args main_arg19 (by decide), (ctx_pre4 V0).args main_arg20 (by decide), (ctx_pre4 V0).args main_arg21 (by decide)]
  all_goals rfl

end Cert.ReferenceIdeal.RStage

end
-- ==== Proof.REdge.lean ====
/-
  The reference's edge stage is the edge specification: at every edge `e` and feature `c` the stage's value is
  `Spec.edgeRow` of row `e` of the gathered features and of the edge's length, with the first weight array read in
  its three bands (rows 0–127 against the target's features, rows 128–255 against the source's, row 256 against the
  length).
-/
import proofs.«156944_j45535243272652_2_alg».proof.Proof.Spec
import proofs.«156944_j45535243272652_2_alg».proof.Proof.REdgeTerm

noncomputable section

open scoped BigOperators

namespace Cert.ReferenceIdeal.REdge

open Idealize.ShloMosaic Idealize.ShloMosaic.ValueIdx

variable [Facts₀]

/-- The edge stage of the reference, as a function of its nine buffers, is the array form of the edge specification. -/
theorem term_eq (hi hj : FVec Ideal S250000x128 .f32) (dist : FVec Ideal S250000x1 .f32) (W1 : FVec Ideal S257x128 .f32)
    (b1v : FVec Ideal S128 .f32) (W2 : FVec Ideal S128x128 .f32) (b2v : FVec Ideal S128 .f32) (aw : FVec Ideal S128x1 .f32)
    (abv : FVec Ideal S1 .f32) :
    term (F := Ideal) hi hj dist W1 b1v W2 b2v aw abv
      = Cert.Spec.edgeArr hi hj dist
          (fun i => W1 (ix2 (⟨(i 0).val, by have := idx2_lt0 i; omega⟩ : Fin 257) (i 1)))
          (fun i => W1 (ix2 (⟨128 + (i 0).val, by have := idx2_lt0 i; omega⟩ : Fin 257) (i 1)))
          (fun i => W1 (ix2 (⟨256, by omega⟩ : Fin 257) (i 1)))
          (fun i => b1v (ix1 (i 1))) W2 (fun i => b2v (ix1 (i 1))) aw (fun _ => abv (ix1 (0 : Fin 1))) := by
  funext i
  obtain ⟨e, c, rfl⟩ : ∃ (e : Fin 250000) (c : Fin 128), i = ix2 e c := ⟨i 0, i 1, eq_ix2 i⟩
  rw [term_apply, gateT_apply, m2T_apply]
  simp only [m2T_apply, eaT_apply]
  rfl

end Cert.ReferenceIdeal.REdge

end
-- ==== Proof.RSlice.lean ====
/-
  The reference's weight slices: for each of the four layers, the pieces the reference program cuts out of the stacked
  weight arrays, each equal to the direct read of the argument array that SpecW names. The reference cuts the whole
  257-row (256-row) layer of the first-stage weights and multiplies by it at once, so its blocks are stated as row
  ranges of that cut; its biases stay vectors until a later broadcast.
-/
import proofs.«156944_j45535243272652_2_alg».proof.ReferenceIdeal
import proofs.«156944_j45535243272652_2_alg».proof.Proof.SliceW

namespace Cert.ReferenceIdeal.RSlice

open Idealize.ShloMosaic Idealize.ShloMosaic.ValueIdx Cert.SliceW

variable [Facts₀]
open Facts₀

/-- The weight pieces of one layer as the reference cuts them, each with one proof text; the layer number enters the
    slice's start, the name of the slice's side condition and the name of the statement. The first-stage weights of
    the edge and node networks are cut out as whole layers (257 and 256 rows) and read by rows: pointwise (`…_at`) and
    as the 128×128 blocks and the single row, the row index carrying any proof of its bound. The biases are kept as
    vectors: pointwise, read by column as a 1×128 array, and broadcast to one row. -/
local macro "layer_pieces " l:num : command => do
  let n := l.getNat
  let nm (s : String) : Lean.Ident := Lean.mkIdent (Lean.Name.mkSimple s!"{s}_{n}")
  let sc (pre post : String) : Lean.Ident := Lean.mkIdent (Lean.Name.mkSimple s!"{pre}_{n}_{post}")
  let c1 ← `(theorem $(nm "W1_at") (A6 : FVec Ideal S4x257x128 .f32) (k : Fin 257) (c : Fin 128) :
      shapeCast S257x128 (extractStridedSlice S1x257x128 ![$l, 0, 0] A6 $(sc "slices_S4x257x128_S1x257x128" "0_0")) shapeCasts_S1x257x128_S257x128 (ix2 k c)
        = A6 (ix3 ($l : Fin 4) k c) :=
    layer_apply $l $l rfl A6 _ _ k c)
  let c2 ← `(theorem $(nm "W1top") (A6 : FVec Ideal S4x257x128 .f32) (hk : ∀ i : Cert.Spec.SW.Idx, (i 0).val < 257) :
      (fun i : Cert.Spec.SW.Idx =>
          shapeCast S257x128 (extractStridedSlice S1x257x128 ![$l, 0, 0] A6 $(sc "slices_S4x257x128_S1x257x128" "0_0")) shapeCasts_S1x257x128_S257x128
            (ix2 (⟨(i 0).val, hk i⟩ : Fin 257) (i 1)))
        = Cert.Spec.wBlock A6 $l 0 (by decide) :=
    layer_top_eq $l $l rfl _ A6 _ _ hk)
  let c3 ← `(theorem $(nm "W1mid") (A6 : FVec Ideal S4x257x128 .f32) (hk : ∀ i : Cert.Spec.SW.Idx, 128 + (i 0).val < 257) :
      (fun i : Cert.Spec.SW.Idx =>
          shapeCast S257x128 (extractStridedSlice S1x257x128 ![$l, 0, 0] A6 $(sc "slices_S4x257x128_S1x257x128" "0_0")) shapeCasts_S1x257x128_S257x128
            (ix2 (⟨128 + (i 0).val, hk i⟩ : Fin 257) (i 1)))
        = Cert.Spec.wBlock A6 $l 128 (by decide) :=
    layer_rows_eq $l $l 128 rfl _ A6 _ _ hk)
  let c4 ← `(theorem $(nm "W1last") (A6 : FVec Ideal S4x257x128 .f32) (h256 : 256 < 257) :
      (fun i : Cert.Spec.SR.Idx =>
          shapeCast S257x128 (extractStridedSlice S1x257x128 ![$l, 0, 0] A6 $(sc "slices_S4x257x128_S1x257x128" "0_0")) shapeCasts_S1x257x128_S257x128
            (ix2 (⟨256, h256⟩ : Fin 257) (i 1)))
        = Cert.Spec.wRowAt A6 $l ⟨256, by decide⟩ :=
    layer_row_eq $l $l rfl ⟨256, h256⟩ A6 _ _)
  let c5 ← `(theorem $(nm "bvec_at") (A7 : FVec Ideal S4x128 .f32) (c : Fin 128) :
      shapeCast S128 (extractStridedSlice S1x128 ![$l, 0] A7 $(sc "slices_S4x128_S1x128" "0")) shapeCasts_S1x128_S128 (ix1 c)
        = A7 (ix2 ($l : Fin 4) c) :=
    vec_apply $l $l rfl A7 _ _ c)
  let c6 ← `(theorem $(nm "bvec") (A7 : FVec Ideal S4x128 .f32) :
      (fun i : Cert.Spec.SR.Idx =>
          shapeCast S128 (extractStridedSlice S1x128 ![$l, 0] A7 $(sc "slices_S4x128_S1x128" "0")) shapeCasts_S1x128_S128 (ix1 (i 1)))
        = Cert.Spec.bRow A7 $l :=
    bvec_fun_eq $l $l rfl A7 _ _)
  let c7 ← `(theorem $(nm "brow") (A7 : FVec Ideal S4x128 .f32) :
      broadcastInDim S1x128 ![1] bcast_S128_S1x128_1
          (shapeCast S128 (extractStridedSlice S1x128 ![$l, 0] A7 $(sc "slices_S4x128_S1x128" "0")) shapeCasts_S1x128_S128)
        = Cert.Spec.bRow A7 $l :=
    brow_eq $l $l rfl A7 _ _ _)
  let c8 ← `(theorem $(nm "W2") (A8 : FVec Ideal S4x128x128 .f32) :
      shapeCast S128x128 (extractStridedSlice S1x128x128 ![$l, 0, 0] A8 $(sc "slices_S4x128x128_S1x128x128" "0_0")) shapeCasts_S1x128x128_S128x128
        = Cert.Spec.wBlock A8 $l 0 (by decide) :=
    block_eq $l $l 0 rfl _ A8 _ _)
  let c9 ← `(theorem $(nm "aw") (A10 : FVec Ideal S4x128x1 .f32) :
      shapeCast S128x1 (extractStridedSlice S1x128x1 ![$l, 0, 0] A10 $(sc "slices_S4x128x1_S1x128x1" "0_0")) shapeCasts_S1x128x1_S128x1
        = Cert.Spec.wCol A10 $l :=
    col_eq $l $l rfl A10 _ _)
  let c10 ← `(theorem $(nm "abv_at") (A11 : FVec Ideal S4x1 .f32) :
      shapeCast S1 (extractStridedSlice S1x1 ![$l, 0] A11 $(sc "slices_S4x1_S1x1" "0")) shapeCasts_S1x1_S1 (ix1 (0 : Fin 1))
        = A11 (ix2 ($l : Fin 4) (0 : Fin 1)) :=
    vec_apply $l $l rfl A11 _ _ 0)
  let c11 ← `(theorem $(nm "abv") (A11 : FVec Ideal S4x1 .f32) :
      (fun _ : Cert.Spec.S11.Idx =>
          shapeCast S1 (extractStridedSlice S1x1 ![$l, 0] A11 $(sc "slices_S4x1_S1x1" "0")) shapeCasts_S1x1_S1 (ix1 (0 : Fin 1)))
        = Cert.Spec.b11 A11 $l :=
    b11_fun_eq $l $l rfl A11 _ _)
  let c12 ← `(theorem $(nm "ab") (A11 : FVec Ideal S4x1 .f32) :
      broadcastInDim S1x1 ![1] bcast_S1_S1x1_1
          (shapeCast S1 (extractStridedSlice S1x1 ![$l, 0] A11 $(sc "slices_S4x1_S1x1" "0")) shapeCasts_S1x1_S1)
        = Cert.Spec.b11 A11 $l :=
    b11_eq $l $l rfl A11 _ _ _)
  let c13 ← `(theorem $(nm "Wn1_at") (A12 : FVec Ideal S4x256x128 .f32) (k : Fin 256) (c : Fin 128) :
      shapeCast S256x128 (extractStridedSlice S1x256x128 ![$l, 0, 0] A12 $(sc "slices_S4x256x128_S1x256x128" "0_0")) shapeCasts_S1x256x128_S256x128 (ix2 k c)
        = A12 (ix3 ($l : Fin 4) k c) :=
    layer_apply $l $l rfl A12 _ _ k c)
  let c14 ← `(theorem $(nm "Wn1top") (A12 : FVec Ideal S4x256x128 .f32) (hk : ∀ i : Cert.Spec.SW.Idx, (i 0).val < 256) :
      (fun i : Cert.Spec.SW.Idx =>
          shapeCast S256x128 (extractStridedSlice S1x256x128 ![$l, 0, 0] A12 $(sc "slices_S4x256x128_S1x256x128" "0_0")) shapeCasts_S1x256x128_S256x128
            (ix2 (⟨(i 0).val, hk i⟩ : Fin 256) (i 1)))
        = Cert.Spec.wBlock A12 $l 0 (by decide) :=
    layer_top_eq $l $l rfl _ A12 _ _ hk)
  let c15 ← `(theorem $(nm "Wn1mid") (A12 : FVec Ideal S4x256x128 .f32) (hk : ∀ i : Cert.Spec.SW.Idx, 128 + (i 0).val < 256) :
      (fun i : Cert.Spec.SW.Idx =>
          shapeCast S256x128 (extractStridedSlice S1x256x128 ![$l, 0, 0] A12 $(sc "slices_S4x256x128_S1x256x128" "0_0")) shapeCasts_S1x256x128_S256x128
            (ix2 (⟨128 + (i 0).val, hk i⟩ : Fin 256) (i 1)))
        = Cert.Spec.wBlock A12 $l 128 (by decide) :=
    layer_rows_eq $l $l 128 rfl _ A12 _ _ hk)
  return ⟨Lean.mkNullNode #[c1, c2, c3, c4, c5, c6, c7, c8, c9, c10, c11, c12, c13, c14, c15]⟩

layer_pieces 0
layer_pieces 1
layer_pieces 2
layer_pieces 3

end Cert.ReferenceIdeal.RSlice
-- ==== Proof.BridgeLayer.lean ====
/-
  The two programs' host glue is the same functions, and one layer of the kernel program is one layer of the
  reference. The glue pieces (the embedding, the centred positions, the rows of the edge list, the gathers, the edge
  lengths, the aggregation, the readout) are the same operations on both sides; at the ideal instance the kernel side's
  narrowing and widening of the format are the identity. A layer then differs only inside the two stages, and there
  both sides are the specification's array forms (the kernel regions by their payloads, the reference's stages by
  reading its operations at an index), over the same pieces of the stacked weights.
-/
import proofs.«156944_j45535243272652_2_alg».proof.Proof.KStageDefs
import proofs.«156944_j45535243272652_2_alg».proof.Proof.RStageDefs
import proofs.«156944_j45535243272652_2_alg».proof.Proof.REdge
import proofs.«156944_j45535243272652_2_alg».proof.Proof.RNode
import proofs.«156944_j45535243272652_2_alg».proof.Proof.RSlice

noncomputable section

namespace Cert.Bridge

open Idealize.ShloMosaic Idealize.ShloMosaic.ValueIdx Cert.KernelIdeal

variable [Cert.ReferenceIdeal.Facts]

/-! ## Congruences of the array forms -/

theorem edgeArr_congr {hi hi' hj hj' : Cert.Spec.SE.Idx → EReal} {dist dist' : Cert.Spec.SE1.Idx → EReal}
    {w1a w1a' w1b w1b' : Cert.Spec.SW.Idx → EReal} {w1c w1c' b1 b1' : Cert.Spec.SR.Idx → EReal} {w2 w2' : Cert.Spec.SW.Idx → EReal}
    {b2 b2' : Cert.Spec.SR.Idx → EReal} {aw aw' : Cert.Spec.SC.Idx → EReal} {ab ab' : Cert.Spec.S11.Idx → EReal}
    (e1 : hi = hi') (e2 : hj = hj') (e3 : dist = dist') (e4 : w1a = w1a') (e5 : w1b = w1b') (e6 : w1c = w1c') (e7 : b1 = b1')
    (e8 : w2 = w2') (e9 : b2 = b2') (e10 : aw = aw') (e11 : ab = ab') :
    Cert.Spec.edgeArr hi hj dist w1a w1b w1c b1 w2 b2 aw ab = Cert.Spec.edgeArr hi' hj' dist' w1a' w1b' w1c' b1' w2' b2' aw' ab' := by
  subst e1 e2 e3 e4 e5 e6 e7 e8 e9 e10 e11; rfl

theorem nodeArr_congr {h h' agg agg' : Cert.Spec.SN.Idx → EReal} {w1a w1a' w1b w1b' : Cert.Spec.SW.Idx → EReal}
    {b1 b1' : Cert.Spec.SR.Idx → EReal} {w2 w2' : Cert.Spec.SW.Idx → EReal} {b2 b2' g g' b b' : Cert.Spec.SR.Idx → EReal}
    (e1 : h = h') (e2 : agg = agg') (e3 : w1a = w1a') (e4 : w1b = w1b') (e5 : b1 = b1') (e6 : w2 = w2') (e7 : b2 = b2')
    (e8 : g = g') (e9 : b = b') :
    Cert.Spec.nodeArr h agg w1a w1b b1 w2 b2 g b = Cert.Spec.nodeArr h' agg' w1a' w1b' b1' w2' b2' g' b' := by
  subst e1 e2 e3 e4 e5 e6 e7 e8 e9; rfl

theorem lt257 (i : Cert.Spec.SW.Idx) : (i 0).val < 257 := by
  have := (i 0).isLt; simp only [Matrix.cons_val_zero] at this; omega
theorem lt257' (i : Cert.Spec.SW.Idx) : 128 + (i 0).val < 257 := by
  have := (i 0).isLt; simp only [Matrix.cons_val_zero] at this; omega
theorem lt256 (i : Cert.Spec.SW.Idx) : (i 0).val < 256 := by
  have := (i 0).isLt; simp only [Matrix.cons_val_zero] at this; omega
theorem lt256' (i : Cert.Spec.SW.Idx) : 128 + (i 0).val < 256 := by
  have := (i 0).isLt; simp only [Matrix.cons_val_zero] at this; omega

/-! ## The glue pieces, side by side -/

/-- The embedding is one function on both sides. -/
theorem pH_eq (A0 : FVec Ideal S10000x11 .f32) (A4 : FVec Ideal S11x128 .f32) (A5 : FVec Ideal S128 .f32) :
    Cert.KernelIdeal.KStage.pH A0 A4 A5 = Cert.ReferenceIdeal.RStage.pH (F := Ideal) A0 A4 A5 := rfl

/-- The centred positions are one function on both sides. -/
theorem pPos_eq (A1 : FVec Ideal S10000x3 .f32) (A3 : IVec S10000 32) :
    Cert.KernelIdeal.KStage.pPos A1 A3 = Cert.ReferenceIdeal.RStage.pPos (F := Ideal) A1 A3 := rfl

theorem pSrc_eq (A2 : IVec S2x250000 32) : Cert.KernelIdeal.KStage.pSrc A2 = Cert.ReferenceIdeal.RStage.pSrc A2 := rfl
theorem pDst_eq (A2 : IVec S2x250000 32) : Cert.KernelIdeal.KStage.pDst A2 = Cert.ReferenceIdeal.RStage.pDst A2 := rfl

/-- The gathered node features: narrowing the format first changes nothing at the ideal instance. -/
theorem gatherH_eq (h : FVec Ideal S10000x128 .f32) (e : IVec S250000 32) :
    (Cert.KernelIdeal.KStage.kGatherH h e : Cert.Spec.SE.Idx → EReal) = Cert.ReferenceIdeal.RStage.eGatherH (F := Ideal) h e := rfl

/-- The edge lengths are one function on both sides. -/
theorem dist_eq (p : FVec Ideal S10000x3 .f32) (s d : IVec S250000 32) :
    (Cert.KernelIdeal.KStage.kDist p s d : Cert.Spec.SE1.Idx → EReal) = Cert.ReferenceIdeal.RStage.eDist (F := Ideal) p s d := rfl

/-- The aggregation: widening the messages first changes nothing at the ideal instance. -/
theorem agg_congr (d : IVec S250000 32) {x y : Cert.Spec.SE.Idx → EReal} (e : x = y) :
    (Cert.KernelIdeal.KStage.kAgg x d : Cert.Spec.SN.Idx → EReal) = Cert.ReferenceIdeal.RStage.rAgg (F := Ideal) d y := by
  subst e; rfl

/-- The readout is one function on both sides. -/
theorem suffix_eq (h : FVec Ideal S10000x128 .f32) (A3 : IVec S10000 32) (A18 : FVec Ideal S128x128 .f32) (A19 : FVec Ideal S128 .f32)
    (A20 : FVec Ideal S128x1 .f32) (A21 : FVec Ideal S1 .f32) :
    Cert.KernelIdeal.KStage.kSuffix h A3 A18 A19 A20 A21 = Cert.ReferenceIdeal.RStage.rSuffix (F := Ideal) h A3 A18 A19 A20 A21 := rfl

/-! ## A layer -/

/-- Layer 0 of the kernel program is layer 0 of the reference: the reference's node stage of its aggregated edge stage,
    over its own slices of the stacked weights. -/
theorem layer_eq_0 (h : FVec Ideal S10000x128 .f32) (p : FVec Ideal S10000x3 .f32) (s d : IVec S250000 32)
    (A6 : FVec Ideal S4x257x128 .f32) (A7 : FVec Ideal S4x128 .f32) (A8 : FVec Ideal S4x128x128 .f32) (A9 : FVec Ideal S4x128 .f32)
    (A10 : FVec Ideal S4x128x1 .f32) (A11 : FVec Ideal S4x1 .f32) (A12 : FVec Ideal S4x256x128 .f32) (A13 : FVec Ideal S4x128 .f32)
    (A14 : FVec Ideal S4x128x128 .f32) (A15 A16 A17 : FVec Ideal S4x128 .f32) :
    Cert.KernelIdeal.KStage.kLayer 0 h p s d A6 A7 A8 A9 A10 A11 A12 A13 A14 A15 A16 A17
      = Cert.ReferenceIdeal.RNode.term (F := Ideal) h
          (Cert.ReferenceIdeal.RStage.rAgg (F := Ideal) d
            (Cert.ReferenceIdeal.REdge.term (F := Ideal) (Cert.ReferenceIdeal.RStage.eGatherH (F := Ideal) h d) (Cert.ReferenceIdeal.RStage.eGatherH (F := Ideal) h s) (Cert.ReferenceIdeal.RStage.eDist (F := Ideal) p s d)
              (Cert.ReferenceIdeal.RStage.sliceW1_0 A6) (Cert.ReferenceIdeal.RStage.sliceV_0 A7) (Cert.ReferenceIdeal.RStage.sliceW_0 A8) (Cert.ReferenceIdeal.RStage.sliceV_0 A9) (Cert.ReferenceIdeal.RStage.sliceAw_0 A10) (Cert.ReferenceIdeal.RStage.sliceAb_0 A11)))
          (Cert.ReferenceIdeal.RStage.sliceWn1_0 A12) (Cert.ReferenceIdeal.RStage.sliceV_0 A13) (Cert.ReferenceIdeal.RStage.sliceW_0 A14) (Cert.ReferenceIdeal.RStage.sliceV_0 A15) (Cert.ReferenceIdeal.RStage.sliceV_0 A16) (Cert.ReferenceIdeal.RStage.sliceV_0 A17) := by
  rw [Cert.ReferenceIdeal.RNode.term_eq, Cert.ReferenceIdeal.REdge.term_eq]
  unfold Cert.KernelIdeal.KStage.kLayer Cert.KernelIdeal.KStage.kEdge
  refine nodeArr_congr rfl (agg_congr d (edgeArr_congr (gatherH_eq h d) (gatherH_eq h s) (dist_eq p s d) ?_ ?_ ?_ ?_ ?_ ?_ ?_ ?_)) ?_ ?_ ?_ ?_ ?_ ?_ ?_
  · exact (Cert.ReferenceIdeal.RSlice.W1top_0 A6 lt257).symm
  · exact (Cert.ReferenceIdeal.RSlice.W1mid_0 A6 lt257').symm
  · exact (Cert.ReferenceIdeal.RSlice.W1last_0 A6 (by decide)).symm
  · exact (Cert.ReferenceIdeal.RSlice.bvec_0 A7).symm
  · exact (Cert.ReferenceIdeal.RSlice.W2_0 A8).symm
  · exact (Cert.ReferenceIdeal.RSlice.bvec_0 A9).symm
  · exact (Cert.ReferenceIdeal.RSlice.aw_0 A10).symm
  · exact (Cert.ReferenceIdeal.RSlice.abv_0 A11).symm
  · exact (Cert.ReferenceIdeal.RSlice.Wn1top_0 A12 lt256).symm
  · exact (Cert.ReferenceIdeal.RSlice.Wn1mid_0 A12 lt256').symm
  · exact (Cert.ReferenceIdeal.RSlice.bvec_0 A13).symm
  · exact (Cert.ReferenceIdeal.RSlice.W2_0 A14).symm
  · exact (Cert.ReferenceIdeal.RSlice.bvec_0 A15).symm
  · exact (Cert.ReferenceIdeal.RSlice.bvec_0 A16).symm
  · exact (Cert.ReferenceIdeal.RSlice.bvec_0 A17).symm

/-- Layer 1 of the kernel program is layer 1 of the reference: the reference's node stage of its aggregated edge stage,
    over its own slices of the stacked weights. -/
theorem layer_eq_1 (h : FVec Ideal S10000x128 .f32) (p : FVec Ideal S10000x3 .f32) (s d : IVec S250000 32)
    (A6 : FVec Ideal S4x257x128 .f32) (A7 : FVec Ideal S4x128 .f32) (A8 : FVec Ideal S4x128x128 .f32) (A9 : FVec Ideal S4x128 .f32)
    (A10 : FVec Ideal S4x128x1 .f32) (A11 : FVec Ideal S4x1 .f32) (A12 : FVec Ideal S4x256x128 .f32) (A13 : FVec Ideal S4x128 .f32)
    (A14 : FVec Ideal S4x128x128 .f32) (A15 A16 A17 : FVec Ideal S4x128 .f32) :
    Cert.KernelIdeal.KStage.kLayer 1 h p s d A6 A7 A8 A9 A10 A11 A12 A13 A14 A15 A16 A17
      = Cert.ReferenceIdeal.RNode.term (F := Ideal) h
          (Cert.ReferenceIdeal.RStage.rAgg (F := Ideal) d
            (Cert.ReferenceIdeal.REdge.term (F := Ideal) (Cert.ReferenceIdeal.RStage.eGatherH (F := Ideal) h d) (Cert.ReferenceIdeal.RStage.eGatherH (F := Ideal) h s) (Cert.ReferenceIdeal.RStage.eDist (F := Ideal) p s d)
              (Cert.ReferenceIdeal.RStage.sliceW1_1 A6) (Cert.ReferenceIdeal.RStage.sliceV_1 A7) (Cert.ReferenceIdeal.RStage.sliceW_1 A8) (Cert.ReferenceIdeal.RStage.sliceV_1 A9) (Cert.ReferenceIdeal.RStage.sliceAw_1 A10) (Cert.ReferenceIdeal.RStage.sliceAb_1 A11)))
          (Cert.ReferenceIdeal.RStage.sliceWn1_1 A12) (Cert.ReferenceIdeal.RStage.sliceV_1 A13) (Cert.ReferenceIdeal.RStage.sliceW_1 A14) (Cert.ReferenceIdeal.RStage.sliceV_1 A15) (Cert.ReferenceIdeal.RStage.sliceV_1 A16) (Cert.ReferenceIdeal.RStage.sliceV_1 A17) := by
  rw [Cert.ReferenceIdeal.RNode.term_eq, Cert.ReferenceIdeal.REdge.term_eq]
  unfold Cert.KernelIdeal.KStage.kLayer Cert.KernelIdeal.KStage.kEdge
  refine nodeArr_congr rfl (agg_congr d (edgeArr_congr (gatherH_eq h d) (gatherH_eq h s) (dist_eq p s d) ?_ ?_ ?_ ?_ ?_ ?_ ?_ ?_)) ?_ ?_ ?_ ?_ ?_ ?_ ?_
  · exact (Cert.ReferenceIdeal.RSlice.W1top_1 A6 lt257).symm
  · exact (Cert.ReferenceIdeal.RSlice.W1mid_1 A6 lt257').symm
  · exact (Cert.ReferenceIdeal.RSlice.W1last_1 A6 (by decide)).symm
  · exact (Cert.ReferenceIdeal.RSlice.bvec_1 A7).symm
  · exact (Cert.ReferenceIdeal.RSlice.W2_1 A8).symm
  · exact (Cert.ReferenceIdeal.RSlice.bvec_1 A9).symm
  · exact (Cert.ReferenceIdeal.RSlice.aw_1 A10).symm
  · exact (Cert.ReferenceIdeal.RSlice.abv_1 A11).symm
  · exact (Cert.ReferenceIdeal.RSlice.Wn1top_1 A12 lt256).symm
  · exact (Cert.ReferenceIdeal.RSlice.Wn1mid_1 A12 lt256').symm
  · exact (Cert.ReferenceIdeal.RSlice.bvec_1 A13).symm
  · exact (Cert.ReferenceIdeal.RSlice.W2_1 A14).symm
  · exact (Cert.ReferenceIdeal.RSlice.bvec_1 A15).symm
  · exact (Cert.ReferenceIdeal.RSlice.bvec_1 A16).symm
  · exact (Cert.ReferenceIdeal.RSlice.bvec_1 A17).symm

/-- Layer 2 of the kernel program is layer 2 of the reference: the reference's node stage of its aggregated edge stage,
    over its own slices of the stacked weights. -/
theorem layer_eq_2 (h : FVec Ideal S10000x128 .f32) (p : FVec Ideal S10000x3 .f32) (s d : IVec S250000 32)
    (A6 : FVec Ideal S4x257x128 .f32) (A7 : FVec Ideal S4x128 .f32) (A8 : FVec Ideal S4x128x128 .f32) (A9 : FVec Ideal S4x128 .f32)
    (A10 : FVec Ideal S4x128x1 .f32) (A11 : FVec Ideal S4x1 .f32) (A12 : FVec Ideal S4x256x128 .f32) (A13 : FVec Ideal S4x128 .f32)
    (A14 : FVec Ideal S4x128x128 .f32) (A15 A16 A17 : FVec Ideal S4x128 .f32) :
    Cert.KernelIdeal.KStage.kLayer 2 h p s d A6 A7 A8 A9 A10 A11 A12 A13 A14 A15 A16 A17
      = Cert.ReferenceIdeal.RNode.term (F := Ideal) h
          (Cert.ReferenceIdeal.RStage.rAgg (F := Ideal) d
            (Cert.ReferenceIdeal.REdge.term (F := Ideal) (Cert.ReferenceIdeal.RStage.eGatherH (F := Ideal) h d) (Cert.ReferenceIdeal.RStage.eGatherH (F := Ideal) h s) (Cert.ReferenceIdeal.RStage.eDist (F := Ideal) p s d)
              (Cert.ReferenceIdeal.RStage.sliceW1_2 A6) (Cert.ReferenceIdeal.RStage.sliceV_2 A7) (Cert.ReferenceIdeal.RStage.sliceW_2 A8) (Cert.ReferenceIdeal.RStage.sliceV_2 A9) (Cert.ReferenceIdeal.RStage.sliceAw_2 A10) (Cert.ReferenceIdeal.RStage.sliceAb_2 A11)))
          (Cert.ReferenceIdeal.RStage.sliceWn1_2 A12) (Cert.ReferenceIdeal.RStage.sliceV_2 A13) (Cert.ReferenceIdeal.RStage.sliceW_2 A14) (Cert.ReferenceIdeal.RStage.sliceV_2 A15) (Cert.ReferenceIdeal.RStage.sliceV_2 A16) (Cert.ReferenceIdeal.RStage.sliceV_2 A17) := by
  rw [Cert.ReferenceIdeal.RNode.term_eq, Cert.ReferenceIdeal.REdge.term_eq]
  unfold Cert.KernelIdeal.KStage.kLayer Cert.KernelIdeal.KStage.kEdge
  refine nodeArr_congr rfl (agg_congr d (edgeArr_congr (gatherH_eq h d) (gatherH_eq h s) (dist_eq p s d) ?_ ?_ ?_ ?_ ?_ ?_ ?_ ?_)) ?_ ?_ ?_ ?_ ?_ ?_ ?_
  · exact (Cert.ReferenceIdeal.RSlice.W1top_2 A6 lt257).symm
  · exact (Cert.ReferenceIdeal.RSlice.W1mid_2 A6 lt257').symm
  · exact (Cert.ReferenceIdeal.RSlice.W1last_2 A6 (by decide)).symm
  · exact (Cert.ReferenceIdeal.RSlice.bvec_2 A7).symm
  · exact (Cert.ReferenceIdeal.RSlice.W2_2 A8).symm
  · exact (Cert.ReferenceIdeal.RSlice.bvec_2 A9).symm
  · exact (Cert.ReferenceIdeal.RSlice.aw_2 A10).symm
  · exact (Cert.ReferenceIdeal.RSlice.abv_2 A11).symm
  · exact (Cert.ReferenceIdeal.RSlice.Wn1top_2 A12 lt256).symm
  · exact (Cert.ReferenceIdeal.RSlice.Wn1mid_2 A12 lt256').symm
  · exact (Cert.ReferenceIdeal.RSlice.bvec_2 A13).symm
  · exact (Cert.ReferenceIdeal.RSlice.W2_2 A14).symm
  · exact (Cert.ReferenceIdeal.RSlice.bvec_2 A15).symm
  · exact (Cert.ReferenceIdeal.RSlice.bvec_2 A16).symm
  · exact (Cert.ReferenceIdeal.RSlice.bvec_2 A17).symm

/-- Layer 3 of the kernel program is layer 3 of the reference: the reference's node stage of its aggregated edge stage,
    over its own slices of the stacked weights. -/
theorem layer_eq_3 (h : FVec Ideal S10000x128 .f32) (p : FVec Ideal S10000x3 .f32) (s d : IVec S250000 32)
    (A6 : FVec Ideal S4x257x128 .f32) (A7 : FVec Ideal S4x128 .f32) (A8 : FVec Ideal S4x128x128 .f32) (A9 : FVec Ideal S4x128 .f32)
    (A10 : FVec Ideal S4x128x1 .f32) (A11 : FVec Ideal S4x1 .f32) (A12 : FVec Ideal S4x256x128 .f32) (A13 : FVec Ideal S4x128 .f32)
    (A14 : FVec Ideal S4x128x128 .f32) (A15 A16 A17 : FVec Ideal S4x128 .f32) :
    Cert.KernelIdeal.KStage.kLayer 3 h p s d A6 A7 A8 A9 A10 A11 A12 A13 A14 A15 A16 A17
      = Cert.ReferenceIdeal.RNode.term (F := Ideal) h
          (Cert.ReferenceIdeal.RStage.rAgg (F := Ideal) d
            (Cert.ReferenceIdeal.REdge.term (F := Ideal) (Cert.ReferenceIdeal.RStage.eGatherH (F := Ideal) h d) (Cert.ReferenceIdeal.RStage.eGatherH (F := Ideal) h s) (Cert.ReferenceIdeal.RStage.eDist (F := Ideal) p s d)
              (Cert.ReferenceIdeal.RStage.sliceW1_3 A6) (Cert.ReferenceIdeal.RStage.sliceV_3 A7) (Cert.ReferenceIdeal.RStage.sliceW_3 A8) (Cert.ReferenceIdeal.RStage.sliceV_3 A9) (Cert.ReferenceIdeal.RStage.sliceAw_3 A10) (Cert.ReferenceIdeal.RStage.sliceAb_3 A11)))
          (Cert.ReferenceIdeal.RStage.sliceWn1_3 A12) (Cert.ReferenceIdeal.RStage.sliceV_3 A13) (Cert.ReferenceIdeal.RStage.sliceW_3 A14) (Cert.ReferenceIdeal.RStage.sliceV_3 A15) (Cert.ReferenceIdeal.RStage.sliceV_3 A16) (Cert.ReferenceIdeal.RStage.sliceV_3 A17) := by
  rw [Cert.ReferenceIdeal.RNode.term_eq, Cert.ReferenceIdeal.REdge.term_eq]
  unfold Cert.KernelIdeal.KStage.kLayer Cert.KernelIdeal.KStage.kEdge
  refine nodeArr_congr rfl (agg_congr d (edgeArr_congr (gatherH_eq h d) (gatherH_eq h s) (dist_eq p s d) ?_ ?_ ?_ ?_ ?_ ?_ ?_ ?_)) ?_ ?_ ?_ ?_ ?_ ?_ ?_
  · exact (Cert.ReferenceIdeal.RSlice.W1top_3 A6 lt257).symm
  · exact (Cert.ReferenceIdeal.RSlice.W1mid_3 A6 lt257').symm
  · exact (Cert.ReferenceIdeal.RSlice.W1last_3 A6 (by decide)).symm
  · exact (Cert.ReferenceIdeal.RSlice.bvec_3 A7).symm
  · exact (Cert.ReferenceIdeal.RSlice.W2_3 A8).symm
  · exact (Cert.ReferenceIdeal.RSlice.bvec_3 A9).symm
  · exact (Cert.ReferenceIdeal.RSlice.aw_3 A10).symm
  · exact (Cert.ReferenceIdeal.RSlice.abv_3 A11).symm
  · exact (Cert.ReferenceIdeal.RSlice.Wn1top_3 A12 lt256).symm
  · exact (Cert.ReferenceIdeal.RSlice.Wn1mid_3 A12 lt256').symm
  · exact (Cert.ReferenceIdeal.RSlice.bvec_3 A13).symm
  · exact (Cert.ReferenceIdeal.RSlice.W2_3 A14).symm
  · exact (Cert.ReferenceIdeal.RSlice.bvec_3 A15).symm
  · exact (Cert.ReferenceIdeal.RSlice.bvec_3 A16).symm
  · exact (Cert.ReferenceIdeal.RSlice.bvec_3 A17).symm

end Cert.Bridge

end
-- ==== Proof.Bridge.lean ====
/-
  The two programs compute one function. Walking both programs in step — the prefix, the four layers, the readout —
  the features each leaves at a stage's end are equal: the prefix and the readout are the same operations, and a layer
  of the kernel program (its two kernels as the specification's array forms) is the reference's layer
  (`BridgeLayer`). So the kernel program's result buffer at its last boundary holds what the reference's operation
  list leaves in the reference's result buffer, when the two launch memories agree on the arguments.
-/
import proofs.«156944_j45535243272652_2_alg».proof.Proof.KStage
import proofs.«156944_j45535243272652_2_alg».proof.Proof.RStage
import proofs.«156944_j45535243272652_2_alg».proof.Proof.BridgeLayer

noncomputable section

namespace Cert.Bridge

open Idealize.ShloMosaic Idealize.ShloMosaic.TcCoe Idealize.SL.Sem Idealize.ShloMosaic.StableHlo
open Cert.ReferenceIdeal.RRun (opsP opsL0e opsL0n opsL1e opsL1n opsL2e opsL2n opsL3e opsL3n opsS)

variable [Cert.ReferenceIdeal.Facts]

set_option maxRecDepth 16384 in
set_option maxHeartbeats 8000000 in
/-- From launch memories that agree on the arguments, the reference's operation list leaves in its result buffer
    what the kernel program's last boundary holds in its own. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    after (Cert.ReferenceIdeal.RRun.ops (F := Ideal)) (launchContents m' c) (Cert.ReferenceIdeal.main_v483 : DevRef Cert.ReferenceIdeal.τ Cert.ReferenceIdeal.sig)
      = Cert.KernelIdeal.GenP.W29 m ρ c (Proc.devRef .tc Cert.KernelIdeal.main_v343) := by
  have A0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := hag.1
  have A1 : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := hag.2.1
  have A2 : launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := hag.2.2.1
  have A3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := hag.2.2.2.1
  have A4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := hag.2.2.2.2.1
  have A5 : launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := hag.2.2.2.2.2.1
  have A6 : launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := hag.2.2.2.2.2.2.1
  have A7 : launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7) := hag.2.2.2.2.2.2.2.1
  have A8 : launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8) := hag.2.2.2.2.2.2.2.2.1
  have A9 : launchContents m' c (Cert.ReferenceIdeal.main_arg9 : DevRef Cert.ReferenceIdeal.τ Cert.ReferenceIdeal.sig) = m ((c.tc : Thread Cert.KernelIdeal.nD Cert.KernelIdeal.τ).loc Cert.KernelIdeal.main_arg9) := hag.2.2.2.2.2.2.2.2.2.1
  have A10 : launchContents m' c (Cert.ReferenceIdeal.main_arg10 : DevRef Cert.ReferenceIdeal.τ Cert.ReferenceIdeal.sig) = m ((c.tc : Thread Cert.KernelIdeal.nD Cert.KernelIdeal.τ).loc Cert.KernelIdeal.main_arg10) := hag.2.2.2.2.2.2.2.2.2.2.1
  have A11 : launchContents m' c (Cert.ReferenceIdeal.main_arg11 : DevRef Cert.ReferenceIdeal.τ Cert.ReferenceIdeal.sig) = m ((c.tc : Thread Cert.KernelIdeal.nD Cert.KernelIdeal.τ).loc Cert.KernelIdeal.main_arg11) := hag.2.2.2.2.2.2.2.2.2.2.2.1
  have A12 : launchContents m' c (Cert.ReferenceIdeal.main_arg12 : DevRef Cert.ReferenceIdeal.τ Cert.ReferenceIdeal.sig) = m ((c.tc : Thread Cert.KernelIdeal.nD Cert.KernelIdeal.τ).loc Cert.KernelIdeal.main_arg12) := hag.2.2.2.2.2.2.2.2.2.2.2.2.1
  have A13 : launchContents m' c (Cert.ReferenceIdeal.main_arg13 : DevRef Cert.ReferenceIdeal.τ Cert.ReferenceIdeal.sig) = m ((c.tc : Thread Cert.KernelIdeal.nD Cert.KernelIdeal.τ).loc Cert.KernelIdeal.main_arg13) := hag.2.2.2.2.2.2.2.2.2.2.2.2.2.1
  have A14 : launchContents m' c (Cert.ReferenceIdeal.main_arg14 : DevRef Cert.ReferenceIdeal.τ Cert.ReferenceIdeal.sig) = m ((c.tc : Thread Cert.KernelIdeal.nD Cert.KernelIdeal.τ).loc Cert.KernelIdeal.main_arg14) := hag.2.2.2.2.2.2.2.2.2.2.2.2.2.2.1
  have A15 : launchContents m' c (Cert.ReferenceIdeal.main_arg15 : DevRef Cert.ReferenceIdeal.τ Cert.ReferenceIdeal.sig) = m ((c.tc : Thread Cert.KernelIdeal.nD Cert.KernelIdeal.τ).loc Cert.KernelIdeal.main_arg15) := hag.2.2.2.2.2.2.2.2.2.2.2.2.2.2.2.1
  have A16 : launchContents m' c (Cert.ReferenceIdeal.main_arg16 : DevRef Cert.ReferenceIdeal.τ Cert.ReferenceIdeal.sig) = m ((c.tc : Thread Cert.KernelIdeal.nD Cert.KernelIdeal.τ).loc Cert.KernelIdeal.main_arg16) := hag.2.2.2.2.2.2.2.2.2.2.2.2.2.2.2.2.1
  have A17 : launchContents m' c (Cert.ReferenceIdeal.main_arg17 : DevRef Cert.ReferenceIdeal.τ Cert.ReferenceIdeal.sig) = m ((c.tc : Thread Cert.KernelIdeal.nD Cert.KernelIdeal.τ).loc Cert.KernelIdeal.main_arg17) := hag.2.2.2.2.2.2.2.2.2.2.2.2.2.2.2.2.2.1
  have A18 : launchContents m' c (Cert.ReferenceIdeal.main_arg18 : DevRef Cert.ReferenceIdeal.τ Cert.ReferenceIdeal.sig) = m ((c.tc : Thread Cert.KernelIdeal.nD Cert.KernelIdeal.τ).loc Cert.KernelIdeal.main_arg18) := hag.2.2.2.2.2.2.2.2.2.2.2.2.2.2.2.2.2.2.1
  have A19 : launchContents m' c (Cert.ReferenceIdeal.main_arg19 : DevRef Cert.ReferenceIdeal.τ Cert.ReferenceIdeal.sig) = m ((c.tc : Thread Cert.KernelIdeal.nD Cert.KernelIdeal.τ).loc Cert.KernelIdeal.main_arg19) := hag.2.2.2.2.2.2.2.2.2.2.2.2.2.2.2.2.2.2.2.1
  have A20 : launchContents m' c (Cert.ReferenceIdeal.main_arg20 : DevRef Cert.ReferenceIdeal.τ Cert.ReferenceIdeal.sig) = m ((c.tc : Thread Cert.KernelIdeal.nD Cert.KernelIdeal.τ).loc Cert.KernelIdeal.main_arg20) := hag.2.2.2.2.2.2.2.2.2.2.2.2.2.2.2.2.2.2.2.2.1
  have A21 : launchContents m' c (Cert.ReferenceIdeal.main_arg21 : DevRef Cert.ReferenceIdeal.τ Cert.ReferenceIdeal.sig) = m ((c.tc : Thread Cert.KernelIdeal.nD Cert.KernelIdeal.τ).loc Cert.KernelIdeal.main_arg21) := hag.2.2.2.2.2.2.2.2.2.2.2.2.2.2.2.2.2.2.2.2.2
  generalize launchContents m' c = V0 at A0 A1 A2 A3 A4 A5 A6 A7 A8 A9 A10 A11 A12 A13 A14 A15 A16 A17 A18 A19 A20 A21 ⊢
  have e0 : after opsP V0 (Cert.ReferenceIdeal.main_v4 : DevRef Cert.ReferenceIdeal.τ Cert.ReferenceIdeal.sig) = Cert.KernelIdeal.GenP.W5 m ρ c (Proc.devRef .tc Cert.KernelIdeal.main_v4) := by
    rw [Cert.ReferenceIdeal.RStage.h0 V0, Cert.KernelIdeal.KStage.h0 m ρ c, A0, A4, A5]
    exact (pH_eq _ _ _).symm
  have e1 : after (opsP ++ opsL0e ++ opsL0n) V0 (Cert.ReferenceIdeal.main_v136 : DevRef Cert.ReferenceIdeal.τ Cert.ReferenceIdeal.sig) = Cert.KernelIdeal.GenP.W8 m ρ c (Proc.devRef .tc Cert.KernelIdeal.main_v101) := by
    rw [Cert.ReferenceIdeal.RStage.layer0 V0, Cert.KernelIdeal.KStage.layer0 m ρ c, e0, A1, A2, A3, A6, A7, A8, A9, A10, A11, A12, A13, A14, A15, A16, A17]
    exact (layer_eq_0 _ _ _ _ _ _ _ _ _ _ _ _ _ _ _ _).symm
  have e2 : after (opsP ++ opsL0e ++ opsL0n ++ opsL1e ++ opsL1n) V0 (Cert.ReferenceIdeal.main_v245 : DevRef Cert.ReferenceIdeal.τ Cert.ReferenceIdeal.sig) = Cert.KernelIdeal.GenP.W14 m ρ c (Proc.devRef .tc Cert.KernelIdeal.main_v175) := by
    rw [Cert.ReferenceIdeal.RStage.layer1 V0, Cert.KernelIdeal.KStage.layer1 m ρ c, e1, A1, A2, A3, A6, A7, A8, A9, A10, A11, A12, A13, A14, A15, A16, A17]
    exact (layer_eq_1 _ _ _ _ _ _ _ _ _ _ _ _ _ _ _ _).symm
  have e3 : after (opsP ++ opsL0e ++ opsL0n ++ opsL1e ++ opsL1n ++ opsL2e ++ opsL2n) V0 (Cert.ReferenceIdeal.main_v354 : DevRef Cert.ReferenceIdeal.τ Cert.ReferenceIdeal.sig) = Cert.KernelIdeal.GenP.W20 m ρ c (Proc.devRef .tc Cert.KernelIdeal.main_v249) := by
    rw [Cert.ReferenceIdeal.RStage.layer2 V0, Cert.KernelIdeal.KStage.layer2 m ρ c, e2, A1, A2, A3, A6, A7, A8, A9, A10, A11, A12, A13, A14, A15, A16, A17]
    exact (layer_eq_2 _ _ _ _ _ _ _ _ _ _ _ _ _ _ _ _).symm
  have e4 : after (opsP ++ opsL0e ++ opsL0n ++ opsL1e ++ opsL1n ++ opsL2e ++ opsL2n ++ opsL3e ++ opsL3n) V0 (Cert.ReferenceIdeal.main_v463 : DevRef Cert.ReferenceIdeal.τ Cert.ReferenceIdeal.sig) = Cert.KernelIdeal.GenP.W26 m ρ c (Proc.devRef .tc Cert.KernelIdeal.main_v323) := by
    rw [Cert.ReferenceIdeal.RStage.layer3 V0, Cert.KernelIdeal.KStage.layer3 m ρ c, e3, A1, A2, A3, A6, A7, A8, A9, A10, A11, A12, A13, A14, A15, A16, A17]
    exact (layer_eq_3 _ _ _ _ _ _ _ _ _ _ _ _ _ _ _ _).symm
  rw [Cert.ReferenceIdeal.RStage.out V0, Cert.KernelIdeal.KStage.out m ρ c, e4, A3, A18, A19, A20, A21]
  exact (suffix_eq _ _ _ _ _ _).symm

end Cert.Bridge

end
-- ==== Proof.lean ====
/-
  The certificate of a four-layer message-passing network: each layer an edge kernel (two products with the gathered
  node features and the edge length, two gated activations, an attention gate) and a node kernel (two products with
  the features and the aggregated messages, a residual, a layer normalisation), around them gathers, segment sums
  and weight slices on the host — against the same network written with plain array operations.

  Over the extended reals the two agree. The kernel splits the first edge product into three parts where the
  reference multiplies the concatenated row (a sum over 257 terms is the three partial sums); it multiplies by the
  reciprocal root where the reference divides by the root (equal because the variance plus a positive epsilon is
  positive or infinite, whatever the inputs); its narrowings of the format are the identity; the reference's variance
  routine's guard (a count greater than zero) is true. Everything else is the same operations in the same order.

  The frames of the two kernel programs are the generated ones (read in patched copies that raise a heartbeat limit); the reference's frame is its run with the result
  dropped; nothing was rewritten by the idealization, so `preserves` is trivial; the value claim is the kernel
  program's run with its result named, the reference's run, and the equality of the two values (`Bridge`).
-/
import proofs.«156944_j45535243272652_2_alg».proof.Defs
import proofs.«156944_j45535243272652_2_alg».proof.Proof.Gen.Kernel
import proofs.«156944_j45535243272652_2_alg».proof.Proof.FrameK
import proofs.«156944_j45535243272652_2_alg».proof.Proof.Gen.KernelIdeal
import proofs.«156944_j45535243272652_2_alg».proof.Proof.FrameKI
import proofs.«156944_j45535243272652_2_alg».proof.Proof.Gen.ReferenceIdeal
import proofs.«156944_j45535243272652_2_alg».proof.Proof.Gen.Pre_finite_inputs
import proofs.«156944_j45535243272652_2_alg».proof.Proof.KRun
import proofs.«156944_j45535243272652_2_alg».proof.Proof.RRun
import proofs.«156944_j45535243272652_2_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel program runs and leaves its arguments as launched: the generated frame. -/
theorem frame_k : Cert.frame_Kernel := fun m ρ _ => Cert.Kernel.GenP.frame m ρ

/-- The idealized kernel program likewise. -/
theorem frame_ki : Cert.frame_KernelIdeal := fun m ρ _ => Cert.KernelIdeal.GenP.frame m ρ

/-- The reference runs and leaves its arguments as launched: its run, each argument's buffer read through the
    operation list, which never writes an argument. -/
theorem frame_ri : Cert.frame_ReferenceIdeal := fun m ρ _ =>
  (θ_run (Cert.ReferenceIdeal.defs (F := Ideal)) _ _).mono (fun r h c =>
    ⟨(h c Cert.ReferenceIdeal.main_arg0).trans (Cert.ReferenceIdeal.RRun.after_ops_main_arg0 _),
      (h c Cert.ReferenceIdeal.main_arg1).trans (Cert.ReferenceIdeal.RRun.after_ops_main_arg1 _),
      (h c Cert.ReferenceIdeal.main_arg2).trans (Cert.ReferenceIdeal.RRun.after_ops_main_arg2 _),
      (h c Cert.ReferenceIdeal.main_arg3).trans (Cert.ReferenceIdeal.RRun.after_ops_main_arg3 _),
      (h c Cert.ReferenceIdeal.main_arg4).trans (Cert.ReferenceIdeal.RRun.after_ops_main_arg4 _),
      (h c Cert.ReferenceIdeal.main_arg5).trans (Cert.ReferenceIdeal.RRun.after_ops_main_arg5 _),
      (h c Cert.ReferenceIdeal.main_arg6).trans (Cert.ReferenceIdeal.RRun.after_ops_main_arg6 _),
      (h c Cert.ReferenceIdeal.main_arg7).trans (Cert.ReferenceIdeal.RRun.after_ops_main_arg7 _),
      (h c Cert.ReferenceIdeal.main_arg8).trans (Cert.ReferenceIdeal.RRun.after_ops_main_arg8 _),
      (h c Cert.ReferenceIdeal.main_arg9).trans (Cert.ReferenceIdeal.RRun.after_ops_main_arg9 _),
      (h c Cert.ReferenceIdeal.main_arg10).trans (Cert.ReferenceIdeal.RRun.after_ops_main_arg10 _),
      (h c Cert.ReferenceIdeal.main_arg11).trans (Cert.ReferenceIdeal.RRun.after_ops_main_arg11 _),
      (h c Cert.ReferenceIdeal.main_arg12).trans (Cert.ReferenceIdeal.RRun.after_ops_main_arg12 _),
      (h c Cert.ReferenceIdeal.main_arg13).trans (Cert.ReferenceIdeal.RRun.after_ops_main_arg13 _),
      (h c Cert.ReferenceIdeal.main_arg14).trans (Cert.ReferenceIdeal.RRun.after_ops_main_arg14 _),
      (h c Cert.ReferenceIdeal.main_arg15).trans (Cert.ReferenceIdeal.RRun.after_ops_main_arg15 _),
      (h c Cert.ReferenceIdeal.main_arg16).trans (Cert.ReferenceIdeal.RRun.after_ops_main_arg16 _),
      (h c Cert.ReferenceIdeal.main_arg17).trans (Cert.ReferenceIdeal.RRun.after_ops_main_arg17 _),
      (h c Cert.ReferenceIdeal.main_arg18).trans (Cert.ReferenceIdeal.RRun.after_ops_main_arg18 _),
      (h c Cert.ReferenceIdeal.main_arg19).trans (Cert.ReferenceIdeal.RRun.after_ops_main_arg19 _),
      (h c Cert.ReferenceIdeal.main_arg20).trans (Cert.ReferenceIdeal.RRun.after_ops_main_arg20 _),
      (h c Cert.ReferenceIdeal.main_arg21).trans (Cert.ReferenceIdeal.RRun.after_ops_main_arg21 _)⟩)
    (Cert.ReferenceIdeal.RRun.run (F := Ideal) m ρ)

/-- Both idealized programs run, to equal results: the kernel program's result is its last boundary's contents, the
    reference's is its operation list's fold, and the two are one value when the launch memories agree. -/
theorem algebraic : Cert.algebraic_KernelIdeal_ReferenceIdeal := by
  intro m ρ m' ρ' _ hagree
  refine ⟨fun c => Cert.KernelIdeal.GenP.W29 m ρ c (Proc.devRef .tc Cert.KernelIdeal.main_v343), Cert.KernelIdeal.KRun.run (F := Ideal) m ρ, ?_⟩
  refine (θ_run (Cert.ReferenceIdeal.defs (F := Ideal)) _ _).mono (fun r h c => ⟨?_, ?_⟩) (Cert.ReferenceIdeal.RRun.run (F := Ideal) m' ρ')
  · exact (h c Cert.ReferenceIdeal.main_v483).trans (Cert.Bridge.value_eq m ρ m' c (hagree c))
  · exact ⟨(h c Cert.ReferenceIdeal.main_arg0).trans (Cert.ReferenceIdeal.RRun.after_ops_main_arg0 _),
      (h c Cert.ReferenceIdeal.main_arg1).trans (Cert.ReferenceIdeal.RRun.after_ops_main_arg1 _),
      (h c Cert.ReferenceIdeal.main_arg2).trans (Cert.ReferenceIdeal.RRun.after_ops_main_arg2 _),
      (h c Cert.ReferenceIdeal.main_arg3).trans (Cert.ReferenceIdeal.RRun.after_ops_main_arg3 _),
      (h c Cert.ReferenceIdeal.main_arg4).trans (Cert.ReferenceIdeal.RRun.after_ops_main_arg4 _),
      (h c Cert.ReferenceIdeal.main_arg5).trans (Cert.ReferenceIdeal.RRun.after_ops_main_arg5 _),
      (h c Cert.ReferenceIdeal.main_arg6).trans (Cert.ReferenceIdeal.RRun.after_ops_main_arg6 _),
      (h c Cert.ReferenceIdeal.main_arg7).trans (Cert.ReferenceIdeal.RRun.after_ops_main_arg7 _),
      (h c Cert.ReferenceIdeal.main_arg8).trans (Cert.ReferenceIdeal.RRun.after_ops_main_arg8 _),
      (h c Cert.ReferenceIdeal.main_arg9).trans (Cert.ReferenceIdeal.RRun.after_ops_main_arg9 _),
      (h c Cert.ReferenceIdeal.main_arg10).trans (Cert.ReferenceIdeal.RRun.after_ops_main_arg10 _),
      (h c Cert.ReferenceIdeal.main_arg11).trans (Cert.ReferenceIdeal.RRun.after_ops_main_arg11 _),
      (h c Cert.ReferenceIdeal.main_arg12).trans (Cert.ReferenceIdeal.RRun.after_ops_main_arg12 _),
      (h c Cert.ReferenceIdeal.main_arg13).trans (Cert.ReferenceIdeal.RRun.after_ops_main_arg13 _),
      (h c Cert.ReferenceIdeal.main_arg14).trans (Cert.ReferenceIdeal.RRun.after_ops_main_arg14 _),
      (h c Cert.ReferenceIdeal.main_arg15).trans (Cert.ReferenceIdeal.RRun.after_ops_main_arg15 _),
      (h c Cert.ReferenceIdeal.main_arg16).trans (Cert.ReferenceIdeal.RRun.after_ops_main_arg16 _),
      (h c Cert.ReferenceIdeal.main_arg17).trans (Cert.ReferenceIdeal.RRun.after_ops_main_arg17 _),
      (h c Cert.ReferenceIdeal.main_arg18).trans (Cert.ReferenceIdeal.RRun.after_ops_main_arg18 _),
      (h c Cert.ReferenceIdeal.main_arg19).trans (Cert.ReferenceIdeal.RRun.after_ops_main_arg19 _),
      (h c Cert.ReferenceIdeal.main_arg20).trans (Cert.ReferenceIdeal.RRun.after_ops_main_arg20 _),
      (h c Cert.ReferenceIdeal.main_arg21).trans (Cert.ReferenceIdeal.RRun.after_ops_main_arg21 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
